-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1000000 : Shape := ⟨2, ![2, 1000000]⟩
abbrev S1000000x5 : Shape := ⟨2, ![1000000, 5]⟩
abbrev S7x64 : Shape := ⟨2, ![7, 64]⟩
abbrev S64 : Shape := ⟨1, ![64]⟩
abbrev S5x64 : Shape := ⟨2, ![5, 64]⟩
abbrev S128x64 : Shape := ⟨2, ![128, 64]⟩
abbrev S133x64 : Shape := ⟨2, ![133, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S1000000x5 : S_.BroadcastsInDim S1000000x5 (![] : Fin 0 → Fin S1000000x5.rank)
  reducesTo_S1000000x5_S_d0_1 : S1000000x5.ReducesTo [0, 1] S_
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S5x64 : S_.BroadcastsInDim S5x64 (![] : Fin 0 → Fin S5x64.rank)
  reducesTo_S5x64_S_d0_1 : S5x64.ReducesTo [0, 1] S_
  bcast_S_S128x64 : S_.BroadcastsInDim S128x64 (![] : Fin 0 → Fin S128x64.rank)
  reducesTo_S128x64_S_d0_1 : S128x64.ReducesTo [0, 1] S_
  bcast_S_S133x64 : S_.BroadcastsInDim S133x64 (![] : Fin 0 → Fin S133x64.rank)
  reducesTo_S133x64_S_d0_1 : S133x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part8 {F : FTy → Type} [FloatOps F] (main_v133 : IVec S_ 1) (main_v136 : IVec S1 1) : IVec S_ 1 :=
  let main_c_53 : IVec S_ 1 := constantI S_ 1 1#1
  let main_v137 : IVec S_ 1 := (fun x v => Host.reduce IntOp.andi x v reducesTo_S1_S_d0 h_S_) main_v136 main_c_53
  let main_v138 : IVec S_ 1 := andi main_v133 main_v137
  main_v138

def fn_part7 {F : FTy → Type} [FloatOps F] (main_arg26 : FVec F S32 .f32) (main_arg27 : FVec F S32x1 .f32) (main_arg28 : FVec F S1 .f32) (main_v118 : IVec S_ 1) (main_v119 : FVec F S64x32 .f32) : IVec S_ 1 :=
  let main_cst_46 : FVec F S_ .f32 := constant S_ .f32 0x7F800000#32
  let main_v120 : FVec F S64x32 .f32 := broadcastInDim S64x32 ![] bcast_S_S64x32 main_cst_46
  let main_v121 : IVec S64x32 1 := cmpf .olt main_v119 main_v120
  let main_c_47 : IVec S_ 1 := constantI S_ 1 1#1
  let main_v122 : IVec S_ 1 := (fun x v => Host.reduce IntOp.andi x v reducesTo_S64x32_S_d0_1 h_S_) main_v121 main_c_47
  let main_v123 : IVec S_ 1 := andi main_v118 main_v122
  let main_v124 : FVec F S32 .f32 := Host.absf main_arg26
  let main_cst_48 : FVec F S_ .f32 := constant S_ .f32 0x7F800000#32
  let main_v125 : FVec F S32 .f32 := broadcastInDim S32 ![] bcast_S_S32 main_cst_48
  let main_v126 : IVec S32 1 := cmpf .olt main_v124 main_v125
  let main_c_49 : IVec S_ 1 := constantI S_ 1 1#1
  let main_v127 : IVec S_ 1 := (fun x v => Host.reduce IntOp.andi x v reducesTo_S32_S_d0 h_S_) main_v126 main_c_49
  let main_v128 : IVec S_ 1 := andi main_v123 main_v127
  let main_v129 : FVec F S32x1 .f32 := Host.absf main_arg27
  let main_cst_50 : FVec F S_ .f32 := constant S_ .f32 0x7F800000#32
  let main_v130 : FVec F S32x1 .f32 := broadcastInDim S32x1 ![] bcast_S_S32x1 main_cst_50
  let main_v131 : IVec S32x1 1 := cmpf .olt main_v129 main_v130
  let main_c_51 : IVec S_ 1 := constantI S_ 1 1#1
  let main_v132 : IVec S_ 1 := (fun x v => Host.reduce IntOp.andi x v reducesTo_S32x1_S_d0_1 h_S_) main_v131 main_c_51
  let main_v133 : IVec S_ 1 := andi main_v128 main_v132
  let main_v134 : FVec F S1 .f32 := Host.absf main_arg28
  let main_cst_52 : FVec F S_ .f32 := constant S_ .f32 0x7F800000#32
  let main_v135 : FVec F S1 .f32 := broadcastInDim S1 ![] bcast_S_S1 main_cst_52
  let main_v136 : IVec S1 1 := cmpf .olt main_v134 main_v135
  fn_part8 (F := F) main_v133 main_v136

def fn_part6 {F : FTy → Type} [FloatOps F] (main_arg22 : FVec F S64 .f32) (main_arg23 : FVec F S133x64 .f32) (main_arg24 : FVec F S64 .f32) (main_arg25 : FVec F S64x32 .f32) (main_arg26 : FVec F S32 .f32) (main_arg27 : FVec F S32x1 .f32) (main_arg28 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S133x64 .f32 := Host.absf main_arg23
  let main_cst_42 : FVec F S_ .f32 := constant S_ .f32 0x7F800000#32
  let main_v110 : FVec F S133x64 .f32 := broadcastInDim S133x64 ![] bcast_S_S133x64 main_cst_42
  let main_v111 : IVec S133x64 1 := cmpf .olt main_v109 main_v110
  let main_c_43 : IVec S_ 1 := constantI S_ 1 1#1
  let main_v112 : IVec S_ 1 := (fun x v => Host.reduce IntOp.andi x v reducesTo_S133x64_S_d0_1 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x32 .f32 := Host.absf main_arg25
  fn_part7 (F := F) main_arg26 main_arg27 main_arg28 main_v118 main_v119

def fn_part5 {F : FTy → Type} [FloatOps F] (main_arg19 : FVec F S128x64 .f32) (main_arg20 : FVec F S64 .f32) (main_arg21 : FVec F S64 .f32) (main_arg22 : FVec F S64 .f32) (main_arg23 : FVec F S133x64 .f32) (main_arg24 : FVec F S64 .f32) (main_arg25 : FVec F S64x32 .f32) (main_arg26 : FVec F S32 .f32) (main_arg27 : FVec F S32x1 .f32) (main_arg28 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S128x64 .f32 := Host.absf main_arg19
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg22 main_arg23 main_arg24 main_arg25 main_arg26 main_arg27 main_arg28 main_v98 main_v101 main_c_39

def fn_part4 {F : FTy → Type} [FloatOps F] (main_arg15 : FVec F S64 .f32) (main_arg16 : FVec F S64 .f32) (main_arg17 : FVec F S128x64 .f32) (main_arg18 : FVec F S64 .f32) (main_arg19 : FVec F S128x64 .f32) (main_arg20 : FVec F S64 .f32) (main_arg21 : FVec F S64 .f32) (main_arg22 : FVec F S64 .f32) (main_arg23 : FVec F S133x64 .f32) (main_arg24 : FVec F S64 .f32) (main_arg25 : FVec F S64x32 .f32) (main_arg26 : FVec F S32 .f32) (main_arg27 : FVec F S32x1 .f32) (main_arg28 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_v83 main_v84 main_cst_32

def fn_part3 {F : FTy → Type} [FloatOps F] (main_arg12 : FVec F S64 .f32) (main_arg13 : FVec F S128x64 .f32) (main_arg14 : FVec F S64 .f32) (main_arg15 : FVec F S64 .f32) (main_arg16 : FVec F S64 .f32) (main_arg17 : FVec F S128x64 .f32) (main_arg18 : FVec F S64 .f32) (main_arg19 : FVec F S128x64 .f32) (main_arg20 : FVec F S64 .f32) (main_arg21 : FVec F S64 .f32) (main_arg22 : FVec F S64 .f32) (main_arg23 : FVec F S133x64 .f32) (main_arg24 : FVec F S64 .f32) (main_arg25 : FVec F S64x32 .f32) (main_arg26 : FVec F S32 .f32) (main_arg27 : FVec F S32x1 .f32) (main_arg28 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_arg23 main_arg24 main_arg25 main_arg26 main_arg27 main_arg28 main_v63 main_v67

def fn_part2 {F : FTy → Type} [FloatOps F] (main_arg8 : FVec F S64 .f32) (main_arg9 : FVec F S64 .f32) (main_arg10 : FVec F S64 .f32) (main_arg11 : FVec F S128x64 .f32) (main_arg12 : FVec F S64 .f32) (main_arg13 : FVec F S128x64 .f32) (main_arg14 : FVec F S64 .f32) (main_arg15 : FVec F S64 .f32) (main_arg16 : FVec F S64 .f32) (main_arg17 : FVec F S128x64 .f32) (main_arg18 : FVec F S64 .f32) (main_arg19 : FVec F S128x64 .f32) (main_arg20 : FVec F S64 .f32) (main_arg21 : FVec F S64 .f32) (main_arg22 : FVec F S64 .f32) (main_arg23 : FVec F S133x64 .f32) (main_arg24 : FVec F S64 .f32) (main_arg25 : FVec F S64x32 .f32) (main_arg26 : FVec F S32 .f32) (main_arg27 : FVec F S32x1 .f32) (main_arg28 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg11
  let main_cst_18 : FVec F S_ .f32 := constant S_ .f32 0x7F800000#32
  let main_v50 : FVec F S128x64 .f32 := broadcastInDim S128x64 ![] bcast_S_S128x64 main_cst_18
  fn_part3 (F := F) main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg5 : FVec F S64 .f32) (main_arg6 : FVec F S64 .f32) (main_arg7 : FVec F S5x64 .f32) (main_arg8 : FVec F S64 .f32) (main_arg9 : FVec F S64 .f32) (main_arg10 : FVec F S64 .f32) (main_arg11 : FVec F S128x64 .f32) (main_arg12 : FVec F S64 .f32) (main_arg13 : FVec F S128x64 .f32) (main_arg14 : FVec F S64 .f32) (main_arg15 : FVec F S64 .f32) (main_arg16 : FVec F S64 .f32) (main_arg17 : FVec F S128x64 .f32) (main_arg18 : FVec F S64 .f32) (main_arg19 : FVec F S128x64 .f32) (main_arg20 : FVec F S64 .f32) (main_arg21 : FVec F S64 .f32) (main_arg22 : FVec F S64 .f32) (main_arg23 : FVec F S133x64 .f32) (main_arg24 : FVec F S64 .f32) (main_arg25 : FVec F S64x32 .f32) (main_arg26 : FVec F S32 .f32) (main_arg27 : FVec F S32x1 .f32) (main_arg28 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S5x64 .f32 := Host.absf main_arg7
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S100000x7 .f32) (main_arg1 : IVec S2x1000000 32) (main_arg2 : FVec F S1000000x5 .f32) (main_arg3 : FVec F S7x64 .f32) (main_arg4 : FVec F S64 .f32) (main_arg5 : FVec F S64 .f32) (main_arg6 : FVec F S64 .f32) (main_arg7 : FVec F S5x64 .f32) (main_arg8 : FVec F S64 .f32) (main_arg9 : FVec F S64 .f32) (main_arg10 : FVec F S64 .f32) (main_arg11 : FVec F S128x64 .f32) (main_arg12 : FVec F S64 .f32) (main_arg13 : FVec F S128x64 .f32) (main_arg14 : FVec F S64 .f32) (main_arg15 : FVec F S64 .f32) (main_arg16 : FVec F S64 .f32) (main_arg17 : FVec F S128x64 .f32) (main_arg18 : FVec F S64 .f32) (main_arg19 : FVec F S128x64 .f32) (main_arg20 : FVec F S64 .f32) (main_arg21 : FVec F S64 .f32) (main_arg22 : FVec F S64 .f32) (main_arg23 : FVec F S133x64 .f32) (main_arg24 : FVec F S64 .f32) (main_arg25 : FVec F S64x32 .f32) (main_arg26 : FVec F S32 .f32) (main_arg27 : FVec F S32x1 .f32) (main_arg28 : FVec F S1 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S1000000x5 .f32 := Host.absf main_arg2
  let main_cst_0 : FVec F S_ .f32 := constant S_ .f32 0x7F800000#32
  let main_v5 : FVec F S1000000x5 .f32 := broadcastInDim S1000000x5 ![] bcast_S_S1000000x5 main_cst_0
  let main_v6 : IVec S1000000x5 1 := cmpf .olt main_v4 main_v5
  let main_c_1 : IVec S_ 1 := constantI S_ 1 1#1
  let main_v7 : IVec S_ 1 := (fun x v => Host.reduce IntOp.andi x v reducesTo_S1000000x5_S_d0_1 h_S_) main_v6 main_c_1
  let main_v8 : IVec S_ 1 := andi main_v3 main_v7
  let main_v9 : FVec F S7x64 .f32 := Host.absf main_arg3
  let main_cst_2 : FVec F S_ .f32 := constant S_ .f32 0x7F800000#32
  let main_v10 : FVec F S7x64 .f32 := broadcastInDim S7x64 ![] bcast_S_S7x64 main_cst_2
  let main_v11 : IVec S7x64 1 := cmpf .olt main_v9 main_v10
  let main_c_3 : IVec S_ 1 := constantI S_ 1 1#1
  let main_v12 : IVec S_ 1 := (fun x v => Host.reduce IntOp.andi x v reducesTo_S7x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S100000x7 : Shape := ⟨2, ![100000, 7]⟩
abbrev S2x1000000 : Shape := ⟨2, ![2, 1000000]⟩
abbrev S1000000x5 : Shape := ⟨2, ![1000000, 5]⟩
abbrev S7x64 : Shape := ⟨2, ![7, 64]⟩
abbrev S64 : Shape := ⟨1, ![64]⟩
abbrev S5x64 : Shape := ⟨2, ![5, 64]⟩
abbrev S128x64 : Shape := ⟨2, ![128, 64]⟩
abbrev S133x64 : Shape := ⟨2, ![133, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1000000 : Shape := ⟨2, ![1, 1000000]⟩
abbrev S1000000 : Shape := ⟨1, ![1000000]⟩
abbrev S1x64 : Shape := ⟨2, ![1, 64]⟩
abbrev S100000x64 : Shape := ⟨2, ![100000, 64]⟩
abbrev S8192x7 : Shape := ⟨2, ![8192, 7]⟩
abbrev S8192x64 : Shape := ⟨2, ![8192, 64]⟩
abbrev S8192 : Shape := ⟨1, ![8192]⟩
abbrev S8192x1 : Shape := ⟨2, ![8192, 1]⟩
abbrev S1000000x64 : Shape := ⟨2, ![1000000, 64]⟩
abbrev S8192x5 : Shape := ⟨2, ![8192, 5]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S64x64 : Shape := ⟨2, ![64, 64]⟩
abbrev S4096x64 : Shape := ⟨2, ![4096, 64]⟩
abbrev S4096x1 : Shape := ⟨2, ![4096, 1]⟩
abbrev S4096 : Shape := ⟨1, ![4096]⟩
abbrev S1x32 : Shape := ⟨2, ![1, 32]⟩
abbrev S1x1 : Shape := ⟨2, ![1, 1]⟩
abbrev S4096x5 : Shape := ⟨2, ![4096, 5]⟩
abbrev S4096x32 : Shape := ⟨2, ![4096, 32]⟩

abbrev nBuf : Space → Nat
  | .hbm => 124
  | .vmem => 76
  | .smem => 0
  | _ => 0

abbrev bufTy : (tb : Table) → Fin (tcTables nBuf tb) → BufTy
  | .hbm, ⟨0, _⟩ => ⟨S100000x7, .f32⟩
  | .hbm, ⟨1, _⟩ => ⟨S2x1000000, .i32⟩
  | .hbm, ⟨2, _⟩ => ⟨S1000000x5, .f32⟩
  | .hbm, ⟨3, _⟩ => ⟨S7x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S5x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128x64, .f32⟩
  | .hbm, ⟨12, _⟩ => ⟨S64, .f32⟩
  | .hbm, ⟨13, _⟩ => ⟨S128x64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S128x64, .f32⟩
  | .hbm, ⟨18, _⟩ => ⟨S64, .f32⟩
  | .hbm, ⟨19, _⟩ => ⟨S128x64, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S133x64, .f32⟩
  | .hbm, ⟨24, _⟩ => ⟨S64, .f32⟩
  | .hbm, ⟨25, _⟩ => ⟨S64x32, .f32⟩
  | .hbm, ⟨26, _⟩ => ⟨S32, .f32⟩
  | .hbm, ⟨27, _⟩ => ⟨S32x1, .f32⟩
  | .hbm, ⟨28, _⟩ => ⟨S1, .f32⟩
  | .hbm, ⟨29, _⟩ => ⟨S1x1000000, .i32⟩
  | .hbm, ⟨30, _⟩ => ⟨S1000000, .i32⟩
  | .hbm, ⟨31, _⟩ => ⟨S1x1000000, .i32⟩
  | .hbm, ⟨32, _⟩ => ⟨S1000000, .i32⟩
  | .hbm, ⟨33, _⟩ => ⟨S1x64, .f32⟩
  | .hbm, ⟨34, _⟩ => ⟨S1x64, .f32⟩
  | .hbm, ⟨35, _⟩ => ⟨S1x64, .f32⟩
  | .hbm, ⟨36, _⟩ => ⟨S100000x64, .bf16⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1000000x64, .bf16⟩
  | .hbm, ⟨41, _⟩ => ⟨S_, .f32⟩
  | .hbm, ⟨42, _⟩ => ⟨S1000000, .f32⟩
  | .hbm, ⟨43, _⟩ => ⟨S_, .f32⟩
  | .hbm, ⟨44, _⟩ => ⟨S100000, .f32⟩
  | .hbm, ⟨45, _⟩ => ⟨S1000000x1, .i32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x64, .bf16⟩
  | .hbm, ⟨64, _⟩ => ⟨S1x64, .f32⟩
  | .hbm, ⟨65, _⟩ => ⟨S1000000x64, .bf16⟩
  | .hbm, ⟨66, _⟩ => ⟨S1000000x64, .f32⟩
  | .hbm, ⟨67, _⟩ => ⟨S_, .f32⟩
  | .hbm, ⟨68, _⟩ => ⟨S100000x64, .f32⟩
  | .hbm, ⟨69, _⟩ => ⟨S1000000x1, .i32⟩
  | .hbm, ⟨70, _⟩ => ⟨S100000x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S100000x64, .bf16⟩
  | .hbm, ⟨75, _⟩ => ⟨S64x64, .f32⟩
  | .hbm, ⟨76, _⟩ => ⟨S64x64, .f32⟩
  | .hbm, ⟨77, _⟩ => ⟨S64x64, .f32⟩
  | .hbm, ⟨78, _⟩ => ⟨S64x64, .f32⟩
  | .hbm, ⟨79, _⟩ => ⟨S_, .i32⟩
  | .hbm, ⟨80, _⟩ => ⟨S1000000, .i32⟩
  | .hbm, ⟨81, _⟩ => ⟨S1000000, .i1⟩
  | .hbm, ⟨82, _⟩ => ⟨S_, .i32⟩
  | .hbm, ⟨83, _⟩ => ⟨S1000000, .i32⟩
  | .hbm, ⟨84, _⟩ => ⟨S1000000, .i32⟩
  | .hbm, ⟨85, _⟩ => ⟨S1000000, .i32⟩
  | .hbm, ⟨86, _⟩ => ⟨S1000000x1, .i32⟩
  | .hbm, ⟨87, _⟩ => ⟨S1000000x64, .bf16⟩
  | .hbm, ⟨88, _⟩ => ⟨S1x64, .f32⟩
  | .hbm, ⟨89, _⟩ => ⟨S1000000x64, .bf16⟩
  | .hbm, ⟨90, _⟩ => ⟨S1000000x64, .f32⟩
  | .hbm, ⟨91, _⟩ => ⟨S_, .f32⟩
  | .hbm, ⟨92, _⟩ => ⟨S100000x64, .f32⟩
  | .hbm, ⟨93, _⟩ => ⟨S1000000x1, .i32⟩
  | .hbm, ⟨94, _⟩ => ⟨S100000x64, .f32⟩
  | .hbm, ⟨95, _⟩ => ⟨S1x64, .f32⟩
  | .hbm, ⟨96, _⟩ => ⟨S1x64, .f32⟩
  | .hbm, ⟨97, _⟩ => ⟨S1x64, .f32⟩
  | .hbm, ⟨98, _⟩ => ⟨S100000x64, .bf16⟩
  | .hbm, ⟨99, _⟩ => ⟨S_, .i32⟩
  | .hbm, ⟨100, _⟩ => ⟨S1000000, .i32⟩
  | .hbm, ⟨101, _⟩ => ⟨S1000000, .i1⟩
  | .hbm, ⟨102, _⟩ => ⟨S_, .i32⟩
  | .hbm, ⟨103, _⟩ => ⟨S1000000, .i32⟩
  | .hbm, ⟨104, _⟩ => ⟨S1000000, .i32⟩
  | .hbm, ⟨105, _⟩ => ⟨S1000000, .i32⟩
  | .hbm, ⟨106, _⟩ => ⟨S1000000x1, .i32⟩
  | .hbm, ⟨107, _⟩ => ⟨S1000000x64, .bf16⟩
  | .hbm, ⟨108, _⟩ => ⟨S_, .i32⟩
  | .hbm, ⟨109, _⟩ => ⟨S1000000, .i32⟩
  | .hbm, ⟨110, _⟩ => ⟨S1000000, .i1⟩
  | .hbm, ⟨111, _⟩ => ⟨S_, .i32⟩
  | .hbm, ⟨112, _⟩ => ⟨S1000000, .i32⟩
  | .hbm, ⟨113, _⟩ => ⟨S1000000, .i32⟩
  | .hbm, ⟨114, _⟩ => ⟨S1000000, .i32⟩
  | .hbm, ⟨115, _⟩ => ⟨S1000000x1, .i32⟩
  | .hbm, ⟨116, _⟩ => ⟨S1000000x64, .bf16⟩
  | .hbm, ⟨117, _⟩ => ⟨S64x64, .f32⟩
  | .hbm, ⟨118, _⟩ => ⟨S64x64, .f32⟩
  | .hbm, ⟨119, _⟩ => ⟨S5x64, .f32⟩
  | .hbm, ⟨120, _⟩ => ⟨S1x64, .f32⟩
  | .hbm, ⟨121, _⟩ => ⟨S1x32, .f32⟩
  | .hbm, ⟨122, _⟩ => ⟨S1x1, .f32⟩
  | .hbm, ⟨123, _⟩ => ⟨S1000000x1, .f32⟩
  | .local _ .vmem, ⟨0, _⟩ => ⟨S8192x7, .f32⟩
  | .local _ .vmem, ⟨1, _⟩ => ⟨S8192x7, .f32⟩
  | .local _ .vmem, ⟨2, _⟩ => ⟨S7x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S8192x64, .bf16⟩
  | .local _ .vmem, ⟨7, _⟩ => ⟨S8192x64, .bf16⟩
  | .local _ .vmem, ⟨8, _⟩ => ⟨S8192x5, .f32⟩
  | .local _ .vmem, ⟨9, _⟩ => ⟨S8192x5, .f32⟩
  | .local _ .vmem, ⟨10, _⟩ => ⟨S5x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S8192x64, .bf16⟩
  | .local _ .vmem, ⟨15, _⟩ => ⟨S8192x64, .bf16⟩
  | .local _ .vmem, ⟨16, _⟩ => ⟨S8192x64, .bf16⟩
  | .local _ .vmem, ⟨17, _⟩ => ⟨S8192x64, .bf16⟩
  | .local _ .vmem, ⟨18, _⟩ => ⟨S8192x64, .bf16⟩
  | .local _ .vmem, ⟨19, _⟩ => ⟨S8192x64, .bf16⟩
  | .local _ .vmem, ⟨20, _⟩ => ⟨S64x64, .f32⟩
  | .local _ .vmem, ⟨21, _⟩ => ⟨S64x64, .f32⟩
  | .local _ .vmem, ⟨22, _⟩ => ⟨S1x64, .f32⟩
  | .local _ .vmem, ⟨23, _⟩ => ⟨S8192x64, .bf16⟩
  | .local _ .vmem, ⟨24, _⟩ => ⟨S8192x64, .bf16⟩
  | .local _ .vmem, ⟨25, _⟩ => ⟨S4096x64, .bf16⟩
  | .local _ .vmem, ⟨26, _⟩ => ⟨S4096x64, .bf16⟩
  | .local _ .vmem, ⟨27, _⟩ => ⟨S4096x64, .f32⟩
  | .local _ .vmem, ⟨28, _⟩ => ⟨S4096x64, .f32⟩
  | .local _ .vmem, ⟨29, _⟩ => ⟨S4096x1, .f32⟩
  | .local _ .vmem, ⟨30, _⟩ => ⟨S4096x1, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S4096x64, .bf16⟩
  | .local _ .vmem, ⟨37, _⟩ => ⟨S4096x64, .bf16⟩
  | .local _ .vmem, ⟨38, _⟩ => ⟨S8192x64, .bf16⟩
  | .local _ .vmem, ⟨39, _⟩ => ⟨S8192x64, .bf16⟩
  | .local _ .vmem, ⟨40, _⟩ => ⟨S8192x64, .bf16⟩
  | .local _ .vmem, ⟨41, _⟩ => ⟨S8192x64, .bf16⟩
  | .local _ .vmem, ⟨42, _⟩ => ⟨S64x64, .f32⟩
  | .local _ .vmem, ⟨43, _⟩ => ⟨S64x64, .f32⟩
  | .local _ .vmem, ⟨44, _⟩ => ⟨S1x64, .f32⟩
  | .local _ .vmem, ⟨45, _⟩ => ⟨S8192x64, .bf16⟩
  | .local _ .vmem, ⟨46, _⟩ => ⟨S8192x64, .bf16⟩
  | .local _ .vmem, ⟨47, _⟩ => ⟨S4096x64, .bf16⟩
  | .local _ .vmem, ⟨48, _⟩ => ⟨S4096x64, .bf16⟩
  | .local _ .vmem, ⟨49, _⟩ => ⟨S4096x64, .f32⟩
  | .local _ .vmem, ⟨50, _⟩ => ⟨S4096x64, .f32⟩
  | .local _ .vmem, ⟨51, _⟩ => ⟨S4096x1, .f32⟩
  | .local _ .vmem, ⟨52, _⟩ => ⟨S4096x1, .f32⟩
  | .local _ .vmem, ⟨53, _⟩ => ⟨S64x64, .f32⟩
  | .local _ .vmem, ⟨54, _⟩ => ⟨S64x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S4096x64, .bf16⟩
  | .local _ .vmem, ⟨59, _⟩ => ⟨S4096x64, .bf16⟩
  | .local _ .vmem, ⟨60, _⟩ => ⟨S4096x64, .bf16⟩
  | .local _ .vmem, ⟨61, _⟩ => ⟨S4096x64, .bf16⟩
  | .local _ .vmem, ⟨62, _⟩ => ⟨S4096x64, .bf16⟩
  | .local _ .vmem, ⟨63, _⟩ => ⟨S4096x64, .bf16⟩
  | .local _ .vmem, ⟨64, _⟩ => ⟨S4096x5, .f32⟩
  | .local _ .vmem, ⟨65, _⟩ => ⟨S4096x5, .f32⟩
  | .local _ .vmem, ⟨66, _⟩ => ⟨S64x64, .f32⟩
  | .local _ .vmem, ⟨67, _⟩ => ⟨S64x64, .f32⟩
  | .local _ .vmem, ⟨68, _⟩ => ⟨S5x64, .f32⟩
  | .local _ .vmem, ⟨69, _⟩ => ⟨S1x64, .f32⟩
  | .local _ .vmem, ⟨70, _⟩ => ⟨S64x32, .f32⟩
  | .local _ .vmem, ⟨71, _⟩ => ⟨S1x32, .f32⟩
  | .local _ .vmem, ⟨72, _⟩ => ⟨S32x1, .f32⟩
  | .local _ .vmem, ⟨73, _⟩ => ⟨S1x1, .f32⟩
  | .local _ .vmem, ⟨74, _⟩ => ⟨S4096x1, .f32⟩
  | .local _ .vmem, ⟨75, _⟩ => ⟨S4096x1, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 0 → Bool
  | ⟨_, h⟩ => absurd h (Nat.not_lt_zero _)

abbrev dmaSemScoped : Fin 76 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | _ => false

abbrev sig : RefSig :=
  ofTc nBuf bufTy 0 76 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_cst : Ref sig .tc := ⟨.hbm, 41, rfl⟩
abbrev main_v12 : Ref sig .tc := ⟨.hbm, 42, rfl⟩
abbrev main_cst_0 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c : Ref sig .tc := ⟨.hbm, 55, rfl⟩
abbrev main_v23 : Ref sig .tc := ⟨.hbm, 56, rfl⟩
abbrev main_v24 : Ref sig .tc := ⟨.hbm, 57, rfl⟩
abbrev main_c_2 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_3 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_4 : Ref sig .tc := ⟨.hbm, 79, rfl⟩
abbrev main_v44 : Ref sig .tc := ⟨.hbm, 80, rfl⟩
abbrev main_v45 : Ref sig .tc := ⟨.hbm, 81, rfl⟩
abbrev main_c_5 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_6 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_7 : Ref sig .tc := ⟨.hbm, 99, rfl⟩
abbrev main_v61 : Ref sig .tc := ⟨.hbm, 100, rfl⟩
abbrev main_v62 : Ref sig .tc := ⟨.hbm, 101, rfl⟩
abbrev main_c_8 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_9 : Ref sig .tc := ⟨.hbm, 108, rfl⟩
abbrev main_v68 : Ref sig .tc := ⟨.hbm, 109, rfl⟩
abbrev main_v69 : Ref sig .tc := ⟨.hbm, 110, rfl⟩
abbrev main_c_10 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg8_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg2_1 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg6_0 : Ref sig .tc := ⟨.vmem, 56, rfl⟩
abbrev cc5_stg7_0 : Ref sig .tc := ⟨.vmem, 57, rfl⟩
abbrev cc5_stg8_0 : Ref sig .tc := ⟨.vmem, 58, rfl⟩
abbrev cc5_stg8_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg10_0 : Ref sig .tc := ⟨.vmem, 73, rfl⟩
abbrev cc6_stg11_0 : Ref sig .tc := ⟨.vmem, 74, rfl⟩
abbrev cc6_stg11_1 : Ref sig .tc := ⟨.vmem, 75, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem8_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem2_1 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem7_0 : DmaSem sig := 57
abbrev cc5_sem8_0 : DmaSem sig := 58
abbrev cc5_sem8_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc6_sem8_0 : DmaSem sig := 71
abbrev cc6_sem9_0 : DmaSem sig := 72
abbrev cc6_sem10_0 : DmaSem sig := 73
abbrev cc6_sem11_0 : DmaSem sig := 74
abbrev cc6_sem11_1 : DmaSem sig := 75

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![123], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S4096x64 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![123], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8192x64 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4096x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4096x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S4096x64 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![245], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096x5 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S5x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x32 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x32 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S32x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S4096x1 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S8192x7_S8192x7_0_0 : ∀ a, (![0, 0] : Fin 2 → Nat) a + S8192x7.size a ≤ S8192x7.size a
  h_S8192x7 : 0 < S8192x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8192x64 : S1x64.Broadcasts S8192x64
  reduces_S8192x64_S8192 : S8192x64.Reduces [1] S8192
  shapeCasts_S8192_S8192x1 : S8192.ShapeCasts S8192x1
  broadcasts_S8192x1_S8192x64 : S8192x1.Broadcasts S8192x64
  inb_S8192x64_S8192x64_0_0 : ∀ a, (![0, 0] : Fin 2 → Nat) a + S8192x64.size a ≤ S8192x64.size a
  h_S8192x64 : 0 < S8192x64.numel
  packedbf16_S8192x64_S8192x64_0_0 : (Rect.unit (s := S8192x64) ![0, 0] S8192x64.size inb_S8192x64_S8192x64_0_0).PackedRows (EltTy.packing .bf16)
  inb_S8192x5_S8192x5_0_0 : ∀ a, (![0, 0] : Fin 2 → Nat) a + S8192x5.size a ≤ S8192x5.size a
  h_S8192x5 : 0 < S8192x5.numel
  inb_S5x64_S5x64_0_0 : ∀ a, (![0, 0] : Fin 2 → Nat) a + S5x64.size a ≤ S5x64.size a
  h_S5x64 : 0 < S5x64.numel
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  slices_S128x64_S64x64_0_0 : S128x64.Slices ![0, 0] S64x64
  slices_S128x64_S64x64_64_0 : S128x64.Slices ![64, 0] S64x64
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000x64 : S_.BroadcastsInDim S100000x64 (![] : Fin 0 → Fin S100000x64.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  broadcasts_S1x64_S4096x64 : S1x64.Broadcasts S4096x64
  reduces_S4096x64_S4096 : S4096x64.Reduces [1] S4096
  shapeCasts_S4096_S4096x1 : S4096.ShapeCasts S4096x1
  packedbf16_S4096x64_S4096x64_0_0 : (Rect.unit (s := S4096x64) ![0, 0] S4096x64.size inb_S4096x64_S4096x64_0_0).PackedRows (EltTy.packing .bf16)
  slices_S133x64_S64x64_0_0 : S133x64.Slices ![0, 0] S64x64
  slices_S133x64_S64x64_64_0 : S133x64.Slices ![64, 0] S64x64
  slices_S133x64_S5x64_128_0 : S133x64.Slices ![128, 0] S5x64
  shapeCasts_S32_S1x32 : S32.ShapeCasts S1x32
  shapeCasts_S1_S1x1 : S1.ShapeCasts S1x1
  inb_S4096x5_S4096x5_0_0 : ∀ a, (![0, 0] : Fin 2 → Nat) a + S4096x5.size a ≤ S4096x5.size a
  h_S4096x5 : 0 < S4096x5.numel
  shapeCasts_S5x64_S5x64 : S5x64.ShapeCasts S5x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  dot_S8192x7_S7x64_S8192x64_1_0_0_1_n_n_wf : DotDims.WF S8192x7 S7x64 S8192x64 [1] [0] [0] [1] [] []
  dot_S8192x5_S5x64_S8192x64_1_0_0_1_n_n_wf : DotDims.WF S8192x5 S5x64 S8192x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  dot_S8192x64_S64x64_S8192x64_1_0_0_1_n_n_wf : DotDims.WF S8192x64 S64x64 S8192x64 [1] [0] [0] [1] [] []
  scatter_S100000x64_S1000000x1_S1000000x64_1_0_0_1_wf : ScatterDims.WF S100000x64 S1000000x1 S1000000x64 [1] [0] [0] 1
  dot_S4096x64_S64x64_S4096x64_1_0_0_1_n_n_wf : DotDims.WF S4096x64 S64x64 S4096x64 [1] [0] [0] [1] [] []
  dot_S4096x5_S5x64_S4096x64_1_0_0_1_n_n_wf : DotDims.WF S4096x5 S5x64 S4096x64 [1] [0] [0] [1] [] []
  dot_S4096x64_S64x32_S4096x32_1_0_0_1_n_n_wf : DotDims.WF S4096x64 S64x32 S4096x32 [1] [0] [0] [1] [] []
  dot_S4096x32_S32x1_S4096x1_1_0_0_1_n_n_wf : DotDims.WF S4096x32 S32x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x7.size a < S100000x7.size a
  hwx0_0 : ∀ i : grid0.Coords, EltTy.bits .f32 = 32 ∨ (Rect.unit (s := S100000x7) (fun a => cc0_transform_0 i a * S8192x7.size a) (fun a => (Pipeline.Clip.of (cc0_transform_0 i a) (S8192x7.size a) (S100000x7.size a)).extent (S8192x7.size a)) fun a => Pipeline.Clip.inb (Pipeline.Clip.ok_of (hstart0_0 i a))).WholeWords (EltTy.packing .f32)
  hwxs0_0 : ∀ i : grid0.Coords, EltTy.bits .f32 = 32 ∨ (Rect.unit (s := S8192x7) (fun _ => 0) (fun a => (Pipeline.Clip.of (cc0_transform_0 i a) (S8192x7.size a) (S100000x7.size a)).extent (S8192x7.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S8192x64.size a < S100000x64.size a
  hwx0_5 : ∀ i : grid0.Coords, EltTy.bits .bf16 = 32 ∨ (Rect.unit (s := S100000x64) (fun a => cc0_transform_5 i a * S8192x64.size a) (fun a => (Pipeline.Clip.of (cc0_transform_5 i a) (S8192x64.size a) (S100000x64.size a)).extent (S8192x64.size a)) fun a => Pipeline.Clip.inb (Pipeline.Clip.ok_of (hstart0_5 i a))).WholeWords (EltTy.packing .bf16)
  hwxs0_5 : ∀ i : grid0.Coords, EltTy.bits .bf16 = 32 ∨ (Rect.unit (s := S8192x64) (fun _ => 0) (fun a => (Pipeline.Clip.of (cc0_transform_5 i a) (S8192x64.size a) (S100000x64.size a)).extent (S8192x64.size a)) fun a => (Nat.zero_add _).trans_le (Pipeline.Clip.extent_le (Pipeline.Clip.ok_of (hstart0_5 i a)))).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8192x5.size a < S1000000x5.size a
  hwx1_0 : ∀ i : grid1.Coords, EltTy.bits .f32 = 32 ∨ (Rect.unit (s := S1000000x5) (fun a => cc1_transform_0 i a * S8192x5.size a) (fun a => (Pipeline.Clip.of (cc1_transform_0 i a) (S8192x5.size a) (S1000000x5.size a)).extent (S8192x5.size a)) fun a => Pipeline.Clip.inb (Pipeline.Clip.ok_of (hstart1_0 i a))).WholeWords (EltTy.packing .f32)
  hwxs1_0 : ∀ i : grid1.Coords, EltTy.bits .f32 = 32 ∨ (Rect.unit (s := S8192x5) (fun _ => 0) (fun a => (Pipeline.Clip.of (cc1_transform_0 i a) (S8192x5.size a) (S1000000x5.size a)).extent (S8192x5.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x64.size a ≤ S5x64.size a
  hwx1_1 : ∀ i : grid1.Coords, EltTy.bits .f32 = 32 ∨ (Rect.block (s := S5x64) S5x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S8192x64.size a < S1000000x64.size a
  hwx1_5 : ∀ i : grid1.Coords, EltTy.bits .bf16 = 32 ∨ (Rect.unit (s := S1000000x64) (fun a => cc1_transform_5 i a * S8192x64.size a) (fun a => (Pipeline.Clip.of (cc1_transform_5 i a) (S8192x64.size a) (S1000000x64.size a)).extent (S8192x64.size a)) fun a => Pipeline.Clip.inb (Pipeline.Clip.ok_of (hstart1_5 i a))).WholeWords (EltTy.packing .bf16)
  hwxs1_5 : ∀ i : grid1.Coords, EltTy.bits .bf16 = 32 ∨ (Rect.unit (s := S8192x64) (fun _ => 0) (fun a => (Pipeline.Clip.of (cc1_transform_5 i a) (S8192x64.size a) (S1000000x64.size a)).extent (S8192x64.size a)) fun a => (Nat.zero_add _).trans_le (Pipeline.Clip.extent_le (Pipeline.Clip.ok_of (hstart1_5 i a)))).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S8192x64.size a < S1000000x64.size a
  hwx2_0 : ∀ i : grid2.Coords, EltTy.bits .bf16 = 32 ∨ (Rect.unit (s := S1000000x64) (fun a => cc2_transform_0 i a * S8192x64.size a) (fun a => (Pipeline.Clip.of (cc2_transform_0 i a) (S8192x64.size a) (S1000000x64.size a)).extent (S8192x64.size a)) fun a => Pipeline.Clip.inb (Pipeline.Clip.ok_of (hstart2_0 i a))).WholeWords (EltTy.packing .bf16)
  hwxs2_0 : ∀ i : grid2.Coords, EltTy.bits .bf16 = 32 ∨ (Rect.unit (s := S8192x64) (fun _ => 0) (fun a => (Pipeline.Clip.of (cc2_transform_0 i a) (S8192x64.size a) (S1000000x64.size a)).extent (S8192x64.size a)) fun a => (Nat.zero_add _).trans_le (Pipeline.Clip.extent_le (Pipeline.Clip.ok_of (hstart2_0 i a)))).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S8192x64.size a < S1000000x64.size a
  hwx2_1 : ∀ i : grid2.Coords, EltTy.bits .bf16 = 32 ∨ (Rect.unit (s := S1000000x64) (fun a => cc2_transform_1 i a * S8192x64.size a) (fun a => (Pipeline.Clip.of (cc2_transform_1 i a) (S8192x64.size a) (S1000000x64.size a)).extent (S8192x64.size a)) fun a => Pipeline.Clip.inb (Pipeline.Clip.ok_of (hstart2_1 i a))).WholeWords (EltTy.packing .bf16)
  hwxs2_1 : ∀ i : grid2.Coords, EltTy.bits .bf16 = 32 ∨ (Rect.unit (s := S8192x64) (fun _ => 0) (fun a => (Pipeline.Clip.of (cc2_transform_1 i a) (S8192x64.size a) (S1000000x64.size a)).extent (S8192x64.size a)) fun a => (Nat.zero_add _).trans_le (Pipeline.Clip.extent_le (Pipeline.Clip.ok_of (hstart2_1 i a)))).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hstart2_5 : ∀ (i : grid2.Coords) a, cc2_transform_5 i a * S8192x64.size a < S1000000x64.size a
  hwx2_5 : ∀ i : grid2.Coords, EltTy.bits .bf16 = 32 ∨ (Rect.unit (s := S1000000x64) (fun a => cc2_transform_5 i a * S8192x64.size a) (fun a => (Pipeline.Clip.of (cc2_transform_5 i a) (S8192x64.size a) (S1000000x64.size a)).extent (S8192x64.size a)) fun a => Pipeline.Clip.inb (Pipeline.Clip.ok_of (hstart2_5 i a))).WholeWords (EltTy.packing .bf16)
  hwxs2_5 : ∀ i : grid2.Coords, EltTy.bits .bf16 = 32 ∨ (Rect.unit (s := S8192x64) (fun _ => 0) (fun a => (Pipeline.Clip.of (cc2_transform_5 i a) (S8192x64.size a) (S1000000x64.size a)).extent (S8192x64.size a)) fun a => (Nat.zero_add _).trans_le (Pipeline.Clip.extent_le (Pipeline.Clip.ok_of (hstart2_5 i a)))).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S4096x64.size a < S100000x64.size a
  hwx3_0 : ∀ i : grid3.Coords, EltTy.bits .bf16 = 32 ∨ (Rect.unit (s := S100000x64) (fun a => cc3_transform_0 i a * S4096x64.size a) (fun a => (Pipeline.Clip.of (cc3_transform_0 i a) (S4096x64.size a) (S100000x64.size a)).extent (S4096x64.size a)) fun a => Pipeline.Clip.inb (Pipeline.Clip.ok_of (hstart3_0 i a))).WholeWords (EltTy.packing .bf16)
  hwxs3_0 : ∀ i : grid3.Coords, EltTy.bits .bf16 = 32 ∨ (Rect.unit (s := S4096x64) (fun _ => 0) (fun a => (Pipeline.Clip.of (cc3_transform_0 i a) (S4096x64.size a) (S100000x64.size a)).extent (S4096x64.size a)) fun a => (Nat.zero_add _).trans_le (Pipeline.Clip.extent_le (Pipeline.Clip.ok_of (hstart3_0 i a)))).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S4096x64.size a < S100000x64.size a
  hwx3_1 : ∀ i : grid3.Coords, EltTy.bits .f32 = 32 ∨ (Rect.unit (s := S100000x64) (fun a => cc3_transform_1 i a * S4096x64.size a) (fun a => (Pipeline.Clip.of (cc3_transform_1 i a) (S4096x64.size a) (S100000x64.size a)).extent (S4096x64.size a)) fun a => Pipeline.Clip.inb (Pipeline.Clip.ok_of (hstart3_1 i a))).WholeWords (EltTy.packing .f32)
  hwxs3_1 : ∀ i : grid3.Coords, EltTy.bits .f32 = 32 ∨ (Rect.unit (s := S4096x64) (fun _ => 0) (fun a => (Pipeline.Clip.of (cc3_transform_1 i a) (S4096x64.size a) (S100000x64.size a)).extent (S4096x64.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hstart3_2 : ∀ (i : grid3.Coords) a, cc3_transform_2 i a * S4096x1.size a < S100000x1.size a
  hwx3_2 : ∀ i : grid3.Coords, EltTy.bits .f32 = 32 ∨ (Rect.unit (s := S100000x1) (fun a => cc3_transform_2 i a * S4096x1.size a) (fun a => (Pipeline.Clip.of (cc3_transform_2 i a) (S4096x1.size a) (S100000x1.size a)).extent (S4096x1.size a)) fun a => Pipeline.Clip.inb (Pipeline.Clip.ok_of (hstart3_2 i a))).WholeWords (EltTy.packing .f32)
  hwxs3_2 : ∀ i : grid3.Coords, EltTy.bits .f32 = 32 ∨ (Rect.unit (s := S4096x1) (fun _ => 0) (fun a => (Pipeline.Clip.of (cc3_transform_2 i a) (S4096x1.size a) (S100000x1.size a)).extent (S4096x1.size a)) fun a => (Nat.zero_add _).trans_le (Pipeline.Clip.extent_le (Pipeline.Clip.ok_of (hstart3_2 i a)))).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x64.size a ≤ S1x64.size a
  hwx3_7 : ∀ i : grid3.Coords, EltTy.bits .f32 = 32 ∨ (Rect.block (s := S1x64) S1x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hstart3_8 : ∀ (i : grid3.Coords) a, cc3_transform_8 i a * S4096x64.size a < S100000x64.size a
  hwx3_8 : ∀ i : grid3.Coords, EltTy.bits .bf16 = 32 ∨ (Rect.unit (s := S100000x64) (fun a => cc3_transform_8 i a * S4096x64.size a) (fun a => (Pipeline.Clip.of (cc3_transform_8 i a) (S4096x64.size a) (S100000x64.size a)).extent (S4096x64.size a)) fun a => Pipeline.Clip.inb (Pipeline.Clip.ok_of (hstart3_8 i a))).WholeWords (EltTy.packing .bf16)
  hwxs3_8 : ∀ i : grid3.Coords, EltTy.bits .bf16 = 32 ∨ (Rect.unit (s := S4096x64) (fun _ => 0) (fun a => (Pipeline.Clip.of (cc3_transform_8 i a) (S4096x64.size a) (S100000x64.size a)).extent (S4096x64.size a)) fun a => (Nat.zero_add _).trans_le (Pipeline.Clip.extent_le (Pipeline.Clip.ok_of (hstart3_8 i a)))).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hstart4_0 : ∀ (i : grid4.Coords) a, cc4_transform_0 i a * S8192x64.size a < S1000000x64.size a
  hwx4_0 : ∀ i : grid4.Coords, EltTy.bits .bf16 = 32 ∨ (Rect.unit (s := S1000000x64) (fun a => cc4_transform_0 i a * S8192x64.size a) (fun a => (Pipeline.Clip.of (cc4_transform_0 i a) (S8192x64.size a) (S1000000x64.size a)).extent (S8192x64.size a)) fun a => Pipeline.Clip.inb (Pipeline.Clip.ok_of (hstart4_0 i a))).WholeWords (EltTy.packing .bf16)
  hwxs4_0 : ∀ i : grid4.Coords, EltTy.bits .bf16 = 32 ∨ (Rect.unit (s := S8192x64) (fun _ => 0) (fun a => (Pipeline.Clip.of (cc4_transform_0 i a) (S8192x64.size a) (S1000000x64.size a)).extent (S8192x64.size a)) fun a => (Nat.zero_add _).trans_le (Pipeline.Clip.extent_le (Pipeline.Clip.ok_of (hstart4_0 i a)))).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hstart4_1 : ∀ (i : grid4.Coords) a, cc4_transform_1 i a * S8192x64.size a < S1000000x64.size a
  hwx4_1 : ∀ i : grid4.Coords, EltTy.bits .bf16 = 32 ∨ (Rect.unit (s := S1000000x64) (fun a => cc4_transform_1 i a * S8192x64.size a) (fun a => (Pipeline.Clip.of (cc4_transform_1 i a) (S8192x64.size a) (S1000000x64.size a)).extent (S8192x64.size a)) fun a => Pipeline.Clip.inb (Pipeline.Clip.ok_of (hstart4_1 i a))).WholeWords (EltTy.packing .bf16)
  hwxs4_1 : ∀ i : grid4.Coords, EltTy.bits .bf16 = 32 ∨ (Rect.unit (s := S8192x64) (fun _ => 0) (fun a => (Pipeline.Clip.of (cc4_transform_1 i a) (S8192x64.size a) (S1000000x64.size a)).extent (S8192x64.size a)) fun a => (Nat.zero_add _).trans_le (Pipeline.Clip.extent_le (Pipeline.Clip.ok_of (hstart4_1 i a)))).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hstart4_5 : ∀ (i : grid4.Coords) a, cc4_transform_5 i a * S8192x64.size a < S1000000x64.size a
  hwx4_5 : ∀ i : grid4.Coords, EltTy.bits .bf16 = 32 ∨ (Rect.unit (s := S1000000x64) (fun a => cc4_transform_5 i a * S8192x64.size a) (fun a => (Pipeline.Clip.of (cc4_transform_5 i a) (S8192x64.size a) (S1000000x64.size a)).extent (S8192x64.size a)) fun a => Pipeline.Clip.inb (Pipeline.Clip.ok_of (hstart4_5 i a))).WholeWords (EltTy.packing .bf16)
  hwxs4_5 : ∀ i : grid4.Coords, EltTy.bits .bf16 = 32 ∨ (Rect.unit (s := S8192x64) (fun _ => 0) (fun a => (Pipeline.Clip.of (cc4_transform_5 i a) (S8192x64.size a) (S1000000x64.size a)).extent (S8192x64.size a)) fun a => (Nat.zero_add _).trans_le (Pipeline.Clip.extent_le (Pipeline.Clip.ok_of (hstart4_5 i a)))).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S4096x64.size a < S100000x64.size a
  hwx5_0 : ∀ i : grid5.Coords, EltTy.bits .bf16 = 32 ∨ (Rect.unit (s := S100000x64) (fun a => cc5_transform_0 i a * S4096x64.size a) (fun a => (Pipeline.Clip.of (cc5_transform_0 i a) (S4096x64.size a) (S100000x64.size a)).extent (S4096x64.size a)) fun a => Pipeline.Clip.inb (Pipeline.Clip.ok_of (hstart5_0 i a))).WholeWords (EltTy.packing .bf16)
  hwxs5_0 : ∀ i : grid5.Coords, EltTy.bits .bf16 = 32 ∨ (Rect.unit (s := S4096x64) (fun _ => 0) (fun a => (Pipeline.Clip.of (cc5_transform_0 i a) (S4096x64.size a) (S100000x64.size a)).extent (S4096x64.size a)) fun a => (Nat.zero_add _).trans_le (Pipeline.Clip.extent_le (Pipeline.Clip.ok_of (hstart5_0 i a)))).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hstart5_1 : ∀ (i : grid5.Coords) a, cc5_transform_1 i a * S4096x64.size a < S100000x64.size a
  hwx5_1 : ∀ i : grid5.Coords, EltTy.bits .f32 = 32 ∨ (Rect.unit (s := S100000x64) (fun a => cc5_transform_1 i a * S4096x64.size a) (fun a => (Pipeline.Clip.of (cc5_transform_1 i a) (S4096x64.size a) (S100000x64.size a)).extent (S4096x64.size a)) fun a => Pipeline.Clip.inb (Pipeline.Clip.ok_of (hstart5_1 i a))).WholeWords (EltTy.packing .f32)
  hwxs5_1 : ∀ i : grid5.Coords, EltTy.bits .f32 = 32 ∨ (Rect.unit (s := S4096x64) (fun _ => 0) (fun a => (Pipeline.Clip.of (cc5_transform_1 i a) (S4096x64.size a) (S100000x64.size a)).extent (S4096x64.size a)) fun a => (Nat.zero_add _).trans_le (Pipeline.Clip.extent_le (Pipeline.Clip.ok_of (hstart5_1 i a)))).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hstart5_2 : ∀ (i : grid5.Coords) a, cc5_transform_2 i a * S4096x1.size a < S100000x1.size a
  hwx5_2 : ∀ i : grid5.Coords, EltTy.bits .f32 = 32 ∨ (Rect.unit (s := S100000x1) (fun a => cc5_transform_2 i a * S4096x1.size a) (fun a => (Pipeline.Clip.of (cc5_transform_2 i a) (S4096x1.size a) (S100000x1.size a)).extent (S4096x1.size a)) fun a => Pipeline.Clip.inb (Pipeline.Clip.ok_of (hstart5_2 i a))).WholeWords (EltTy.packing .f32)
  hwxs5_2 : ∀ i : grid5.Coords, EltTy.bits .f32 = 32 ∨ (Rect.unit (s := S4096x1) (fun _ => 0) (fun a => (Pipeline.Clip.of (cc5_transform_2 i a) (S4096x1.size a) (S100000x1.size a)).extent (S4096x1.size a)) fun a => (Nat.zero_add _).trans_le (Pipeline.Clip.extent_le (Pipeline.Clip.ok_of (hstart5_2 i a)))).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x64.size a ≤ S1x64.size a
  hwx5_7 : ∀ i : grid5.Coords, EltTy.bits .f32 = 32 ∨ (Rect.block (s := S1x64) S1x64.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hstart5_8 : ∀ (i : grid5.Coords) a, cc5_transform_8 i a * S4096x64.size a < S100000x64.size a
  hwx5_8 : ∀ i : grid5.Coords, EltTy.bits .bf16 = 32 ∨ (Rect.unit (s := S100000x64) (fun a => cc5_transform_8 i a * S4096x64.size a) (fun a => (Pipeline.Clip.of (cc5_transform_8 i a) (S4096x64.size a) (S100000x64.size a)).extent (S4096x64.size a)) fun a => Pipeline.Clip.inb (Pipeline.Clip.ok_of (hstart5_8 i a))).WholeWords (EltTy.packing .bf16)
  hwxs5_8 : ∀ i : grid5.Coords, EltTy.bits .bf16 = 32 ∨ (Rect.unit (s := S4096x64) (fun _ => 0) (fun a => (Pipeline.Clip.of (cc5_transform_8 i a) (S4096x64.size a) (S100000x64.size a)).extent (S4096x64.size a)) fun a => (Nat.zero_add _).trans_le (Pipeline.Clip.extent_le (Pipeline.Clip.ok_of (hstart5_8 i a)))).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hstart6_0 : ∀ (i : grid6.Coords) a, cc6_transform_0 i a * S4096x64.size a < S1000000x64.size a
  hwx6_0 : ∀ i : grid6.Coords, EltTy.bits .bf16 = 32 ∨ (Rect.unit (s := S1000000x64) (fun a => cc6_transform_0 i a * S4096x64.size a) (fun a => (Pipeline.Clip.of (cc6_transform_0 i a) (S4096x64.size a) (S1000000x64.size a)).extent (S4096x64.size a)) fun a => Pipeline.Clip.inb (Pipeline.Clip.ok_of (hstart6_0 i a))).WholeWords (EltTy.packing .bf16)
  hwxs6_0 : ∀ i : grid6.Coords, EltTy.bits .bf16 = 32 ∨ (Rect.unit (s := S4096x64) (fun _ => 0) (fun a => (Pipeline.Clip.of (cc6_transform_0 i a) (S4096x64.size a) (S1000000x64.size a)).extent (S4096x64.size a)) fun a => (Nat.zero_add _).trans_le (Pipeline.Clip.extent_le (Pipeline.Clip.ok_of (hstart6_0 i a)))).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hstart6_1 : ∀ (i : grid6.Coords) a, cc6_transform_1 i a * S4096x64.size a < S1000000x64.size a
  hwx6_1 : ∀ i : grid6.Coords, EltTy.bits .bf16 = 32 ∨ (Rect.unit (s := S1000000x64) (fun a => cc6_transform_1 i a * S4096x64.size a) (fun a => (Pipeline.Clip.of (cc6_transform_1 i a) (S4096x64.size a) (S1000000x64.size a)).extent (S4096x64.size a)) fun a => Pipeline.Clip.inb (Pipeline.Clip.ok_of (hstart6_1 i a))).WholeWords (EltTy.packing .bf16)
  hwxs6_1 : ∀ i : grid6.Coords, EltTy.bits .bf16 = 32 ∨ (Rect.unit (s := S4096x64) (fun _ => 0) (fun a => (Pipeline.Clip.of (cc6_transform_1 i a) (S4096x64.size a) (S1000000x64.size a)).extent (S4096x64.size a)) fun a => (Nat.zero_add _).trans_le (Pipeline.Clip.extent_le (Pipeline.Clip.ok_of (hstart6_1 i a)))).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hstart6_2 : ∀ (i : grid6.Coords) a, cc6_transform_2 i a * S4096x5.size a < S1000000x5.size a
  hwx6_2 : ∀ i : grid6.Coords, EltTy.bits .f32 = 32 ∨ (Rect.unit (s := S1000000x5) (fun a => cc6_transform_2 i a * S4096x5.size a) (fun a => (Pipeline.Clip.of (cc6_transform_2 i a) (S4096x5.size a) (S1000000x5.size a)).extent (S4096x5.size a)) fun a => Pipeline.Clip.inb (Pipeline.Clip.ok_of (hstart6_2 i a))).WholeWords (EltTy.packing .f32)
  hwxs6_2 : ∀ i : grid6.Coords, EltTy.bits .f32 = 32 ∨ (Rect.unit (s := S4096x5) (fun _ => 0) (fun a => (Pipeline.Clip.of (cc6_transform_2 i a) (S4096x5.size a) (S1000000x5.size a)).extent (S4096x5.size a)) fun a => (Nat.zero_add _).trans_le (Pipeline.Clip.extent_le (Pipeline.Clip.ok_of (hstart6_2 i a)))).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S5x64.size a ≤ S5x64.size a
  hwx6_5 : ∀ i : grid6.Coords, EltTy.bits .f32 = 32 ∨ (Rect.block (s := S5x64) S5x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x32.size a ≤ S64x32.size a
  hwx6_7 : ∀ i : grid6.Coords, EltTy.bits .f32 = 32 ∨ (Rect.block (s := S64x32) S64x32.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x32.size a ≤ S1x32.size a
  hwx6_8 : ∀ i : grid6.Coords, EltTy.bits .f32 = 32 ∨ (Rect.block (s := S1x32) S1x32.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S32x1.size a ≤ S32x1.size a
  hwx6_9 : ∀ i : grid6.Coords, EltTy.bits .f32 = 32 ∨ (Rect.block (s := S32x1) S32x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x1.size a ≤ S1x1.size a
  hwx6_10 : ∀ i : grid6.Coords, EltTy.bits .f32 = 32 ∨ (Rect.block (s := S1x1) S1x1.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hstart6_11 : ∀ (i : grid6.Coords) a, cc6_transform_11 i a * S4096x1.size a < S1000000x1.size a
  hwx6_11 : ∀ i : grid6.Coords, EltTy.bits .f32 = 32 ∨ (Rect.unit (s := S1000000x1) (fun a => cc6_transform_11 i a * S4096x1.size a) (fun a => (Pipeline.Clip.of (cc6_transform_11 i a) (S4096x1.size a) (S1000000x1.size a)).extent (S4096x1.size a)) fun a => Pipeline.Clip.inb (Pipeline.Clip.ok_of (hstart6_11 i a))).WholeWords (EltTy.packing .f32)
  hwxs6_11 : ∀ i : grid6.Coords, EltTy.bits .f32 = 32 ∨ (Rect.unit (s := S4096x1) (fun _ => 0) (fun a => (Pipeline.Clip.of (cc6_transform_11 i a) (S4096x1.size a) (S1000000x1.size a)).extent (S4096x1.size a)) fun a => (Nat.zero_add _).trans_le (Pipeline.Clip.extent_le (Pipeline.Clip.ok_of (hstart6_11 i a)))).WholeWords (EltTy.packing .f32)

variable [Facts₀]

def dot_S8192x7_S7x64_S8192x64_1_0_0_1_n_n : DotDims S8192x7 S7x64 S8192x64 where
  lhsContracting := [1]
  rhsContracting := [0]
  lhsNonContracting := [0]
  rhsNonContracting := [1]
  lhsBatch := []
  rhsBatch := []
  wf := dot_S8192x7_S7x64_S8192x64_1_0_0_1_n_n_wf
def dot_S8192x5_S5x64_S8192x64_1_0_0_1_n_n : DotDims S8192x5 S5x64 S8192x64 where
  lhsContracting := [1]
  rhsContracting := [0]
  lhsNonContracting := [0]
  rhsNonContracting := [1]
  lhsBatch := []
  rhsBatch := []
  wf := dot_S8192x5_S5x64_S8192x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x5_S5x64_S4096x64_1_0_0_1_n_n : DotDims S4096x5 S5x64 S4096x64 where
  lhsContracting := [1]
  rhsContracting := [0]
  lhsNonContracting := [0]
  rhsNonContracting := [1]
  lhsBatch := []
  rhsBatch := []
  wf := dot_S4096x5_S5x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

abbrev win0_0 : Pipeline.Window sig grid0 :=
  Pipeline.Window.ofSpecClip (Memref.whole main_arg0) S8192x7.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg3) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v7) S8192x64.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpecClip (Memref.whole main_arg2) S8192x5.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_arg7) S5x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpecClip (Memref.whole main_v11) S8192x64.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_v29) S8192x64.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v11) S8192x64.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v19) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpecClip (Memref.whole main_v31) S8192x64.size cc2_transform_5 reads2_5 true false 2 stage2_5 sem2_5
    hrank2 hreads2_5 hstart2_5 nbuf2_5 (Memref.isWhole_whole _) hwx2_5 hwxs2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpecClip (Memref.whole main_v7) S4096x64.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v35) S4096x64.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpecClip (Memref.whole main_v18) S4096x1.size cc3_transform_2 reads3_2 false false 2 stage3_2 sem3_2
    hrank3 hreads3_2 hstart3_2 nbuf3_2 (Memref.isWhole_whole _) hwx3_2 hwxs3_2 hstage3_2

abbrev win3_3 : Pipeline.Window sig grid3 :=
  Pipeline.Window.ofSpec (Memref.whole main_v21) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v22) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v36) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v37) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v38) S1x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpecClip (Memref.whole main_v39) S4096x64.size cc3_transform_8 reads3_8 true false 2 stage3_8 sem3_8
    hrank3 hreads3_8 hstart3_8 nbuf3_8 (Memref.isWhole_whole _) hwx3_8 hwxs3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpecClip (Memref.whole main_v50) S8192x64.size cc4_transform_0 reads4_0 false false 2 stage4_0 sem4_0
    hrank4 hreads4_0 hstart4_0 nbuf4_0 (Memref.isWhole_whole _) hwx4_0 hwxs4_0 hstage4_0

abbrev win4_1 : Pipeline.Window sig grid4 :=
  Pipeline.Window.ofSpecClip (Memref.whole main_v11) S8192x64.size cc4_transform_1 reads4_1 false false 2 stage4_1 sem4_1
    hrank4 hreads4_1 hstart4_1 nbuf4_1 (Memref.isWhole_whole _) hwx4_1 hwxs4_1 hstage4_1

abbrev win4_2 : Pipeline.Window sig grid4 :=
  Pipeline.Window.ofSpec (Memref.whole main_v40) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v41) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v51) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpecClip (Memref.whole main_v52) S8192x64.size cc4_transform_5 reads4_5 true false 2 stage4_5 sem4_5
    hrank4 hreads4_5 hstart4_5 nbuf4_5 (Memref.isWhole_whole _) hwx4_5 hwxs4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpecClip (Memref.whole main_v39) S4096x64.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpecClip (Memref.whole main_v56) S4096x64.size cc5_transform_1 reads5_1 false false 2 stage5_1 sem5_1
    hrank5 hreads5_1 hstart5_1 nbuf5_1 (Memref.isWhole_whole _) hwx5_1 hwxs5_1 hstage5_1

abbrev win5_2 : Pipeline.Window sig grid5 :=
  Pipeline.Window.ofSpecClip (Memref.whole main_v18) S4096x1.size cc5_transform_2 reads5_2 false false 2 stage5_2 sem5_2
    hrank5 hreads5_2 hstart5_2 nbuf5_2 (Memref.isWhole_whole _) hwx5_2 hwxs5_2 hstage5_2

abbrev win5_3 : Pipeline.Window sig grid5 :=
  Pipeline.Window.ofSpec (Memref.whole main_v42) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v43) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v57) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v58) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v59) S1x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpecClip (Memref.whole main_v60) S4096x64.size cc5_transform_8 reads5_8 true false 2 stage5_8 sem5_8
    hrank5 hreads5_8 hstart5_8 nbuf5_8 (Memref.isWhole_whole _) hwx5_8 hwxs5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpecClip (Memref.whole main_v67) S4096x64.size cc6_transform_0 reads6_0 false false 2 stage6_0 sem6_0
    hrank6 hreads6_0 hstart6_0 nbuf6_0 (Memref.isWhole_whole _) hwx6_0 hwxs6_0 hstage6_0

abbrev win6_1 : Pipeline.Window sig grid6 :=
  Pipeline.Window.ofSpecClip (Memref.whole main_v74) S4096x64.size cc6_transform_1 reads6_1 false false 2 stage6_1 sem6_1
    hrank6 hreads6_1 hstart6_1 nbuf6_1 (Memref.isWhole_whole _) hwx6_1 hwxs6_1 hstage6_1

abbrev win6_2 : Pipeline.Window sig grid6 :=
  Pipeline.Window.ofSpecClip (Memref.whole main_arg2) S4096x5.size cc6_transform_2 reads6_2 false false 2 stage6_2 sem6_2
    hrank6 hreads6_2 hstart6_2 nbuf6_2 (Memref.isWhole_whole _) hwx6_2 hwxs6_2 hstage6_2

abbrev win6_3 : Pipeline.Window sig grid6 :=
  Pipeline.Window.ofSpec (Memref.whole main_v75) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v76) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v77) S5x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v78) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg25) S64x32.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v79) S1x32.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg27) S32x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v80) S1x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpecClip (Memref.whole main_v81) S4096x1.size cc6_transform_11 reads6_11 true false 2 stage6_11 sem6_11
    hrank6 hreads6_11 hstart6_11 nbuf6_11 (Memref.isWhole_whole _) hwx6_11 hwxs6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S100000x7 : Shape := ⟨2, ![100000, 7]⟩
abbrev S2x1000000 : Shape := ⟨2, ![2, 1000000]⟩
abbrev S1000000x5 : Shape := ⟨2, ![1000000, 5]⟩
abbrev S7x64 : Shape := ⟨2, ![7, 64]⟩
abbrev S64 : Shape := ⟨1, ![64]⟩
abbrev S5x64 : Shape := ⟨2, ![5, 64]⟩
abbrev S128x64 : Shape := ⟨2, ![128, 64]⟩
abbrev S133x64 : Shape := ⟨2, ![133, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1000000 : Shape := ⟨2, ![1, 1000000]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S100000x1 : Shape := ⟨2, ![100000, 1]⟩
abbrev S1000000x64 : Shape := ⟨2, ![1000000, 64]⟩
abbrev S1000000x1 : Shape := ⟨2, ![1000000, 1]⟩
abbrev S1000000x128 : Shape := ⟨2, ![1000000, 128]⟩
abbrev S100000x128 : Shape := ⟨2, ![100000, 128]⟩
abbrev S1000000x133 : Shape := ⟨2, ![1000000, 133]⟩
abbrev S1000000x32 : Shape := ⟨2, ![1000000, 32]⟩
abbrev S1x32 : Shape := ⟨2, ![1, 32]⟩
abbrev S1x1 : Shape := ⟨2, ![1, 1]⟩

abbrev nBuf : Space → Nat
  | .hbm => 292
  | .vmem => 0
  | .smem => 0
  | _ => 0

abbrev hbmTy0_0 (i : Nat) : BufTy := match i % 128 with
  | 0 => ⟨S100000x7, .f32⟩
  | 1 => ⟨S2x1000000, .i32⟩
  | 2 => ⟨S1000000x5, .f32⟩
  | 3 => ⟨S7x64, .f32⟩
  | 4 => ⟨S64, .f32⟩
  | 5 => ⟨S64, .f32⟩
  | 6 => ⟨S64, .f32⟩
  | 7 => ⟨S5x64, .f32⟩
  | 8 => ⟨S64, .f32⟩
  | 9 => ⟨S64, .f32⟩
  | 10 => ⟨S64, .f32⟩
  | 11 => ⟨S128x64, .f32⟩
  | 12 => ⟨S64, .f32⟩
  | 13 => ⟨S128x64, .f32⟩
  | 14 => ⟨S64, .f32⟩
  | 15 => ⟨S64, .f32⟩
  | 16 => ⟨S64, .f32⟩
  | 17 => ⟨S128x64, .f32⟩
  | 18 => ⟨S64, .f32⟩
  | 19 => ⟨S128x64, .f32⟩
  | 20 => ⟨S64, .f32⟩
  | 21 => ⟨S64, .f32⟩
  | 22 => ⟨S64, .f32⟩
  | 23 => ⟨S133x64, .f32⟩
  | 24 => ⟨S64, .f32⟩
  | 25 => ⟨S64x32, .f32⟩
  | 26 => ⟨S32, .f32⟩
  | 27 => ⟨S32x1, .f32⟩
  | 28 => ⟨S1, .f32⟩
  | 29 => ⟨S1x1000000, .i32⟩
  | 30 => ⟨S1000000, .i32⟩
  | 31 => ⟨S1x1000000, .i32⟩
  | 32 => ⟨S1000000, .i32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S_, .f32⟩
  | 41 => ⟨S100000, .f32⟩
  | 42 => ⟨S100000x1, .f32⟩
  | 43 => ⟨S_, .f32⟩
  | 44 => ⟨S100000x1, .f32⟩
  | 45 => ⟨S100000x1, .f32⟩
  | 46 => ⟨S100000x64, .f32⟩
  | 47 => ⟨S100000x64, .f32⟩
  | 48 => ⟨S100000x64, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S100000x64, .f32⟩
  | 56 => ⟨S100000x64, .f32⟩
  | 57 => ⟨S_, .f32⟩
  | 58 => ⟨S100000x1, .f32⟩
  | 59 => ⟨S100000x1, .f32⟩
  | 60 => ⟨S100000x1, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S1000000x64, .f32⟩
  | 70 => ⟨S1x64, .f32⟩
  | 71 => ⟨S1000000x64, .f32⟩
  | 72 => ⟨S1000000x64, .f32⟩
  | 73 => ⟨S_, .f32⟩
  | 74 => ⟨S1000000x64, .f32⟩
  | 75 => ⟨S1000000x64, .f32⟩
  | 76 => ⟨S_, .f32⟩
  | 77 => ⟨S1000000, .f32⟩
  | 78 => ⟨S1000000x1, .f32⟩
  | 79 => ⟨S_, .f32⟩
  | 80 => ⟨S1000000x1, .f32⟩
  | 81 => ⟨S1000000x1, .f32⟩
  | 82 => ⟨S1000000x64, .f32⟩
  | 83 => ⟨S1000000x64, .f32⟩
  | 84 => ⟨S1000000x64, .f32⟩
  | 85 => ⟨S_, .f32⟩
  | 86 => ⟨S1000000, .f32⟩
  | 87 => ⟨S1000000x1, .f32⟩
  | 88 => ⟨S_, .f32⟩
  | 89 => ⟨S1000000x1, .f32⟩
  | 90 => ⟨S1000000x1, .f32⟩
  | 91 => ⟨S1000000x64, .f32⟩
  | 92 => ⟨S1000000x64, .f32⟩
  | 93 => ⟨S_, .f32⟩
  | 94 => ⟨S1000000x1, .f32⟩
  | 95 => ⟨S1000000x1, .f32⟩
  | 96 => ⟨S1000000x1, .f32⟩
  | 97 => ⟨S1000000x64, .f32⟩
  | 98 => ⟨S1000000x64, .f32⟩
  | 99 => ⟨S1x64, .f32⟩
  | 100 => ⟨S1000000x64, .f32⟩
  | 101 => ⟨S1000000x64, .f32⟩
  | 102 => ⟨S1x64, .f32⟩
  | 103 => ⟨S1000000x64, .f32⟩
  | 104 => ⟨S1000000x64, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x64, .f32⟩
  | 114 => ⟨S1000000x128, .f32⟩
  | 115 => ⟨S1000000x64, .f32⟩
  | 116 => ⟨S1x64, .f32⟩
  | 117 => ⟨S1000000x64, .f32⟩
  | 118 => ⟨S1000000x64, .f32⟩
  | 119 => ⟨S_, .f32⟩
  | 120 => ⟨S1000000x64, .f32⟩
  | 121 => ⟨S1000000x64, .f32⟩
  | 122 => ⟨S_, .f32⟩
  | 123 => ⟨S100000x64, .f32⟩
  | 124 => ⟨S1000000x1, .i32⟩
  | 125 => ⟨S100000x64, .f32⟩
  | 126 => ⟨S_, .f32⟩
  | 127 => ⟨S1000000, .f32⟩
  | _ => ⟨S100000x7, .f32⟩

abbrev hbmTy0_1 (i : Nat) : BufTy := match i % 128 with
  | 0 => ⟨S_, .f32⟩
  | 1 => ⟨S100000, .f32⟩
  | 2 => ⟨S1000000x1, .i32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x64, .f32⟩
  | 9 => ⟨S100000x64, .f32⟩
  | 10 => ⟨S100000x128, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S100000, .f32⟩
  | 17 => ⟨S100000x1, .f32⟩
  | 18 => ⟨S_, .f32⟩
  | 19 => ⟨S100000x1, .f32⟩
  | 20 => ⟨S100000x1, .f32⟩
  | 21 => ⟨S100000x64, .f32⟩
  | 22 => ⟨S100000x64, .f32⟩
  | 23 => ⟨S100000x64, .f32⟩
  | 24 => ⟨S_, .f32⟩
  | 25 => ⟨S100000, .f32⟩
  | 26 => ⟨S100000x1, .f32⟩
  | 27 => ⟨S_, .f32⟩
  | 28 => ⟨S100000x1, .f32⟩
  | 29 => ⟨S100000x1, .f32⟩
  | 30 => ⟨S100000x64, .f32⟩
  | 31 => ⟨S100000x64, .f32⟩
  | 32 => ⟨S_, .f32⟩
  | 33 => ⟨S100000x1, .f32⟩
  | 34 => ⟨S100000x1, .f32⟩
  | 35 => ⟨S100000x1, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S100000x64, .f32⟩
  | 45 => ⟨S_, .f32⟩
  | 46 => ⟨S100000x64, .f32⟩
  | 47 => ⟨S100000x64, .f32⟩
  | 48 => ⟨S_, .i32⟩
  | 49 => ⟨S1000000, .i32⟩
  | 50 => ⟨S1000000, .i1⟩
  | 51 => ⟨S_, .i32⟩
  | 52 => ⟨S1000000, .i32⟩
  | 53 => ⟨S1000000, .i32⟩
  | 54 => ⟨S1000000, .i32⟩
  | 55 => ⟨S1000000x1, .i32⟩
  | 56 => ⟨S1000000x64, .f32⟩
  | 57 => ⟨S1000000x128, .f32⟩
  | 58 => ⟨S1000000x64, .f32⟩
  | 59 => ⟨S1x64, .f32⟩
  | 60 => ⟨S1000000x64, .f32⟩
  | 61 => ⟨S1000000x64, .f32⟩
  | 62 => ⟨S_, .f32⟩
  | 63 => ⟨S1000000x64, .f32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S_, .f32⟩
  | 70 => ⟨S1000000, .f32⟩
  | 71 => ⟨S_, .f32⟩
  | 72 => ⟨S100000, .f32⟩
  | 73 => ⟨S1000000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x64, .f32⟩
  | 80 => ⟨S100000x64, .f32⟩
  | 81 => ⟨S100000x128, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000, .f32⟩
  | 88 => ⟨S100000x1, .f32⟩
  | 89 => ⟨S_, .f32⟩
  | 90 => ⟨S100000x1, .f32⟩
  | 91 => ⟨S100000x1, .f32⟩
  | 92 => ⟨S100000x64, .f32⟩
  | 93 => ⟨S100000x64, .f32⟩
  | 94 => ⟨S100000x64, .f32⟩
  | 95 => ⟨S_, .f32⟩
  | 96 => ⟨S100000, .f32⟩
  | 97 => ⟨S100000x1, .f32⟩
  | 98 => ⟨S_, .f32⟩
  | 99 => ⟨S100000x1, .f32⟩
  | 100 => ⟨S100000x1, .f32⟩
  | 101 => ⟨S100000x64, .f32⟩
  | 102 => ⟨S100000x64, .f32⟩
  | 103 => ⟨S_, .f32⟩
  | 104 => ⟨S100000x1, .f32⟩
  | 105 => ⟨S100000x1, .f32⟩
  | 106 => ⟨S100000x1, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x64, .f32⟩
  | _ => ⟨S100000x7, .f32⟩

abbrev hbmTy0_2 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .f32⟩
  | 9 => ⟨S1000000x133, .f32⟩
  | 10 => ⟨S1000000x64, .f32⟩
  | 11 => ⟨S1x64, .f32⟩
  | 12 => ⟨S1000000x64, .f32⟩
  | 13 => ⟨S1000000x64, .f32⟩
  | 14 => ⟨S_, .f32⟩
  | 15 => ⟨S1000000x64, .f32⟩
  | 16 => ⟨S1000000x64, .f32⟩
  | 17 => ⟨S1000000x32, .f32⟩
  | 18 => ⟨S1x32, .f32⟩
  | 19 => ⟨S1000000x32, .f32⟩
  | 20 => ⟨S1000000x32, .f32⟩
  | 21 => ⟨S_, .f32⟩
  | 22 => ⟨S1000000x32, .f32⟩
  | 23 => ⟨S1000000x32, .f32⟩
  | 24 => ⟨S1000000x1, .f32⟩
  | 25 => ⟨S1x1, .f32⟩
  | 26 => ⟨S1000000x1, .f32⟩
  | 27 => ⟨S1000000x1, .f32⟩
  | 28 => ⟨S1000000x1, .f32⟩
  | 29 => ⟨S1000000x1, .f32⟩
  | 30 => ⟨S_, .f32⟩
  | 31 => ⟨S1000000x1, .f32⟩
  | 32 => ⟨S1000000x1, .f32⟩
  | 33 => ⟨S_, .f32⟩
  | 34 => ⟨S1000000x1, .f32⟩
  | 35 => ⟨S1000000x1, .f32⟩
  | _ => ⟨S100000x7, .f32⟩

abbrev hbmTy (i : Nat) : BufTy := match i / 128 with
  | 0 => hbmTy0_0 i
  | 1 => hbmTy0_1 i
  | 2 => hbmTy0_2 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_call0_cst : Ref sig .tc := ⟨.hbm, 37, rfl⟩
abbrev main_call0_v0 : Ref sig .tc := ⟨.hbm, 38, rfl⟩
abbrev main_v8 : Ref sig .tc := ⟨.hbm, 39, rfl⟩
abbrev main_cst : Ref sig .tc := ⟨.hbm, 40, rfl⟩
abbrev main_v9 : Ref sig .tc := ⟨.hbm, 41, rfl⟩
abbrev main_v10 : Ref sig .tc := ⟨.hbm, 42, rfl⟩
abbrev main_cst_0 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_cst_1 : Ref sig .tc := ⟨.hbm, 49, rfl⟩
abbrev main_v16 : Ref sig .tc := ⟨.hbm, 50, rfl⟩
abbrev main_v17 : Ref sig .tc := ⟨.hbm, 51, rfl⟩
abbrev main_cst_2 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_cst_3 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_call1_cst : Ref sig .tc := ⟨.hbm, 73, rfl⟩
abbrev main_call1_v0 : Ref sig .tc := ⟨.hbm, 74, rfl⟩
abbrev main_v37 : Ref sig .tc := ⟨.hbm, 75, rfl⟩
abbrev main_cst_4 : Ref sig .tc := ⟨.hbm, 76, rfl⟩
abbrev main_v38 : Ref sig .tc := ⟨.hbm, 77, rfl⟩
abbrev main_v39 : Ref sig .tc := ⟨.hbm, 78, rfl⟩
abbrev main_cst_5 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_6 : Ref sig .tc := ⟨.hbm, 85, rfl⟩
abbrev main_v45 : Ref sig .tc := ⟨.hbm, 86, rfl⟩
abbrev main_v46 : Ref sig .tc := ⟨.hbm, 87, rfl⟩
abbrev main_cst_7 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_cst_8 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_c : Ref sig .tc := ⟨.hbm, 105, rfl⟩
abbrev main_v62 : Ref sig .tc := ⟨.hbm, 106, rfl⟩
abbrev main_v63 : Ref sig .tc := ⟨.hbm, 107, rfl⟩
abbrev main_c_9 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_call2_cst : Ref sig .tc := ⟨.hbm, 119, rfl⟩
abbrev main_call2_v0 : Ref sig .tc := ⟨.hbm, 120, rfl⟩
abbrev main_v74 : Ref sig .tc := ⟨.hbm, 121, rfl⟩
abbrev main_cst_10 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_11 : Ref sig .tc := ⟨.hbm, 126, rfl⟩
abbrev main_v78 : Ref sig .tc := ⟨.hbm, 127, rfl⟩
abbrev main_cst_12 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_13 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_cst_14 : Ref sig .tc := ⟨.hbm, 143, rfl⟩
abbrev main_v92 : Ref sig .tc := ⟨.hbm, 144, rfl⟩
abbrev main_v93 : Ref sig .tc := ⟨.hbm, 145, rfl⟩
abbrev main_cst_15 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_cst_16 : Ref sig .tc := ⟨.hbm, 152, rfl⟩
abbrev main_v99 : Ref sig .tc := ⟨.hbm, 153, rfl⟩
abbrev main_v100 : Ref sig .tc := ⟨.hbm, 154, rfl⟩
abbrev main_cst_17 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_18 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_call3_cst : Ref sig .tc := ⟨.hbm, 173, rfl⟩
abbrev main_call3_v0 : Ref sig .tc := ⟨.hbm, 174, rfl⟩
abbrev main_v117 : Ref sig .tc := ⟨.hbm, 175, rfl⟩
abbrev main_c_19 : Ref sig .tc := ⟨.hbm, 176, rfl⟩
abbrev main_v118 : Ref sig .tc := ⟨.hbm, 177, rfl⟩
abbrev main_v119 : Ref sig .tc := ⟨.hbm, 178, rfl⟩
abbrev main_c_20 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_call4_cst : Ref sig .tc := ⟨.hbm, 190, rfl⟩
abbrev main_call4_v0 : Ref sig .tc := ⟨.hbm, 191, rfl⟩
abbrev main_v130 : Ref sig .tc := ⟨.hbm, 192, rfl⟩
abbrev main_cst_21 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_cst_22 : Ref sig .tc := ⟨.hbm, 197, rfl⟩
abbrev main_v134 : Ref sig .tc := ⟨.hbm, 198, rfl⟩
abbrev main_cst_23 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_cst_24 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_cst_25 : Ref sig .tc := ⟨.hbm, 214, rfl⟩
abbrev main_v148 : Ref sig .tc := ⟨.hbm, 215, rfl⟩
abbrev main_v149 : Ref sig .tc := ⟨.hbm, 216, rfl⟩
abbrev main_cst_26 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_cst_27 : Ref sig .tc := ⟨.hbm, 223, rfl⟩
abbrev main_v155 : Ref sig .tc := ⟨.hbm, 224, rfl⟩
abbrev main_v156 : Ref sig .tc := ⟨.hbm, 225, rfl⟩
abbrev main_cst_28 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_cst_29 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_call5_cst : Ref sig .tc := ⟨.hbm, 244, rfl⟩
abbrev main_call5_v0 : Ref sig .tc := ⟨.hbm, 245, rfl⟩
abbrev main_v173 : Ref sig .tc := ⟨.hbm, 246, rfl⟩
abbrev main_c_30 : Ref sig .tc := ⟨.hbm, 247, rfl⟩
abbrev main_v174 : Ref sig .tc := ⟨.hbm, 248, rfl⟩
abbrev main_v175 : Ref sig .tc := ⟨.hbm, 249, rfl⟩
abbrev main_c_31 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_c_32 : Ref sig .tc := ⟨.hbm, 256, rfl⟩
abbrev main_v181 : Ref sig .tc := ⟨.hbm, 257, rfl⟩
abbrev main_v182 : Ref sig .tc := ⟨.hbm, 258, rfl⟩
abbrev main_c_33 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_call6_cst : Ref sig .tc := ⟨.hbm, 270, rfl⟩
abbrev main_call6_v0 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_v196 : Ref sig .tc := ⟨.hbm, 275, rfl⟩
abbrev main_v197 : Ref sig .tc := ⟨.hbm, 276, rfl⟩
abbrev main_call7_cst : Ref sig .tc := ⟨.hbm, 277, rfl⟩
abbrev main_call7_v0 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_cst_34 : Ref sig .tc := ⟨.hbm, 286, rfl⟩
abbrev main_v205 : Ref sig .tc := ⟨.hbm, 287, rfl⟩
abbrev main_v206 : Ref sig .tc := ⟨.hbm, 288, rfl⟩
abbrev main_cst_35 : Ref sig .tc := ⟨.hbm, 289, rfl⟩
abbrev main_v207 : Ref sig .tc := ⟨.hbm, 290, rfl⟩
abbrev main_v208 : Ref sig .tc := ⟨.hbm, 291, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S1000000_d1 : S1000000x64.ReducesTo [1] S1000000
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S1000000 : S_.BroadcastsInDim S1000000 (![] : Fin 0 → Fin S1000000.rank)
  concatenates_S1000000x64_S1000000x64_S1000000x128_d1 : Shape.Concatenates [S1000000x64, S1000000x64] S1000000x128 1
  bcast_S_S100000 : S_.BroadcastsInDim S100000 (![] : Fin 0 → Fin S100000.rank)
  concatenates_S100000x64_S100000x64_S100000x128_d1 : Shape.Concatenates [S100000x64, S100000x64] S100000x128 1
  concatenates_S1000000x64_S1000000x64_S1000000x5_S1000000x133_d1 : Shape.Concatenates [S1000000x64, S1000000x64, S1000000x5] S1000000x133 1
  bcast_S32_S1x32_1 : S32.BroadcastsInDim S1x32 (![1] : Fin 1 → Fin S1x32.rank)
  bcast_S1x32_S1000000x32_0_1 : S1x32.BroadcastsInDim S1000000x32 (![0, 1] : Fin 2 → Fin S1000000x32.rank)
  bcast_S_S1000000x32 : S_.BroadcastsInDim S1000000x32 (![] : Fin 0 → Fin S1000000x32.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S100000x7_S7x64_S100000x64_1_0_0_1_n_n_wf : DotDims.WF S100000x7 S7x64 S100000x64 [1] [0] [0] [1] [] []
  dot_S1000000x5_S5x64_S1000000x64_1_0_0_1_n_n_wf : DotDims.WF S1000000x5 S5x64 S1000000x64 [1] [0] [0] [1] [] []
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x128_S128x64_S100000x64_1_0_0_1_n_n_wf : DotDims.WF S100000x128 S128x64 S100000x64 [1] [0] [0] [1] [] []
  dot_S1000000x133_S133x64_S1000000x64_1_0_0_1_n_n_wf : DotDims.WF S1000000x133 S133x64 S1000000x64 [1] [0] [0] [1] [] []
  dot_S1000000x64_S64x32_S1000000x32_1_0_0_1_n_n_wf : DotDims.WF S1000000x64 S64x32 S1000000x32 [1] [0] [0] [1] [] []
  dot_S1000000x32_S32x1_S1000000x1_1_0_0_1_n_n_wf : DotDims.WF S1000000x32 S32x1 S1000000x1 [1] [0] [0] [1] [] []

variable [Facts₀]

def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def dot_S1000000x5_S5x64_S1000000x64_1_0_0_1_n_n : DotDims S1000000x5 S5x64 S1000000x64 where
  lhsContracting := [1]
  rhsContracting := [0]
  lhsNonContracting := [0]
  rhsNonContracting := [1]
  lhsBatch := []
  rhsBatch := []
  wf := dot_S1000000x5_S5x64_S1000000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1000000x133_S133x64_S1000000x64_1_0_0_1_n_n : DotDims S1000000x133 S133x64 S1000000x64 where
  lhsContracting := [1]
  rhsContracting := [0]
  lhsNonContracting := [0]
  rhsNonContracting := [1]
  lhsBatch := []
  rhsBatch := []
  wf := dot_S1000000x133_S133x64_S1000000x64_1_0_0_1_n_n_wf
def dot_S1000000x64_S64x32_S1000000x32_1_0_0_1_n_n : DotDims S1000000x64 S64x32 S1000000x32 where
  lhsContracting := [1]
  rhsContracting := [0]
  lhsNonContracting := [0]
  rhsNonContracting := [1]
  lhsBatch := []
  rhsBatch := []
  wf := dot_S1000000x64_S64x32_S1000000x32_1_0_0_1_n_n_wf
def dot_S1000000x32_S32x1_S1000000x1_1_0_0_1_n_n : DotDims S1000000x32 S32x1 S1000000x1 where
  lhsContracting := [1]
  rhsContracting := [0]
  lhsNonContracting := [0]
  rhsNonContracting := [1]
  lhsBatch := []
  rhsBatch := []
  wf := dot_S1000000x32_S32x1_S1000000x1_1_0_0_1_n_n_wf

class Facts : Prop extends Facts₀ where

variable [Facts]
-- ==== Proof.K.Alg.lean ====
import proofs.«178696_j1468878815658_2_alg».proof.Proof.Gen.Kernel.Regions
import Idealize.ShloMosaic.Lib.Pipeline.Kit
import Idealize.ShloMosaic.Lib.Pipeline.Frame
import Idealize.ShloMosaic.Lib.Pipeline.FrameSuffix
import Idealize.ShloMosaic.Lib.Pipeline.Regions

/-!
  The launch's vocabulary. @main is run on every core as ONE account from the launch to the return, in which the
  buffers' contents between two items are known only to exist: a row-tiled window's last block overhangs its array,
  its fetch leaves the staging buffer's tail at words nothing names, and what a body computes from such a block is
  not a function fixed before the run at every float instance. So the thread state between items is "every unscoped
  buffer at SOME valuation satisfying a predicate", and each region's proof data are chosen when the region is
  reached. The pipelines' cells and duty tokens that each region needs are funded at launch in a second copy of the
  rounds algebra and ride along in the thread state.
-/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: two copies of the rounds library's. The first is the launch theorem's own; the second funds the
    regions as the account of @main enters them. -/
abbrev UU : Type := UR sig nD τ × UR sig nD τ

local notation "𝕄" => MT nD τ sig Unit (Elt F) ℕ UU ℕ

/-- The launch theorem's copy. -/
abbrev EPk : Emb (UR sig nD τ) (MT nD τ sig Unit (Elt F) ℕ UU ℕ) := embL
/-- The regions' copy. -/
abbrev EPg : Emb (UR sig nD τ) (MT nD τ sig Unit (Elt F) ℕ UU ℕ) := embR

/-- No core owes another anything: no level is assigned. -/
abbrev Lr : GSem nD τ sig → Finset Unit := fun _ => ∅
abbrev lvr : GSem nD τ sig → Unit → ℕ := fun _ _ => 0

/-- What rides beside the buffers: the generator register at some state. -/
abbrev Pr (c : Dev nD) : sProp 𝕄 := iprop(∃ r, prngReg c r)
/-- The core owes nothing. -/
abbrev Ow (c : Dev nD) : sProp 𝕄 := iprop(∃ W, owes (c : Thread nD τ) (0 : CellTallies nD τ sig Unit) W)

/-- Pipeline `p`'s cells' ghost state and duty tokens on core `c`, in the regions' copy: what entering region `p` takes. -/
abbrev Gp (p : Fin 7) (c : Dev nD) : sProp 𝕄 :=
  iprop(Pipeline.cellsGhost (Pipeline.pin (pcfgs (F := F)) adm) EPg p c ∗ Pipeline.toksInit (Pipeline.pin (pcfgs (F := F)) adm) EPg p c)

/-- Every unscoped buffer of core `c` held whole at the valuation `W`. -/
abbrev Held (c : Dev nD) (W : Valuation τ sig (Elt F)) : sProp 𝕄 :=
  StableHlo.held (c : Thread nD τ) (Pipeline.ucRefs τ sig) W

/-- A valuation `W` of one core's buffers as a region's proof data take the entry contents. -/
abbrev VW (W : Valuation τ sig (Elt F)) : (c : Dev nD) → (b : Ref sig .tc) → Buf (Elt F) ((c : Thread nD τ).loc b) := fun _ b => W b

/-- The thread state between two items: the unscoped buffers at SOME valuation satisfying `I`. -/
def TS (I : Valuation τ sig (Elt F) → Prop) (c : Dev nD) : sProp 𝕄 :=
  iprop(∃ W : Valuation τ sig (Elt F), ⌜I W⌝ ∗ Held c W)

/-- @main's arguments. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-- The valuation `W` of core `c`'s buffers has every argument at its launch contents. -/
def ArgsOf (m : (ℓ : Loc nD τ sig) → Buf (Elt F) ℓ) (c : Dev nD) (W : Valuation τ sig (Elt F)) : Prop :=
  ∀ r ∈ argRefs, W (Proc.devRef .tc r) = m ((c : Thread nD τ).loc r)

end Cert.Kernel.Gen

end
-- ==== Proof.K.Top.lean ====
import proofs.«178696_j1468878815658_2_alg».proof.Proof.K.Alg
import Idealize.ShloMosaic.Lib.Pipeline.Kit
import Idealize.ShloMosaic.Lib.Pipeline.Sound
import Idealize.ShloMosaic.Lib.Pipeline.Frame
import Idealize.ShloMosaic.Lib.Pipeline.Regions

/-!
  The launch. A per-core account of the whole of @main — from the launch's thread state to a last one, in
  continuation-passing form — gives the run of @main on every core: the pipeline library's launch theorem is applied
  with @main as ONE host stretch, the library keeping the first copy of the rounds algebra and the second funding every
  pipeline's ghost state and duty tokens at launch.
-/

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Top

variable (m : (ℓ : Loc nD τ sig) → Buf (Elt F) ℓ) (ρ : Dev nD → PrngReg)

/-- The launch theorem asks for proof data of every pipeline. @main is run as ONE host stretch, so no region is entered
    through the theorem and the data are never read: they name nothing. -/
def rdats0 (p : Fin 7) (c : Dev nD) : Pipeline.RDat τ (Elt F) Unit ℕ UU ℕ (Pipeline.pin (pcfgs (F := F)) adm p) c where
  A := fun _ => Classical.arbitrary _
  after := fun _ _ _ _ => True
  Φ := fun _ => BI.emp
  q := fun _ => fullShare
  owed := fun _ => 0

set_option backward.isDefEq.respectTransparency.types false in
/-- THE LAUNCH, from a per-core account of @main. If on every core @main runs — in continuation-passing form — from
    the boundary, every unscoped buffer held at its launch contents, the generator register, the core owing nothing,
    every pipeline's ghost state (in the regions' copy of the rounds algebra) and the level facts, to the boundary and
    a last thread state `Tn c` beside the core owing nothing, and `Tn c` read against a final state gives `QY c`,
    then every weakly fair execution of @main from memory `m` with zero counters terminates, nothing faulting, in a
    state satisfying `Q`. -/
theorem run_of_account
    (Tn : Dev nD → sProp 𝕄) (QY : Dev nD → MemSt nD τ sig (Elt F) → Prop)
    (hacc : ∀ (c : Dev nD) {β : Type}
        (k : PUnit → Prog (TpuEff nD τ sig (Elt F) (Pipeline.Sig Λ₀ (Fin 7) fun p => (pcfgs (F := F) p).Adm) .tc) β) (K : β → sProp 𝕄),
      iprop((iprop(boundary (c : Thread nD τ) ∗ Tn c ∗ Ow c)
              -∗ wp frame (wpE (defs (F := F)) (Variants.lift Variants.none) (c : Thread nD τ) none) Set.univ (k ⟨⟩) K)
          ∗ boundary (c : Thread nD τ)
          ∗ (Held c (fun b => m (c, b)) ∗ Pr c ∗ Ow c ∗ bigSep Finset.univ (fun p : Fin 7 => Gp (F := F) p c))
          ∗ levAts Lr lvr)
        ⊢ wp frame (wpE (defs (F := F)) (Variants.lift Variants.none) (c : Thread nD τ) none) Set.univ (main (F := F) c >>= k) K)
    (hfin : ∀ c (s' : Phys nD τ sig (Elt F)), iprop(Tn c ∗ SI s') ⊢ |={Set.univ}=> iprop(⌜QY c s'.mem⌝ ∗ SI s'))
    {Q : PUnit × MemSt nD τ sig (Elt F) → Prop} (hQ : ∀ s : MemSt nD τ sig (Elt F), (∀ c : Dev nD, QY c s) → Q (⟨⟩, s)) :
    θ_run (defs (F := F)) (onTc (τ := τ) (main (F := F))) ⟨m, fun _ => 0, ρ⟩ Q := by
  -- the launch element of the rounds algebra, once per copy
  let u : UR sig nD τ := initOf (Pipeline.cells cfgs cellOf_inj) (Pipeline.launchToks cfgs cellOf_inj)
  -- @main whole as one host stretch, on core `c`: its program does not depend on the core
  let H : Dev nD → Pipeline.HostSeg (Ix := Unit) (Name := ℕ) (U := UU) (Lvl := ℕ) (pcfgs (F := F)) defs₀ Variants.none Lr lvr := fun c =>
    { prog := main c
      pre := fun c' => iprop(Held c' (fun b => m (c', b)) ∗ Pr c' ∗ Ow c' ∗ bigSep Finset.univ (fun p : Fin 7 => Gp (F := F) p c'))
      post := fun c' => iprop(Tn c' ∗ Ow c')
      run := fun c' β k K => by
        have h := hacc c' k K
        rw [show main (F := F) c' = main c from (main_chain c').trans (main_chain c).symm] at h
        exact h }
  refine Pipeline.RDat.θ_run_regions_kit_dev (pcfgs (F := F)) adm (rdats0 (F := F)) () cellOf_inj EPk defs₀ Variants.none Lr lvr m ρ main
    (fun c => [.host (H c)])
    (hmain := fun c Q => ?hmain) (hnd := fun c => List.nodup_nil) (O₀ := 0) (hL := fun _ _ => rfl)
    (G := fun c => bigSep Finset.univ (fun p : Fin 7 => Gp (F := F) p c)) (u₀ := (u, u)) (hu₀ := ?hu)
    (T₀ := fun c => iprop(Held c (fun b => m (c, b)) ∗ Pr c ∗ Ow c ∗ bigSep Finset.univ (fun p : Fin 7 => Gp (F := F) p c)))
    (Tₙ := Tn) (hch := fun c => ⟨.rfl, .rfl⟩) (hinit := ?hinit) (QY := QY) (hfin := hfin) (hQ := hQ)
  case hmain =>
    -- the one stretch's run is @main followed by the return
    have e : Pipeline.RDat.Seg.run ([.host (H c)] : List (Pipeline.RDat.Seg (pcfgs (F := F)) adm (rdats0 (F := F)) () defs₀ Variants.none Lr lvr))
        = main (F := F) c := Prog.bind_pure (main c)
    rw [e]
  case hu =>
    -- the pair splits into its halves; the left is the launch theorem's, the right funds every pipeline's ghost
    -- state and duty tokens, regrouped core by core and pipeline by pipeline
    have hghost : iprop((bigSep Finset.univ fun c : Dev nD => bigSep Finset.univ fun p : Fin 7 => Pipeline.cellsGhost (Pipeline.pin (pcfgs (F := F)) adm) EPg p c)
          ∗ (bigSep Finset.univ fun c : Dev nD => bigSep Finset.univ fun p : Fin 7 => (Pipeline.toksInit (Pipeline.pin (pcfgs (F := F)) adm) EPg p c : sProp 𝕄)))
        ⊢ bigSep Finset.univ fun c : Dev nD => bigSep Finset.univ fun p : Fin 7 => Gp (F := F) p c := by
      rw [← bigSep_sep']
      refine bigSep_mono fun c _ => ?_
      rw [← bigSep_sep']
      exact BI.Entails.refl _
    iintro Hu
    ihave Hs := (ownU_pair _ _) $$ Hu
    icases Hs with ⟨HP, HG⟩
    imod (Pipeline.fund_ghost (Pipeline.pin (pcfgs (F := F)) adm) EPg cellOf_inj) $$ HG with ⟨Hg, Ht⟩
    imodintro
    isplitl [HP]; · iexact HP
    iapply hghost
    isplitl [Hg] <;> iassumption
  case hinit =>
    -- each core by itself: its unscoped buffers are held at the launch contents, the register is at its launch
    -- state, the core owes nothing, and its share of the ghost state rides along
    refine Pipeline.initEach Lr lvr fun c => ?_
    rw [show unscopedBufs c (fun b => m ((c : Thread nD τ).loc b)) = Held c (fun b => m (c, b))
      from Pipeline.unscopedBufs_held c (fun b => m (c, b))]
    iintro ⟨⟨Hh, -, HO, -, Hp, HG⟩, -⟩
    imodintro
    isplitl [Hh]; · iexact Hh
    isplitl [Hp]; · iexists _; iexact Hp
    isplitl [HO]; · iexists ∅; iexact HO
    iexact HG

end Top

end Cert.Kernel.Gen

end
-- ==== Proof.K.Outs.lean ====
import proofs.«178696_j1468878815658_2_alg».proof.Proof.Gen.Kernel.Skeleton

/-!
  What each region's body stores into its output block, as one function of the blocks it loads: the skeleton's
  payloads composed. Every body is whole loads followed by one whole store, so this is all of a body's value.
-/

noncomputable section

namespace Cert.Kernel.Gen

open Idealize.ShloMosaic

variable {F : FTy → Type} [FloatOps F]

/-- Region 0, the node encoder: block of `x`, weights, bias, scale, shift. -/
def out0 (x : Vec F S8192x7 .f32) (w : Vec F S7x64 .f32) (b g β : Vec F S1x64 .f32) : FVec F S8192x64 .bf16 :=
  k0_pay1 x w b g β
/-- Region 1, the edge encoder. -/
def out1 (x : Vec F S8192x5 .f32) (w : Vec F S5x64 .f32) (b g β : Vec F S1x64 .f32) : FVec F S8192x64 .bf16 :=
  k1_pay1 x w b g β
/-- Region 2, the first message layer: gathered source rows, encoded edges, the two halves of the weights, bias. -/
def out2 (xs e : Vec F S8192x64 .bf16) (ws we : Vec F S64x64 .f32) (b : Vec F S1x64 .f32) : FVec F S8192x64 .bf16 :=
  k2_pay1 xs e ws we b
/-- Region 3, the first node update: node rows, summed messages, clamped counts, the two halves of the weights, bias,
    scale, shift. -/
def out3 (h : Vec F S4096x64 .bf16) (ms : Vec F S4096x64 .f32) (cnt : Vec F S4096x1 .f32) (wh wm : Vec F S64x64 .f32)
    (b g β : Vec F S1x64 .f32) : FVec F S4096x64 .bf16 :=
  k3_pay1 (k3_pay2 h) (k3_pay3 ms cnt h wh wm b) (k3_pay4 g) (k3_pay5 β) (k3_pay6 ms cnt h wh wm b) (k3_pay7 ms cnt h wh wm b)
/-- Region 4, the second message layer. -/
def out4 (xs e : Vec F S8192x64 .bf16) (ws we : Vec F S64x64 .f32) (b : Vec F S1x64 .f32) : FVec F S8192x64 .bf16 :=
  k4_pay1 xs e ws we b
/-- Region 5, the second node update. -/
def out5 (h : Vec F S4096x64 .bf16) (ms : Vec F S4096x64 .f32) (cnt : Vec F S4096x1 .f32) (wh wm : Vec F S64x64 .f32)
    (b g β : Vec F S1x64 .f32) : FVec F S4096x64 .bf16 :=
  k5_pay1 (k5_pay2 h) (k5_pay3 ms cnt h wh wm b) (k5_pay4 g) (k5_pay5 β) (k5_pay6 ms cnt h wh wm b) (k5_pay7 ms cnt h wh wm b)
/-- Region 6, the edge predictor: source and target rows, edge attributes, the three slices of the first weights and
    its bias, the second layer, the third. -/
def out6 (hs ht : Vec F S4096x64 .bf16) (ea : Vec F S4096x5 .f32) (w1s w1t : Vec F S64x64 .f32) (w1e : Vec F S5x64 .f32)
    (b1 : Vec F S1x64 .f32) (w2 : Vec F S64x32 .f32) (b2 : Vec F S1x32 .f32) (w3 : Vec F S32x1 .f32) (b3 : Vec F S1x1 .f32) :
    FVec F S4096x1 .f32 :=
  k6_pay1 (k6_pay2 hs ht ea w1s w1t w1e b1 w2 b2) (k6_pay3 (F := F)) w3 b3

end Cert.Kernel.Gen

end
-- ==== Proof.K.Dat0.lean ====
import proofs.«178696_j1468878815658_2_alg».proof.Proof.K.Outs
import proofs.«178696_j1468878815658_2_alg».proof.Proof.Gen.Kernel.Launch
import proofs.«178696_j1468878815658_2_alg».proof.Proof.Gen.Kernel.Points
import Idealize.ShloMosaic.Lib.Pipeline.Kit
import Idealize.ShloMosaic.Lib.Pipeline.FrameBody
import Idealize.ShloMosaic.Lib.Pipeline.Frame

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 0: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same filled out to the whole staging buffer with a word of no account. -/
def fblk0 (c : Dev nD) (w : Fin cfg0.W) (t : Fin cfg0.N) : (cfg0.win w).block.Idx → Elt F (cfg0.win w).elt :=
  (cfg0.win w).fill (cfg0.grid.coords t) (fun _ => Classical.arbitrary _) (iblk0 V c w t)

/-- The proof data of region 0 on core `c`: the arrays as the region finds them; after the body each input's buffer
    at its block and the output's at the body's function of the input buffers; the scoped rest and the generator
    register as the invariant; nothing owed; full shares. -/
def dat0 (c : Dev nD) : Dat τ (Elt F) Unit ℕ (UR sig nD τ × UR sig nD τ) ℕ cfg0 c where
  A w := V c (Pipeline.arrRef spec0 w)
  after w t := match w with
    | ⟨0, _⟩ => fblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (fblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = fblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0 (fblk0 V c 0 t) (iblk0 V c 1 t) (iblk0 V c 2 t) (iblk0 V c 3 t) (iblk0 V c 4 t) := by dsimp only [dat0]

end Cert.Kernel.Gen

end
-- ==== Proof.K.Body0.lean ====
import proofs.«178696_j1468878815658_2_alg».proof.Proof.K.Outs
import proofs.«178696_j1468878815658_2_alg».proof.Proof.Gen.Kernel.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 0 on whole staging memrefs: from its input buffers at any contents and its output buffer at
    anything, it runs to the end without a fault, leaves the inputs as they were and the output at the region's
    function of the inputs. -/
theorem sound_kernel0 (c : Dev nD) (E : Set ℕ) (i : grid0.Coords)
    (arg1 : Memref sig .tc .vmem S8192x7 .f32) (harg1 : arg1.IsWhole) (arg2 : Memref sig .tc .vmem S7x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .bf16) (harg6 : arg6.IsWhole)
    (x : Vec F S8192x7 .f32) (w : Vec F S7x64 .f32) (b : Vec F S1x64 .f32) (g : Vec F S1x64 .f32) (β : Vec F S1x64 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare g ∗ owns (c : Thread nD τ) arg5 fullShare β ∗ (∃ d, owns (c : Thread nD τ) arg6 fullShare d)
        ∗ (iprop(owns (c : Thread nD τ) arg1 fullShare x ∗ owns (c : Thread nD τ) arg2 fullShare w ∗ owns (c : Thread nD τ) arg3 fullShare b ∗ owns (c : Thread nD τ) arg4 fullShare g ∗ owns (c : Thread nD τ) arg5 fullShare β ∗ owns (c : Thread nD τ) arg6 fullShare (out0 x w b g β)) -∗ K ⟨⟩))
      ⊢ wp frame (wpE (defs₀ (F := F)) Variants.none c none) E (cc0__encode_kernel i arg1 harg1 arg2 harg2 arg3 harg3 arg4 harg4 arg5 harg5 arg6 harg6) K := by
  -- every access is at offsets zero with the buffer's own sizes
  have hz : (![0, 0] : Fin 2 → Nat) = fun _ => 0 := funext fun a => by fin_cases a <;> rfl
  simp only [cc0__encode_kernel_eq_skeleton]; unfold cc0__encode_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output's buffer after its one store: the store's rectangle is the whole buffer, so the buffer reads the
  -- payload, and each whole load read its buffer's contents
  iexists _; isplitr
  swap; · iexact H6
  ipureintro
  rw [View.read_writes_eq_canon _ _ _ (fun y => ⟨_, List.mem_singleton_self _, View.mem_set_unit_zero hz inb_S8192x64_S8192x64_0_0 y⟩),
    View.canon_unit_zero hz]
  unfold out0
  rw [View.readAt_eq_ld, View.readAt_eq_ld, View.readAt_eq_ld, View.readAt_eq_ld, View.readAt_eq_ld,
    View.ld_unit_zero hz, View.ld_unit_zero hz, View.ld_unit_zero hz, View.ld_unit_zero hz, View.ld_unit_zero hz]

end Cert.Kernel.Gen

end
-- ==== Proof.K.Obl0.lean ====
import proofs.«178696_j1468878815658_2_alg».proof.Proof.K.Dat0
import proofs.«178696_j1468878815658_2_alg».proof.Proof.K.Body0

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut0 : Fin cfg0.W → Bool := fun | ⟨0, _⟩ => false | ⟨1, _⟩ => false | ⟨2, _⟩ => false | ⟨3, _⟩ => false | ⟨4, _⟩ => false | ⟨5, _⟩ => true | ⟨_ + 6, h⟩ => absurd h (Nat.not_lt.2 (Nat.le_add_left _ _))

theorem before0_0 (c : Dev nD) (t : Fin cfg0.N) (d) :
    (dat0 V c).before 0 t d = (cfg0.win 0).fill (cfg0.grid.coords t) d (iblk0 V c 0 t) := by
  rw [(dat0 V c).before_fetched 0 t (fetch0_0 t) d]; unfold Dat.fetched Dat.blockOf iblk0; rw [A_eq0]
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- The body obligation of region 0 at any point, the output window forgotten: the inputs' buffers hold their blocks
    (a row-tiled one filled out past the array's end with whatever the fetch left), so the body's triple applies; it
    leaves them as they were — on the rows inside the array, their blocks — and the output at contents not named. -/
theorem body_obligation0_fgt (c : Dev nD) :
    BodyObligationLoose (dat0 V c) (defs₀ (F := F)) Variants.none () Set.univ fgtOut0 := fun t => by
  rw [bigSep_W0, bigSep_W0]
  simp only [fgtOut0]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%X, HX⟩⟩
  rw [before0_0 V c t d0, before0_1 V c t d1, before0_2 V c t d2, before0_3 V c t d3, before0_4 V c t d4]
  iapply (sound_kernel0 (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) ((cfg0.win 0).fill (cfg0.grid.coords t) d0 (iblk0 V c 0 t)) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [HX]; · iexists X; iexact HX
  iintro ⟨H0, H1, H2, H3, H4, HX⟩
  isplitl [HΦ]; · iexact HΦ
  isplitl [Ho]; · iexact Ho
  isplitl [H0]
  · iexists d0
    rw [after0_0]; unfold fblk0; rw [(cfg0.win 0).cut_fill]; iexact H0
  isplitl [H1]
  · rw [after0_1]; iexact H1
  isplitl [H2]
  · rw [after0_2]; iexact H2
  isplitl [H3]
  · rw [after0_3]; iexact H3
  isplitl [H4]
  · rw [after0_4]; iexact H4
  iexists _; iexact HX

end Cert.Kernel.Gen

end
-- ==== Proof.K.Reg0.lean ====
import proofs.«178696_j1468878815658_2_alg».proof.Proof.K.Alg
import proofs.«178696_j1468878815658_2_alg».proof.Proof.K.Obl0
import proofs.«178696_j1468878815658_2_alg».proof.Proof.Gen.Kernel.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 0's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 0 is entered
variable (fgt : Fin cfg0.W → Bool)                        -- the windows whose contents after the body are left unnamed

/-- Region 0's relational proof data at the entry contents `W`. -/
def rdat0 (c : Dev nD) : Pipeline.RDat τ (Elt F) Unit ℕ UU ℕ cfg0 c := (dat0 (VW W) c).toRForget fgt

/-- The family of relational proof data with region 0's at its index. -/
abbrev rfam0 : (q : Fin 7) → (c : Dev nD) → Pipeline.RDat τ (Elt F) Unit ℕ UU ℕ (Pipeline.pin (pcfgs (F := F)) adm q) c :=
  Pipeline.RDat.familyOf (pcfgs (F := F)) adm (0 : Fin 7) (rdat0 W fgt)

/-- At its own index the family is region 0's data. -/
theorem rfam0_self (c : Dev nD) : rfam0 W fgt (0 : Fin 7) c = rdat0 W fgt c :=
  Pipeline.RDat.familyOf_self (pcfgs (F := F)) adm (0 : Fin 7) (rdat0 W fgt) c

/-- The data hold every array at the full share. -/
theorem rdat0_share (c : Dev nD) (w : Fin cfg0.W) : (rdat0 W fgt c).share w = fullShare :=
  (rdat0 W fgt c).share_full (fun _ => rfl) w

/-- The arrays after every write-back, opened: each whole at the full share at SOME contents it may then hold. -/
theorem arraysAt_open0 (c : Dev nD) :
    ((rdat0 W fgt c).arraysAt cfg0.N : sProp 𝕄)
      ⊢ iprop(∃ A : (w : Fin cfg0.W) → Buf (Elt F) ((cfg0.win w).arr.view.loc (c : Thread nD τ)),
          ⌜∀ w, (rdat0 W fgt c).ArrAt w cfg0.N (A w)⌝ ∗ Pipeline.arrPts spec0 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat0 W fgt c).ArrAt w cfg0.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg0.win w).arr.view.loc (c : Thread nD τ)
        ↦[(cfg0.win w).arr.view.set]{(rdat0 W fgt c).share w} A w : sProp 𝕄)) = Pipeline.arrPts spec0 c A := by
    unfold Pipeline.arrPts
    exact bigSep_congr fun w _ => by
      have hw : (cfg0.win w).arr.IsWhole := launch0.arr_whole w
      rw [hw.set_eq_univ, rdat0_share W fgt c w]
  rw [← hpts]
  iexact H

/-- The arrays at contents `A` beside every other unscoped buffer at `W` are the unscoped buffers held at `W` updated at
    the arrays by `A`. -/
theorem held_withArrays0 (c : Dev nD) (A : (w : Fin cfg0.W) → Buf (Elt F) ((cfg0.win w).arr.view.loc (c : Thread nD τ))) :
    iprop(Pipeline.arrPts spec0 c A ∗ Pipeline.unscopedRest (Ix := Unit) (Name := ℕ) (U := UU) (Lvl := ℕ) spec0 c (fun b => W b))
      ⊢ (Held c (Pipeline.withArrays spec0 c W A) : sProp 𝕄) := by
  unfold Held
  rw [← Pipeline.unscopedBufs_held, Pipeline.unscopedBufs_split cfgs (0 : Fin 7) launch0.win.arr_unscoped launch0.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec0 w)) ↦{fullShare} f : sProp 𝕄))
      (Pipeline.withArrays_arr spec0 launch0.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec0 c W A b fun w e =>
        (Finset.mem_sdiff.mp hb).2 (Finset.mem_image.mpr ⟨w, Finset.mem_univ _, e⟩)).symm

set_option backward.isDefEq.respectTransparency.types false in
/-- Region 0 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg0 (hbody : ∀ c, BodyObligationLoose (dat0 (VW W) c) (defs₀ (F := F)) Variants.none () Set.univ fgt) :
    Pipeline.RDat.RegionSeg (pcfgs (F := F)) adm (rfam0 W fgt) () defs₀ Variants.none Lr lvr (0 : Fin 7) where
  win := launch0.win.to₀
  block_pos := launch0.block_pos
  stage_whole := launch0.stage_whole
  K := PEmpty
  osem k := k.elim
  ho := Pipeline.OwnSemFacts.none _
  hbody c := by
    rw [rfam0_self]
    exact (hbody c).toRForget
  hwaits := Pipeline.RDat.hwaits_of_owed_zero _ _ _ _ Lr lvr (0 : Fin 7) fun c t => by
    rw [rfam0_self]; rfl
  pre c := iprop(Held c W ∗ Pr c ∗ Ow c)
  post c := iprop(∃ A : (w : Fin cfg0.W) → Buf (Elt F) ((cfg0.win w).arr.view.loc (c : Thread nD τ)),
    ⌜∀ w, (rdat0 W fgt c).ArrAt w cfg0.N (A w)⌝ ∗ Held c (Pipeline.withArrays spec0 c W A) ∗ Pr c ∗ Ow c)
  X c := Pr c
  Y c := Pr c
  Z c := Pipeline.unscopedRest (Ix := Unit) (Name := ℕ) (U := UU) (Lvl := ℕ) spec0 c (fun b => W b)
  hentry c := by
    -- the arrays at their entry contents, split out of the held buffers
    have hsplit : (Held c W : sProp 𝕄)
        ⊢ iprop((rfam0 W fgt (0 : Fin 7) c).arrays (rfam0 W fgt (0 : Fin 7) c).A
            ∗ Pipeline.unscopedRest (Ix := Unit) (Name := ℕ) (U := UU) (Lvl := ℕ) spec0 c (fun b => W b)) := by
      unfold Held
      rw [← Pipeline.unscopedBufs_held]
      exact Pipeline.RDat.arrays_of_unscopedBufs (p := (0 : Fin 7)) (pcfgs (F := F)) adm (rfam0 W fgt) launch0.win launch0.arr_whole c
        (fun w => by rw [rfam0_self]; exact rdat0_share W fgt c w) (fun b => W b) (fun w => by rw [rfam0_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam0_self]
      icases Howes with ⟨%S, Howes⟩
      iexists S
      isplitr
      · ipureintro; exact fun x _ => Or.inl (Set.mem_univ x)
      iexact Howes
    isplitl [Hprng]; · iexact Hprng
    iexact Hrest
  hin c := by
    rw [rfam0_self]
    show _ ⊢ (Pipeline.ΦA spec0 c : sProp 𝕄)
    unfold Pipeline.ΦA
    iintro ⟨Hprng, -, Hscoped⟩
    isplitl [Hscoped]; · iexact Hscoped
    iexact Hprng
  hout c := by
    rw [rfam0_self, Pipeline.ownSems0_none]
    show (Pipeline.ΦA spec0 c : sProp 𝕄) ⊢ _
    unfold Pipeline.ΦA
    iintro ⟨Hscoped, Hprng⟩
    isplitl [Hprng]; · iexact Hprng
    isplitr; · iempintro
    iexact Hscoped
  hexit c := by
    rw [rfam0_self]
    iintro ⟨Harr, Howes, Hprng, Hrest⟩
    imodintro
    ihave Hopen := (arraysAt_open0 W fgt c) $$ Harr
    icases Hopen with ⟨%A, %hA, Hpts⟩
    iexists A
    isplitr; · ipureintro; exact hA
    isplitl [Hpts Hrest]
    · iapply (held_withArrays0 W c A)
      isplitl [Hpts]; · iexact Hpts
      iexact Hrest
    isplitl [Hprng]; · iexact Hprng
    icases Howes with ⟨%S, -, Howes⟩
    iexists S; iexact Howes

/-- REGION 0's STEP, continuation-passing: from the boundary, every unscoped buffer held at `W`, the generator register,
    the core owing nothing, the level facts and pipeline 0's ghost state, the region's call runs; the continuation is
    entered at the boundary with the buffers held at `W` UPDATED at the region's arrays by SOME contents `A` the arrays
    may hold after every write-back (the inputs' as entered; an unnamed output's anything). -/
theorem region0_wp
    (hbody : ∀ c, BodyObligationLoose (dat0 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg0.W) → Buf (Elt F) ((cfg0.win w).arr.view.loc (c : Thread nD τ)),
            iprop(⌜∀ w, (rdat0 W fgt c).ArrAt w cfg0.N (A w)⌝ ∗ boundary (c : Thread nD τ)
                ∗ Held c (Pipeline.withArrays spec0 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 0 c)
      ⊢ wp frame (wpE (defs (F := F)) (Variants.lift Variants.none) (c : Thread nD τ) none) Set.univ
          (.op (.customCall (Pipeline.entry 0) ()) k) Q := by
  iintro ⟨Hk, Hbd, Hheld, Hprng, Howes, Hlev, Hghost, Htoks⟩
  -- the region's rule between its two thread states, on this core
  have hwp := (regSeg0 W fgt hbody).wp (pcfgs (F := F)) adm (rfam0 W fgt) () cellOf_inj EPg defs₀ Variants.none Lr lvr c none
    (fun u h => nomatch h) k Q
  dsimp only [regSeg0] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.Kernel.Gen

end
-- ==== Proof.K.Dat1.lean ====
import proofs.«178696_j1468878815658_2_alg».proof.Proof.K.Outs
import proofs.«178696_j1468878815658_2_alg».proof.Proof.Gen.Kernel.Launch
import proofs.«178696_j1468878815658_2_alg».proof.Proof.Gen.Kernel.Points
import Idealize.ShloMosaic.Lib.Pipeline.Kit
import Idealize.ShloMosaic.Lib.Pipeline.FrameBody
import Idealize.ShloMosaic.Lib.Pipeline.Frame

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 1: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same filled out to the whole staging buffer with a word of no account. -/
def fblk1 (c : Dev nD) (w : Fin cfg1.W) (t : Fin cfg1.N) : (cfg1.win w).block.Idx → Elt F (cfg1.win w).elt :=
  (cfg1.win w).fill (cfg1.grid.coords t) (fun _ => Classical.arbitrary _) (iblk1 V c w t)

/-- The proof data of region 1 on core `c`: the arrays as the region finds them; after the body each input's buffer
    at its block and the output's at the body's function of the input buffers; the scoped rest and the generator
    register as the invariant; nothing owed; full shares. -/
def dat1 (c : Dev nD) : Dat τ (Elt F) Unit ℕ (UR sig nD τ × UR sig nD τ) ℕ cfg1 c where
  A w := V c (Pipeline.arrRef spec1 w)
  after w t := match w with
    | ⟨0, _⟩ => fblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (fblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = fblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1 (fblk1 V c 0 t) (iblk1 V c 1 t) (iblk1 V c 2 t) (iblk1 V c 3 t) (iblk1 V c 4 t) := by dsimp only [dat1]

end Cert.Kernel.Gen

end
-- ==== Proof.K.Body1.lean ====
import proofs.«178696_j1468878815658_2_alg».proof.Proof.K.Outs
import proofs.«178696_j1468878815658_2_alg».proof.Proof.Gen.Kernel.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 1 on whole staging memrefs: from its input buffers at any contents and its output buffer at
    anything, it runs to the end without a fault, leaves the inputs as they were and the output at the region's
    function of the inputs. -/
theorem sound_kernel1 (c : Dev nD) (E : Set ℕ) (i : grid1.Coords)
    (arg1 : Memref sig .tc .vmem S8192x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .bf16) (harg6 : arg6.IsWhole)
    (x : Vec F S8192x5 .f32) (w : Vec F S5x64 .f32) (b : Vec F S1x64 .f32) (g : Vec F S1x64 .f32) (β : Vec F S1x64 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare g ∗ owns (c : Thread nD τ) arg5 fullShare β ∗ (∃ d, owns (c : Thread nD τ) arg6 fullShare d)
        ∗ (iprop(owns (c : Thread nD τ) arg1 fullShare x ∗ owns (c : Thread nD τ) arg2 fullShare w ∗ owns (c : Thread nD τ) arg3 fullShare b ∗ owns (c : Thread nD τ) arg4 fullShare g ∗ owns (c : Thread nD τ) arg5 fullShare β ∗ owns (c : Thread nD τ) arg6 fullShare (out1 x w b g β)) -∗ K ⟨⟩))
      ⊢ wp frame (wpE (defs₀ (F := F)) Variants.none c none) E (cc1__encode_kernel i arg1 harg1 arg2 harg2 arg3 harg3 arg4 harg4 arg5 harg5 arg6 harg6) K := by
  -- every access is at offsets zero with the buffer's own sizes
  have hz : (![0, 0] : Fin 2 → Nat) = fun _ => 0 := funext fun a => by fin_cases a <;> rfl
  simp only [cc1__encode_kernel_eq_skeleton]; unfold cc1__encode_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output's buffer after its one store: the store's rectangle is the whole buffer, so the buffer reads the
  -- payload, and each whole load read its buffer's contents
  iexists _; isplitr
  swap; · iexact H6
  ipureintro
  rw [View.read_writes_eq_canon _ _ _ (fun y => ⟨_, List.mem_singleton_self _, View.mem_set_unit_zero hz inb_S8192x64_S8192x64_0_0 y⟩),
    View.canon_unit_zero hz]
  unfold out1
  rw [View.readAt_eq_ld, View.readAt_eq_ld, View.readAt_eq_ld, View.readAt_eq_ld, View.readAt_eq_ld,
    View.ld_unit_zero hz, View.ld_unit_zero hz, View.ld_unit_zero hz, View.ld_unit_zero hz, View.ld_unit_zero hz]

end Cert.Kernel.Gen

end
-- ==== Proof.K.Obl1.lean ====
import proofs.«178696_j1468878815658_2_alg».proof.Proof.K.Dat1
import proofs.«178696_j1468878815658_2_alg».proof.Proof.K.Body1

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut1 : Fin cfg1.W → Bool := fun | ⟨0, _⟩ => false | ⟨1, _⟩ => false | ⟨2, _⟩ => false | ⟨3, _⟩ => false | ⟨4, _⟩ => false | ⟨5, _⟩ => true | ⟨_ + 6, h⟩ => absurd h (Nat.not_lt.2 (Nat.le_add_left _ _))

theorem before1_0 (c : Dev nD) (t : Fin cfg1.N) (d) :
    (dat1 V c).before 0 t d = (cfg1.win 0).fill (cfg1.grid.coords t) d (iblk1 V c 0 t) := by
  rw [(dat1 V c).before_fetched 0 t (fetch1_0 t) d]; unfold Dat.fetched Dat.blockOf iblk1; rw [A_eq1]
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The body obligation of region 1 at any point, the output window forgotten: the inputs' buffers hold their blocks
    (a row-tiled one filled out past the array's end with whatever the fetch left), so the body's triple applies; it
    leaves them as they were — on the rows inside the array, their blocks — and the output at contents not named. -/
theorem body_obligation1_fgt (c : Dev nD) :
    BodyObligationLoose (dat1 V c) (defs₀ (F := F)) Variants.none () Set.univ fgtOut1 := fun t => by
  rw [bigSep_W1, bigSep_W1]
  simp only [fgtOut1]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%X, HX⟩⟩
  rw [before1_0 V c t d0, before1_1 V c t d1, before1_2 V c t d2, before1_3 V c t d3, before1_4 V c t d4]
  iapply (sound_kernel1 (F := F) c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) ((cfg1.win 0).fill (cfg1.grid.coords t) d0 (iblk1 V c 0 t)) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [HX]; · iexists X; iexact HX
  iintro ⟨H0, H1, H2, H3, H4, HX⟩
  isplitl [HΦ]; · iexact HΦ
  isplitl [Ho]; · iexact Ho
  isplitl [H0]
  · iexists d0
    rw [after1_0]; unfold fblk1; rw [(cfg1.win 0).cut_fill]; iexact H0
  isplitl [H1]
  · rw [after1_1]; iexact H1
  isplitl [H2]
  · rw [after1_2]; iexact H2
  isplitl [H3]
  · rw [after1_3]; iexact H3
  isplitl [H4]
  · rw [after1_4]; iexact H4
  iexists _; iexact HX

end Cert.Kernel.Gen

end
-- ==== Proof.K.Reg1.lean ====
import proofs.«178696_j1468878815658_2_alg».proof.Proof.K.Alg
import proofs.«178696_j1468878815658_2_alg».proof.Proof.K.Obl1
import proofs.«178696_j1468878815658_2_alg».proof.Proof.Gen.Kernel.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 1's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 1 is entered
variable (fgt : Fin cfg1.W → Bool)                        -- the windows whose contents after the body are left unnamed

/-- Region 1's relational proof data at the entry contents `W`. -/
def rdat1 (c : Dev nD) : Pipeline.RDat τ (Elt F) Unit ℕ UU ℕ cfg1 c := (dat1 (VW W) c).toRForget fgt

/-- The family of relational proof data with region 1's at its index. -/
abbrev rfam1 : (q : Fin 7) → (c : Dev nD) → Pipeline.RDat τ (Elt F) Unit ℕ UU ℕ (Pipeline.pin (pcfgs (F := F)) adm q) c :=
  Pipeline.RDat.familyOf (pcfgs (F := F)) adm (1 : Fin 7) (rdat1 W fgt)

/-- At its own index the family is region 1's data. -/
theorem rfam1_self (c : Dev nD) : rfam1 W fgt (1 : Fin 7) c = rdat1 W fgt c :=
  Pipeline.RDat.familyOf_self (pcfgs (F := F)) adm (1 : Fin 7) (rdat1 W fgt) c

/-- The data hold every array at the full share. -/
theorem rdat1_share (c : Dev nD) (w : Fin cfg1.W) : (rdat1 W fgt c).share w = fullShare :=
  (rdat1 W fgt c).share_full (fun _ => rfl) w

/-- The arrays after every write-back, opened: each whole at the full share at SOME contents it may then hold. -/
theorem arraysAt_open1 (c : Dev nD) :
    ((rdat1 W fgt c).arraysAt cfg1.N : sProp 𝕄)
      ⊢ iprop(∃ A : (w : Fin cfg1.W) → Buf (Elt F) ((cfg1.win w).arr.view.loc (c : Thread nD τ)),
          ⌜∀ w, (rdat1 W fgt c).ArrAt w cfg1.N (A w)⌝ ∗ Pipeline.arrPts spec1 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat1 W fgt c).ArrAt w cfg1.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg1.win w).arr.view.loc (c : Thread nD τ)
        ↦[(cfg1.win w).arr.view.set]{(rdat1 W fgt c).share w} A w : sProp 𝕄)) = Pipeline.arrPts spec1 c A := by
    unfold Pipeline.arrPts
    exact bigSep_congr fun w _ => by
      have hw : (cfg1.win w).arr.IsWhole := launch1.arr_whole w
      rw [hw.set_eq_univ, rdat1_share W fgt c w]
  rw [← hpts]
  iexact H

/-- The arrays at contents `A` beside every other unscoped buffer at `W` are the unscoped buffers held at `W` updated at
    the arrays by `A`. -/
theorem held_withArrays1 (c : Dev nD) (A : (w : Fin cfg1.W) → Buf (Elt F) ((cfg1.win w).arr.view.loc (c : Thread nD τ))) :
    iprop(Pipeline.arrPts spec1 c A ∗ Pipeline.unscopedRest (Ix := Unit) (Name := ℕ) (U := UU) (Lvl := ℕ) spec1 c (fun b => W b))
      ⊢ (Held c (Pipeline.withArrays spec1 c W A) : sProp 𝕄) := by
  unfold Held
  rw [← Pipeline.unscopedBufs_held, Pipeline.unscopedBufs_split cfgs (1 : Fin 7) launch1.win.arr_unscoped launch1.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec1 w)) ↦{fullShare} f : sProp 𝕄))
      (Pipeline.withArrays_arr spec1 launch1.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec1 c W A b fun w e =>
        (Finset.mem_sdiff.mp hb).2 (Finset.mem_image.mpr ⟨w, Finset.mem_univ _, e⟩)).symm

set_option backward.isDefEq.respectTransparency.types false in
/-- Region 1 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg1 (hbody : ∀ c, BodyObligationLoose (dat1 (VW W) c) (defs₀ (F := F)) Variants.none () Set.univ fgt) :
    Pipeline.RDat.RegionSeg (pcfgs (F := F)) adm (rfam1 W fgt) () defs₀ Variants.none Lr lvr (1 : Fin 7) where
  win := launch1.win.to₀
  block_pos := launch1.block_pos
  stage_whole := launch1.stage_whole
  K := PEmpty
  osem k := k.elim
  ho := Pipeline.OwnSemFacts.none _
  hbody c := by
    rw [rfam1_self]
    exact (hbody c).toRForget
  hwaits := Pipeline.RDat.hwaits_of_owed_zero _ _ _ _ Lr lvr (1 : Fin 7) fun c t => by
    rw [rfam1_self]; rfl
  pre c := iprop(Held c W ∗ Pr c ∗ Ow c)
  post c := iprop(∃ A : (w : Fin cfg1.W) → Buf (Elt F) ((cfg1.win w).arr.view.loc (c : Thread nD τ)),
    ⌜∀ w, (rdat1 W fgt c).ArrAt w cfg1.N (A w)⌝ ∗ Held c (Pipeline.withArrays spec1 c W A) ∗ Pr c ∗ Ow c)
  X c := Pr c
  Y c := Pr c
  Z c := Pipeline.unscopedRest (Ix := Unit) (Name := ℕ) (U := UU) (Lvl := ℕ) spec1 c (fun b => W b)
  hentry c := by
    -- the arrays at their entry contents, split out of the held buffers
    have hsplit : (Held c W : sProp 𝕄)
        ⊢ iprop((rfam1 W fgt (1 : Fin 7) c).arrays (rfam1 W fgt (1 : Fin 7) c).A
            ∗ Pipeline.unscopedRest (Ix := Unit) (Name := ℕ) (U := UU) (Lvl := ℕ) spec1 c (fun b => W b)) := by
      unfold Held
      rw [← Pipeline.unscopedBufs_held]
      exact Pipeline.RDat.arrays_of_unscopedBufs (p := (1 : Fin 7)) (pcfgs (F := F)) adm (rfam1 W fgt) launch1.win launch1.arr_whole c
        (fun w => by rw [rfam1_self]; exact rdat1_share W fgt c w) (fun b => W b) (fun w => by rw [rfam1_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam1_self]
      icases Howes with ⟨%S, Howes⟩
      iexists S
      isplitr
      · ipureintro; exact fun x _ => Or.inl (Set.mem_univ x)
      iexact Howes
    isplitl [Hprng]; · iexact Hprng
    iexact Hrest
  hin c := by
    rw [rfam1_self]
    show _ ⊢ (Pipeline.ΦA spec1 c : sProp 𝕄)
    unfold Pipeline.ΦA
    iintro ⟨Hprng, -, Hscoped⟩
    isplitl [Hscoped]; · iexact Hscoped
    iexact Hprng
  hout c := by
    rw [rfam1_self, Pipeline.ownSems0_none]
    show (Pipeline.ΦA spec1 c : sProp 𝕄) ⊢ _
    unfold Pipeline.ΦA
    iintro ⟨Hscoped, Hprng⟩
    isplitl [Hprng]; · iexact Hprng
    isplitr; · iempintro
    iexact Hscoped
  hexit c := by
    rw [rfam1_self]
    iintro ⟨Harr, Howes, Hprng, Hrest⟩
    imodintro
    ihave Hopen := (arraysAt_open1 W fgt c) $$ Harr
    icases Hopen with ⟨%A, %hA, Hpts⟩
    iexists A
    isplitr; · ipureintro; exact hA
    isplitl [Hpts Hrest]
    · iapply (held_withArrays1 W c A)
      isplitl [Hpts]; · iexact Hpts
      iexact Hrest
    isplitl [Hprng]; · iexact Hprng
    icases Howes with ⟨%S, -, Howes⟩
    iexists S; iexact Howes

/-- REGION 1's STEP, continuation-passing: from the boundary, every unscoped buffer held at `W`, the generator register,
    the core owing nothing, the level facts and pipeline 1's ghost state, the region's call runs; the continuation is
    entered at the boundary with the buffers held at `W` UPDATED at the region's arrays by SOME contents `A` the arrays
    may hold after every write-back (the inputs' as entered; an unnamed output's anything). -/
theorem region1_wp
    (hbody : ∀ c, BodyObligationLoose (dat1 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg1.W) → Buf (Elt F) ((cfg1.win w).arr.view.loc (c : Thread nD τ)),
            iprop(⌜∀ w, (rdat1 W fgt c).ArrAt w cfg1.N (A w)⌝ ∗ boundary (c : Thread nD τ)
                ∗ Held c (Pipeline.withArrays spec1 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 1 c)
      ⊢ wp frame (wpE (defs (F := F)) (Variants.lift Variants.none) (c : Thread nD τ) none) Set.univ
          (.op (.customCall (Pipeline.entry 1) ()) k) Q := by
  iintro ⟨Hk, Hbd, Hheld, Hprng, Howes, Hlev, Hghost, Htoks⟩
  -- the region's rule between its two thread states, on this core
  have hwp := (regSeg1 W fgt hbody).wp (pcfgs (F := F)) adm (rfam1 W fgt) () cellOf_inj EPg defs₀ Variants.none Lr lvr c none
    (fun u h => nomatch h) k Q
  dsimp only [regSeg1] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.Kernel.Gen

end
-- ==== Proof.K.Dat2.lean ====
import proofs.«178696_j1468878815658_2_alg».proof.Proof.K.Outs
import proofs.«178696_j1468878815658_2_alg».proof.Proof.Gen.Kernel.Launch
import proofs.«178696_j1468878815658_2_alg».proof.Proof.Gen.Kernel.Points
import Idealize.ShloMosaic.Lib.Pipeline.Kit
import Idealize.ShloMosaic.Lib.Pipeline.FrameBody
import Idealize.ShloMosaic.Lib.Pipeline.Frame

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 2: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same filled out to the whole staging buffer with a word of no account. -/
def fblk2 (c : Dev nD) (w : Fin cfg2.W) (t : Fin cfg2.N) : (cfg2.win w).block.Idx → Elt F (cfg2.win w).elt :=
  (cfg2.win w).fill (cfg2.grid.coords t) (fun _ => Classical.arbitrary _) (iblk2 V c w t)

/-- The proof data of region 2 on core `c`: the arrays as the region finds them; after the body each input's buffer
    at its block and the output's at the body's function of the input buffers; the scoped rest and the generator
    register as the invariant; nothing owed; full shares. -/
def dat2 (c : Dev nD) : Dat τ (Elt F) Unit ℕ (UR sig nD τ × UR sig nD τ) ℕ cfg2 c where
  A w := V c (Pipeline.arrRef spec2 w)
  after w t := match w with
    | ⟨0, _⟩ => fblk2 V c 0 t
    | ⟨1, _⟩ => fblk2 V c 1 t
    | ⟨2, _⟩ => iblk2 V c 2 t
    | ⟨3, _⟩ => iblk2 V c 3 t
    | ⟨4, _⟩ => iblk2 V c 4 t
    | ⟨5, _⟩ => out2 (fblk2 V c 0 t) (fblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = fblk2 V c 0 t := by dsimp only [dat2]
theorem after2_1 (c : Dev nD) (t : Fin cfg2.N) : (dat2 V c).after 1 t = fblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2 (fblk2 V c 0 t) (fblk2 V c 1 t) (iblk2 V c 2 t) (iblk2 V c 3 t) (iblk2 V c 4 t) := by dsimp only [dat2]

end Cert.Kernel.Gen

end
-- ==== Proof.K.Body2.lean ====
import proofs.«178696_j1468878815658_2_alg».proof.Proof.K.Outs
import proofs.«178696_j1468878815658_2_alg».proof.Proof.Gen.Kernel.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 2 on whole staging memrefs: from its input buffers at any contents and its output buffer at
    anything, it runs to the end without a fault, leaves the inputs as they were and the output at the region's
    function of the inputs. -/
theorem sound_kernel2 (c : Dev nD) (E : Set ℕ) (i : grid2.Coords)
    (arg1 : Memref sig .tc .vmem S8192x64 .bf16) (harg1 : arg1.IsWhole) (arg2 : Memref sig .tc .vmem S8192x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S8192x64 .bf16) (harg6 : arg6.IsWhole)
    (xs : Vec F S8192x64 .bf16) (e : Vec F S8192x64 .bf16) (ws : Vec F S64x64 .f32) (we : Vec F S64x64 .f32) (b : Vec F S1x64 .f32) (K : PUnit → sProp 𝕄) :
    iprop(owns (c : Thread nD τ) arg1 fullShare xs ∗ owns (c : Thread nD τ) arg2 fullShare e ∗ owns (c : Thread nD τ) arg3 fullShare ws ∗ owns (c : Thread nD τ) arg4 fullShare we ∗ owns (c : Thread nD τ) arg5 fullShare b ∗ (∃ d, owns (c : Thread nD τ) arg6 fullShare d)
        ∗ (iprop(owns (c : Thread nD τ) arg1 fullShare xs ∗ owns (c : Thread nD τ) arg2 fullShare e ∗ owns (c : Thread nD τ) arg3 fullShare ws ∗ owns (c : Thread nD τ) arg4 fullShare we ∗ owns (c : Thread nD τ) arg5 fullShare b ∗ owns (c : Thread nD τ) arg6 fullShare (out2 xs e ws we b)) -∗ K ⟨⟩))
      ⊢ wp frame (wpE (defs₀ (F := F)) Variants.none c none) E (cc2__msg_kernel i arg1 harg1 arg2 harg2 arg3 harg3 arg4 harg4 arg5 harg5 arg6 harg6) K := by
  -- every access is at offsets zero with the buffer's own sizes
  have hz : (![0, 0] : Fin 2 → Nat) = fun _ => 0 := funext fun a => by fin_cases a <;> rfl
  simp only [cc2__msg_kernel_eq_skeleton]; unfold cc2__msg_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output's buffer after its one store: the store's rectangle is the whole buffer, so the buffer reads the
  -- payload, and each whole load read its buffer's contents
  iexists _; isplitr
  swap; · iexact H6
  ipureintro
  rw [View.read_writes_eq_canon _ _ _ (fun y => ⟨_, List.mem_singleton_self _, View.mem_set_unit_zero hz inb_S8192x64_S8192x64_0_0 y⟩),
    View.canon_unit_zero hz]
  unfold out2
  rw [View.readAt_eq_ld, View.readAt_eq_ld, View.readAt_eq_ld, View.readAt_eq_ld, View.readAt_eq_ld,
    View.ld_unit_zero hz, View.ld_unit_zero hz, View.ld_unit_zero hz, View.ld_unit_zero hz, View.ld_unit_zero hz]

end Cert.Kernel.Gen

end
-- ==== Proof.K.Obl2.lean ====
import proofs.«178696_j1468878815658_2_alg».proof.Proof.K.Dat2
import proofs.«178696_j1468878815658_2_alg».proof.Proof.K.Body2

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut2 : Fin cfg2.W → Bool := fun | ⟨0, _⟩ => false | ⟨1, _⟩ => false | ⟨2, _⟩ => false | ⟨3, _⟩ => false | ⟨4, _⟩ => false | ⟨5, _⟩ => true | ⟨_ + 6, h⟩ => absurd h (Nat.not_lt.2 (Nat.le_add_left _ _))

theorem before2_0 (c : Dev nD) (t : Fin cfg2.N) (d) :
    (dat2 V c).before 0 t d = (cfg2.win 0).fill (cfg2.grid.coords t) d (iblk2 V c 0 t) := by
  rw [(dat2 V c).before_fetched 0 t (fetch2_0 t) d]; unfold Dat.fetched Dat.blockOf iblk2; rw [A_eq2]
theorem before2_1 (c : Dev nD) (t : Fin cfg2.N) (d) :
    (dat2 V c).before 1 t d = (cfg2.win 1).fill (cfg2.grid.coords t) d (iblk2 V c 1 t) := by
  rw [(dat2 V c).before_fetched 1 t (fetch2_1 t) d]; unfold Dat.fetched Dat.blockOf iblk2; rw [A_eq2]
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- The body obligation of region 2 at any point, the output window forgotten: the inputs' buffers hold their blocks
    (a row-tiled one filled out past the array's end with whatever the fetch left), so the body's triple applies; it
    leaves them as they were — on the rows inside the array, their blocks — and the output at contents not named. -/
theorem body_obligation2_fgt (c : Dev nD) :
    BodyObligationLoose (dat2 V c) (defs₀ (F := F)) Variants.none () Set.univ fgtOut2 := fun t => by
  rw [bigSep_W2, bigSep_W2]
  simp only [fgtOut2]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%X, HX⟩⟩
  rw [before2_0 V c t d0, before2_1 V c t d1, before2_2 V c t d2, before2_3 V c t d3, before2_4 V c t d4]
  iapply (sound_kernel2 (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) ((cfg2.win 0).fill (cfg2.grid.coords t) d0 (iblk2 V c 0 t)) ((cfg2.win 1).fill (cfg2.grid.coords t) d1 (iblk2 V c 1 t)) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [HX]; · iexists X; iexact HX
  iintro ⟨H0, H1, H2, H3, H4, HX⟩
  isplitl [HΦ]; · iexact HΦ
  isplitl [Ho]; · iexact Ho
  isplitl [H0]
  · iexists d0
    rw [after2_0]; unfold fblk2; rw [(cfg2.win 0).cut_fill]; iexact H0
  isplitl [H1]
  · iexists d1
    rw [after2_1]; unfold fblk2; rw [(cfg2.win 1).cut_fill]; iexact H1
  isplitl [H2]
  · rw [after2_2]; iexact H2
  isplitl [H3]
  · rw [after2_3]; iexact H3
  isplitl [H4]
  · rw [after2_4]; iexact H4
  iexists _; iexact HX

end Cert.Kernel.Gen

end
-- ==== Proof.K.Reg2.lean ====
import proofs.«178696_j1468878815658_2_alg».proof.Proof.K.Alg
import proofs.«178696_j1468878815658_2_alg».proof.Proof.K.Obl2
import proofs.«178696_j1468878815658_2_alg».proof.Proof.Gen.Kernel.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 2's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 2 is entered
variable (fgt : Fin cfg2.W → Bool)                        -- the windows whose contents after the body are left unnamed

/-- Region 2's relational proof data at the entry contents `W`. -/
def rdat2 (c : Dev nD) : Pipeline.RDat τ (Elt F) Unit ℕ UU ℕ cfg2 c := (dat2 (VW W) c).toRForget fgt

/-- The family of relational proof data with region 2's at its index. -/
abbrev rfam2 : (q : Fin 7) → (c : Dev nD) → Pipeline.RDat τ (Elt F) Unit ℕ UU ℕ (Pipeline.pin (pcfgs (F := F)) adm q) c :=
  Pipeline.RDat.familyOf (pcfgs (F := F)) adm (2 : Fin 7) (rdat2 W fgt)

/-- At its own index the family is region 2's data. -/
theorem rfam2_self (c : Dev nD) : rfam2 W fgt (2 : Fin 7) c = rdat2 W fgt c :=
  Pipeline.RDat.familyOf_self (pcfgs (F := F)) adm (2 : Fin 7) (rdat2 W fgt) c

/-- The data hold every array at the full share. -/
theorem rdat2_share (c : Dev nD) (w : Fin cfg2.W) : (rdat2 W fgt c).share w = fullShare :=
  (rdat2 W fgt c).share_full (fun _ => rfl) w

/-- The arrays after every write-back, opened: each whole at the full share at SOME contents it may then hold. -/
theorem arraysAt_open2 (c : Dev nD) :
    ((rdat2 W fgt c).arraysAt cfg2.N : sProp 𝕄)
      ⊢ iprop(∃ A : (w : Fin cfg2.W) → Buf (Elt F) ((cfg2.win w).arr.view.loc (c : Thread nD τ)),
          ⌜∀ w, (rdat2 W fgt c).ArrAt w cfg2.N (A w)⌝ ∗ Pipeline.arrPts spec2 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat2 W fgt c).ArrAt w cfg2.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg2.win w).arr.view.loc (c : Thread nD τ)
        ↦[(cfg2.win w).arr.view.set]{(rdat2 W fgt c).share w} A w : sProp 𝕄)) = Pipeline.arrPts spec2 c A := by
    unfold Pipeline.arrPts
    exact bigSep_congr fun w _ => by
      have hw : (cfg2.win w).arr.IsWhole := launch2.arr_whole w
      rw [hw.set_eq_univ, rdat2_share W fgt c w]
  rw [← hpts]
  iexact H

/-- The arrays at contents `A` beside every other unscoped buffer at `W` are the unscoped buffers held at `W` updated at
    the arrays by `A`. -/
theorem held_withArrays2 (c : Dev nD) (A : (w : Fin cfg2.W) → Buf (Elt F) ((cfg2.win w).arr.view.loc (c : Thread nD τ))) :
    iprop(Pipeline.arrPts spec2 c A ∗ Pipeline.unscopedRest (Ix := Unit) (Name := ℕ) (U := UU) (Lvl := ℕ) spec2 c (fun b => W b))
      ⊢ (Held c (Pipeline.withArrays spec2 c W A) : sProp 𝕄) := by
  unfold Held
  rw [← Pipeline.unscopedBufs_held, Pipeline.unscopedBufs_split cfgs (2 : Fin 7) launch2.win.arr_unscoped launch2.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec2 w)) ↦{fullShare} f : sProp 𝕄))
      (Pipeline.withArrays_arr spec2 launch2.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec2 c W A b fun w e =>
        (Finset.mem_sdiff.mp hb).2 (Finset.mem_image.mpr ⟨w, Finset.mem_univ _, e⟩)).symm

set_option backward.isDefEq.respectTransparency.types false in
/-- Region 2 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg2 (hbody : ∀ c, BodyObligationLoose (dat2 (VW W) c) (defs₀ (F := F)) Variants.none () Set.univ fgt) :
    Pipeline.RDat.RegionSeg (pcfgs (F := F)) adm (rfam2 W fgt) () defs₀ Variants.none Lr lvr (2 : Fin 7) where
  win := launch2.win.to₀
  block_pos := launch2.block_pos
  stage_whole := launch2.stage_whole
  K := PEmpty
  osem k := k.elim
  ho := Pipeline.OwnSemFacts.none _
  hbody c := by
    rw [rfam2_self]
    exact (hbody c).toRForget
  hwaits := Pipeline.RDat.hwaits_of_owed_zero _ _ _ _ Lr lvr (2 : Fin 7) fun c t => by
    rw [rfam2_self]; rfl
  pre c := iprop(Held c W ∗ Pr c ∗ Ow c)
  post c := iprop(∃ A : (w : Fin cfg2.W) → Buf (Elt F) ((cfg2.win w).arr.view.loc (c : Thread nD τ)),
    ⌜∀ w, (rdat2 W fgt c).ArrAt w cfg2.N (A w)⌝ ∗ Held c (Pipeline.withArrays spec2 c W A) ∗ Pr c ∗ Ow c)
  X c := Pr c
  Y c := Pr c
  Z c := Pipeline.unscopedRest (Ix := Unit) (Name := ℕ) (U := UU) (Lvl := ℕ) spec2 c (fun b => W b)
  hentry c := by
    -- the arrays at their entry contents, split out of the held buffers
    have hsplit : (Held c W : sProp 𝕄)
        ⊢ iprop((rfam2 W fgt (2 : Fin 7) c).arrays (rfam2 W fgt (2 : Fin 7) c).A
            ∗ Pipeline.unscopedRest (Ix := Unit) (Name := ℕ) (U := UU) (Lvl := ℕ) spec2 c (fun b => W b)) := by
      unfold Held
      rw [← Pipeline.unscopedBufs_held]
      exact Pipeline.RDat.arrays_of_unscopedBufs (p := (2 : Fin 7)) (pcfgs (F := F)) adm (rfam2 W fgt) launch2.win launch2.arr_whole c
        (fun w => by rw [rfam2_self]; exact rdat2_share W fgt c w) (fun b => W b) (fun w => by rw [rfam2_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam2_self]
      icases Howes with ⟨%S, Howes⟩
      iexists S
      isplitr
      · ipureintro; exact fun x _ => Or.inl (Set.mem_univ x)
      iexact Howes
    isplitl [Hprng]; · iexact Hprng
    iexact Hrest
  hin c := by
    rw [rfam2_self]
    show _ ⊢ (Pipeline.ΦA spec2 c : sProp 𝕄)
    unfold Pipeline.ΦA
    iintro ⟨Hprng, -, Hscoped⟩
    isplitl [Hscoped]; · iexact Hscoped
    iexact Hprng
  hout c := by
    rw [rfam2_self, Pipeline.ownSems0_none]
    show (Pipeline.ΦA spec2 c : sProp 𝕄) ⊢ _
    unfold Pipeline.ΦA
    iintro ⟨Hscoped, Hprng⟩
    isplitl [Hprng]; · iexact Hprng
    isplitr; · iempintro
    iexact Hscoped
  hexit c := by
    rw [rfam2_self]
    iintro ⟨Harr, Howes, Hprng, Hrest⟩
    imodintro
    ihave Hopen := (arraysAt_open2 W fgt c) $$ Harr
    icases Hopen with ⟨%A, %hA, Hpts⟩
    iexists A
    isplitr; · ipureintro; exact hA
    isplitl [Hpts Hrest]
    · iapply (held_withArrays2 W c A)
      isplitl [Hpts]; · iexact Hpts
      iexact Hrest
    isplitl [Hprng]; · iexact Hprng
    icases Howes with ⟨%S, -, Howes⟩
    iexists S; iexact Howes

/-- REGION 2's STEP, continuation-passing: from the boundary, every unscoped buffer held at `W`, the generator register,
    the core owing nothing, the level facts and pipeline 2's ghost state, the region's call runs; the continuation is
    entered at the boundary with the buffers held at `W` UPDATED at the region's arrays by SOME contents `A` the arrays
    may hold after every write-back (the inputs' as entered; an unnamed output's anything). -/
theorem region2_wp
    (hbody : ∀ c, BodyObligationLoose (dat2 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg2.W) → Buf (Elt F) ((cfg2.win w).arr.view.loc (c : Thread nD τ)),
            iprop(⌜∀ w, (rdat2 W fgt c).ArrAt w cfg2.N (A w)⌝ ∗ boundary (c : Thread nD τ)
                ∗ Held c (Pipeline.withArrays spec2 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 2 c)
      ⊢ wp frame (wpE (defs (F := F)) (Variants.lift Variants.none) (c : Thread nD τ) none) Set.univ
          (.op (.customCall (Pipeline.entry 2) ()) k) Q := by
  iintro ⟨Hk, Hbd, Hheld, Hprng, Howes, Hlev, Hghost, Htoks⟩
  -- the region's rule between its two thread states, on this core
  have hwp := (regSeg2 W fgt hbody).wp (pcfgs (F := F)) adm (rfam2 W fgt) () cellOf_inj EPg defs₀ Variants.none Lr lvr c none
    (fun u h => nomatch h) k Q
  dsimp only [regSeg2] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.Kernel.Gen

end
-- ==== Proof.K.Dat3.lean ====
import proofs.«178696_j1468878815658_2_alg».proof.Proof.K.Outs
import proofs.«178696_j1468878815658_2_alg».proof.Proof.Gen.Kernel.Launch
import proofs.«178696_j1468878815658_2_alg».proof.Proof.Gen.Kernel.Points
import Idealize.ShloMosaic.Lib.Pipeline.Kit
import Idealize.ShloMosaic.Lib.Pipeline.FrameBody
import Idealize.ShloMosaic.Lib.Pipeline.Frame

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 3: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The same filled out to the whole staging buffer with a word of no account. -/
def fblk3 (c : Dev nD) (w : Fin cfg3.W) (t : Fin cfg3.N) : (cfg3.win w).block.Idx → Elt F (cfg3.win w).elt :=
  (cfg3.win w).fill (cfg3.grid.coords t) (fun _ => Classical.arbitrary _) (iblk3 V c w t)

/-- The proof data of region 3 on core `c`: the arrays as the region finds them; after the body each input's buffer
    at its block and the output's at the body's function of the input buffers; the scoped rest and the generator
    register as the invariant; nothing owed; full shares. -/
def dat3 (c : Dev nD) : Dat τ (Elt F) Unit ℕ (UR sig nD τ × UR sig nD τ) ℕ cfg3 c where
  A w := V c (Pipeline.arrRef spec3 w)
  after w t := match w with
    | ⟨0, _⟩ => fblk3 V c 0 t
    | ⟨1, _⟩ => fblk3 V c 1 t
    | ⟨2, _⟩ => fblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3 (fblk3 V c 0 t) (fblk3 V c 1 t) (fblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = fblk3 V c 0 t := by dsimp only [dat3]
theorem after3_1 (c : Dev nD) (t : Fin cfg3.N) : (dat3 V c).after 1 t = fblk3 V c 1 t := by dsimp only [dat3]
theorem after3_2 (c : Dev nD) (t : Fin cfg3.N) : (dat3 V c).after 2 t = fblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) :
    (dat3 V c).after 8 t = out3 (fblk3 V c 0 t) (fblk3 V c 1 t) (fblk3 V c 2 t) (iblk3 V c 3 t) (iblk3 V c 4 t) (iblk3 V c 5 t) (iblk3 V c 6 t) (iblk3 V c 7 t) := by dsimp only [dat3]

end Cert.Kernel.Gen

end
-- ==== Proof.K.Body3.lean ====
import proofs.«178696_j1468878815658_2_alg».proof.Proof.K.Outs
import proofs.«178696_j1468878815658_2_alg».proof.Proof.Gen.Kernel.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 3 on whole staging memrefs: from its input buffers at any contents and its output buffer at
    anything, it runs to the end without a fault, leaves the inputs as they were and the output at the region's
    function of the inputs. -/
theorem sound_kernel3 (c : Dev nD) (E : Set ℕ) (i : grid3.Coords)
    (arg1 : Memref sig .tc .vmem S4096x64 .bf16) (harg1 : arg1.IsWhole) (arg2 : Memref sig .tc .vmem S4096x64 .f32) (harg2 : arg2.IsWhole) (arg3 : Memref sig .tc .vmem S4096x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S4096x64 .bf16) (harg9 : arg9.IsWhole)
    (h : Vec F S4096x64 .bf16) (ms : Vec F S4096x64 .f32) (cnt : Vec F S4096x1 .f32) (wh : Vec F S64x64 .f32) (wm : Vec F S64x64 .f32) (b : Vec F S1x64 .f32) (g : Vec F S1x64 .f32) (β : Vec F S1x64 .f32) (K : PUnit → sProp 𝕄) :
    iprop(owns (c : Thread nD τ) arg1 fullShare h ∗ owns (c : Thread nD τ) arg2 fullShare ms ∗ owns (c : Thread nD τ) arg3 fullShare cnt ∗ owns (c : Thread nD τ) arg4 fullShare wh ∗ owns (c : Thread nD τ) arg5 fullShare wm ∗ owns (c : Thread nD τ) arg6 fullShare b ∗ owns (c : Thread nD τ) arg7 fullShare g ∗ owns (c : Thread nD τ) arg8 fullShare β ∗ (∃ d, owns (c : Thread nD τ) arg9 fullShare d)
        ∗ (iprop(owns (c : Thread nD τ) arg1 fullShare h ∗ owns (c : Thread nD τ) arg2 fullShare ms ∗ owns (c : Thread nD τ) arg3 fullShare cnt ∗ owns (c : Thread nD τ) arg4 fullShare wh ∗ owns (c : Thread nD τ) arg5 fullShare wm ∗ owns (c : Thread nD τ) arg6 fullShare b ∗ owns (c : Thread nD τ) arg7 fullShare g ∗ owns (c : Thread nD τ) arg8 fullShare β ∗ owns (c : Thread nD τ) arg9 fullShare (out3 h ms cnt wh wm b g β)) -∗ K ⟨⟩))
      ⊢ wp frame (wpE (defs₀ (F := F)) Variants.none c none) E (cc3__upd_kernel i arg1 harg1 arg2 harg2 arg3 harg3 arg4 harg4 arg5 harg5 arg6 harg6 arg7 harg7 arg8 harg8 arg9 harg9) K := by
  -- every access is at offsets zero with the buffer's own sizes
  have hz : (![0, 0] : Fin 2 → Nat) = fun _ => 0 := funext fun a => by fin_cases a <;> rfl
  simp only [cc3__upd_kernel_eq_skeleton]; unfold cc3__upd_kernel_skel
  -- open each buffer's ownership to its raw contents; an input's read contents are then a function of those
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  -- run the loads and the one store
  sl_exec
  sl_step
  -- the inputs are held as they were
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  -- the output buffer holds one whole unmasked store over its prior contents
  iexists _; isplitr
  swap; · iexact H9
  ipureintro
  -- the store's rectangle is the whole buffer, so it covers every index and what is read back is its payload
  refine (View.read_writes_eq_canon _ _ _ fun y => ?_).trans ?_
  · exact ⟨_, List.mem_singleton_self _, View.mem_set_unit_zero hz (fun a => by rw [hz]; exact (Nat.zero_add _).le) y⟩
  rw [View.canon_unit_zero hz]
  -- the payload is the region's function once every loaded value is identified with its buffer's contents:
  -- a load through the whole rectangle at offsets zero reads the contents themselves
  unfold out3
  sl_unfold_run_names
  simp only [View.readAt_eq_ld]
  repeat rw [View.ld_unit_zero hz]

end Cert.Kernel.Gen

end
-- ==== Proof.K.Obl3.lean ====
import proofs.«178696_j1468878815658_2_alg».proof.Proof.K.Dat3
import proofs.«178696_j1468878815658_2_alg».proof.Proof.K.Body3

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut3 : Fin cfg3.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => true | ⟨_ + 9, h⟩ => absurd h (Nat.not_lt.2 (Nat.le_add_left _ _))

theorem before3_0 (c : Dev nD) (t : Fin cfg3.N) (d) :
    (dat3 V c).before 0 t d = (cfg3.win 0).fill (cfg3.grid.coords t) d (iblk3 V c 0 t) := by
  rw [(dat3 V c).before_fetched 0 t (fetch3_0 t) d]; unfold Dat.fetched Dat.blockOf iblk3; rw [A_eq3]
theorem before3_1 (c : Dev nD) (t : Fin cfg3.N) (d) :
    (dat3 V c).before 1 t d = (cfg3.win 1).fill (cfg3.grid.coords t) d (iblk3 V c 1 t) := by
  rw [(dat3 V c).before_fetched 1 t (fetch3_1 t) d]; unfold Dat.fetched Dat.blockOf iblk3; rw [A_eq3]
theorem before3_2 (c : Dev nD) (t : Fin cfg3.N) (d) :
    (dat3 V c).before 2 t d = (cfg3.win 2).fill (cfg3.grid.coords t) d (iblk3 V c 2 t) := by
  rw [(dat3 V c).before_fetched 2 t (fetch3_2 t) d]; unfold Dat.fetched Dat.blockOf iblk3; rw [A_eq3]
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)

/-- The body obligation of region 3 at any point, the output window forgotten: the inputs' buffers hold their blocks
    (a row-tiled one filled out past the array's end with whatever the fetch left), so the body's triple applies; it
    leaves them as they were — on the rows inside the array, their blocks — and the output at contents not named. -/
theorem body_obligation3_fgt (c : Dev nD) :
    BodyObligationLoose (dat3 V c) (defs₀ (F := F)) Variants.none () Set.univ fgtOut3 := fun t => by
  rw [bigSep_W3, bigSep_W3]
  simp only [fgtOut3]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X, HX⟩⟩
  rw [before3_0 V c t d0, before3_1 V c t d1, before3_2 V c t d2, before3_3 V c t d3, before3_4 V c t d4, before3_5 V c t d5, before3_6 V c t d6, before3_7 V c t d7]
  iapply (sound_kernel3 (F := F) c Set.univ (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) ((cfg3.win 0).fill (cfg3.grid.coords t) d0 (iblk3 V c 0 t)) ((cfg3.win 1).fill (cfg3.grid.coords t) d1 (iblk3 V c 1 t)) ((cfg3.win 2).fill (cfg3.grid.coords t) d2 (iblk3 V c 2 t)) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexists X; iexact HX
  iintro ⟨H0, H1, H2, H3, H4, H5, H6, H7, HX⟩
  isplitl [HΦ]; · iexact HΦ
  isplitl [Ho]; · iexact Ho
  isplitl [H0]
  · iexists d0
    rw [after3_0]; unfold fblk3; rw [(cfg3.win 0).cut_fill]; iexact H0
  isplitl [H1]
  · iexists d1
    rw [after3_1]; unfold fblk3; rw [(cfg3.win 1).cut_fill]; iexact H1
  isplitl [H2]
  · iexists d2
    rw [after3_2]; unfold fblk3; rw [(cfg3.win 2).cut_fill]; iexact H2
  isplitl [H3]
  · rw [after3_3]; iexact H3
  isplitl [H4]
  · rw [after3_4]; iexact H4
  isplitl [H5]
  · rw [after3_5]; iexact H5
  isplitl [H6]
  · rw [after3_6]; iexact H6
  isplitl [H7]
  · rw [after3_7]; iexact H7
  iexists _; iexact HX

end Cert.Kernel.Gen

end
-- ==== Proof.K.Reg3.lean ====
import proofs.«178696_j1468878815658_2_alg».proof.Proof.K.Alg
import proofs.«178696_j1468878815658_2_alg».proof.Proof.K.Obl3
import proofs.«178696_j1468878815658_2_alg».proof.Proof.Gen.Kernel.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 3's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 3 is entered
variable (fgt : Fin cfg3.W → Bool)                        -- the windows whose contents after the body are left unnamed

/-- Region 3's relational proof data at the entry contents `W`. -/
def rdat3 (c : Dev nD) : Pipeline.RDat τ (Elt F) Unit ℕ UU ℕ cfg3 c := (dat3 (VW W) c).toRForget fgt

/-- The family of relational proof data with region 3's at its index. -/
abbrev rfam3 : (q : Fin 7) → (c : Dev nD) → Pipeline.RDat τ (Elt F) Unit ℕ UU ℕ (Pipeline.pin (pcfgs (F := F)) adm q) c :=
  Pipeline.RDat.familyOf (pcfgs (F := F)) adm (3 : Fin 7) (rdat3 W fgt)

/-- At its own index the family is region 3's data. -/
theorem rfam3_self (c : Dev nD) : rfam3 W fgt (3 : Fin 7) c = rdat3 W fgt c :=
  Pipeline.RDat.familyOf_self (pcfgs (F := F)) adm (3 : Fin 7) (rdat3 W fgt) c

/-- The data hold every array at the full share. -/
theorem rdat3_share (c : Dev nD) (w : Fin cfg3.W) : (rdat3 W fgt c).share w = fullShare :=
  (rdat3 W fgt c).share_full (fun _ => rfl) w

/-- The arrays after every write-back, opened: each whole at the full share at SOME contents it may then hold. -/
theorem arraysAt_open3 (c : Dev nD) :
    ((rdat3 W fgt c).arraysAt cfg3.N : sProp 𝕄)
      ⊢ iprop(∃ A : (w : Fin cfg3.W) → Buf (Elt F) ((cfg3.win w).arr.view.loc (c : Thread nD τ)),
          ⌜∀ w, (rdat3 W fgt c).ArrAt w cfg3.N (A w)⌝ ∗ Pipeline.arrPts spec3 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat3 W fgt c).ArrAt w cfg3.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg3.win w).arr.view.loc (c : Thread nD τ)
        ↦[(cfg3.win w).arr.view.set]{(rdat3 W fgt c).share w} A w : sProp 𝕄)) = Pipeline.arrPts spec3 c A := by
    unfold Pipeline.arrPts
    exact bigSep_congr fun w _ => by
      have hw : (cfg3.win w).arr.IsWhole := launch3.arr_whole w
      rw [hw.set_eq_univ, rdat3_share W fgt c w]
  rw [← hpts]
  iexact H

/-- The arrays at contents `A` beside every other unscoped buffer at `W` are the unscoped buffers held at `W` updated at
    the arrays by `A`. -/
theorem held_withArrays3 (c : Dev nD) (A : (w : Fin cfg3.W) → Buf (Elt F) ((cfg3.win w).arr.view.loc (c : Thread nD τ))) :
    iprop(Pipeline.arrPts spec3 c A ∗ Pipeline.unscopedRest (Ix := Unit) (Name := ℕ) (U := UU) (Lvl := ℕ) spec3 c (fun b => W b))
      ⊢ (Held c (Pipeline.withArrays spec3 c W A) : sProp 𝕄) := by
  unfold Held
  rw [← Pipeline.unscopedBufs_held, Pipeline.unscopedBufs_split cfgs (3 : Fin 7) launch3.win.arr_unscoped launch3.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec3 w)) ↦{fullShare} f : sProp 𝕄))
      (Pipeline.withArrays_arr spec3 launch3.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec3 c W A b fun w e =>
        (Finset.mem_sdiff.mp hb).2 (Finset.mem_image.mpr ⟨w, Finset.mem_univ _, e⟩)).symm

set_option backward.isDefEq.respectTransparency.types false in
/-- Region 3 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg3 (hbody : ∀ c, BodyObligationLoose (dat3 (VW W) c) (defs₀ (F := F)) Variants.none () Set.univ fgt) :
    Pipeline.RDat.RegionSeg (pcfgs (F := F)) adm (rfam3 W fgt) () defs₀ Variants.none Lr lvr (3 : Fin 7) where
  win := launch3.win.to₀
  block_pos := launch3.block_pos
  stage_whole := launch3.stage_whole
  K := PEmpty
  osem k := k.elim
  ho := Pipeline.OwnSemFacts.none _
  hbody c := by
    rw [rfam3_self]
    exact (hbody c).toRForget
  hwaits := Pipeline.RDat.hwaits_of_owed_zero _ _ _ _ Lr lvr (3 : Fin 7) fun c t => by
    rw [rfam3_self]; rfl
  pre c := iprop(Held c W ∗ Pr c ∗ Ow c)
  post c := iprop(∃ A : (w : Fin cfg3.W) → Buf (Elt F) ((cfg3.win w).arr.view.loc (c : Thread nD τ)),
    ⌜∀ w, (rdat3 W fgt c).ArrAt w cfg3.N (A w)⌝ ∗ Held c (Pipeline.withArrays spec3 c W A) ∗ Pr c ∗ Ow c)
  X c := Pr c
  Y c := Pr c
  Z c := Pipeline.unscopedRest (Ix := Unit) (Name := ℕ) (U := UU) (Lvl := ℕ) spec3 c (fun b => W b)
  hentry c := by
    -- the arrays at their entry contents, split out of the held buffers
    have hsplit : (Held c W : sProp 𝕄)
        ⊢ iprop((rfam3 W fgt (3 : Fin 7) c).arrays (rfam3 W fgt (3 : Fin 7) c).A
            ∗ Pipeline.unscopedRest (Ix := Unit) (Name := ℕ) (U := UU) (Lvl := ℕ) spec3 c (fun b => W b)) := by
      unfold Held
      rw [← Pipeline.unscopedBufs_held]
      exact Pipeline.RDat.arrays_of_unscopedBufs (p := (3 : Fin 7)) (pcfgs (F := F)) adm (rfam3 W fgt) launch3.win launch3.arr_whole c
        (fun w => by rw [rfam3_self]; exact rdat3_share W fgt c w) (fun b => W b) (fun w => by rw [rfam3_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam3_self]
      icases Howes with ⟨%S, Howes⟩
      iexists S
      isplitr
      · ipureintro; exact fun x _ => Or.inl (Set.mem_univ x)
      iexact Howes
    isplitl [Hprng]; · iexact Hprng
    iexact Hrest
  hin c := by
    rw [rfam3_self]
    show _ ⊢ (Pipeline.ΦA spec3 c : sProp 𝕄)
    unfold Pipeline.ΦA
    iintro ⟨Hprng, -, Hscoped⟩
    isplitl [Hscoped]; · iexact Hscoped
    iexact Hprng
  hout c := by
    rw [rfam3_self, Pipeline.ownSems0_none]
    show (Pipeline.ΦA spec3 c : sProp 𝕄) ⊢ _
    unfold Pipeline.ΦA
    iintro ⟨Hscoped, Hprng⟩
    isplitl [Hprng]; · iexact Hprng
    isplitr; · iempintro
    iexact Hscoped
  hexit c := by
    rw [rfam3_self]
    iintro ⟨Harr, Howes, Hprng, Hrest⟩
    imodintro
    ihave Hopen := (arraysAt_open3 W fgt c) $$ Harr
    icases Hopen with ⟨%A, %hA, Hpts⟩
    iexists A
    isplitr; · ipureintro; exact hA
    isplitl [Hpts Hrest]
    · iapply (held_withArrays3 W c A)
      isplitl [Hpts]; · iexact Hpts
      iexact Hrest
    isplitl [Hprng]; · iexact Hprng
    icases Howes with ⟨%S, -, Howes⟩
    iexists S; iexact Howes

/-- REGION 3's STEP, continuation-passing: from the boundary, every unscoped buffer held at `W`, the generator register,
    the core owing nothing, the level facts and pipeline 3's ghost state, the region's call runs; the continuation is
    entered at the boundary with the buffers held at `W` UPDATED at the region's arrays by SOME contents `A` the arrays
    may hold after every write-back (the inputs' as entered; an unnamed output's anything). -/
theorem region3_wp
    (hbody : ∀ c, BodyObligationLoose (dat3 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg3.W) → Buf (Elt F) ((cfg3.win w).arr.view.loc (c : Thread nD τ)),
            iprop(⌜∀ w, (rdat3 W fgt c).ArrAt w cfg3.N (A w)⌝ ∗ boundary (c : Thread nD τ)
                ∗ Held c (Pipeline.withArrays spec3 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 3 c)
      ⊢ wp frame (wpE (defs (F := F)) (Variants.lift Variants.none) (c : Thread nD τ) none) Set.univ
          (.op (.customCall (Pipeline.entry 3) ()) k) Q := by
  iintro ⟨Hk, Hbd, Hheld, Hprng, Howes, Hlev, Hghost, Htoks⟩
  -- the region's rule between its two thread states, on this core
  have hwp := (regSeg3 W fgt hbody).wp (pcfgs (F := F)) adm (rfam3 W fgt) () cellOf_inj EPg defs₀ Variants.none Lr lvr c none
    (fun u h => nomatch h) k Q
  dsimp only [regSeg3] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.Kernel.Gen

end
-- ==== Proof.K.Dat4.lean ====
import proofs.«178696_j1468878815658_2_alg».proof.Proof.K.Outs
import proofs.«178696_j1468878815658_2_alg».proof.Proof.Gen.Kernel.Launch
import proofs.«178696_j1468878815658_2_alg».proof.Proof.Gen.Kernel.Points
import Idealize.ShloMosaic.Lib.Pipeline.Kit
import Idealize.ShloMosaic.Lib.Pipeline.FrameBody
import Idealize.ShloMosaic.Lib.Pipeline.Frame

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 4: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The same filled out to the whole staging buffer with a word of no account. -/
def fblk4 (c : Dev nD) (w : Fin cfg4.W) (t : Fin cfg4.N) : (cfg4.win w).block.Idx → Elt F (cfg4.win w).elt :=
  (cfg4.win w).fill (cfg4.grid.coords t) (fun _ => Classical.arbitrary _) (iblk4 V c w t)

/-- The proof data of region 4 on core `c`: the arrays as the region finds them; after the body each input's buffer
    at its block and the output's at the body's function of the input buffers; the scoped rest and the generator
    register as the invariant; nothing owed; full shares. -/
def dat4 (c : Dev nD) : Dat τ (Elt F) Unit ℕ (UR sig nD τ × UR sig nD τ) ℕ cfg4 c where
  A w := V c (Pipeline.arrRef spec4 w)
  after w t := match w with
    | ⟨0, _⟩ => fblk4 V c 0 t
    | ⟨1, _⟩ => fblk4 V c 1 t
    | ⟨2, _⟩ => iblk4 V c 2 t
    | ⟨3, _⟩ => iblk4 V c 3 t
    | ⟨4, _⟩ => iblk4 V c 4 t
    | ⟨5, _⟩ => out4 (fblk4 V c 0 t) (fblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = fblk4 V c 0 t := by dsimp only [dat4]
theorem after4_1 (c : Dev nD) (t : Fin cfg4.N) : (dat4 V c).after 1 t = fblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4 (fblk4 V c 0 t) (fblk4 V c 1 t) (iblk4 V c 2 t) (iblk4 V c 3 t) (iblk4 V c 4 t) := by dsimp only [dat4]

end Cert.Kernel.Gen

end
-- ==== Proof.K.Body4.lean ====
import proofs.«178696_j1468878815658_2_alg».proof.Proof.K.Outs
import proofs.«178696_j1468878815658_2_alg».proof.Proof.Gen.Kernel.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 4 on whole staging memrefs: from its input buffers at any contents and its output buffer at
    anything, it runs to the end without a fault, leaves the inputs as they were and the output at the region's
    function of the inputs. -/
theorem sound_kernel4 (c : Dev nD) (E : Set ℕ) (i : grid4.Coords)
    (arg1 : Memref sig .tc .vmem S8192x64 .bf16) (harg1 : arg1.IsWhole) (arg2 : Memref sig .tc .vmem S8192x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S8192x64 .bf16) (harg6 : arg6.IsWhole)
    (xs : Vec F S8192x64 .bf16) (e : Vec F S8192x64 .bf16) (ws : Vec F S64x64 .f32) (we : Vec F S64x64 .f32) (b : Vec F S1x64 .f32) (K : PUnit → sProp 𝕄) :
    iprop(owns (c : Thread nD τ) arg1 fullShare xs ∗ owns (c : Thread nD τ) arg2 fullShare e ∗ owns (c : Thread nD τ) arg3 fullShare ws ∗ owns (c : Thread nD τ) arg4 fullShare we ∗ owns (c : Thread nD τ) arg5 fullShare b ∗ (∃ d, owns (c : Thread nD τ) arg6 fullShare d)
        ∗ (iprop(owns (c : Thread nD τ) arg1 fullShare xs ∗ owns (c : Thread nD τ) arg2 fullShare e ∗ owns (c : Thread nD τ) arg3 fullShare ws ∗ owns (c : Thread nD τ) arg4 fullShare we ∗ owns (c : Thread nD τ) arg5 fullShare b ∗ owns (c : Thread nD τ) arg6 fullShare (out4 xs e ws we b)) -∗ K ⟨⟩))
      ⊢ wp frame (wpE (defs₀ (F := F)) Variants.none c none) E (cc4__msg_kernel i arg1 harg1 arg2 harg2 arg3 harg3 arg4 harg4 arg5 harg5 arg6 harg6) K := by
  -- every access is at offsets zero with the buffer's own sizes
  have hz : (![0, 0] : Fin 2 → Nat) = fun _ => 0 := funext fun a => by fin_cases a <;> rfl
  simp only [cc4__msg_kernel_eq_skeleton]; unfold cc4__msg_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output's buffer after its one store: the store's rectangle is the whole buffer, so the buffer reads the
  -- payload, and each whole load read its buffer's contents
  iexists _; isplitr
  swap; · iexact H6
  ipureintro
  rw [View.read_writes_eq_canon _ _ _ (fun y => ⟨_, List.mem_singleton_self _, View.mem_set_unit_zero hz inb_S8192x64_S8192x64_0_0 y⟩),
    View.canon_unit_zero hz]
  unfold out4
  rw [View.readAt_eq_ld, View.readAt_eq_ld, View.readAt_eq_ld, View.readAt_eq_ld, View.readAt_eq_ld,
    View.ld_unit_zero hz, View.ld_unit_zero hz, View.ld_unit_zero hz, View.ld_unit_zero hz, View.ld_unit_zero hz]

end Cert.Kernel.Gen

end
-- ==== Proof.K.Obl4.lean ====
import proofs.«178696_j1468878815658_2_alg».proof.Proof.K.Dat4
import proofs.«178696_j1468878815658_2_alg».proof.Proof.K.Body4

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut4 : Fin cfg4.W → Bool := fun | ⟨0, _⟩ => false | ⟨1, _⟩ => false | ⟨2, _⟩ => false | ⟨3, _⟩ => false | ⟨4, _⟩ => false | ⟨5, _⟩ => true | ⟨_ + 6, h⟩ => absurd h (Nat.not_lt.2 (Nat.le_add_left _ _))

theorem before4_0 (c : Dev nD) (t : Fin cfg4.N) (d) :
    (dat4 V c).before 0 t d = (cfg4.win 0).fill (cfg4.grid.coords t) d (iblk4 V c 0 t) := by
  rw [(dat4 V c).before_fetched 0 t (fetch4_0 t) d]; unfold Dat.fetched Dat.blockOf iblk4; rw [A_eq4]
theorem before4_1 (c : Dev nD) (t : Fin cfg4.N) (d) :
    (dat4 V c).before 1 t d = (cfg4.win 1).fill (cfg4.grid.coords t) d (iblk4 V c 1 t) := by
  rw [(dat4 V c).before_fetched 1 t (fetch4_1 t) d]; unfold Dat.fetched Dat.blockOf iblk4; rw [A_eq4]
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)

/-- The body obligation of region 4 at any point, the output window forgotten: the inputs' buffers hold their blocks
    (a row-tiled one filled out past the array's end with whatever the fetch left), so the body's triple applies; it
    leaves them as they were — on the rows inside the array, their blocks — and the output at contents not named. -/
theorem body_obligation4_fgt (c : Dev nD) :
    BodyObligationLoose (dat4 V c) (defs₀ (F := F)) Variants.none () Set.univ fgtOut4 := fun t => by
  rw [bigSep_W4, bigSep_W4]
  simp only [fgtOut4]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%X, HX⟩⟩
  rw [before4_0 V c t d0, before4_1 V c t d1, before4_2 V c t d2, before4_3 V c t d3, before4_4 V c t d4]
  iapply (sound_kernel4 (F := F) c Set.univ (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) ((cfg4.win 0).fill (cfg4.grid.coords t) d0 (iblk4 V c 0 t)) ((cfg4.win 1).fill (cfg4.grid.coords t) d1 (iblk4 V c 1 t)) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [HX]; · iexists X; iexact HX
  iintro ⟨H0, H1, H2, H3, H4, HX⟩
  isplitl [HΦ]; · iexact HΦ
  isplitl [Ho]; · iexact Ho
  isplitl [H0]
  · iexists d0
    rw [after4_0]; unfold fblk4; rw [(cfg4.win 0).cut_fill]; iexact H0
  isplitl [H1]
  · iexists d1
    rw [after4_1]; unfold fblk4; rw [(cfg4.win 1).cut_fill]; iexact H1
  isplitl [H2]
  · rw [after4_2]; iexact H2
  isplitl [H3]
  · rw [after4_3]; iexact H3
  isplitl [H4]
  · rw [after4_4]; iexact H4
  iexists _; iexact HX

end Cert.Kernel.Gen

end
-- ==== Proof.K.Reg4.lean ====
import proofs.«178696_j1468878815658_2_alg».proof.Proof.K.Alg
import proofs.«178696_j1468878815658_2_alg».proof.Proof.K.Obl4
import proofs.«178696_j1468878815658_2_alg».proof.Proof.Gen.Kernel.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 4's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 4 is entered
variable (fgt : Fin cfg4.W → Bool)                        -- the windows whose contents after the body are left unnamed

/-- Region 4's relational proof data at the entry contents `W`. -/
def rdat4 (c : Dev nD) : Pipeline.RDat τ (Elt F) Unit ℕ UU ℕ cfg4 c := (dat4 (VW W) c).toRForget fgt

/-- The family of relational proof data with region 4's at its index. -/
abbrev rfam4 : (q : Fin 7) → (c : Dev nD) → Pipeline.RDat τ (Elt F) Unit ℕ UU ℕ (Pipeline.pin (pcfgs (F := F)) adm q) c :=
  Pipeline.RDat.familyOf (pcfgs (F := F)) adm (4 : Fin 7) (rdat4 W fgt)

/-- At its own index the family is region 4's data. -/
theorem rfam4_self (c : Dev nD) : rfam4 W fgt (4 : Fin 7) c = rdat4 W fgt c :=
  Pipeline.RDat.familyOf_self (pcfgs (F := F)) adm (4 : Fin 7) (rdat4 W fgt) c

/-- The data hold every array at the full share. -/
theorem rdat4_share (c : Dev nD) (w : Fin cfg4.W) : (rdat4 W fgt c).share w = fullShare :=
  (rdat4 W fgt c).share_full (fun _ => rfl) w

/-- The arrays after every write-back, opened: each whole at the full share at SOME contents it may then hold. -/
theorem arraysAt_open4 (c : Dev nD) :
    ((rdat4 W fgt c).arraysAt cfg4.N : sProp 𝕄)
      ⊢ iprop(∃ A : (w : Fin cfg4.W) → Buf (Elt F) ((cfg4.win w).arr.view.loc (c : Thread nD τ)),
          ⌜∀ w, (rdat4 W fgt c).ArrAt w cfg4.N (A w)⌝ ∗ Pipeline.arrPts spec4 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat4 W fgt c).ArrAt w cfg4.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg4.win w).arr.view.loc (c : Thread nD τ)
        ↦[(cfg4.win w).arr.view.set]{(rdat4 W fgt c).share w} A w : sProp 𝕄)) = Pipeline.arrPts spec4 c A := by
    unfold Pipeline.arrPts
    exact bigSep_congr fun w _ => by
      have hw : (cfg4.win w).arr.IsWhole := launch4.arr_whole w
      rw [hw.set_eq_univ, rdat4_share W fgt c w]
  rw [← hpts]
  iexact H

/-- The arrays at contents `A` beside every other unscoped buffer at `W` are the unscoped buffers held at `W` updated at
    the arrays by `A`. -/
theorem held_withArrays4 (c : Dev nD) (A : (w : Fin cfg4.W) → Buf (Elt F) ((cfg4.win w).arr.view.loc (c : Thread nD τ))) :
    iprop(Pipeline.arrPts spec4 c A ∗ Pipeline.unscopedRest (Ix := Unit) (Name := ℕ) (U := UU) (Lvl := ℕ) spec4 c (fun b => W b))
      ⊢ (Held c (Pipeline.withArrays spec4 c W A) : sProp 𝕄) := by
  unfold Held
  rw [← Pipeline.unscopedBufs_held, Pipeline.unscopedBufs_split cfgs (4 : Fin 7) launch4.win.arr_unscoped launch4.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec4 w)) ↦{fullShare} f : sProp 𝕄))
      (Pipeline.withArrays_arr spec4 launch4.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec4 c W A b fun w e =>
        (Finset.mem_sdiff.mp hb).2 (Finset.mem_image.mpr ⟨w, Finset.mem_univ _, e⟩)).symm

set_option backward.isDefEq.respectTransparency.types false in
/-- Region 4 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg4 (hbody : ∀ c, BodyObligationLoose (dat4 (VW W) c) (defs₀ (F := F)) Variants.none () Set.univ fgt) :
    Pipeline.RDat.RegionSeg (pcfgs (F := F)) adm (rfam4 W fgt) () defs₀ Variants.none Lr lvr (4 : Fin 7) where
  win := launch4.win.to₀
  block_pos := launch4.block_pos
  stage_whole := launch4.stage_whole
  K := PEmpty
  osem k := k.elim
  ho := Pipeline.OwnSemFacts.none _
  hbody c := by
    rw [rfam4_self]
    exact (hbody c).toRForget
  hwaits := Pipeline.RDat.hwaits_of_owed_zero _ _ _ _ Lr lvr (4 : Fin 7) fun c t => by
    rw [rfam4_self]; rfl
  pre c := iprop(Held c W ∗ Pr c ∗ Ow c)
  post c := iprop(∃ A : (w : Fin cfg4.W) → Buf (Elt F) ((cfg4.win w).arr.view.loc (c : Thread nD τ)),
    ⌜∀ w, (rdat4 W fgt c).ArrAt w cfg4.N (A w)⌝ ∗ Held c (Pipeline.withArrays spec4 c W A) ∗ Pr c ∗ Ow c)
  X c := Pr c
  Y c := Pr c
  Z c := Pipeline.unscopedRest (Ix := Unit) (Name := ℕ) (U := UU) (Lvl := ℕ) spec4 c (fun b => W b)
  hentry c := by
    -- the arrays at their entry contents, split out of the held buffers
    have hsplit : (Held c W : sProp 𝕄)
        ⊢ iprop((rfam4 W fgt (4 : Fin 7) c).arrays (rfam4 W fgt (4 : Fin 7) c).A
            ∗ Pipeline.unscopedRest (Ix := Unit) (Name := ℕ) (U := UU) (Lvl := ℕ) spec4 c (fun b => W b)) := by
      unfold Held
      rw [← Pipeline.unscopedBufs_held]
      exact Pipeline.RDat.arrays_of_unscopedBufs (p := (4 : Fin 7)) (pcfgs (F := F)) adm (rfam4 W fgt) launch4.win launch4.arr_whole c
        (fun w => by rw [rfam4_self]; exact rdat4_share W fgt c w) (fun b => W b) (fun w => by rw [rfam4_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam4_self]
      icases Howes with ⟨%S, Howes⟩
      iexists S
      isplitr
      · ipureintro; exact fun x _ => Or.inl (Set.mem_univ x)
      iexact Howes
    isplitl [Hprng]; · iexact Hprng
    iexact Hrest
  hin c := by
    rw [rfam4_self]
    show _ ⊢ (Pipeline.ΦA spec4 c : sProp 𝕄)
    unfold Pipeline.ΦA
    iintro ⟨Hprng, -, Hscoped⟩
    isplitl [Hscoped]; · iexact Hscoped
    iexact Hprng
  hout c := by
    rw [rfam4_self, Pipeline.ownSems0_none]
    show (Pipeline.ΦA spec4 c : sProp 𝕄) ⊢ _
    unfold Pipeline.ΦA
    iintro ⟨Hscoped, Hprng⟩
    isplitl [Hprng]; · iexact Hprng
    isplitr; · iempintro
    iexact Hscoped
  hexit c := by
    rw [rfam4_self]
    iintro ⟨Harr, Howes, Hprng, Hrest⟩
    imodintro
    ihave Hopen := (arraysAt_open4 W fgt c) $$ Harr
    icases Hopen with ⟨%A, %hA, Hpts⟩
    iexists A
    isplitr; · ipureintro; exact hA
    isplitl [Hpts Hrest]
    · iapply (held_withArrays4 W c A)
      isplitl [Hpts]; · iexact Hpts
      iexact Hrest
    isplitl [Hprng]; · iexact Hprng
    icases Howes with ⟨%S, -, Howes⟩
    iexists S; iexact Howes

/-- REGION 4's STEP, continuation-passing: from the boundary, every unscoped buffer held at `W`, the generator register,
    the core owing nothing, the level facts and pipeline 4's ghost state, the region's call runs; the continuation is
    entered at the boundary with the buffers held at `W` UPDATED at the region's arrays by SOME contents `A` the arrays
    may hold after every write-back (the inputs' as entered; an unnamed output's anything). -/
theorem region4_wp
    (hbody : ∀ c, BodyObligationLoose (dat4 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg4.W) → Buf (Elt F) ((cfg4.win w).arr.view.loc (c : Thread nD τ)),
            iprop(⌜∀ w, (rdat4 W fgt c).ArrAt w cfg4.N (A w)⌝ ∗ boundary (c : Thread nD τ)
                ∗ Held c (Pipeline.withArrays spec4 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 4 c)
      ⊢ wp frame (wpE (defs (F := F)) (Variants.lift Variants.none) (c : Thread nD τ) none) Set.univ
          (.op (.customCall (Pipeline.entry 4) ()) k) Q := by
  iintro ⟨Hk, Hbd, Hheld, Hprng, Howes, Hlev, Hghost, Htoks⟩
  -- the region's rule between its two thread states, on this core
  have hwp := (regSeg4 W fgt hbody).wp (pcfgs (F := F)) adm (rfam4 W fgt) () cellOf_inj EPg defs₀ Variants.none Lr lvr c none
    (fun u h => nomatch h) k Q
  dsimp only [regSeg4] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.Kernel.Gen

end
-- ==== Proof.K.Dat5.lean ====
import proofs.«178696_j1468878815658_2_alg».proof.Proof.K.Outs
import proofs.«178696_j1468878815658_2_alg».proof.Proof.Gen.Kernel.Launch
import proofs.«178696_j1468878815658_2_alg».proof.Proof.Gen.Kernel.Points
import Idealize.ShloMosaic.Lib.Pipeline.Kit
import Idealize.ShloMosaic.Lib.Pipeline.FrameBody
import Idealize.ShloMosaic.Lib.Pipeline.Frame

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 5: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The same filled out to the whole staging buffer with a word of no account. -/
def fblk5 (c : Dev nD) (w : Fin cfg5.W) (t : Fin cfg5.N) : (cfg5.win w).block.Idx → Elt F (cfg5.win w).elt :=
  (cfg5.win w).fill (cfg5.grid.coords t) (fun _ => Classical.arbitrary _) (iblk5 V c w t)

/-- The proof data of region 5 on core `c`: the arrays as the region finds them; after the body each input's buffer
    at its block and the output's at the body's function of the input buffers; the scoped rest and the generator
    register as the invariant; nothing owed; full shares. -/
def dat5 (c : Dev nD) : Dat τ (Elt F) Unit ℕ (UR sig nD τ × UR sig nD τ) ℕ cfg5 c where
  A w := V c (Pipeline.arrRef spec5 w)
  after w t := match w with
    | ⟨0, _⟩ => fblk5 V c 0 t
    | ⟨1, _⟩ => fblk5 V c 1 t
    | ⟨2, _⟩ => fblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5 (fblk5 V c 0 t) (fblk5 V c 1 t) (fblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = fblk5 V c 0 t := by dsimp only [dat5]
theorem after5_1 (c : Dev nD) (t : Fin cfg5.N) : (dat5 V c).after 1 t = fblk5 V c 1 t := by dsimp only [dat5]
theorem after5_2 (c : Dev nD) (t : Fin cfg5.N) : (dat5 V c).after 2 t = fblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) :
    (dat5 V c).after 8 t = out5 (fblk5 V c 0 t) (fblk5 V c 1 t) (fblk5 V c 2 t) (iblk5 V c 3 t) (iblk5 V c 4 t) (iblk5 V c 5 t) (iblk5 V c 6 t) (iblk5 V c 7 t) := by dsimp only [dat5]

end Cert.Kernel.Gen

end
-- ==== Proof.K.Body5.lean ====
import proofs.«178696_j1468878815658_2_alg».proof.Proof.K.Outs
import proofs.«178696_j1468878815658_2_alg».proof.Proof.Gen.Kernel.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 5 on whole staging memrefs: from its input buffers at any contents and its output buffer at
    anything, it runs to the end without a fault, leaves the inputs as they were and the output at the region's
    function of the inputs. -/
theorem sound_kernel5 (c : Dev nD) (E : Set ℕ) (i : grid5.Coords)
    (arg1 : Memref sig .tc .vmem S4096x64 .bf16) (harg1 : arg1.IsWhole) (arg2 : Memref sig .tc .vmem S4096x64 .f32) (harg2 : arg2.IsWhole) (arg3 : Memref sig .tc .vmem S4096x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S4096x64 .bf16) (harg9 : arg9.IsWhole)
    (h : Vec F S4096x64 .bf16) (ms : Vec F S4096x64 .f32) (cnt : Vec F S4096x1 .f32) (wh : Vec F S64x64 .f32) (wm : Vec F S64x64 .f32) (b : Vec F S1x64 .f32) (g : Vec F S1x64 .f32) (β : Vec F S1x64 .f32) (K : PUnit → sProp 𝕄) :
    iprop(owns (c : Thread nD τ) arg1 fullShare h ∗ owns (c : Thread nD τ) arg2 fullShare ms ∗ owns (c : Thread nD τ) arg3 fullShare cnt ∗ owns (c : Thread nD τ) arg4 fullShare wh ∗ owns (c : Thread nD τ) arg5 fullShare wm ∗ owns (c : Thread nD τ) arg6 fullShare b ∗ owns (c : Thread nD τ) arg7 fullShare g ∗ owns (c : Thread nD τ) arg8 fullShare β ∗ (∃ d, owns (c : Thread nD τ) arg9 fullShare d)
        ∗ (iprop(owns (c : Thread nD τ) arg1 fullShare h ∗ owns (c : Thread nD τ) arg2 fullShare ms ∗ owns (c : Thread nD τ) arg3 fullShare cnt ∗ owns (c : Thread nD τ) arg4 fullShare wh ∗ owns (c : Thread nD τ) arg5 fullShare wm ∗ owns (c : Thread nD τ) arg6 fullShare b ∗ owns (c : Thread nD τ) arg7 fullShare g ∗ owns (c : Thread nD τ) arg8 fullShare β ∗ owns (c : Thread nD τ) arg9 fullShare (out5 h ms cnt wh wm b g β)) -∗ K ⟨⟩))
      ⊢ wp frame (wpE (defs₀ (F := F)) Variants.none c none) E (cc5__upd_kernel i arg1 harg1 arg2 harg2 arg3 harg3 arg4 harg4 arg5 harg5 arg6 harg6 arg7 harg7 arg8 harg8 arg9 harg9) K := by
  -- every access is at offsets zero with the buffer's own sizes
  have hz : (![0, 0] : Fin 2 → Nat) = fun _ => 0 := funext fun a => by fin_cases a <;> rfl
  simp only [cc5__upd_kernel_eq_skeleton]; unfold cc5__upd_kernel_skel
  -- open each buffer's ownership to its raw contents; an input's read contents are then a function of those
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  -- run the loads and the one store
  sl_exec
  sl_step
  -- the inputs are held as they were
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  -- the output buffer holds one whole unmasked store over its prior contents
  iexists _; isplitr
  swap; · iexact H9
  ipureintro
  -- the store's rectangle is the whole buffer, so it covers every index and what is read back is its payload
  refine (View.read_writes_eq_canon _ _ _ fun y => ?_).trans ?_
  · exact ⟨_, List.mem_singleton_self _, View.mem_set_unit_zero hz (fun a => by rw [hz]; exact (Nat.zero_add _).le) y⟩
  rw [View.canon_unit_zero hz]
  -- the payload is the region's function once every loaded value is identified with its buffer's contents:
  -- a load through the whole rectangle at offsets zero reads the contents themselves
  unfold out5
  sl_unfold_run_names
  simp only [View.readAt_eq_ld]
  repeat rw [View.ld_unit_zero hz]

end Cert.Kernel.Gen

end
-- ==== Proof.K.Obl5.lean ====
import proofs.«178696_j1468878815658_2_alg».proof.Proof.K.Dat5
import proofs.«178696_j1468878815658_2_alg».proof.Proof.K.Body5

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut5 : Fin cfg5.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => true | ⟨_ + 9, h⟩ => absurd h (Nat.not_lt.2 (Nat.le_add_left _ _))

theorem before5_0 (c : Dev nD) (t : Fin cfg5.N) (d) :
    (dat5 V c).before 0 t d = (cfg5.win 0).fill (cfg5.grid.coords t) d (iblk5 V c 0 t) := by
  rw [(dat5 V c).before_fetched 0 t (fetch5_0 t) d]; unfold Dat.fetched Dat.blockOf iblk5; rw [A_eq5]
theorem before5_1 (c : Dev nD) (t : Fin cfg5.N) (d) :
    (dat5 V c).before 1 t d = (cfg5.win 1).fill (cfg5.grid.coords t) d (iblk5 V c 1 t) := by
  rw [(dat5 V c).before_fetched 1 t (fetch5_1 t) d]; unfold Dat.fetched Dat.blockOf iblk5; rw [A_eq5]
theorem before5_2 (c : Dev nD) (t : Fin cfg5.N) (d) :
    (dat5 V c).before 2 t d = (cfg5.win 2).fill (cfg5.grid.coords t) d (iblk5 V c 2 t) := by
  rw [(dat5 V c).before_fetched 2 t (fetch5_2 t) d]; unfold Dat.fetched Dat.blockOf iblk5; rw [A_eq5]
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (fun _ => rfl) (fun _ _ _ => rfl)
    (fun t => by rw [after5_7]; unfold Dat.blockOf iblk5; rw [A_eq5]; try rfl) t d).trans
    (by unfold Dat.fetched Dat.blockOf iblk5; rw [A_eq5]; try rfl)

/-- The body obligation of region 5 at any point, the output window forgotten: the inputs' buffers hold their blocks
    (a row-tiled one filled out past the array's end with whatever the fetch left), so the body's triple applies; it
    leaves them as they were — on the rows inside the array, their blocks — and the output at contents not named. -/
theorem body_obligation5_fgt (c : Dev nD) :
    BodyObligationLoose (dat5 V c) (defs₀ (F := F)) Variants.none () Set.univ fgtOut5 := fun t => by
  rw [bigSep_W5, bigSep_W5]
  simp only [fgtOut5]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X, HX⟩⟩
  rw [before5_0 V c t d0, before5_1 V c t d1, before5_2 V c t d2, before5_3 V c t d3, before5_4 V c t d4, before5_5 V c t d5, before5_6 V c t d6, before5_7 V c t d7]
  iapply (sound_kernel5 (F := F) c Set.univ (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) (win5_7.stage (cfg5.slots t 7)) (hstage5_7 ((cfg5.slots t 7).cast nbuf5_7)) (win5_8.stage (cfg5.slots t 8)) (hstage5_8 ((cfg5.slots t 8).cast nbuf5_8)) ((cfg5.win 0).fill (cfg5.grid.coords t) d0 (iblk5 V c 0 t)) ((cfg5.win 1).fill (cfg5.grid.coords t) d1 (iblk5 V c 1 t)) ((cfg5.win 2).fill (cfg5.grid.coords t) d2 (iblk5 V c 2 t)) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexists X; iexact HX
  iintro ⟨H0, H1, H2, H3, H4, H5, H6, H7, HX⟩
  isplitl [HΦ]; · iexact HΦ
  isplitl [Ho]; · iexact Ho
  isplitl [H0]
  · iexists d0
    rw [after5_0]; unfold fblk5; rw [(cfg5.win 0).cut_fill]; iexact H0
  isplitl [H1]
  · iexists d1
    rw [after5_1]; unfold fblk5; rw [(cfg5.win 1).cut_fill]; iexact H1
  isplitl [H2]
  · iexists d2
    rw [after5_2]; unfold fblk5; rw [(cfg5.win 2).cut_fill]; iexact H2
  isplitl [H3]
  · rw [after5_3]; iexact H3
  isplitl [H4]
  · rw [after5_4]; iexact H4
  isplitl [H5]
  · rw [after5_5]; iexact H5
  isplitl [H6]
  · rw [after5_6]; iexact H6
  isplitl [H7]
  · rw [after5_7]; iexact H7
  iexists _; iexact HX

end Cert.Kernel.Gen

end
-- ==== Proof.K.Reg5.lean ====
import proofs.«178696_j1468878815658_2_alg».proof.Proof.K.Alg
import proofs.«178696_j1468878815658_2_alg».proof.Proof.K.Obl5
import proofs.«178696_j1468878815658_2_alg».proof.Proof.Gen.Kernel.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 5's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 5 is entered
variable (fgt : Fin cfg5.W → Bool)                        -- the windows whose contents after the body are left unnamed

/-- Region 5's relational proof data at the entry contents `W`. -/
def rdat5 (c : Dev nD) : Pipeline.RDat τ (Elt F) Unit ℕ UU ℕ cfg5 c := (dat5 (VW W) c).toRForget fgt

/-- The family of relational proof data with region 5's at its index. -/
abbrev rfam5 : (q : Fin 7) → (c : Dev nD) → Pipeline.RDat τ (Elt F) Unit ℕ UU ℕ (Pipeline.pin (pcfgs (F := F)) adm q) c :=
  Pipeline.RDat.familyOf (pcfgs (F := F)) adm (5 : Fin 7) (rdat5 W fgt)

/-- At its own index the family is region 5's data. -/
theorem rfam5_self (c : Dev nD) : rfam5 W fgt (5 : Fin 7) c = rdat5 W fgt c :=
  Pipeline.RDat.familyOf_self (pcfgs (F := F)) adm (5 : Fin 7) (rdat5 W fgt) c

/-- The data hold every array at the full share. -/
theorem rdat5_share (c : Dev nD) (w : Fin cfg5.W) : (rdat5 W fgt c).share w = fullShare :=
  (rdat5 W fgt c).share_full (fun _ => rfl) w

/-- The arrays after every write-back, opened: each whole at the full share at SOME contents it may then hold. -/
theorem arraysAt_open5 (c : Dev nD) :
    ((rdat5 W fgt c).arraysAt cfg5.N : sProp 𝕄)
      ⊢ iprop(∃ A : (w : Fin cfg5.W) → Buf (Elt F) ((cfg5.win w).arr.view.loc (c : Thread nD τ)),
          ⌜∀ w, (rdat5 W fgt c).ArrAt w cfg5.N (A w)⌝ ∗ Pipeline.arrPts spec5 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat5 W fgt c).ArrAt w cfg5.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg5.win w).arr.view.loc (c : Thread nD τ)
        ↦[(cfg5.win w).arr.view.set]{(rdat5 W fgt c).share w} A w : sProp 𝕄)) = Pipeline.arrPts spec5 c A := by
    unfold Pipeline.arrPts
    exact bigSep_congr fun w _ => by
      have hw : (cfg5.win w).arr.IsWhole := launch5.arr_whole w
      rw [hw.set_eq_univ, rdat5_share W fgt c w]
  rw [← hpts]
  iexact H

/-- The arrays at contents `A` beside every other unscoped buffer at `W` are the unscoped buffers held at `W` updated at
    the arrays by `A`. -/
theorem held_withArrays5 (c : Dev nD) (A : (w : Fin cfg5.W) → Buf (Elt F) ((cfg5.win w).arr.view.loc (c : Thread nD τ))) :
    iprop(Pipeline.arrPts spec5 c A ∗ Pipeline.unscopedRest (Ix := Unit) (Name := ℕ) (U := UU) (Lvl := ℕ) spec5 c (fun b => W b))
      ⊢ (Held c (Pipeline.withArrays spec5 c W A) : sProp 𝕄) := by
  unfold Held
  rw [← Pipeline.unscopedBufs_held, Pipeline.unscopedBufs_split cfgs (5 : Fin 7) launch5.win.arr_unscoped launch5.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec5 w)) ↦{fullShare} f : sProp 𝕄))
      (Pipeline.withArrays_arr spec5 launch5.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec5 c W A b fun w e =>
        (Finset.mem_sdiff.mp hb).2 (Finset.mem_image.mpr ⟨w, Finset.mem_univ _, e⟩)).symm

set_option backward.isDefEq.respectTransparency.types false in
/-- Region 5 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg5 (hbody : ∀ c, BodyObligationLoose (dat5 (VW W) c) (defs₀ (F := F)) Variants.none () Set.univ fgt) :
    Pipeline.RDat.RegionSeg (pcfgs (F := F)) adm (rfam5 W fgt) () defs₀ Variants.none Lr lvr (5 : Fin 7) where
  win := launch5.win.to₀
  block_pos := launch5.block_pos
  stage_whole := launch5.stage_whole
  K := PEmpty
  osem k := k.elim
  ho := Pipeline.OwnSemFacts.none _
  hbody c := by
    rw [rfam5_self]
    exact (hbody c).toRForget
  hwaits := Pipeline.RDat.hwaits_of_owed_zero _ _ _ _ Lr lvr (5 : Fin 7) fun c t => by
    rw [rfam5_self]; rfl
  pre c := iprop(Held c W ∗ Pr c ∗ Ow c)
  post c := iprop(∃ A : (w : Fin cfg5.W) → Buf (Elt F) ((cfg5.win w).arr.view.loc (c : Thread nD τ)),
    ⌜∀ w, (rdat5 W fgt c).ArrAt w cfg5.N (A w)⌝ ∗ Held c (Pipeline.withArrays spec5 c W A) ∗ Pr c ∗ Ow c)
  X c := Pr c
  Y c := Pr c
  Z c := Pipeline.unscopedRest (Ix := Unit) (Name := ℕ) (U := UU) (Lvl := ℕ) spec5 c (fun b => W b)
  hentry c := by
    -- the arrays at their entry contents, split out of the held buffers
    have hsplit : (Held c W : sProp 𝕄)
        ⊢ iprop((rfam5 W fgt (5 : Fin 7) c).arrays (rfam5 W fgt (5 : Fin 7) c).A
            ∗ Pipeline.unscopedRest (Ix := Unit) (Name := ℕ) (U := UU) (Lvl := ℕ) spec5 c (fun b => W b)) := by
      unfold Held
      rw [← Pipeline.unscopedBufs_held]
      exact Pipeline.RDat.arrays_of_unscopedBufs (p := (5 : Fin 7)) (pcfgs (F := F)) adm (rfam5 W fgt) launch5.win launch5.arr_whole c
        (fun w => by rw [rfam5_self]; exact rdat5_share W fgt c w) (fun b => W b) (fun w => by rw [rfam5_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam5_self]
      icases Howes with ⟨%S, Howes⟩
      iexists S
      isplitr
      · ipureintro; exact fun x _ => Or.inl (Set.mem_univ x)
      iexact Howes
    isplitl [Hprng]; · iexact Hprng
    iexact Hrest
  hin c := by
    rw [rfam5_self]
    show _ ⊢ (Pipeline.ΦA spec5 c : sProp 𝕄)
    unfold Pipeline.ΦA
    iintro ⟨Hprng, -, Hscoped⟩
    isplitl [Hscoped]; · iexact Hscoped
    iexact Hprng
  hout c := by
    rw [rfam5_self, Pipeline.ownSems0_none]
    show (Pipeline.ΦA spec5 c : sProp 𝕄) ⊢ _
    unfold Pipeline.ΦA
    iintro ⟨Hscoped, Hprng⟩
    isplitl [Hprng]; · iexact Hprng
    isplitr; · iempintro
    iexact Hscoped
  hexit c := by
    rw [rfam5_self]
    iintro ⟨Harr, Howes, Hprng, Hrest⟩
    imodintro
    ihave Hopen := (arraysAt_open5 W fgt c) $$ Harr
    icases Hopen with ⟨%A, %hA, Hpts⟩
    iexists A
    isplitr; · ipureintro; exact hA
    isplitl [Hpts Hrest]
    · iapply (held_withArrays5 W c A)
      isplitl [Hpts]; · iexact Hpts
      iexact Hrest
    isplitl [Hprng]; · iexact Hprng
    icases Howes with ⟨%S, -, Howes⟩
    iexists S; iexact Howes

/-- REGION 5's STEP, continuation-passing: from the boundary, every unscoped buffer held at `W`, the generator register,
    the core owing nothing, the level facts and pipeline 5's ghost state, the region's call runs; the continuation is
    entered at the boundary with the buffers held at `W` UPDATED at the region's arrays by SOME contents `A` the arrays
    may hold after every write-back (the inputs' as entered; an unnamed output's anything). -/
theorem region5_wp
    (hbody : ∀ c, BodyObligationLoose (dat5 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg5.W) → Buf (Elt F) ((cfg5.win w).arr.view.loc (c : Thread nD τ)),
            iprop(⌜∀ w, (rdat5 W fgt c).ArrAt w cfg5.N (A w)⌝ ∗ boundary (c : Thread nD τ)
                ∗ Held c (Pipeline.withArrays spec5 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 5 c)
      ⊢ wp frame (wpE (defs (F := F)) (Variants.lift Variants.none) (c : Thread nD τ) none) Set.univ
          (.op (.customCall (Pipeline.entry 5) ()) k) Q := by
  iintro ⟨Hk, Hbd, Hheld, Hprng, Howes, Hlev, Hghost, Htoks⟩
  -- the region's rule between its two thread states, on this core
  have hwp := (regSeg5 W fgt hbody).wp (pcfgs (F := F)) adm (rfam5 W fgt) () cellOf_inj EPg defs₀ Variants.none Lr lvr c none
    (fun u h => nomatch h) k Q
  dsimp only [regSeg5] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.Kernel.Gen

end
-- ==== Proof.K.Dat6.lean ====
import proofs.«178696_j1468878815658_2_alg».proof.Proof.K.Outs
import proofs.«178696_j1468878815658_2_alg».proof.Proof.Gen.Kernel.Launch
import proofs.«178696_j1468878815658_2_alg».proof.Proof.Gen.Kernel.Points
import Idealize.ShloMosaic.Lib.Pipeline.Kit
import Idealize.ShloMosaic.Lib.Pipeline.FrameBody
import Idealize.ShloMosaic.Lib.Pipeline.Frame

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 6: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The same filled out to the whole staging buffer with a word of no account. -/
def fblk6 (c : Dev nD) (w : Fin cfg6.W) (t : Fin cfg6.N) : (cfg6.win w).block.Idx → Elt F (cfg6.win w).elt :=
  (cfg6.win w).fill (cfg6.grid.coords t) (fun _ => Classical.arbitrary _) (iblk6 V c w t)

/-- The proof data of region 6 on core `c`: the arrays as the region finds them; after the body each input's buffer
    at its block and the output's at the body's function of the input buffers; the scoped rest and the generator
    register as the invariant; nothing owed; full shares. -/
def dat6 (c : Dev nD) : Dat τ (Elt F) Unit ℕ (UR sig nD τ × UR sig nD τ) ℕ cfg6 c where
  A w := V c (Pipeline.arrRef spec6 w)
  after w t := match w with
    | ⟨0, _⟩ => fblk6 V c 0 t
    | ⟨1, _⟩ => fblk6 V c 1 t
    | ⟨2, _⟩ => fblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => out6 (fblk6 V c 0 t) (fblk6 V c 1 t) (fblk6 V c 2 t) (iblk6 V c 3 t) (iblk6 V c 4 t) (iblk6 V c 5 t) (iblk6 V c 6 t) (iblk6 V c 7 t) (iblk6 V c 8 t) (iblk6 V c 9 t) (iblk6 V c 10 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = fblk6 V c 0 t := by dsimp only [dat6]
theorem after6_1 (c : Dev nD) (t : Fin cfg6.N) : (dat6 V c).after 1 t = fblk6 V c 1 t := by dsimp only [dat6]
theorem after6_2 (c : Dev nD) (t : Fin cfg6.N) : (dat6 V c).after 2 t = fblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) :
    (dat6 V c).after 11 t = out6 (fblk6 V c 0 t) (fblk6 V c 1 t) (fblk6 V c 2 t) (iblk6 V c 3 t) (iblk6 V c 4 t) (iblk6 V c 5 t) (iblk6 V c 6 t) (iblk6 V c 7 t) (iblk6 V c 8 t) (iblk6 V c 9 t) (iblk6 V c 10 t) := by dsimp only [dat6]

end Cert.Kernel.Gen

end
-- ==== Proof.K.Body6.lean ====
import proofs.«178696_j1468878815658_2_alg».proof.Proof.K.Outs
import proofs.«178696_j1468878815658_2_alg».proof.Proof.Gen.Kernel.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 6 on whole staging memrefs: from its input buffers at any contents and its output buffer at
    anything, it runs to the end without a fault, leaves the inputs as they were and the output at the region's
    function of the inputs. -/
theorem sound_kernel6 (c : Dev nD) (E : Set ℕ) (i : grid6.Coords)
    (arg1 : Memref sig .tc .vmem S4096x64 .bf16) (harg1 : arg1.IsWhole) (arg2 : Memref sig .tc .vmem S4096x64 .bf16) (harg2 : arg2.IsWhole) (arg3 : Memref sig .tc .vmem S4096x5 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S4096x1 .f32) (harg12 : arg12.IsWhole)
    (hs : Vec F S4096x64 .bf16) (ht : Vec F S4096x64 .bf16) (ea : Vec F S4096x5 .f32) (w1s : Vec F S64x64 .f32) (w1t : Vec F S64x64 .f32) (w1e : Vec F S5x64 .f32) (b1 : Vec F S1x64 .f32) (w2 : Vec F S64x32 .f32) (b2 : Vec F S1x32 .f32) (w3 : Vec F S32x1 .f32) (b3 : Vec F S1x1 .f32) (K : PUnit → sProp 𝕄) :
    iprop(owns (c : Thread nD τ) arg1 fullShare hs ∗ owns (c : Thread nD τ) arg2 fullShare ht ∗ owns (c : Thread nD τ) arg3 fullShare ea ∗ owns (c : Thread nD τ) arg4 fullShare w1s ∗ owns (c : Thread nD τ) arg5 fullShare w1t ∗ owns (c : Thread nD τ) arg6 fullShare w1e ∗ owns (c : Thread nD τ) arg7 fullShare b1 ∗ owns (c : Thread nD τ) arg8 fullShare w2 ∗ owns (c : Thread nD τ) arg9 fullShare b2 ∗ owns (c : Thread nD τ) arg10 fullShare w3 ∗ owns (c : Thread nD τ) arg11 fullShare b3 ∗ (∃ d, owns (c : Thread nD τ) arg12 fullShare d)
        ∗ (iprop(owns (c : Thread nD τ) arg1 fullShare hs ∗ owns (c : Thread nD τ) arg2 fullShare ht ∗ owns (c : Thread nD τ) arg3 fullShare ea ∗ owns (c : Thread nD τ) arg4 fullShare w1s ∗ owns (c : Thread nD τ) arg5 fullShare w1t ∗ owns (c : Thread nD τ) arg6 fullShare w1e ∗ owns (c : Thread nD τ) arg7 fullShare b1 ∗ owns (c : Thread nD τ) arg8 fullShare w2 ∗ owns (c : Thread nD τ) arg9 fullShare b2 ∗ owns (c : Thread nD τ) arg10 fullShare w3 ∗ owns (c : Thread nD τ) arg11 fullShare b3 ∗ owns (c : Thread nD τ) arg12 fullShare (out6 hs ht ea w1s w1t w1e b1 w2 b2 w3 b3)) -∗ K ⟨⟩))
      ⊢ wp frame (wpE (defs₀ (F := F)) Variants.none c none) E (cc6__pred_kernel i arg1 harg1 arg2 harg2 arg3 harg3 arg4 harg4 arg5 harg5 arg6 harg6 arg7 harg7 arg8 harg8 arg9 harg9 arg10 harg10 arg11 harg11 arg12 harg12) K := by
  -- every access is at offsets zero with the buffer's own sizes
  have hz : (![0, 0] : Fin 2 → Nat) = fun _ => 0 := funext fun a => by fin_cases a <;> rfl
  simp only [cc6__pred_kernel_eq_skeleton]; unfold cc6__pred_kernel_skel
  -- open each buffer's ownership to its raw contents; an input's read contents are then a function of those
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1 hf2 hf3 hf4 hf5 hf6 hf7 hf8 hf9 hf10 hf11
  -- run the loads and the one store
  sl_exec
  sl_step
  -- the inputs are held as they were
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  -- the output buffer holds one whole unmasked store over its prior contents
  iexists _; isplitr
  swap; · iexact H12
  ipureintro
  -- the store's rectangle is the whole buffer, so it covers every index and what is read back is its payload
  refine (View.read_writes_eq_canon _ _ _ fun y => ?_).trans ?_
  · exact ⟨_, List.mem_singleton_self _, View.mem_set_unit_zero hz (fun a => by rw [hz]; exact (Nat.zero_add _).le) y⟩
  rw [View.canon_unit_zero hz]
  -- the payload is the region's function once every loaded value is identified with its buffer's contents:
  -- a load through the whole rectangle at offsets zero reads the contents themselves
  unfold out6
  sl_unfold_run_names
  simp only [View.readAt_eq_ld]
  repeat rw [View.ld_unit_zero hz]

end Cert.Kernel.Gen

end
-- ==== Proof.K.Obl6.lean ====
import proofs.«178696_j1468878815658_2_alg».proof.Proof.K.Dat6
import proofs.«178696_j1468878815658_2_alg».proof.Proof.K.Body6

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut6 : Fin cfg6.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => false | ⟨9, _⟩ => false | ⟨10, _⟩ => false | ⟨11, _⟩ => true | ⟨_ + 12, h⟩ => absurd h (Nat.not_lt.2 (Nat.le_add_left _ _))

theorem before6_0 (c : Dev nD) (t : Fin cfg6.N) (d) :
    (dat6 V c).before 0 t d = (cfg6.win 0).fill (cfg6.grid.coords t) d (iblk6 V c 0 t) := by
  rw [(dat6 V c).before_fetched 0 t (fetch6_0 t) d]; unfold Dat.fetched Dat.blockOf iblk6; rw [A_eq6]
theorem before6_1 (c : Dev nD) (t : Fin cfg6.N) (d) :
    (dat6 V c).before 1 t d = (cfg6.win 1).fill (cfg6.grid.coords t) d (iblk6 V c 1 t) := by
  rw [(dat6 V c).before_fetched 1 t (fetch6_1 t) d]; unfold Dat.fetched Dat.blockOf iblk6; rw [A_eq6]
theorem before6_2 (c : Dev nD) (t : Fin cfg6.N) (d) :
    (dat6 V c).before 2 t d = (cfg6.win 2).fill (cfg6.grid.coords t) d (iblk6 V c 2 t) := by
  rw [(dat6 V c).before_fetched 2 t (fetch6_2 t) d]; unfold Dat.fetched Dat.blockOf iblk6; rw [A_eq6]
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl)
    (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (fun _ => rfl) (fun _ _ _ => rfl)
    (fun t => by rw [after6_7]; unfold Dat.blockOf iblk6; rw [A_eq6]; try rfl) t d).trans
    (by unfold Dat.fetched Dat.blockOf iblk6; rw [A_eq6]; try rfl)
theorem before6_8 (c : Dev nD) (t : Fin cfg6.N) (d) : (dat6 V c).before 8 t d = iblk6 V c 8 t :=
  ((dat6 V c).before_in_eq_fetched 8 rfl (fun _ => rfl) (fun _ _ _ => rfl)
    (fun t => by rw [after6_8]; unfold Dat.blockOf iblk6; rw [A_eq6]; try rfl) t d).trans
    (by unfold Dat.fetched Dat.blockOf iblk6; rw [A_eq6]; try rfl)
theorem before6_9 (c : Dev nD) (t : Fin cfg6.N) (d) : (dat6 V c).before 9 t d = iblk6 V c 9 t :=
  ((dat6 V c).before_in_eq_fetched 9 rfl (fun _ => rfl) (fun _ _ _ => rfl)
    (fun t => by rw [after6_9]; unfold Dat.blockOf iblk6; rw [A_eq6]; try rfl) t d).trans
    (by unfold Dat.fetched Dat.blockOf iblk6; rw [A_eq6]; try rfl)
theorem before6_10 (c : Dev nD) (t : Fin cfg6.N) (d) : (dat6 V c).before 10 t d = iblk6 V c 10 t :=
  ((dat6 V c).before_in_eq_fetched 10 rfl (fun _ => rfl) (fun _ _ _ => rfl)
    (fun t => by rw [after6_10]; unfold Dat.blockOf iblk6; rw [A_eq6]; try rfl) t d).trans
    (by unfold Dat.fetched Dat.blockOf iblk6; rw [A_eq6]; try rfl)

/-- The body obligation of region 6 at any point, the output window forgotten: the inputs' buffers hold their blocks
    (a row-tiled one filled out past the array's end with whatever the fetch left), so the body's triple applies; it
    leaves them as they were — on the rows inside the array, their blocks — and the output at contents not named. -/
theorem body_obligation6_fgt (c : Dev nD) :
    BodyObligationLoose (dat6 V c) (defs₀ (F := F)) Variants.none () Set.univ fgtOut6 := fun t => by
  rw [bigSep_W6, bigSep_W6]
  simp only [fgtOut6]
  rw [show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X, HX⟩⟩
  rw [before6_0 V c t d0, before6_1 V c t d1, before6_2 V c t d2, before6_3 V c t d3, before6_4 V c t d4, before6_5 V c t d5, before6_6 V c t d6, before6_7 V c t d7, before6_8 V c t d8, before6_9 V c t d9, before6_10 V c t d10]
  iapply (sound_kernel6 (F := F) c Set.univ (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (win6_4.stage (cfg6.slots t 4)) (hstage6_4 ((cfg6.slots t 4).cast nbuf6_4)) (win6_5.stage (cfg6.slots t 5)) (hstage6_5 ((cfg6.slots t 5).cast nbuf6_5)) (win6_6.stage (cfg6.slots t 6)) (hstage6_6 ((cfg6.slots t 6).cast nbuf6_6)) (win6_7.stage (cfg6.slots t 7)) (hstage6_7 ((cfg6.slots t 7).cast nbuf6_7)) (win6_8.stage (cfg6.slots t 8)) (hstage6_8 ((cfg6.slots t 8).cast nbuf6_8)) (win6_9.stage (cfg6.slots t 9)) (hstage6_9 ((cfg6.slots t 9).cast nbuf6_9)) (win6_10.stage (cfg6.slots t 10)) (hstage6_10 ((cfg6.slots t 10).cast nbuf6_10)) (win6_11.stage (cfg6.slots t 11)) (hstage6_11 ((cfg6.slots t 11).cast nbuf6_11)) ((cfg6.win 0).fill (cfg6.grid.coords t) d0 (iblk6 V c 0 t)) ((cfg6.win 1).fill (cfg6.grid.coords t) d1 (iblk6 V c 1 t)) ((cfg6.win 2).fill (cfg6.grid.coords t) d2 (iblk6 V c 2 t)) (iblk6 V c 3 t) (iblk6 V c 4 t) (iblk6 V c 5 t) (iblk6 V c 6 t) (iblk6 V c 7 t) (iblk6 V c 8 t) (iblk6 V c 9 t) (iblk6 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HX]; · iexists X; iexact HX
  iintro ⟨H0, H1, H2, H3, H4, H5, H6, H7, H8, H9, H10, HX⟩
  isplitl [HΦ]; · iexact HΦ
  isplitl [Ho]; · iexact Ho
  isplitl [H0]
  · iexists d0
    rw [after6_0]; unfold fblk6; rw [(cfg6.win 0).cut_fill]; iexact H0
  isplitl [H1]
  · iexists d1
    rw [after6_1]; unfold fblk6; rw [(cfg6.win 1).cut_fill]; iexact H1
  isplitl [H2]
  · iexists d2
    rw [after6_2]; unfold fblk6; rw [(cfg6.win 2).cut_fill]; iexact H2
  isplitl [H3]
  · rw [after6_3]; iexact H3
  isplitl [H4]
  · rw [after6_4]; iexact H4
  isplitl [H5]
  · rw [after6_5]; iexact H5
  isplitl [H6]
  · rw [after6_6]; iexact H6
  isplitl [H7]
  · rw [after6_7]; iexact H7
  isplitl [H8]
  · rw [after6_8]; iexact H8
  isplitl [H9]
  · rw [after6_9]; iexact H9
  isplitl [H10]
  · rw [after6_10]; iexact H10
  iexists _; iexact HX

end Cert.Kernel.Gen

end
-- ==== Proof.K.Reg6.lean ====
import proofs.«178696_j1468878815658_2_alg».proof.Proof.K.Alg
import proofs.«178696_j1468878815658_2_alg».proof.Proof.K.Obl6
import proofs.«178696_j1468878815658_2_alg».proof.Proof.Gen.Kernel.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 6's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 6 is entered
variable (fgt : Fin cfg6.W → Bool)                        -- the windows whose contents after the body are left unnamed

/-- Region 6's relational proof data at the entry contents `W`. -/
def rdat6 (c : Dev nD) : Pipeline.RDat τ (Elt F) Unit ℕ UU ℕ cfg6 c := (dat6 (VW W) c).toRForget fgt

/-- The family of relational proof data with region 6's at its index. -/
abbrev rfam6 : (q : Fin 7) → (c : Dev nD) → Pipeline.RDat τ (Elt F) Unit ℕ UU ℕ (Pipeline.pin (pcfgs (F := F)) adm q) c :=
  Pipeline.RDat.familyOf (pcfgs (F := F)) adm (6 : Fin 7) (rdat6 W fgt)

/-- At its own index the family is region 6's data. -/
theorem rfam6_self (c : Dev nD) : rfam6 W fgt (6 : Fin 7) c = rdat6 W fgt c :=
  Pipeline.RDat.familyOf_self (pcfgs (F := F)) adm (6 : Fin 7) (rdat6 W fgt) c

/-- The data hold every array at the full share. -/
theorem rdat6_share (c : Dev nD) (w : Fin cfg6.W) : (rdat6 W fgt c).share w = fullShare :=
  (rdat6 W fgt c).share_full (fun _ => rfl) w

/-- The arrays after every write-back, opened: each whole at the full share at SOME contents it may then hold. -/
theorem arraysAt_open6 (c : Dev nD) :
    ((rdat6 W fgt c).arraysAt cfg6.N : sProp 𝕄)
      ⊢ iprop(∃ A : (w : Fin cfg6.W) → Buf (Elt F) ((cfg6.win w).arr.view.loc (c : Thread nD τ)),
          ⌜∀ w, (rdat6 W fgt c).ArrAt w cfg6.N (A w)⌝ ∗ Pipeline.arrPts spec6 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat6 W fgt c).ArrAt w cfg6.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg6.win w).arr.view.loc (c : Thread nD τ)
        ↦[(cfg6.win w).arr.view.set]{(rdat6 W fgt c).share w} A w : sProp 𝕄)) = Pipeline.arrPts spec6 c A := by
    unfold Pipeline.arrPts
    exact bigSep_congr fun w _ => by
      have hw : (cfg6.win w).arr.IsWhole := launch6.arr_whole w
      rw [hw.set_eq_univ, rdat6_share W fgt c w]
  rw [← hpts]
  iexact H

/-- The arrays at contents `A` beside every other unscoped buffer at `W` are the unscoped buffers held at `W` updated at
    the arrays by `A`. -/
theorem held_withArrays6 (c : Dev nD) (A : (w : Fin cfg6.W) → Buf (Elt F) ((cfg6.win w).arr.view.loc (c : Thread nD τ))) :
    iprop(Pipeline.arrPts spec6 c A ∗ Pipeline.unscopedRest (Ix := Unit) (Name := ℕ) (U := UU) (Lvl := ℕ) spec6 c (fun b => W b))
      ⊢ (Held c (Pipeline.withArrays spec6 c W A) : sProp 𝕄) := by
  unfold Held
  rw [← Pipeline.unscopedBufs_held, Pipeline.unscopedBufs_split cfgs (6 : Fin 7) launch6.win.arr_unscoped launch6.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec6 w)) ↦{fullShare} f : sProp 𝕄))
      (Pipeline.withArrays_arr spec6 launch6.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec6 c W A b fun w e =>
        (Finset.mem_sdiff.mp hb).2 (Finset.mem_image.mpr ⟨w, Finset.mem_univ _, e⟩)).symm

set_option backward.isDefEq.respectTransparency.types false in
/-- Region 6 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg6 (hbody : ∀ c, BodyObligationLoose (dat6 (VW W) c) (defs₀ (F := F)) Variants.none () Set.univ fgt) :
    Pipeline.RDat.RegionSeg (pcfgs (F := F)) adm (rfam6 W fgt) () defs₀ Variants.none Lr lvr (6 : Fin 7) where
  win := launch6.win.to₀
  block_pos := launch6.block_pos
  stage_whole := launch6.stage_whole
  K := PEmpty
  osem k := k.elim
  ho := Pipeline.OwnSemFacts.none _
  hbody c := by
    rw [rfam6_self]
    exact (hbody c).toRForget
  hwaits := Pipeline.RDat.hwaits_of_owed_zero _ _ _ _ Lr lvr (6 : Fin 7) fun c t => by
    rw [rfam6_self]; rfl
  pre c := iprop(Held c W ∗ Pr c ∗ Ow c)
  post c := iprop(∃ A : (w : Fin cfg6.W) → Buf (Elt F) ((cfg6.win w).arr.view.loc (c : Thread nD τ)),
    ⌜∀ w, (rdat6 W fgt c).ArrAt w cfg6.N (A w)⌝ ∗ Held c (Pipeline.withArrays spec6 c W A) ∗ Pr c ∗ Ow c)
  X c := Pr c
  Y c := Pr c
  Z c := Pipeline.unscopedRest (Ix := Unit) (Name := ℕ) (U := UU) (Lvl := ℕ) spec6 c (fun b => W b)
  hentry c := by
    -- the arrays at their entry contents, split out of the held buffers
    have hsplit : (Held c W : sProp 𝕄)
        ⊢ iprop((rfam6 W fgt (6 : Fin 7) c).arrays (rfam6 W fgt (6 : Fin 7) c).A
            ∗ Pipeline.unscopedRest (Ix := Unit) (Name := ℕ) (U := UU) (Lvl := ℕ) spec6 c (fun b => W b)) := by
      unfold Held
      rw [← Pipeline.unscopedBufs_held]
      exact Pipeline.RDat.arrays_of_unscopedBufs (p := (6 : Fin 7)) (pcfgs (F := F)) adm (rfam6 W fgt) launch6.win launch6.arr_whole c
        (fun w => by rw [rfam6_self]; exact rdat6_share W fgt c w) (fun b => W b) (fun w => by rw [rfam6_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam6_self]
      icases Howes with ⟨%S, Howes⟩
      iexists S
      isplitr
      · ipureintro; exact fun x _ => Or.inl (Set.mem_univ x)
      iexact Howes
    isplitl [Hprng]; · iexact Hprng
    iexact Hrest
  hin c := by
    rw [rfam6_self]
    show _ ⊢ (Pipeline.ΦA spec6 c : sProp 𝕄)
    unfold Pipeline.ΦA
    iintro ⟨Hprng, -, Hscoped⟩
    isplitl [Hscoped]; · iexact Hscoped
    iexact Hprng
  hout c := by
    rw [rfam6_self, Pipeline.ownSems0_none]
    show (Pipeline.ΦA spec6 c : sProp 𝕄) ⊢ _
    unfold Pipeline.ΦA
    iintro ⟨Hscoped, Hprng⟩
    isplitl [Hprng]; · iexact Hprng
    isplitr; · iempintro
    iexact Hscoped
  hexit c := by
    rw [rfam6_self]
    iintro ⟨Harr, Howes, Hprng, Hrest⟩
    imodintro
    ihave Hopen := (arraysAt_open6 W fgt c) $$ Harr
    icases Hopen with ⟨%A, %hA, Hpts⟩
    iexists A
    isplitr; · ipureintro; exact hA
    isplitl [Hpts Hrest]
    · iapply (held_withArrays6 W c A)
      isplitl [Hpts]; · iexact Hpts
      iexact Hrest
    isplitl [Hprng]; · iexact Hprng
    icases Howes with ⟨%S, -, Howes⟩
    iexists S; iexact Howes

/-- REGION 6's STEP, continuation-passing: from the boundary, every unscoped buffer held at `W`, the generator register,
    the core owing nothing, the level facts and pipeline 6's ghost state, the region's call runs; the continuation is
    entered at the boundary with the buffers held at `W` UPDATED at the region's arrays by SOME contents `A` the arrays
    may hold after every write-back (the inputs' as entered; an unnamed output's anything). -/
theorem region6_wp
    (hbody : ∀ c, BodyObligationLoose (dat6 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg6.W) → Buf (Elt F) ((cfg6.win w).arr.view.loc (c : Thread nD τ)),
            iprop(⌜∀ w, (rdat6 W fgt c).ArrAt w cfg6.N (A w)⌝ ∗ boundary (c : Thread nD τ)
                ∗ Held c (Pipeline.withArrays spec6 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 6 c)
      ⊢ wp frame (wpE (defs (F := F)) (Variants.lift Variants.none) (c : Thread nD τ) none) Set.univ
          (.op (.customCall (Pipeline.entry 6) ()) k) Q := by
  iintro ⟨Hk, Hbd, Hheld, Hprng, Howes, Hlev, Hghost, Htoks⟩
  -- the region's rule between its two thread states, on this core
  have hwp := (regSeg6 W fgt hbody).wp (pcfgs (F := F)) adm (rfam6 W fgt) () cellOf_inj EPg defs₀ Variants.none Lr lvr c none
    (fun u h => nomatch h) k Q
  dsimp only [regSeg6] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.Kernel.Gen

end
-- ==== Proof.K.Chain.lean ====
import proofs.«178696_j1468878815658_2_alg».proof.Proof.K.Alg
import proofs.«178696_j1468878815658_2_alg».proof.Proof.K.Reg0
import proofs.«178696_j1468878815658_2_alg».proof.Proof.K.Reg1
import proofs.«178696_j1468878815658_2_alg».proof.Proof.K.Reg2
import proofs.«178696_j1468878815658_2_alg».proof.Proof.K.Reg3
import proofs.«178696_j1468878815658_2_alg».proof.Proof.K.Reg4
import proofs.«178696_j1468878815658_2_alg».proof.Proof.K.Reg5
import proofs.«178696_j1468878815658_2_alg».proof.Proof.K.Reg6
import proofs.«178696_j1468878815658_2_alg».proof.Proof.Gen.Kernel.Regions
import Idealize.ShloMosaic.Lib.StableHlo.Run

/-!
  The account of @main on one core, from the launch to the return: seven times a stretch of host operations and then a
  kernel region. Each region is entered at whatever contents the items before it left — they are opened only there —,
  and a predicate on the contents is carried from item to item: a host stretch maps it forward through what the
  operations make of a valuation, a region through the update of the valuation at the region's arrays by some contents
  they may hold after every write-back.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ## The account of @main on one core -/

theorem bigSep_P7 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

set_option backward.isDefEq.respectTransparency.types false in
/-- A stretch of host operations, continuation-passing: from every unscoped buffer held at `W` to the same held at
    what the operations make of `W`. -/
theorem host_step (ops : List (HloOp τ sig (Elt F))) (hsub : ops.Forall fun op => op.bufs ⊆ StableHlo.tcRefs τ sig)
    (hfresh : ops.Forall fun op => op.fresh = ∅) (c : Dev nD) (W : Valuation τ sig (Elt F)) {β : Type}
    (k : PUnit → Prog (TpuEff nD τ sig (Elt F) (Pipeline.Sig Λ₀ (Fin 7) fun p => (pcfgs (F := F) p).Adm) .tc) β) (K : β → sProp 𝕄) :
    iprop((iprop(boundary (c : Thread nD τ) ∗ Held c (StableHlo.after ops W))
              -∗ wp frame (wpE (defs (F := F)) (Variants.lift Variants.none) (c : Thread nD τ) none) Set.univ (k ⟨⟩) K)
        ∗ boundary (c : Thread nD τ) ∗ Held c W)
      ⊢ wp frame (wpE (defs (F := F)) (Variants.lift Variants.none) (c : Thread nD τ) none) Set.univ (StableHlo.seq ops >>= k) K := by
  have hseq := StableHlo.wp_seq (defs := defs (F := F)) (Variants.lift Variants.none) none Set.univ c (Pipeline.ucRefs τ sig) k (K := K) ops
    (fun op h => Pipeline.sub_ucRefs op ((List.forall_iff_forall_mem.mp hsub) op h))
    (fun op h => (List.forall_iff_forall_mem.mp hfresh) op h) W
  iintro ⟨Hk, Hbd, Hh⟩
  iapply hseq $$ [Hbd Hh]
  · isplitl [Hbd] <;> iassumption
  iexact Hk

section Account

variable (m : (ℓ : Loc nD τ sig) → Buf (Elt F) ℓ)
variable (fgt0 : Fin cfg0.W → Bool) (fgt1 : Fin cfg1.W → Bool) (fgt2 : Fin cfg2.W → Bool) (fgt3 : Fin cfg3.W → Bool) (fgt4 : Fin cfg4.W → Bool) (fgt5 : Fin cfg5.W → Bool) (fgt6 : Fin cfg6.W → Bool)
variable (I : Fin 15 → Dev nD → Valuation τ sig (Elt F) → Prop)

/-- @main on core `c`, from the launch to the return: host stretch, region, …, each region entered at the contents the
    items before it left, whatever they are; a predicate `I j` on the buffers' contents is carried from item to item. -/
theorem account (hI0 : ∀ c : Dev nD, I 0 c (fun b => m (c, b)))
    (hH0 : ∀ (c : Dev nD) (W : Valuation τ sig (Elt F)), I 0 c W → I 1 c (StableHlo.after hostOps0 W))
    (hR0 : ∀ (c : Dev nD) (W : Valuation τ sig (Elt F)), I 1 c W → ∀ A, (∀ w, (rdat0 W fgt0 c).ArrAt w cfg0.N (A w)) → I 2 c (Pipeline.withArrays spec0 c W A))
    (hB0 : ∀ (W : Valuation τ sig (Elt F)) (c : Dev nD), BodyObligationLoose (dat0 (VW W) c) (defs₀ (F := F)) Variants.none () Set.univ fgt0)
    (hH1 : ∀ (c : Dev nD) (W : Valuation τ sig (Elt F)), I 2 c W → I 3 c (StableHlo.after hostOps1 W))
    (hR1 : ∀ (c : Dev nD) (W : Valuation τ sig (Elt F)), I 3 c W → ∀ A, (∀ w, (rdat1 W fgt1 c).ArrAt w cfg1.N (A w)) → I 4 c (Pipeline.withArrays spec1 c W A))
    (hB1 : ∀ (W : Valuation τ sig (Elt F)) (c : Dev nD), BodyObligationLoose (dat1 (VW W) c) (defs₀ (F := F)) Variants.none () Set.univ fgt1)
    (hH2 : ∀ (c : Dev nD) (W : Valuation τ sig (Elt F)), I 4 c W → I 5 c (StableHlo.after hostOps2 W))
    (hR2 : ∀ (c : Dev nD) (W : Valuation τ sig (Elt F)), I 5 c W → ∀ A, (∀ w, (rdat2 W fgt2 c).ArrAt w cfg2.N (A w)) → I 6 c (Pipeline.withArrays spec2 c W A))
    (hB2 : ∀ (W : Valuation τ sig (Elt F)) (c : Dev nD), BodyObligationLoose (dat2 (VW W) c) (defs₀ (F := F)) Variants.none () Set.univ fgt2)
    (hH3 : ∀ (c : Dev nD) (W : Valuation τ sig (Elt F)), I 6 c W → I 7 c (StableHlo.after hostOps3 W))
    (hR3 : ∀ (c : Dev nD) (W : Valuation τ sig (Elt F)), I 7 c W → ∀ A, (∀ w, (rdat3 W fgt3 c).ArrAt w cfg3.N (A w)) → I 8 c (Pipeline.withArrays spec3 c W A))
    (hB3 : ∀ (W : Valuation τ sig (Elt F)) (c : Dev nD), BodyObligationLoose (dat3 (VW W) c) (defs₀ (F := F)) Variants.none () Set.univ fgt3)
    (hH4 : ∀ (c : Dev nD) (W : Valuation τ sig (Elt F)), I 8 c W → I 9 c (StableHlo.after hostOps4 W))
    (hR4 : ∀ (c : Dev nD) (W : Valuation τ sig (Elt F)), I 9 c W → ∀ A, (∀ w, (rdat4 W fgt4 c).ArrAt w cfg4.N (A w)) → I 10 c (Pipeline.withArrays spec4 c W A))
    (hB4 : ∀ (W : Valuation τ sig (Elt F)) (c : Dev nD), BodyObligationLoose (dat4 (VW W) c) (defs₀ (F := F)) Variants.none () Set.univ fgt4)
    (hH5 : ∀ (c : Dev nD) (W : Valuation τ sig (Elt F)), I 10 c W → I 11 c (StableHlo.after hostOps5 W))
    (hR5 : ∀ (c : Dev nD) (W : Valuation τ sig (Elt F)), I 11 c W → ∀ A, (∀ w, (rdat5 W fgt5 c).ArrAt w cfg5.N (A w)) → I 12 c (Pipeline.withArrays spec5 c W A))
    (hB5 : ∀ (W : Valuation τ sig (Elt F)) (c : Dev nD), BodyObligationLoose (dat5 (VW W) c) (defs₀ (F := F)) Variants.none () Set.univ fgt5)
    (hH6 : ∀ (c : Dev nD) (W : Valuation τ sig (Elt F)), I 12 c W → I 13 c (StableHlo.after hostOps6 W))
    (hR6 : ∀ (c : Dev nD) (W : Valuation τ sig (Elt F)), I 13 c W → ∀ A, (∀ w, (rdat6 W fgt6 c).ArrAt w cfg6.N (A w)) → I 14 c (Pipeline.withArrays spec6 c W A))
    (hB6 : ∀ (W : Valuation τ sig (Elt F)) (c : Dev nD), BodyObligationLoose (dat6 (VW W) c) (defs₀ (F := F)) Variants.none () Set.univ fgt6)
    (c : Dev nD) {β : Type}
    (k : PUnit → Prog (TpuEff nD τ sig (Elt F) (Pipeline.Sig Λ₀ (Fin 7) fun p => (pcfgs (F := F) p).Adm) .tc) β) (K : β → sProp 𝕄) :
    iprop((iprop(boundary (c : Thread nD τ) ∗ (TS (I 14 c) c ∗ Pr c) ∗ Ow c)
              -∗ wp frame (wpE (defs (F := F)) (Variants.lift Variants.none) (c : Thread nD τ) none) Set.univ (k ⟨⟩) K)
          ∗ boundary (c : Thread nD τ)
          ∗ (Held c (fun b => m (c, b)) ∗ Pr c ∗ Ow c ∗ bigSep Finset.univ (fun p : Fin 7 => Gp (F := F) p c))
          ∗ levAts Lr lvr)
        ⊢ wp frame (wpE (defs (F := F)) (Variants.lift Variants.none) (c : Thread nD τ) none) Set.univ (main (F := F) c >>= k) K := by
  rw [main_chain c, bigSep_P7]
  simp only [Pipeline.chain_cons, Pipeline.chain_nil, bind_assoc, pure_bind, Prog.lift, Prog.bind_op, Prog.bind_ret]
  have h0 := hI0 c
  iintro ⟨Hk, Hbd, ⟨Hh, Hp, Ho, G0, G1, G2, G3, G4, G5, G6⟩, #Hla⟩
  -- host stretch 0
  iapply (host_step hostOps0 hostOps0_sub hostOps0_fresh c (fun b => m (c, b)) _ K)
  isplitr [Hbd Hh]
  swap
  · isplitl [Hbd] <;> iassumption
  iintro ⟨Hbd, Hh⟩
  have h1 := hH0 c _ h0
  -- region 0
  iapply (region0_wp (F := F) (StableHlo.after hostOps0 (fun b => m (c, b))) fgt0 (hB0 _) c _ K)
  isplitr [Hbd Hh Hp Ho G0]
  swap
  · isplitl [Hbd]; · iexact Hbd
    isplitl [Hh]; · iexact Hh
    isplitl [Hp]; · iexact Hp
    isplitl [Ho]; · iexact Ho
    isplitr; · iexact Hla
    iexact G0
  iintro %A0 ⟨%hA0, Hbd, Hh, Hp, Ho⟩
  have h2 := hR0 c _ h1 A0 hA0
  generalize hW2 : Pipeline.withArrays spec0 c (StableHlo.after hostOps0 (fun b => m (c, b))) A0 = W2 at h2
  -- host stretch 1
  iapply (host_step hostOps1 hostOps1_sub hostOps1_fresh c W2 _ K)
  isplitr [Hbd Hh]
  swap
  · isplitl [Hbd] <;> iassumption
  iintro ⟨Hbd, Hh⟩
  have h3 := hH1 c _ h2
  -- region 1
  iapply (region1_wp (F := F) (StableHlo.after hostOps1 W2) fgt1 (hB1 _) c _ K)
  isplitr [Hbd Hh Hp Ho G1]
  swap
  · isplitl [Hbd]; · iexact Hbd
    isplitl [Hh]; · iexact Hh
    isplitl [Hp]; · iexact Hp
    isplitl [Ho]; · iexact Ho
    isplitr; · iexact Hla
    iexact G1
  iintro %A1 ⟨%hA1, Hbd, Hh, Hp, Ho⟩
  have h4 := hR1 c _ h3 A1 hA1
  generalize hW4 : Pipeline.withArrays spec1 c (StableHlo.after hostOps1 W2) A1 = W4 at h4
  -- host stretch 2
  iapply (host_step hostOps2 hostOps2_sub hostOps2_fresh c W4 _ K)
  isplitr [Hbd Hh]
  swap
  · isplitl [Hbd] <;> iassumption
  iintro ⟨Hbd, Hh⟩
  have h5 := hH2 c _ h4
  -- region 2
  iapply (region2_wp (F := F) (StableHlo.after hostOps2 W4) fgt2 (hB2 _) c _ K)
  isplitr [Hbd Hh Hp Ho G2]
  swap
  · isplitl [Hbd]; · iexact Hbd
    isplitl [Hh]; · iexact Hh
    isplitl [Hp]; · iexact Hp
    isplitl [Ho]; · iexact Ho
    isplitr; · iexact Hla
    iexact G2
  iintro %A2 ⟨%hA2, Hbd, Hh, Hp, Ho⟩
  have h6 := hR2 c _ h5 A2 hA2
  generalize hW6 : Pipeline.withArrays spec2 c (StableHlo.after hostOps2 W4) A2 = W6 at h6
  -- host stretch 3
  iapply (host_step hostOps3 hostOps3_sub hostOps3_fresh c W6 _ K)
  isplitr [Hbd Hh]
  swap
  · isplitl [Hbd] <;> iassumption
  iintro ⟨Hbd, Hh⟩
  have h7 := hH3 c _ h6
  -- region 3
  iapply (region3_wp (F := F) (StableHlo.after hostOps3 W6) fgt3 (hB3 _) c _ K)
  isplitr [Hbd Hh Hp Ho G3]
  swap
  · isplitl [Hbd]; · iexact Hbd
    isplitl [Hh]; · iexact Hh
    isplitl [Hp]; · iexact Hp
    isplitl [Ho]; · iexact Ho
    isplitr; · iexact Hla
    iexact G3
  iintro %A3 ⟨%hA3, Hbd, Hh, Hp, Ho⟩
  have h8 := hR3 c _ h7 A3 hA3
  generalize hW8 : Pipeline.withArrays spec3 c (StableHlo.after hostOps3 W6) A3 = W8 at h8
  -- host stretch 4
  iapply (host_step hostOps4 hostOps4_sub hostOps4_fresh c W8 _ K)
  isplitr [Hbd Hh]
  swap
  · isplitl [Hbd] <;> iassumption
  iintro ⟨Hbd, Hh⟩
  have h9 := hH4 c _ h8
  -- region 4
  iapply (region4_wp (F := F) (StableHlo.after hostOps4 W8) fgt4 (hB4 _) c _ K)
  isplitr [Hbd Hh Hp Ho G4]
  swap
  · isplitl [Hbd]; · iexact Hbd
    isplitl [Hh]; · iexact Hh
    isplitl [Hp]; · iexact Hp
    isplitl [Ho]; · iexact Ho
    isplitr; · iexact Hla
    iexact G4
  iintro %A4 ⟨%hA4, Hbd, Hh, Hp, Ho⟩
  have h10 := hR4 c _ h9 A4 hA4
  generalize hW10 : Pipeline.withArrays spec4 c (StableHlo.after hostOps4 W8) A4 = W10 at h10
  -- host stretch 5
  iapply (host_step hostOps5 hostOps5_sub hostOps5_fresh c W10 _ K)
  isplitr [Hbd Hh]
  swap
  · isplitl [Hbd] <;> iassumption
  iintro ⟨Hbd, Hh⟩
  have h11 := hH5 c _ h10
  -- region 5
  iapply (region5_wp (F := F) (StableHlo.after hostOps5 W10) fgt5 (hB5 _) c _ K)
  isplitr [Hbd Hh Hp Ho G5]
  swap
  · isplitl [Hbd]; · iexact Hbd
    isplitl [Hh]; · iexact Hh
    isplitl [Hp]; · iexact Hp
    isplitl [Ho]; · iexact Ho
    isplitr; · iexact Hla
    iexact G5
  iintro %A5 ⟨%hA5, Hbd, Hh, Hp, Ho⟩
  have h12 := hR5 c _ h11 A5 hA5
  generalize hW12 : Pipeline.withArrays spec5 c (StableHlo.after hostOps5 W10) A5 = W12 at h12
  -- host stretch 6
  iapply (host_step hostOps6 hostOps6_sub hostOps6_fresh c W12 _ K)
  isplitr [Hbd Hh]
  swap
  · isplitl [Hbd] <;> iassumption
  iintro ⟨Hbd, Hh⟩
  have h13 := hH6 c _ h12
  -- region 6
  iapply (region6_wp (F := F) (StableHlo.after hostOps6 W12) fgt6 (hB6 _) c _ K)
  isplitr [Hbd Hh Hp Ho G6]
  swap
  · isplitl [Hbd]; · iexact Hbd
    isplitl [Hh]; · iexact Hh
    isplitl [Hp]; · iexact Hp
    isplitl [Ho]; · iexact Ho
    isplitr; · iexact Hla
    iexact G6
  iintro %A6 ⟨%hA6, Hbd, Hh, Hp, Ho⟩
  have h14 := hR6 c _ h13 A6 hA6
  generalize hW14 : Pipeline.withArrays spec6 c (StableHlo.after hostOps6 W12) A6 = W14 at h14
  iapply Hk
  isplitl [Hbd]; · iexact Hbd
  isplitr [Ho]
  · isplitr [Hp]
    · unfold TS; iexists W14; isplitr; · ipureintro; exact h14
      iexact Hh
    · iexact Hp
  · iexact Ho

end Account

end Cert.Kernel.Gen

end
-- ==== Proof.K.Args.lean ====
import proofs.«178696_j1468878815658_2_alg».proof.Proof.K.Alg
import proofs.«178696_j1468878815658_2_alg».proof.Proof.K.Reg0
import proofs.«178696_j1468878815658_2_alg».proof.Proof.K.Reg1
import proofs.«178696_j1468878815658_2_alg».proof.Proof.K.Reg2
import proofs.«178696_j1468878815658_2_alg».proof.Proof.K.Reg3
import proofs.«178696_j1468878815658_2_alg».proof.Proof.K.Reg4
import proofs.«178696_j1468878815658_2_alg».proof.Proof.K.Reg5
import proofs.«178696_j1468878815658_2_alg».proof.Proof.K.Reg6
import proofs.«178696_j1468878815658_2_alg».proof.Proof.Gen.Kernel.Regions

/-!
  The frames' invariant — every argument buffer is as launched — is kept by every item of @main: no host operation
  writes an argument, and a region changes only its output array (an input window's array may hold only its entry
  contents, and every other buffer bypasses the region).
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ## The frames' invariant: the arguments are as launched -/

section Args

variable (m : (ℓ : Loc nD τ sig) → Buf (Elt F) ℓ)

theorem argsOf_launch (c : Dev nD) : ArgsOf m c (fun b => m (c, b)) := fun _ _ => rfl

/-- No operation of host stretch 0 writes an argument. -/
theorem argsOf_host0 (c : Dev nD) (W : Valuation τ sig (Elt F)) (h : ArgsOf m c W) : ArgsOf m c (StableHlo.after hostOps0 W) := fun r hr =>
  (StableHlo.after_of_writes_sub hostOps0 W hostOps0_writes
    ((by decide : ∀ r ∈ argRefs, r ∉ hostOps0_W) r hr)).trans (h r hr)

/-- No operation of host stretch 1 writes an argument. -/
theorem argsOf_host1 (c : Dev nD) (W : Valuation τ sig (Elt F)) (h : ArgsOf m c W) : ArgsOf m c (StableHlo.after hostOps1 W) := fun r hr =>
  (StableHlo.after_of_writes_sub hostOps1 W hostOps1_writes
    ((by decide : ∀ r ∈ argRefs, r ∉ hostOps1_W) r hr)).trans (h r hr)

/-- No operation of host stretch 2 writes an argument. -/
theorem argsOf_host2 (c : Dev nD) (W : Valuation τ sig (Elt F)) (h : ArgsOf m c W) : ArgsOf m c (StableHlo.after hostOps2 W) := fun r hr =>
  (StableHlo.after_of_writes_sub hostOps2 W hostOps2_writes
    ((by decide : ∀ r ∈ argRefs, r ∉ hostOps2_W) r hr)).trans (h r hr)

/-- No operation of host stretch 3 writes an argument. -/
theorem argsOf_host3 (c : Dev nD) (W : Valuation τ sig (Elt F)) (h : ArgsOf m c W) : ArgsOf m c (StableHlo.after hostOps3 W) := fun r hr =>
  (StableHlo.after_of_writes_sub hostOps3 W hostOps3_writes
    ((by decide : ∀ r ∈ argRefs, r ∉ hostOps3_W) r hr)).trans (h r hr)

/-- No operation of host stretch 4 writes an argument. -/
theorem argsOf_host4 (c : Dev nD) (W : Valuation τ sig (Elt F)) (h : ArgsOf m c W) : ArgsOf m c (StableHlo.after hostOps4 W) := fun r hr =>
  (StableHlo.after_of_writes_sub hostOps4 W hostOps4_writes
    ((by decide : ∀ r ∈ argRefs, r ∉ hostOps4_W) r hr)).trans (h r hr)

/-- No operation of host stretch 5 writes an argument. -/
theorem argsOf_host5 (c : Dev nD) (W : Valuation τ sig (Elt F)) (h : ArgsOf m c W) : ArgsOf m c (StableHlo.after hostOps5 W) := fun r hr =>
  (StableHlo.after_of_writes_sub hostOps5 W hostOps5_writes
    ((by decide : ∀ r ∈ argRefs, r ∉ hostOps5_W) r hr)).trans (h r hr)

/-- No operation of host stretch 6 writes an argument. -/
theorem argsOf_host6 (c : Dev nD) (W : Valuation τ sig (Elt F)) (h : ArgsOf m c W) : ArgsOf m c (StableHlo.after hostOps6 W) := fun r hr =>
  (StableHlo.after_of_writes_sub hostOps6 W hostOps6_writes
    ((by decide : ∀ r ∈ argRefs, r ∉ hostOps6_W) r hr)).trans (h r hr)

/-- Region 0 changes only its output array: every other buffer is as the region found it (an input window's array may
    hold only its entry contents). -/
theorem withArrays0_of_ne_out (W : Valuation τ sig (Elt F)) (fgt : Fin cfg0.W → Bool) (c : Dev nD)
    (A : (w : Fin cfg0.W) → Buf (Elt F) ((cfg0.win w).arr.view.loc (c : Thread nD τ)))
    (hA : ∀ w, (rdat0 W fgt c).ArrAt w cfg0.N (A w)) (b : Ref sig .tc) (hb : b ≠ main_v7) :
    Pipeline.withArrays spec0 c W A (Proc.devRef .tc b) = W (Proc.devRef .tc b) := by
  by_cases h : ∃ w, Pipeline.arrRef spec0 w = b
  · obtain ⟨w, rfl⟩ := h
    rw [Pipeline.withArrays_arr spec0 launch0.win.arr_inj c W A w]
    have hin : (cfg0.win w).isOut = false :=
      (by decide : ∀ w : Fin 6, Pipeline.arrRef spec0 w ≠ main_v7 → (cfg0.win w).isOut = false) w hb
    have hw : A w = (rdat0 W fgt c).A w := by
      have h' := hA w
      rw [Pipeline.RDat.ArrAt_in (rdat0 W fgt c) w hin cfg0.N] at h'
      exact h'
    rw [hw]
    show (dat0 (VW W) c).A w = _
    rw [A_eq0]
  · exact Pipeline.withArrays_of_ne spec0 c W A b fun w e => h ⟨w, e⟩

theorem argsOf_region0 (W : Valuation τ sig (Elt F)) (fgt : Fin cfg0.W → Bool) (c : Dev nD) (h : ArgsOf m c W)
    (A : (w : Fin cfg0.W) → Buf (Elt F) ((cfg0.win w).arr.view.loc (c : Thread nD τ)))
    (hA : ∀ w, (rdat0 W fgt c).ArrAt w cfg0.N (A w)) : ArgsOf m c (Pipeline.withArrays spec0 c W A) := fun r hr =>
  (withArrays0_of_ne_out W fgt c A hA r ((by decide : ∀ r ∈ argRefs, r ≠ main_v7) r hr)).trans (h r hr)

/-- Region 1 changes only its output array: every other buffer is as the region found it (an input window's array may
    hold only its entry contents). -/
theorem withArrays1_of_ne_out (W : Valuation τ sig (Elt F)) (fgt : Fin cfg1.W → Bool) (c : Dev nD)
    (A : (w : Fin cfg1.W) → Buf (Elt F) ((cfg1.win w).arr.view.loc (c : Thread nD τ)))
    (hA : ∀ w, (rdat1 W fgt c).ArrAt w cfg1.N (A w)) (b : Ref sig .tc) (hb : b ≠ main_v11) :
    Pipeline.withArrays spec1 c W A (Proc.devRef .tc b) = W (Proc.devRef .tc b) := by
  by_cases h : ∃ w, Pipeline.arrRef spec1 w = b
  · obtain ⟨w, rfl⟩ := h
    rw [Pipeline.withArrays_arr spec1 launch1.win.arr_inj c W A w]
    have hin : (cfg1.win w).isOut = false :=
      (by decide : ∀ w : Fin 6, Pipeline.arrRef spec1 w ≠ main_v11 → (cfg1.win w).isOut = false) w hb
    have hw : A w = (rdat1 W fgt c).A w := by
      have h' := hA w
      rw [Pipeline.RDat.ArrAt_in (rdat1 W fgt c) w hin cfg1.N] at h'
      exact h'
    rw [hw]
    show (dat1 (VW W) c).A w = _
    rw [A_eq1]
  · exact Pipeline.withArrays_of_ne spec1 c W A b fun w e => h ⟨w, e⟩

theorem argsOf_region1 (W : Valuation τ sig (Elt F)) (fgt : Fin cfg1.W → Bool) (c : Dev nD) (h : ArgsOf m c W)
    (A : (w : Fin cfg1.W) → Buf (Elt F) ((cfg1.win w).arr.view.loc (c : Thread nD τ)))
    (hA : ∀ w, (rdat1 W fgt c).ArrAt w cfg1.N (A w)) : ArgsOf m c (Pipeline.withArrays spec1 c W A) := fun r hr =>
  (withArrays1_of_ne_out W fgt c A hA r ((by decide : ∀ r ∈ argRefs, r ≠ main_v11) r hr)).trans (h r hr)

/-- Region 2 changes only its output array: every other buffer is as the region found it (an input window's array may
    hold only its entry contents). -/
theorem withArrays2_of_ne_out (W : Valuation τ sig (Elt F)) (fgt : Fin cfg2.W → Bool) (c : Dev nD)
    (A : (w : Fin cfg2.W) → Buf (Elt F) ((cfg2.win w).arr.view.loc (c : Thread nD τ)))
    (hA : ∀ w, (rdat2 W fgt c).ArrAt w cfg2.N (A w)) (b : Ref sig .tc) (hb : b ≠ main_v31) :
    Pipeline.withArrays spec2 c W A (Proc.devRef .tc b) = W (Proc.devRef .tc b) := by
  by_cases h : ∃ w, Pipeline.arrRef spec2 w = b
  · obtain ⟨w, rfl⟩ := h
    rw [Pipeline.withArrays_arr spec2 launch2.win.arr_inj c W A w]
    have hin : (cfg2.win w).isOut = false :=
      (by decide : ∀ w : Fin 6, Pipeline.arrRef spec2 w ≠ main_v31 → (cfg2.win w).isOut = false) w hb
    have hw : A w = (rdat2 W fgt c).A w := by
      have h' := hA w
      rw [Pipeline.RDat.ArrAt_in (rdat2 W fgt c) w hin cfg2.N] at h'
      exact h'
    rw [hw]
    show (dat2 (VW W) c).A w = _
    rw [A_eq2]
  · exact Pipeline.withArrays_of_ne spec2 c W A b fun w e => h ⟨w, e⟩

theorem argsOf_region2 (W : Valuation τ sig (Elt F)) (fgt : Fin cfg2.W → Bool) (c : Dev nD) (h : ArgsOf m c W)
    (A : (w : Fin cfg2.W) → Buf (Elt F) ((cfg2.win w).arr.view.loc (c : Thread nD τ)))
    (hA : ∀ w, (rdat2 W fgt c).ArrAt w cfg2.N (A w)) : ArgsOf m c (Pipeline.withArrays spec2 c W A) := fun r hr =>
  (withArrays2_of_ne_out W fgt c A hA r ((by decide : ∀ r ∈ argRefs, r ≠ main_v31) r hr)).trans (h r hr)

/-- Region 3 changes only its output array: every other buffer is as the region found it (an input window's array may
    hold only its entry contents). -/
theorem withArrays3_of_ne_out (W : Valuation τ sig (Elt F)) (fgt : Fin cfg3.W → Bool) (c : Dev nD)
    (A : (w : Fin cfg3.W) → Buf (Elt F) ((cfg3.win w).arr.view.loc (c : Thread nD τ)))
    (hA : ∀ w, (rdat3 W fgt c).ArrAt w cfg3.N (A w)) (b : Ref sig .tc) (hb : b ≠ main_v39) :
    Pipeline.withArrays spec3 c W A (Proc.devRef .tc b) = W (Proc.devRef .tc b) := by
  by_cases h : ∃ w, Pipeline.arrRef spec3 w = b
  · obtain ⟨w, rfl⟩ := h
    rw [Pipeline.withArrays_arr spec3 launch3.win.arr_inj c W A w]
    have hin : (cfg3.win w).isOut = false :=
      (by decide : ∀ w : Fin 9, Pipeline.arrRef spec3 w ≠ main_v39 → (cfg3.win w).isOut = false) w hb
    have hw : A w = (rdat3 W fgt c).A w := by
      have h' := hA w
      rw [Pipeline.RDat.ArrAt_in (rdat3 W fgt c) w hin cfg3.N] at h'
      exact h'
    rw [hw]
    show (dat3 (VW W) c).A w = _
    rw [A_eq3]
  · exact Pipeline.withArrays_of_ne spec3 c W A b fun w e => h ⟨w, e⟩

theorem argsOf_region3 (W : Valuation τ sig (Elt F)) (fgt : Fin cfg3.W → Bool) (c : Dev nD) (h : ArgsOf m c W)
    (A : (w : Fin cfg3.W) → Buf (Elt F) ((cfg3.win w).arr.view.loc (c : Thread nD τ)))
    (hA : ∀ w, (rdat3 W fgt c).ArrAt w cfg3.N (A w)) : ArgsOf m c (Pipeline.withArrays spec3 c W A) := fun r hr =>
  (withArrays3_of_ne_out W fgt c A hA r ((by decide : ∀ r ∈ argRefs, r ≠ main_v39) r hr)).trans (h r hr)

/-- Region 4 changes only its output array: every other buffer is as the region found it (an input window's array may
    hold only its entry contents). -/
theorem withArrays4_of_ne_out (W : Valuation τ sig (Elt F)) (fgt : Fin cfg4.W → Bool) (c : Dev nD)
    (A : (w : Fin cfg4.W) → Buf (Elt F) ((cfg4.win w).arr.view.loc (c : Thread nD τ)))
    (hA : ∀ w, (rdat4 W fgt c).ArrAt w cfg4.N (A w)) (b : Ref sig .tc) (hb : b ≠ main_v52) :
    Pipeline.withArrays spec4 c W A (Proc.devRef .tc b) = W (Proc.devRef .tc b) := by
  by_cases h : ∃ w, Pipeline.arrRef spec4 w = b
  · obtain ⟨w, rfl⟩ := h
    rw [Pipeline.withArrays_arr spec4 launch4.win.arr_inj c W A w]
    have hin : (cfg4.win w).isOut = false :=
      (by decide : ∀ w : Fin 6, Pipeline.arrRef spec4 w ≠ main_v52 → (cfg4.win w).isOut = false) w hb
    have hw : A w = (rdat4 W fgt c).A w := by
      have h' := hA w
      rw [Pipeline.RDat.ArrAt_in (rdat4 W fgt c) w hin cfg4.N] at h'
      exact h'
    rw [hw]
    show (dat4 (VW W) c).A w = _
    rw [A_eq4]
  · exact Pipeline.withArrays_of_ne spec4 c W A b fun w e => h ⟨w, e⟩

theorem argsOf_region4 (W : Valuation τ sig (Elt F)) (fgt : Fin cfg4.W → Bool) (c : Dev nD) (h : ArgsOf m c W)
    (A : (w : Fin cfg4.W) → Buf (Elt F) ((cfg4.win w).arr.view.loc (c : Thread nD τ)))
    (hA : ∀ w, (rdat4 W fgt c).ArrAt w cfg4.N (A w)) : ArgsOf m c (Pipeline.withArrays spec4 c W A) := fun r hr =>
  (withArrays4_of_ne_out W fgt c A hA r ((by decide : ∀ r ∈ argRefs, r ≠ main_v52) r hr)).trans (h r hr)

/-- Region 5 changes only its output array: every other buffer is as the region found it (an input window's array may
    hold only its entry contents). -/
theorem withArrays5_of_ne_out (W : Valuation τ sig (Elt F)) (fgt : Fin cfg5.W → Bool) (c : Dev nD)
    (A : (w : Fin cfg5.W) → Buf (Elt F) ((cfg5.win w).arr.view.loc (c : Thread nD τ)))
    (hA : ∀ w, (rdat5 W fgt c).ArrAt w cfg5.N (A w)) (b : Ref sig .tc) (hb : b ≠ main_v60) :
    Pipeline.withArrays spec5 c W A (Proc.devRef .tc b) = W (Proc.devRef .tc b) := by
  by_cases h : ∃ w, Pipeline.arrRef spec5 w = b
  · obtain ⟨w, rfl⟩ := h
    rw [Pipeline.withArrays_arr spec5 launch5.win.arr_inj c W A w]
    have hin : (cfg5.win w).isOut = false :=
      (by decide : ∀ w : Fin 9, Pipeline.arrRef spec5 w ≠ main_v60 → (cfg5.win w).isOut = false) w hb
    have hw : A w = (rdat5 W fgt c).A w := by
      have h' := hA w
      rw [Pipeline.RDat.ArrAt_in (rdat5 W fgt c) w hin cfg5.N] at h'
      exact h'
    rw [hw]
    show (dat5 (VW W) c).A w = _
    rw [A_eq5]
  · exact Pipeline.withArrays_of_ne spec5 c W A b fun w e => h ⟨w, e⟩

theorem argsOf_region5 (W : Valuation τ sig (Elt F)) (fgt : Fin cfg5.W → Bool) (c : Dev nD) (h : ArgsOf m c W)
    (A : (w : Fin cfg5.W) → Buf (Elt F) ((cfg5.win w).arr.view.loc (c : Thread nD τ)))
    (hA : ∀ w, (rdat5 W fgt c).ArrAt w cfg5.N (A w)) : ArgsOf m c (Pipeline.withArrays spec5 c W A) := fun r hr =>
  (withArrays5_of_ne_out W fgt c A hA r ((by decide : ∀ r ∈ argRefs, r ≠ main_v60) r hr)).trans (h r hr)

/-- Region 6 changes only its output array: every other buffer is as the region found it (an input window's array may
    hold only its entry contents). -/
theorem withArrays6_of_ne_out (W : Valuation τ sig (Elt F)) (fgt : Fin cfg6.W → Bool) (c : Dev nD)
    (A : (w : Fin cfg6.W) → Buf (Elt F) ((cfg6.win w).arr.view.loc (c : Thread nD τ)))
    (hA : ∀ w, (rdat6 W fgt c).ArrAt w cfg6.N (A w)) (b : Ref sig .tc) (hb : b ≠ main_v81) :
    Pipeline.withArrays spec6 c W A (Proc.devRef .tc b) = W (Proc.devRef .tc b) := by
  by_cases h : ∃ w, Pipeline.arrRef spec6 w = b
  · obtain ⟨w, rfl⟩ := h
    rw [Pipeline.withArrays_arr spec6 launch6.win.arr_inj c W A w]
    have hin : (cfg6.win w).isOut = false :=
      (by decide : ∀ w : Fin 12, Pipeline.arrRef spec6 w ≠ main_v81 → (cfg6.win w).isOut = false) w hb
    have hw : A w = (rdat6 W fgt c).A w := by
      have h' := hA w
      rw [Pipeline.RDat.ArrAt_in (rdat6 W fgt c) w hin cfg6.N] at h'
      exact h'
    rw [hw]
    show (dat6 (VW W) c).A w = _
    rw [A_eq6]
  · exact Pipeline.withArrays_of_ne spec6 c W A b fun w e => h ⟨w, e⟩

theorem argsOf_region6 (W : Valuation τ sig (Elt F)) (fgt : Fin cfg6.W → Bool) (c : Dev nD) (h : ArgsOf m c W)
    (A : (w : Fin cfg6.W) → Buf (Elt F) ((cfg6.win w).arr.view.loc (c : Thread nD τ)))
    (hA : ∀ w, (rdat6 W fgt c).ArrAt w cfg6.N (A w)) : ArgsOf m c (Pipeline.withArrays spec6 c W A) := fun r hr =>
  (withArrays6_of_ne_out W fgt c A hA r ((by decide : ∀ r ∈ argRefs, r ≠ main_v81) r hr)).trans (h r hr)

end Args

end Cert.Kernel.Gen

end
-- ==== Proof.K.Frames.lean ====
import proofs.«178696_j1468878815658_2_alg».proof.Proof.K.Alg
import proofs.«178696_j1468878815658_2_alg».proof.Proof.K.Top
import proofs.«178696_j1468878815658_2_alg».proof.Proof.K.Chain
import proofs.«178696_j1468878815658_2_alg».proof.Proof.K.Args
import proofs.«178696_j1468878815658_2_alg».proof.Proof.K.Obl0
import proofs.«178696_j1468878815658_2_alg».proof.Proof.K.Obl1
import proofs.«178696_j1468878815658_2_alg».proof.Proof.K.Obl2
import proofs.«178696_j1468878815658_2_alg».proof.Proof.K.Obl3
import proofs.«178696_j1468878815658_2_alg».proof.Proof.K.Obl4
import proofs.«178696_j1468878815658_2_alg».proof.Proof.K.Obl5
import proofs.«178696_j1468878815658_2_alg».proof.Proof.K.Obl6

/-!
  The frame of the program, at any float instance: every weakly fair execution of @main from a memory with zero
  counters terminates, nothing faulting, and every argument array ends holding its launch contents. It is the launch
  theorem applied to the account of @main with every region's output left unnamed and the invariant "the arguments are
  as launched"; at the end the arguments are read off the last thread state against the final memory.
-/

set_option maxRecDepth 16384

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) := by
  refine run_of_account m ρ (Tn := fun c => iprop(TS (ArgsOf m c) c ∗ Pr c))
    (QY := fun c s => ∀ r ∈ argRefs, s.mem ((c : Thread nD τ).loc r) = m ((c : Thread nD τ).loc r))
    (hacc := fun c _ k K => ?_) (hfin := fun c s' => ?_) (hQ := fun s h c => ?_)
  · -- the account of @main, every region's output left unnamed, carrying "the arguments are as launched": it holds at
    -- launch, no host operation writes an argument, and a region writes its output array only
    exact account m fgtOut0 fgtOut1 fgtOut2 fgtOut3 fgtOut4 fgtOut5 fgtOut6 (fun _ c W => ArgsOf m c W)
      (argsOf_launch m)
      (argsOf_host0 m) (fun c W h A hA => argsOf_region0 m W fgtOut0 c h A hA) (fun W c => body_obligation0_fgt (VW W) c)
      (argsOf_host1 m) (fun c W h A hA => argsOf_region1 m W fgtOut1 c h A hA) (fun W c => body_obligation1_fgt (VW W) c)
      (argsOf_host2 m) (fun c W h A hA => argsOf_region2 m W fgtOut2 c h A hA) (fun W c => body_obligation2_fgt (VW W) c)
      (argsOf_host3 m) (fun c W h A hA => argsOf_region3 m W fgtOut3 c h A hA) (fun W c => body_obligation3_fgt (VW W) c)
      (argsOf_host4 m) (fun c W h A hA => argsOf_region4 m W fgtOut4 c h A hA) (fun W c => body_obligation4_fgt (VW W) c)
      (argsOf_host5 m) (fun c W h A hA => argsOf_region5 m W fgtOut5 c h A hA) (fun W c => body_obligation5_fgt (VW W) c)
      (argsOf_host6 m) (fun c W h A hA => argsOf_region6 m W fgtOut6 c h A hA) (fun W c => body_obligation6_fgt (VW W) c)
      c k K
  · -- the end: the last thread state holds every unscoped buffer at some valuation with the arguments as launched;
    -- the final memory agrees with that valuation at every unscoped buffer, and an argument is one
    unfold TS Held StableHlo.held
    iintro ⟨⟨⟨%W, %hW, Hh⟩, -⟩, HSI⟩
    ihave Hr := (pointsTo_read_all (Pipeline.ucRefs τ sig) (fun b => ((c : Thread nD τ).1, b)) W s') $$ [Hh HSI]
    · isplitl [Hh] <;> iassumption
    icases Hr with ⟨%h, HSI⟩
    imodintro
    isplitr
    · ipureintro
      intro r hr
      exact (h (Proc.devRef .tc r) (Finset.mem_filter.mpr ⟨StableHlo.devRef_mem_tcRefs r,
        (by decide : ∀ r ∈ argRefs, ¬ (Proc.devRef (τ := τ) .tc r).isScoped) r hr⟩)).trans (hW r hr)
    · iexact HSI
  · -- each argument is in the list
    exact ⟨h c main_arg0 (by decide), h c main_arg1 (by decide), h c main_arg2 (by decide), h c main_arg3 (by decide),
      h c main_arg4 (by decide), h c main_arg5 (by decide), h c main_arg6 (by decide), h c main_arg7 (by decide),
      h c main_arg8 (by decide), h c main_arg9 (by decide), h c main_arg10 (by decide), h c main_arg11 (by decide),
      h c main_arg12 (by decide), h c main_arg13 (by decide), h c main_arg14 (by decide), h c main_arg15 (by decide),
      h c main_arg16 (by decide), h c main_arg17 (by decide), h c main_arg18 (by decide), h c main_arg19 (by decide),
      h c main_arg20 (by decide), h c main_arg21 (by decide), h c main_arg22 (by decide), h c main_arg23 (by decide),
      h c main_arg24 (by decide), h c main_arg25 (by decide), h c main_arg26 (by decide), h c main_arg27 (by decide),
      h c main_arg28 (by decide)⟩

end Cert.Kernel.Gen

end
-- ==== Proof.KI.Alg.lean ====
import proofs.«178696_j1468878815658_2_alg».proof.Proof.Gen.KernelIdeal.Regions
import Idealize.ShloMosaic.Lib.Pipeline.Kit
import Idealize.ShloMosaic.Lib.Pipeline.Frame
import Idealize.ShloMosaic.Lib.Pipeline.FrameSuffix
import Idealize.ShloMosaic.Lib.Pipeline.Regions

/-!
  The launch's vocabulary. @main is run on every core as ONE account from the launch to the return, in which the
  buffers' contents between two items are known only to exist: a row-tiled window's last block overhangs its array,
  its fetch leaves the staging buffer's tail at words nothing names, and what a body computes from such a block is
  not a function fixed before the run at every float instance. So the thread state between items is "every unscoped
  buffer at SOME valuation satisfying a predicate", and each region's proof data are chosen when the region is
  reached. The pipelines' cells and duty tokens that each region needs are funded at launch in a second copy of the
  rounds algebra and ride along in the thread state.
-/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The user algebra: two copies of the rounds library's. The first is the launch theorem's own; the second funds the
    regions as the account of @main enters them. -/
abbrev UU : Type := UR sig nD τ × UR sig nD τ

local notation "𝕄" => MT nD τ sig Unit (Elt F) ℕ UU ℕ

/-- The launch theorem's copy. -/
abbrev EPk : Emb (UR sig nD τ) (MT nD τ sig Unit (Elt F) ℕ UU ℕ) := embL
/-- The regions' copy. -/
abbrev EPg : Emb (UR sig nD τ) (MT nD τ sig Unit (Elt F) ℕ UU ℕ) := embR

/-- No core owes another anything: no level is assigned. -/
abbrev Lr : GSem nD τ sig → Finset Unit := fun _ => ∅
abbrev lvr : GSem nD τ sig → Unit → ℕ := fun _ _ => 0

/-- What rides beside the buffers: the generator register at some state. -/
abbrev Pr (c : Dev nD) : sProp 𝕄 := iprop(∃ r, prngReg c r)
/-- The core owes nothing. -/
abbrev Ow (c : Dev nD) : sProp 𝕄 := iprop(∃ W, owes (c : Thread nD τ) (0 : CellTallies nD τ sig Unit) W)

/-- Pipeline `p`'s cells' ghost state and duty tokens on core `c`, in the regions' copy: what entering region `p` takes. -/
abbrev Gp (p : Fin 7) (c : Dev nD) : sProp 𝕄 :=
  iprop(Pipeline.cellsGhost (Pipeline.pin (pcfgs (F := F)) adm) EPg p c ∗ Pipeline.toksInit (Pipeline.pin (pcfgs (F := F)) adm) EPg p c)

/-- Every unscoped buffer of core `c` held whole at the valuation `W`. -/
abbrev Held (c : Dev nD) (W : Valuation τ sig (Elt F)) : sProp 𝕄 :=
  StableHlo.held (c : Thread nD τ) (Pipeline.ucRefs τ sig) W

/-- A valuation `W` of one core's buffers as a region's proof data take the entry contents. -/
abbrev VW (W : Valuation τ sig (Elt F)) : (c : Dev nD) → (b : Ref sig .tc) → Buf (Elt F) ((c : Thread nD τ).loc b) := fun _ b => W b

/-- The thread state between two items: the unscoped buffers at SOME valuation satisfying `I`. -/
def TS (I : Valuation τ sig (Elt F) → Prop) (c : Dev nD) : sProp 𝕄 :=
  iprop(∃ W : Valuation τ sig (Elt F), ⌜I W⌝ ∗ Held c W)

/-- @main's arguments. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-- The valuation `W` of core `c`'s buffers has every argument at its launch contents. -/
def ArgsOf (m : (ℓ : Loc nD τ sig) → Buf (Elt F) ℓ) (c : Dev nD) (W : Valuation τ sig (Elt F)) : Prop :=
  ∀ r ∈ argRefs, W (Proc.devRef .tc r) = m ((c : Thread nD τ).loc r)

end Cert.KernelIdeal.Gen

end
-- ==== Proof.KI.Top.lean ====
import proofs.«178696_j1468878815658_2_alg».proof.Proof.KI.Alg
import Idealize.ShloMosaic.Lib.Pipeline.Kit
import Idealize.ShloMosaic.Lib.Pipeline.Sound
import Idealize.ShloMosaic.Lib.Pipeline.Frame
import Idealize.ShloMosaic.Lib.Pipeline.Regions

/-!
  The launch. A per-core account of the whole of @main — from the launch's thread state to a last one, in
  continuation-passing form — gives the run of @main on every core: the pipeline library's launch theorem is applied
  with @main as ONE host stretch, the library keeping the first copy of the rounds algebra and the second funding every
  pipeline's ghost state and duty tokens at launch.
-/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Top

variable (m : (ℓ : Loc nD τ sig) → Buf (Elt F) ℓ) (ρ : Dev nD → PrngReg)

/-- The launch theorem asks for proof data of every pipeline. @main is run as ONE host stretch, so no region is entered
    through the theorem and the data are never read: they name nothing. -/
def rdats0 (p : Fin 7) (c : Dev nD) : Pipeline.RDat τ (Elt F) Unit ℕ UU ℕ (Pipeline.pin (pcfgs (F := F)) adm p) c where
  A := fun _ => Classical.arbitrary _
  after := fun _ _ _ _ => True
  Φ := fun _ => BI.emp
  q := fun _ => fullShare
  owed := fun _ => 0

set_option backward.isDefEq.respectTransparency.types false in
/-- THE LAUNCH, from a per-core account of @main. If on every core @main runs — in continuation-passing form — from
    the boundary, every unscoped buffer held at its launch contents, the generator register, the core owing nothing,
    every pipeline's ghost state (in the regions' copy of the rounds algebra) and the level facts, to the boundary and
    a last thread state `Tn c` beside the core owing nothing, and `Tn c` read against a final state gives `QY c`,
    then every weakly fair execution of @main from memory `m` with zero counters terminates, nothing faulting, in a
    state satisfying `Q`. -/
theorem run_of_account
    (Tn : Dev nD → sProp 𝕄) (QY : Dev nD → MemSt nD τ sig (Elt F) → Prop)
    (hacc : ∀ (c : Dev nD) {β : Type}
        (k : PUnit → Prog (TpuEff nD τ sig (Elt F) (Pipeline.Sig Λ₀ (Fin 7) fun p => (pcfgs (F := F) p).Adm) .tc) β) (K : β → sProp 𝕄),
      iprop((iprop(boundary (c : Thread nD τ) ∗ Tn c ∗ Ow c)
              -∗ wp frame (wpE (defs (F := F)) (Variants.lift Variants.none) (c : Thread nD τ) none) Set.univ (k ⟨⟩) K)
          ∗ boundary (c : Thread nD τ)
          ∗ (Held c (fun b => m (c, b)) ∗ Pr c ∗ Ow c ∗ bigSep Finset.univ (fun p : Fin 7 => Gp (F := F) p c))
          ∗ levAts Lr lvr)
        ⊢ wp frame (wpE (defs (F := F)) (Variants.lift Variants.none) (c : Thread nD τ) none) Set.univ (main (F := F) c >>= k) K)
    (hfin : ∀ c (s' : Phys nD τ sig (Elt F)), iprop(Tn c ∗ SI s') ⊢ |={Set.univ}=> iprop(⌜QY c s'.mem⌝ ∗ SI s'))
    {Q : PUnit × MemSt nD τ sig (Elt F) → Prop} (hQ : ∀ s : MemSt nD τ sig (Elt F), (∀ c : Dev nD, QY c s) → Q (⟨⟩, s)) :
    θ_run (defs (F := F)) (onTc (τ := τ) (main (F := F))) ⟨m, fun _ => 0, ρ⟩ Q := by
  -- the launch element of the rounds algebra, once per copy
  let u : UR sig nD τ := initOf (Pipeline.cells cfgs cellOf_inj) (Pipeline.launchToks cfgs cellOf_inj)
  -- @main whole as one host stretch, on core `c`: its program does not depend on the core
  let H : Dev nD → Pipeline.HostSeg (Ix := Unit) (Name := ℕ) (U := UU) (Lvl := ℕ) (pcfgs (F := F)) defs₀ Variants.none Lr lvr := fun c =>
    { prog := main c
      pre := fun c' => iprop(Held c' (fun b => m (c', b)) ∗ Pr c' ∗ Ow c' ∗ bigSep Finset.univ (fun p : Fin 7 => Gp (F := F) p c'))
      post := fun c' => iprop(Tn c' ∗ Ow c')
      run := fun c' β k K => by
        have h := hacc c' k K
        rw [show main (F := F) c' = main c from (main_chain c').trans (main_chain c).symm] at h
        exact h }
  refine Pipeline.RDat.θ_run_regions_kit_dev (pcfgs (F := F)) adm (rdats0 (F := F)) () cellOf_inj EPk defs₀ Variants.none Lr lvr m ρ main
    (fun c => [.host (H c)])
    (hmain := fun c Q => ?hmain) (hnd := fun c => List.nodup_nil) (O₀ := 0) (hL := fun _ _ => rfl)
    (G := fun c => bigSep Finset.univ (fun p : Fin 7 => Gp (F := F) p c)) (u₀ := (u, u)) (hu₀ := ?hu)
    (T₀ := fun c => iprop(Held c (fun b => m (c, b)) ∗ Pr c ∗ Ow c ∗ bigSep Finset.univ (fun p : Fin 7 => Gp (F := F) p c)))
    (Tₙ := Tn) (hch := fun c => ⟨.rfl, .rfl⟩) (hinit := ?hinit) (QY := QY) (hfin := hfin) (hQ := hQ)
  case hmain =>
    -- the one stretch's run is @main followed by the return
    have e : Pipeline.RDat.Seg.run ([.host (H c)] : List (Pipeline.RDat.Seg (pcfgs (F := F)) adm (rdats0 (F := F)) () defs₀ Variants.none Lr lvr))
        = main (F := F) c := Prog.bind_pure (main c)
    rw [e]
  case hu =>
    -- the pair splits into its halves; the left is the launch theorem's, the right funds every pipeline's ghost
    -- state and duty tokens, regrouped core by core and pipeline by pipeline
    have hghost : iprop((bigSep Finset.univ fun c : Dev nD => bigSep Finset.univ fun p : Fin 7 => Pipeline.cellsGhost (Pipeline.pin (pcfgs (F := F)) adm) EPg p c)
          ∗ (bigSep Finset.univ fun c : Dev nD => bigSep Finset.univ fun p : Fin 7 => (Pipeline.toksInit (Pipeline.pin (pcfgs (F := F)) adm) EPg p c : sProp 𝕄)))
        ⊢ bigSep Finset.univ fun c : Dev nD => bigSep Finset.univ fun p : Fin 7 => Gp (F := F) p c := by
      rw [← bigSep_sep']
      refine bigSep_mono fun c _ => ?_
      rw [← bigSep_sep']
      exact BI.Entails.refl _
    iintro Hu
    ihave Hs := (ownU_pair _ _) $$ Hu
    icases Hs with ⟨HP, HG⟩
    imod (Pipeline.fund_ghost (Pipeline.pin (pcfgs (F := F)) adm) EPg cellOf_inj) $$ HG with ⟨Hg, Ht⟩
    imodintro
    isplitl [HP]; · iexact HP
    iapply hghost
    isplitl [Hg] <;> iassumption
  case hinit =>
    -- each core by itself: its unscoped buffers are held at the launch contents, the register is at its launch
    -- state, the core owes nothing, and its share of the ghost state rides along
    refine Pipeline.initEach Lr lvr fun c => ?_
    rw [show unscopedBufs c (fun b => m ((c : Thread nD τ).loc b)) = Held c (fun b => m (c, b))
      from Pipeline.unscopedBufs_held c (fun b => m (c, b))]
    iintro ⟨⟨Hh, -, HO, -, Hp, HG⟩, -⟩
    imodintro
    isplitl [Hh]; · iexact Hh
    isplitl [Hp]; · iexists _; iexact Hp
    isplitl [HO]; · iexists ∅; iexact HO
    iexact HG

end Top

end Cert.KernelIdeal.Gen

end
-- ==== Proof.KI.Outs.lean ====
import proofs.«178696_j1468878815658_2_alg».proof.Proof.Gen.KernelIdeal.Skeleton

/-!
  What each region's body stores into its output block, as one function of the blocks it loads: the skeleton's
  payloads composed. Every body is whole loads followed by one whole store, so this is all of a body's value.
-/

noncomputable section

namespace Cert.KernelIdeal.Gen

open Idealize.ShloMosaic

variable {F : FTy → Type} [FloatOps F]

/-- Region 0, the node encoder: block of `x`, weights, bias, scale, shift. -/
def out0 (x : Vec F S8192x7 .f32) (w : Vec F S7x64 .f32) (b g β : Vec F S1x64 .f32) : FVec F S8192x64 .bf16 :=
  k0_pay1 x w b g β
/-- Region 1, the edge encoder. -/
def out1 (x : Vec F S8192x5 .f32) (w : Vec F S5x64 .f32) (b g β : Vec F S1x64 .f32) : FVec F S8192x64 .bf16 :=
  k1_pay1 x w b g β
/-- Region 2, the first message layer: gathered source rows, encoded edges, the two halves of the weights, bias. -/
def out2 (xs e : Vec F S8192x64 .bf16) (ws we : Vec F S64x64 .f32) (b : Vec F S1x64 .f32) : FVec F S8192x64 .bf16 :=
  k2_pay1 xs e ws we b
/-- Region 3, the first node update: node rows, summed messages, clamped counts, the two halves of the weights, bias,
    scale, shift. -/
def out3 (h : Vec F S4096x64 .bf16) (ms : Vec F S4096x64 .f32) (cnt : Vec F S4096x1 .f32) (wh wm : Vec F S64x64 .f32)
    (b g β : Vec F S1x64 .f32) : FVec F S4096x64 .bf16 :=
  k3_pay1 (k3_pay2 h) (k3_pay3 ms cnt h wh wm b) (k3_pay4 g) (k3_pay5 β) (k3_pay6 ms cnt h wh wm b) (k3_pay7 ms cnt h wh wm b)
/-- Region 4, the second message layer. -/
def out4 (xs e : Vec F S8192x64 .bf16) (ws we : Vec F S64x64 .f32) (b : Vec F S1x64 .f32) : FVec F S8192x64 .bf16 :=
  k4_pay1 xs e ws we b
/-- Region 5, the second node update. -/
def out5 (h : Vec F S4096x64 .bf16) (ms : Vec F S4096x64 .f32) (cnt : Vec F S4096x1 .f32) (wh wm : Vec F S64x64 .f32)
    (b g β : Vec F S1x64 .f32) : FVec F S4096x64 .bf16 :=
  k5_pay1 (k5_pay2 h) (k5_pay3 ms cnt h wh wm b) (k5_pay4 g) (k5_pay5 β) (k5_pay6 ms cnt h wh wm b) (k5_pay7 ms cnt h wh wm b)
/-- Region 6, the edge predictor: source and target rows, edge attributes, the three slices of the first weights and
    its bias, the second layer, the third. -/
def out6 (hs ht : Vec F S4096x64 .bf16) (ea : Vec F S4096x5 .f32) (w1s w1t : Vec F S64x64 .f32) (w1e : Vec F S5x64 .f32)
    (b1 : Vec F S1x64 .f32) (w2 : Vec F S64x32 .f32) (b2 : Vec F S1x32 .f32) (w3 : Vec F S32x1 .f32) (b3 : Vec F S1x1 .f32) :
    FVec F S4096x1 .f32 :=
  k6_pay1 (k6_pay2 hs ht ea w1s w1t w1e b1 w2 b2) (k6_pay3 (F := F)) w3 b3

end Cert.KernelIdeal.Gen

end
-- ==== Proof.KI.Dat0.lean ====
import proofs.«178696_j1468878815658_2_alg».proof.Proof.KI.Outs
import proofs.«178696_j1468878815658_2_alg».proof.Proof.Gen.KernelIdeal.Launch
import proofs.«178696_j1468878815658_2_alg».proof.Proof.Gen.KernelIdeal.Points
import Idealize.ShloMosaic.Lib.Pipeline.Kit
import Idealize.ShloMosaic.Lib.Pipeline.FrameBody
import Idealize.ShloMosaic.Lib.Pipeline.Frame

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 0: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same filled out to the whole staging buffer with a word of no account. -/
def fblk0 (c : Dev nD) (w : Fin cfg0.W) (t : Fin cfg0.N) : (cfg0.win w).block.Idx → Elt F (cfg0.win w).elt :=
  (cfg0.win w).fill (cfg0.grid.coords t) (fun _ => Classical.arbitrary _) (iblk0 V c w t)

/-- The proof data of region 0 on core `c`: the arrays as the region finds them; after the body each input's buffer
    at its block and the output's at the body's function of the input buffers; the scoped rest and the generator
    register as the invariant; nothing owed; full shares. -/
def dat0 (c : Dev nD) : Dat τ (Elt F) Unit ℕ (UR sig nD τ × UR sig nD τ) ℕ cfg0 c where
  A w := V c (Pipeline.arrRef spec0 w)
  after w t := match w with
    | ⟨0, _⟩ => fblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (fblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = fblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0 (fblk0 V c 0 t) (iblk0 V c 1 t) (iblk0 V c 2 t) (iblk0 V c 3 t) (iblk0 V c 4 t) := by dsimp only [dat0]

end Cert.KernelIdeal.Gen

end
-- ==== Proof.KI.Body0.lean ====
import proofs.«178696_j1468878815658_2_alg».proof.Proof.KI.Outs
import proofs.«178696_j1468878815658_2_alg».proof.Proof.Gen.KernelIdeal.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 0 on whole staging memrefs: from its input buffers at any contents and its output buffer at
    anything, it runs to the end without a fault, leaves the inputs as they were and the output at the region's
    function of the inputs. -/
theorem sound_kernel0 (c : Dev nD) (E : Set ℕ) (i : grid0.Coords)
    (arg1 : Memref sig .tc .vmem S8192x7 .f32) (harg1 : arg1.IsWhole) (arg2 : Memref sig .tc .vmem S7x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .bf16) (harg6 : arg6.IsWhole)
    (x : Vec F S8192x7 .f32) (w : Vec F S7x64 .f32) (b : Vec F S1x64 .f32) (g : Vec F S1x64 .f32) (β : Vec F S1x64 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare g ∗ owns (c : Thread nD τ) arg5 fullShare β ∗ (∃ d, owns (c : Thread nD τ) arg6 fullShare d)
        ∗ (iprop(owns (c : Thread nD τ) arg1 fullShare x ∗ owns (c : Thread nD τ) arg2 fullShare w ∗ owns (c : Thread nD τ) arg3 fullShare b ∗ owns (c : Thread nD τ) arg4 fullShare g ∗ owns (c : Thread nD τ) arg5 fullShare β ∗ owns (c : Thread nD τ) arg6 fullShare (out0 x w b g β)) -∗ K ⟨⟩))
      ⊢ wp frame (wpE (defs₀ (F := F)) Variants.none c none) E (cc0__encode_kernel i arg1 harg1 arg2 harg2 arg3 harg3 arg4 harg4 arg5 harg5 arg6 harg6) K := by
  -- every access is at offsets zero with the buffer's own sizes
  have hz : (![0, 0] : Fin 2 → Nat) = fun _ => 0 := funext fun a => by fin_cases a <;> rfl
  simp only [cc0__encode_kernel_eq_skeleton]; unfold cc0__encode_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output's buffer after its one store: the store's rectangle is the whole buffer, so the buffer reads the
  -- payload, and each whole load read its buffer's contents
  iexists _; isplitr
  swap; · iexact H6
  ipureintro
  rw [View.read_writes_eq_canon _ _ _ (fun y => ⟨_, List.mem_singleton_self _, View.mem_set_unit_zero hz inb_S8192x64_S8192x64_0_0 y⟩),
    View.canon_unit_zero hz]
  unfold out0
  rw [View.readAt_eq_ld, View.readAt_eq_ld, View.readAt_eq_ld, View.readAt_eq_ld, View.readAt_eq_ld,
    View.ld_unit_zero hz, View.ld_unit_zero hz, View.ld_unit_zero hz, View.ld_unit_zero hz, View.ld_unit_zero hz]

end Cert.KernelIdeal.Gen

end
-- ==== Proof.KI.Obl0.lean ====
import proofs.«178696_j1468878815658_2_alg».proof.Proof.KI.Dat0
import proofs.«178696_j1468878815658_2_alg».proof.Proof.KI.Body0

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut0 : Fin cfg0.W → Bool := fun | ⟨0, _⟩ => false | ⟨1, _⟩ => false | ⟨2, _⟩ => false | ⟨3, _⟩ => false | ⟨4, _⟩ => false | ⟨5, _⟩ => true | ⟨_ + 6, h⟩ => absurd h (Nat.not_lt.2 (Nat.le_add_left _ _))

theorem before0_0 (c : Dev nD) (t : Fin cfg0.N) (d) :
    (dat0 V c).before 0 t d = (cfg0.win 0).fill (cfg0.grid.coords t) d (iblk0 V c 0 t) := by
  rw [(dat0 V c).before_fetched 0 t (fetch0_0 t) d]; unfold Dat.fetched Dat.blockOf iblk0; rw [A_eq0]
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- The body obligation of region 0 at any point, the output window forgotten: the inputs' buffers hold their blocks
    (a row-tiled one filled out past the array's end with whatever the fetch left), so the body's triple applies; it
    leaves them as they were — on the rows inside the array, their blocks — and the output at contents not named. -/
theorem body_obligation0_fgt (c : Dev nD) :
    BodyObligationLoose (dat0 V c) (defs₀ (F := F)) Variants.none () Set.univ fgtOut0 := fun t => by
  rw [bigSep_W0, bigSep_W0]
  simp only [fgtOut0]
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%X, HX⟩⟩
  rw [before0_0 V c t d0, before0_1 V c t d1, before0_2 V c t d2, before0_3 V c t d3, before0_4 V c t d4]
  iapply (sound_kernel0 (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) ((cfg0.win 0).fill (cfg0.grid.coords t) d0 (iblk0 V c 0 t)) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [HX]; · iexists X; iexact HX
  iintro ⟨H0, H1, H2, H3, H4, HX⟩
  isplitl [HΦ]; · iexact HΦ
  isplitl [Ho]; · iexact Ho
  isplitl [H0]
  · iexists d0
    rw [after0_0]; unfold fblk0; rw [(cfg0.win 0).cut_fill]; iexact H0
  isplitl [H1]
  · rw [after0_1]; iexact H1
  isplitl [H2]
  · rw [after0_2]; iexact H2
  isplitl [H3]
  · rw [after0_3]; iexact H3
  isplitl [H4]
  · rw [after0_4]; iexact H4
  iexists _; iexact HX

end Cert.KernelIdeal.Gen

end
-- ==== Proof.KI.Reg0.lean ====
import proofs.«178696_j1468878815658_2_alg».proof.Proof.KI.Alg
import proofs.«178696_j1468878815658_2_alg».proof.Proof.KI.Obl0
import proofs.«178696_j1468878815658_2_alg».proof.Proof.Gen.KernelIdeal.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 0's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 0 is entered
variable (fgt : Fin cfg0.W → Bool)                        -- the windows whose contents after the body are left unnamed

/-- Region 0's relational proof data at the entry contents `W`. -/
def rdat0 (c : Dev nD) : Pipeline.RDat τ (Elt F) Unit ℕ UU ℕ cfg0 c := (dat0 (VW W) c).toRForget fgt

/-- The family of relational proof data with region 0's at its index. -/
abbrev rfam0 : (q : Fin 7) → (c : Dev nD) → Pipeline.RDat τ (Elt F) Unit ℕ UU ℕ (Pipeline.pin (pcfgs (F := F)) adm q) c :=
  Pipeline.RDat.familyOf (pcfgs (F := F)) adm (0 : Fin 7) (rdat0 W fgt)

/-- At its own index the family is region 0's data. -/
theorem rfam0_self (c : Dev nD) : rfam0 W fgt (0 : Fin 7) c = rdat0 W fgt c :=
  Pipeline.RDat.familyOf_self (pcfgs (F := F)) adm (0 : Fin 7) (rdat0 W fgt) c

/-- The data hold every array at the full share. -/
theorem rdat0_share (c : Dev nD) (w : Fin cfg0.W) : (rdat0 W fgt c).share w = fullShare :=
  (rdat0 W fgt c).share_full (fun _ => rfl) w

/-- The arrays after every write-back, opened: each whole at the full share at SOME contents it may then hold. -/
theorem arraysAt_open0 (c : Dev nD) :
    ((rdat0 W fgt c).arraysAt cfg0.N : sProp 𝕄)
      ⊢ iprop(∃ A : (w : Fin cfg0.W) → Buf (Elt F) ((cfg0.win w).arr.view.loc (c : Thread nD τ)),
          ⌜∀ w, (rdat0 W fgt c).ArrAt w cfg0.N (A w)⌝ ∗ Pipeline.arrPts spec0 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat0 W fgt c).ArrAt w cfg0.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg0.win w).arr.view.loc (c : Thread nD τ)
        ↦[(cfg0.win w).arr.view.set]{(rdat0 W fgt c).share w} A w : sProp 𝕄)) = Pipeline.arrPts spec0 c A := by
    unfold Pipeline.arrPts
    exact bigSep_congr fun w _ => by
      have hw : (cfg0.win w).arr.IsWhole := launch0.arr_whole w
      rw [hw.set_eq_univ, rdat0_share W fgt c w]
  rw [← hpts]
  iexact H

/-- The arrays at contents `A` beside every other unscoped buffer at `W` are the unscoped buffers held at `W` updated at
    the arrays by `A`. -/
theorem held_withArrays0 (c : Dev nD) (A : (w : Fin cfg0.W) → Buf (Elt F) ((cfg0.win w).arr.view.loc (c : Thread nD τ))) :
    iprop(Pipeline.arrPts spec0 c A ∗ Pipeline.unscopedRest (Ix := Unit) (Name := ℕ) (U := UU) (Lvl := ℕ) spec0 c (fun b => W b))
      ⊢ (Held c (Pipeline.withArrays spec0 c W A) : sProp 𝕄) := by
  unfold Held
  rw [← Pipeline.unscopedBufs_held, Pipeline.unscopedBufs_split cfgs (0 : Fin 7) launch0.win.arr_unscoped launch0.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec0 w)) ↦{fullShare} f : sProp 𝕄))
      (Pipeline.withArrays_arr spec0 launch0.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec0 c W A b fun w e =>
        (Finset.mem_sdiff.mp hb).2 (Finset.mem_image.mpr ⟨w, Finset.mem_univ _, e⟩)).symm

set_option backward.isDefEq.respectTransparency.types false in
/-- Region 0 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg0 (hbody : ∀ c, BodyObligationLoose (dat0 (VW W) c) (defs₀ (F := F)) Variants.none () Set.univ fgt) :
    Pipeline.RDat.RegionSeg (pcfgs (F := F)) adm (rfam0 W fgt) () defs₀ Variants.none Lr lvr (0 : Fin 7) where
  win := launch0.win.to₀
  block_pos := launch0.block_pos
  stage_whole := launch0.stage_whole
  K := PEmpty
  osem k := k.elim
  ho := Pipeline.OwnSemFacts.none _
  hbody c := by
    rw [rfam0_self]
    exact (hbody c).toRForget
  hwaits := Pipeline.RDat.hwaits_of_owed_zero _ _ _ _ Lr lvr (0 : Fin 7) fun c t => by
    rw [rfam0_self]; rfl
  pre c := iprop(Held c W ∗ Pr c ∗ Ow c)
  post c := iprop(∃ A : (w : Fin cfg0.W) → Buf (Elt F) ((cfg0.win w).arr.view.loc (c : Thread nD τ)),
    ⌜∀ w, (rdat0 W fgt c).ArrAt w cfg0.N (A w)⌝ ∗ Held c (Pipeline.withArrays spec0 c W A) ∗ Pr c ∗ Ow c)
  X c := Pr c
  Y c := Pr c
  Z c := Pipeline.unscopedRest (Ix := Unit) (Name := ℕ) (U := UU) (Lvl := ℕ) spec0 c (fun b => W b)
  hentry c := by
    -- the arrays at their entry contents, split out of the held buffers
    have hsplit : (Held c W : sProp 𝕄)
        ⊢ iprop((rfam0 W fgt (0 : Fin 7) c).arrays (rfam0 W fgt (0 : Fin 7) c).A
            ∗ Pipeline.unscopedRest (Ix := Unit) (Name := ℕ) (U := UU) (Lvl := ℕ) spec0 c (fun b => W b)) := by
      unfold Held
      rw [← Pipeline.unscopedBufs_held]
      exact Pipeline.RDat.arrays_of_unscopedBufs (p := (0 : Fin 7)) (pcfgs (F := F)) adm (rfam0 W fgt) launch0.win launch0.arr_whole c
        (fun w => by rw [rfam0_self]; exact rdat0_share W fgt c w) (fun b => W b) (fun w => by rw [rfam0_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam0_self]
      icases Howes with ⟨%S, Howes⟩
      iexists S
      isplitr
      · ipureintro; exact fun x _ => Or.inl (Set.mem_univ x)
      iexact Howes
    isplitl [Hprng]; · iexact Hprng
    iexact Hrest
  hin c := by
    rw [rfam0_self]
    show _ ⊢ (Pipeline.ΦA spec0 c : sProp 𝕄)
    unfold Pipeline.ΦA
    iintro ⟨Hprng, -, Hscoped⟩
    isplitl [Hscoped]; · iexact Hscoped
    iexact Hprng
  hout c := by
    rw [rfam0_self, Pipeline.ownSems0_none]
    show (Pipeline.ΦA spec0 c : sProp 𝕄) ⊢ _
    unfold Pipeline.ΦA
    iintro ⟨Hscoped, Hprng⟩
    isplitl [Hprng]; · iexact Hprng
    isplitr; · iempintro
    iexact Hscoped
  hexit c := by
    rw [rfam0_self]
    iintro ⟨Harr, Howes, Hprng, Hrest⟩
    imodintro
    ihave Hopen := (arraysAt_open0 W fgt c) $$ Harr
    icases Hopen with ⟨%A, %hA, Hpts⟩
    iexists A
    isplitr; · ipureintro; exact hA
    isplitl [Hpts Hrest]
    · iapply (held_withArrays0 W c A)
      isplitl [Hpts]; · iexact Hpts
      iexact Hrest
    isplitl [Hprng]; · iexact Hprng
    icases Howes with ⟨%S, -, Howes⟩
    iexists S; iexact Howes

/-- REGION 0's STEP, continuation-passing: from the boundary, every unscoped buffer held at `W`, the generator register,
    the core owing nothing, the level facts and pipeline 0's ghost state, the region's call runs; the continuation is
    entered at the boundary with the buffers held at `W` UPDATED at the region's arrays by SOME contents `A` the arrays
    may hold after every write-back (the inputs' as entered; an unnamed output's anything). -/
theorem region0_wp
    (hbody : ∀ c, BodyObligationLoose (dat0 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg0.W) → Buf (Elt F) ((cfg0.win w).arr.view.loc (c : Thread nD τ)),
            iprop(⌜∀ w, (rdat0 W fgt c).ArrAt w cfg0.N (A w)⌝ ∗ boundary (c : Thread nD τ)
                ∗ Held c (Pipeline.withArrays spec0 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 0 c)
      ⊢ wp frame (wpE (defs (F := F)) (Variants.lift Variants.none) (c : Thread nD τ) none) Set.univ
          (.op (.customCall (Pipeline.entry 0) ()) k) Q := by
  iintro ⟨Hk, Hbd, Hheld, Hprng, Howes, Hlev, Hghost, Htoks⟩
  -- the region's rule between its two thread states, on this core
  have hwp := (regSeg0 W fgt hbody).wp (pcfgs (F := F)) adm (rfam0 W fgt) () cellOf_inj EPg defs₀ Variants.none Lr lvr c none
    (fun u h => nomatch h) k Q
  dsimp only [regSeg0] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.KernelIdeal.Gen

end
-- ==== Proof.KI.Dat1.lean ====
import proofs.«178696_j1468878815658_2_alg».proof.Proof.KI.Outs
import proofs.«178696_j1468878815658_2_alg».proof.Proof.Gen.KernelIdeal.Launch
import proofs.«178696_j1468878815658_2_alg».proof.Proof.Gen.KernelIdeal.Points
import Idealize.ShloMosaic.Lib.Pipeline.Kit
import Idealize.ShloMosaic.Lib.Pipeline.FrameBody
import Idealize.ShloMosaic.Lib.Pipeline.Frame

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 1: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The same filled out to the whole staging buffer with a word of no account. -/
def fblk1 (c : Dev nD) (w : Fin cfg1.W) (t : Fin cfg1.N) : (cfg1.win w).block.Idx → Elt F (cfg1.win w).elt :=
  (cfg1.win w).fill (cfg1.grid.coords t) (fun _ => Classical.arbitrary _) (iblk1 V c w t)

/-- The proof data of region 1 on core `c`: the arrays as the region finds them; after the body each input's buffer
    at its block and the output's at the body's function of the input buffers; the scoped rest and the generator
    register as the invariant; nothing owed; full shares. -/
def dat1 (c : Dev nD) : Dat τ (Elt F) Unit ℕ (UR sig nD τ × UR sig nD τ) ℕ cfg1 c where
  A w := V c (Pipeline.arrRef spec1 w)
  after w t := match w with
    | ⟨0, _⟩ => fblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 (fblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = fblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1 (fblk1 V c 0 t) (iblk1 V c 1 t) (iblk1 V c 2 t) (iblk1 V c 3 t) (iblk1 V c 4 t) := by dsimp only [dat1]

end Cert.KernelIdeal.Gen

end
-- ==== Proof.KI.Body1.lean ====
import proofs.«178696_j1468878815658_2_alg».proof.Proof.KI.Outs
import proofs.«178696_j1468878815658_2_alg».proof.Proof.Gen.KernelIdeal.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 1 on whole staging memrefs: from its input buffers at any contents and its output buffer at
    anything, it runs to the end without a fault, leaves the inputs as they were and the output at the region's
    function of the inputs. -/
theorem sound_kernel1 (c : Dev nD) (E : Set ℕ) (i : grid1.Coords)
    (arg1 : Memref sig .tc .vmem S8192x5 .f32) (harg1 : arg1.IsWhole) (arg2 : Memref sig .tc .vmem S5x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S8192x64 .bf16) (harg6 : arg6.IsWhole)
    (x : Vec F S8192x5 .f32) (w : Vec F S5x64 .f32) (b : Vec F S1x64 .f32) (g : Vec F S1x64 .f32) (β : Vec F S1x64 .f32) (K : PUnit → sProp 𝕄) :
    iprop(owns (c : Thread nD τ) arg1 fullShare x ∗ owns (c : Thread nD τ) arg2 fullShare w ∗ owns (c : Thread nD τ) arg3 fullShare b ∗ owns (c : Thread nD τ) arg4 fullShare g ∗ owns (c : Thread nD τ) arg5 fullShare β ∗ (∃ d, owns (c : Thread nD τ) arg6 fullShare d)
        ∗ (iprop(owns (c : Thread nD τ) arg1 fullShare x ∗ owns (c : Thread nD τ) arg2 fullShare w ∗ owns (c : Thread nD τ) arg3 fullShare b ∗ owns (c : Thread nD τ) arg4 fullShare g ∗ owns (c : Thread nD τ) arg5 fullShare β ∗ owns (c : Thread nD τ) arg6 fullShare (out1 x w b g β)) -∗ K ⟨⟩))
      ⊢ wp frame (wpE (defs₀ (F := F)) Variants.none c none) E (cc1__encode_kernel i arg1 harg1 arg2 harg2 arg3 harg3 arg4 harg4 arg5 harg5 arg6 harg6) K := by
  -- every access is at offsets zero with the buffer's own sizes
  have hz : (![0, 0] : Fin 2 → Nat) = fun _ => 0 := funext fun a => by fin_cases a <;> rfl
  simp only [cc1__encode_kernel_eq_skeleton]; unfold cc1__encode_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output's buffer after its one store: the store's rectangle is the whole buffer, so the buffer reads the
  -- payload, and each whole load read its buffer's contents
  iexists _; isplitr
  swap; · iexact H6
  ipureintro
  rw [View.read_writes_eq_canon _ _ _ (fun y => ⟨_, List.mem_singleton_self _, View.mem_set_unit_zero hz inb_S8192x64_S8192x64_0_0 y⟩),
    View.canon_unit_zero hz]
  unfold out1
  rw [View.readAt_eq_ld, View.readAt_eq_ld, View.readAt_eq_ld, View.readAt_eq_ld, View.readAt_eq_ld,
    View.ld_unit_zero hz, View.ld_unit_zero hz, View.ld_unit_zero hz, View.ld_unit_zero hz, View.ld_unit_zero hz]

end Cert.KernelIdeal.Gen

end
-- ==== Proof.KI.Obl1.lean ====
import proofs.«178696_j1468878815658_2_alg».proof.Proof.KI.Dat1
import proofs.«178696_j1468878815658_2_alg».proof.Proof.KI.Body1

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut1 : Fin cfg1.W → Bool := fun | ⟨0, _⟩ => false | ⟨1, _⟩ => false | ⟨2, _⟩ => false | ⟨3, _⟩ => false | ⟨4, _⟩ => false | ⟨5, _⟩ => true | ⟨_ + 6, h⟩ => absurd h (Nat.not_lt.2 (Nat.le_add_left _ _))

theorem before1_0 (c : Dev nD) (t : Fin cfg1.N) (d) :
    (dat1 V c).before 0 t d = (cfg1.win 0).fill (cfg1.grid.coords t) d (iblk1 V c 0 t) := by
  rw [(dat1 V c).before_fetched 0 t (fetch1_0 t) d]; unfold Dat.fetched Dat.blockOf iblk1; rw [A_eq1]
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The body obligation of region 1 at any point, the output window forgotten: the inputs' buffers hold their blocks
    (a row-tiled one filled out past the array's end with whatever the fetch left), so the body's triple applies; it
    leaves them as they were — on the rows inside the array, their blocks — and the output at contents not named. -/
theorem body_obligation1_fgt (c : Dev nD) :
    BodyObligationLoose (dat1 V c) (defs₀ (F := F)) Variants.none () Set.univ fgtOut1 := fun t => by
  rw [bigSep_W1, bigSep_W1]
  simp only [fgtOut1]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%X, HX⟩⟩
  rw [before1_0 V c t d0, before1_1 V c t d1, before1_2 V c t d2, before1_3 V c t d3, before1_4 V c t d4]
  iapply (sound_kernel1 (F := F) c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) ((cfg1.win 0).fill (cfg1.grid.coords t) d0 (iblk1 V c 0 t)) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [HX]; · iexists X; iexact HX
  iintro ⟨H0, H1, H2, H3, H4, HX⟩
  isplitl [HΦ]; · iexact HΦ
  isplitl [Ho]; · iexact Ho
  isplitl [H0]
  · iexists d0
    rw [after1_0]; unfold fblk1; rw [(cfg1.win 0).cut_fill]; iexact H0
  isplitl [H1]
  · rw [after1_1]; iexact H1
  isplitl [H2]
  · rw [after1_2]; iexact H2
  isplitl [H3]
  · rw [after1_3]; iexact H3
  isplitl [H4]
  · rw [after1_4]; iexact H4
  iexists _; iexact HX

end Cert.KernelIdeal.Gen

end
-- ==== Proof.KI.Reg1.lean ====
import proofs.«178696_j1468878815658_2_alg».proof.Proof.KI.Alg
import proofs.«178696_j1468878815658_2_alg».proof.Proof.KI.Obl1
import proofs.«178696_j1468878815658_2_alg».proof.Proof.Gen.KernelIdeal.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 1's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 1 is entered
variable (fgt : Fin cfg1.W → Bool)                        -- the windows whose contents after the body are left unnamed

/-- Region 1's relational proof data at the entry contents `W`. -/
def rdat1 (c : Dev nD) : Pipeline.RDat τ (Elt F) Unit ℕ UU ℕ cfg1 c := (dat1 (VW W) c).toRForget fgt

/-- The family of relational proof data with region 1's at its index. -/
abbrev rfam1 : (q : Fin 7) → (c : Dev nD) → Pipeline.RDat τ (Elt F) Unit ℕ UU ℕ (Pipeline.pin (pcfgs (F := F)) adm q) c :=
  Pipeline.RDat.familyOf (pcfgs (F := F)) adm (1 : Fin 7) (rdat1 W fgt)

/-- At its own index the family is region 1's data. -/
theorem rfam1_self (c : Dev nD) : rfam1 W fgt (1 : Fin 7) c = rdat1 W fgt c :=
  Pipeline.RDat.familyOf_self (pcfgs (F := F)) adm (1 : Fin 7) (rdat1 W fgt) c

/-- The data hold every array at the full share. -/
theorem rdat1_share (c : Dev nD) (w : Fin cfg1.W) : (rdat1 W fgt c).share w = fullShare :=
  (rdat1 W fgt c).share_full (fun _ => rfl) w

/-- The arrays after every write-back, opened: each whole at the full share at SOME contents it may then hold. -/
theorem arraysAt_open1 (c : Dev nD) :
    ((rdat1 W fgt c).arraysAt cfg1.N : sProp 𝕄)
      ⊢ iprop(∃ A : (w : Fin cfg1.W) → Buf (Elt F) ((cfg1.win w).arr.view.loc (c : Thread nD τ)),
          ⌜∀ w, (rdat1 W fgt c).ArrAt w cfg1.N (A w)⌝ ∗ Pipeline.arrPts spec1 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat1 W fgt c).ArrAt w cfg1.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg1.win w).arr.view.loc (c : Thread nD τ)
        ↦[(cfg1.win w).arr.view.set]{(rdat1 W fgt c).share w} A w : sProp 𝕄)) = Pipeline.arrPts spec1 c A := by
    unfold Pipeline.arrPts
    exact bigSep_congr fun w _ => by
      have hw : (cfg1.win w).arr.IsWhole := launch1.arr_whole w
      rw [hw.set_eq_univ, rdat1_share W fgt c w]
  rw [← hpts]
  iexact H

/-- The arrays at contents `A` beside every other unscoped buffer at `W` are the unscoped buffers held at `W` updated at
    the arrays by `A`. -/
theorem held_withArrays1 (c : Dev nD) (A : (w : Fin cfg1.W) → Buf (Elt F) ((cfg1.win w).arr.view.loc (c : Thread nD τ))) :
    iprop(Pipeline.arrPts spec1 c A ∗ Pipeline.unscopedRest (Ix := Unit) (Name := ℕ) (U := UU) (Lvl := ℕ) spec1 c (fun b => W b))
      ⊢ (Held c (Pipeline.withArrays spec1 c W A) : sProp 𝕄) := by
  unfold Held
  rw [← Pipeline.unscopedBufs_held, Pipeline.unscopedBufs_split cfgs (1 : Fin 7) launch1.win.arr_unscoped launch1.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec1 w)) ↦{fullShare} f : sProp 𝕄))
      (Pipeline.withArrays_arr spec1 launch1.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec1 c W A b fun w e =>
        (Finset.mem_sdiff.mp hb).2 (Finset.mem_image.mpr ⟨w, Finset.mem_univ _, e⟩)).symm

set_option backward.isDefEq.respectTransparency.types false in
/-- Region 1 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg1 (hbody : ∀ c, BodyObligationLoose (dat1 (VW W) c) (defs₀ (F := F)) Variants.none () Set.univ fgt) :
    Pipeline.RDat.RegionSeg (pcfgs (F := F)) adm (rfam1 W fgt) () defs₀ Variants.none Lr lvr (1 : Fin 7) where
  win := launch1.win.to₀
  block_pos := launch1.block_pos
  stage_whole := launch1.stage_whole
  K := PEmpty
  osem k := k.elim
  ho := Pipeline.OwnSemFacts.none _
  hbody c := by
    rw [rfam1_self]
    exact (hbody c).toRForget
  hwaits := Pipeline.RDat.hwaits_of_owed_zero _ _ _ _ Lr lvr (1 : Fin 7) fun c t => by
    rw [rfam1_self]; rfl
  pre c := iprop(Held c W ∗ Pr c ∗ Ow c)
  post c := iprop(∃ A : (w : Fin cfg1.W) → Buf (Elt F) ((cfg1.win w).arr.view.loc (c : Thread nD τ)),
    ⌜∀ w, (rdat1 W fgt c).ArrAt w cfg1.N (A w)⌝ ∗ Held c (Pipeline.withArrays spec1 c W A) ∗ Pr c ∗ Ow c)
  X c := Pr c
  Y c := Pr c
  Z c := Pipeline.unscopedRest (Ix := Unit) (Name := ℕ) (U := UU) (Lvl := ℕ) spec1 c (fun b => W b)
  hentry c := by
    -- the arrays at their entry contents, split out of the held buffers
    have hsplit : (Held c W : sProp 𝕄)
        ⊢ iprop((rfam1 W fgt (1 : Fin 7) c).arrays (rfam1 W fgt (1 : Fin 7) c).A
            ∗ Pipeline.unscopedRest (Ix := Unit) (Name := ℕ) (U := UU) (Lvl := ℕ) spec1 c (fun b => W b)) := by
      unfold Held
      rw [← Pipeline.unscopedBufs_held]
      exact Pipeline.RDat.arrays_of_unscopedBufs (p := (1 : Fin 7)) (pcfgs (F := F)) adm (rfam1 W fgt) launch1.win launch1.arr_whole c
        (fun w => by rw [rfam1_self]; exact rdat1_share W fgt c w) (fun b => W b) (fun w => by rw [rfam1_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam1_self]
      icases Howes with ⟨%S, Howes⟩
      iexists S
      isplitr
      · ipureintro; exact fun x _ => Or.inl (Set.mem_univ x)
      iexact Howes
    isplitl [Hprng]; · iexact Hprng
    iexact Hrest
  hin c := by
    rw [rfam1_self]
    show _ ⊢ (Pipeline.ΦA spec1 c : sProp 𝕄)
    unfold Pipeline.ΦA
    iintro ⟨Hprng, -, Hscoped⟩
    isplitl [Hscoped]; · iexact Hscoped
    iexact Hprng
  hout c := by
    rw [rfam1_self, Pipeline.ownSems0_none]
    show (Pipeline.ΦA spec1 c : sProp 𝕄) ⊢ _
    unfold Pipeline.ΦA
    iintro ⟨Hscoped, Hprng⟩
    isplitl [Hprng]; · iexact Hprng
    isplitr; · iempintro
    iexact Hscoped
  hexit c := by
    rw [rfam1_self]
    iintro ⟨Harr, Howes, Hprng, Hrest⟩
    imodintro
    ihave Hopen := (arraysAt_open1 W fgt c) $$ Harr
    icases Hopen with ⟨%A, %hA, Hpts⟩
    iexists A
    isplitr; · ipureintro; exact hA
    isplitl [Hpts Hrest]
    · iapply (held_withArrays1 W c A)
      isplitl [Hpts]; · iexact Hpts
      iexact Hrest
    isplitl [Hprng]; · iexact Hprng
    icases Howes with ⟨%S, -, Howes⟩
    iexists S; iexact Howes

/-- REGION 1's STEP, continuation-passing: from the boundary, every unscoped buffer held at `W`, the generator register,
    the core owing nothing, the level facts and pipeline 1's ghost state, the region's call runs; the continuation is
    entered at the boundary with the buffers held at `W` UPDATED at the region's arrays by SOME contents `A` the arrays
    may hold after every write-back (the inputs' as entered; an unnamed output's anything). -/
theorem region1_wp
    (hbody : ∀ c, BodyObligationLoose (dat1 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg1.W) → Buf (Elt F) ((cfg1.win w).arr.view.loc (c : Thread nD τ)),
            iprop(⌜∀ w, (rdat1 W fgt c).ArrAt w cfg1.N (A w)⌝ ∗ boundary (c : Thread nD τ)
                ∗ Held c (Pipeline.withArrays spec1 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 1 c)
      ⊢ wp frame (wpE (defs (F := F)) (Variants.lift Variants.none) (c : Thread nD τ) none) Set.univ
          (.op (.customCall (Pipeline.entry 1) ()) k) Q := by
  iintro ⟨Hk, Hbd, Hheld, Hprng, Howes, Hlev, Hghost, Htoks⟩
  -- the region's rule between its two thread states, on this core
  have hwp := (regSeg1 W fgt hbody).wp (pcfgs (F := F)) adm (rfam1 W fgt) () cellOf_inj EPg defs₀ Variants.none Lr lvr c none
    (fun u h => nomatch h) k Q
  dsimp only [regSeg1] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.KernelIdeal.Gen

end
-- ==== Proof.KI.Dat2.lean ====
import proofs.«178696_j1468878815658_2_alg».proof.Proof.KI.Outs
import proofs.«178696_j1468878815658_2_alg».proof.Proof.Gen.KernelIdeal.Launch
import proofs.«178696_j1468878815658_2_alg».proof.Proof.Gen.KernelIdeal.Points
import Idealize.ShloMosaic.Lib.Pipeline.Kit
import Idealize.ShloMosaic.Lib.Pipeline.FrameBody
import Idealize.ShloMosaic.Lib.Pipeline.Frame

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 2: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The same filled out to the whole staging buffer with a word of no account. -/
def fblk2 (c : Dev nD) (w : Fin cfg2.W) (t : Fin cfg2.N) : (cfg2.win w).block.Idx → Elt F (cfg2.win w).elt :=
  (cfg2.win w).fill (cfg2.grid.coords t) (fun _ => Classical.arbitrary _) (iblk2 V c w t)

/-- The proof data of region 2 on core `c`: the arrays as the region finds them; after the body each input's buffer
    at its block and the output's at the body's function of the input buffers; the scoped rest and the generator
    register as the invariant; nothing owed; full shares. -/
def dat2 (c : Dev nD) : Dat τ (Elt F) Unit ℕ (UR sig nD τ × UR sig nD τ) ℕ cfg2 c where
  A w := V c (Pipeline.arrRef spec2 w)
  after w t := match w with
    | ⟨0, _⟩ => fblk2 V c 0 t
    | ⟨1, _⟩ => fblk2 V c 1 t
    | ⟨2, _⟩ => iblk2 V c 2 t
    | ⟨3, _⟩ => iblk2 V c 3 t
    | ⟨4, _⟩ => iblk2 V c 4 t
    | ⟨5, _⟩ => out2 (fblk2 V c 0 t) (fblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = fblk2 V c 0 t := by dsimp only [dat2]
theorem after2_1 (c : Dev nD) (t : Fin cfg2.N) : (dat2 V c).after 1 t = fblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2 (fblk2 V c 0 t) (fblk2 V c 1 t) (iblk2 V c 2 t) (iblk2 V c 3 t) (iblk2 V c 4 t) := by dsimp only [dat2]

end Cert.KernelIdeal.Gen

end
-- ==== Proof.KI.Body2.lean ====
import proofs.«178696_j1468878815658_2_alg».proof.Proof.KI.Outs
import proofs.«178696_j1468878815658_2_alg».proof.Proof.Gen.KernelIdeal.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 2 on whole staging memrefs: from its input buffers at any contents and its output buffer at
    anything, it runs to the end without a fault, leaves the inputs as they were and the output at the region's
    function of the inputs. -/
theorem sound_kernel2 (c : Dev nD) (E : Set ℕ) (i : grid2.Coords)
    (arg1 : Memref sig .tc .vmem S8192x64 .bf16) (harg1 : arg1.IsWhole) (arg2 : Memref sig .tc .vmem S8192x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S8192x64 .bf16) (harg6 : arg6.IsWhole)
    (xs : Vec F S8192x64 .bf16) (e : Vec F S8192x64 .bf16) (ws : Vec F S64x64 .f32) (we : Vec F S64x64 .f32) (b : Vec F S1x64 .f32) (K : PUnit → sProp 𝕄) :
    iprop(owns (c : Thread nD τ) arg1 fullShare xs ∗ owns (c : Thread nD τ) arg2 fullShare e ∗ owns (c : Thread nD τ) arg3 fullShare ws ∗ owns (c : Thread nD τ) arg4 fullShare we ∗ owns (c : Thread nD τ) arg5 fullShare b ∗ (∃ d, owns (c : Thread nD τ) arg6 fullShare d)
        ∗ (iprop(owns (c : Thread nD τ) arg1 fullShare xs ∗ owns (c : Thread nD τ) arg2 fullShare e ∗ owns (c : Thread nD τ) arg3 fullShare ws ∗ owns (c : Thread nD τ) arg4 fullShare we ∗ owns (c : Thread nD τ) arg5 fullShare b ∗ owns (c : Thread nD τ) arg6 fullShare (out2 xs e ws we b)) -∗ K ⟨⟩))
      ⊢ wp frame (wpE (defs₀ (F := F)) Variants.none c none) E (cc2__msg_kernel i arg1 harg1 arg2 harg2 arg3 harg3 arg4 harg4 arg5 harg5 arg6 harg6) K := by
  -- every access is at offsets zero with the buffer's own sizes
  have hz : (![0, 0] : Fin 2 → Nat) = fun _ => 0 := funext fun a => by fin_cases a <;> rfl
  simp only [cc2__msg_kernel_eq_skeleton]; unfold cc2__msg_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output's buffer after its one store: the store's rectangle is the whole buffer, so the buffer reads the
  -- payload, and each whole load read its buffer's contents
  iexists _; isplitr
  swap; · iexact H6
  ipureintro
  rw [View.read_writes_eq_canon _ _ _ (fun y => ⟨_, List.mem_singleton_self _, View.mem_set_unit_zero hz inb_S8192x64_S8192x64_0_0 y⟩),
    View.canon_unit_zero hz]
  unfold out2
  rw [View.readAt_eq_ld, View.readAt_eq_ld, View.readAt_eq_ld, View.readAt_eq_ld, View.readAt_eq_ld,
    View.ld_unit_zero hz, View.ld_unit_zero hz, View.ld_unit_zero hz, View.ld_unit_zero hz, View.ld_unit_zero hz]

end Cert.KernelIdeal.Gen

end
-- ==== Proof.KI.Obl2.lean ====
import proofs.«178696_j1468878815658_2_alg».proof.Proof.KI.Dat2
import proofs.«178696_j1468878815658_2_alg».proof.Proof.KI.Body2

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut2 : Fin cfg2.W → Bool := fun | ⟨0, _⟩ => false | ⟨1, _⟩ => false | ⟨2, _⟩ => false | ⟨3, _⟩ => false | ⟨4, _⟩ => false | ⟨5, _⟩ => true | ⟨_ + 6, h⟩ => absurd h (Nat.not_lt.2 (Nat.le_add_left _ _))

theorem before2_0 (c : Dev nD) (t : Fin cfg2.N) (d) :
    (dat2 V c).before 0 t d = (cfg2.win 0).fill (cfg2.grid.coords t) d (iblk2 V c 0 t) := by
  rw [(dat2 V c).before_fetched 0 t (fetch2_0 t) d]; unfold Dat.fetched Dat.blockOf iblk2; rw [A_eq2]
theorem before2_1 (c : Dev nD) (t : Fin cfg2.N) (d) :
    (dat2 V c).before 1 t d = (cfg2.win 1).fill (cfg2.grid.coords t) d (iblk2 V c 1 t) := by
  rw [(dat2 V c).before_fetched 1 t (fetch2_1 t) d]; unfold Dat.fetched Dat.blockOf iblk2; rw [A_eq2]
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-- The body obligation of region 2 at any point, the output window forgotten: the inputs' buffers hold their blocks
    (a row-tiled one filled out past the array's end with whatever the fetch left), so the body's triple applies; it
    leaves them as they were — on the rows inside the array, their blocks — and the output at contents not named. -/
theorem body_obligation2_fgt (c : Dev nD) :
    BodyObligationLoose (dat2 V c) (defs₀ (F := F)) Variants.none () Set.univ fgtOut2 := fun t => by
  rw [bigSep_W2, bigSep_W2]
  simp only [fgtOut2]
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%X, HX⟩⟩
  rw [before2_0 V c t d0, before2_1 V c t d1, before2_2 V c t d2, before2_3 V c t d3, before2_4 V c t d4]
  iapply (sound_kernel2 (F := F) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) ((cfg2.win 0).fill (cfg2.grid.coords t) d0 (iblk2 V c 0 t)) ((cfg2.win 1).fill (cfg2.grid.coords t) d1 (iblk2 V c 1 t)) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [HX]; · iexists X; iexact HX
  iintro ⟨H0, H1, H2, H3, H4, HX⟩
  isplitl [HΦ]; · iexact HΦ
  isplitl [Ho]; · iexact Ho
  isplitl [H0]
  · iexists d0
    rw [after2_0]; unfold fblk2; rw [(cfg2.win 0).cut_fill]; iexact H0
  isplitl [H1]
  · iexists d1
    rw [after2_1]; unfold fblk2; rw [(cfg2.win 1).cut_fill]; iexact H1
  isplitl [H2]
  · rw [after2_2]; iexact H2
  isplitl [H3]
  · rw [after2_3]; iexact H3
  isplitl [H4]
  · rw [after2_4]; iexact H4
  iexists _; iexact HX

end Cert.KernelIdeal.Gen

end
-- ==== Proof.KI.Reg2.lean ====
import proofs.«178696_j1468878815658_2_alg».proof.Proof.KI.Alg
import proofs.«178696_j1468878815658_2_alg».proof.Proof.KI.Obl2
import proofs.«178696_j1468878815658_2_alg».proof.Proof.Gen.KernelIdeal.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 2's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 2 is entered
variable (fgt : Fin cfg2.W → Bool)                        -- the windows whose contents after the body are left unnamed

/-- Region 2's relational proof data at the entry contents `W`. -/
def rdat2 (c : Dev nD) : Pipeline.RDat τ (Elt F) Unit ℕ UU ℕ cfg2 c := (dat2 (VW W) c).toRForget fgt

/-- The family of relational proof data with region 2's at its index. -/
abbrev rfam2 : (q : Fin 7) → (c : Dev nD) → Pipeline.RDat τ (Elt F) Unit ℕ UU ℕ (Pipeline.pin (pcfgs (F := F)) adm q) c :=
  Pipeline.RDat.familyOf (pcfgs (F := F)) adm (2 : Fin 7) (rdat2 W fgt)

/-- At its own index the family is region 2's data. -/
theorem rfam2_self (c : Dev nD) : rfam2 W fgt (2 : Fin 7) c = rdat2 W fgt c :=
  Pipeline.RDat.familyOf_self (pcfgs (F := F)) adm (2 : Fin 7) (rdat2 W fgt) c

/-- The data hold every array at the full share. -/
theorem rdat2_share (c : Dev nD) (w : Fin cfg2.W) : (rdat2 W fgt c).share w = fullShare :=
  (rdat2 W fgt c).share_full (fun _ => rfl) w

/-- The arrays after every write-back, opened: each whole at the full share at SOME contents it may then hold. -/
theorem arraysAt_open2 (c : Dev nD) :
    ((rdat2 W fgt c).arraysAt cfg2.N : sProp 𝕄)
      ⊢ iprop(∃ A : (w : Fin cfg2.W) → Buf (Elt F) ((cfg2.win w).arr.view.loc (c : Thread nD τ)),
          ⌜∀ w, (rdat2 W fgt c).ArrAt w cfg2.N (A w)⌝ ∗ Pipeline.arrPts spec2 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat2 W fgt c).ArrAt w cfg2.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg2.win w).arr.view.loc (c : Thread nD τ)
        ↦[(cfg2.win w).arr.view.set]{(rdat2 W fgt c).share w} A w : sProp 𝕄)) = Pipeline.arrPts spec2 c A := by
    unfold Pipeline.arrPts
    exact bigSep_congr fun w _ => by
      have hw : (cfg2.win w).arr.IsWhole := launch2.arr_whole w
      rw [hw.set_eq_univ, rdat2_share W fgt c w]
  rw [← hpts]
  iexact H

/-- The arrays at contents `A` beside every other unscoped buffer at `W` are the unscoped buffers held at `W` updated at
    the arrays by `A`. -/
theorem held_withArrays2 (c : Dev nD) (A : (w : Fin cfg2.W) → Buf (Elt F) ((cfg2.win w).arr.view.loc (c : Thread nD τ))) :
    iprop(Pipeline.arrPts spec2 c A ∗ Pipeline.unscopedRest (Ix := Unit) (Name := ℕ) (U := UU) (Lvl := ℕ) spec2 c (fun b => W b))
      ⊢ (Held c (Pipeline.withArrays spec2 c W A) : sProp 𝕄) := by
  unfold Held
  rw [← Pipeline.unscopedBufs_held, Pipeline.unscopedBufs_split cfgs (2 : Fin 7) launch2.win.arr_unscoped launch2.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec2 w)) ↦{fullShare} f : sProp 𝕄))
      (Pipeline.withArrays_arr spec2 launch2.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec2 c W A b fun w e =>
        (Finset.mem_sdiff.mp hb).2 (Finset.mem_image.mpr ⟨w, Finset.mem_univ _, e⟩)).symm

set_option backward.isDefEq.respectTransparency.types false in
/-- Region 2 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg2 (hbody : ∀ c, BodyObligationLoose (dat2 (VW W) c) (defs₀ (F := F)) Variants.none () Set.univ fgt) :
    Pipeline.RDat.RegionSeg (pcfgs (F := F)) adm (rfam2 W fgt) () defs₀ Variants.none Lr lvr (2 : Fin 7) where
  win := launch2.win.to₀
  block_pos := launch2.block_pos
  stage_whole := launch2.stage_whole
  K := PEmpty
  osem k := k.elim
  ho := Pipeline.OwnSemFacts.none _
  hbody c := by
    rw [rfam2_self]
    exact (hbody c).toRForget
  hwaits := Pipeline.RDat.hwaits_of_owed_zero _ _ _ _ Lr lvr (2 : Fin 7) fun c t => by
    rw [rfam2_self]; rfl
  pre c := iprop(Held c W ∗ Pr c ∗ Ow c)
  post c := iprop(∃ A : (w : Fin cfg2.W) → Buf (Elt F) ((cfg2.win w).arr.view.loc (c : Thread nD τ)),
    ⌜∀ w, (rdat2 W fgt c).ArrAt w cfg2.N (A w)⌝ ∗ Held c (Pipeline.withArrays spec2 c W A) ∗ Pr c ∗ Ow c)
  X c := Pr c
  Y c := Pr c
  Z c := Pipeline.unscopedRest (Ix := Unit) (Name := ℕ) (U := UU) (Lvl := ℕ) spec2 c (fun b => W b)
  hentry c := by
    -- the arrays at their entry contents, split out of the held buffers
    have hsplit : (Held c W : sProp 𝕄)
        ⊢ iprop((rfam2 W fgt (2 : Fin 7) c).arrays (rfam2 W fgt (2 : Fin 7) c).A
            ∗ Pipeline.unscopedRest (Ix := Unit) (Name := ℕ) (U := UU) (Lvl := ℕ) spec2 c (fun b => W b)) := by
      unfold Held
      rw [← Pipeline.unscopedBufs_held]
      exact Pipeline.RDat.arrays_of_unscopedBufs (p := (2 : Fin 7)) (pcfgs (F := F)) adm (rfam2 W fgt) launch2.win launch2.arr_whole c
        (fun w => by rw [rfam2_self]; exact rdat2_share W fgt c w) (fun b => W b) (fun w => by rw [rfam2_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam2_self]
      icases Howes with ⟨%S, Howes⟩
      iexists S
      isplitr
      · ipureintro; exact fun x _ => Or.inl (Set.mem_univ x)
      iexact Howes
    isplitl [Hprng]; · iexact Hprng
    iexact Hrest
  hin c := by
    rw [rfam2_self]
    show _ ⊢ (Pipeline.ΦA spec2 c : sProp 𝕄)
    unfold Pipeline.ΦA
    iintro ⟨Hprng, -, Hscoped⟩
    isplitl [Hscoped]; · iexact Hscoped
    iexact Hprng
  hout c := by
    rw [rfam2_self, Pipeline.ownSems0_none]
    show (Pipeline.ΦA spec2 c : sProp 𝕄) ⊢ _
    unfold Pipeline.ΦA
    iintro ⟨Hscoped, Hprng⟩
    isplitl [Hprng]; · iexact Hprng
    isplitr; · iempintro
    iexact Hscoped
  hexit c := by
    rw [rfam2_self]
    iintro ⟨Harr, Howes, Hprng, Hrest⟩
    imodintro
    ihave Hopen := (arraysAt_open2 W fgt c) $$ Harr
    icases Hopen with ⟨%A, %hA, Hpts⟩
    iexists A
    isplitr; · ipureintro; exact hA
    isplitl [Hpts Hrest]
    · iapply (held_withArrays2 W c A)
      isplitl [Hpts]; · iexact Hpts
      iexact Hrest
    isplitl [Hprng]; · iexact Hprng
    icases Howes with ⟨%S, -, Howes⟩
    iexists S; iexact Howes

/-- REGION 2's STEP, continuation-passing: from the boundary, every unscoped buffer held at `W`, the generator register,
    the core owing nothing, the level facts and pipeline 2's ghost state, the region's call runs; the continuation is
    entered at the boundary with the buffers held at `W` UPDATED at the region's arrays by SOME contents `A` the arrays
    may hold after every write-back (the inputs' as entered; an unnamed output's anything). -/
theorem region2_wp
    (hbody : ∀ c, BodyObligationLoose (dat2 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg2.W) → Buf (Elt F) ((cfg2.win w).arr.view.loc (c : Thread nD τ)),
            iprop(⌜∀ w, (rdat2 W fgt c).ArrAt w cfg2.N (A w)⌝ ∗ boundary (c : Thread nD τ)
                ∗ Held c (Pipeline.withArrays spec2 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 2 c)
      ⊢ wp frame (wpE (defs (F := F)) (Variants.lift Variants.none) (c : Thread nD τ) none) Set.univ
          (.op (.customCall (Pipeline.entry 2) ()) k) Q := by
  iintro ⟨Hk, Hbd, Hheld, Hprng, Howes, Hlev, Hghost, Htoks⟩
  -- the region's rule between its two thread states, on this core
  have hwp := (regSeg2 W fgt hbody).wp (pcfgs (F := F)) adm (rfam2 W fgt) () cellOf_inj EPg defs₀ Variants.none Lr lvr c none
    (fun u h => nomatch h) k Q
  dsimp only [regSeg2] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.KernelIdeal.Gen

end
-- ==== Proof.KI.Dat3.lean ====
import proofs.«178696_j1468878815658_2_alg».proof.Proof.KI.Outs
import proofs.«178696_j1468878815658_2_alg».proof.Proof.Gen.KernelIdeal.Launch
import proofs.«178696_j1468878815658_2_alg».proof.Proof.Gen.KernelIdeal.Points
import Idealize.ShloMosaic.Lib.Pipeline.Kit
import Idealize.ShloMosaic.Lib.Pipeline.FrameBody
import Idealize.ShloMosaic.Lib.Pipeline.Frame

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 3: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The same filled out to the whole staging buffer with a word of no account. -/
def fblk3 (c : Dev nD) (w : Fin cfg3.W) (t : Fin cfg3.N) : (cfg3.win w).block.Idx → Elt F (cfg3.win w).elt :=
  (cfg3.win w).fill (cfg3.grid.coords t) (fun _ => Classical.arbitrary _) (iblk3 V c w t)

/-- The proof data of region 3 on core `c`: the arrays as the region finds them; after the body each input's buffer
    at its block and the output's at the body's function of the input buffers; the scoped rest and the generator
    register as the invariant; nothing owed; full shares. -/
def dat3 (c : Dev nD) : Dat τ (Elt F) Unit ℕ (UR sig nD τ × UR sig nD τ) ℕ cfg3 c where
  A w := V c (Pipeline.arrRef spec3 w)
  after w t := match w with
    | ⟨0, _⟩ => fblk3 V c 0 t
    | ⟨1, _⟩ => fblk3 V c 1 t
    | ⟨2, _⟩ => fblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3 (fblk3 V c 0 t) (fblk3 V c 1 t) (fblk3 V c 2 t) (iblk3 V c 3 t) (iblk3 V c 4 t) (iblk3 V c 5 t) (iblk3 V c 6 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = fblk3 V c 0 t := by dsimp only [dat3]
theorem after3_1 (c : Dev nD) (t : Fin cfg3.N) : (dat3 V c).after 1 t = fblk3 V c 1 t := by dsimp only [dat3]
theorem after3_2 (c : Dev nD) (t : Fin cfg3.N) : (dat3 V c).after 2 t = fblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) :
    (dat3 V c).after 8 t = out3 (fblk3 V c 0 t) (fblk3 V c 1 t) (fblk3 V c 2 t) (iblk3 V c 3 t) (iblk3 V c 4 t) (iblk3 V c 5 t) (iblk3 V c 6 t) (iblk3 V c 7 t) := by dsimp only [dat3]

end Cert.KernelIdeal.Gen

end
-- ==== Proof.KI.Body3.lean ====
import proofs.«178696_j1468878815658_2_alg».proof.Proof.KI.Outs
import proofs.«178696_j1468878815658_2_alg».proof.Proof.Gen.KernelIdeal.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 3 on whole staging memrefs: from its input buffers at any contents and its output buffer at
    anything, it runs to the end without a fault, leaves the inputs as they were and the output at the region's
    function of the inputs. -/
theorem sound_kernel3 (c : Dev nD) (E : Set ℕ) (i : grid3.Coords)
    (arg1 : Memref sig .tc .vmem S4096x64 .bf16) (harg1 : arg1.IsWhole) (arg2 : Memref sig .tc .vmem S4096x64 .f32) (harg2 : arg2.IsWhole) (arg3 : Memref sig .tc .vmem S4096x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S4096x64 .bf16) (harg9 : arg9.IsWhole)
    (h : Vec F S4096x64 .bf16) (ms : Vec F S4096x64 .f32) (cnt : Vec F S4096x1 .f32) (wh : Vec F S64x64 .f32) (wm : Vec F S64x64 .f32) (b : Vec F S1x64 .f32) (g : Vec F S1x64 .f32) (β : Vec F S1x64 .f32) (K : PUnit → sProp 𝕄) :
    iprop(owns (c : Thread nD τ) arg1 fullShare h ∗ owns (c : Thread nD τ) arg2 fullShare ms ∗ owns (c : Thread nD τ) arg3 fullShare cnt ∗ owns (c : Thread nD τ) arg4 fullShare wh ∗ owns (c : Thread nD τ) arg5 fullShare wm ∗ owns (c : Thread nD τ) arg6 fullShare b ∗ owns (c : Thread nD τ) arg7 fullShare g ∗ owns (c : Thread nD τ) arg8 fullShare β ∗ (∃ d, owns (c : Thread nD τ) arg9 fullShare d)
        ∗ (iprop(owns (c : Thread nD τ) arg1 fullShare h ∗ owns (c : Thread nD τ) arg2 fullShare ms ∗ owns (c : Thread nD τ) arg3 fullShare cnt ∗ owns (c : Thread nD τ) arg4 fullShare wh ∗ owns (c : Thread nD τ) arg5 fullShare wm ∗ owns (c : Thread nD τ) arg6 fullShare b ∗ owns (c : Thread nD τ) arg7 fullShare g ∗ owns (c : Thread nD τ) arg8 fullShare β ∗ owns (c : Thread nD τ) arg9 fullShare (out3 h ms cnt wh wm b g β)) -∗ K ⟨⟩))
      ⊢ wp frame (wpE (defs₀ (F := F)) Variants.none c none) E (cc3__upd_kernel i arg1 harg1 arg2 harg2 arg3 harg3 arg4 harg4 arg5 harg5 arg6 harg6 arg7 harg7 arg8 harg8 arg9 harg9) K := by
  -- every access is at offsets zero with the buffer's own sizes
  have hz : (![0, 0] : Fin 2 → Nat) = fun _ => 0 := funext fun a => by fin_cases a <;> rfl
  simp only [cc3__upd_kernel_eq_skeleton]; unfold cc3__upd_kernel_skel
  -- open each buffer's ownership to its raw contents; an input's read contents are then a function of those
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  -- run the loads and the one store
  sl_exec
  sl_step
  -- the inputs are held as they were
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  -- the output buffer holds one whole unmasked store over its prior contents
  iexists _; isplitr
  swap; · iexact H9
  ipureintro
  -- the store's rectangle is the whole buffer, so it covers every index and what is read back is its payload
  refine (View.read_writes_eq_canon _ _ _ fun y => ?_).trans ?_
  · exact ⟨_, List.mem_singleton_self _, View.mem_set_unit_zero hz (fun a => by rw [hz]; exact (Nat.zero_add _).le) y⟩
  rw [View.canon_unit_zero hz]
  -- the payload is the region's function once every loaded value is identified with its buffer's contents:
  -- a load through the whole rectangle at offsets zero reads the contents themselves
  unfold out3
  sl_unfold_run_names
  simp only [View.readAt_eq_ld]
  repeat rw [View.ld_unit_zero hz]

end Cert.KernelIdeal.Gen

end
-- ==== Proof.KI.Obl3.lean ====
import proofs.«178696_j1468878815658_2_alg».proof.Proof.KI.Dat3
import proofs.«178696_j1468878815658_2_alg».proof.Proof.KI.Body3

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut3 : Fin cfg3.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => true | ⟨_ + 9, h⟩ => absurd h (Nat.not_lt.2 (Nat.le_add_left _ _))

theorem before3_0 (c : Dev nD) (t : Fin cfg3.N) (d) :
    (dat3 V c).before 0 t d = (cfg3.win 0).fill (cfg3.grid.coords t) d (iblk3 V c 0 t) := by
  rw [(dat3 V c).before_fetched 0 t (fetch3_0 t) d]; unfold Dat.fetched Dat.blockOf iblk3; rw [A_eq3]
theorem before3_1 (c : Dev nD) (t : Fin cfg3.N) (d) :
    (dat3 V c).before 1 t d = (cfg3.win 1).fill (cfg3.grid.coords t) d (iblk3 V c 1 t) := by
  rw [(dat3 V c).before_fetched 1 t (fetch3_1 t) d]; unfold Dat.fetched Dat.blockOf iblk3; rw [A_eq3]
theorem before3_2 (c : Dev nD) (t : Fin cfg3.N) (d) :
    (dat3 V c).before 2 t d = (cfg3.win 2).fill (cfg3.grid.coords t) d (iblk3 V c 2 t) := by
  rw [(dat3 V c).before_fetched 2 t (fetch3_2 t) d]; unfold Dat.fetched Dat.blockOf iblk3; rw [A_eq3]
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
    (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
    (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl)
    (fun t => by rw [after3_7]; unfold Dat.blockOf iblk3; rw [A_eq3]; try rfl) t d).trans
    (by unfold Dat.fetched Dat.blockOf iblk3; rw [A_eq3]; try rfl)

/-- The body obligation of region 3 at any point, the output window forgotten: the inputs' buffers hold their blocks
    (a row-tiled one filled out past the array's end with whatever the fetch left), so the body's triple applies; it
    leaves them as they were — on the rows inside the array, their blocks — and the output at contents not named. -/
theorem body_obligation3_fgt (c : Dev nD) :
    BodyObligationLoose (dat3 V c) (defs₀ (F := F)) Variants.none () Set.univ fgtOut3 := fun t => by
  rw [bigSep_W3, bigSep_W3]
  simp only [fgtOut3]
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X, HX⟩⟩
  rw [before3_0 V c t d0, before3_1 V c t d1, before3_2 V c t d2, before3_3 V c t d3, before3_4 V c t d4, before3_5 V c t d5, before3_6 V c t d6, before3_7 V c t d7]
  iapply (sound_kernel3 (F := F) c Set.univ (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) ((cfg3.win 0).fill (cfg3.grid.coords t) d0 (iblk3 V c 0 t)) ((cfg3.win 1).fill (cfg3.grid.coords t) d1 (iblk3 V c 1 t)) ((cfg3.win 2).fill (cfg3.grid.coords t) d2 (iblk3 V c 2 t)) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexists X; iexact HX
  iintro ⟨H0, H1, H2, H3, H4, H5, H6, H7, HX⟩
  isplitl [HΦ]; · iexact HΦ
  isplitl [Ho]; · iexact Ho
  isplitl [H0]
  · iexists d0
    rw [after3_0]; unfold fblk3; rw [(cfg3.win 0).cut_fill]; iexact H0
  isplitl [H1]
  · iexists d1
    rw [after3_1]; unfold fblk3; rw [(cfg3.win 1).cut_fill]; iexact H1
  isplitl [H2]
  · iexists d2
    rw [after3_2]; unfold fblk3; rw [(cfg3.win 2).cut_fill]; iexact H2
  isplitl [H3]
  · rw [after3_3]; iexact H3
  isplitl [H4]
  · rw [after3_4]; iexact H4
  isplitl [H5]
  · rw [after3_5]; iexact H5
  isplitl [H6]
  · rw [after3_6]; iexact H6
  isplitl [H7]
  · rw [after3_7]; iexact H7
  iexists _; iexact HX

end Cert.KernelIdeal.Gen

end
-- ==== Proof.KI.Reg3.lean ====
import proofs.«178696_j1468878815658_2_alg».proof.Proof.KI.Alg
import proofs.«178696_j1468878815658_2_alg».proof.Proof.KI.Obl3
import proofs.«178696_j1468878815658_2_alg».proof.Proof.Gen.KernelIdeal.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 3's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 3 is entered
variable (fgt : Fin cfg3.W → Bool)                        -- the windows whose contents after the body are left unnamed

/-- Region 3's relational proof data at the entry contents `W`. -/
def rdat3 (c : Dev nD) : Pipeline.RDat τ (Elt F) Unit ℕ UU ℕ cfg3 c := (dat3 (VW W) c).toRForget fgt

/-- The family of relational proof data with region 3's at its index. -/
abbrev rfam3 : (q : Fin 7) → (c : Dev nD) → Pipeline.RDat τ (Elt F) Unit ℕ UU ℕ (Pipeline.pin (pcfgs (F := F)) adm q) c :=
  Pipeline.RDat.familyOf (pcfgs (F := F)) adm (3 : Fin 7) (rdat3 W fgt)

/-- At its own index the family is region 3's data. -/
theorem rfam3_self (c : Dev nD) : rfam3 W fgt (3 : Fin 7) c = rdat3 W fgt c :=
  Pipeline.RDat.familyOf_self (pcfgs (F := F)) adm (3 : Fin 7) (rdat3 W fgt) c

/-- The data hold every array at the full share. -/
theorem rdat3_share (c : Dev nD) (w : Fin cfg3.W) : (rdat3 W fgt c).share w = fullShare :=
  (rdat3 W fgt c).share_full (fun _ => rfl) w

/-- The arrays after every write-back, opened: each whole at the full share at SOME contents it may then hold. -/
theorem arraysAt_open3 (c : Dev nD) :
    ((rdat3 W fgt c).arraysAt cfg3.N : sProp 𝕄)
      ⊢ iprop(∃ A : (w : Fin cfg3.W) → Buf (Elt F) ((cfg3.win w).arr.view.loc (c : Thread nD τ)),
          ⌜∀ w, (rdat3 W fgt c).ArrAt w cfg3.N (A w)⌝ ∗ Pipeline.arrPts spec3 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat3 W fgt c).ArrAt w cfg3.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg3.win w).arr.view.loc (c : Thread nD τ)
        ↦[(cfg3.win w).arr.view.set]{(rdat3 W fgt c).share w} A w : sProp 𝕄)) = Pipeline.arrPts spec3 c A := by
    unfold Pipeline.arrPts
    exact bigSep_congr fun w _ => by
      have hw : (cfg3.win w).arr.IsWhole := launch3.arr_whole w
      rw [hw.set_eq_univ, rdat3_share W fgt c w]
  rw [← hpts]
  iexact H

/-- The arrays at contents `A` beside every other unscoped buffer at `W` are the unscoped buffers held at `W` updated at
    the arrays by `A`. -/
theorem held_withArrays3 (c : Dev nD) (A : (w : Fin cfg3.W) → Buf (Elt F) ((cfg3.win w).arr.view.loc (c : Thread nD τ))) :
    iprop(Pipeline.arrPts spec3 c A ∗ Pipeline.unscopedRest (Ix := Unit) (Name := ℕ) (U := UU) (Lvl := ℕ) spec3 c (fun b => W b))
      ⊢ (Held c (Pipeline.withArrays spec3 c W A) : sProp 𝕄) := by
  unfold Held
  rw [← Pipeline.unscopedBufs_held, Pipeline.unscopedBufs_split cfgs (3 : Fin 7) launch3.win.arr_unscoped launch3.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec3 w)) ↦{fullShare} f : sProp 𝕄))
      (Pipeline.withArrays_arr spec3 launch3.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec3 c W A b fun w e =>
        (Finset.mem_sdiff.mp hb).2 (Finset.mem_image.mpr ⟨w, Finset.mem_univ _, e⟩)).symm

set_option backward.isDefEq.respectTransparency.types false in
/-- Region 3 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg3 (hbody : ∀ c, BodyObligationLoose (dat3 (VW W) c) (defs₀ (F := F)) Variants.none () Set.univ fgt) :
    Pipeline.RDat.RegionSeg (pcfgs (F := F)) adm (rfam3 W fgt) () defs₀ Variants.none Lr lvr (3 : Fin 7) where
  win := launch3.win.to₀
  block_pos := launch3.block_pos
  stage_whole := launch3.stage_whole
  K := PEmpty
  osem k := k.elim
  ho := Pipeline.OwnSemFacts.none _
  hbody c := by
    rw [rfam3_self]
    exact (hbody c).toRForget
  hwaits := Pipeline.RDat.hwaits_of_owed_zero _ _ _ _ Lr lvr (3 : Fin 7) fun c t => by
    rw [rfam3_self]; rfl
  pre c := iprop(Held c W ∗ Pr c ∗ Ow c)
  post c := iprop(∃ A : (w : Fin cfg3.W) → Buf (Elt F) ((cfg3.win w).arr.view.loc (c : Thread nD τ)),
    ⌜∀ w, (rdat3 W fgt c).ArrAt w cfg3.N (A w)⌝ ∗ Held c (Pipeline.withArrays spec3 c W A) ∗ Pr c ∗ Ow c)
  X c := Pr c
  Y c := Pr c
  Z c := Pipeline.unscopedRest (Ix := Unit) (Name := ℕ) (U := UU) (Lvl := ℕ) spec3 c (fun b => W b)
  hentry c := by
    -- the arrays at their entry contents, split out of the held buffers
    have hsplit : (Held c W : sProp 𝕄)
        ⊢ iprop((rfam3 W fgt (3 : Fin 7) c).arrays (rfam3 W fgt (3 : Fin 7) c).A
            ∗ Pipeline.unscopedRest (Ix := Unit) (Name := ℕ) (U := UU) (Lvl := ℕ) spec3 c (fun b => W b)) := by
      unfold Held
      rw [← Pipeline.unscopedBufs_held]
      exact Pipeline.RDat.arrays_of_unscopedBufs (p := (3 : Fin 7)) (pcfgs (F := F)) adm (rfam3 W fgt) launch3.win launch3.arr_whole c
        (fun w => by rw [rfam3_self]; exact rdat3_share W fgt c w) (fun b => W b) (fun w => by rw [rfam3_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam3_self]
      icases Howes with ⟨%S, Howes⟩
      iexists S
      isplitr
      · ipureintro; exact fun x _ => Or.inl (Set.mem_univ x)
      iexact Howes
    isplitl [Hprng]; · iexact Hprng
    iexact Hrest
  hin c := by
    rw [rfam3_self]
    show _ ⊢ (Pipeline.ΦA spec3 c : sProp 𝕄)
    unfold Pipeline.ΦA
    iintro ⟨Hprng, -, Hscoped⟩
    isplitl [Hscoped]; · iexact Hscoped
    iexact Hprng
  hout c := by
    rw [rfam3_self, Pipeline.ownSems0_none]
    show (Pipeline.ΦA spec3 c : sProp 𝕄) ⊢ _
    unfold Pipeline.ΦA
    iintro ⟨Hscoped, Hprng⟩
    isplitl [Hprng]; · iexact Hprng
    isplitr; · iempintro
    iexact Hscoped
  hexit c := by
    rw [rfam3_self]
    iintro ⟨Harr, Howes, Hprng, Hrest⟩
    imodintro
    ihave Hopen := (arraysAt_open3 W fgt c) $$ Harr
    icases Hopen with ⟨%A, %hA, Hpts⟩
    iexists A
    isplitr; · ipureintro; exact hA
    isplitl [Hpts Hrest]
    · iapply (held_withArrays3 W c A)
      isplitl [Hpts]; · iexact Hpts
      iexact Hrest
    isplitl [Hprng]; · iexact Hprng
    icases Howes with ⟨%S, -, Howes⟩
    iexists S; iexact Howes

/-- REGION 3's STEP, continuation-passing: from the boundary, every unscoped buffer held at `W`, the generator register,
    the core owing nothing, the level facts and pipeline 3's ghost state, the region's call runs; the continuation is
    entered at the boundary with the buffers held at `W` UPDATED at the region's arrays by SOME contents `A` the arrays
    may hold after every write-back (the inputs' as entered; an unnamed output's anything). -/
theorem region3_wp
    (hbody : ∀ c, BodyObligationLoose (dat3 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg3.W) → Buf (Elt F) ((cfg3.win w).arr.view.loc (c : Thread nD τ)),
            iprop(⌜∀ w, (rdat3 W fgt c).ArrAt w cfg3.N (A w)⌝ ∗ boundary (c : Thread nD τ)
                ∗ Held c (Pipeline.withArrays spec3 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 3 c)
      ⊢ wp frame (wpE (defs (F := F)) (Variants.lift Variants.none) (c : Thread nD τ) none) Set.univ
          (.op (.customCall (Pipeline.entry 3) ()) k) Q := by
  iintro ⟨Hk, Hbd, Hheld, Hprng, Howes, Hlev, Hghost, Htoks⟩
  -- the region's rule between its two thread states, on this core
  have hwp := (regSeg3 W fgt hbody).wp (pcfgs (F := F)) adm (rfam3 W fgt) () cellOf_inj EPg defs₀ Variants.none Lr lvr c none
    (fun u h => nomatch h) k Q
  dsimp only [regSeg3] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.KernelIdeal.Gen

end
-- ==== Proof.KI.Dat4.lean ====
import proofs.«178696_j1468878815658_2_alg».proof.Proof.KI.Outs
import proofs.«178696_j1468878815658_2_alg».proof.Proof.Gen.KernelIdeal.Launch
import proofs.«178696_j1468878815658_2_alg».proof.Proof.Gen.KernelIdeal.Points
import Idealize.ShloMosaic.Lib.Pipeline.Kit
import Idealize.ShloMosaic.Lib.Pipeline.FrameBody
import Idealize.ShloMosaic.Lib.Pipeline.Frame

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 4: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The same filled out to the whole staging buffer with a word of no account. -/
def fblk4 (c : Dev nD) (w : Fin cfg4.W) (t : Fin cfg4.N) : (cfg4.win w).block.Idx → Elt F (cfg4.win w).elt :=
  (cfg4.win w).fill (cfg4.grid.coords t) (fun _ => Classical.arbitrary _) (iblk4 V c w t)

/-- The proof data of region 4 on core `c`: the arrays as the region finds them; after the body each input's buffer
    at its block and the output's at the body's function of the input buffers; the scoped rest and the generator
    register as the invariant; nothing owed; full shares. -/
def dat4 (c : Dev nD) : Dat τ (Elt F) Unit ℕ (UR sig nD τ × UR sig nD τ) ℕ cfg4 c where
  A w := V c (Pipeline.arrRef spec4 w)
  after w t := match w with
    | ⟨0, _⟩ => fblk4 V c 0 t
    | ⟨1, _⟩ => fblk4 V c 1 t
    | ⟨2, _⟩ => iblk4 V c 2 t
    | ⟨3, _⟩ => iblk4 V c 3 t
    | ⟨4, _⟩ => iblk4 V c 4 t
    | ⟨5, _⟩ => out4 (fblk4 V c 0 t) (fblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = fblk4 V c 0 t := by dsimp only [dat4]
theorem after4_1 (c : Dev nD) (t : Fin cfg4.N) : (dat4 V c).after 1 t = fblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4 (fblk4 V c 0 t) (fblk4 V c 1 t) (iblk4 V c 2 t) (iblk4 V c 3 t) (iblk4 V c 4 t) := by dsimp only [dat4]

end Cert.KernelIdeal.Gen

end
-- ==== Proof.KI.Body4.lean ====
import proofs.«178696_j1468878815658_2_alg».proof.Proof.KI.Outs
import proofs.«178696_j1468878815658_2_alg».proof.Proof.Gen.KernelIdeal.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 4 on whole staging memrefs: from its input buffers at any contents and its output buffer at
    anything, it runs to the end without a fault, leaves the inputs as they were and the output at the region's
    function of the inputs. -/
theorem sound_kernel4 (c : Dev nD) (E : Set ℕ) (i : grid4.Coords)
    (arg1 : Memref sig .tc .vmem S8192x64 .bf16) (harg1 : arg1.IsWhole) (arg2 : Memref sig .tc .vmem S8192x64 .bf16) (harg2 : arg2.IsWhole) (arg3 : Memref sig .tc .vmem S64x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S8192x64 .bf16) (harg6 : arg6.IsWhole)
    (xs : Vec F S8192x64 .bf16) (e : Vec F S8192x64 .bf16) (ws : Vec F S64x64 .f32) (we : Vec F S64x64 .f32) (b : Vec F S1x64 .f32) (K : PUnit → sProp 𝕄) :
    iprop(owns (c : Thread nD τ) arg1 fullShare xs ∗ owns (c : Thread nD τ) arg2 fullShare e ∗ owns (c : Thread nD τ) arg3 fullShare ws ∗ owns (c : Thread nD τ) arg4 fullShare we ∗ owns (c : Thread nD τ) arg5 fullShare b ∗ (∃ d, owns (c : Thread nD τ) arg6 fullShare d)
        ∗ (iprop(owns (c : Thread nD τ) arg1 fullShare xs ∗ owns (c : Thread nD τ) arg2 fullShare e ∗ owns (c : Thread nD τ) arg3 fullShare ws ∗ owns (c : Thread nD τ) arg4 fullShare we ∗ owns (c : Thread nD τ) arg5 fullShare b ∗ owns (c : Thread nD τ) arg6 fullShare (out4 xs e ws we b)) -∗ K ⟨⟩))
      ⊢ wp frame (wpE (defs₀ (F := F)) Variants.none c none) E (cc4__msg_kernel i arg1 harg1 arg2 harg2 arg3 harg3 arg4 harg4 arg5 harg5 arg6 harg6) K := by
  -- every access is at offsets zero with the buffer's own sizes
  have hz : (![0, 0] : Fin 2 → Nat) = fun _ => 0 := funext fun a => by fin_cases a <;> rfl
  simp only [cc4__msg_kernel_eq_skeleton]; unfold cc4__msg_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1 hf2 hf3 hf4 hf5
  sl_exec
  sl_step
  iapply Hk
  -- the inputs' buffers are untouched
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  -- the output's buffer after its one store: the store's rectangle is the whole buffer, so the buffer reads the
  -- payload, and each whole load read its buffer's contents
  iexists _; isplitr
  swap; · iexact H6
  ipureintro
  rw [View.read_writes_eq_canon _ _ _ (fun y => ⟨_, List.mem_singleton_self _, View.mem_set_unit_zero hz inb_S8192x64_S8192x64_0_0 y⟩),
    View.canon_unit_zero hz]
  unfold out4
  rw [View.readAt_eq_ld, View.readAt_eq_ld, View.readAt_eq_ld, View.readAt_eq_ld, View.readAt_eq_ld,
    View.ld_unit_zero hz, View.ld_unit_zero hz, View.ld_unit_zero hz, View.ld_unit_zero hz, View.ld_unit_zero hz]

end Cert.KernelIdeal.Gen

end
-- ==== Proof.KI.Obl4.lean ====
import proofs.«178696_j1468878815658_2_alg».proof.Proof.KI.Dat4
import proofs.«178696_j1468878815658_2_alg».proof.Proof.KI.Body4

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut4 : Fin cfg4.W → Bool := fun | ⟨0, _⟩ => false | ⟨1, _⟩ => false | ⟨2, _⟩ => false | ⟨3, _⟩ => false | ⟨4, _⟩ => false | ⟨5, _⟩ => true | ⟨_ + 6, h⟩ => absurd h (Nat.not_lt.2 (Nat.le_add_left _ _))

theorem before4_0 (c : Dev nD) (t : Fin cfg4.N) (d) :
    (dat4 V c).before 0 t d = (cfg4.win 0).fill (cfg4.grid.coords t) d (iblk4 V c 0 t) := by
  rw [(dat4 V c).before_fetched 0 t (fetch4_0 t) d]; unfold Dat.fetched Dat.blockOf iblk4; rw [A_eq4]
theorem before4_1 (c : Dev nD) (t : Fin cfg4.N) (d) :
    (dat4 V c).before 1 t d = (cfg4.win 1).fill (cfg4.grid.coords t) d (iblk4 V c 1 t) := by
  rw [(dat4 V c).before_fetched 1 t (fetch4_1 t) d]; unfold Dat.fetched Dat.blockOf iblk4; rw [A_eq4]
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
    (fun t => by rw [after4_4]; unfold Dat.blockOf iblk4; rw [A_eq4]; try rfl) t d).trans
    (by unfold Dat.fetched Dat.blockOf iblk4; rw [A_eq4]; try rfl)

/-- The body obligation of region 4 at any point, the output window forgotten: the inputs' buffers hold their blocks
    (a row-tiled one filled out past the array's end with whatever the fetch left), so the body's triple applies; it
    leaves them as they were — on the rows inside the array, their blocks — and the output at contents not named. -/
theorem body_obligation4_fgt (c : Dev nD) :
    BodyObligationLoose (dat4 V c) (defs₀ (F := F)) Variants.none () Set.univ fgtOut4 := fun t => by
  rw [bigSep_W4, bigSep_W4]
  simp only [fgtOut4]
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%X, HX⟩⟩
  rw [before4_0 V c t d0, before4_1 V c t d1, before4_2 V c t d2, before4_3 V c t d3, before4_4 V c t d4]
  iapply (sound_kernel4 (F := F) c Set.univ (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) ((cfg4.win 0).fill (cfg4.grid.coords t) d0 (iblk4 V c 0 t)) ((cfg4.win 1).fill (cfg4.grid.coords t) d1 (iblk4 V c 1 t)) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [HX]; · iexists X; iexact HX
  iintro ⟨H0, H1, H2, H3, H4, HX⟩
  isplitl [HΦ]; · iexact HΦ
  isplitl [Ho]; · iexact Ho
  isplitl [H0]
  · iexists d0
    rw [after4_0]; unfold fblk4; rw [(cfg4.win 0).cut_fill]; iexact H0
  isplitl [H1]
  · iexists d1
    rw [after4_1]; unfold fblk4; rw [(cfg4.win 1).cut_fill]; iexact H1
  isplitl [H2]
  · rw [after4_2]; iexact H2
  isplitl [H3]
  · rw [after4_3]; iexact H3
  isplitl [H4]
  · rw [after4_4]; iexact H4
  iexists _; iexact HX

end Cert.KernelIdeal.Gen

end
-- ==== Proof.KI.Reg4.lean ====
import proofs.«178696_j1468878815658_2_alg».proof.Proof.KI.Alg
import proofs.«178696_j1468878815658_2_alg».proof.Proof.KI.Obl4
import proofs.«178696_j1468878815658_2_alg».proof.Proof.Gen.KernelIdeal.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 4's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 4 is entered
variable (fgt : Fin cfg4.W → Bool)                        -- the windows whose contents after the body are left unnamed

/-- Region 4's relational proof data at the entry contents `W`. -/
def rdat4 (c : Dev nD) : Pipeline.RDat τ (Elt F) Unit ℕ UU ℕ cfg4 c := (dat4 (VW W) c).toRForget fgt

/-- The family of relational proof data with region 4's at its index. -/
abbrev rfam4 : (q : Fin 7) → (c : Dev nD) → Pipeline.RDat τ (Elt F) Unit ℕ UU ℕ (Pipeline.pin (pcfgs (F := F)) adm q) c :=
  Pipeline.RDat.familyOf (pcfgs (F := F)) adm (4 : Fin 7) (rdat4 W fgt)

/-- At its own index the family is region 4's data. -/
theorem rfam4_self (c : Dev nD) : rfam4 W fgt (4 : Fin 7) c = rdat4 W fgt c :=
  Pipeline.RDat.familyOf_self (pcfgs (F := F)) adm (4 : Fin 7) (rdat4 W fgt) c

/-- The data hold every array at the full share. -/
theorem rdat4_share (c : Dev nD) (w : Fin cfg4.W) : (rdat4 W fgt c).share w = fullShare :=
  (rdat4 W fgt c).share_full (fun _ => rfl) w

/-- The arrays after every write-back, opened: each whole at the full share at SOME contents it may then hold. -/
theorem arraysAt_open4 (c : Dev nD) :
    ((rdat4 W fgt c).arraysAt cfg4.N : sProp 𝕄)
      ⊢ iprop(∃ A : (w : Fin cfg4.W) → Buf (Elt F) ((cfg4.win w).arr.view.loc (c : Thread nD τ)),
          ⌜∀ w, (rdat4 W fgt c).ArrAt w cfg4.N (A w)⌝ ∗ Pipeline.arrPts spec4 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat4 W fgt c).ArrAt w cfg4.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg4.win w).arr.view.loc (c : Thread nD τ)
        ↦[(cfg4.win w).arr.view.set]{(rdat4 W fgt c).share w} A w : sProp 𝕄)) = Pipeline.arrPts spec4 c A := by
    unfold Pipeline.arrPts
    exact bigSep_congr fun w _ => by
      have hw : (cfg4.win w).arr.IsWhole := launch4.arr_whole w
      rw [hw.set_eq_univ, rdat4_share W fgt c w]
  rw [← hpts]
  iexact H

/-- The arrays at contents `A` beside every other unscoped buffer at `W` are the unscoped buffers held at `W` updated at
    the arrays by `A`. -/
theorem held_withArrays4 (c : Dev nD) (A : (w : Fin cfg4.W) → Buf (Elt F) ((cfg4.win w).arr.view.loc (c : Thread nD τ))) :
    iprop(Pipeline.arrPts spec4 c A ∗ Pipeline.unscopedRest (Ix := Unit) (Name := ℕ) (U := UU) (Lvl := ℕ) spec4 c (fun b => W b))
      ⊢ (Held c (Pipeline.withArrays spec4 c W A) : sProp 𝕄) := by
  unfold Held
  rw [← Pipeline.unscopedBufs_held, Pipeline.unscopedBufs_split cfgs (4 : Fin 7) launch4.win.arr_unscoped launch4.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec4 w)) ↦{fullShare} f : sProp 𝕄))
      (Pipeline.withArrays_arr spec4 launch4.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec4 c W A b fun w e =>
        (Finset.mem_sdiff.mp hb).2 (Finset.mem_image.mpr ⟨w, Finset.mem_univ _, e⟩)).symm

set_option backward.isDefEq.respectTransparency.types false in
/-- Region 4 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg4 (hbody : ∀ c, BodyObligationLoose (dat4 (VW W) c) (defs₀ (F := F)) Variants.none () Set.univ fgt) :
    Pipeline.RDat.RegionSeg (pcfgs (F := F)) adm (rfam4 W fgt) () defs₀ Variants.none Lr lvr (4 : Fin 7) where
  win := launch4.win.to₀
  block_pos := launch4.block_pos
  stage_whole := launch4.stage_whole
  K := PEmpty
  osem k := k.elim
  ho := Pipeline.OwnSemFacts.none _
  hbody c := by
    rw [rfam4_self]
    exact (hbody c).toRForget
  hwaits := Pipeline.RDat.hwaits_of_owed_zero _ _ _ _ Lr lvr (4 : Fin 7) fun c t => by
    rw [rfam4_self]; rfl
  pre c := iprop(Held c W ∗ Pr c ∗ Ow c)
  post c := iprop(∃ A : (w : Fin cfg4.W) → Buf (Elt F) ((cfg4.win w).arr.view.loc (c : Thread nD τ)),
    ⌜∀ w, (rdat4 W fgt c).ArrAt w cfg4.N (A w)⌝ ∗ Held c (Pipeline.withArrays spec4 c W A) ∗ Pr c ∗ Ow c)
  X c := Pr c
  Y c := Pr c
  Z c := Pipeline.unscopedRest (Ix := Unit) (Name := ℕ) (U := UU) (Lvl := ℕ) spec4 c (fun b => W b)
  hentry c := by
    -- the arrays at their entry contents, split out of the held buffers
    have hsplit : (Held c W : sProp 𝕄)
        ⊢ iprop((rfam4 W fgt (4 : Fin 7) c).arrays (rfam4 W fgt (4 : Fin 7) c).A
            ∗ Pipeline.unscopedRest (Ix := Unit) (Name := ℕ) (U := UU) (Lvl := ℕ) spec4 c (fun b => W b)) := by
      unfold Held
      rw [← Pipeline.unscopedBufs_held]
      exact Pipeline.RDat.arrays_of_unscopedBufs (p := (4 : Fin 7)) (pcfgs (F := F)) adm (rfam4 W fgt) launch4.win launch4.arr_whole c
        (fun w => by rw [rfam4_self]; exact rdat4_share W fgt c w) (fun b => W b) (fun w => by rw [rfam4_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam4_self]
      icases Howes with ⟨%S, Howes⟩
      iexists S
      isplitr
      · ipureintro; exact fun x _ => Or.inl (Set.mem_univ x)
      iexact Howes
    isplitl [Hprng]; · iexact Hprng
    iexact Hrest
  hin c := by
    rw [rfam4_self]
    show _ ⊢ (Pipeline.ΦA spec4 c : sProp 𝕄)
    unfold Pipeline.ΦA
    iintro ⟨Hprng, -, Hscoped⟩
    isplitl [Hscoped]; · iexact Hscoped
    iexact Hprng
  hout c := by
    rw [rfam4_self, Pipeline.ownSems0_none]
    show (Pipeline.ΦA spec4 c : sProp 𝕄) ⊢ _
    unfold Pipeline.ΦA
    iintro ⟨Hscoped, Hprng⟩
    isplitl [Hprng]; · iexact Hprng
    isplitr; · iempintro
    iexact Hscoped
  hexit c := by
    rw [rfam4_self]
    iintro ⟨Harr, Howes, Hprng, Hrest⟩
    imodintro
    ihave Hopen := (arraysAt_open4 W fgt c) $$ Harr
    icases Hopen with ⟨%A, %hA, Hpts⟩
    iexists A
    isplitr; · ipureintro; exact hA
    isplitl [Hpts Hrest]
    · iapply (held_withArrays4 W c A)
      isplitl [Hpts]; · iexact Hpts
      iexact Hrest
    isplitl [Hprng]; · iexact Hprng
    icases Howes with ⟨%S, -, Howes⟩
    iexists S; iexact Howes

/-- REGION 4's STEP, continuation-passing: from the boundary, every unscoped buffer held at `W`, the generator register,
    the core owing nothing, the level facts and pipeline 4's ghost state, the region's call runs; the continuation is
    entered at the boundary with the buffers held at `W` UPDATED at the region's arrays by SOME contents `A` the arrays
    may hold after every write-back (the inputs' as entered; an unnamed output's anything). -/
theorem region4_wp
    (hbody : ∀ c, BodyObligationLoose (dat4 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg4.W) → Buf (Elt F) ((cfg4.win w).arr.view.loc (c : Thread nD τ)),
            iprop(⌜∀ w, (rdat4 W fgt c).ArrAt w cfg4.N (A w)⌝ ∗ boundary (c : Thread nD τ)
                ∗ Held c (Pipeline.withArrays spec4 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 4 c)
      ⊢ wp frame (wpE (defs (F := F)) (Variants.lift Variants.none) (c : Thread nD τ) none) Set.univ
          (.op (.customCall (Pipeline.entry 4) ()) k) Q := by
  iintro ⟨Hk, Hbd, Hheld, Hprng, Howes, Hlev, Hghost, Htoks⟩
  -- the region's rule between its two thread states, on this core
  have hwp := (regSeg4 W fgt hbody).wp (pcfgs (F := F)) adm (rfam4 W fgt) () cellOf_inj EPg defs₀ Variants.none Lr lvr c none
    (fun u h => nomatch h) k Q
  dsimp only [regSeg4] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.KernelIdeal.Gen

end
-- ==== Proof.KI.Dat5.lean ====
import proofs.«178696_j1468878815658_2_alg».proof.Proof.KI.Outs
import proofs.«178696_j1468878815658_2_alg».proof.Proof.Gen.KernelIdeal.Launch
import proofs.«178696_j1468878815658_2_alg».proof.Proof.Gen.KernelIdeal.Points
import Idealize.ShloMosaic.Lib.Pipeline.Kit
import Idealize.ShloMosaic.Lib.Pipeline.FrameBody
import Idealize.ShloMosaic.Lib.Pipeline.Frame

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 5: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The same filled out to the whole staging buffer with a word of no account. -/
def fblk5 (c : Dev nD) (w : Fin cfg5.W) (t : Fin cfg5.N) : (cfg5.win w).block.Idx → Elt F (cfg5.win w).elt :=
  (cfg5.win w).fill (cfg5.grid.coords t) (fun _ => Classical.arbitrary _) (iblk5 V c w t)

/-- The proof data of region 5 on core `c`: the arrays as the region finds them; after the body each input's buffer
    at its block and the output's at the body's function of the input buffers; the scoped rest and the generator
    register as the invariant; nothing owed; full shares. -/
def dat5 (c : Dev nD) : Dat τ (Elt F) Unit ℕ (UR sig nD τ × UR sig nD τ) ℕ cfg5 c where
  A w := V c (Pipeline.arrRef spec5 w)
  after w t := match w with
    | ⟨0, _⟩ => fblk5 V c 0 t
    | ⟨1, _⟩ => fblk5 V c 1 t
    | ⟨2, _⟩ => fblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5 (fblk5 V c 0 t) (fblk5 V c 1 t) (fblk5 V c 2 t) (iblk5 V c 3 t) (iblk5 V c 4 t) (iblk5 V c 5 t) (iblk5 V c 6 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = fblk5 V c 0 t := by dsimp only [dat5]
theorem after5_1 (c : Dev nD) (t : Fin cfg5.N) : (dat5 V c).after 1 t = fblk5 V c 1 t := by dsimp only [dat5]
theorem after5_2 (c : Dev nD) (t : Fin cfg5.N) : (dat5 V c).after 2 t = fblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) :
    (dat5 V c).after 8 t = out5 (fblk5 V c 0 t) (fblk5 V c 1 t) (fblk5 V c 2 t) (iblk5 V c 3 t) (iblk5 V c 4 t) (iblk5 V c 5 t) (iblk5 V c 6 t) (iblk5 V c 7 t) := by dsimp only [dat5]

end Cert.KernelIdeal.Gen

end
-- ==== Proof.KI.Body5.lean ====
import proofs.«178696_j1468878815658_2_alg».proof.Proof.KI.Outs
import proofs.«178696_j1468878815658_2_alg».proof.Proof.Gen.KernelIdeal.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 5 on whole staging memrefs: from its input buffers at any contents and its output buffer at
    anything, it runs to the end without a fault, leaves the inputs as they were and the output at the region's
    function of the inputs. -/
theorem sound_kernel5 (c : Dev nD) (E : Set ℕ) (i : grid5.Coords)
    (arg1 : Memref sig .tc .vmem S4096x64 .bf16) (harg1 : arg1.IsWhole) (arg2 : Memref sig .tc .vmem S4096x64 .f32) (harg2 : arg2.IsWhole) (arg3 : Memref sig .tc .vmem S4096x1 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S4096x64 .bf16) (harg9 : arg9.IsWhole)
    (h : Vec F S4096x64 .bf16) (ms : Vec F S4096x64 .f32) (cnt : Vec F S4096x1 .f32) (wh : Vec F S64x64 .f32) (wm : Vec F S64x64 .f32) (b : Vec F S1x64 .f32) (g : Vec F S1x64 .f32) (β : Vec F S1x64 .f32) (K : PUnit → sProp 𝕄) :
    iprop(owns (c : Thread nD τ) arg1 fullShare h ∗ owns (c : Thread nD τ) arg2 fullShare ms ∗ owns (c : Thread nD τ) arg3 fullShare cnt ∗ owns (c : Thread nD τ) arg4 fullShare wh ∗ owns (c : Thread nD τ) arg5 fullShare wm ∗ owns (c : Thread nD τ) arg6 fullShare b ∗ owns (c : Thread nD τ) arg7 fullShare g ∗ owns (c : Thread nD τ) arg8 fullShare β ∗ (∃ d, owns (c : Thread nD τ) arg9 fullShare d)
        ∗ (iprop(owns (c : Thread nD τ) arg1 fullShare h ∗ owns (c : Thread nD τ) arg2 fullShare ms ∗ owns (c : Thread nD τ) arg3 fullShare cnt ∗ owns (c : Thread nD τ) arg4 fullShare wh ∗ owns (c : Thread nD τ) arg5 fullShare wm ∗ owns (c : Thread nD τ) arg6 fullShare b ∗ owns (c : Thread nD τ) arg7 fullShare g ∗ owns (c : Thread nD τ) arg8 fullShare β ∗ owns (c : Thread nD τ) arg9 fullShare (out5 h ms cnt wh wm b g β)) -∗ K ⟨⟩))
      ⊢ wp frame (wpE (defs₀ (F := F)) Variants.none c none) E (cc5__upd_kernel i arg1 harg1 arg2 harg2 arg3 harg3 arg4 harg4 arg5 harg5 arg6 harg6 arg7 harg7 arg8 harg8 arg9 harg9) K := by
  -- every access is at offsets zero with the buffer's own sizes
  have hz : (![0, 0] : Fin 2 → Nat) = fun _ => 0 := funext fun a => by fin_cases a <;> rfl
  simp only [cc5__upd_kernel_eq_skeleton]; unfold cc5__upd_kernel_skel
  -- open each buffer's ownership to its raw contents; an input's read contents are then a function of those
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  -- run the loads and the one store
  sl_exec
  sl_step
  -- the inputs are held as they were
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  -- the output buffer holds one whole unmasked store over its prior contents
  iexists _; isplitr
  swap; · iexact H9
  ipureintro
  -- the store's rectangle is the whole buffer, so it covers every index and what is read back is its payload
  refine (View.read_writes_eq_canon _ _ _ fun y => ?_).trans ?_
  · exact ⟨_, List.mem_singleton_self _, View.mem_set_unit_zero hz (fun a => by rw [hz]; exact (Nat.zero_add _).le) y⟩
  rw [View.canon_unit_zero hz]
  -- the payload is the region's function once every loaded value is identified with its buffer's contents:
  -- a load through the whole rectangle at offsets zero reads the contents themselves
  unfold out5
  sl_unfold_run_names
  simp only [View.readAt_eq_ld]
  repeat rw [View.ld_unit_zero hz]

end Cert.KernelIdeal.Gen

end
-- ==== Proof.KI.Obl5.lean ====
import proofs.«178696_j1468878815658_2_alg».proof.Proof.KI.Dat5
import proofs.«178696_j1468878815658_2_alg».proof.Proof.KI.Body5

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut5 : Fin cfg5.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => true | ⟨_ + 9, h⟩ => absurd h (Nat.not_lt.2 (Nat.le_add_left _ _))

theorem before5_0 (c : Dev nD) (t : Fin cfg5.N) (d) :
    (dat5 V c).before 0 t d = (cfg5.win 0).fill (cfg5.grid.coords t) d (iblk5 V c 0 t) := by
  rw [(dat5 V c).before_fetched 0 t (fetch5_0 t) d]; unfold Dat.fetched Dat.blockOf iblk5; rw [A_eq5]
theorem before5_1 (c : Dev nD) (t : Fin cfg5.N) (d) :
    (dat5 V c).before 1 t d = (cfg5.win 1).fill (cfg5.grid.coords t) d (iblk5 V c 1 t) := by
  rw [(dat5 V c).before_fetched 1 t (fetch5_1 t) d]; unfold Dat.fetched Dat.blockOf iblk5; rw [A_eq5]
theorem before5_2 (c : Dev nD) (t : Fin cfg5.N) (d) :
    (dat5 V c).before 2 t d = (cfg5.win 2).fill (cfg5.grid.coords t) d (iblk5 V c 2 t) := by
  rw [(dat5 V c).before_fetched 2 t (fetch5_2 t) d]; unfold Dat.fetched Dat.blockOf iblk5; rw [A_eq5]
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)
theorem before5_5 (c : Dev nD) (t : Fin cfg5.N) (d) : (dat5 V c).before 5 t d = iblk5 V c 5 t :=
  ((dat5 V c).before_in_eq_fetched 5 rfl (fun _ => rfl) (fun _ _ _ => rfl)
    (fun t => by rw [after5_5]; unfold Dat.blockOf iblk5; rw [A_eq5]; try rfl) t d).trans
    (by unfold Dat.fetched Dat.blockOf iblk5; rw [A_eq5]; try rfl)
theorem before5_6 (c : Dev nD) (t : Fin cfg5.N) (d) : (dat5 V c).before 6 t d = iblk5 V c 6 t :=
  ((dat5 V c).before_in_eq_fetched 6 rfl (fun _ => rfl) (fun _ _ _ => rfl)
    (fun t => by rw [after5_6]; unfold Dat.blockOf iblk5; rw [A_eq5]; try rfl) t d).trans
    (by unfold Dat.fetched Dat.blockOf iblk5; rw [A_eq5]; try rfl)
theorem before5_7 (c : Dev nD) (t : Fin cfg5.N) (d) : (dat5 V c).before 7 t d = iblk5 V c 7 t :=
  ((dat5 V c).before_in_eq_fetched 7 rfl (fun _ => rfl) (fun _ _ _ => rfl)
    (fun t => by rw [after5_7]; unfold Dat.blockOf iblk5; rw [A_eq5]; try rfl) t d).trans
    (by unfold Dat.fetched Dat.blockOf iblk5; rw [A_eq5]; try rfl)

/-- The body obligation of region 5 at any point, the output window forgotten: the inputs' buffers hold their blocks
    (a row-tiled one filled out past the array's end with whatever the fetch left), so the body's triple applies; it
    leaves them as they were — on the rows inside the array, their blocks — and the output at contents not named. -/
theorem body_obligation5_fgt (c : Dev nD) :
    BodyObligationLoose (dat5 V c) (defs₀ (F := F)) Variants.none () Set.univ fgtOut5 := fun t => by
  rw [bigSep_W5, bigSep_W5]
  simp only [fgtOut5]
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%X, HX⟩⟩
  rw [before5_0 V c t d0, before5_1 V c t d1, before5_2 V c t d2, before5_3 V c t d3, before5_4 V c t d4, before5_5 V c t d5, before5_6 V c t d6, before5_7 V c t d7]
  iapply (sound_kernel5 (F := F) c Set.univ (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) (win5_7.stage (cfg5.slots t 7)) (hstage5_7 ((cfg5.slots t 7).cast nbuf5_7)) (win5_8.stage (cfg5.slots t 8)) (hstage5_8 ((cfg5.slots t 8).cast nbuf5_8)) ((cfg5.win 0).fill (cfg5.grid.coords t) d0 (iblk5 V c 0 t)) ((cfg5.win 1).fill (cfg5.grid.coords t) d1 (iblk5 V c 1 t)) ((cfg5.win 2).fill (cfg5.grid.coords t) d2 (iblk5 V c 2 t)) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexists X; iexact HX
  iintro ⟨H0, H1, H2, H3, H4, H5, H6, H7, HX⟩
  isplitl [HΦ]; · iexact HΦ
  isplitl [Ho]; · iexact Ho
  isplitl [H0]
  · iexists d0
    rw [after5_0]; unfold fblk5; rw [(cfg5.win 0).cut_fill]; iexact H0
  isplitl [H1]
  · iexists d1
    rw [after5_1]; unfold fblk5; rw [(cfg5.win 1).cut_fill]; iexact H1
  isplitl [H2]
  · iexists d2
    rw [after5_2]; unfold fblk5; rw [(cfg5.win 2).cut_fill]; iexact H2
  isplitl [H3]
  · rw [after5_3]; iexact H3
  isplitl [H4]
  · rw [after5_4]; iexact H4
  isplitl [H5]
  · rw [after5_5]; iexact H5
  isplitl [H6]
  · rw [after5_6]; iexact H6
  isplitl [H7]
  · rw [after5_7]; iexact H7
  iexists _; iexact HX

end Cert.KernelIdeal.Gen

end
-- ==== Proof.KI.Reg5.lean ====
import proofs.«178696_j1468878815658_2_alg».proof.Proof.KI.Alg
import proofs.«178696_j1468878815658_2_alg».proof.Proof.KI.Obl5
import proofs.«178696_j1468878815658_2_alg».proof.Proof.Gen.KernelIdeal.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 5's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 5 is entered
variable (fgt : Fin cfg5.W → Bool)                        -- the windows whose contents after the body are left unnamed

/-- Region 5's relational proof data at the entry contents `W`. -/
def rdat5 (c : Dev nD) : Pipeline.RDat τ (Elt F) Unit ℕ UU ℕ cfg5 c := (dat5 (VW W) c).toRForget fgt

/-- The family of relational proof data with region 5's at its index. -/
abbrev rfam5 : (q : Fin 7) → (c : Dev nD) → Pipeline.RDat τ (Elt F) Unit ℕ UU ℕ (Pipeline.pin (pcfgs (F := F)) adm q) c :=
  Pipeline.RDat.familyOf (pcfgs (F := F)) adm (5 : Fin 7) (rdat5 W fgt)

/-- At its own index the family is region 5's data. -/
theorem rfam5_self (c : Dev nD) : rfam5 W fgt (5 : Fin 7) c = rdat5 W fgt c :=
  Pipeline.RDat.familyOf_self (pcfgs (F := F)) adm (5 : Fin 7) (rdat5 W fgt) c

/-- The data hold every array at the full share. -/
theorem rdat5_share (c : Dev nD) (w : Fin cfg5.W) : (rdat5 W fgt c).share w = fullShare :=
  (rdat5 W fgt c).share_full (fun _ => rfl) w

/-- The arrays after every write-back, opened: each whole at the full share at SOME contents it may then hold. -/
theorem arraysAt_open5 (c : Dev nD) :
    ((rdat5 W fgt c).arraysAt cfg5.N : sProp 𝕄)
      ⊢ iprop(∃ A : (w : Fin cfg5.W) → Buf (Elt F) ((cfg5.win w).arr.view.loc (c : Thread nD τ)),
          ⌜∀ w, (rdat5 W fgt c).ArrAt w cfg5.N (A w)⌝ ∗ Pipeline.arrPts spec5 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat5 W fgt c).ArrAt w cfg5.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg5.win w).arr.view.loc (c : Thread nD τ)
        ↦[(cfg5.win w).arr.view.set]{(rdat5 W fgt c).share w} A w : sProp 𝕄)) = Pipeline.arrPts spec5 c A := by
    unfold Pipeline.arrPts
    exact bigSep_congr fun w _ => by
      have hw : (cfg5.win w).arr.IsWhole := launch5.arr_whole w
      rw [hw.set_eq_univ, rdat5_share W fgt c w]
  rw [← hpts]
  iexact H

/-- The arrays at contents `A` beside every other unscoped buffer at `W` are the unscoped buffers held at `W` updated at
    the arrays by `A`. -/
theorem held_withArrays5 (c : Dev nD) (A : (w : Fin cfg5.W) → Buf (Elt F) ((cfg5.win w).arr.view.loc (c : Thread nD τ))) :
    iprop(Pipeline.arrPts spec5 c A ∗ Pipeline.unscopedRest (Ix := Unit) (Name := ℕ) (U := UU) (Lvl := ℕ) spec5 c (fun b => W b))
      ⊢ (Held c (Pipeline.withArrays spec5 c W A) : sProp 𝕄) := by
  unfold Held
  rw [← Pipeline.unscopedBufs_held, Pipeline.unscopedBufs_split cfgs (5 : Fin 7) launch5.win.arr_unscoped launch5.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec5 w)) ↦{fullShare} f : sProp 𝕄))
      (Pipeline.withArrays_arr spec5 launch5.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec5 c W A b fun w e =>
        (Finset.mem_sdiff.mp hb).2 (Finset.mem_image.mpr ⟨w, Finset.mem_univ _, e⟩)).symm

set_option backward.isDefEq.respectTransparency.types false in
/-- Region 5 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg5 (hbody : ∀ c, BodyObligationLoose (dat5 (VW W) c) (defs₀ (F := F)) Variants.none () Set.univ fgt) :
    Pipeline.RDat.RegionSeg (pcfgs (F := F)) adm (rfam5 W fgt) () defs₀ Variants.none Lr lvr (5 : Fin 7) where
  win := launch5.win.to₀
  block_pos := launch5.block_pos
  stage_whole := launch5.stage_whole
  K := PEmpty
  osem k := k.elim
  ho := Pipeline.OwnSemFacts.none _
  hbody c := by
    rw [rfam5_self]
    exact (hbody c).toRForget
  hwaits := Pipeline.RDat.hwaits_of_owed_zero _ _ _ _ Lr lvr (5 : Fin 7) fun c t => by
    rw [rfam5_self]; rfl
  pre c := iprop(Held c W ∗ Pr c ∗ Ow c)
  post c := iprop(∃ A : (w : Fin cfg5.W) → Buf (Elt F) ((cfg5.win w).arr.view.loc (c : Thread nD τ)),
    ⌜∀ w, (rdat5 W fgt c).ArrAt w cfg5.N (A w)⌝ ∗ Held c (Pipeline.withArrays spec5 c W A) ∗ Pr c ∗ Ow c)
  X c := Pr c
  Y c := Pr c
  Z c := Pipeline.unscopedRest (Ix := Unit) (Name := ℕ) (U := UU) (Lvl := ℕ) spec5 c (fun b => W b)
  hentry c := by
    -- the arrays at their entry contents, split out of the held buffers
    have hsplit : (Held c W : sProp 𝕄)
        ⊢ iprop((rfam5 W fgt (5 : Fin 7) c).arrays (rfam5 W fgt (5 : Fin 7) c).A
            ∗ Pipeline.unscopedRest (Ix := Unit) (Name := ℕ) (U := UU) (Lvl := ℕ) spec5 c (fun b => W b)) := by
      unfold Held
      rw [← Pipeline.unscopedBufs_held]
      exact Pipeline.RDat.arrays_of_unscopedBufs (p := (5 : Fin 7)) (pcfgs (F := F)) adm (rfam5 W fgt) launch5.win launch5.arr_whole c
        (fun w => by rw [rfam5_self]; exact rdat5_share W fgt c w) (fun b => W b) (fun w => by rw [rfam5_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam5_self]
      icases Howes with ⟨%S, Howes⟩
      iexists S
      isplitr
      · ipureintro; exact fun x _ => Or.inl (Set.mem_univ x)
      iexact Howes
    isplitl [Hprng]; · iexact Hprng
    iexact Hrest
  hin c := by
    rw [rfam5_self]
    show _ ⊢ (Pipeline.ΦA spec5 c : sProp 𝕄)
    unfold Pipeline.ΦA
    iintro ⟨Hprng, -, Hscoped⟩
    isplitl [Hscoped]; · iexact Hscoped
    iexact Hprng
  hout c := by
    rw [rfam5_self, Pipeline.ownSems0_none]
    show (Pipeline.ΦA spec5 c : sProp 𝕄) ⊢ _
    unfold Pipeline.ΦA
    iintro ⟨Hscoped, Hprng⟩
    isplitl [Hprng]; · iexact Hprng
    isplitr; · iempintro
    iexact Hscoped
  hexit c := by
    rw [rfam5_self]
    iintro ⟨Harr, Howes, Hprng, Hrest⟩
    imodintro
    ihave Hopen := (arraysAt_open5 W fgt c) $$ Harr
    icases Hopen with ⟨%A, %hA, Hpts⟩
    iexists A
    isplitr; · ipureintro; exact hA
    isplitl [Hpts Hrest]
    · iapply (held_withArrays5 W c A)
      isplitl [Hpts]; · iexact Hpts
      iexact Hrest
    isplitl [Hprng]; · iexact Hprng
    icases Howes with ⟨%S, -, Howes⟩
    iexists S; iexact Howes

/-- REGION 5's STEP, continuation-passing: from the boundary, every unscoped buffer held at `W`, the generator register,
    the core owing nothing, the level facts and pipeline 5's ghost state, the region's call runs; the continuation is
    entered at the boundary with the buffers held at `W` UPDATED at the region's arrays by SOME contents `A` the arrays
    may hold after every write-back (the inputs' as entered; an unnamed output's anything). -/
theorem region5_wp
    (hbody : ∀ c, BodyObligationLoose (dat5 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg5.W) → Buf (Elt F) ((cfg5.win w).arr.view.loc (c : Thread nD τ)),
            iprop(⌜∀ w, (rdat5 W fgt c).ArrAt w cfg5.N (A w)⌝ ∗ boundary (c : Thread nD τ)
                ∗ Held c (Pipeline.withArrays spec5 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 5 c)
      ⊢ wp frame (wpE (defs (F := F)) (Variants.lift Variants.none) (c : Thread nD τ) none) Set.univ
          (.op (.customCall (Pipeline.entry 5) ()) k) Q := by
  iintro ⟨Hk, Hbd, Hheld, Hprng, Howes, Hlev, Hghost, Htoks⟩
  -- the region's rule between its two thread states, on this core
  have hwp := (regSeg5 W fgt hbody).wp (pcfgs (F := F)) adm (rfam5 W fgt) () cellOf_inj EPg defs₀ Variants.none Lr lvr c none
    (fun u h => nomatch h) k Q
  dsimp only [regSeg5] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.KernelIdeal.Gen

end
-- ==== Proof.KI.Dat6.lean ====
import proofs.«178696_j1468878815658_2_alg».proof.Proof.KI.Outs
import proofs.«178696_j1468878815658_2_alg».proof.Proof.Gen.KernelIdeal.Launch
import proofs.«178696_j1468878815658_2_alg».proof.Proof.Gen.KernelIdeal.Points
import Idealize.ShloMosaic.Lib.Pipeline.Kit
import Idealize.ShloMosaic.Lib.Pipeline.FrameBody
import Idealize.ShloMosaic.Lib.Pipeline.Frame

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

-- the buffers' contents when the region is entered: a parameter, chosen only when the region is reached
variable (V : (c : Dev nD) → (b : Ref sig .tc) → Buf (Elt F) ((c : Thread nD τ).loc b))

/-! # Region 6: the proof data, at the entry contents `V`

  Every row-tiled window's last block overhangs its array: the fetch fills the block's rows inside the array and
  leaves the rest of the staging buffer at words nothing names. The data names each window's buffer after the body
  with that rest filled out by an arbitrary word: only the rows inside the array are ever stated or written back. -/

/-- Window `w`'s block at point `t`, its part inside the array, read off the array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The same filled out to the whole staging buffer with a word of no account. -/
def fblk6 (c : Dev nD) (w : Fin cfg6.W) (t : Fin cfg6.N) : (cfg6.win w).block.Idx → Elt F (cfg6.win w).elt :=
  (cfg6.win w).fill (cfg6.grid.coords t) (fun _ => Classical.arbitrary _) (iblk6 V c w t)

/-- The proof data of region 6 on core `c`: the arrays as the region finds them; after the body each input's buffer
    at its block and the output's at the body's function of the input buffers; the scoped rest and the generator
    register as the invariant; nothing owed; full shares. -/
def dat6 (c : Dev nD) : Dat τ (Elt F) Unit ℕ (UR sig nD τ × UR sig nD τ) ℕ cfg6 c where
  A w := V c (Pipeline.arrRef spec6 w)
  after w t := match w with
    | ⟨0, _⟩ => fblk6 V c 0 t
    | ⟨1, _⟩ => fblk6 V c 1 t
    | ⟨2, _⟩ => fblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => out6 (fblk6 V c 0 t) (fblk6 V c 1 t) (fblk6 V c 2 t) (iblk6 V c 3 t) (iblk6 V c 4 t) (iblk6 V c 5 t) (iblk6 V c 6 t) (iblk6 V c 7 t) (iblk6 V c 8 t) (iblk6 V c 9 t) (iblk6 V c 10 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = fblk6 V c 0 t := by dsimp only [dat6]
theorem after6_1 (c : Dev nD) (t : Fin cfg6.N) : (dat6 V c).after 1 t = fblk6 V c 1 t := by dsimp only [dat6]
theorem after6_2 (c : Dev nD) (t : Fin cfg6.N) : (dat6 V c).after 2 t = fblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) :
    (dat6 V c).after 11 t = out6 (fblk6 V c 0 t) (fblk6 V c 1 t) (fblk6 V c 2 t) (iblk6 V c 3 t) (iblk6 V c 4 t) (iblk6 V c 5 t) (iblk6 V c 6 t) (iblk6 V c 7 t) (iblk6 V c 8 t) (iblk6 V c 9 t) (iblk6 V c 10 t) := by dsimp only [dat6]

end Cert.KernelIdeal.Gen

end
-- ==== Proof.KI.Body6.lean ====
import proofs.«178696_j1468878815658_2_alg».proof.Proof.KI.Outs
import proofs.«178696_j1468878815658_2_alg».proof.Proof.Gen.KernelIdeal.Launch
import Idealize.ShloMosaic.Lib.Pipeline.Kit
import Idealize.ShloMosaic.Lib.Pipeline.FrameBody
import Idealize.ShloMosaic.Lib.Tactic
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

set_option maxHeartbeats 1000000 in
/-- The body of region 6 on whole staging memrefs: from its input buffers at any contents and its output buffer at
    anything, it runs to the end without a fault, leaves the inputs as they were and the output at the region's
    function of the inputs. -/
theorem sound_kernel6 (c : Dev nD) (E : Set ℕ) (i : grid6.Coords)
    (arg1 : Memref sig .tc .vmem S4096x64 .bf16) (harg1 : arg1.IsWhole) (arg2 : Memref sig .tc .vmem S4096x64 .bf16) (harg2 : arg2.IsWhole) (arg3 : Memref sig .tc .vmem S4096x5 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S5x64 .f32) (harg6 : arg6.IsWhole) (arg7 : Memref sig .tc .vmem S1x64 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x1 .f32) (harg10 : arg10.IsWhole) (arg11 : Memref sig .tc .vmem S1x1 .f32) (harg11 : arg11.IsWhole) (arg12 : Memref sig .tc .vmem S4096x1 .f32) (harg12 : arg12.IsWhole)
    (hs : Vec F S4096x64 .bf16) (ht : Vec F S4096x64 .bf16) (ea : Vec F S4096x5 .f32) (w1s : Vec F S64x64 .f32) (w1t : Vec F S64x64 .f32) (w1e : Vec F S5x64 .f32) (b1 : Vec F S1x64 .f32) (w2 : Vec F S64x32 .f32) (b2 : Vec F S1x32 .f32) (w3 : Vec F S32x1 .f32) (b3 : Vec F S1x1 .f32) (K : PUnit → sProp 𝕄) :
    iprop(owns (c : Thread nD τ) arg1 fullShare hs ∗ owns (c : Thread nD τ) arg2 fullShare ht ∗ owns (c : Thread nD τ) arg3 fullShare ea ∗ owns (c : Thread nD τ) arg4 fullShare w1s ∗ owns (c : Thread nD τ) arg5 fullShare w1t ∗ owns (c : Thread nD τ) arg6 fullShare w1e ∗ owns (c : Thread nD τ) arg7 fullShare b1 ∗ owns (c : Thread nD τ) arg8 fullShare w2 ∗ owns (c : Thread nD τ) arg9 fullShare b2 ∗ owns (c : Thread nD τ) arg10 fullShare w3 ∗ owns (c : Thread nD τ) arg11 fullShare b3 ∗ (∃ d, owns (c : Thread nD τ) arg12 fullShare d)
        ∗ (iprop(owns (c : Thread nD τ) arg1 fullShare hs ∗ owns (c : Thread nD τ) arg2 fullShare ht ∗ owns (c : Thread nD τ) arg3 fullShare ea ∗ owns (c : Thread nD τ) arg4 fullShare w1s ∗ owns (c : Thread nD τ) arg5 fullShare w1t ∗ owns (c : Thread nD τ) arg6 fullShare w1e ∗ owns (c : Thread nD τ) arg7 fullShare b1 ∗ owns (c : Thread nD τ) arg8 fullShare w2 ∗ owns (c : Thread nD τ) arg9 fullShare b2 ∗ owns (c : Thread nD τ) arg10 fullShare w3 ∗ owns (c : Thread nD τ) arg11 fullShare b3 ∗ owns (c : Thread nD τ) arg12 fullShare (out6 hs ht ea w1s w1t w1e b1 w2 b2 w3 b3)) -∗ K ⟨⟩))
      ⊢ wp frame (wpE (defs₀ (F := F)) Variants.none c none) E (cc6__pred_kernel i arg1 harg1 arg2 harg2 arg3 harg3 arg4 harg4 arg5 harg5 arg6 harg6 arg7 harg7 arg8 harg8 arg9 harg9 arg10 harg10 arg11 harg11 arg12 harg12) K := by
  -- every access is at offsets zero with the buffer's own sizes
  have hz : (![0, 0] : Fin 2 → Nat) = fun _ => 0 := funext fun a => by fin_cases a <;> rfl
  simp only [cc6__pred_kernel_eq_skeleton]; unfold cc6__pred_kernel_skel
  -- open each buffer's ownership to its raw contents; an input's read contents are then a function of those
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1 hf2 hf3 hf4 hf5 hf6 hf7 hf8 hf9 hf10 hf11
  -- run the loads and the one store
  sl_exec
  sl_step
  -- the inputs are held as they were
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  -- the output buffer holds one whole unmasked store over its prior contents
  iexists _; isplitr
  swap; · iexact H12
  ipureintro
  -- the store's rectangle is the whole buffer, so it covers every index and what is read back is its payload
  refine (View.read_writes_eq_canon _ _ _ fun y => ?_).trans ?_
  · exact ⟨_, List.mem_singleton_self _, View.mem_set_unit_zero hz (fun a => by rw [hz]; exact (Nat.zero_add _).le) y⟩
  rw [View.canon_unit_zero hz]
  -- the payload is the region's function once every loaded value is identified with its buffer's contents:
  -- a load through the whole rectangle at offsets zero reads the contents themselves
  unfold out6
  sl_unfold_run_names
  simp only [View.readAt_eq_ld]
  repeat rw [View.ld_unit_zero hz]

end Cert.KernelIdeal.Gen

end
-- ==== Proof.KI.Obl6.lean ====
import proofs.«178696_j1468878815658_2_alg».proof.Proof.KI.Dat6
import proofs.«178696_j1468878815658_2_alg».proof.Proof.KI.Body6

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ × UR sig nD τ) ℕ

variable (V : (c : Dev nD) → (b : Ref sig .tc) → Buf (Elt F) ((c : Thread nD τ).loc b))

/-! ## What the body finds, and the body obligation with the output's contents left unnamed -/

/-- The windows whose contents after the body nothing here names: the output. -/
def fgtOut6 : Fin cfg6.W → Bool := fun | ⟨0, _⟩ => false | ⟨1, _⟩ => false | ⟨2, _⟩ => false | ⟨3, _⟩ => false | ⟨4, _⟩ => false | ⟨5, _⟩ => false | ⟨6, _⟩ => false | ⟨7, _⟩ => false | ⟨8, _⟩ => false | ⟨9, _⟩ => false | ⟨10, _⟩ => false | ⟨11, _⟩ => true | ⟨_ + 12, h⟩ => absurd h (Nat.not_lt.2 (Nat.le_add_left _ _))

theorem before6_0 (c : Dev nD) (t : Fin cfg6.N) (d) :
    (dat6 V c).before 0 t d = (cfg6.win 0).fill (cfg6.grid.coords t) d (iblk6 V c 0 t) := by
  rw [(dat6 V c).before_fetched 0 t (fetch6_0 t) d]; unfold Dat.fetched Dat.blockOf iblk6; rw [A_eq6]
theorem before6_1 (c : Dev nD) (t : Fin cfg6.N) (d) :
    (dat6 V c).before 1 t d = (cfg6.win 1).fill (cfg6.grid.coords t) d (iblk6 V c 1 t) := by
  rw [(dat6 V c).before_fetched 1 t (fetch6_1 t) d]; unfold Dat.fetched Dat.blockOf iblk6; rw [A_eq6]
theorem before6_2 (c : Dev nD) (t : Fin cfg6.N) (d) :
    (dat6 V c).before 2 t d = (cfg6.win 2).fill (cfg6.grid.coords t) d (iblk6 V c 2 t) := by
  rw [(dat6 V c).before_fetched 2 t (fetch6_2 t) d]; unfold Dat.fetched Dat.blockOf iblk6; rw [A_eq6]
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)
theorem before6_5 (c : Dev nD) (t : Fin cfg6.N) (d) : (dat6 V c).before 5 t d = iblk6 V c 5 t :=
  ((dat6 V c).before_in_eq_fetched 5 rfl (fun _ => rfl) (fun _ _ _ => rfl)
    (fun t => by rw [after6_5]; unfold Dat.blockOf iblk6; rw [A_eq6]; try rfl) t d).trans
    (by unfold Dat.fetched Dat.blockOf iblk6; rw [A_eq6]; try rfl)
theorem before6_6 (c : Dev nD) (t : Fin cfg6.N) (d) : (dat6 V c).before 6 t d = iblk6 V c 6 t :=
  ((dat6 V c).before_in_eq_fetched 6 rfl (fun _ => rfl) (fun _ _ _ => rfl)
    (fun t => by rw [after6_6]; unfold Dat.blockOf iblk6; rw [A_eq6]; try rfl) t d).trans
    (by unfold Dat.fetched Dat.blockOf iblk6; rw [A_eq6]; try rfl)
theorem before6_7 (c : Dev nD) (t : Fin cfg6.N) (d) : (dat6 V c).before 7 t d = iblk6 V c 7 t :=
  ((dat6 V c).before_in_eq_fetched 7 rfl (fun _ => rfl) (fun _ _ _ => rfl)
    (fun t => by rw [after6_7]; unfold Dat.blockOf iblk6; rw [A_eq6]; try rfl) t d).trans
    (by unfold Dat.fetched Dat.blockOf iblk6; rw [A_eq6]; try rfl)
theorem before6_8 (c : Dev nD) (t : Fin cfg6.N) (d) : (dat6 V c).before 8 t d = iblk6 V c 8 t :=
  ((dat6 V c).before_in_eq_fetched 8 rfl (fun _ => rfl) (fun _ _ _ => rfl)
    (fun t => by rw [after6_8]; unfold Dat.blockOf iblk6; rw [A_eq6]; try rfl) t d).trans
    (by unfold Dat.fetched Dat.blockOf iblk6; rw [A_eq6]; try rfl)
theorem before6_9 (c : Dev nD) (t : Fin cfg6.N) (d) : (dat6 V c).before 9 t d = iblk6 V c 9 t :=
  ((dat6 V c).before_in_eq_fetched 9 rfl (fun _ => rfl) (fun _ _ _ => rfl)
    (fun t => by rw [after6_9]; unfold Dat.blockOf iblk6; rw [A_eq6]; try rfl) t d).trans
    (by unfold Dat.fetched Dat.blockOf iblk6; rw [A_eq6]; try rfl)
theorem before6_10 (c : Dev nD) (t : Fin cfg6.N) (d) : (dat6 V c).before 10 t d = iblk6 V c 10 t :=
  ((dat6 V c).before_in_eq_fetched 10 rfl (fun _ => rfl) (fun _ _ _ => rfl)
    (fun t => by rw [after6_10]; unfold Dat.blockOf iblk6; rw [A_eq6]; try rfl) t d).trans
    (by unfold Dat.fetched Dat.blockOf iblk6; rw [A_eq6]; try rfl)

/-- The body obligation of region 6 at any point, the output window forgotten: the inputs' buffers hold their blocks
    (a row-tiled one filled out past the array's end with whatever the fetch left), so the body's triple applies; it
    leaves them as they were — on the rows inside the array, their blocks — and the output at contents not named. -/
theorem body_obligation6_fgt (c : Dev nD) :
    BodyObligationLoose (dat6 V c) (defs₀ (F := F)) Variants.none () Set.univ fgtOut6 := fun t => by
  rw [bigSep_W6, bigSep_W6]
  simp only [fgtOut6]
  rw [show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%X, HX⟩⟩
  rw [before6_0 V c t d0, before6_1 V c t d1, before6_2 V c t d2, before6_3 V c t d3, before6_4 V c t d4, before6_5 V c t d5, before6_6 V c t d6, before6_7 V c t d7, before6_8 V c t d8, before6_9 V c t d9, before6_10 V c t d10]
  iapply (sound_kernel6 (F := F) c Set.univ (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (win6_4.stage (cfg6.slots t 4)) (hstage6_4 ((cfg6.slots t 4).cast nbuf6_4)) (win6_5.stage (cfg6.slots t 5)) (hstage6_5 ((cfg6.slots t 5).cast nbuf6_5)) (win6_6.stage (cfg6.slots t 6)) (hstage6_6 ((cfg6.slots t 6).cast nbuf6_6)) (win6_7.stage (cfg6.slots t 7)) (hstage6_7 ((cfg6.slots t 7).cast nbuf6_7)) (win6_8.stage (cfg6.slots t 8)) (hstage6_8 ((cfg6.slots t 8).cast nbuf6_8)) (win6_9.stage (cfg6.slots t 9)) (hstage6_9 ((cfg6.slots t 9).cast nbuf6_9)) (win6_10.stage (cfg6.slots t 10)) (hstage6_10 ((cfg6.slots t 10).cast nbuf6_10)) (win6_11.stage (cfg6.slots t 11)) (hstage6_11 ((cfg6.slots t 11).cast nbuf6_11)) ((cfg6.win 0).fill (cfg6.grid.coords t) d0 (iblk6 V c 0 t)) ((cfg6.win 1).fill (cfg6.grid.coords t) d1 (iblk6 V c 1 t)) ((cfg6.win 2).fill (cfg6.grid.coords t) d2 (iblk6 V c 2 t)) (iblk6 V c 3 t) (iblk6 V c 4 t) (iblk6 V c 5 t) (iblk6 V c 6 t) (iblk6 V c 7 t) (iblk6 V c 8 t) (iblk6 V c 9 t) (iblk6 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HX]; · iexists X; iexact HX
  iintro ⟨H0, H1, H2, H3, H4, H5, H6, H7, H8, H9, H10, HX⟩
  isplitl [HΦ]; · iexact HΦ
  isplitl [Ho]; · iexact Ho
  isplitl [H0]
  · iexists d0
    rw [after6_0]; unfold fblk6; rw [(cfg6.win 0).cut_fill]; iexact H0
  isplitl [H1]
  · iexists d1
    rw [after6_1]; unfold fblk6; rw [(cfg6.win 1).cut_fill]; iexact H1
  isplitl [H2]
  · iexists d2
    rw [after6_2]; unfold fblk6; rw [(cfg6.win 2).cut_fill]; iexact H2
  isplitl [H3]
  · rw [after6_3]; iexact H3
  isplitl [H4]
  · rw [after6_4]; iexact H4
  isplitl [H5]
  · rw [after6_5]; iexact H5
  isplitl [H6]
  · rw [after6_6]; iexact H6
  isplitl [H7]
  · rw [after6_7]; iexact H7
  isplitl [H8]
  · rw [after6_8]; iexact H8
  isplitl [H9]
  · rw [after6_9]; iexact H9
  isplitl [H10]
  · rw [after6_10]; iexact H10
  iexists _; iexact HX

end Cert.KernelIdeal.Gen

end
-- ==== Proof.KI.Reg6.lean ====
import proofs.«178696_j1468878815658_2_alg».proof.Proof.KI.Alg
import proofs.«178696_j1468878815658_2_alg».proof.Proof.KI.Obl6
import proofs.«178696_j1468878815658_2_alg».proof.Proof.Gen.KernelIdeal.Launch
import Idealize.ShloMosaic.Lib.Pipeline.Regions
import Idealize.ShloMosaic.Lib.Pipeline.FrameSuffix
import Idealize.ShloMosaic.Lib.Pipeline.Frame
import Idealize.ShloMosaic.Lib.Pipeline.Kit

/-!
  Region 6's step of the account of @main, at the level of weakest preconditions. The buffers' contents when the region
  is entered are a valuation `W` known only then; the region's proof data are the exact data at `W` read relationally,
  some windows' contents after the body left unnamed. The region is a segment between two thread states: it is entered
  from every unscoped buffer held at `W` and left with them held at `W` updated, at the region's arrays, by SOME contents
  the arrays may hold after every write-back.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

section Record

variable (W : Valuation τ sig (Elt F))                 -- core c's unscoped buffers when region 6 is entered
variable (fgt : Fin cfg6.W → Bool)                        -- the windows whose contents after the body are left unnamed

/-- Region 6's relational proof data at the entry contents `W`. -/
def rdat6 (c : Dev nD) : Pipeline.RDat τ (Elt F) Unit ℕ UU ℕ cfg6 c := (dat6 (VW W) c).toRForget fgt

/-- The family of relational proof data with region 6's at its index. -/
abbrev rfam6 : (q : Fin 7) → (c : Dev nD) → Pipeline.RDat τ (Elt F) Unit ℕ UU ℕ (Pipeline.pin (pcfgs (F := F)) adm q) c :=
  Pipeline.RDat.familyOf (pcfgs (F := F)) adm (6 : Fin 7) (rdat6 W fgt)

/-- At its own index the family is region 6's data. -/
theorem rfam6_self (c : Dev nD) : rfam6 W fgt (6 : Fin 7) c = rdat6 W fgt c :=
  Pipeline.RDat.familyOf_self (pcfgs (F := F)) adm (6 : Fin 7) (rdat6 W fgt) c

/-- The data hold every array at the full share. -/
theorem rdat6_share (c : Dev nD) (w : Fin cfg6.W) : (rdat6 W fgt c).share w = fullShare :=
  (rdat6 W fgt c).share_full (fun _ => rfl) w

/-- The arrays after every write-back, opened: each whole at the full share at SOME contents it may then hold. -/
theorem arraysAt_open6 (c : Dev nD) :
    ((rdat6 W fgt c).arraysAt cfg6.N : sProp 𝕄)
      ⊢ iprop(∃ A : (w : Fin cfg6.W) → Buf (Elt F) ((cfg6.win w).arr.view.loc (c : Thread nD τ)),
          ⌜∀ w, (rdat6 W fgt c).ArrAt w cfg6.N (A w)⌝ ∗ Pipeline.arrPts spec6 c A) := by
  unfold Pipeline.RDat.arraysAt
  -- one choice of contents for all the windows at once
  refine (BI.bigSep_exists_pi Finset.univ _).trans ?_
  iintro ⟨%A, H⟩
  -- the pure facts gathered in front of the points-to facts
  ihave H' := (BI.bigSep_pure_sep Finset.univ (fun w => (rdat6 W fgt c).ArrAt w cfg6.N (A w)) _) $$ H
  icases H' with ⟨%hA, H⟩
  iexists A
  isplitr
  · ipureintro; exact fun w => hA w (Finset.mem_univ w)
  -- a whole array's view is all of its buffer, and the share is the full one
  have hpts : (bigSep Finset.univ fun w => ((cfg6.win w).arr.view.loc (c : Thread nD τ)
        ↦[(cfg6.win w).arr.view.set]{(rdat6 W fgt c).share w} A w : sProp 𝕄)) = Pipeline.arrPts spec6 c A := by
    unfold Pipeline.arrPts
    exact bigSep_congr fun w _ => by
      have hw : (cfg6.win w).arr.IsWhole := launch6.arr_whole w
      rw [hw.set_eq_univ, rdat6_share W fgt c w]
  rw [← hpts]
  iexact H

/-- The arrays at contents `A` beside every other unscoped buffer at `W` are the unscoped buffers held at `W` updated at
    the arrays by `A`. -/
theorem held_withArrays6 (c : Dev nD) (A : (w : Fin cfg6.W) → Buf (Elt F) ((cfg6.win w).arr.view.loc (c : Thread nD τ))) :
    iprop(Pipeline.arrPts spec6 c A ∗ Pipeline.unscopedRest (Ix := Unit) (Name := ℕ) (U := UU) (Lvl := ℕ) spec6 c (fun b => W b))
      ⊢ (Held c (Pipeline.withArrays spec6 c W A) : sProp 𝕄) := by
  unfold Held
  rw [← Pipeline.unscopedBufs_held, Pipeline.unscopedBufs_split cfgs (6 : Fin 7) launch6.win.arr_unscoped launch6.win.arr_inj c]
  refine sep_mono (Entails.of_eq ?_) (Entails.of_eq ?_)
  · -- at an array the updated valuation reads `A`
    unfold Pipeline.arrPts
    exact bigSep_congr fun w _ => congrArg (fun f => (((c : Thread nD τ).loc (Pipeline.arrRef spec6 w)) ↦{fullShare} f : sProp 𝕄))
      (Pipeline.withArrays_arr spec6 launch6.win.arr_inj c W A w).symm
  · -- off the arrays it reads `W`
    unfold Pipeline.unscopedRest
    exact bigSep_congr fun b hb => congrArg (fun f => (((c : Thread nD τ).loc b) ↦{fullShare} f : sProp 𝕄))
      (Pipeline.withArrays_of_ne spec6 c W A b fun w e =>
        (Finset.mem_sdiff.mp hb).2 (Finset.mem_image.mpr ⟨w, Finset.mem_univ _, e⟩)).symm

set_option backward.isDefEq.respectTransparency.types false in
/-- Region 6 as a segment between thread states: entered from every unscoped buffer at `W`, the generator register and
    the core owing nothing; left with the buffers at `W` updated at the region's arrays by some contents the arrays may
    hold after every write-back. The arrays are split out of the unscoped buffers at entry and joined back at exit; the
    generator register and the scoped rest make the invariant; nothing is owed; the kernel has no semaphore of its own. -/
def regSeg6 (hbody : ∀ c, BodyObligationLoose (dat6 (VW W) c) (defs₀ (F := F)) Variants.none () Set.univ fgt) :
    Pipeline.RDat.RegionSeg (pcfgs (F := F)) adm (rfam6 W fgt) () defs₀ Variants.none Lr lvr (6 : Fin 7) where
  win := launch6.win.to₀
  block_pos := launch6.block_pos
  stage_whole := launch6.stage_whole
  K := PEmpty
  osem k := k.elim
  ho := Pipeline.OwnSemFacts.none _
  hbody c := by
    rw [rfam6_self]
    exact (hbody c).toRForget
  hwaits := Pipeline.RDat.hwaits_of_owed_zero _ _ _ _ Lr lvr (6 : Fin 7) fun c t => by
    rw [rfam6_self]; rfl
  pre c := iprop(Held c W ∗ Pr c ∗ Ow c)
  post c := iprop(∃ A : (w : Fin cfg6.W) → Buf (Elt F) ((cfg6.win w).arr.view.loc (c : Thread nD τ)),
    ⌜∀ w, (rdat6 W fgt c).ArrAt w cfg6.N (A w)⌝ ∗ Held c (Pipeline.withArrays spec6 c W A) ∗ Pr c ∗ Ow c)
  X c := Pr c
  Y c := Pr c
  Z c := Pipeline.unscopedRest (Ix := Unit) (Name := ℕ) (U := UU) (Lvl := ℕ) spec6 c (fun b => W b)
  hentry c := by
    -- the arrays at their entry contents, split out of the held buffers
    have hsplit : (Held c W : sProp 𝕄)
        ⊢ iprop((rfam6 W fgt (6 : Fin 7) c).arrays (rfam6 W fgt (6 : Fin 7) c).A
            ∗ Pipeline.unscopedRest (Ix := Unit) (Name := ℕ) (U := UU) (Lvl := ℕ) spec6 c (fun b => W b)) := by
      unfold Held
      rw [← Pipeline.unscopedBufs_held]
      exact Pipeline.RDat.arrays_of_unscopedBufs (p := (6 : Fin 7)) (pcfgs (F := F)) adm (rfam6 W fgt) launch6.win launch6.arr_whole c
        (fun w => by rw [rfam6_self]; exact rdat6_share W fgt c w) (fun b => W b) (fun w => by rw [rfam6_self]; rfl)
    iintro ⟨⟨Hheld, Hprng, Howes⟩, -, -⟩
    imodintro
    ihave Hsplit := hsplit $$ Hheld
    icases Hsplit with ⟨Harr, Hrest⟩
    isplitl [Harr]; · iexact Harr
    isplitr
    · -- the pipeline prefetches no table
      unfold Pipeline.prefHeld; rw [show (Finset.univ : Finset (Fin (0 : ℕ))) = ∅ from rfl, BI.bigSep_empty]; iempintro
    isplitl [Howes]
    · -- nothing owed, whatever was recorded
      rw [rfam6_self]
      icases Howes with ⟨%S, Howes⟩
      iexists S
      isplitr
      · ipureintro; exact fun x _ => Or.inl (Set.mem_univ x)
      iexact Howes
    isplitl [Hprng]; · iexact Hprng
    iexact Hrest
  hin c := by
    rw [rfam6_self]
    show _ ⊢ (Pipeline.ΦA spec6 c : sProp 𝕄)
    unfold Pipeline.ΦA
    iintro ⟨Hprng, -, Hscoped⟩
    isplitl [Hscoped]; · iexact Hscoped
    iexact Hprng
  hout c := by
    rw [rfam6_self, Pipeline.ownSems0_none]
    show (Pipeline.ΦA spec6 c : sProp 𝕄) ⊢ _
    unfold Pipeline.ΦA
    iintro ⟨Hscoped, Hprng⟩
    isplitl [Hprng]; · iexact Hprng
    isplitr; · iempintro
    iexact Hscoped
  hexit c := by
    rw [rfam6_self]
    iintro ⟨Harr, Howes, Hprng, Hrest⟩
    imodintro
    ihave Hopen := (arraysAt_open6 W fgt c) $$ Harr
    icases Hopen with ⟨%A, %hA, Hpts⟩
    iexists A
    isplitr; · ipureintro; exact hA
    isplitl [Hpts Hrest]
    · iapply (held_withArrays6 W c A)
      isplitl [Hpts]; · iexact Hpts
      iexact Hrest
    isplitl [Hprng]; · iexact Hprng
    icases Howes with ⟨%S, -, Howes⟩
    iexists S; iexact Howes

/-- REGION 6's STEP, continuation-passing: from the boundary, every unscoped buffer held at `W`, the generator register,
    the core owing nothing, the level facts and pipeline 6's ghost state, the region's call runs; the continuation is
    entered at the boundary with the buffers held at `W` UPDATED at the region's arrays by SOME contents `A` the arrays
    may hold after every write-back (the inputs' as entered; an unnamed output's anything). -/
theorem region6_wp
    (hbody : ∀ c, BodyObligationLoose (dat6 (VW W) c) (defs₀ (F := F)) Variants.none () Set.univ fgt)
    (c : Dev nD) {α : Type}
    (k : PUnit → Prog (TpuEff nD τ sig (Elt F) (Pipeline.Sig Λ₀ (Fin 7) fun p => (pcfgs (F := F) p).Adm) .tc) α) (Q : α → sProp 𝕄) :
    iprop((∀ A : (w : Fin cfg6.W) → Buf (Elt F) ((cfg6.win w).arr.view.loc (c : Thread nD τ)),
            iprop(⌜∀ w, (rdat6 W fgt c).ArrAt w cfg6.N (A w)⌝ ∗ boundary (c : Thread nD τ)
                ∗ Held c (Pipeline.withArrays spec6 c W A) ∗ Pr c ∗ Ow c)
              -∗ wp frame (wpE (defs (F := F)) (Variants.lift Variants.none) (c : Thread nD τ) none) Set.univ (k ⟨⟩) Q)
        ∗ boundary (c : Thread nD τ) ∗ Held c W ∗ Pr c ∗ Ow c ∗ levAts Lr lvr ∗ Gp 6 c)
      ⊢ wp frame (wpE (defs (F := F)) (Variants.lift Variants.none) (c : Thread nD τ) none) Set.univ
          (.op (.customCall (Pipeline.entry 6) ()) k) Q := by
  iintro ⟨Hk, Hbd, Hheld, Hprng, Howes, Hlev, Hghost, Htoks⟩
  -- the region's rule between its two thread states, on this core
  have hwp := (regSeg6 W fgt hbody).wp (pcfgs (F := F)) adm (rfam6 W fgt) () cellOf_inj EPg defs₀ Variants.none Lr lvr c none
    (fun u h => nomatch h) k Q
  dsimp only [regSeg6] at hwp
  iapply hwp
  isplitl [Hk]
  · -- the continuation: the exit state names SOME contents of the arrays; the hypothesis holds at every such contents
    iintro ⟨Hbd, Hpost⟩
    icases Hpost with ⟨%A, %hA, Hheld, Hprng, Howes⟩
    iapply Hk $$ %A
    isplitr; · ipureintro; exact hA
    isplitl [Hbd]; · iexact Hbd
    isplitl [Hheld]; · iexact Hheld
    isplitl [Hprng]; · iexact Hprng
    iexact Howes
  -- the entry state and what the region's launch takes
  isplitl [Hbd]; · iexact Hbd
  isplitl [Hheld Hprng Howes]
  · isplitl [Hheld]; · iexact Hheld
    isplitl [Hprng]; · iexact Hprng
    iexact Howes
  isplitl [Hlev]; · iexact Hlev
  isplitl [Hghost]; · iexact Hghost
  iexact Htoks

end Record

end Cert.KernelIdeal.Gen

end
-- ==== Proof.KI.Chain.lean ====
import proofs.«178696_j1468878815658_2_alg».proof.Proof.KI.Alg
import proofs.«178696_j1468878815658_2_alg».proof.Proof.KI.Reg0
import proofs.«178696_j1468878815658_2_alg».proof.Proof.KI.Reg1
import proofs.«178696_j1468878815658_2_alg».proof.Proof.KI.Reg2
import proofs.«178696_j1468878815658_2_alg».proof.Proof.KI.Reg3
import proofs.«178696_j1468878815658_2_alg».proof.Proof.KI.Reg4
import proofs.«178696_j1468878815658_2_alg».proof.Proof.KI.Reg5
import proofs.«178696_j1468878815658_2_alg».proof.Proof.KI.Reg6
import proofs.«178696_j1468878815658_2_alg».proof.Proof.Gen.KernelIdeal.Regions
import Idealize.ShloMosaic.Lib.StableHlo.Run

/-!
  The account of @main on one core, from the launch to the return: seven times a stretch of host operations and then a
  kernel region. Each region is entered at whatever contents the items before it left — they are opened only there —,
  and a predicate on the contents is carried from item to item: a host stretch maps it forward through what the
  operations make of a valuation, a region through the update of the valuation at the region's arrays by some contents
  they may hold after every write-back.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ## The account of @main on one core -/

theorem bigSep_P7 {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

set_option backward.isDefEq.respectTransparency.types false in
/-- A stretch of host operations, continuation-passing: from every unscoped buffer held at `W` to the same held at
    what the operations make of `W`. -/
theorem host_step (ops : List (HloOp τ sig (Elt F))) (hsub : ops.Forall fun op => op.bufs ⊆ StableHlo.tcRefs τ sig)
    (hfresh : ops.Forall fun op => op.fresh = ∅) (c : Dev nD) (W : Valuation τ sig (Elt F)) {β : Type}
    (k : PUnit → Prog (TpuEff nD τ sig (Elt F) (Pipeline.Sig Λ₀ (Fin 7) fun p => (pcfgs (F := F) p).Adm) .tc) β) (K : β → sProp 𝕄) :
    iprop((iprop(boundary (c : Thread nD τ) ∗ Held c (StableHlo.after ops W))
              -∗ wp frame (wpE (defs (F := F)) (Variants.lift Variants.none) (c : Thread nD τ) none) Set.univ (k ⟨⟩) K)
        ∗ boundary (c : Thread nD τ) ∗ Held c W)
      ⊢ wp frame (wpE (defs (F := F)) (Variants.lift Variants.none) (c : Thread nD τ) none) Set.univ (StableHlo.seq ops >>= k) K := by
  have hseq := StableHlo.wp_seq (defs := defs (F := F)) (Variants.lift Variants.none) none Set.univ c (Pipeline.ucRefs τ sig) k (K := K) ops
    (fun op h => Pipeline.sub_ucRefs op ((List.forall_iff_forall_mem.mp hsub) op h))
    (fun op h => (List.forall_iff_forall_mem.mp hfresh) op h) W
  iintro ⟨Hk, Hbd, Hh⟩
  iapply hseq $$ [Hbd Hh]
  · isplitl [Hbd] <;> iassumption
  iexact Hk

section Account

variable (m : (ℓ : Loc nD τ sig) → Buf (Elt F) ℓ)
variable (fgt0 : Fin cfg0.W → Bool) (fgt1 : Fin cfg1.W → Bool) (fgt2 : Fin cfg2.W → Bool) (fgt3 : Fin cfg3.W → Bool) (fgt4 : Fin cfg4.W → Bool) (fgt5 : Fin cfg5.W → Bool) (fgt6 : Fin cfg6.W → Bool)
variable (I : Fin 15 → Dev nD → Valuation τ sig (Elt F) → Prop)

/-- @main on core `c`, from the launch to the return: host stretch, region, …, each region entered at the contents the
    items before it left, whatever they are; a predicate `I j` on the buffers' contents is carried from item to item. -/
theorem account (hI0 : ∀ c : Dev nD, I 0 c (fun b => m (c, b)))
    (hH0 : ∀ (c : Dev nD) (W : Valuation τ sig (Elt F)), I 0 c W → I 1 c (StableHlo.after hostOps0 W))
    (hR0 : ∀ (c : Dev nD) (W : Valuation τ sig (Elt F)), I 1 c W → ∀ A, (∀ w, (rdat0 W fgt0 c).ArrAt w cfg0.N (A w)) → I 2 c (Pipeline.withArrays spec0 c W A))
    (hB0 : ∀ (W : Valuation τ sig (Elt F)) (c : Dev nD), BodyObligationLoose (dat0 (VW W) c) (defs₀ (F := F)) Variants.none () Set.univ fgt0)
    (hH1 : ∀ (c : Dev nD) (W : Valuation τ sig (Elt F)), I 2 c W → I 3 c (StableHlo.after hostOps1 W))
    (hR1 : ∀ (c : Dev nD) (W : Valuation τ sig (Elt F)), I 3 c W → ∀ A, (∀ w, (rdat1 W fgt1 c).ArrAt w cfg1.N (A w)) → I 4 c (Pipeline.withArrays spec1 c W A))
    (hB1 : ∀ (W : Valuation τ sig (Elt F)) (c : Dev nD), BodyObligationLoose (dat1 (VW W) c) (defs₀ (F := F)) Variants.none () Set.univ fgt1)
    (hH2 : ∀ (c : Dev nD) (W : Valuation τ sig (Elt F)), I 4 c W → I 5 c (StableHlo.after hostOps2 W))
    (hR2 : ∀ (c : Dev nD) (W : Valuation τ sig (Elt F)), I 5 c W → ∀ A, (∀ w, (rdat2 W fgt2 c).ArrAt w cfg2.N (A w)) → I 6 c (Pipeline.withArrays spec2 c W A))
    (hB2 : ∀ (W : Valuation τ sig (Elt F)) (c : Dev nD), BodyObligationLoose (dat2 (VW W) c) (defs₀ (F := F)) Variants.none () Set.univ fgt2)
    (hH3 : ∀ (c : Dev nD) (W : Valuation τ sig (Elt F)), I 6 c W → I 7 c (StableHlo.after hostOps3 W))
    (hR3 : ∀ (c : Dev nD) (W : Valuation τ sig (Elt F)), I 7 c W → ∀ A, (∀ w, (rdat3 W fgt3 c).ArrAt w cfg3.N (A w)) → I 8 c (Pipeline.withArrays spec3 c W A))
    (hB3 : ∀ (W : Valuation τ sig (Elt F)) (c : Dev nD), BodyObligationLoose (dat3 (VW W) c) (defs₀ (F := F)) Variants.none () Set.univ fgt3)
    (hH4 : ∀ (c : Dev nD) (W : Valuation τ sig (Elt F)), I 8 c W → I 9 c (StableHlo.after hostOps4 W))
    (hR4 : ∀ (c : Dev nD) (W : Valuation τ sig (Elt F)), I 9 c W → ∀ A, (∀ w, (rdat4 W fgt4 c).ArrAt w cfg4.N (A w)) → I 10 c (Pipeline.withArrays spec4 c W A))
    (hB4 : ∀ (W : Valuation τ sig (Elt F)) (c : Dev nD), BodyObligationLoose (dat4 (VW W) c) (defs₀ (F := F)) Variants.none () Set.univ fgt4)
    (hH5 : ∀ (c : Dev nD) (W : Valuation τ sig (Elt F)), I 10 c W → I 11 c (StableHlo.after hostOps5 W))
    (hR5 : ∀ (c : Dev nD) (W : Valuation τ sig (Elt F)), I 11 c W → ∀ A, (∀ w, (rdat5 W fgt5 c).ArrAt w cfg5.N (A w)) → I 12 c (Pipeline.withArrays spec5 c W A))
    (hB5 : ∀ (W : Valuation τ sig (Elt F)) (c : Dev nD), BodyObligationLoose (dat5 (VW W) c) (defs₀ (F := F)) Variants.none () Set.univ fgt5)
    (hH6 : ∀ (c : Dev nD) (W : Valuation τ sig (Elt F)), I 12 c W → I 13 c (StableHlo.after hostOps6 W))
    (hR6 : ∀ (c : Dev nD) (W : Valuation τ sig (Elt F)), I 13 c W → ∀ A, (∀ w, (rdat6 W fgt6 c).ArrAt w cfg6.N (A w)) → I 14 c (Pipeline.withArrays spec6 c W A))
    (hB6 : ∀ (W : Valuation τ sig (Elt F)) (c : Dev nD), BodyObligationLoose (dat6 (VW W) c) (defs₀ (F := F)) Variants.none () Set.univ fgt6)
    (c : Dev nD) {β : Type}
    (k : PUnit → Prog (TpuEff nD τ sig (Elt F) (Pipeline.Sig Λ₀ (Fin 7) fun p => (pcfgs (F := F) p).Adm) .tc) β) (K : β → sProp 𝕄) :
    iprop((iprop(boundary (c : Thread nD τ) ∗ (TS (I 14 c) c ∗ Pr c) ∗ Ow c)
              -∗ wp frame (wpE (defs (F := F)) (Variants.lift Variants.none) (c : Thread nD τ) none) Set.univ (k ⟨⟩) K)
          ∗ boundary (c : Thread nD τ)
          ∗ (Held c (fun b => m (c, b)) ∗ Pr c ∗ Ow c ∗ bigSep Finset.univ (fun p : Fin 7 => Gp (F := F) p c))
          ∗ levAts Lr lvr)
        ⊢ wp frame (wpE (defs (F := F)) (Variants.lift Variants.none) (c : Thread nD τ) none) Set.univ (main (F := F) c >>= k) K := by
  rw [main_chain c, bigSep_P7]
  simp only [Pipeline.chain_cons, Pipeline.chain_nil, bind_assoc, pure_bind, Prog.lift, Prog.bind_op, Prog.bind_ret]
  have h0 := hI0 c
  iintro ⟨Hk, Hbd, ⟨Hh, Hp, Ho, G0, G1, G2, G3, G4, G5, G6⟩, #Hla⟩
  -- host stretch 0
  iapply (host_step hostOps0 hostOps0_sub hostOps0_fresh c (fun b => m (c, b)) _ K)
  isplitr [Hbd Hh]
  swap
  · isplitl [Hbd] <;> iassumption
  iintro ⟨Hbd, Hh⟩
  have h1 := hH0 c _ h0
  -- region 0
  iapply (region0_wp (F := F) (StableHlo.after hostOps0 (fun b => m (c, b))) fgt0 (hB0 _) c _ K)
  isplitr [Hbd Hh Hp Ho G0]
  swap
  · isplitl [Hbd]; · iexact Hbd
    isplitl [Hh]; · iexact Hh
    isplitl [Hp]; · iexact Hp
    isplitl [Ho]; · iexact Ho
    isplitr; · iexact Hla
    iexact G0
  iintro %A0 ⟨%hA0, Hbd, Hh, Hp, Ho⟩
  have h2 := hR0 c _ h1 A0 hA0
  generalize hW2 : Pipeline.withArrays spec0 c (StableHlo.after hostOps0 (fun b => m (c, b))) A0 = W2 at h2
  -- host stretch 1
  iapply (host_step hostOps1 hostOps1_sub hostOps1_fresh c W2 _ K)
  isplitr [Hbd Hh]
  swap
  · isplitl [Hbd] <;> iassumption
  iintro ⟨Hbd, Hh⟩
  have h3 := hH1 c _ h2
  -- region 1
  iapply (region1_wp (F := F) (StableHlo.after hostOps1 W2) fgt1 (hB1 _) c _ K)
  isplitr [Hbd Hh Hp Ho G1]
  swap
  · isplitl [Hbd]; · iexact Hbd
    isplitl [Hh]; · iexact Hh
    isplitl [Hp]; · iexact Hp
    isplitl [Ho]; · iexact Ho
    isplitr; · iexact Hla
    iexact G1
  iintro %A1 ⟨%hA1, Hbd, Hh, Hp, Ho⟩
  have h4 := hR1 c _ h3 A1 hA1
  generalize hW4 : Pipeline.withArrays spec1 c (StableHlo.after hostOps1 W2) A1 = W4 at h4
  -- host stretch 2
  iapply (host_step hostOps2 hostOps2_sub hostOps2_fresh c W4 _ K)
  isplitr [Hbd Hh]
  swap
  · isplitl [Hbd] <;> iassumption
  iintro ⟨Hbd, Hh⟩
  have h5 := hH2 c _ h4
  -- region 2
  iapply (region2_wp (F := F) (StableHlo.after hostOps2 W4) fgt2 (hB2 _) c _ K)
  isplitr [Hbd Hh Hp Ho G2]
  swap
  · isplitl [Hbd]; · iexact Hbd
    isplitl [Hh]; · iexact Hh
    isplitl [Hp]; · iexact Hp
    isplitl [Ho]; · iexact Ho
    isplitr; · iexact Hla
    iexact G2
  iintro %A2 ⟨%hA2, Hbd, Hh, Hp, Ho⟩
  have h6 := hR2 c _ h5 A2 hA2
  generalize hW6 : Pipeline.withArrays spec2 c (StableHlo.after hostOps2 W4) A2 = W6 at h6
  -- host stretch 3
  iapply (host_step hostOps3 hostOps3_sub hostOps3_fresh c W6 _ K)
  isplitr [Hbd Hh]
  swap
  · isplitl [Hbd] <;> iassumption
  iintro ⟨Hbd, Hh⟩
  have h7 := hH3 c _ h6
  -- region 3
  iapply (region3_wp (F := F) (StableHlo.after hostOps3 W6) fgt3 (hB3 _) c _ K)
  isplitr [Hbd Hh Hp Ho G3]
  swap
  · isplitl [Hbd]; · iexact Hbd
    isplitl [Hh]; · iexact Hh
    isplitl [Hp]; · iexact Hp
    isplitl [Ho]; · iexact Ho
    isplitr; · iexact Hla
    iexact G3
  iintro %A3 ⟨%hA3, Hbd, Hh, Hp, Ho⟩
  have h8 := hR3 c _ h7 A3 hA3
  generalize hW8 : Pipeline.withArrays spec3 c (StableHlo.after hostOps3 W6) A3 = W8 at h8
  -- host stretch 4
  iapply (host_step hostOps4 hostOps4_sub hostOps4_fresh c W8 _ K)
  isplitr [Hbd Hh]
  swap
  · isplitl [Hbd] <;> iassumption
  iintro ⟨Hbd, Hh⟩
  have h9 := hH4 c _ h8
  -- region 4
  iapply (region4_wp (F := F) (StableHlo.after hostOps4 W8) fgt4 (hB4 _) c _ K)
  isplitr [Hbd Hh Hp Ho G4]
  swap
  · isplitl [Hbd]; · iexact Hbd
    isplitl [Hh]; · iexact Hh
    isplitl [Hp]; · iexact Hp
    isplitl [Ho]; · iexact Ho
    isplitr; · iexact Hla
    iexact G4
  iintro %A4 ⟨%hA4, Hbd, Hh, Hp, Ho⟩
  have h10 := hR4 c _ h9 A4 hA4
  generalize hW10 : Pipeline.withArrays spec4 c (StableHlo.after hostOps4 W8) A4 = W10 at h10
  -- host stretch 5
  iapply (host_step hostOps5 hostOps5_sub hostOps5_fresh c W10 _ K)
  isplitr [Hbd Hh]
  swap
  · isplitl [Hbd] <;> iassumption
  iintro ⟨Hbd, Hh⟩
  have h11 := hH5 c _ h10
  -- region 5
  iapply (region5_wp (F := F) (StableHlo.after hostOps5 W10) fgt5 (hB5 _) c _ K)
  isplitr [Hbd Hh Hp Ho G5]
  swap
  · isplitl [Hbd]; · iexact Hbd
    isplitl [Hh]; · iexact Hh
    isplitl [Hp]; · iexact Hp
    isplitl [Ho]; · iexact Ho
    isplitr; · iexact Hla
    iexact G5
  iintro %A5 ⟨%hA5, Hbd, Hh, Hp, Ho⟩
  have h12 := hR5 c _ h11 A5 hA5
  generalize hW12 : Pipeline.withArrays spec5 c (StableHlo.after hostOps5 W10) A5 = W12 at h12
  -- host stretch 6
  iapply (host_step hostOps6 hostOps6_sub hostOps6_fresh c W12 _ K)
  isplitr [Hbd Hh]
  swap
  · isplitl [Hbd] <;> iassumption
  iintro ⟨Hbd, Hh⟩
  have h13 := hH6 c _ h12
  -- region 6
  iapply (region6_wp (F := F) (StableHlo.after hostOps6 W12) fgt6 (hB6 _) c _ K)
  isplitr [Hbd Hh Hp Ho G6]
  swap
  · isplitl [Hbd]; · iexact Hbd
    isplitl [Hh]; · iexact Hh
    isplitl [Hp]; · iexact Hp
    isplitl [Ho]; · iexact Ho
    isplitr; · iexact Hla
    iexact G6
  iintro %A6 ⟨%hA6, Hbd, Hh, Hp, Ho⟩
  have h14 := hR6 c _ h13 A6 hA6
  generalize hW14 : Pipeline.withArrays spec6 c (StableHlo.after hostOps6 W12) A6 = W14 at h14
  iapply Hk
  isplitl [Hbd]; · iexact Hbd
  isplitr [Ho]
  · isplitr [Hp]
    · unfold TS; iexists W14; isplitr; · ipureintro; exact h14
      iexact Hh
    · iexact Hp
  · iexact Ho

end Account

end Cert.KernelIdeal.Gen

end
-- ==== Proof.KI.Args.lean ====
import proofs.«178696_j1468878815658_2_alg».proof.Proof.KI.Alg
import proofs.«178696_j1468878815658_2_alg».proof.Proof.KI.Reg0
import proofs.«178696_j1468878815658_2_alg».proof.Proof.KI.Reg1
import proofs.«178696_j1468878815658_2_alg».proof.Proof.KI.Reg2
import proofs.«178696_j1468878815658_2_alg».proof.Proof.KI.Reg3
import proofs.«178696_j1468878815658_2_alg».proof.Proof.KI.Reg4
import proofs.«178696_j1468878815658_2_alg».proof.Proof.KI.Reg5
import proofs.«178696_j1468878815658_2_alg».proof.Proof.KI.Reg6
import proofs.«178696_j1468878815658_2_alg».proof.Proof.Gen.KernelIdeal.Regions

/-!
  The frames' invariant — every argument buffer is as launched — is kept by every item of @main: no host operation
  writes an argument, and a region changes only its output array (an input window's array may hold only its entry
  contents, and every other buffer bypasses the region).
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

/-! ## The frames' invariant: the arguments are as launched -/

section Args

variable (m : (ℓ : Loc nD τ sig) → Buf (Elt F) ℓ)

theorem argsOf_launch (c : Dev nD) : ArgsOf m c (fun b => m (c, b)) := fun _ _ => rfl

/-- No operation of host stretch 0 writes an argument. -/
theorem argsOf_host0 (c : Dev nD) (W : Valuation τ sig (Elt F)) (h : ArgsOf m c W) : ArgsOf m c (StableHlo.after hostOps0 W) := fun r hr =>
  (StableHlo.after_of_writes_sub hostOps0 W hostOps0_writes
    ((by decide : ∀ r ∈ argRefs, r ∉ hostOps0_W) r hr)).trans (h r hr)

/-- No operation of host stretch 1 writes an argument. -/
theorem argsOf_host1 (c : Dev nD) (W : Valuation τ sig (Elt F)) (h : ArgsOf m c W) : ArgsOf m c (StableHlo.after hostOps1 W) := fun r hr =>
  (StableHlo.after_of_writes_sub hostOps1 W hostOps1_writes
    ((by decide : ∀ r ∈ argRefs, r ∉ hostOps1_W) r hr)).trans (h r hr)

/-- No operation of host stretch 2 writes an argument. -/
theorem argsOf_host2 (c : Dev nD) (W : Valuation τ sig (Elt F)) (h : ArgsOf m c W) : ArgsOf m c (StableHlo.after hostOps2 W) := fun r hr =>
  (StableHlo.after_of_writes_sub hostOps2 W hostOps2_writes
    ((by decide : ∀ r ∈ argRefs, r ∉ hostOps2_W) r hr)).trans (h r hr)

/-- No operation of host stretch 3 writes an argument. -/
theorem argsOf_host3 (c : Dev nD) (W : Valuation τ sig (Elt F)) (h : ArgsOf m c W) : ArgsOf m c (StableHlo.after hostOps3 W) := fun r hr =>
  (StableHlo.after_of_writes_sub hostOps3 W hostOps3_writes
    ((by decide : ∀ r ∈ argRefs, r ∉ hostOps3_W) r hr)).trans (h r hr)

/-- No operation of host stretch 4 writes an argument. -/
theorem argsOf_host4 (c : Dev nD) (W : Valuation τ sig (Elt F)) (h : ArgsOf m c W) : ArgsOf m c (StableHlo.after hostOps4 W) := fun r hr =>
  (StableHlo.after_of_writes_sub hostOps4 W hostOps4_writes
    ((by decide : ∀ r ∈ argRefs, r ∉ hostOps4_W) r hr)).trans (h r hr)

/-- No operation of host stretch 5 writes an argument. -/
theorem argsOf_host5 (c : Dev nD) (W : Valuation τ sig (Elt F)) (h : ArgsOf m c W) : ArgsOf m c (StableHlo.after hostOps5 W) := fun r hr =>
  (StableHlo.after_of_writes_sub hostOps5 W hostOps5_writes
    ((by decide : ∀ r ∈ argRefs, r ∉ hostOps5_W) r hr)).trans (h r hr)

/-- No operation of host stretch 6 writes an argument. -/
theorem argsOf_host6 (c : Dev nD) (W : Valuation τ sig (Elt F)) (h : ArgsOf m c W) : ArgsOf m c (StableHlo.after hostOps6 W) := fun r hr =>
  (StableHlo.after_of_writes_sub hostOps6 W hostOps6_writes
    ((by decide : ∀ r ∈ argRefs, r ∉ hostOps6_W) r hr)).trans (h r hr)

/-- Region 0 changes only its output array: every other buffer is as the region found it (an input window's array may
    hold only its entry contents). -/
theorem withArrays0_of_ne_out (W : Valuation τ sig (Elt F)) (fgt : Fin cfg0.W → Bool) (c : Dev nD)
    (A : (w : Fin cfg0.W) → Buf (Elt F) ((cfg0.win w).arr.view.loc (c : Thread nD τ)))
    (hA : ∀ w, (rdat0 W fgt c).ArrAt w cfg0.N (A w)) (b : Ref sig .tc) (hb : b ≠ main_v7) :
    Pipeline.withArrays spec0 c W A (Proc.devRef .tc b) = W (Proc.devRef .tc b) := by
  by_cases h : ∃ w, Pipeline.arrRef spec0 w = b
  · obtain ⟨w, rfl⟩ := h
    rw [Pipeline.withArrays_arr spec0 launch0.win.arr_inj c W A w]
    have hin : (cfg0.win w).isOut = false :=
      (by decide : ∀ w : Fin 6, Pipeline.arrRef spec0 w ≠ main_v7 → (cfg0.win w).isOut = false) w hb
    have hw : A w = (rdat0 W fgt c).A w := by
      have h' := hA w
      rw [Pipeline.RDat.ArrAt_in (rdat0 W fgt c) w hin cfg0.N] at h'
      exact h'
    rw [hw]
    show (dat0 (VW W) c).A w = _
    rw [A_eq0]
  · exact Pipeline.withArrays_of_ne spec0 c W A b fun w e => h ⟨w, e⟩

theorem argsOf_region0 (W : Valuation τ sig (Elt F)) (fgt : Fin cfg0.W → Bool) (c : Dev nD) (h : ArgsOf m c W)
    (A : (w : Fin cfg0.W) → Buf (Elt F) ((cfg0.win w).arr.view.loc (c : Thread nD τ)))
    (hA : ∀ w, (rdat0 W fgt c).ArrAt w cfg0.N (A w)) : ArgsOf m c (Pipeline.withArrays spec0 c W A) := fun r hr =>
  (withArrays0_of_ne_out W fgt c A hA r ((by decide : ∀ r ∈ argRefs, r ≠ main_v7) r hr)).trans (h r hr)

/-- Region 1 changes only its output array: every other buffer is as the region found it (an input window's array may
    hold only its entry contents). -/
theorem withArrays1_of_ne_out (W : Valuation τ sig (Elt F)) (fgt : Fin cfg1.W → Bool) (c : Dev nD)
    (A : (w : Fin cfg1.W) → Buf (Elt F) ((cfg1.win w).arr.view.loc (c : Thread nD τ)))
    (hA : ∀ w, (rdat1 W fgt c).ArrAt w cfg1.N (A w)) (b : Ref sig .tc) (hb : b ≠ main_v11) :
    Pipeline.withArrays spec1 c W A (Proc.devRef .tc b) = W (Proc.devRef .tc b) := by
  by_cases h : ∃ w, Pipeline.arrRef spec1 w = b
  · obtain ⟨w, rfl⟩ := h
    rw [Pipeline.withArrays_arr spec1 launch1.win.arr_inj c W A w]
    have hin : (cfg1.win w).isOut = false :=
      (by decide : ∀ w : Fin 6, Pipeline.arrRef spec1 w ≠ main_v11 → (cfg1.win w).isOut = false) w hb
    have hw : A w = (rdat1 W fgt c).A w := by
      have h' := hA w
      rw [Pipeline.RDat.ArrAt_in (rdat1 W fgt c) w hin cfg1.N] at h'
      exact h'
    rw [hw]
    show (dat1 (VW W) c).A w = _
    rw [A_eq1]
  · exact Pipeline.withArrays_of_ne spec1 c W A b fun w e => h ⟨w, e⟩

theorem argsOf_region1 (W : Valuation τ sig (Elt F)) (fgt : Fin cfg1.W → Bool) (c : Dev nD) (h : ArgsOf m c W)
    (A : (w : Fin cfg1.W) → Buf (Elt F) ((cfg1.win w).arr.view.loc (c : Thread nD τ)))
    (hA : ∀ w, (rdat1 W fgt c).ArrAt w cfg1.N (A w)) : ArgsOf m c (Pipeline.withArrays spec1 c W A) := fun r hr =>
  (withArrays1_of_ne_out W fgt c A hA r ((by decide : ∀ r ∈ argRefs, r ≠ main_v11) r hr)).trans (h r hr)

/-- Region 2 changes only its output array: every other buffer is as the region found it (an input window's array may
    hold only its entry contents). -/
theorem withArrays2_of_ne_out (W : Valuation τ sig (Elt F)) (fgt : Fin cfg2.W → Bool) (c : Dev nD)
    (A : (w : Fin cfg2.W) → Buf (Elt F) ((cfg2.win w).arr.view.loc (c : Thread nD τ)))
    (hA : ∀ w, (rdat2 W fgt c).ArrAt w cfg2.N (A w)) (b : Ref sig .tc) (hb : b ≠ main_v31) :
    Pipeline.withArrays spec2 c W A (Proc.devRef .tc b) = W (Proc.devRef .tc b) := by
  by_cases h : ∃ w, Pipeline.arrRef spec2 w = b
  · obtain ⟨w, rfl⟩ := h
    rw [Pipeline.withArrays_arr spec2 launch2.win.arr_inj c W A w]
    have hin : (cfg2.win w).isOut = false :=
      (by decide : ∀ w : Fin 6, Pipeline.arrRef spec2 w ≠ main_v31 → (cfg2.win w).isOut = false) w hb
    have hw : A w = (rdat2 W fgt c).A w := by
      have h' := hA w
      rw [Pipeline.RDat.ArrAt_in (rdat2 W fgt c) w hin cfg2.N] at h'
      exact h'
    rw [hw]
    show (dat2 (VW W) c).A w = _
    rw [A_eq2]
  · exact Pipeline.withArrays_of_ne spec2 c W A b fun w e => h ⟨w, e⟩

theorem argsOf_region2 (W : Valuation τ sig (Elt F)) (fgt : Fin cfg2.W → Bool) (c : Dev nD) (h : ArgsOf m c W)
    (A : (w : Fin cfg2.W) → Buf (Elt F) ((cfg2.win w).arr.view.loc (c : Thread nD τ)))
    (hA : ∀ w, (rdat2 W fgt c).ArrAt w cfg2.N (A w)) : ArgsOf m c (Pipeline.withArrays spec2 c W A) := fun r hr =>
  (withArrays2_of_ne_out W fgt c A hA r ((by decide : ∀ r ∈ argRefs, r ≠ main_v31) r hr)).trans (h r hr)

/-- Region 3 changes only its output array: every other buffer is as the region found it (an input window's array may
    hold only its entry contents). -/
theorem withArrays3_of_ne_out (W : Valuation τ sig (Elt F)) (fgt : Fin cfg3.W → Bool) (c : Dev nD)
    (A : (w : Fin cfg3.W) → Buf (Elt F) ((cfg3.win w).arr.view.loc (c : Thread nD τ)))
    (hA : ∀ w, (rdat3 W fgt c).ArrAt w cfg3.N (A w)) (b : Ref sig .tc) (hb : b ≠ main_v39) :
    Pipeline.withArrays spec3 c W A (Proc.devRef .tc b) = W (Proc.devRef .tc b) := by
  by_cases h : ∃ w, Pipeline.arrRef spec3 w = b
  · obtain ⟨w, rfl⟩ := h
    rw [Pipeline.withArrays_arr spec3 launch3.win.arr_inj c W A w]
    have hin : (cfg3.win w).isOut = false :=
      (by decide : ∀ w : Fin 9, Pipeline.arrRef spec3 w ≠ main_v39 → (cfg3.win w).isOut = false) w hb
    have hw : A w = (rdat3 W fgt c).A w := by
      have h' := hA w
      rw [Pipeline.RDat.ArrAt_in (rdat3 W fgt c) w hin cfg3.N] at h'
      exact h'
    rw [hw]
    show (dat3 (VW W) c).A w = _
    rw [A_eq3]
  · exact Pipeline.withArrays_of_ne spec3 c W A b fun w e => h ⟨w, e⟩

theorem argsOf_region3 (W : Valuation τ sig (Elt F)) (fgt : Fin cfg3.W → Bool) (c : Dev nD) (h : ArgsOf m c W)
    (A : (w : Fin cfg3.W) → Buf (Elt F) ((cfg3.win w).arr.view.loc (c : Thread nD τ)))
    (hA : ∀ w, (rdat3 W fgt c).ArrAt w cfg3.N (A w)) : ArgsOf m c (Pipeline.withArrays spec3 c W A) := fun r hr =>
  (withArrays3_of_ne_out W fgt c A hA r ((by decide : ∀ r ∈ argRefs, r ≠ main_v39) r hr)).trans (h r hr)

/-- Region 4 changes only its output array: every other buffer is as the region found it (an input window's array may
    hold only its entry contents). -/
theorem withArrays4_of_ne_out (W : Valuation τ sig (Elt F)) (fgt : Fin cfg4.W → Bool) (c : Dev nD)
    (A : (w : Fin cfg4.W) → Buf (Elt F) ((cfg4.win w).arr.view.loc (c : Thread nD τ)))
    (hA : ∀ w, (rdat4 W fgt c).ArrAt w cfg4.N (A w)) (b : Ref sig .tc) (hb : b ≠ main_v52) :
    Pipeline.withArrays spec4 c W A (Proc.devRef .tc b) = W (Proc.devRef .tc b) := by
  by_cases h : ∃ w, Pipeline.arrRef spec4 w = b
  · obtain ⟨w, rfl⟩ := h
    rw [Pipeline.withArrays_arr spec4 launch4.win.arr_inj c W A w]
    have hin : (cfg4.win w).isOut = false :=
      (by decide : ∀ w : Fin 6, Pipeline.arrRef spec4 w ≠ main_v52 → (cfg4.win w).isOut = false) w hb
    have hw : A w = (rdat4 W fgt c).A w := by
      have h' := hA w
      rw [Pipeline.RDat.ArrAt_in (rdat4 W fgt c) w hin cfg4.N] at h'
      exact h'
    rw [hw]
    show (dat4 (VW W) c).A w = _
    rw [A_eq4]
  · exact Pipeline.withArrays_of_ne spec4 c W A b fun w e => h ⟨w, e⟩

theorem argsOf_region4 (W : Valuation τ sig (Elt F)) (fgt : Fin cfg4.W → Bool) (c : Dev nD) (h : ArgsOf m c W)
    (A : (w : Fin cfg4.W) → Buf (Elt F) ((cfg4.win w).arr.view.loc (c : Thread nD τ)))
    (hA : ∀ w, (rdat4 W fgt c).ArrAt w cfg4.N (A w)) : ArgsOf m c (Pipeline.withArrays spec4 c W A) := fun r hr =>
  (withArrays4_of_ne_out W fgt c A hA r ((by decide : ∀ r ∈ argRefs, r ≠ main_v52) r hr)).trans (h r hr)

/-- Region 5 changes only its output array: every other buffer is as the region found it (an input window's array may
    hold only its entry contents). -/
theorem withArrays5_of_ne_out (W : Valuation τ sig (Elt F)) (fgt : Fin cfg5.W → Bool) (c : Dev nD)
    (A : (w : Fin cfg5.W) → Buf (Elt F) ((cfg5.win w).arr.view.loc (c : Thread nD τ)))
    (hA : ∀ w, (rdat5 W fgt c).ArrAt w cfg5.N (A w)) (b : Ref sig .tc) (hb : b ≠ main_v60) :
    Pipeline.withArrays spec5 c W A (Proc.devRef .tc b) = W (Proc.devRef .tc b) := by
  by_cases h : ∃ w, Pipeline.arrRef spec5 w = b
  · obtain ⟨w, rfl⟩ := h
    rw [Pipeline.withArrays_arr spec5 launch5.win.arr_inj c W A w]
    have hin : (cfg5.win w).isOut = false :=
      (by decide : ∀ w : Fin 9, Pipeline.arrRef spec5 w ≠ main_v60 → (cfg5.win w).isOut = false) w hb
    have hw : A w = (rdat5 W fgt c).A w := by
      have h' := hA w
      rw [Pipeline.RDat.ArrAt_in (rdat5 W fgt c) w hin cfg5.N] at h'
      exact h'
    rw [hw]
    show (dat5 (VW W) c).A w = _
    rw [A_eq5]
  · exact Pipeline.withArrays_of_ne spec5 c W A b fun w e => h ⟨w, e⟩

theorem argsOf_region5 (W : Valuation τ sig (Elt F)) (fgt : Fin cfg5.W → Bool) (c : Dev nD) (h : ArgsOf m c W)
    (A : (w : Fin cfg5.W) → Buf (Elt F) ((cfg5.win w).arr.view.loc (c : Thread nD τ)))
    (hA : ∀ w, (rdat5 W fgt c).ArrAt w cfg5.N (A w)) : ArgsOf m c (Pipeline.withArrays spec5 c W A) := fun r hr =>
  (withArrays5_of_ne_out W fgt c A hA r ((by decide : ∀ r ∈ argRefs, r ≠ main_v60) r hr)).trans (h r hr)

/-- Region 6 changes only its output array: every other buffer is as the region found it (an input window's array may
    hold only its entry contents). -/
theorem withArrays6_of_ne_out (W : Valuation τ sig (Elt F)) (fgt : Fin cfg6.W → Bool) (c : Dev nD)
    (A : (w : Fin cfg6.W) → Buf (Elt F) ((cfg6.win w).arr.view.loc (c : Thread nD τ)))
    (hA : ∀ w, (rdat6 W fgt c).ArrAt w cfg6.N (A w)) (b : Ref sig .tc) (hb : b ≠ main_v81) :
    Pipeline.withArrays spec6 c W A (Proc.devRef .tc b) = W (Proc.devRef .tc b) := by
  by_cases h : ∃ w, Pipeline.arrRef spec6 w = b
  · obtain ⟨w, rfl⟩ := h
    rw [Pipeline.withArrays_arr spec6 launch6.win.arr_inj c W A w]
    have hin : (cfg6.win w).isOut = false :=
      (by decide : ∀ w : Fin 12, Pipeline.arrRef spec6 w ≠ main_v81 → (cfg6.win w).isOut = false) w hb
    have hw : A w = (rdat6 W fgt c).A w := by
      have h' := hA w
      rw [Pipeline.RDat.ArrAt_in (rdat6 W fgt c) w hin cfg6.N] at h'
      exact h'
    rw [hw]
    show (dat6 (VW W) c).A w = _
    rw [A_eq6]
  · exact Pipeline.withArrays_of_ne spec6 c W A b fun w e => h ⟨w, e⟩

theorem argsOf_region6 (W : Valuation τ sig (Elt F)) (fgt : Fin cfg6.W → Bool) (c : Dev nD) (h : ArgsOf m c W)
    (A : (w : Fin cfg6.W) → Buf (Elt F) ((cfg6.win w).arr.view.loc (c : Thread nD τ)))
    (hA : ∀ w, (rdat6 W fgt c).ArrAt w cfg6.N (A w)) : ArgsOf m c (Pipeline.withArrays spec6 c W A) := fun r hr =>
  (withArrays6_of_ne_out W fgt c A hA r ((by decide : ∀ r ∈ argRefs, r ≠ main_v81) r hr)).trans (h r hr)

end Args

end Cert.KernelIdeal.Gen

end
-- ==== Proof.KI.Frames.lean ====
import proofs.«178696_j1468878815658_2_alg».proof.Proof.KI.Alg
import proofs.«178696_j1468878815658_2_alg».proof.Proof.KI.Top
import proofs.«178696_j1468878815658_2_alg».proof.Proof.KI.Chain
import proofs.«178696_j1468878815658_2_alg».proof.Proof.KI.Args
import proofs.«178696_j1468878815658_2_alg».proof.Proof.KI.Obl0
import proofs.«178696_j1468878815658_2_alg».proof.Proof.KI.Obl1
import proofs.«178696_j1468878815658_2_alg».proof.Proof.KI.Obl2
import proofs.«178696_j1468878815658_2_alg».proof.Proof.KI.Obl3
import proofs.«178696_j1468878815658_2_alg».proof.Proof.KI.Obl4
import proofs.«178696_j1468878815658_2_alg».proof.Proof.KI.Obl5
import proofs.«178696_j1468878815658_2_alg».proof.Proof.KI.Obl6

/-!
  The frame of the program, at any float instance: every weakly fair execution of @main from a memory with zero
  counters terminates, nothing faulting, and every argument array ends holding its launch contents. It is the launch
  theorem applied to the account of @main with every region's output left unnamed and the invariant "the arguments are
  as launched"; at the end the arguments are read off the last thread state against the final memory.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ UU ℕ

variable (m : (ℓ : Loc nD τ sig) → Buf (Elt F) ℓ) (ρ : Dev nD → PrngReg)

theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) := by
  refine run_of_account m ρ (Tn := fun c => iprop(TS (ArgsOf m c) c ∗ Pr c))
    (QY := fun c s => ∀ r ∈ argRefs, s.mem ((c : Thread nD τ).loc r) = m ((c : Thread nD τ).loc r))
    (hacc := fun c _ k K => ?_) (hfin := fun c s' => ?_) (hQ := fun s h c => ?_)
  · -- the account of @main, every region's output left unnamed, carrying "the arguments are as launched": it holds at
    -- launch, no host operation writes an argument, and a region writes its output array only
    exact account m fgtOut0 fgtOut1 fgtOut2 fgtOut3 fgtOut4 fgtOut5 fgtOut6 (fun _ c W => ArgsOf m c W)
      (argsOf_launch m)
      (argsOf_host0 m) (fun c W h A hA => argsOf_region0 m W fgtOut0 c h A hA) (fun W c => body_obligation0_fgt (VW W) c)
      (argsOf_host1 m) (fun c W h A hA => argsOf_region1 m W fgtOut1 c h A hA) (fun W c => body_obligation1_fgt (VW W) c)
      (argsOf_host2 m) (fun c W h A hA => argsOf_region2 m W fgtOut2 c h A hA) (fun W c => body_obligation2_fgt (VW W) c)
      (argsOf_host3 m) (fun c W h A hA => argsOf_region3 m W fgtOut3 c h A hA) (fun W c => body_obligation3_fgt (VW W) c)
      (argsOf_host4 m) (fun c W h A hA => argsOf_region4 m W fgtOut4 c h A hA) (fun W c => body_obligation4_fgt (VW W) c)
      (argsOf_host5 m) (fun c W h A hA => argsOf_region5 m W fgtOut5 c h A hA) (fun W c => body_obligation5_fgt (VW W) c)
      (argsOf_host6 m) (fun c W h A hA => argsOf_region6 m W fgtOut6 c h A hA) (fun W c => body_obligation6_fgt (VW W) c)
      c k K
  · -- the end: the last thread state holds every unscoped buffer at some valuation with the arguments as launched;
    -- the final memory agrees with that valuation at every unscoped buffer, and an argument is one
    unfold TS Held StableHlo.held
    iintro ⟨⟨⟨%W, %hW, Hh⟩, -⟩, HSI⟩
    ihave Hr := (pointsTo_read_all (Pipeline.ucRefs τ sig) (fun b => ((c : Thread nD τ).1, b)) W s') $$ [Hh HSI]
    · isplitl [Hh] <;> iassumption
    icases Hr with ⟨%h, HSI⟩
    imodintro
    isplitr
    · ipureintro
      intro r hr
      exact (h (Proc.devRef .tc r) (Finset.mem_filter.mpr ⟨StableHlo.devRef_mem_tcRefs r,
        (by decide : ∀ r ∈ argRefs, ¬ (Proc.devRef (τ := τ) .tc r).isScoped) r hr⟩)).trans (hW r hr)
    · iexact HSI
  · -- each argument is in the list
    exact ⟨h c main_arg0 (by decide), h c main_arg1 (by decide), h c main_arg2 (by decide), h c main_arg3 (by decide),
      h c main_arg4 (by decide), h c main_arg5 (by decide), h c main_arg6 (by decide), h c main_arg7 (by decide),
      h c main_arg8 (by decide), h c main_arg9 (by decide), h c main_arg10 (by decide), h c main_arg11 (by decide),
      h c main_arg12 (by decide), h c main_arg13 (by decide), h c main_arg14 (by decide), h c main_arg15 (by decide),
      h c main_arg16 (by decide), h c main_arg17 (by decide), h c main_arg18 (by decide), h c main_arg19 (by decide),
      h c main_arg20 (by decide), h c main_arg21 (by decide), h c main_arg22 (by decide), h c main_arg23 (by decide),
      h c main_arg24 (by decide), h c main_arg25 (by decide), h c main_arg26 (by decide), h c main_arg27 (by decide),
      h c main_arg28 (by decide)⟩

end Cert.KernelIdeal.Gen

end
-- ==== Proof.Ref.Imports.lean ====
import proofs.«178696_j1468878815658_2_alg».proof.Proof.Ref.ReadP

/-! The reference's read-at-an-index lemmas, gathered under one name for the modules that read the reference stage by stage. -/
-- ==== Proof.KI.Inv.lean ====
import proofs.«178696_j1468878815658_2_alg».proof.Proof.KI.Alg
import proofs.«178696_j1468878815658_2_alg».proof.Proof.Ref.Imports
import Idealize.ShloMosaic.Lib.ValueIdx

/-!
  What is known of core `c`'s buffers after each region of the idealized kernel program, in terms of the reference
  program's stage values: the facts the later items read. After region K (and before host stretch K+1) the valuation
  satisfies `E (K+1)`: the arguments as launched, the two index rows of the edge list as the reference slices them, and
  each live intermediate array EQUAL to the reference's value of the same stage. The last one says the result is the
  reference's result.
-/

noncomputable section

namespace Cert.KernelIdeal.Gen

open Idealize.ShloMosaic Idealize.ShloMosaic.TcCoe Idealize.ShloMosaic.ValueIdx
open Idealize.SL Idealize.SL.Sem

section Inv

variable (m : (ℓ : Loc nD τ sig) → Buf (Elt Ideal) ℓ) (c : Dev nD)

/-- Argument 0 at launch. -/
abbrev a0 := m ((c : Thread nD τ).loc main_arg0)
/-- Argument 1 at launch. -/
abbrev a1 := m ((c : Thread nD τ).loc main_arg1)
/-- Argument 2 at launch. -/
abbrev a2 := m ((c : Thread nD τ).loc main_arg2)
/-- Argument 3 at launch. -/
abbrev a3 := m ((c : Thread nD τ).loc main_arg3)
/-- Argument 4 at launch. -/
abbrev a4 := m ((c : Thread nD τ).loc main_arg4)
/-- Argument 5 at launch. -/
abbrev a5 := m ((c : Thread nD τ).loc main_arg5)
/-- Argument 6 at launch. -/
abbrev a6 := m ((c : Thread nD τ).loc main_arg6)
/-- Argument 7 at launch. -/
abbrev a7 := m ((c : Thread nD τ).loc main_arg7)
/-- Argument 8 at launch. -/
abbrev a8 := m ((c : Thread nD τ).loc main_arg8)
/-- Argument 9 at launch. -/
abbrev a9 := m ((c : Thread nD τ).loc main_arg9)
/-- Argument 10 at launch. -/
abbrev a10 := m ((c : Thread nD τ).loc main_arg10)
/-- Argument 11 at launch. -/
abbrev a11 := m ((c : Thread nD τ).loc main_arg11)
/-- Argument 12 at launch. -/
abbrev a12 := m ((c : Thread nD τ).loc main_arg12)
/-- Argument 13 at launch. -/
abbrev a13 := m ((c : Thread nD τ).loc main_arg13)
/-- Argument 14 at launch. -/
abbrev a14 := m ((c : Thread nD τ).loc main_arg14)
/-- Argument 15 at launch. -/
abbrev a15 := m ((c : Thread nD τ).loc main_arg15)
/-- Argument 16 at launch. -/
abbrev a16 := m ((c : Thread nD τ).loc main_arg16)
/-- Argument 17 at launch. -/
abbrev a17 := m ((c : Thread nD τ).loc main_arg17)
/-- Argument 18 at launch. -/
abbrev a18 := m ((c : Thread nD τ).loc main_arg18)
/-- Argument 19 at launch. -/
abbrev a19 := m ((c : Thread nD τ).loc main_arg19)
/-- Argument 20 at launch. -/
abbrev a20 := m ((c : Thread nD τ).loc main_arg20)
/-- Argument 21 at launch. -/
abbrev a21 := m ((c : Thread nD τ).loc main_arg21)
/-- Argument 22 at launch. -/
abbrev a22 := m ((c : Thread nD τ).loc main_arg22)
/-- Argument 23 at launch. -/
abbrev a23 := m ((c : Thread nD τ).loc main_arg23)
/-- Argument 24 at launch. -/
abbrev a24 := m ((c : Thread nD τ).loc main_arg24)
/-- Argument 25 at launch. -/
abbrev a25 := m ((c : Thread nD τ).loc main_arg25)
/-- Argument 26 at launch. -/
abbrev a26 := m ((c : Thread nD τ).loc main_arg26)
/-- Argument 27 at launch. -/
abbrev a27 := m ((c : Thread nD τ).loc main_arg27)
/-- Argument 28 at launch. -/
abbrev a28 := m ((c : Thread nD τ).loc main_arg28)

/-- What holds of the buffers at launch. -/
structure E0 (W : Valuation τ sig (Elt Ideal)) : Prop where
  args : ArgsOf m c W

/-- What holds of the buffers after region 0. -/
structure E1 (W : Valuation τ sig (Elt Ideal)) : Prop where
  args : ArgsOf m c W
  v1 : W (Proc.devRef .tc main_v1) = Cert.ReferenceIdeal.Read.val_main_v1 (F := Ideal) (a1 m c)
  v3 : W (Proc.devRef .tc main_v3) = Cert.ReferenceIdeal.Read.val_main_v3 (F := Ideal) (a1 m c)
  v7 : (W (Proc.devRef .tc main_v7) : S100000x64.Idx → EReal) = Cert.ReferenceIdeal.Read.val_main_v32 (F := Ideal) (a0 m c) (a3 m c) (a4 m c) (a5 m c) (a6 m c)

/-- What holds of the buffers after region 1. -/
structure E2 (W : Valuation τ sig (Elt Ideal)) : Prop where
  args : ArgsOf m c W
  v1 : W (Proc.devRef .tc main_v1) = Cert.ReferenceIdeal.Read.val_main_v1 (F := Ideal) (a1 m c)
  v3 : W (Proc.devRef .tc main_v3) = Cert.ReferenceIdeal.Read.val_main_v3 (F := Ideal) (a1 m c)
  v7 : (W (Proc.devRef .tc main_v7) : S100000x64.Idx → EReal) = Cert.ReferenceIdeal.Read.val_main_v32 (F := Ideal) (a0 m c) (a3 m c) (a4 m c) (a5 m c) (a6 m c)
  v11 : (W (Proc.devRef .tc main_v11) : S1000000x64.Idx → EReal) = Cert.ReferenceIdeal.Read.val_main_v61 (F := Ideal) (a2 m c) (a7 m c) (a8 m c) (a9 m c) (a10 m c)

/-- What holds of the buffers after region 2. -/
structure E3 (W : Valuation τ sig (Elt Ideal)) : Prop where
  args : ArgsOf m c W
  v1 : W (Proc.devRef .tc main_v1) = Cert.ReferenceIdeal.Read.val_main_v1 (F := Ideal) (a1 m c)
  v3 : W (Proc.devRef .tc main_v3) = Cert.ReferenceIdeal.Read.val_main_v3 (F := Ideal) (a1 m c)
  v7 : (W (Proc.devRef .tc main_v7) : S100000x64.Idx → EReal) = Cert.ReferenceIdeal.Read.val_main_v32 (F := Ideal) (a0 m c) (a3 m c) (a4 m c) (a5 m c) (a6 m c)
  v11 : (W (Proc.devRef .tc main_v11) : S1000000x64.Idx → EReal) = Cert.ReferenceIdeal.Read.val_main_v61 (F := Ideal) (a2 m c) (a7 m c) (a8 m c) (a9 m c) (a10 m c)
  v18 : (W (Proc.devRef .tc main_v18) : S100000x1.Idx → EReal) = Cert.ReferenceIdeal.Read.val_main_v84 (F := Ideal) (a1 m c)
  v21 : ∀ (k q : Fin 64), (W (Proc.devRef .tc main_v21) : S64x64.Idx → EReal) (ix2 k q) = ((a13 m c) : S128x64.Idx → EReal) (ix2 ⟨k.val + 0, by have := k.isLt; omega⟩ q)
  v22 : ∀ (k q : Fin 64), (W (Proc.devRef .tc main_v22) : S64x64.Idx → EReal) (ix2 k q) = ((a13 m c) : S128x64.Idx → EReal) (ix2 ⟨k.val + 64, by have := k.isLt; omega⟩ q)
  v31 : (W (Proc.devRef .tc main_v31) : S1000000x64.Idx → EReal) = Cert.ReferenceIdeal.Read.val_main_v74 (F := Ideal) (a0 m c) (a1 m c) (a2 m c) (a3 m c) (a4 m c) (a5 m c) (a6 m c) (a7 m c) (a8 m c) (a9 m c) (a10 m c) (a11 m c) (a12 m c)

/-- What holds of the buffers after region 3. -/
structure E4 (W : Valuation τ sig (Elt Ideal)) : Prop where
  args : ArgsOf m c W
  v1 : W (Proc.devRef .tc main_v1) = Cert.ReferenceIdeal.Read.val_main_v1 (F := Ideal) (a1 m c)
  v3 : W (Proc.devRef .tc main_v3) = Cert.ReferenceIdeal.Read.val_main_v3 (F := Ideal) (a1 m c)
  v11 : (W (Proc.devRef .tc main_v11) : S1000000x64.Idx → EReal) = Cert.ReferenceIdeal.Read.val_main_v61 (F := Ideal) (a2 m c) (a7 m c) (a8 m c) (a9 m c) (a10 m c)
  v18 : (W (Proc.devRef .tc main_v18) : S100000x1.Idx → EReal) = Cert.ReferenceIdeal.Read.val_main_v84 (F := Ideal) (a1 m c)
  v39 : (W (Proc.devRef .tc main_v39) : S100000x64.Idx → EReal) = Cert.ReferenceIdeal.Read.val_main_v117 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c)

/-- What holds of the buffers after region 4. -/
structure E5 (W : Valuation τ sig (Elt Ideal)) : Prop where
  args : ArgsOf m c W
  v1 : W (Proc.devRef .tc main_v1) = Cert.ReferenceIdeal.Read.val_main_v1 (F := Ideal) (a1 m c)
  v3 : W (Proc.devRef .tc main_v3) = Cert.ReferenceIdeal.Read.val_main_v3 (F := Ideal) (a1 m c)
  v18 : (W (Proc.devRef .tc main_v18) : S100000x1.Idx → EReal) = Cert.ReferenceIdeal.Read.val_main_v84 (F := Ideal) (a1 m c)
  v39 : (W (Proc.devRef .tc main_v39) : S100000x64.Idx → EReal) = Cert.ReferenceIdeal.Read.val_main_v117 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c)
  v42 : ∀ (k q : Fin 64), (W (Proc.devRef .tc main_v42) : S64x64.Idx → EReal) (ix2 k q) = ((a19 m c) : S128x64.Idx → EReal) (ix2 ⟨k.val + 0, by have := k.isLt; omega⟩ q)
  v43 : ∀ (k q : Fin 64), (W (Proc.devRef .tc main_v43) : S64x64.Idx → EReal) (ix2 k q) = ((a19 m c) : S128x64.Idx → EReal) (ix2 ⟨k.val + 64, by have := k.isLt; omega⟩ q)
  v52 : (W (Proc.devRef .tc main_v52) : S1000000x64.Idx → EReal) = Cert.ReferenceIdeal.Read.val_main_v130 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)

/-- What holds of the buffers after region 5. -/
structure E6 (W : Valuation τ sig (Elt Ideal)) : Prop where
  args : ArgsOf m c W
  v1 : W (Proc.devRef .tc main_v1) = Cert.ReferenceIdeal.Read.val_main_v1 (F := Ideal) (a1 m c)
  v3 : W (Proc.devRef .tc main_v3) = Cert.ReferenceIdeal.Read.val_main_v3 (F := Ideal) (a1 m c)
  v60 : (W (Proc.devRef .tc main_v60) : S100000x64.Idx → EReal) = Cert.ReferenceIdeal.Read.val_main_v173 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c)

/-- What holds of the buffers after region 6. -/
structure E7 (W : Valuation τ sig (Elt Ideal)) : Prop where
  args : ArgsOf m c W
  v81 : (W (Proc.devRef .tc main_v81) : S1000000x1.Idx → EReal) = Cert.ReferenceIdeal.Read.val_main_v208 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c)

end Inv

end Cert.KernelIdeal.Gen

end
-- ==== Proof.Spec.lean ====
import Idealize.ShloMosaic.PureOps.Ideal
import Idealize.ShloMosaic.PureOps.Ideal.Laws
import Mathlib.Algebra.BigOperators.Fin
import Mathlib.Analysis.Real.Sqrt
import Mathlib.Data.EReal.Inv
import Mathlib.Data.EReal.Operations

/-!
  One row of each dense stage of the network, over the extended reals: what the kernel's blocks and the reference's
  whole-array operations both compute, row by row. Every stage maps a row of its inputs (and whole weight matrices)
  to a row of its output; nothing couples two rows. The words both programs spell (0.0, 1.0, 64.0 and the layer
  norm's epsilon) are kept as the extended reals their bit patterns denote.

  Two forms of the layer norm appear: the kernel multiplies by the reciprocal square root, the reference divides by
  the square root. They agree because the variance is a mean of squares, hence nonnegative, so that the argument of
  the root is at least epsilon, positive (possibly infinite): there both `x * rsqrt v` and `x / sqrt v` are
  `x * (sqrt v)⁻¹` (and `0` at `v = ⊤`). Where the reference joins two or three rows and multiplies by one
  stacked weight matrix, the kernel multiplies each part by its slice of the matrix and adds: one finite sum split
  at the joints.
-/

noncomputable section

namespace Cert.Spec

open Idealize.ShloMosaic

/-- 0.0 -/
abbrev w0 : EReal := Ideal.ofBits .f32 0x00000000#32
/-- 1.0 -/
abbrev w1 : EReal := Ideal.ofBits .f32 0x3F800000#32
/-- 64.0, the width of a hidden row -/
abbrev w64 : EReal := Ideal.ofBits .f32 0x42800000#32
/-- the layer norm's epsilon -/
abbrev wEps : EReal := Ideal.ofBits .f32 0x3727C5AC#32

def relu (x : EReal) : EReal := max x w0

/-- The mean of a hidden row: its sum divided by 64. -/
def mean64 (h : Fin 64 → EReal) : EReal := Ideal.div (∑ k, h k) w64

/-- Its variance: the mean of the squared deviations. -/
def var64 (h : Fin 64 → EReal) : EReal := mean64 fun k => (h k - mean64 h) * (h k - mean64 h)

/-- Layer norm of a row, multiplying by the reciprocal root (the kernel's spelling). -/
def lnMul (h g β : Fin 64 → EReal) (q : Fin 64) : EReal :=
  (h q - mean64 h) * Ideal.rsqrt (var64 h + wEps) * g q + β q

/-- Layer norm of a row, dividing by the root (the reference's spelling). -/
def lnDiv (h g β : Fin 64 → EReal) (q : Fin 64) : EReal :=
  Ideal.div (h q - mean64 h) (Ideal.sqrt (var64 h + wEps)) * g q + β q

/-- An encoder row: linear map, ReLU, layer norm. `K` is 7 for nodes, 5 for edges. -/
def encRow {K : ℕ} (x : Fin K → EReal) (w : Fin K → Fin 64 → EReal) (b g β : Fin 64 → EReal) : Fin 64 → EReal :=
  lnMul (fun q => relu ((∑ k, x k * w k q) + b q)) g β
def encRowDiv {K : ℕ} (x : Fin K → EReal) (w : Fin K → Fin 64 → EReal) (b g β : Fin 64 → EReal) : Fin 64 → EReal :=
  lnDiv (fun q => relu ((∑ k, x k * w k q) + b q)) g β

/-- Two rows side by side. -/
def cat2 (a b : Fin 64 → EReal) (k : Fin 128) : EReal :=
  if h : k.val < 64 then a ⟨k.val, h⟩ else b ⟨k.val - 64, by have := k.isLt; omega⟩
/-- Two hidden rows and an edge-attribute row side by side. -/
def cat3 (a b : Fin 64 → EReal) (e : Fin 5 → EReal) (k : Fin 133) : EReal :=
  if h : k.val < 64 then a ⟨k.val, h⟩
  else if h' : k.val < 128 then b ⟨k.val - 64, by omega⟩ else e ⟨k.val - 128, by have := k.isLt; omega⟩

/-- A message row, the kernel's spelling: the source row and the edge row each against its half of the weights. -/
def msgRow (xs e : Fin 64 → EReal) (ws we : Fin 64 → Fin 64 → EReal) (b : Fin 64 → EReal) (q : Fin 64) : EReal :=
  relu (((∑ k, xs k * ws k q) + (∑ k, e k * we k q)) + b q)
/-- The reference's: the joined row against the stacked weights. -/
def msgRowCat (xs e : Fin 64 → EReal) (W : Fin 128 → Fin 64 → EReal) (b : Fin 64 → EReal) (q : Fin 64) : EReal :=
  relu ((∑ k, cat2 xs e k * W k q) + b q)

/-- A node-update row, the kernel's spelling: `h` the node's row, `ms` the summed messages, `cnt` the clamped count. -/
def updRow (h ms : Fin 64 → EReal) (cnt : EReal) (wh wm : Fin 64 → Fin 64 → EReal) (b g β : Fin 64 → EReal)
    (q : Fin 64) : EReal :=
  relu (lnMul (fun q' => ((∑ k, h k * wh k q') + (∑ k, Ideal.div (ms k) cnt * wm k q')) + b q') g β q + h q)
/-- The reference's. -/
def updRowCat (h ms : Fin 64 → EReal) (cnt : EReal) (W : Fin 128 → Fin 64 → EReal) (b g β : Fin 64 → EReal)
    (q : Fin 64) : EReal :=
  relu (lnDiv (fun q' => (∑ k, cat2 h (fun k => Ideal.div (ms k) cnt) k * W k q') + b q') g β q + h q)

/-- The edge predictor on one edge, the kernel's spelling (the sigmoid is the one operation `logistic`). -/
def predRow (hs ht : Fin 64 → EReal) (ea : Fin 5 → EReal) (w1s w1t : Fin 64 → Fin 64 → EReal) (w1e : Fin 5 → Fin 64 → EReal)
    (b1 : Fin 64 → EReal) (w2 : Fin 64 → Fin 32 → EReal) (b2 : Fin 32 → EReal) (w3 : Fin 32 → EReal) (b3 : EReal) : EReal :=
  Ideal.logistic ((∑ k, relu ((∑ j, relu ((((∑ i, hs i * w1s i j) + (∑ i, ht i * w1t i j)) + (∑ i, ea i * w1e i j)) + b1 j)
      * w2 j k) + b2 k) * w3 k) + b3)
/-- The reference's (the sigmoid spelt `1 / (1 + exp (-z))`). -/
def predRowCat (hs ht : Fin 64 → EReal) (ea : Fin 5 → EReal) (W1 : Fin 133 → Fin 64 → EReal)
    (b1 : Fin 64 → EReal) (w2 : Fin 64 → Fin 32 → EReal) (b2 : Fin 32 → EReal) (w3 : Fin 32 → EReal) (b3 : EReal) : EReal :=
  Ideal.div w1 (w1 + Ideal.exp (-((∑ k, relu ((∑ j, relu ((∑ i, cat3 hs ht ea i * W1 i j) + b1 j) * w2 j k) + b2 k) * w3 k) + b3)))

/-! ## The two spellings agree -/

/-! The words, as the extended reals they denote. -/

theorem w1_eq : w1 = 1 := by
  simp [w1, Ideal.ofBits, Ideal.ieee, -EReal.coe_mul]; norm_num

theorem w64_eq : w64 = ((64 : ℝ) : EReal) := by
  simp [w64, Ideal.ofBits, Ideal.ieee, -EReal.coe_mul]; norm_num

theorem wEps_eq : wEps = (((10995116 : ℝ) * (2 : ℝ) ^ (-40 : ℤ) : ℝ) : EReal) := by
  simp [wEps, Ideal.ofBits, Ideal.ieee, -EReal.coe_mul]

/-- Epsilon is a positive real. -/
theorem wEps_pos : 0 < wEps := by
  rw [wEps_eq]
  exact EReal.coe_pos.mpr (by positivity)

/-- A square is nonnegative on the extended reals (at `⊥` it is `⊤`). -/
theorem ereal_mul_self_nonneg (x : EReal) : 0 ≤ x * x :=
  EReal.mul_nonneg_iff.mpr ((le_total 0 x).elim (fun h => .inl ⟨h, h⟩) fun h => .inr ⟨h, h⟩)

/-- The mean of a nonnegative row is nonnegative: a nonnegative sum times the positive real `64⁻¹`. -/
theorem mean64_nonneg (f : Fin 64 → EReal) (hf : ∀ k, 0 ≤ f k) : 0 ≤ mean64 f := by
  have hs : 0 ≤ ∑ k, f k := Finset.sum_nonneg fun k _ => hf k
  have h64 : ((64 : ℝ) : EReal) ≠ 0 := by
    rw [Ne, EReal.coe_eq_zero]; norm_num
  have h64' : (0 : EReal) ≤ ((64 : ℝ) : EReal) := EReal.coe_nonneg.mpr (by norm_num)
  unfold mean64
  rw [w64_eq]
  unfold Ideal.div
  rw [if_neg h64]
  exact EReal.mul_nonneg hs (EReal.inv_nonneg_of_nonneg h64')

/-- The variance is a mean of squares. -/
theorem var64_nonneg (h : Fin 64 → EReal) : 0 ≤ var64 h :=
  mean64_nonneg _ fun _ => ereal_mul_self_nonneg _

/-- At a positive argument (possibly `⊤`), multiplying by the reciprocal root is dividing by the root: both are
    `a * (√r)⁻¹` at a positive real `r`, and `a * 0` at `⊤`. -/
theorem mul_rsqrt_eq_div_sqrt (a v : EReal) (hv : 0 < v) : a * Ideal.rsqrt v = Ideal.div a (Ideal.sqrt v) := by
  induction v using EReal.rec with
  | bot => exact absurd hv not_lt_bot
  | coe r =>
    have hr : 0 < r := EReal.coe_pos.mp hv
    have hs : Real.sqrt r ≠ 0 := (Real.sqrt_pos.mpr hr).ne'
    have hs' : ((Real.sqrt r : ℝ) : EReal) ≠ 0 := by
      rw [Ne, EReal.coe_eq_zero]; exact hs
    rw [Ideal.rsqrt_coe, Ideal.sqrt_coe, if_neg (not_lt.mpr hr.le), if_neg hr.ne', if_neg (not_lt.mpr hr.le)]
    unfold Ideal.div
    rw [if_neg hs', EReal.coe_inv]
  | top =>
    rw [Ideal.rsqrt_top, Ideal.sqrt_top]
    unfold Ideal.div
    rw [if_neg EReal.top_ne_zero, EReal.inv_top]

theorem lnMul_eq_lnDiv (h g β : Fin 64 → EReal) : lnMul h g β = lnDiv h g β := by
  funext q
  have hv : 0 < var64 h + wEps := lt_of_lt_of_le wEps_pos (le_add_of_nonneg_left (var64_nonneg h))
  unfold lnMul lnDiv
  rw [mul_rsqrt_eq_div_sqrt _ _ hv]

theorem encRow_eq_encRowDiv {K : ℕ} (x : Fin K → EReal) (w : Fin K → Fin 64 → EReal) (b g β : Fin 64 → EReal) :
    encRow x w b g β = encRowDiv x w b g β := lnMul_eq_lnDiv _ _ _

/-- A sum over the joined row splits at the joint. -/
theorem sum_cat2 (a b : Fin 64 → EReal) (W : Fin 128 → EReal) :
    (∑ k, cat2 a b k * W k)
      = (∑ k : Fin 64, a k * W ⟨k.val, by have := k.isLt; omega⟩) + ∑ k : Fin 64, b k * W ⟨k.val + 64, by have := k.isLt; omega⟩ := by
  have h1 : ∀ k : Fin 64, cat2 a b (Fin.castAdd 64 k) * W (Fin.castAdd 64 k)
      = a k * W ⟨k.val, by have := k.isLt; omega⟩ := by
    intro k
    have hc : cat2 a b (Fin.castAdd 64 k) = a k := dif_pos k.isLt
    rw [hc]
    rfl
  have h2 : ∀ k : Fin 64, cat2 a b (Fin.natAdd 64 k) * W (Fin.natAdd 64 k)
      = b k * W ⟨k.val + 64, by have := k.isLt; omega⟩ := by
    intro k
    have hk := k.isLt
    have hv : (Fin.natAdd 64 k).val = k.val + 64 := Nat.add_comm 64 k.val
    have hW : (Fin.natAdd 64 k : Fin 128) = ⟨k.val + 64, by omega⟩ := Fin.ext hv
    have hc : cat2 a b (Fin.natAdd 64 k) = b k := by
      unfold cat2
      rw [dif_neg (by omega)]
      exact congrArg b (Fin.ext (show (Fin.natAdd 64 k).val - 64 = k.val by omega))
    rw [hc, hW]
  refine (Fin.sum_univ_add (a := 64) (b := 64) (fun k : Fin (64 + 64) => cat2 a b k * W k)).trans ?_
  simp only [h1, h2]

theorem sum_cat3 (a b : Fin 64 → EReal) (e : Fin 5 → EReal) (W : Fin 133 → EReal) :
    (∑ k, cat3 a b e k * W k)
      = ((∑ k : Fin 64, a k * W ⟨k.val, by have := k.isLt; omega⟩) + ∑ k : Fin 64, b k * W ⟨k.val + 64, by have := k.isLt; omega⟩)
        + ∑ k : Fin 5, e k * W ⟨k.val + 128, by have := k.isLt; omega⟩ := by
  have h1 : ∀ k : Fin 64, cat3 a b e (Fin.castAdd 5 (Fin.castAdd 64 k)) * W (Fin.castAdd 5 (Fin.castAdd 64 k))
      = a k * W ⟨k.val, by have := k.isLt; omega⟩ := by
    intro k
    have hc : cat3 a b e (Fin.castAdd 5 (Fin.castAdd 64 k)) = a k := dif_pos k.isLt
    rw [hc]
    rfl
  have h2 : ∀ k : Fin 64, cat3 a b e (Fin.castAdd 5 (Fin.natAdd 64 k)) * W (Fin.castAdd 5 (Fin.natAdd 64 k))
      = b k * W ⟨k.val + 64, by have := k.isLt; omega⟩ := by
    intro k
    have hk := k.isLt
    have hv : (Fin.castAdd 5 (Fin.natAdd 64 k)).val = k.val + 64 := Nat.add_comm 64 k.val
    have hW : (Fin.castAdd 5 (Fin.natAdd 64 k) : Fin 133) = ⟨k.val + 64, by omega⟩ := Fin.ext hv
    have hc : cat3 a b e (Fin.castAdd 5 (Fin.natAdd 64 k)) = b k := by
      unfold cat3
      rw [dif_neg (by omega), dif_pos (by omega)]
      exact congrArg b (Fin.ext (show (Fin.castAdd 5 (Fin.natAdd 64 k)).val - 64 = k.val by omega))
    rw [hc, hW]
  have h3 : ∀ k : Fin 5, cat3 a b e (Fin.natAdd 128 k) * W (Fin.natAdd 128 k)
      = e k * W ⟨k.val + 128, by have := k.isLt; omega⟩ := by
    intro k
    have hk := k.isLt
    have hv : (Fin.natAdd 128 k).val = k.val + 128 := Nat.add_comm 128 k.val
    have hW : (Fin.natAdd 128 k : Fin 133) = ⟨k.val + 128, by omega⟩ := Fin.ext hv
    have hc : cat3 a b e (Fin.natAdd 128 k) = e k := by
      unfold cat3
      rw [dif_neg (by omega), dif_neg (by omega)]
      exact congrArg e (Fin.ext (show (Fin.natAdd 128 k).val - 128 = k.val by omega))
    rw [hc, hW]
  refine (Fin.sum_univ_add (a := 128) (b := 5) (fun k : Fin (128 + 5) => cat3 a b e k * W k)).trans ?_
  rw [Fin.sum_univ_add (a := 64) (b := 64) (fun k : Fin (64 + 64) => cat3 a b e (Fin.castAdd 5 k) * W (Fin.castAdd 5 k))]
  simp only [h1, h2, h3]

theorem msgRow_eq_msgRowCat (xs e : Fin 64 → EReal) (W : Fin 128 → Fin 64 → EReal) (b : Fin 64 → EReal) :
    msgRow xs e (fun k q => W ⟨k.val, by have := k.isLt; omega⟩ q) (fun k q => W ⟨k.val + 64, by have := k.isLt; omega⟩ q) b
      = msgRowCat xs e W b := by
  funext q
  unfold msgRow msgRowCat
  rw [sum_cat2 xs e (fun k => W k q)]

theorem updRow_eq_updRowCat (h ms : Fin 64 → EReal) (cnt : EReal) (W : Fin 128 → Fin 64 → EReal) (b g β : Fin 64 → EReal) :
    updRow h ms cnt (fun k q => W ⟨k.val, by have := k.isLt; omega⟩ q) (fun k q => W ⟨k.val + 64, by have := k.isLt; omega⟩ q) b g β
      = updRowCat h ms cnt W b g β := by
  funext q
  simp only [updRow, updRowCat, lnMul_eq_lnDiv, sum_cat2]

theorem predRow_eq_predRowCat (hs ht : Fin 64 → EReal) (ea : Fin 5 → EReal) (W1 : Fin 133 → Fin 64 → EReal)
    (b1 : Fin 64 → EReal) (w2 : Fin 64 → Fin 32 → EReal) (b2 : Fin 32 → EReal) (w3 : Fin 32 → EReal) (b3 : EReal) :
    predRow hs ht ea (fun k q => W1 ⟨k.val, by have := k.isLt; omega⟩ q) (fun k q => W1 ⟨k.val + 64, by have := k.isLt; omega⟩ q)
        (fun k q => W1 ⟨k.val + 128, by have := k.isLt; omega⟩ q) b1 w2 b2 w3 b3
      = predRowCat hs ht ea W1 b1 w2 b2 w3 b3 := by
  simp only [predRow, predRowCat, Ideal.logistic, w1_eq, sum_cat3]

end Cert.Spec

end
-- ==== Proof.KI.Val0.lean ====
import proofs.«178696_j1468878815658_2_alg».proof.Proof.KI.Outs
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Val

open Idealize.ShloMosaic Idealize.ShloMosaic.ValueIdx Cert.KernelIdeal Cert.KernelIdeal.Gen

open Cert.KernelIdeal.Facts₀

/-! ## Layout operations on a column, read at an index -/

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the lanes of a matrix, at row `r`, is the sum of that row. -/
theorem rowSum_apply {n m : ℕ} {φ : FTy} (y : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ y acc h hφ hacc (ix1 r) = ∑ k : Fin m, y (ix2 r k) := by
  refine (Ideal.multiReduction_add_single y acc h hφ hacc (ix1 r)).trans ?_
  refine Finset.sum_congr rfl fun k _ => congrArg y ?_
  funext c
  match c with
  | ⟨0, _⟩ => rfl
  | ⟨1, _⟩ => rfl

/-- The reciprocal root of a vector, at an index, is the reciprocal root of the element. -/
theorem rsqrt_apply {s : Shape} {φ : FTy} (a : FVec Ideal s φ) (i : s.Idx) : rsqrt a i = Ideal.rsqrt (a i) := rfl

/-- A scalar constant over the extended reals is the extended real its word denotes. -/
theorem scalar_ofBits (φ : FTy) (b : BitVec φ.bits) : Scalar.ofBits (F := Ideal) φ b = Ideal.ofBits φ b := rfl

/-! ## The matrix product onto a zero accumulator, read at an index -/

/-- The left operand's index at result index `i` and contraction index `q`: on axis 0, the result's row. -/
theorem lhs_mm0_0 (i : S8192x64.Idx) (q : dot_S8192x7_S7x64_S8192x64_1_0_0_1_n_n.contr.Idx) :
    (dot_S8192x7_S7x64_S8192x64_1_0_0_1_n_n.lhsIdx i q 0).val = (i 0).val := by
  unfold DotDims.lhsIdx
  rw [dif_neg (show ¬(0 : Fin S8192x7.rank) ∈ dot_S8192x7_S7x64_S8192x64_1_0_0_1_n_n.lhsBatch by decide), dif_pos (show (0 : Fin S8192x7.rank) ∈ dot_S8192x7_S7x64_S8192x64_1_0_0_1_n_n.lhsNonContracting by decide)]
  rfl
/-- On axis 1, the contraction's coordinate. -/
theorem lhs_mm0_1 (i : S8192x64.Idx) (q : dot_S8192x7_S7x64_S8192x64_1_0_0_1_n_n.contr.Idx) :
    (dot_S8192x7_S7x64_S8192x64_1_0_0_1_n_n.lhsIdx i q 1).val = (q ⟨0, by decide⟩).val :=
  dot_S8192x7_S7x64_S8192x64_1_0_0_1_n_n.lhsIdx_val_of_single rfl i q
/-- The right operand's index: on axis 0, the contraction's coordinate. -/
theorem rhs_mm0_0 (i : S8192x64.Idx) (q : dot_S8192x7_S7x64_S8192x64_1_0_0_1_n_n.contr.Idx) :
    (dot_S8192x7_S7x64_S8192x64_1_0_0_1_n_n.rhsIdx i q 0).val = (q ⟨0, by decide⟩).val :=
  dot_S8192x7_S7x64_S8192x64_1_0_0_1_n_n.rhsIdx_val_of_single rfl i q
/-- On axis 1, the result's column. -/
theorem rhs_mm0_1 (i : S8192x64.Idx) (q : dot_S8192x7_S7x64_S8192x64_1_0_0_1_n_n.contr.Idx) :
    (dot_S8192x7_S7x64_S8192x64_1_0_0_1_n_n.rhsIdx i q 1).val = (i 1).val := by
  unfold DotDims.rhsIdx
  rw [dif_neg (show ¬(1 : Fin S7x64.rank) ∈ dot_S8192x7_S7x64_S8192x64_1_0_0_1_n_n.rhsBatch by decide), dif_pos (show (1 : Fin S7x64.rank) ∈ dot_S8192x7_S7x64_S8192x64_1_0_0_1_n_n.rhsNonContracting by decide)]
  rfl

/-- The product of `A` and `B` onto the zero block, at `(r, q)`, is the sum over `k` of `A (r, k) * B (k, q)`. -/
theorem mm0_apply {φ₁ φ₂ : FTy} (A : FVec Ideal S8192x7 φ₁) (B : FVec Ideal S7x64 φ₂) (r : Fin 8192) (q : Fin 64) :
    matmul dot_S8192x7_S7x64_S8192x64_1_0_0_1_n_n none A B (constant S8192x64 .f32 0x00000000#32) (ix2 r q)
      = ∑ k : Fin 7, A (ix2 r k) * B (ix2 k q) := by
  refine (Ideal.matmul_constant_zero_apply dot_S8192x7_S7x64_S8192x64_1_0_0_1_n_n none A B (ix2 r q)).trans ?_
  rw [← Equiv.sum_comp (contrEquiv1 dot_S8192x7_S7x64_S8192x64_1_0_0_1_n_n 7 rfl rfl).symm]
  refine Finset.sum_congr rfl fun k _ => ?_
  have hk := contrEquiv1_symm_val dot_S8192x7_S7x64_S8192x64_1_0_0_1_n_n 7 rfl rfl k
  have el : dot_S8192x7_S7x64_S8192x64_1_0_0_1_n_n.lhsIdx (ix2 r q) ((contrEquiv1 dot_S8192x7_S7x64_S8192x64_1_0_0_1_n_n 7 rfl rfl).symm k) = ix2 r k := funext fun a => Fin.ext (by
    match a with
    | ⟨0, _⟩ => exact lhs_mm0_0 _ _
    | ⟨1, _⟩ => exact (lhs_mm0_1 _ _).trans hk)
  have er : dot_S8192x7_S7x64_S8192x64_1_0_0_1_n_n.rhsIdx (ix2 r q) ((contrEquiv1 dot_S8192x7_S7x64_S8192x64_1_0_0_1_n_n 7 rfl rfl).symm k) = ix2 k q := funext fun a => Fin.ext (by
    match a with
    | ⟨0, _⟩ => exact (rhs_mm0_0 _ _).trans hk
    | ⟨1, _⟩ => exact rhs_mm0_1 _ _)
  rw [el, er]

/-! ## Region 0: the pre-activation, then the layer norm -/

/-- The block after the ReLU: the product of the block of `x` with `w`, plus the bias row, clamped at zero. -/
def act0 (x : Vec Ideal S8192x7 .f32) (w : Vec Ideal S7x64 .f32) (b : Vec Ideal S1x64 .f32) : FVec Ideal S8192x64 .f32 :=
  maximumf
    (addf
      (matmul dot_S8192x7_S7x64_S8192x64_1_0_0_1_n_n none (truncf .bf16 x bitsLt_bf16_f32) (truncf .bf16 w bitsLt_bf16_f32)
        (constant S8192x64 .f32 0x00000000#32))
      (broadcastTo S8192x64 (shapeCast S1x64 b shapeCasts_S1x64_S1x64) broadcasts_S1x64_S8192x64))
    (broadcast S8192x64 (Scalar.ofBits .f32 0x00000000#32))

/-- At `(r, q)` it is the ReLU of row `r` of `x` against column `q` of `w`, plus the bias at `q`. -/
theorem act0_apply (x : Vec Ideal S8192x7 .f32) (w : Vec Ideal S7x64 .f32) (b : Vec Ideal S1x64 .f32) (r : Fin 8192) (q : Fin 64) :
    act0 x w b (ix2 r q) = Cert.Spec.relu ((∑ k : Fin 7, x (ix2 r k) * w (ix2 k q)) + b (ix2 0 q)) := by
  unfold act0
  rw [shapeCast_self]
  refine (maximumf_apply _ _ _).trans ?_
  refine congrArg (fun t => max t _) ?_
  refine (addf_apply _ _ _).trans ?_
  refine congrArg₂ (· + ·) ?_ ?_
  · exact mm0_apply _ _ r q
  · exact broadcastTo_1b_ab_apply b broadcasts_S1x64_S8192x64 r q

/-- The mean column of a block: each row's sum over the lanes, divided by 64. -/
def mean0 (h : FVec Ideal S8192x64 .f32) : FVec Ideal S8192x1 .f32 :=
  divf (shapeCast S8192x1 (multiReduction .add [1] S8192 h 0x00000000#32 reduces_S8192x64_S8192 (.inl rfl) rfl) shapeCasts_S8192_S8192x1)
    (broadcast S8192x1 (Scalar.ofBits .f32 0x42800000#32))

/-- At row `r` it is the mean of that row. -/
theorem mean0_apply (h : FVec Ideal S8192x64 .f32) (r : Fin 8192) (u : Fin 1) :
    mean0 h (ix2 r u) = Cert.Spec.mean64 (fun k : Fin 64 => h (ix2 r k)) := by
  unfold mean0 Cert.Spec.mean64
  refine (divf_apply _ _ _).trans ?_
  refine congrArg₂ Ideal.div ?_ rfl
  refine (shapeCast_a_a1_apply _ shapeCasts_S8192_S8192x1 r u).trans ?_
  exact rowSum_apply h _ _ _ _ r

/-- The layer norm of a block `h` with scale row `g` and shift row `β`: each row less its mean, times the
    reciprocal root of its variance plus epsilon, times the scale, plus the shift. -/
def ln0 (h : FVec Ideal S8192x64 .f32) (g β : Vec Ideal S1x64 .f32) : FVec Ideal S8192x64 .bf16 :=
  have dev : FVec Ideal S8192x64 .f32 := subf h (broadcastTo S8192x64 (mean0 h) broadcasts_S8192x1_S8192x64)
  have inv : FVec Ideal S8192x1 .f32 := rsqrt (addf (mean0 (mulf dev dev)) (broadcast S8192x1 (Scalar.ofBits .f32 0x3727C5AC#32)))
  truncf .bf16
    (addf
      (mulf (mulf dev (broadcastTo S8192x64 inv broadcasts_S8192x1_S8192x64))
        (broadcastTo S8192x64 (shapeCast S1x64 g shapeCasts_S1x64_S1x64) broadcasts_S1x64_S8192x64))
      (broadcastTo S8192x64 (shapeCast S1x64 β shapeCasts_S1x64_S1x64) broadcasts_S1x64_S8192x64))
    bitsLt_bf16_f32

/-- The payload of region 0 is the layer norm of the pre-activation. -/
theorem k0_pay1_eq (x : Vec Ideal S8192x7 .f32) (w : Vec Ideal S7x64 .f32) (b g β : Vec Ideal S1x64 .f32) :
    k0_pay1 x w b g β = ln0 (act0 x w b) g β := rfl

/-- The layer norm at `(r, q)` is the row specification's layer norm of row `r`. -/
theorem ln0_apply (h : FVec Ideal S8192x64 .f32) (g β : Vec Ideal S1x64 .f32) (r : Fin 8192) (q : Fin 64) :
    ln0 h g β (ix2 r q)
      = Cert.Spec.lnMul (fun q' : Fin 64 => h (ix2 r q')) (fun q' : Fin 64 => g (ix2 0 q')) (fun q' : Fin 64 => β (ix2 0 q')) q := by
  unfold ln0
  simp only [shapeCast_self, truncf_apply, addf_apply, mulf_apply, subf_apply, rsqrt_apply, broadcast_apply,
    broadcastTo_a1_ab_apply, broadcastTo_1b_ab_apply, mean0_apply, scalar_ofBits]
  rfl

/-- Region 0's stored value at row `r`, over the extended reals, is the row specification of row `r` of its
    row-tiled inputs and the whole weights: no other row enters. -/
theorem out0_apply (x : Vec Ideal S8192x7 .f32) (w : Vec Ideal S7x64 .f32) (b g β : Vec Ideal S1x64 .f32) (r : Fin 8192) (q : Fin 64) :
    out0 x w b g β (ix2 r q)
      = Cert.Spec.encRow (fun k : Fin 7 => x (ix2 r k)) (fun (k : Fin 7) (q' : Fin 64) => w (ix2 k q')) (fun q' : Fin 64 => b (ix2 0 q')) (fun q' : Fin 64 => g (ix2 0 q')) (fun q' : Fin 64 => β (ix2 0 q')) q := by
  unfold out0
  rw [k0_pay1_eq, ln0_apply]
  unfold Cert.Spec.encRow
  exact congrArg (fun h => Cert.Spec.lnMul h _ _ q) (funext fun q' => act0_apply x w b r q')

end Cert.KernelIdeal.Gen.Val

end
-- ==== Proof.KI.Loc0.lean ====
import proofs.«178696_j1468878815658_2_alg».proof.Proof.KI.Val0

noncomputable section

namespace Cert.KernelIdeal.Gen.Val

open Idealize.ShloMosaic Idealize.ShloMosaic.ValueIdx Cert.KernelIdeal Cert.KernelIdeal.Gen
open Cert.KernelIdeal.Facts₀

/-- Region 0's stored row `r` depends on the block of `x` through its row `r` alone. -/
theorem out0_congr_row (x x' : Vec Ideal S8192x7 .f32) (w : Vec Ideal S7x64 .f32) (b g β : Vec Ideal S1x64 .f32) (r : Fin 8192)
    (hx : ∀ k : Fin 7, x (ix2 r k) = x' (ix2 r k)) (q : Fin 64) :
    out0 x w b g β (ix2 r q) = out0 x' w b g β (ix2 r q) := by
  rw [out0_apply, out0_apply]
  exact congrArg (fun row => Cert.Spec.encRow row _ _ _ _ q) (funext hx)

end Cert.KernelIdeal.Gen.Val

end
-- ==== Proof.KI.Cut0.lean ====
import proofs.«178696_j1468878815658_2_alg».proof.Proof.KI.Loc0
import proofs.«178696_j1468878815658_2_alg».proof.Proof.Gen.KernelIdeal.Launch
import proofs.«178696_j1468878815658_2_alg».proof.Proof.Gen.KernelIdeal.Points
import Idealize.ShloMosaic.Lib.Pipeline.Kit

noncomputable section

namespace Cert.KernelIdeal.Gen.Val

open Idealize.ShloMosaic Idealize.ShloMosaic.ValueIdx Cert.KernelIdeal Cert.KernelIdeal.Gen
open Idealize.ShloMosaic.Pipeline (Window)

/-- Two fillings of a block with the same moved part agree at every index the transfer moves. -/
private theorem fill_congr_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill
  rw [dif_pos h, dif_pos h]

/-- The block of `x` and the stored block are cut alike on the row axis: one row index map, one block height, one
    array height. -/
theorem xsize0_row (i : grid0.Coords) : (cfg0.win 0).xsize i (0 : Fin 2) = (cfg0.win 5).xsize i (0 : Fin 2) := rfl
/-- On the column axis the block of `x` is not cut. -/
theorem xsize0_col (i : grid0.Coords) : (cfg0.win 0).xsize i (1 : Fin 2) = 7 := rfl

/-- The part of region 0's stored block that the write-back moves does not depend on what the block of `x` holds
    past the part its fetch moved. -/
theorem cut_out0_fill (t : Fin cfg0.N)
    (d0 d0' : (cfg0.win 0).block.Idx → Elt Ideal (cfg0.win 0).elt) (b0 : ((cfg0.win 0).xblock (cfg0.grid.coords t)).Idx → Elt Ideal (cfg0.win 0).elt)
    (w : Vec Ideal S7x64 .f32) (b : Vec Ideal S1x64 .f32) (g : Vec Ideal S1x64 .f32) (β : Vec Ideal S1x64 .f32) :
    (cfg0.win 5).cut (cfg0.grid.coords t) (out0 ((cfg0.win 0).fill (cfg0.grid.coords t) d0 b0) w b g β)
      = (cfg0.win 5).cut (cfg0.grid.coords t) (out0 ((cfg0.win 0).fill (cfg0.grid.coords t) d0' b0) w b g β) := by
  funext j
  -- the moved index `j` of the stored block is row `r`, column `q` of the block
  have hr : (j (0 : Fin 2)).val < 8192 := Nat.lt_of_lt_of_le (j (0 : Fin 2)).isLt ((cfg0.win 5).xsize_le (cfg0.grid.coords t) (0 : Fin 2))
  have hq : (j (1 : Fin 2)).val < 64 := Nat.lt_of_lt_of_le (j (1 : Fin 2)).isLt ((cfg0.win 5).xsize_le (cfg0.grid.coords t) (1 : Fin 2))
  have hj : (cfg0.win 5).xinj (cfg0.grid.coords t) j = ix2 (⟨(j (0 : Fin 2)).val, hr⟩ : Fin 8192) (⟨(j (1 : Fin 2)).val, hq⟩ : Fin 64) :=
    funext fun a => match a with | ⟨0, _⟩ => rfl | ⟨1, _⟩ => rfl
  show out0 _ w b g β ((cfg0.win 5).xinj (cfg0.grid.coords t) j) = out0 _ w b g β ((cfg0.win 5).xinj (cfg0.grid.coords t) j)
  rw [hj]
  -- row `r` of the output reads row `r` of `x` alone, and that row lies in the part the fetch moved
  refine out0_congr_row _ _ w b g β ⟨(j (0 : Fin 2)).val, hr⟩ (fun k => ?_) ⟨(j (1 : Fin 2)).val, hq⟩
  refine fill_congr_of_moved (cfg0.win 0) (cfg0.grid.coords t) d0 d0' b0 _ (((cfg0.win 0).moved_iff (cfg0.grid.coords t) _).mpr fun a => ?_)
  match a with
  | ⟨0, _⟩ => exact lt_of_lt_of_eq (j (0 : Fin 2)).isLt (xsize0_row (cfg0.grid.coords t)).symm
  | ⟨1, _⟩ => exact lt_of_lt_of_eq k.isLt (xsize0_col (cfg0.grid.coords t)).symm

end Cert.KernelIdeal.Gen.Val

end
-- ==== Proof.KI.Named0.lean ====
import proofs.«178696_j1468878815658_2_alg».proof.Proof.KI.Obl0
import proofs.«178696_j1468878815658_2_alg».proof.Proof.KI.Cut0

/-!
  Region 0's body obligation over the extended reals with EVERY window named. The output's staging buffer is stated on
  the rows inside the array only; there what the body stores does not depend on the words the clipped fetch left in the
  rest of the input buffers, because a stored row is a function of the same row of each row-tiled input alone.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Idealize.ShloMosaic.Ideal) ((c : Thread nD τ).loc b))

theorem body_obligation0_named (c : Dev nD) :
    BodyObligationLoose (dat0 (F := Idealize.ShloMosaic.Ideal) V c) (defs₀ (F := Idealize.ShloMosaic.Ideal)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%dO, HX⟩⟩
  rw [before0_0 V c t d0, before0_1 V c t d1, before0_2 V c t d2, before0_3 V c t d3, before0_4 V c t d4]
  iapply (sound_kernel0 (F := Idealize.ShloMosaic.Ideal) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) ((cfg0.win 0).fill (cfg0.grid.coords t) d0 (iblk0 V c 0 t)) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [HX]; · iexists _; iexact HX
  iintro ⟨H0, H1, H2, H3, H4, HX⟩
  isplitl [HΦ]; · iexact HΦ
  isplitl [Ho]; · iexact Ho
  isplitl [H0]
  · iexists d0
    rw [after0_0]; unfold fblk0; rw [(cfg0.win 0).cut_fill]; iexact H0
  isplitl [H1]
  · rw [after0_1]; iexact H1
  isplitl [H2]
  · rw [after0_2]; iexact H2
  isplitl [H3]
  · rw [after0_3]; iexact H3
  isplitl [H4]
  · rw [after0_4]; iexact H4
  iexists (out0 ((cfg0.win 0).fill (cfg0.grid.coords t) d0 (iblk0 V c 0 t)) (iblk0 V c 1 t) (iblk0 V c 2 t) (iblk0 V c 3 t) (iblk0 V c 4 t))
  rw [after0_5]; unfold fblk0
  rw [(cfg0.win 5).fill_congr_cut (cfg0.grid.coords t) (Val.cut_out0_fill t d0 (fun _ => Classical.arbitrary _) (iblk0 V c 0 t) (iblk0 V c 1 t) (iblk0 V c 2 t) (iblk0 V c 3 t) (iblk0 V c 4 t))]
  iexact HX

end Cert.KernelIdeal.Gen

end
-- ==== Proof.KI.Fin0.lean ====
import proofs.«178696_j1468878815658_2_alg».proof.Proof.KI.Dat0
import proofs.«178696_j1468878815658_2_alg».proof.Proof.KI.Val0
import proofs.«178696_j1468878815658_2_alg».proof.Proof.Spec
import Idealize.ShloMosaic.Lib.ValueIdx
import Idealize.ShloMosaic.Lib.Pipeline.Value
import Idealize.ShloMosaic.PureOps.Ideal

/-!
  Region 0, the node encoder, over the extended reals: the stored array after all thirteen write-backs, row by row.

  Point `t` writes back the rows of its block that lie inside the array: rows `t * 8192 + r'` for `r'` below the cut.
  The body's stored row `r'` is the encoder's row specification of row `r'` of the block of `x` and of the weight
  blocks; the block of `x` at a moved row is the entry array's row `t * 8192 + r'` (the row index map is `t`, the
  column index map `0`), and each weight block is its whole array (index maps `0`). So what point `t` writes back is
  block `t` of ONE function of the entry arrays, and since every row `R` of the array lies in the block of point
  `R / 8192` — below the cut, which is made at the array's end — the array ends holding that function.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Final

open Idealize.ShloMosaic.ValueIdx

variable (V : (c : Dev nD) → (b : Ref sig .tc) → Buf (Elt Idealize.ShloMosaic.Ideal) ((c : Thread nD τ).loc b))

/-- The part of a cut block that a transfer moves reaches past every coordinate that lies both in the block and
    in the array: the cut is made at the array's end, or not at all. -/
theorem clipOf_lt_off_add_extent {ix k d i : Nat} (h1 : i < (ix + 1) * k) (h2 : i < d) :
    i < ix * k + (Pipeline.Clip.of ix k d).extent k := by
  unfold Pipeline.Clip.of
  split
  · show i < ix * k + k
    rw [Nat.succ_mul] at h1
    exact h1
  · show i < ix * k + (d - ix * k)
    omega

/-- The index maps of region 0, decided over its thirteen points: the row-tiled windows (the rows of `x`, the
    stored rows) are at block `t` of the rows and block 0 of the columns; the weight windows at block 0 of both. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row of the block of `x` that the fetch moved is the row of the entry array at the block's offset. -/
theorem fblk0_row (c : Dev nD) (t : Fin cfg0.N) (r' : Fin 8192)
    (hr : r'.val < (cfg0.win 0).xsize (cfg0.grid.coords t) (0 : Fin 2)) (R : Fin 100000)
    (hR : R.val = t.val * 8192 + r'.val) (k : Fin 7) :
    fblk0 V c 0 t (ix2 r' k) = (V c main_arg0 : S100000x7.Idx → EReal) (ix2 R k) := by
  obtain ⟨e00, e01, -⟩ := idx_facts0 t
  have hm : (cfg0.win 0).moved (cfg0.grid.coords t) (ix2 r' k) = true :=
    ((cfg0.win 0).moved_iff (cfg0.grid.coords t) _).mpr fun a => by
      match a with
      | ⟨0, _⟩ => exact hr
      | ⟨1, _⟩ => exact k.isLt
  unfold fblk0 Pipeline.Window.fill
  rw [dif_pos hm]
  unfold iblk0
  show (V c main_arg0 : S100000x7.Idx → EReal) (((cfg0.win 0).blk t).view.emb _) = _
  refine congrArg _ (funext fun a => Fin.ext ?_)
  match a with
  | ⟨0, _⟩ =>
    show win0_0.index t (0 : Fin 2) * 8192 + 1 * r'.val = R.val
    rw [e00, hR]; omega
  | ⟨1, _⟩ =>
    show win0_0.index t (1 : Fin 2) * 7 + 1 * k.val = k.val
    rw [e01]; omega

/-- The weight windows' blocks are their whole arrays. -/
theorem iblk0_1 (c : Dev nD) (t : Fin cfg0.N) (k : Fin 7) (q : Fin 64) :
    iblk0 V c 1 t (ix2 k q) = (V c main_arg3 : S7x64.Idx → EReal) (ix2 k q) := by
  obtain ⟨-, -, e0, e1, -⟩ := idx_facts0 t
  unfold iblk0
  show (V c main_arg3 : S7x64.Idx → EReal) (((cfg0.win 1).blk t).view.emb (ix2 k q)) = _
  refine congrArg _ (funext fun a => Fin.ext ?_)
  match a with
  | ⟨0, _⟩ => show win0_1.index t (0 : Fin 2) * 7 + 1 * k.val = k.val; rw [e0]; omega
  | ⟨1, _⟩ => show win0_1.index t (1 : Fin 2) * 64 + 1 * q.val = q.val; rw [e1]; omega

theorem iblk0_2 (c : Dev nD) (t : Fin cfg0.N) (z : Fin 1) (q : Fin 64) :
    iblk0 V c 2 t (ix2 z q) = (V c main_v4 : S1x64.Idx → EReal) (ix2 z q) := by
  obtain ⟨-, -, -, -, e0, e1, -⟩ := idx_facts0 t
  unfold iblk0
  show (V c main_v4 : S1x64.Idx → EReal) (((cfg0.win 2).blk t).view.emb (ix2 z q)) = _
  refine congrArg _ (funext fun a => Fin.ext ?_)
  match a with
  | ⟨0, _⟩ => show win0_2.index t (0 : Fin 2) * 1 + 1 * z.val = z.val; rw [e0]; omega
  | ⟨1, _⟩ => show win0_2.index t (1 : Fin 2) * 64 + 1 * q.val = q.val; rw [e1]; omega

theorem iblk0_3 (c : Dev nD) (t : Fin cfg0.N) (z : Fin 1) (q : Fin 64) :
    iblk0 V c 3 t (ix2 z q) = (V c main_v5 : S1x64.Idx → EReal) (ix2 z q) := by
  obtain ⟨-, -, -, -, -, -, e0, e1, -⟩ := idx_facts0 t
  unfold iblk0
  show (V c main_v5 : S1x64.Idx → EReal) (((cfg0.win 3).blk t).view.emb (ix2 z q)) = _
  refine congrArg _ (funext fun a => Fin.ext ?_)
  match a with
  | ⟨0, _⟩ => show win0_3.index t (0 : Fin 2) * 1 + 1 * z.val = z.val; rw [e0]; omega
  | ⟨1, _⟩ => show win0_3.index t (1 : Fin 2) * 64 + 1 * q.val = q.val; rw [e1]; omega

theorem iblk0_4 (c : Dev nD) (t : Fin cfg0.N) (z : Fin 1) (q : Fin 64) :
    iblk0 V c 4 t (ix2 z q) = (V c main_v6 : S1x64.Idx → EReal) (ix2 z q) := by
  obtain ⟨-, -, -, -, -, -, -, -, e0, e1, -⟩ := idx_facts0 t
  unfold iblk0
  show (V c main_v6 : S1x64.Idx → EReal) (((cfg0.win 4).blk t).view.emb (ix2 z q)) = _
  refine congrArg _ (funext fun a => Fin.ext ?_)
  match a with
  | ⟨0, _⟩ => show win0_4.index t (0 : Fin 2) * 1 + 1 * z.val = z.val; rw [e0]; omega
  | ⟨1, _⟩ => show win0_4.index t (1 : Fin 2) * 64 + 1 * q.val = q.val; rw [e1]; omega

/-- What the stored array holds at the end, as one function of the entry arrays: at row `i 0`, the encoder's row
    specification of that row of `x` and of the whole weights. -/
def G0 (c : Dev nD) : S100000x64.Idx → EReal := fun i =>
  Cert.Spec.encRow (fun k : Fin 7 => (V c main_arg0 : S100000x7.Idx → EReal) (ix2 (i 0) k))
    (fun (k : Fin 7) (q' : Fin 64) => (V c main_arg3 : S7x64.Idx → EReal) (ix2 k q'))
    (fun q' : Fin 64 => (V c main_v4 : S1x64.Idx → EReal) (ix2 0 q'))
    (fun q' : Fin 64 => (V c main_v5 : S1x64.Idx → EReal) (ix2 0 q'))
    (fun q' : Fin 64 => (V c main_v6 : S1x64.Idx → EReal) (ix2 0 q')) (i 1)

/-- What point `t` writes back is block `t` of that function. -/
theorem flushed0_eq (c : Dev nD) (t : Fin cfg0.N) :
    (dat0 (F := Idealize.ShloMosaic.Ideal) V c).flushed 5 t
      = ((cfg0.win 5).blk t).view.read (Elt Idealize.ShloMosaic.Ideal) (G0 V c) := by
  show (cfg0.win 5).cut (cfg0.grid.coords t) ((dat0 (F := Idealize.ShloMosaic.Ideal) V c).after 5 t) = _
  rw [after0_5]
  funext j
  obtain ⟨-, -, -, -, -, -, -, -, -, -, e50, e51⟩ := idx_facts0 t
  have hr : (j (0 : Fin 2)).val < 8192 :=
    Nat.lt_of_lt_of_le (j (0 : Fin 2)).isLt ((cfg0.win 5).xsize_le (cfg0.grid.coords t) (0 : Fin 2))
  have hq : (j (1 : Fin 2)).val < 64 :=
    Nat.lt_of_lt_of_le (j (1 : Fin 2)).isLt ((cfg0.win 5).xsize_le (cfg0.grid.coords t) (1 : Fin 2))
  have hj : (cfg0.win 5).xinj (cfg0.grid.coords t) j
      = ix2 (⟨(j (0 : Fin 2)).val, hr⟩ : Fin 8192) (⟨(j (1 : Fin 2)).val, hq⟩ : Fin 64) :=
    funext fun a => match a with | ⟨0, _⟩ => rfl | ⟨1, _⟩ => rfl
  -- where the moved index sits in the array
  have hi0 : ((((cfg0.win 5).blk t).view.emb j) (0 : Fin 2)).val = t.val * 8192 + (j (0 : Fin 2)).val := by
    show win0_5.index t (0 : Fin 2) * 8192 + 1 * (j (0 : Fin 2)).val = _
    rw [e50]; omega
  have hi1 : (((cfg0.win 5).blk t).view.emb j) (1 : Fin 2) = (⟨(j (1 : Fin 2)).val, hq⟩ : Fin 64) := Fin.ext (by
    show win0_5.index t (1 : Fin 2) * 64 + 1 * (j (1 : Fin 2)).val = (j (1 : Fin 2)).val
    rw [e51]; omega)
  show out0 (F := Idealize.ShloMosaic.Ideal) _ _ _ _ _ ((cfg0.win 5).xinj (cfg0.grid.coords t) j) = G0 V c (((cfg0.win 5).blk t).view.emb j)
  rw [hj, Val.out0_apply]
  unfold G0
  rw [hi1]
  have hx : (fun k : Fin 7 => fblk0 V c 0 t (ix2 (⟨(j (0 : Fin 2)).val, hr⟩ : Fin 8192) k))
      = fun k : Fin 7 => (V c main_arg0 : S100000x7.Idx → EReal) (ix2 ((((cfg0.win 5).blk t).view.emb j) (0 : Fin 2)) k) :=
    funext fun k => fblk0_row V c t ⟨(j (0 : Fin 2)).val, hr⟩ (j (0 : Fin 2)).isLt _ hi0 k
  have hw : (fun (k : Fin 7) (q' : Fin 64) => iblk0 V c 1 t (ix2 k q'))
      = fun (k : Fin 7) (q' : Fin 64) => (V c main_arg3 : S7x64.Idx → EReal) (ix2 k q') :=
    funext fun k => funext fun q' => iblk0_1 V c t k q'
  have hb : (fun q' : Fin 64 => iblk0 V c 2 t (ix2 0 q')) = fun q' : Fin 64 => (V c main_v4 : S1x64.Idx → EReal) (ix2 0 q') :=
    funext fun q' => iblk0_2 V c t 0 q'
  have hg : (fun q' : Fin 64 => iblk0 V c 3 t (ix2 0 q')) = fun q' : Fin 64 => (V c main_v5 : S1x64.Idx → EReal) (ix2 0 q') :=
    funext fun q' => iblk0_3 V c t 0 q'
  have hβ : (fun q' : Fin 64 => iblk0 V c 4 t (ix2 0 q')) = fun q' : Fin 64 => (V c main_v6 : S1x64.Idx → EReal) (ix2 0 q') :=
    funext fun q' => iblk0_4 V c t 0 q'
  rw [hx, hw, hb, hg, hβ]

/-- Every index of the stored array lies in the block of the point its row falls in. -/
theorem cover0 (i : S100000x64.Idx) :
    ∃ t : Fin cfg0.N, (cfg0.win 5).flush t = true ∧ i ∈ ((cfg0.win 5).blk t).view.set := by
  have hi0 : (i (0 : Fin 2)).val < 100000 := (i (0 : Fin 2)).isLt
  have hi1 : (i (1 : Fin 2)).val < 64 := (i (1 : Fin 2)).isLt
  obtain ⟨t, ht⟩ : ∃ t : Fin cfg0.N, t.val = (i (0 : Fin 2)).val / 8192 :=
    ⟨⟨(i (0 : Fin 2)).val / 8192, by show _ < 13; omega⟩, rfl⟩
  obtain ⟨-, -, -, -, -, -, -, -, -, -, e50, e51⟩ := idx_facts0 t
  refine ⟨t, flush0_5 t, ?_⟩
  show i ∈ ((View.whole main_v7).slice (win0_5.rect t)).set
  rw [View.set_slice_whole, Rect.mem_set_unit]
  intro a
  match a with
  | ⟨0, _⟩ =>
    show win0_5.index t (0 : Fin 2) * 8192 ≤ (i (0 : Fin 2)).val
      ∧ (i (0 : Fin 2)).val < win0_5.index t (0 : Fin 2) * 8192 + (Pipeline.Clip.of (win0_5.index t (0 : Fin 2)) 8192 100000).extent 8192
    rw [e50, ht]
    exact ⟨by omega, clipOf_lt_off_add_extent (by omega) hi0⟩
  | ⟨1, _⟩ =>
    show win0_5.index t (1 : Fin 2) * 64 ≤ (i (1 : Fin 2)).val
      ∧ (i (1 : Fin 2)).val < win0_5.index t (1 : Fin 2) * 64 + (Pipeline.Clip.of (win0_5.index t (1 : Fin 2)) 64 64).extent 64
    rw [e51]
    exact ⟨by omega, clipOf_lt_off_add_extent (by omega) hi1⟩

theorem final0 (c : Dev nD) (r : Fin 100000) (q : Fin 64) :
    ((dat0 (F := Idealize.ShloMosaic.Ideal) V c).arrAt 5 cfg0.N : S100000x64.Idx → EReal) (ix2 r q)
      = Cert.Spec.encRow (fun k : Fin 7 => (V c main_arg0 : S100000x7.Idx → EReal) (ix2 r k)) (fun (k : Fin 7) (q' : Fin 64) => (V c main_arg3 : S7x64.Idx → EReal) (ix2 k q')) (fun q' : Fin 64 => (V c main_v4 : S1x64.Idx → EReal) (ix2 0 q')) (fun q' : Fin 64 => (V c main_v5 : S1x64.Idx → EReal) (ix2 0 q')) (fun q' : Fin 64 => (V c main_v6 : S1x64.Idx → EReal) (ix2 0 q')) q := by
  have key := (dat0 (F := Idealize.ShloMosaic.Ideal) V c).arrAt_eq_of_cover 5 (G0 V c)
    (fun t _ => flushed0_eq V c t) cover0
  exact congrFun key (ix2 r q)

end Final

end Cert.KernelIdeal.Gen

end
-- ==== Proof.Ref.Row0.lean ====
import proofs.«178696_j1468878815658_2_alg».proof.Proof.Ref.Imports
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.Read

variable (x0 : (⟨S100000x7, .f32⟩ : BufTy).Contents (Elt Ideal)) (x1 : (⟨S2x1000000, .i32⟩ : BufTy).Contents (Elt Ideal))
  (x2 : (⟨S1000000x5, .f32⟩ : BufTy).Contents (Elt Ideal)) (x3 : (⟨S7x64, .f32⟩ : BufTy).Contents (Elt Ideal))
  (x4 x5 x6 : (⟨S64, .f32⟩ : BufTy).Contents (Elt Ideal)) (x7 : (⟨S5x64, .f32⟩ : BufTy).Contents (Elt Ideal))
  (x8 x9 x10 : (⟨S64, .f32⟩ : BufTy).Contents (Elt Ideal)) (x11 : (⟨S128x64, .f32⟩ : BufTy).Contents (Elt Ideal))
  (x12 : (⟨S64, .f32⟩ : BufTy).Contents (Elt Ideal)) (x13 : (⟨S128x64, .f32⟩ : BufTy).Contents (Elt Ideal))
  (x14 x15 x16 : (⟨S64, .f32⟩ : BufTy).Contents (Elt Ideal)) (x17 : (⟨S128x64, .f32⟩ : BufTy).Contents (Elt Ideal))
  (x18 : (⟨S64, .f32⟩ : BufTy).Contents (Elt Ideal)) (x19 : (⟨S128x64, .f32⟩ : BufTy).Contents (Elt Ideal))
  (x20 x21 x22 : (⟨S64, .f32⟩ : BufTy).Contents (Elt Ideal)) (x23 : (⟨S133x64, .f32⟩ : BufTy).Contents (Elt Ideal))
  (x24 : (⟨S64, .f32⟩ : BufTy).Contents (Elt Ideal)) (x25 : (⟨S64x32, .f32⟩ : BufTy).Contents (Elt Ideal))
  (x26 : (⟨S32, .f32⟩ : BufTy).Contents (Elt Ideal)) (x27 : (⟨S32x1, .f32⟩ : BufTy).Contents (Elt Ideal))
  (x28 : (⟨S1, .f32⟩ : BufTy).Contents (Elt Ideal))

/-- The row before the layer norm: the linear map's sum over the seven input columns, the bias, the ReLU. -/
theorem row_v8 (r : Fin 100000) (q : Fin 64) :
    val_main_v8 (F := Ideal) x0 x3 x4 (ix2 r q)
      = Cert.Spec.relu ((∑ k : Fin 7, x0 (ix2 r k) * x3 (ix2 k q)) + x4 (ix1 q)) := by
  have el : ∀ k : Fin 7, lidx_main_v4 (ix2 r q) k = ix2 r k := fun k =>
    funext fun a => Fin.ext (by match a with | ⟨0, _⟩ => rfl | ⟨1, _⟩ => rfl)
  have er : ∀ k : Fin 7, ridx_main_v4 (ix2 r q) k = ix2 k q := fun k =>
    funext fun a => Fin.ext (by match a with | ⟨0, _⟩ => rfl | ⟨1, _⟩ => rfl)
  have eb : idx_main_v5 (idx_main_v6 (ix2 r q)) = ix1 q :=
    funext fun a => Fin.ext (by match a with | ⟨0, _⟩ => rfl)
  rw [val_main_v8_apply, val_main_v7_apply, val_main_v4_apply, val_main_v6_apply, val_main_v5_apply,
    val_main_call0_v0_apply, val_main_call0_cst_apply]
  simp only [el, er, eb, Ideal.addf_def, Ideal.maximumf_def, Ideal.ofBits_def]
  rfl

/-- The row's mean, as the reference computes it (the sum from the initial value 0, divided by 64), is the mean of
    the row before the norm; the mean is held in a one-column array, read at its only column `z`. -/
theorem row_v12 (r : Fin 100000) (z : Fin 1) :
    val_main_v12 (F := Ideal) x0 x3 x4 (ix2 r z)
      = Cert.Spec.mean64 (fun q' : Fin 64 => val_main_v8 (F := Ideal) x0 x3 x4 (ix2 r q')) := by
  have e9 : ∀ k : Fin 64, idx_main_v9 (idx_main_v10 (ix2 r z)) k = ix2 r k := fun k =>
    funext fun a => Fin.ext (by match a with | ⟨0, _⟩ => rfl | ⟨1, _⟩ => rfl)
  rw [val_main_v12_apply, val_main_v10_apply, val_main_v9_apply, val_main_cst_apply, val_main_v11_apply,
    val_main_cst_0_apply]
  simp only [e9, Ideal.hostDivf_def, Ideal.ofBits_def, Ideal.ofBits_zero_f32, zero_add]
  rfl

/-- The row's variance: the mean of the squared deviations from the row's mean. -/
theorem row_v19 (r : Fin 100000) (z : Fin 1) :
    val_main_v19 (F := Ideal) x0 x3 x4 (ix2 r z)
      = Cert.Spec.var64 (fun q' : Fin 64 => val_main_v8 (F := Ideal) x0 x3 x4 (ix2 r q')) := by
  have e16 : ∀ k : Fin 64, idx_main_v16 (idx_main_v17 (ix2 r z)) k = ix2 r k := fun k =>
    funext fun a => Fin.ext (by match a with | ⟨0, _⟩ => rfl | ⟨1, _⟩ => rfl)
  have e13 : ∀ k : Fin 64, idx_main_v13 (ix2 r k) = ix2 r (⟨0, Nat.one_pos⟩ : Fin 1) := fun k =>
    funext fun a => Fin.ext (by match a with | ⟨0, _⟩ => rfl | ⟨1, _⟩ => rfl)
  rw [val_main_v19_apply, val_main_v17_apply, val_main_v16_apply, val_main_cst_1_apply, val_main_v18_apply,
    val_main_cst_2_apply]
  simp only [e16, val_main_v15_apply, val_main_v14_apply, val_main_v13_apply, e13, row_v12, Ideal.hostDivf_def,
    Ideal.mulf_def, Ideal.subf_def, Ideal.ofBits_def, Ideal.ofBits_zero_f32, zero_add]
  rfl

/-- The node encoder of the reference, read at a row: the row specification of that row of the stage's operands. -/
theorem row_v32 (r : Fin 100000) (q : Fin 64) :
    val_main_v32 (F := Ideal) x0 x3 x4 x5 x6 (ix2 r q)
      = Cert.Spec.encRowDiv (fun k : Fin 7 => x0 (ix2 r k)) (fun (k : Fin 7) (q' : Fin 64) => x3 (ix2 k q')) (fun q' : Fin 64 => x4 (ix1 q')) (fun q' : Fin 64 => x5 (ix1 q')) (fun q' : Fin 64 => x6 (ix1 q')) q := by
  have e20 : idx_main_v20 (ix2 r q) = ix2 r (⟨0, Nat.one_pos⟩ : Fin 1) :=
    funext fun a => Fin.ext (by match a with | ⟨0, _⟩ => rfl | ⟨1, _⟩ => rfl)
  have e25 : idx_main_v25 (ix2 r q) = ix2 r (⟨0, Nat.one_pos⟩ : Fin 1) :=
    funext fun a => Fin.ext (by match a with | ⟨0, _⟩ => rfl | ⟨1, _⟩ => rfl)
  have e28 : idx_main_v27 (idx_main_v28 (ix2 r q)) = ix1 q :=
    funext fun a => Fin.ext (by match a with | ⟨0, _⟩ => rfl)
  have e31 : idx_main_v30 (idx_main_v31 (ix2 r q)) = ix1 q :=
    funext fun a => Fin.ext (by match a with | ⟨0, _⟩ => rfl)
  rw [val_main_v32_apply, val_main_v29_apply, val_main_v26_apply, val_main_v21_apply, val_main_v20_apply,
    val_main_v25_apply, val_main_v24_apply, val_main_v23_apply, val_main_v22_apply, val_main_cst_3_apply,
    val_main_v28_apply, val_main_v27_apply, val_main_v31_apply, val_main_v30_apply, e20, e25, e28, e31,
    row_v12, row_v19]
  simp only [row_v8, Ideal.addf_def, Ideal.subf_def, Ideal.mulf_def, Ideal.hostDivf_def, Ideal.hostUnary_sqrt_def,
    Ideal.ofBits_def]
  rfl

end Cert.ReferenceIdeal.RefRows

end
-- ==== Proof.KI.Bridge0.lean ====
import proofs.«178696_j1468878815658_2_alg».proof.Proof.KI.Inv
import proofs.«178696_j1468878815658_2_alg».proof.Proof.KI.Args
import proofs.«178696_j1468878815658_2_alg».proof.Proof.KI.Fin0
import proofs.«178696_j1468878815658_2_alg».proof.Proof.Ref.Row0
import proofs.«178696_j1468878815658_2_alg».proof.Proof.Spec
import proofs.«178696_j1468878815658_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-!
  Host stretch 0 and region 0 of the idealized kernel program, read against the reference: if the buffers' contents
  before them satisfy `E0` (the arguments as launched, the live intermediates equal to the reference's stage values),
  then after them — the region's arrays at whatever contents they may hold after every write-back, nothing forgotten —
  they satisfy `E1`: the region's output array IS the reference's value of the same stage, because row by row both
  are the row specification of the same operand rows (the two spellings of the specification agree), and every other
  live buffer is as it was.
-/

set_option maxRecDepth 16384

noncomputable section

namespace Cert.KernelIdeal.Gen

open Idealize.ShloMosaic Idealize.ShloMosaic.TcCoe Idealize.ShloMosaic.ValueIdx
open Idealize.SL Idealize.SL.Sem

theorem bridge0 (m : (ℓ : Loc nD τ sig) → Buf (Elt Ideal) ℓ) (c : Dev nD) (W : Valuation τ sig (Elt Ideal))
    (hE : E0 m c W)
    (A : (w : Fin cfg0.W) → Buf (Elt Ideal) ((cfg0.win w).arr.view.loc (c : Thread nD τ)))
    (hA : ∀ w, (rdat0 (F := Ideal) (StableHlo.after (hostOps0 (F := Ideal)) W) (fun _ => false) c).ArrAt w cfg0.N (A w)) :
    E1 m c (Pipeline.withArrays spec0 c (StableHlo.after (hostOps0 (F := Ideal)) W) A) := by
  -- the arguments the stretch and the region read, as launched
  have g0 : W (Proc.devRef .tc main_arg0) = a0 m c := hE.args main_arg0 (by decide)
  have g1 : W (Proc.devRef .tc main_arg1) = a1 m c := hE.args main_arg1 (by decide)
  have g3 : W (Proc.devRef .tc main_arg3) = a3 m c := hE.args main_arg3 (by decide)
  have g4 : W (Proc.devRef .tc main_arg4) = a4 m c := hE.args main_arg4 (by decide)
  have g5 : W (Proc.devRef .tc main_arg5) = a5 m c := hE.args main_arg5 (by decide)
  have g6 : W (Proc.devRef .tc main_arg6) = a6 m c := hE.args main_arg6 (by decide)
  -- what the host stretch leaves: the arguments untouched,
  have k0 : StableHlo.after (hostOps0 (F := Ideal)) W (Proc.devRef .tc main_arg0) = a0 m c :=
    (StableHlo.after_of_writes_sub hostOps0 W hostOps0_writes (by decide)).trans g0
  have k3 : StableHlo.after (hostOps0 (F := Ideal)) W (Proc.devRef .tc main_arg3) = a3 m c :=
    (StableHlo.after_of_writes_sub hostOps0 W hostOps0_writes (by decide)).trans g3
  -- the two index rows of the edge list, sliced and flattened as the reference does,
  have k1 : StableHlo.after (hostOps0 (F := Ideal)) W (Proc.devRef .tc main_v1)
      = Cert.ReferenceIdeal.Read.val_main_v1 (F := Ideal) (a1 m c) := by
    rw [← g1]
    after_results
    rfl
  have k3' : StableHlo.after (hostOps0 (F := Ideal)) W (Proc.devRef .tc main_v3)
      = Cert.ReferenceIdeal.Read.val_main_v3 (F := Ideal) (a1 m c) := by
    rw [← g1]
    after_results
    rfl
  -- the bias, scale and shift rows, each its argument with a unit axis in front
  have k4 : ∀ q' : Fin 64, (StableHlo.after (hostOps0 (F := Ideal)) W (Proc.devRef .tc main_v4) : S1x64.Idx → EReal) (ix2 0 q')
      = (a4 m c : S64.Idx → EReal) (ix1 q') := fun q' => by
    rw [← g4]
    after_results
    exact shapeCast_a_1a_apply _ _ 0 q'
  have k5 : ∀ q' : Fin 64, (StableHlo.after (hostOps0 (F := Ideal)) W (Proc.devRef .tc main_v5) : S1x64.Idx → EReal) (ix2 0 q')
      = (a5 m c : S64.Idx → EReal) (ix1 q') := fun q' => by
    rw [← g5]
    after_results
    exact shapeCast_a_1a_apply _ _ 0 q'
  have k6 : ∀ q' : Fin 64, (StableHlo.after (hostOps0 (F := Ideal)) W (Proc.devRef .tc main_v6) : S1x64.Idx → EReal) (ix2 0 q')
      = (a6 m c : S64.Idx → EReal) (ix1 q') := fun q' => by
    rw [← g6]
    after_results
    exact shapeCast_a_1a_apply _ _ 0 q'
  refine ⟨argsOf_region0 m _ (fun _ => false) c (argsOf_host0 m c W hE.args) A hA, ?_, ?_, ?_⟩
  · exact (withArrays0_of_ne_out _ (fun _ => false) c A hA main_v1 (by decide)).trans k1
  · exact (withArrays0_of_ne_out _ (fun _ => false) c A hA main_v3 (by decide)).trans k3'
  · -- the region's output array: row by row the row specification of the same operand rows
    have hout : Pipeline.withArrays spec0 c (StableHlo.after (hostOps0 (F := Ideal)) W) A (Proc.devRef .tc main_v7) = A 5 :=
      Pipeline.withArrays_arr spec0 launch0.win.arr_inj c _ A 5
    have hA5 : A 5 = (dat0 (F := Ideal) (VW (StableHlo.after (hostOps0 (F := Ideal)) W)) c).arrAt 5 cfg0.N :=
      (Pipeline.Dat.toRForget_arrAt_iff (dat := dat0 (F := Ideal) (VW (StableHlo.after (hostOps0 (F := Ideal)) W)) c)
        (fgt := fun _ => false) (w := 5) rfl cfg0.N (A 5)).mp (hA 5)
    rw [hout, hA5]
    funext i
    obtain ⟨r, q, rfl⟩ : ∃ (r : Fin 100000) (q : Fin 64), i = ix2 r q := ⟨i 0, i 1, eq_ix2 i⟩
    rw [final0, Cert.ReferenceIdeal.RefRows.row_v32, Cert.Spec.encRow_eq_encRowDiv]
    show Cert.Spec.encRowDiv
        (fun k : Fin 7 => (StableHlo.after (hostOps0 (F := Ideal)) W (Proc.devRef .tc main_arg0) : S100000x7.Idx → EReal) (ix2 r k))
        (fun (k : Fin 7) (q' : Fin 64) => (StableHlo.after (hostOps0 (F := Ideal)) W (Proc.devRef .tc main_arg3) : S7x64.Idx → EReal) (ix2 k q'))
        (fun q' : Fin 64 => (StableHlo.after (hostOps0 (F := Ideal)) W (Proc.devRef .tc main_v4) : S1x64.Idx → EReal) (ix2 0 q'))
        (fun q' : Fin 64 => (StableHlo.after (hostOps0 (F := Ideal)) W (Proc.devRef .tc main_v5) : S1x64.Idx → EReal) (ix2 0 q'))
        (fun q' : Fin 64 => (StableHlo.after (hostOps0 (F := Ideal)) W (Proc.devRef .tc main_v6) : S1x64.Idx → EReal) (ix2 0 q')) q = _
    rw [k0, k3, funext k4, funext k5, funext k6]

end Cert.KernelIdeal.Gen

end
-- ==== Proof.KI.Val1.lean ====
import proofs.«178696_j1468878815658_2_alg».proof.Proof.KI.Val0

noncomputable section

namespace Cert.KernelIdeal.Gen.Val

open Idealize.ShloMosaic Idealize.ShloMosaic.ValueIdx Cert.KernelIdeal Cert.KernelIdeal.Gen
open Cert.KernelIdeal.Facts₀

/-! ## The matrix product onto a zero accumulator, read at an index -/

/-- The left operand's index at result index `i` and contraction index `q`: on axis 0, the result's row. -/
theorem lhs_mm1_0 (i : S8192x64.Idx) (q : dot_S8192x5_S5x64_S8192x64_1_0_0_1_n_n.contr.Idx) :
    (dot_S8192x5_S5x64_S8192x64_1_0_0_1_n_n.lhsIdx i q 0).val = (i 0).val := by
  unfold DotDims.lhsIdx
  rw [dif_neg (show ¬(0 : Fin S8192x5.rank) ∈ dot_S8192x5_S5x64_S8192x64_1_0_0_1_n_n.lhsBatch by decide), dif_pos (show (0 : Fin S8192x5.rank) ∈ dot_S8192x5_S5x64_S8192x64_1_0_0_1_n_n.lhsNonContracting by decide)]
  rfl
/-- On axis 1, the contraction's coordinate. -/
theorem lhs_mm1_1 (i : S8192x64.Idx) (q : dot_S8192x5_S5x64_S8192x64_1_0_0_1_n_n.contr.Idx) :
    (dot_S8192x5_S5x64_S8192x64_1_0_0_1_n_n.lhsIdx i q 1).val = (q ⟨0, by decide⟩).val :=
  dot_S8192x5_S5x64_S8192x64_1_0_0_1_n_n.lhsIdx_val_of_single rfl i q
/-- The right operand's index: on axis 0, the contraction's coordinate. -/
theorem rhs_mm1_0 (i : S8192x64.Idx) (q : dot_S8192x5_S5x64_S8192x64_1_0_0_1_n_n.contr.Idx) :
    (dot_S8192x5_S5x64_S8192x64_1_0_0_1_n_n.rhsIdx i q 0).val = (q ⟨0, by decide⟩).val :=
  dot_S8192x5_S5x64_S8192x64_1_0_0_1_n_n.rhsIdx_val_of_single rfl i q
/-- On axis 1, the result's column. -/
theorem rhs_mm1_1 (i : S8192x64.Idx) (q : dot_S8192x5_S5x64_S8192x64_1_0_0_1_n_n.contr.Idx) :
    (dot_S8192x5_S5x64_S8192x64_1_0_0_1_n_n.rhsIdx i q 1).val = (i 1).val := by
  unfold DotDims.rhsIdx
  rw [dif_neg (show ¬(1 : Fin S5x64.rank) ∈ dot_S8192x5_S5x64_S8192x64_1_0_0_1_n_n.rhsBatch by decide), dif_pos (show (1 : Fin S5x64.rank) ∈ dot_S8192x5_S5x64_S8192x64_1_0_0_1_n_n.rhsNonContracting by decide)]
  rfl

/-- The product of `A` and `B` onto the zero block, at `(r, q)`, is the sum over `k` of `A (r, k) * B (k, q)`. -/
theorem mm1_apply {φ₁ φ₂ : FTy} (A : FVec Ideal S8192x5 φ₁) (B : FVec Ideal S5x64 φ₂) (r : Fin 8192) (q : Fin 64) :
    matmul dot_S8192x5_S5x64_S8192x64_1_0_0_1_n_n none A B (constant S8192x64 .f32 0x00000000#32) (ix2 r q)
      = ∑ k : Fin 5, A (ix2 r k) * B (ix2 k q) := by
  refine (Ideal.matmul_constant_zero_apply dot_S8192x5_S5x64_S8192x64_1_0_0_1_n_n none A B (ix2 r q)).trans ?_
  rw [← Equiv.sum_comp (contrEquiv1 dot_S8192x5_S5x64_S8192x64_1_0_0_1_n_n 5 rfl rfl).symm]
  refine Finset.sum_congr rfl fun k _ => ?_
  have hk := contrEquiv1_symm_val dot_S8192x5_S5x64_S8192x64_1_0_0_1_n_n 5 rfl rfl k
  have el : dot_S8192x5_S5x64_S8192x64_1_0_0_1_n_n.lhsIdx (ix2 r q) ((contrEquiv1 dot_S8192x5_S5x64_S8192x64_1_0_0_1_n_n 5 rfl rfl).symm k) = ix2 r k := funext fun a => Fin.ext (by
    match a with
    | ⟨0, _⟩ => exact lhs_mm1_0 _ _
    | ⟨1, _⟩ => exact (lhs_mm1_1 _ _).trans hk)
  have er : dot_S8192x5_S5x64_S8192x64_1_0_0_1_n_n.rhsIdx (ix2 r q) ((contrEquiv1 dot_S8192x5_S5x64_S8192x64_1_0_0_1_n_n 5 rfl rfl).symm k) = ix2 k q := funext fun a => Fin.ext (by
    match a with
    | ⟨0, _⟩ => exact (rhs_mm1_0 _ _).trans hk
    | ⟨1, _⟩ => exact rhs_mm1_1 _ _)
  rw [el, er]

/-! ## Region 1: the pre-activation, then the layer norm -/

/-- The block after the ReLU: the product of the block of `x` with `w`, plus the bias row, clamped at zero. -/
def act1 (x : Vec Ideal S8192x5 .f32) (w : Vec Ideal S5x64 .f32) (b : Vec Ideal S1x64 .f32) : FVec Ideal S8192x64 .f32 :=
  maximumf
    (addf
      (matmul dot_S8192x5_S5x64_S8192x64_1_0_0_1_n_n none (truncf .bf16 x bitsLt_bf16_f32) (truncf .bf16 w bitsLt_bf16_f32)
        (constant S8192x64 .f32 0x00000000#32))
      (broadcastTo S8192x64 (shapeCast S1x64 b shapeCasts_S1x64_S1x64) broadcasts_S1x64_S8192x64))
    (broadcast S8192x64 (Scalar.ofBits .f32 0x00000000#32))

/-- At `(r, q)` it is the ReLU of row `r` of `x` against column `q` of `w`, plus the bias at `q`. -/
theorem act1_apply (x : Vec Ideal S8192x5 .f32) (w : Vec Ideal S5x64 .f32) (b : Vec Ideal S1x64 .f32) (r : Fin 8192) (q : Fin 64) :
    act1 x w b (ix2 r q) = Cert.Spec.relu ((∑ k : Fin 5, x (ix2 r k) * w (ix2 k q)) + b (ix2 0 q)) := by
  unfold act1
  rw [shapeCast_self]
  refine (maximumf_apply _ _ _).trans ?_
  refine congrArg (fun t => max t _) ?_
  refine (addf_apply _ _ _).trans ?_
  refine congrArg₂ (· + ·) ?_ ?_
  · exact mm1_apply _ _ r q
  · exact broadcastTo_1b_ab_apply b broadcasts_S1x64_S8192x64 r q

/-- The payload of region 1 is the layer norm of the pre-activation. -/
theorem k1_pay1_eq (x : Vec Ideal S8192x5 .f32) (w : Vec Ideal S5x64 .f32) (b g β : Vec Ideal S1x64 .f32) :
    k1_pay1 x w b g β = ln0 (act1 x w b) g β := rfl

/-- Region 1's stored value at row `r`, over the extended reals, is the row specification of row `r` of its
    row-tiled inputs and the whole weights: no other row enters. -/
theorem out1_apply (x : Vec Ideal S8192x5 .f32) (w : Vec Ideal S5x64 .f32) (b g β : Vec Ideal S1x64 .f32) (r : Fin 8192) (q : Fin 64) :
    out1 x w b g β (ix2 r q)
      = Cert.Spec.encRow (fun k : Fin 5 => x (ix2 r k)) (fun (k : Fin 5) (q' : Fin 64) => w (ix2 k q')) (fun q' : Fin 64 => b (ix2 0 q')) (fun q' : Fin 64 => g (ix2 0 q')) (fun q' : Fin 64 => β (ix2 0 q')) q := by
  unfold out1
  rw [k1_pay1_eq, ln0_apply]
  unfold Cert.Spec.encRow
  exact congrArg (fun h => Cert.Spec.lnMul h _ _ q) (funext fun q' => act1_apply x w b r q')

end Cert.KernelIdeal.Gen.Val

end
-- ==== Proof.KI.Loc1.lean ====
import proofs.«178696_j1468878815658_2_alg».proof.Proof.KI.Val1

noncomputable section

namespace Cert.KernelIdeal.Gen.Val

open Idealize.ShloMosaic Idealize.ShloMosaic.ValueIdx Cert.KernelIdeal Cert.KernelIdeal.Gen
open Cert.KernelIdeal.Facts₀

/-- Region 1's stored row `r` depends on the block of `x` through its row `r` alone. -/
theorem out1_congr_row (x x' : Vec Ideal S8192x5 .f32) (w : Vec Ideal S5x64 .f32) (b g β : Vec Ideal S1x64 .f32) (r : Fin 8192)
    (hx : ∀ k : Fin 5, x (ix2 r k) = x' (ix2 r k)) (q : Fin 64) :
    out1 x w b g β (ix2 r q) = out1 x' w b g β (ix2 r q) := by
  rw [out1_apply, out1_apply]
  exact congrArg (fun row => Cert.Spec.encRow row _ _ _ _ q) (funext hx)

end Cert.KernelIdeal.Gen.Val

end
-- ==== Proof.KI.Cut1.lean ====
import proofs.«178696_j1468878815658_2_alg».proof.Proof.KI.Loc1
import proofs.«178696_j1468878815658_2_alg».proof.Proof.Gen.KernelIdeal.Launch
import proofs.«178696_j1468878815658_2_alg».proof.Proof.Gen.KernelIdeal.Points
import Idealize.ShloMosaic.Lib.Pipeline.Kit

noncomputable section

namespace Cert.KernelIdeal.Gen.Val

open Idealize.ShloMosaic Idealize.ShloMosaic.ValueIdx Cert.KernelIdeal Cert.KernelIdeal.Gen
open Idealize.ShloMosaic.Pipeline (Window)

/-- Two fillings of a block with the same moved part agree at every index the transfer moves. -/
private theorem fill_congr_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill
  rw [dif_pos h, dif_pos h]

/-- The block of `x` and the stored block are cut alike on the row axis: one row index map, one block height, one
    array height. -/
theorem xsize1_row (i : grid1.Coords) : (cfg1.win 0).xsize i (0 : Fin 2) = (cfg1.win 5).xsize i (0 : Fin 2) := rfl
/-- On the column axis the block of `x` is not cut. -/
theorem xsize1_col (i : grid1.Coords) : (cfg1.win 0).xsize i (1 : Fin 2) = 5 := rfl

/-- The part of region 1's stored block that the write-back moves does not depend on what the block of `x` holds
    past the part its fetch moved. -/
theorem cut_out1_fill (t : Fin cfg1.N)
    (d0 d0' : (cfg1.win 0).block.Idx → Elt Ideal (cfg1.win 0).elt) (b0 : ((cfg1.win 0).xblock (cfg1.grid.coords t)).Idx → Elt Ideal (cfg1.win 0).elt)
    (w : Vec Ideal S5x64 .f32) (b : Vec Ideal S1x64 .f32) (g : Vec Ideal S1x64 .f32) (β : Vec Ideal S1x64 .f32) :
    (cfg1.win 5).cut (cfg1.grid.coords t) (out1 ((cfg1.win 0).fill (cfg1.grid.coords t) d0 b0) w b g β)
      = (cfg1.win 5).cut (cfg1.grid.coords t) (out1 ((cfg1.win 0).fill (cfg1.grid.coords t) d0' b0) w b g β) := by
  funext j
  -- the moved index `j` of the stored block is row `r`, column `q` of the block
  have hr : (j (0 : Fin 2)).val < 8192 := Nat.lt_of_lt_of_le (j (0 : Fin 2)).isLt ((cfg1.win 5).xsize_le (cfg1.grid.coords t) (0 : Fin 2))
  have hq : (j (1 : Fin 2)).val < 64 := Nat.lt_of_lt_of_le (j (1 : Fin 2)).isLt ((cfg1.win 5).xsize_le (cfg1.grid.coords t) (1 : Fin 2))
  have hj : (cfg1.win 5).xinj (cfg1.grid.coords t) j = ix2 (⟨(j (0 : Fin 2)).val, hr⟩ : Fin 8192) (⟨(j (1 : Fin 2)).val, hq⟩ : Fin 64) :=
    funext fun a => match a with | ⟨0, _⟩ => rfl | ⟨1, _⟩ => rfl
  show out1 _ w b g β ((cfg1.win 5).xinj (cfg1.grid.coords t) j) = out1 _ w b g β ((cfg1.win 5).xinj (cfg1.grid.coords t) j)
  rw [hj]
  -- row `r` of the output reads row `r` of `x` alone, and that row lies in the part the fetch moved
  refine out1_congr_row _ _ w b g β ⟨(j (0 : Fin 2)).val, hr⟩ (fun k => ?_) ⟨(j (1 : Fin 2)).val, hq⟩
  refine fill_congr_of_moved (cfg1.win 0) (cfg1.grid.coords t) d0 d0' b0 _ (((cfg1.win 0).moved_iff (cfg1.grid.coords t) _).mpr fun a => ?_)
  match a with
  | ⟨0, _⟩ => exact lt_of_lt_of_eq (j (0 : Fin 2)).isLt (xsize1_row (cfg1.grid.coords t)).symm
  | ⟨1, _⟩ => exact lt_of_lt_of_eq k.isLt (xsize1_col (cfg1.grid.coords t)).symm

end Cert.KernelIdeal.Gen.Val

end
-- ==== Proof.KI.Named1.lean ====
import proofs.«178696_j1468878815658_2_alg».proof.Proof.KI.Obl1
import proofs.«178696_j1468878815658_2_alg».proof.Proof.KI.Cut1

/-!
  Region 1's body obligation over the extended reals with EVERY window named. The output's staging buffer is stated on
  the rows inside the array only; there what the body stores does not depend on the words the clipped fetch left in the
  rest of the input buffers, because a stored row is a function of the same row of each row-tiled input alone.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Idealize.ShloMosaic.Ideal) ((c : Thread nD τ).loc b))

theorem body_obligation1_named (c : Dev nD) :
    BodyObligationLoose (dat1 (F := Idealize.ShloMosaic.Ideal) V c) (defs₀ (F := Idealize.ShloMosaic.Ideal)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%dO, HX⟩⟩
  rw [before1_0 V c t d0, before1_1 V c t d1, before1_2 V c t d2, before1_3 V c t d3, before1_4 V c t d4]
  iapply (sound_kernel1 (F := Idealize.ShloMosaic.Ideal) c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) ((cfg1.win 0).fill (cfg1.grid.coords t) d0 (iblk1 V c 0 t)) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [HX]; · iexists _; iexact HX
  iintro ⟨H0, H1, H2, H3, H4, HX⟩
  isplitl [HΦ]; · iexact HΦ
  isplitl [Ho]; · iexact Ho
  isplitl [H0]
  · iexists d0
    rw [after1_0]; unfold fblk1; rw [(cfg1.win 0).cut_fill]; iexact H0
  isplitl [H1]
  · rw [after1_1]; iexact H1
  isplitl [H2]
  · rw [after1_2]; iexact H2
  isplitl [H3]
  · rw [after1_3]; iexact H3
  isplitl [H4]
  · rw [after1_4]; iexact H4
  iexists (out1 ((cfg1.win 0).fill (cfg1.grid.coords t) d0 (iblk1 V c 0 t)) (iblk1 V c 1 t) (iblk1 V c 2 t) (iblk1 V c 3 t) (iblk1 V c 4 t))
  rw [after1_5]; unfold fblk1
  rw [(cfg1.win 5).fill_congr_cut (cfg1.grid.coords t) (Val.cut_out1_fill t d0 (fun _ => Classical.arbitrary _) (iblk1 V c 0 t) (iblk1 V c 1 t) (iblk1 V c 2 t) (iblk1 V c 3 t) (iblk1 V c 4 t))]
  iexact HX

end Cert.KernelIdeal.Gen

end
-- ==== Proof.KI.Fin1.lean ====
import proofs.«178696_j1468878815658_2_alg».proof.Proof.KI.Dat1
import proofs.«178696_j1468878815658_2_alg».proof.Proof.KI.Val1
import proofs.«178696_j1468878815658_2_alg».proof.Proof.Spec
import Idealize.ShloMosaic.Lib.ValueIdx
import Idealize.ShloMosaic.Lib.Pipeline.Value
import Idealize.ShloMosaic.PureOps.Ideal

/-!
  Region 1, the edge encoder, over the extended reals: the stored array after all 123 write-backs, row by row.

  Point `t` writes back the rows of its block that lie inside the array: rows `t * 8192 + r'` for `r'` below the cut.
  The body's stored row `r'` is the encoder's row specification of row `r'` of the block of edge attributes and of the
  weight blocks; that block at a moved row is the entry array's row `t * 8192 + r'` (the row index map is `t`, the
  column index map `0`), and each weight block is its whole array (index maps `0`). So what point `t` writes back is
  block `t` of ONE function of the entry arrays, and since every row `R` of the array lies in the block of point
  `R / 8192` — below the cut, which is made at the array's end — the array ends holding that function.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Final

open Idealize.ShloMosaic.ValueIdx

variable (V : (c : Dev nD) → (b : Ref sig .tc) → Buf (Elt Idealize.ShloMosaic.Ideal) ((c : Thread nD τ).loc b))

/-- The part of a cut block that a transfer moves reaches past every coordinate that lies both in the block and
    in the array: the cut is made at the array's end, or not at all. -/
private theorem clipOf_lt_off_add_extent {ix k d i : Nat} (h1 : i < (ix + 1) * k) (h2 : i < d) :
    i < ix * k + (Pipeline.Clip.of ix k d).extent k := by
  unfold Pipeline.Clip.of
  split
  · show i < ix * k + k
    rw [Nat.succ_mul] at h1
    exact h1
  · show i < ix * k + (d - ix * k)
    omega

/-- The index maps of region 1, decided over its 123 points: the row-tiled windows (the rows of the edge attributes,
    the stored rows) are at block `t` of the rows and block 0 of the columns; the weight windows at block 0 of both. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A row of the block of edge attributes that the fetch moved is the row of the entry array at the block's offset. -/
theorem fblk1_row (c : Dev nD) (t : Fin cfg1.N) (r' : Fin 8192)
    (hr : r'.val < (cfg1.win 0).xsize (cfg1.grid.coords t) (0 : Fin 2)) (R : Fin 1000000)
    (hR : R.val = t.val * 8192 + r'.val) (k : Fin 5) :
    fblk1 V c 0 t (ix2 r' k) = (V c main_arg2 : S1000000x5.Idx → EReal) (ix2 R k) := by
  obtain ⟨e00, e01, -⟩ := idx_facts1 t
  have hm : (cfg1.win 0).moved (cfg1.grid.coords t) (ix2 r' k) = true :=
    ((cfg1.win 0).moved_iff (cfg1.grid.coords t) _).mpr fun a => by
      match a with
      | ⟨0, _⟩ => exact hr
      | ⟨1, _⟩ => exact k.isLt
  unfold fblk1 Pipeline.Window.fill
  rw [dif_pos hm]
  unfold iblk1
  show (V c main_arg2 : S1000000x5.Idx → EReal) (((cfg1.win 0).blk t).view.emb _) = _
  refine congrArg _ (funext fun a => Fin.ext ?_)
  match a with
  | ⟨0, _⟩ =>
    show win1_0.index t (0 : Fin 2) * 8192 + 1 * r'.val = R.val
    rw [e00, hR]; omega
  | ⟨1, _⟩ =>
    show win1_0.index t (1 : Fin 2) * 5 + 1 * k.val = k.val
    rw [e01]; omega

/-- The weight windows' blocks are their whole arrays. -/
theorem iblk1_1 (c : Dev nD) (t : Fin cfg1.N) (k : Fin 5) (q : Fin 64) :
    iblk1 V c 1 t (ix2 k q) = (V c main_arg7 : S5x64.Idx → EReal) (ix2 k q) := by
  obtain ⟨-, -, e0, e1, -⟩ := idx_facts1 t
  unfold iblk1
  show (V c main_arg7 : S5x64.Idx → EReal) (((cfg1.win 1).blk t).view.emb (ix2 k q)) = _
  refine congrArg _ (funext fun a => Fin.ext ?_)
  match a with
  | ⟨0, _⟩ => show win1_1.index t (0 : Fin 2) * 5 + 1 * k.val = k.val; rw [e0]; omega
  | ⟨1, _⟩ => show win1_1.index t (1 : Fin 2) * 64 + 1 * q.val = q.val; rw [e1]; omega

theorem iblk1_2 (c : Dev nD) (t : Fin cfg1.N) (z : Fin 1) (q : Fin 64) :
    iblk1 V c 2 t (ix2 z q) = (V c main_v8 : S1x64.Idx → EReal) (ix2 z q) := by
  obtain ⟨-, -, -, -, e0, e1, -⟩ := idx_facts1 t
  unfold iblk1
  show (V c main_v8 : S1x64.Idx → EReal) (((cfg1.win 2).blk t).view.emb (ix2 z q)) = _
  refine congrArg _ (funext fun a => Fin.ext ?_)
  match a with
  | ⟨0, _⟩ => show win1_2.index t (0 : Fin 2) * 1 + 1 * z.val = z.val; rw [e0]; omega
  | ⟨1, _⟩ => show win1_2.index t (1 : Fin 2) * 64 + 1 * q.val = q.val; rw [e1]; omega

theorem iblk1_3 (c : Dev nD) (t : Fin cfg1.N) (z : Fin 1) (q : Fin 64) :
    iblk1 V c 3 t (ix2 z q) = (V c main_v9 : S1x64.Idx → EReal) (ix2 z q) := by
  obtain ⟨-, -, -, -, -, -, e0, e1, -⟩ := idx_facts1 t
  unfold iblk1
  show (V c main_v9 : S1x64.Idx → EReal) (((cfg1.win 3).blk t).view.emb (ix2 z q)) = _
  refine congrArg _ (funext fun a => Fin.ext ?_)
  match a with
  | ⟨0, _⟩ => show win1_3.index t (0 : Fin 2) * 1 + 1 * z.val = z.val; rw [e0]; omega
  | ⟨1, _⟩ => show win1_3.index t (1 : Fin 2) * 64 + 1 * q.val = q.val; rw [e1]; omega

theorem iblk1_4 (c : Dev nD) (t : Fin cfg1.N) (z : Fin 1) (q : Fin 64) :
    iblk1 V c 4 t (ix2 z q) = (V c main_v10 : S1x64.Idx → EReal) (ix2 z q) := by
  obtain ⟨-, -, -, -, -, -, -, -, e0, e1, -⟩ := idx_facts1 t
  unfold iblk1
  show (V c main_v10 : S1x64.Idx → EReal) (((cfg1.win 4).blk t).view.emb (ix2 z q)) = _
  refine congrArg _ (funext fun a => Fin.ext ?_)
  match a with
  | ⟨0, _⟩ => show win1_4.index t (0 : Fin 2) * 1 + 1 * z.val = z.val; rw [e0]; omega
  | ⟨1, _⟩ => show win1_4.index t (1 : Fin 2) * 64 + 1 * q.val = q.val; rw [e1]; omega

/-- What the stored array holds at the end, as one function of the entry arrays: at row `i 0`, the encoder's row
    specification of that row of the edge attributes and of the whole weights. -/
def G1 (c : Dev nD) : S1000000x64.Idx → EReal := fun i =>
  Cert.Spec.encRow (fun k : Fin 5 => (V c main_arg2 : S1000000x5.Idx → EReal) (ix2 (i 0) k))
    (fun (k : Fin 5) (q' : Fin 64) => (V c main_arg7 : S5x64.Idx → EReal) (ix2 k q'))
    (fun q' : Fin 64 => (V c main_v8 : S1x64.Idx → EReal) (ix2 0 q'))
    (fun q' : Fin 64 => (V c main_v9 : S1x64.Idx → EReal) (ix2 0 q'))
    (fun q' : Fin 64 => (V c main_v10 : S1x64.Idx → EReal) (ix2 0 q')) (i 1)

/-- What point `t` writes back is block `t` of that function. -/
theorem flushed1_eq (c : Dev nD) (t : Fin cfg1.N) :
    (dat1 (F := Idealize.ShloMosaic.Ideal) V c).flushed 5 t
      = ((cfg1.win 5).blk t).view.read (Elt Idealize.ShloMosaic.Ideal) (G1 V c) := by
  show (cfg1.win 5).cut (cfg1.grid.coords t) ((dat1 (F := Idealize.ShloMosaic.Ideal) V c).after 5 t) = _
  rw [after1_5]
  funext j
  obtain ⟨-, -, -, -, -, -, -, -, -, -, e50, e51⟩ := idx_facts1 t
  have hr : (j (0 : Fin 2)).val < 8192 :=
    Nat.lt_of_lt_of_le (j (0 : Fin 2)).isLt ((cfg1.win 5).xsize_le (cfg1.grid.coords t) (0 : Fin 2))
  have hq : (j (1 : Fin 2)).val < 64 :=
    Nat.lt_of_lt_of_le (j (1 : Fin 2)).isLt ((cfg1.win 5).xsize_le (cfg1.grid.coords t) (1 : Fin 2))
  have hj : (cfg1.win 5).xinj (cfg1.grid.coords t) j
      = ix2 (⟨(j (0 : Fin 2)).val, hr⟩ : Fin 8192) (⟨(j (1 : Fin 2)).val, hq⟩ : Fin 64) :=
    funext fun a => match a with | ⟨0, _⟩ => rfl | ⟨1, _⟩ => rfl
  -- where the moved index sits in the array
  have hi0 : ((((cfg1.win 5).blk t).view.emb j) (0 : Fin 2)).val = t.val * 8192 + (j (0 : Fin 2)).val := by
    show win1_5.index t (0 : Fin 2) * 8192 + 1 * (j (0 : Fin 2)).val = _
    rw [e50]; omega
  have hi1 : (((cfg1.win 5).blk t).view.emb j) (1 : Fin 2) = (⟨(j (1 : Fin 2)).val, hq⟩ : Fin 64) := Fin.ext (by
    show win1_5.index t (1 : Fin 2) * 64 + 1 * (j (1 : Fin 2)).val = (j (1 : Fin 2)).val
    rw [e51]; omega)
  show out1 (F := Idealize.ShloMosaic.Ideal) _ _ _ _ _ ((cfg1.win 5).xinj (cfg1.grid.coords t) j)
    = G1 V c (((cfg1.win 5).blk t).view.emb j)
  rw [hj, Val.out1_apply]
  unfold G1
  rw [hi1]
  have hx : (fun k : Fin 5 => fblk1 V c 0 t (ix2 (⟨(j (0 : Fin 2)).val, hr⟩ : Fin 8192) k))
      = fun k : Fin 5 => (V c main_arg2 : S1000000x5.Idx → EReal) (ix2 ((((cfg1.win 5).blk t).view.emb j) (0 : Fin 2)) k) :=
    funext fun k => fblk1_row V c t ⟨(j (0 : Fin 2)).val, hr⟩ (j (0 : Fin 2)).isLt _ hi0 k
  have hw : (fun (k : Fin 5) (q' : Fin 64) => iblk1 V c 1 t (ix2 k q'))
      = fun (k : Fin 5) (q' : Fin 64) => (V c main_arg7 : S5x64.Idx → EReal) (ix2 k q') :=
    funext fun k => funext fun q' => iblk1_1 V c t k q'
  have hb : (fun q' : Fin 64 => iblk1 V c 2 t (ix2 0 q')) = fun q' : Fin 64 => (V c main_v8 : S1x64.Idx → EReal) (ix2 0 q') :=
    funext fun q' => iblk1_2 V c t 0 q'
  have hg : (fun q' : Fin 64 => iblk1 V c 3 t (ix2 0 q')) = fun q' : Fin 64 => (V c main_v9 : S1x64.Idx → EReal) (ix2 0 q') :=
    funext fun q' => iblk1_3 V c t 0 q'
  have hβ : (fun q' : Fin 64 => iblk1 V c 4 t (ix2 0 q')) = fun q' : Fin 64 => (V c main_v10 : S1x64.Idx → EReal) (ix2 0 q') :=
    funext fun q' => iblk1_4 V c t 0 q'
  rw [hx, hw, hb, hg, hβ]

/-- Every index of the stored array lies in the block of the point its row falls in. -/
theorem cover1 (i : S1000000x64.Idx) :
    ∃ t : Fin cfg1.N, (cfg1.win 5).flush t = true ∧ i ∈ ((cfg1.win 5).blk t).view.set := by
  have hi0 : (i (0 : Fin 2)).val < 1000000 := (i (0 : Fin 2)).isLt
  have hi1 : (i (1 : Fin 2)).val < 64 := (i (1 : Fin 2)).isLt
  obtain ⟨t, ht⟩ : ∃ t : Fin cfg1.N, t.val = (i (0 : Fin 2)).val / 8192 :=
    ⟨⟨(i (0 : Fin 2)).val / 8192, by show _ < 123; omega⟩, rfl⟩
  obtain ⟨-, -, -, -, -, -, -, -, -, -, e50, e51⟩ := idx_facts1 t
  refine ⟨t, flush1_5 t, ?_⟩
  show i ∈ ((View.whole main_v11).slice (win1_5.rect t)).set
  rw [View.set_slice_whole, Rect.mem_set_unit]
  intro a
  match a with
  | ⟨0, _⟩ =>
    show win1_5.index t (0 : Fin 2) * 8192 ≤ (i (0 : Fin 2)).val
      ∧ (i (0 : Fin 2)).val < win1_5.index t (0 : Fin 2) * 8192 + (Pipeline.Clip.of (win1_5.index t (0 : Fin 2)) 8192 1000000).extent 8192
    rw [e50, ht]
    exact ⟨by omega, clipOf_lt_off_add_extent (by omega) hi0⟩
  | ⟨1, _⟩ =>
    show win1_5.index t (1 : Fin 2) * 64 ≤ (i (1 : Fin 2)).val
      ∧ (i (1 : Fin 2)).val < win1_5.index t (1 : Fin 2) * 64 + (Pipeline.Clip.of (win1_5.index t (1 : Fin 2)) 64 64).extent 64
    rw [e51]
    exact ⟨by omega, clipOf_lt_off_add_extent (by omega) hi1⟩

theorem final1 (c : Dev nD) (r : Fin 1000000) (q : Fin 64) :
    ((dat1 (F := Idealize.ShloMosaic.Ideal) V c).arrAt 5 cfg1.N : S1000000x64.Idx → EReal) (ix2 r q)
      = Cert.Spec.encRow (fun k : Fin 5 => (V c main_arg2 : S1000000x5.Idx → EReal) (ix2 r k)) (fun (k : Fin 5) (q' : Fin 64) => (V c main_arg7 : S5x64.Idx → EReal) (ix2 k q')) (fun q' : Fin 64 => (V c main_v8 : S1x64.Idx → EReal) (ix2 0 q')) (fun q' : Fin 64 => (V c main_v9 : S1x64.Idx → EReal) (ix2 0 q')) (fun q' : Fin 64 => (V c main_v10 : S1x64.Idx → EReal) (ix2 0 q')) q := by
  have key := (dat1 (F := Idealize.ShloMosaic.Ideal) V c).arrAt_eq_of_cover 5 (G1 V c)
    (fun t _ => flushed1_eq V c t) cover1
  exact congrFun key (ix2 r q)

end Final

end Cert.KernelIdeal.Gen

end
-- ==== Proof.Ref.Row1.lean ====
import proofs.«178696_j1468878815658_2_alg».proof.Proof.Ref.Imports
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.Read

variable (x0 : (⟨S100000x7, .f32⟩ : BufTy).Contents (Elt Ideal)) (x1 : (⟨S2x1000000, .i32⟩ : BufTy).Contents (Elt Ideal))
  (x2 : (⟨S1000000x5, .f32⟩ : BufTy).Contents (Elt Ideal)) (x3 : (⟨S7x64, .f32⟩ : BufTy).Contents (Elt Ideal))
  (x4 x5 x6 : (⟨S64, .f32⟩ : BufTy).Contents (Elt Ideal)) (x7 : (⟨S5x64, .f32⟩ : BufTy).Contents (Elt Ideal))
  (x8 x9 x10 : (⟨S64, .f32⟩ : BufTy).Contents (Elt Ideal)) (x11 : (⟨S128x64, .f32⟩ : BufTy).Contents (Elt Ideal))
  (x12 : (⟨S64, .f32⟩ : BufTy).Contents (Elt Ideal)) (x13 : (⟨S128x64, .f32⟩ : BufTy).Contents (Elt Ideal))
  (x14 x15 x16 : (⟨S64, .f32⟩ : BufTy).Contents (Elt Ideal)) (x17 : (⟨S128x64, .f32⟩ : BufTy).Contents (Elt Ideal))
  (x18 : (⟨S64, .f32⟩ : BufTy).Contents (Elt Ideal)) (x19 : (⟨S128x64, .f32⟩ : BufTy).Contents (Elt Ideal))
  (x20 x21 x22 : (⟨S64, .f32⟩ : BufTy).Contents (Elt Ideal)) (x23 : (⟨S133x64, .f32⟩ : BufTy).Contents (Elt Ideal))
  (x24 : (⟨S64, .f32⟩ : BufTy).Contents (Elt Ideal)) (x25 : (⟨S64x32, .f32⟩ : BufTy).Contents (Elt Ideal))
  (x26 : (⟨S32, .f32⟩ : BufTy).Contents (Elt Ideal)) (x27 : (⟨S32x1, .f32⟩ : BufTy).Contents (Elt Ideal))
  (x28 : (⟨S1, .f32⟩ : BufTy).Contents (Elt Ideal))

/-- The row before the layer norm: the linear map's sum over the five edge-attribute columns, the bias, the ReLU. -/
theorem row_v37 (r : Fin 1000000) (q : Fin 64) :
    val_main_v37 (F := Ideal) x2 x7 x8 (ix2 r q)
      = Cert.Spec.relu ((∑ k : Fin 5, x2 (ix2 r k) * x7 (ix2 k q)) + x8 (ix1 q)) := by
  have el : ∀ k : Fin 5, lidx_main_v33 (ix2 r q) k = ix2 r k := fun k =>
    funext fun a => Fin.ext (by match a with | ⟨0, _⟩ => rfl | ⟨1, _⟩ => rfl)
  have er : ∀ k : Fin 5, ridx_main_v33 (ix2 r q) k = ix2 k q := fun k =>
    funext fun a => Fin.ext (by match a with | ⟨0, _⟩ => rfl | ⟨1, _⟩ => rfl)
  have eb : idx_main_v34 (idx_main_v35 (ix2 r q)) = ix1 q :=
    funext fun a => Fin.ext (by match a with | ⟨0, _⟩ => rfl)
  rw [val_main_v37_apply, val_main_v36_apply, val_main_v33_apply, val_main_v35_apply, val_main_v34_apply,
    val_main_call1_v0_apply, val_main_call1_cst_apply]
  simp only [el, er, eb, Ideal.addf_def, Ideal.maximumf_def, Ideal.ofBits_def]
  rfl

/-- The row's mean, as the reference computes it (the sum from the initial value 0, divided by 64), is the mean of
    the row before the norm; the mean is held in a one-column array, read at its only column `z`. -/
theorem row_v41 (r : Fin 1000000) (z : Fin 1) :
    val_main_v41 (F := Ideal) x2 x7 x8 (ix2 r z)
      = Cert.Spec.mean64 (fun q' : Fin 64 => val_main_v37 (F := Ideal) x2 x7 x8 (ix2 r q')) := by
  have e38 : ∀ k : Fin 64, idx_main_v38 (idx_main_v39 (ix2 r z)) k = ix2 r k := fun k =>
    funext fun a => Fin.ext (by match a with | ⟨0, _⟩ => rfl | ⟨1, _⟩ => rfl)
  rw [val_main_v41_apply, val_main_v39_apply, val_main_v38_apply, val_main_cst_4_apply, val_main_v40_apply,
    val_main_cst_5_apply]
  simp only [e38, Ideal.hostDivf_def, Ideal.ofBits_def, Ideal.ofBits_zero_f32, zero_add]
  rfl

/-- The row's variance: the mean of the squared deviations from the row's mean. -/
theorem row_v48 (r : Fin 1000000) (z : Fin 1) :
    val_main_v48 (F := Ideal) x2 x7 x8 (ix2 r z)
      = Cert.Spec.var64 (fun q' : Fin 64 => val_main_v37 (F := Ideal) x2 x7 x8 (ix2 r q')) := by
  have e45 : ∀ k : Fin 64, idx_main_v45 (idx_main_v46 (ix2 r z)) k = ix2 r k := fun k =>
    funext fun a => Fin.ext (by match a with | ⟨0, _⟩ => rfl | ⟨1, _⟩ => rfl)
  have e42 : ∀ k : Fin 64, idx_main_v42 (ix2 r k) = ix2 r (⟨0, Nat.one_pos⟩ : Fin 1) := fun k =>
    funext fun a => Fin.ext (by match a with | ⟨0, _⟩ => rfl | ⟨1, _⟩ => rfl)
  rw [val_main_v48_apply, val_main_v46_apply, val_main_v45_apply, val_main_cst_6_apply, val_main_v47_apply,
    val_main_cst_7_apply]
  simp only [e45, val_main_v44_apply, val_main_v43_apply, val_main_v42_apply, e42, row_v41, Ideal.hostDivf_def,
    Ideal.mulf_def, Ideal.subf_def, Ideal.ofBits_def, Ideal.ofBits_zero_f32, zero_add]
  rfl

/-- The edge encoder of the reference, read at a row: the row specification of that row of the stage's operands. -/
theorem row_v61 (r : Fin 1000000) (q : Fin 64) :
    val_main_v61 (F := Ideal) x2 x7 x8 x9 x10 (ix2 r q)
      = Cert.Spec.encRowDiv (fun k : Fin 5 => x2 (ix2 r k)) (fun (k : Fin 5) (q' : Fin 64) => x7 (ix2 k q')) (fun q' : Fin 64 => x8 (ix1 q')) (fun q' : Fin 64 => x9 (ix1 q')) (fun q' : Fin 64 => x10 (ix1 q')) q := by
  have e49 : idx_main_v49 (ix2 r q) = ix2 r (⟨0, Nat.one_pos⟩ : Fin 1) :=
    funext fun a => Fin.ext (by match a with | ⟨0, _⟩ => rfl | ⟨1, _⟩ => rfl)
  have e54 : idx_main_v54 (ix2 r q) = ix2 r (⟨0, Nat.one_pos⟩ : Fin 1) :=
    funext fun a => Fin.ext (by match a with | ⟨0, _⟩ => rfl | ⟨1, _⟩ => rfl)
  have e57 : idx_main_v56 (idx_main_v57 (ix2 r q)) = ix1 q :=
    funext fun a => Fin.ext (by match a with | ⟨0, _⟩ => rfl)
  have e60 : idx_main_v59 (idx_main_v60 (ix2 r q)) = ix1 q :=
    funext fun a => Fin.ext (by match a with | ⟨0, _⟩ => rfl)
  rw [val_main_v61_apply, val_main_v58_apply, val_main_v55_apply, val_main_v50_apply, val_main_v49_apply,
    val_main_v54_apply, val_main_v53_apply, val_main_v52_apply, val_main_v51_apply, val_main_cst_8_apply,
    val_main_v57_apply, val_main_v56_apply, val_main_v60_apply, val_main_v59_apply, e49, e54, e57, e60,
    row_v41, row_v48]
  simp only [row_v37, Ideal.addf_def, Ideal.subf_def, Ideal.mulf_def, Ideal.hostDivf_def, Ideal.hostUnary_sqrt_def,
    Ideal.ofBits_def]
  rfl

end Cert.ReferenceIdeal.RefRows

end
-- ==== Proof.KI.Bridge1.lean ====
import proofs.«178696_j1468878815658_2_alg».proof.Proof.KI.Inv
import proofs.«178696_j1468878815658_2_alg».proof.Proof.KI.Args
import proofs.«178696_j1468878815658_2_alg».proof.Proof.KI.Fin1
import proofs.«178696_j1468878815658_2_alg».proof.Proof.Ref.Row1
import proofs.«178696_j1468878815658_2_alg».proof.Proof.Spec
import proofs.«178696_j1468878815658_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-!
  Host stretch 1 and region 1 of the idealized kernel program, read against the reference: if the buffers' contents
  before them satisfy `E1` (the arguments as launched, the live intermediates equal to the reference's stage values),
  then after them — the region's arrays at whatever contents they may hold after every write-back, nothing forgotten —
  they satisfy `E2`: the region's output array IS the reference's value of the same stage, because row by row both
  are the row specification of the same operand rows (the two spellings of the specification agree), and every other
  live buffer is as it was.
-/

set_option maxRecDepth 16384

noncomputable section

namespace Cert.KernelIdeal.Gen

open Idealize.ShloMosaic Idealize.ShloMosaic.TcCoe Idealize.ShloMosaic.ValueIdx
open Idealize.SL Idealize.SL.Sem

theorem bridge1 (m : (ℓ : Loc nD τ sig) → Buf (Elt Ideal) ℓ) (c : Dev nD) (W : Valuation τ sig (Elt Ideal))
    (hE : E1 m c W)
    (A : (w : Fin cfg1.W) → Buf (Elt Ideal) ((cfg1.win w).arr.view.loc (c : Thread nD τ)))
    (hA : ∀ w, (rdat1 (F := Ideal) (StableHlo.after (hostOps1 (F := Ideal)) W) (fun _ => false) c).ArrAt w cfg1.N (A w)) :
    E2 m c (Pipeline.withArrays spec1 c (StableHlo.after (hostOps1 (F := Ideal)) W) A) := by
  -- the arguments the stretch and the region read, as launched
  have g2 : W (Proc.devRef .tc main_arg2) = a2 m c := hE.args main_arg2 (by decide)
  have g7 : W (Proc.devRef .tc main_arg7) = a7 m c := hE.args main_arg7 (by decide)
  have g8 : W (Proc.devRef .tc main_arg8) = a8 m c := hE.args main_arg8 (by decide)
  have g9 : W (Proc.devRef .tc main_arg9) = a9 m c := hE.args main_arg9 (by decide)
  have g10 : W (Proc.devRef .tc main_arg10) = a10 m c := hE.args main_arg10 (by decide)
  -- what the host stretch leaves: the arguments and the earlier buffers untouched,
  have k2 : StableHlo.after (hostOps1 (F := Ideal)) W (Proc.devRef .tc main_arg2) = a2 m c :=
    (StableHlo.after_of_writes_sub hostOps1 W hostOps1_writes (by decide)).trans g2
  have k7 : StableHlo.after (hostOps1 (F := Ideal)) W (Proc.devRef .tc main_arg7) = a7 m c :=
    (StableHlo.after_of_writes_sub hostOps1 W hostOps1_writes (by decide)).trans g7
  have c1 : StableHlo.after (hostOps1 (F := Ideal)) W (Proc.devRef .tc main_v1) = W (Proc.devRef .tc main_v1) :=
    StableHlo.after_of_writes_sub hostOps1 W hostOps1_writes (by decide)
  have c3 : StableHlo.after (hostOps1 (F := Ideal)) W (Proc.devRef .tc main_v3) = W (Proc.devRef .tc main_v3) :=
    StableHlo.after_of_writes_sub hostOps1 W hostOps1_writes (by decide)
  have c7 : StableHlo.after (hostOps1 (F := Ideal)) W (Proc.devRef .tc main_v7) = W (Proc.devRef .tc main_v7) :=
    StableHlo.after_of_writes_sub hostOps1 W hostOps1_writes (by decide)
  -- the bias, scale and shift rows, each its argument with a unit axis in front
  have k8 : ∀ q' : Fin 64, (StableHlo.after (hostOps1 (F := Ideal)) W (Proc.devRef .tc main_v8) : S1x64.Idx → EReal) (ix2 0 q')
      = (a8 m c : S64.Idx → EReal) (ix1 q') := fun q' => by
    rw [← g8]
    after_results
    exact shapeCast_a_1a_apply _ _ 0 q'
  have k9 : ∀ q' : Fin 64, (StableHlo.after (hostOps1 (F := Ideal)) W (Proc.devRef .tc main_v9) : S1x64.Idx → EReal) (ix2 0 q')
      = (a9 m c : S64.Idx → EReal) (ix1 q') := fun q' => by
    rw [← g9]
    after_results
    exact shapeCast_a_1a_apply _ _ 0 q'
  have k10 : ∀ q' : Fin 64, (StableHlo.after (hostOps1 (F := Ideal)) W (Proc.devRef .tc main_v10) : S1x64.Idx → EReal) (ix2 0 q')
      = (a10 m c : S64.Idx → EReal) (ix1 q') := fun q' => by
    rw [← g10]
    after_results
    exact shapeCast_a_1a_apply _ _ 0 q'
  refine ⟨argsOf_region1 m _ (fun _ => false) c (argsOf_host1 m c W hE.args) A hA, ?_, ?_, ?_, ?_⟩
  · exact ((withArrays1_of_ne_out _ (fun _ => false) c A hA main_v1 (by decide)).trans c1).trans hE.v1
  · exact ((withArrays1_of_ne_out _ (fun _ => false) c A hA main_v3 (by decide)).trans c3).trans hE.v3
  · exact ((withArrays1_of_ne_out _ (fun _ => false) c A hA main_v7 (by decide)).trans c7).trans hE.v7
  · -- the region's output array: row by row the row specification of the same operand rows
    have hout : Pipeline.withArrays spec1 c (StableHlo.after (hostOps1 (F := Ideal)) W) A (Proc.devRef .tc main_v11) = A 5 :=
      Pipeline.withArrays_arr spec1 launch1.win.arr_inj c _ A 5
    have hA5 : A 5 = (dat1 (F := Ideal) (VW (StableHlo.after (hostOps1 (F := Ideal)) W)) c).arrAt 5 cfg1.N :=
      (Pipeline.Dat.toRForget_arrAt_iff (dat := dat1 (F := Ideal) (VW (StableHlo.after (hostOps1 (F := Ideal)) W)) c)
        (fgt := fun _ => false) (w := 5) rfl cfg1.N (A 5)).mp (hA 5)
    rw [hout, hA5]
    funext i
    obtain ⟨r, q, rfl⟩ : ∃ (r : Fin 1000000) (q : Fin 64), i = ix2 r q := ⟨i 0, i 1, eq_ix2 i⟩
    rw [final1, Cert.ReferenceIdeal.RefRows.row_v61, Cert.Spec.encRow_eq_encRowDiv]
    show Cert.Spec.encRowDiv
        (fun k : Fin 5 => (StableHlo.after (hostOps1 (F := Ideal)) W (Proc.devRef .tc main_arg2) : S1000000x5.Idx → EReal) (ix2 r k))
        (fun (k : Fin 5) (q' : Fin 64) => (StableHlo.after (hostOps1 (F := Ideal)) W (Proc.devRef .tc main_arg7) : S5x64.Idx → EReal) (ix2 k q'))
        (fun q' : Fin 64 => (StableHlo.after (hostOps1 (F := Ideal)) W (Proc.devRef .tc main_v8) : S1x64.Idx → EReal) (ix2 0 q'))
        (fun q' : Fin 64 => (StableHlo.after (hostOps1 (F := Ideal)) W (Proc.devRef .tc main_v9) : S1x64.Idx → EReal) (ix2 0 q'))
        (fun q' : Fin 64 => (StableHlo.after (hostOps1 (F := Ideal)) W (Proc.devRef .tc main_v10) : S1x64.Idx → EReal) (ix2 0 q')) q = _
    rw [k2, k7, funext k8, funext k9, funext k10]

end Cert.KernelIdeal.Gen

end
-- ==== Proof.KI.Val2.lean ====
import proofs.«178696_j1468878815658_2_alg».proof.Proof.KI.Outs
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Val

open Idealize.ShloMosaic Idealize.ShloMosaic.ValueIdx Cert.KernelIdeal Cert.KernelIdeal.Gen

open Cert.KernelIdeal.Facts₀

/-! ## The matrix product onto a zero accumulator, read at an index -/

/-- The left operand's index at result index `i` and contraction index `q`: on axis 0, the result's row. -/
theorem lhs_mm2_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
/-- On axis 1, the contraction's coordinate. -/
theorem lhs_mm2_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
/-- The right operand's index: on axis 0, the contraction's coordinate. -/
theorem rhs_mm2_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
/-- On axis 1, the result's column. -/
theorem rhs_mm2_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The product of `A` and `B` onto the zero block, at `(r, q)`, is the sum over `k` of `A (r, k) * B (k, q)`. -/
theorem mm2_apply {φ₁ φ₂ : FTy} (A : FVec Ideal S8192x64 φ₁) (B : FVec Ideal S64x64 φ₂) (r : Fin 8192) (q : Fin 64) :
    matmul dot_S8192x64_S64x64_S8192x64_1_0_0_1_n_n none A B (constant S8192x64 .f32 0x00000000#32) (ix2 r q)
      = ∑ k : Fin 64, A (ix2 r k) * B (ix2 k q) := by
  refine (Ideal.matmul_constant_zero_apply dot_S8192x64_S64x64_S8192x64_1_0_0_1_n_n none A B (ix2 r q)).trans ?_
  rw [← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx (ix2 r q) ((contrEquiv1 dot_S8192x64_S64x64_S8192x64_1_0_0_1_n_n 64 rfl rfl).symm k) = ix2 r k := funext fun a => Fin.ext (by
    match a with
    | ⟨0, _⟩ => exact lhs_mm2_0 _ _
    | ⟨1, _⟩ => exact (lhs_mm2_1 _ _).trans hk)
  have er : dot_S8192x64_S64x64_S8192x64_1_0_0_1_n_n.rhsIdx (ix2 r q) ((contrEquiv1 dot_S8192x64_S64x64_S8192x64_1_0_0_1_n_n 64 rfl rfl).symm k) = ix2 k q := funext fun a => Fin.ext (by
    match a with
    | ⟨0, _⟩ => exact (rhs_mm2_0 _ _).trans hk
    | ⟨1, _⟩ => exact rhs_mm2_1 _ _)
  rw [el, er]

/-! ## Region 2: the two products, the bias, the ReLU -/

/-- The block before the store's format change: the source rows against their half of the weights, plus the edge
    rows against theirs, plus the bias row, clamped at zero. -/
def act2 (xs e : Vec Ideal S8192x64 .bf16) (ws we : Vec Ideal S64x64 .f32) (b : Vec Ideal S1x64 .f32) : FVec Ideal S8192x64 .f32 :=
  have xs' : FVec Ideal S8192x64 .bf16 := shapeCast S8192x64 xs shapeCasts_S8192x64_S8192x64
  have e' : FVec Ideal S8192x64 .bf16 := shapeCast S8192x64 e shapeCasts_S8192x64_S8192x64
  have ws' : FVec Ideal S64x64 .f32 := shapeCast S64x64 ws shapeCasts_S64x64_S64x64
  have we' : FVec Ideal S64x64 .f32 := shapeCast S64x64 we shapeCasts_S64x64_S64x64
  have b' : FVec Ideal S1x64 .f32 := shapeCast S1x64 b shapeCasts_S1x64_S1x64
  maximumf
    (addf
      (addf
        (matmul dot_S8192x64_S64x64_S8192x64_1_0_0_1_n_n none xs' (truncf .bf16 ws' bitsLt_bf16_f32) (constant S8192x64 .f32 0x00000000#32))
        (matmul dot_S8192x64_S64x64_S8192x64_1_0_0_1_n_n none e' (truncf .bf16 we' bitsLt_bf16_f32) (constant S8192x64 .f32 0x00000000#32)))
      (broadcastTo S8192x64 b' broadcasts_S1x64_S8192x64))
    (broadcast S8192x64 (Scalar.ofBits .f32 0x00000000#32))

/-- The payload of region 2 is that block, its format changed. -/
theorem k2_pay1_eq (xs e : Vec Ideal S8192x64 .bf16) (ws we : Vec Ideal S64x64 .f32) (b : Vec Ideal S1x64 .f32) :
    k2_pay1 xs e ws we b = truncf .bf16 (act2 xs e ws we b) bitsLt_bf16_f32 := rfl

/-- At `(r, q)` the block is the message row of row `r` of the two row-tiled operands. -/
theorem act2_apply (xs e : Vec Ideal S8192x64 .bf16) (ws we : Vec Ideal S64x64 .f32) (b : Vec Ideal S1x64 .f32) (r : Fin 8192) (q : Fin 64) :
    act2 xs e ws we b (ix2 r q)
      = Cert.Spec.msgRow (fun k : Fin 64 => xs (ix2 r k)) (fun k : Fin 64 => e (ix2 r k)) (fun (k : Fin 64) (q' : Fin 64) => ws (ix2 k q')) (fun (k : Fin 64) (q' : Fin 64) => we (ix2 k q')) (fun q' : Fin 64 => b (ix2 0 q')) q := by
  unfold act2 Cert.Spec.msgRow
  simp only [shapeCast_self]
  refine (maximumf_apply _ _ _).trans ?_
  refine congrArg (fun t => max t _) ?_
  refine (addf_apply _ _ _).trans ?_
  refine congrArg₂ (· + ·) ?_ (broadcastTo_1b_ab_apply b broadcasts_S1x64_S8192x64 r q)
  refine (addf_apply _ _ _).trans ?_
  exact congrArg₂ (· + ·) (mm2_apply _ _ r q) (mm2_apply _ _ r q)

/-- Region 2's stored value at row `r`, over the extended reals, is the row specification of row `r` of its
    row-tiled inputs and the whole weights: no other row enters. -/
theorem out2_apply (xs e : Vec Ideal S8192x64 .bf16) (ws we : Vec Ideal S64x64 .f32) (b : Vec Ideal S1x64 .f32) (r : Fin 8192) (q : Fin 64) :
    out2 xs e ws we b (ix2 r q)
      = Cert.Spec.msgRow (fun k : Fin 64 => xs (ix2 r k)) (fun k : Fin 64 => e (ix2 r k)) (fun (k : Fin 64) (q' : Fin 64) => ws (ix2 k q')) (fun (k : Fin 64) (q' : Fin 64) => we (ix2 k q')) (fun q' : Fin 64 => b (ix2 0 q')) q := by
  unfold out2
  rw [k2_pay1_eq]
  exact (truncf_apply (act2 xs e ws we b) bitsLt_bf16_f32 (ix2 r q)).trans (act2_apply xs e ws we b r q)

end Cert.KernelIdeal.Gen.Val

end
-- ==== Proof.KI.Loc2.lean ====
import proofs.«178696_j1468878815658_2_alg».proof.Proof.KI.Val2

noncomputable section

namespace Cert.KernelIdeal.Gen.Val

open Idealize.ShloMosaic Idealize.ShloMosaic.ValueIdx Cert.KernelIdeal Cert.KernelIdeal.Gen
open Cert.KernelIdeal.Facts₀

/-- Region 2's stored row `r` depends on the two row-tiled blocks through their rows `r` alone. -/
theorem out2_congr_row (xs xs' e e' : Vec Ideal S8192x64 .bf16) (ws we : Vec Ideal S64x64 .f32) (b : Vec Ideal S1x64 .f32) (r : Fin 8192)
    (h1 : ∀ k : Fin 64, xs (ix2 r k) = xs' (ix2 r k)) (h2 : ∀ k : Fin 64, e (ix2 r k) = e' (ix2 r k)) (q : Fin 64) :
    out2 xs e ws we b (ix2 r q) = out2 xs' e' ws we b (ix2 r q) := by
  rw [out2_apply, out2_apply]
  exact congrArg₂ (fun row row' => Cert.Spec.msgRow row row' _ _ _ q) (funext h1) (funext h2)

end Cert.KernelIdeal.Gen.Val

end
-- ==== Proof.KI.Cut2.lean ====
import proofs.«178696_j1468878815658_2_alg».proof.Proof.KI.Loc2
import proofs.«178696_j1468878815658_2_alg».proof.Proof.Gen.KernelIdeal.Launch
import proofs.«178696_j1468878815658_2_alg».proof.Proof.Gen.KernelIdeal.Points
import Idealize.ShloMosaic.Lib.Pipeline.Kit

noncomputable section

namespace Cert.KernelIdeal.Gen.Val

open Idealize.ShloMosaic Idealize.ShloMosaic.ValueIdx Cert.KernelIdeal Cert.KernelIdeal.Gen
open Idealize.ShloMosaic.Pipeline (Window)

/-- Two fillings of a block with the same moved part agree at every index the transfer moves. -/
private theorem fill_congr_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill
  rw [dif_pos h, dif_pos h]

/-- The two row-tiled input blocks and the stored block are cut alike on the row axis: one row index map, one block
    height, one array height. -/
theorem xsize2_row0 (i : grid2.Coords) : (cfg2.win 0).xsize i (0 : Fin 2) = (cfg2.win 5).xsize i (0 : Fin 2) := rfl
theorem xsize2_row1 (i : grid2.Coords) : (cfg2.win 1).xsize i (0 : Fin 2) = (cfg2.win 5).xsize i (0 : Fin 2) := rfl
/-- On the column axis neither input block is cut. -/
theorem xsize2_col0 (i : grid2.Coords) : (cfg2.win 0).xsize i (1 : Fin 2) = 64 := rfl
theorem xsize2_col1 (i : grid2.Coords) : (cfg2.win 1).xsize i (1 : Fin 2) = 64 := rfl

/-- The part of region 2's stored block that the write-back moves does not depend on what the two row-tiled input
    blocks hold past the parts their fetches moved. -/
theorem cut_out2_fill (t : Fin cfg2.N)
    (d0 d0' : (cfg2.win 0).block.Idx → Elt Ideal (cfg2.win 0).elt) (b0 : ((cfg2.win 0).xblock (cfg2.grid.coords t)).Idx → Elt Ideal (cfg2.win 0).elt)
    (d1 d1' : (cfg2.win 1).block.Idx → Elt Ideal (cfg2.win 1).elt) (b1 : ((cfg2.win 1).xblock (cfg2.grid.coords t)).Idx → Elt Ideal (cfg2.win 1).elt)
    (ws : Vec Ideal S64x64 .f32) (we : Vec Ideal S64x64 .f32) (b : Vec Ideal S1x64 .f32) :
    (cfg2.win 5).cut (cfg2.grid.coords t) (out2 ((cfg2.win 0).fill (cfg2.grid.coords t) d0 b0) ((cfg2.win 1).fill (cfg2.grid.coords t) d1 b1) ws we b)
      = (cfg2.win 5).cut (cfg2.grid.coords t) (out2 ((cfg2.win 0).fill (cfg2.grid.coords t) d0' b0) ((cfg2.win 1).fill (cfg2.grid.coords t) d1' b1) ws we b) := by
  funext j
  -- the moved index `j` of the stored block is row `r`, column `q` of the block
  have hr : (j (0 : Fin 2)).val < 8192 := Nat.lt_of_lt_of_le (j (0 : Fin 2)).isLt ((cfg2.win 5).xsize_le (cfg2.grid.coords t) (0 : Fin 2))
  have hq : (j (1 : Fin 2)).val < 64 := Nat.lt_of_lt_of_le (j (1 : Fin 2)).isLt ((cfg2.win 5).xsize_le (cfg2.grid.coords t) (1 : Fin 2))
  have hj : (cfg2.win 5).xinj (cfg2.grid.coords t) j = ix2 (⟨(j (0 : Fin 2)).val, hr⟩ : Fin 8192) (⟨(j (1 : Fin 2)).val, hq⟩ : Fin 64) :=
    funext fun a => match a with | ⟨0, _⟩ => rfl | ⟨1, _⟩ => rfl
  show out2 _ _ ws we b ((cfg2.win 5).xinj (cfg2.grid.coords t) j) = out2 _ _ ws we b ((cfg2.win 5).xinj (cfg2.grid.coords t) j)
  rw [hj]
  -- row `r` of the output reads row `r` of each input alone, and that row lies in the part each fetch moved
  refine out2_congr_row _ _ _ _ ws we b ⟨(j (0 : Fin 2)).val, hr⟩ (fun k => ?_) (fun k => ?_) ⟨(j (1 : Fin 2)).val, hq⟩
  · refine fill_congr_of_moved (cfg2.win 0) (cfg2.grid.coords t) d0 d0' b0 _ (((cfg2.win 0).moved_iff (cfg2.grid.coords t) _).mpr fun a => ?_)
    match a with
    | ⟨0, _⟩ => exact lt_of_lt_of_eq (j (0 : Fin 2)).isLt (xsize2_row0 (cfg2.grid.coords t)).symm
    | ⟨1, _⟩ => exact lt_of_lt_of_eq k.isLt (xsize2_col0 (cfg2.grid.coords t)).symm
  · refine fill_congr_of_moved (cfg2.win 1) (cfg2.grid.coords t) d1 d1' b1 _ (((cfg2.win 1).moved_iff (cfg2.grid.coords t) _).mpr fun a => ?_)
    match a with
    | ⟨0, _⟩ => exact lt_of_lt_of_eq (j (0 : Fin 2)).isLt (xsize2_row1 (cfg2.grid.coords t)).symm
    | ⟨1, _⟩ => exact lt_of_lt_of_eq k.isLt (xsize2_col1 (cfg2.grid.coords t)).symm

end Cert.KernelIdeal.Gen.Val

end
-- ==== Proof.KI.Named2.lean ====
import proofs.«178696_j1468878815658_2_alg».proof.Proof.KI.Obl2
import proofs.«178696_j1468878815658_2_alg».proof.Proof.KI.Cut2

/-!
  Region 2's body obligation over the extended reals with EVERY window named. The output's staging buffer is stated on
  the rows inside the array only; there what the body stores does not depend on the words the clipped fetch left in the
  rest of the input buffers, because a stored row is a function of the same row of each row-tiled input alone.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Idealize.ShloMosaic.Ideal) ((c : Thread nD τ).loc b))

theorem body_obligation2_named (c : Dev nD) :
    BodyObligationLoose (dat2 (F := Idealize.ShloMosaic.Ideal) V c) (defs₀ (F := Idealize.ShloMosaic.Ideal)) Variants.none () Set.univ := fun t => by
  rw [bigSep_W2, bigSep_W2]
  simp only
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%dO, HX⟩⟩
  rw [before2_0 V c t d0, before2_1 V c t d1, before2_2 V c t d2, before2_3 V c t d3, before2_4 V c t d4]
  iapply (sound_kernel2 (F := Idealize.ShloMosaic.Ideal) c Set.univ (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) ((cfg2.win 0).fill (cfg2.grid.coords t) d0 (iblk2 V c 0 t)) ((cfg2.win 1).fill (cfg2.grid.coords t) d1 (iblk2 V c 1 t)) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [HX]; · iexists _; iexact HX
  iintro ⟨H0, H1, H2, H3, H4, HX⟩
  isplitl [HΦ]; · iexact HΦ
  isplitl [Ho]; · iexact Ho
  isplitl [H0]
  · iexists d0
    rw [after2_0]; unfold fblk2; rw [(cfg2.win 0).cut_fill]; iexact H0
  isplitl [H1]
  · iexists d1
    rw [after2_1]; unfold fblk2; rw [(cfg2.win 1).cut_fill]; iexact H1
  isplitl [H2]
  · rw [after2_2]; iexact H2
  isplitl [H3]
  · rw [after2_3]; iexact H3
  isplitl [H4]
  · rw [after2_4]; iexact H4
  iexists (out2 ((cfg2.win 0).fill (cfg2.grid.coords t) d0 (iblk2 V c 0 t)) ((cfg2.win 1).fill (cfg2.grid.coords t) d1 (iblk2 V c 1 t)) (iblk2 V c 2 t) (iblk2 V c 3 t) (iblk2 V c 4 t))
  rw [after2_5]; unfold fblk2
  rw [(cfg2.win 5).fill_congr_cut (cfg2.grid.coords t) (Val.cut_out2_fill t d0 (fun _ => Classical.arbitrary _) (iblk2 V c 0 t) d1 (fun _ => Classical.arbitrary _) (iblk2 V c 1 t) (iblk2 V c 2 t) (iblk2 V c 3 t) (iblk2 V c 4 t))]
  iexact HX

end Cert.KernelIdeal.Gen

end
-- ==== Proof.KI.Fin2.lean ====
import proofs.«178696_j1468878815658_2_alg».proof.Proof.KI.Dat2
import proofs.«178696_j1468878815658_2_alg».proof.Proof.KI.Val2
import proofs.«178696_j1468878815658_2_alg».proof.Proof.Spec
import Idealize.ShloMosaic.Lib.ValueIdx
import Idealize.ShloMosaic.Lib.Pipeline.Value
import Idealize.ShloMosaic.PureOps.Ideal

/-!
  Region 2's output array after all its write-backs, over the extended reals: at every row it is the row
  specification of that row of the row-tiled entry arrays and of the whole weights. Every point writes its block back,
  cut to the rows inside the array; what it writes is the block of one whole-array function, because the two row-tiled
  inputs and the output share one row index map and are cut alike; and the blocks cover every row.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Final

open Idealize.ShloMosaic.ValueIdx

variable (V : (c : Dev nD) → (b : Ref sig .tc) → Buf (Elt Idealize.ShloMosaic.Ideal) ((c : Thread nD τ).loc b))

/-- The output window's block index at point `t` is `(t, 0)`; its block is cut to the rows left in the array, and
    to all 64 columns. -/
theorem idx_facts2 : ∀ t : Fin cfg2.N, win2_5.index t (0 : Fin 2) = t.val ∧ win2_5.index t (1 : Fin 2) = 0
    ∧ win2_5.xsize (grid2.coords t) (0 : Fin 2) = min 8192 (1000000 - t.val * 8192)
    ∧ win2_5.xsize (grid2.coords t) (1 : Fin 2) = 64 :=
  (by decide +kernel : ∀ t : Fin grid2.N, _)

/-- A message row is a function of its rows, weights, bias and column. -/
private theorem msgRow_congr {xs xs' e e' : Fin 64 → EReal} {ws ws' we we' : Fin 64 → Fin 64 → EReal} {b b' : Fin 64 → EReal} {q q' : Fin 64}
    (h1 : xs = xs') (h2 : e = e') (h3 : ws = ws') (h4 : we = we') (h5 : b = b') (h6 : q = q') :
    Cert.Spec.msgRow xs e ws we b q = Cert.Spec.msgRow xs' e' ws' we' b' q' := by
  subst h1 h2 h3 h4 h5 h6; rfl

/-- What the output array ends holding: at `(r, q)` the message row of row `r` of the two row-tiled entry arrays and
    of the whole weights and bias. -/
def G2 (c : Dev nD) : S1000000x64.Idx → EReal := fun i =>
  Cert.Spec.msgRow (fun k : Fin 64 => (V c main_v29 : S1000000x64.Idx → EReal) (ix2 (⟨(i 0).val, (i 0).isLt⟩ : Fin 1000000) k))
    (fun k : Fin 64 => (V c main_v11 : S1000000x64.Idx → EReal) (ix2 (⟨(i 0).val, (i 0).isLt⟩ : Fin 1000000) k))
    (fun (k : Fin 64) (q' : Fin 64) => (V c main_v19 : S64x64.Idx → EReal) (ix2 k q'))
    (fun (k : Fin 64) (q' : Fin 64) => (V c main_v20 : S64x64.Idx → EReal) (ix2 k q'))
    (fun q' : Fin 64 => (V c main_v30 : S1x64.Idx → EReal) (ix2 0 q')) (⟨(i 1).val, (i 1).isLt⟩ : Fin 64)

/-- The first row-tiled input's filled block at a row `r'` the output's transfer moves is the entry array at the row
    `R` the output's block puts it at: the two windows have one row index map and are cut alike. -/
theorem fblk2_0_apply (c : Dev nD) (t : Fin cfg2.N) (r' : Fin 8192) (k : Fin 64)
    (hr : r'.val < win2_5.xsize (grid2.coords t) (0 : Fin 2)) (R : Fin 1000000) (hR : R.val = win2_5.index t (0 : Fin 2) * 8192 + r'.val) :
    (fblk2 V c 0 t : S8192x64.Idx → EReal) (ix2 r' k) = (V c main_v29 : S1000000x64.Idx → EReal) (ix2 R k) := by
  unfold fblk2
  have e : (ix2 r' k : (cfg2.win 0).block.Idx)
      = (cfg2.win 0).xinj (cfg2.grid.coords t) (fun a => match a with | ⟨0, _⟩ => ⟨r'.val, hr⟩ | ⟨1, _⟩ => ⟨k.val, k.isLt⟩) :=
    funext fun a => match a with | ⟨0, _⟩ => rfl | ⟨1, _⟩ => rfl
  refine (congrArg _ e).trans (((cfg2.win 0).fill_xinj _ _ _ _).trans ?_)
  unfold iblk2
  refine (View.read_apply _ _).trans ?_
  show (V c main_v29 : S1000000x64.Idx → EReal) _ = _
  refine congrArg _ (funext fun a => Fin.ext ?_)
  match a with
  | ⟨0, _⟩ => show win2_0.index t (0 : Fin 2) * 8192 + 1 * r'.val = R.val; rw [hR]; show win2_5.index t (0 : Fin 2) * 8192 + 1 * r'.val = _; omega
  | ⟨1, _⟩ => show 0 * 64 + 1 * k.val = k.val; omega

/-- The second row-tiled input's likewise. -/
theorem fblk2_1_apply (c : Dev nD) (t : Fin cfg2.N) (r' : Fin 8192) (k : Fin 64)
    (hr : r'.val < win2_5.xsize (grid2.coords t) (0 : Fin 2)) (R : Fin 1000000) (hR : R.val = win2_5.index t (0 : Fin 2) * 8192 + r'.val) :
    (fblk2 V c 1 t : S8192x64.Idx → EReal) (ix2 r' k) = (V c main_v11 : S1000000x64.Idx → EReal) (ix2 R k) := by
  unfold fblk2
  have e : (ix2 r' k : (cfg2.win 1).block.Idx)
      = (cfg2.win 1).xinj (cfg2.grid.coords t) (fun a => match a with | ⟨0, _⟩ => ⟨r'.val, hr⟩ | ⟨1, _⟩ => ⟨k.val, k.isLt⟩) :=
    funext fun a => match a with | ⟨0, _⟩ => rfl | ⟨1, _⟩ => rfl
  refine (congrArg _ e).trans (((cfg2.win 1).fill_xinj _ _ _ _).trans ?_)
  unfold iblk2
  refine (View.read_apply _ _).trans ?_
  show (V c main_v11 : S1000000x64.Idx → EReal) _ = _
  refine congrArg _ (funext fun a => Fin.ext ?_)
  match a with
  | ⟨0, _⟩ => show win2_1.index t (0 : Fin 2) * 8192 + 1 * r'.val = R.val; rw [hR]; show win2_5.index t (0 : Fin 2) * 8192 + 1 * r'.val = _; omega
  | ⟨1, _⟩ => show 0 * 64 + 1 * k.val = k.val; omega

/-- A weight window's block is its whole array, at every point. -/
theorem iblk2_2_apply (c : Dev nD) (t : Fin cfg2.N) (k q' : Fin 64) :
    (iblk2 V c 2 t : S64x64.Idx → EReal) (ix2 k q') = (V c main_v19 : S64x64.Idx → EReal) (ix2 k q') := by
  unfold iblk2
  refine (View.read_apply _ _).trans ?_
  show (V c main_v19 : S64x64.Idx → EReal) _ = _
  refine congrArg _ (funext fun a => Fin.ext ?_)
  match a with
  | ⟨0, _⟩ => show 0 * 64 + 1 * k.val = k.val; omega
  | ⟨1, _⟩ => show 0 * 64 + 1 * q'.val = q'.val; omega
theorem iblk2_3_apply (c : Dev nD) (t : Fin cfg2.N) (k q' : Fin 64) :
    (iblk2 V c 3 t : S64x64.Idx → EReal) (ix2 k q') = (V c main_v20 : S64x64.Idx → EReal) (ix2 k q') := by
  unfold iblk2
  refine (View.read_apply _ _).trans ?_
  show (V c main_v20 : S64x64.Idx → EReal) _ = _
  refine congrArg _ (funext fun a => Fin.ext ?_)
  match a with
  | ⟨0, _⟩ => show 0 * 64 + 1 * k.val = k.val; omega
  | ⟨1, _⟩ => show 0 * 64 + 1 * q'.val = q'.val; omega
/-- The bias window's likewise. -/
theorem iblk2_4_apply (c : Dev nD) (t : Fin cfg2.N) (q' : Fin 64) :
    (iblk2 V c 4 t : S1x64.Idx → EReal) (ix2 0 q') = (V c main_v30 : S1x64.Idx → EReal) (ix2 0 q') := by
  unfold iblk2
  refine (View.read_apply _ _).trans ?_
  show (V c main_v30 : S1x64.Idx → EReal) _ = _
  refine congrArg _ (funext fun a => Fin.ext ?_)
  match a with
  | ⟨0, _⟩ => show 0 * 1 + 1 * 0 = 0; omega
  | ⟨1, _⟩ => show 0 * 64 + 1 * q'.val = q'.val; omega

/-- WHAT POINT `t` WRITES BACK is block `t` of `G2`. -/
theorem flushed2_eq (c : Dev nD) (t : Fin cfg2.N) :
    (dat2 (F := Idealize.ShloMosaic.Ideal) V c).flushed 5 t = ((cfg2.win 5).blk t).view.read (Elt Idealize.ShloMosaic.Ideal) (G2 V c) := by
  show (cfg2.win 5).cut (cfg2.grid.coords t) ((dat2 (F := Idealize.ShloMosaic.Ideal) V c).after 5 t) = _
  rw [after2_5]
  funext j
  -- the moved index `j` is row `r'`, column `q'` of the block
  have hr : (j (0 : Fin 2)).val < 8192 := Nat.lt_of_lt_of_le (j (0 : Fin 2)).isLt ((cfg2.win 5).xsize_le (cfg2.grid.coords t) (0 : Fin 2))
  have hq : (j (1 : Fin 2)).val < 64 := Nat.lt_of_lt_of_le (j (1 : Fin 2)).isLt ((cfg2.win 5).xsize_le (cfg2.grid.coords t) (1 : Fin 2))
  have hj : (cfg2.win 5).xinj (cfg2.grid.coords t) j = ix2 (⟨(j (0 : Fin 2)).val, hr⟩ : Fin 8192) (⟨(j (1 : Fin 2)).val, hq⟩ : Fin 64) :=
    funext fun a => match a with | ⟨0, _⟩ => rfl | ⟨1, _⟩ => rfl
  show out2 _ _ _ _ _ ((cfg2.win 5).xinj (cfg2.grid.coords t) j) = _
  rw [hj]
  refine (Val.out2_apply _ _ _ _ _ _ _).trans ?_
  show _ = G2 V c (((cfg2.win 5).blk t).view.emb j)
  unfold G2
  refine msgRow_congr ?_ ?_ ?_ ?_ ?_ ?_
  · exact funext fun k => fblk2_0_apply V c t ⟨(j (0 : Fin 2)).val, hr⟩ k (j (0 : Fin 2)).isLt _ (by
      show win2_5.index t (0 : Fin 2) * 8192 + 1 * (j (0 : Fin 2)).val = win2_5.index t (0 : Fin 2) * 8192 + (j (0 : Fin 2)).val; omega)
  · exact funext fun k => fblk2_1_apply V c t ⟨(j (0 : Fin 2)).val, hr⟩ k (j (0 : Fin 2)).isLt _ (by
      show win2_5.index t (0 : Fin 2) * 8192 + 1 * (j (0 : Fin 2)).val = win2_5.index t (0 : Fin 2) * 8192 + (j (0 : Fin 2)).val; omega)
  · exact funext fun k => funext fun q' => iblk2_2_apply V c t k q'
  · exact funext fun k => funext fun q' => iblk2_3_apply V c t k q'
  · exact funext fun q' => iblk2_4_apply V c t q'
  · refine Fin.ext ?_
    show (j (1 : Fin 2)).val = win2_5.index t (1 : Fin 2) * 64 + 1 * (j (1 : Fin 2)).val
    rw [(idx_facts2 t).2.1]; omega

/-- An index of the array is in point `t`'s block iff each coordinate is in the block's range on its axis. -/
theorem mem_blk2 (t : Fin cfg2.N) (i : S1000000x64.Idx) :
    i ∈ ((cfg2.win 5).blk t).view.set ↔ ∀ a : Fin 2, win2_5.index t a * S8192x64.size a ≤ (i a).val
      ∧ (i a).val < win2_5.index t a * S8192x64.size a + win2_5.xsize (grid2.coords t) a := by
  show i ∈ ((View.whole main_v31).slice (win2_5.rect t)).set ↔ _
  rw [View.set_slice_whole, Rect.mem_set_unit]
  exact Iff.rfl

theorem final2 (c : Dev nD) (r : Fin 1000000) (q : Fin 64) :
    ((dat2 (F := Idealize.ShloMosaic.Ideal) V c).arrAt 5 cfg2.N : S1000000x64.Idx → EReal) (ix2 r q)
      = Cert.Spec.msgRow (fun k : Fin 64 => (V c main_v29 : S1000000x64.Idx → EReal) (ix2 r k)) (fun k : Fin 64 => (V c main_v11 : S1000000x64.Idx → EReal) (ix2 r k)) (fun (k : Fin 64) (q' : Fin 64) => (V c main_v19 : S64x64.Idx → EReal) (ix2 k q')) (fun (k : Fin 64) (q' : Fin 64) => (V c main_v20 : S64x64.Idx → EReal) (ix2 k q')) (fun q' : Fin 64 => (V c main_v30 : S1x64.Idx → EReal) (ix2 0 q')) q := by
  -- the point whose block holds row `r`
  have ht : r.val / 8192 < cfg2.N := by
    show r.val / 8192 < 123
    have := r.isLt; omega
  have hmem : (ix2 r q : S1000000x64.Idx) ∈ ((cfg2.win 5).blk ⟨r.val / 8192, ht⟩).view.set := by
    rw [mem_blk2]
    obtain ⟨e0, e1, e2, e3⟩ := idx_facts2 ⟨r.val / 8192, ht⟩
    intro a
    match a with
    | ⟨0, _⟩ =>
      show win2_5.index ⟨r.val / 8192, ht⟩ (0 : Fin 2) * 8192 ≤ r.val
        ∧ r.val < win2_5.index ⟨r.val / 8192, ht⟩ (0 : Fin 2) * 8192 + win2_5.xsize (grid2.coords ⟨r.val / 8192, ht⟩) (0 : Fin 2)
      rw [e0, e2]
      have := r.isLt
      simp only
      omega
    | ⟨1, _⟩ =>
      show win2_5.index ⟨r.val / 8192, ht⟩ (1 : Fin 2) * 64 ≤ q.val
        ∧ q.val < win2_5.index ⟨r.val / 8192, ht⟩ (1 : Fin 2) * 64 + win2_5.xsize (grid2.coords ⟨r.val / 8192, ht⟩) (1 : Fin 2)
      rw [e1, e3]
      have := q.isLt
      omega
  exact (dat2 (F := Idealize.ShloMosaic.Ideal) V c).arrAt_apply_of_mem 5 (G2 V c) (fun t _ => flushed2_eq V c t) cfg2.N
    ⟨r.val / 8192, ht⟩ (ix2 r q) ht (flush2_5 _) hmem

end Final

end Cert.KernelIdeal.Gen

end
-- ==== Proof.Ref.Row2.lean ====
import proofs.«178696_j1468878815658_2_alg».proof.Proof.Ref.Imports
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.Read

variable (x0 : (⟨S100000x7, .f32⟩ : BufTy).Contents (Elt Ideal)) (x1 : (⟨S2x1000000, .i32⟩ : BufTy).Contents (Elt Ideal))
  (x2 : (⟨S1000000x5, .f32⟩ : BufTy).Contents (Elt Ideal)) (x3 : (⟨S7x64, .f32⟩ : BufTy).Contents (Elt Ideal))
  (x4 x5 x6 : (⟨S64, .f32⟩ : BufTy).Contents (Elt Ideal)) (x7 : (⟨S5x64, .f32⟩ : BufTy).Contents (Elt Ideal))
  (x8 x9 x10 : (⟨S64, .f32⟩ : BufTy).Contents (Elt Ideal)) (x11 : (⟨S128x64, .f32⟩ : BufTy).Contents (Elt Ideal))
  (x12 : (⟨S64, .f32⟩ : BufTy).Contents (Elt Ideal)) (x13 : (⟨S128x64, .f32⟩ : BufTy).Contents (Elt Ideal))
  (x14 x15 x16 : (⟨S64, .f32⟩ : BufTy).Contents (Elt Ideal)) (x17 : (⟨S128x64, .f32⟩ : BufTy).Contents (Elt Ideal))
  (x18 : (⟨S64, .f32⟩ : BufTy).Contents (Elt Ideal)) (x19 : (⟨S128x64, .f32⟩ : BufTy).Contents (Elt Ideal))
  (x20 x21 x22 : (⟨S64, .f32⟩ : BufTy).Contents (Elt Ideal)) (x23 : (⟨S133x64, .f32⟩ : BufTy).Contents (Elt Ideal))
  (x24 : (⟨S64, .f32⟩ : BufTy).Contents (Elt Ideal)) (x25 : (⟨S64x32, .f32⟩ : BufTy).Contents (Elt Ideal))
  (x26 : (⟨S32, .f32⟩ : BufTy).Contents (Elt Ideal)) (x27 : (⟨S32x1, .f32⟩ : BufTy).Contents (Elt Ideal))
  (x28 : (⟨S1, .f32⟩ : BufTy).Contents (Elt Ideal))

/-- The joined array at a row: column `k` of the join of two 64-column arrays is the first array's column `k` below
    64 and the second's column `k - 64` from there on, which is the join of the two rows. -/
theorem row_v69 (r : Fin 1000000) (k : Fin 128) :
    val_main_v69 (F := Ideal) x0 x1 x2 x3 x4 x5 x6 x7 x8 x9 x10 (ix2 r k)
      = Cert.Spec.cat2 (fun k' : Fin 64 => val_main_v68 (F := Ideal) x0 x1 x3 x4 x5 x6 (ix2 r k'))
          (fun k' : Fin 64 => val_main_v61 (F := Ideal) x2 x7 x8 x9 x10 (ix2 r k')) k := by
  unfold val_main_v69
  generalize val_main_v68 (F := Ideal) x0 x1 x3 x4 x5 x6 = ya
  generalize val_main_v61 (F := Ideal) x2 x7 x8 x9 x10 = yb
  unfold Cert.Spec.cat2
  by_cases h : k.val < 64
  · rw [dif_pos h]
    exact concatenate_pair_apply_left (1 : Fin 2) ya yb _
      (ix2 r k) rfl (ix2 r (⟨k.val, h⟩ : Fin 64))
      (fun b => by match b with | ⟨0, _⟩ => rfl | ⟨1, _⟩ => rfl)
  · rw [dif_neg h]
    have hk := k.isLt
    exact concatenate_pair_apply_right (1 : Fin 2) ya yb _
      (ix2 r k) rfl rfl (ix2 r (⟨k.val - 64, by omega⟩ : Fin 64))
      (fun b hb => by
        match b, hb with
        | ⟨0, _⟩, _ => rfl
        | ⟨1, _⟩, hb => exact absurd rfl hb)
      (by show k.val - 64 + 64 = k.val; omega)

/-- The first message layer of the reference, read at a row: the row specification of that row of the stage's operands. -/
theorem row_v74 (r : Fin 1000000) (q : Fin 64) :
    val_main_v74 (F := Ideal) x0 x1 x2 x3 x4 x5 x6 x7 x8 x9 x10 x11 x12 (ix2 r q)
      = Cert.Spec.msgRowCat (fun k : Fin 64 => val_main_v68 (F := Ideal) x0 x1 x3 x4 x5 x6 (ix2 r k)) (fun k : Fin 64 => val_main_v61 (F := Ideal) x2 x7 x8 x9 x10 (ix2 r k)) (fun (k : Fin 128) (q' : Fin 64) => x11 (ix2 k q')) (fun q' : Fin 64 => x12 (ix1 q')) q := by
  have el : ∀ k : Fin 128, lidx_main_v70 (ix2 r q) k = ix2 r k := fun k =>
    funext fun a => Fin.ext (by match a with | ⟨0, _⟩ => rfl | ⟨1, _⟩ => rfl)
  have er : ∀ k : Fin 128, ridx_main_v70 (ix2 r q) k = ix2 k q := fun k =>
    funext fun a => Fin.ext (by match a with | ⟨0, _⟩ => rfl | ⟨1, _⟩ => rfl)
  have eb : idx_main_v71 (idx_main_v72 (ix2 r q)) = ix1 q :=
    funext fun a => Fin.ext (by match a with | ⟨0, _⟩ => rfl)
  rw [val_main_v74_apply, val_main_v73_apply, val_main_v70_apply, val_main_v72_apply, val_main_v71_apply,
    val_main_call2_v0_apply, val_main_call2_cst_apply]
  simp only [el, er, eb, row_v69, Ideal.addf_def, Ideal.maximumf_def, Ideal.ofBits_def]
  rfl

end Cert.ReferenceIdeal.RefRows

end
-- ==== Proof.KI.Bridge2.lean ====
import proofs.«178696_j1468878815658_2_alg».proof.Proof.KI.Inv
import proofs.«178696_j1468878815658_2_alg».proof.Proof.KI.Args
import proofs.«178696_j1468878815658_2_alg».proof.Proof.KI.Fin2
import proofs.«178696_j1468878815658_2_alg».proof.Proof.Ref.Row2
import proofs.«178696_j1468878815658_2_alg».proof.Proof.Spec
import proofs.«178696_j1468878815658_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-!
  Host stretch 2 and region 2 of the idealized kernel program, read against the reference: if the buffers' contents
  before them satisfy `E2` (the arguments as launched, the live intermediates equal to the reference's stage values),
  then after them — the region's arrays at whatever contents they may hold after every write-back, nothing forgotten —
  they satisfy `E3`: the region's output array IS the reference's value of the same stage, because row by row both
  are the row specification of the same operand rows (the two spellings of the specification agree), and every other
  live buffer is as it was.
-/

set_option maxRecDepth 16384

noncomputable section

namespace Cert.KernelIdeal.Gen

open Idealize.ShloMosaic Idealize.ShloMosaic.TcCoe Idealize.ShloMosaic.ValueIdx
open Idealize.SL Idealize.SL.Sem

/-! ## Host stretch 2: the buffers it writes, as terms over the contents it finds -/

section Host
variable {F : FTy → Type} [FloatOps F]

/-- The clamped in-degree count: ones scattered onto zeros at the target indices, at least one, as a column. -/
theorem after2_v18 (W : Valuation τ sig (Elt F)) :
    (StableHlo.after (hostOps2 (F := F)) W (Proc.devRef .tc main_v18) : (⟨S100000x1, .f32⟩ : BufTy).Contents (Elt F))
      = broadcastInDim S100000x1 ![0] bcast_S100000_S100000x1_0
          (maximumf
            (Host.scatterAdd scatter_S100000_S1000000x1_S1000000_n_0_0_1
              (broadcastInDim S100000 ![] bcast_S_S100000 (constant S_ .f32 0x00000000#32))
              (broadcastInDim S1000000x1 ![0] bcast_S1000000_S1000000x1_0 (W (Proc.devRef .tc main_v3)))
              (broadcastInDim S1000000 ![] bcast_S_S1000000 (constant S_ .f32 0x3F800000#32)))
            (broadcastInDim S100000 ![] bcast_S_S100000 (constant S_ .f32 0x3F800000#32))) := by
  after_results

/-- The reference's clamped count is the same term of its second index row. -/
theorem ref_v84 (x1 : (⟨S2x1000000, .i32⟩ : BufTy).Contents (Elt F)) :
    Cert.ReferenceIdeal.Read.val_main_v84 (F := F) x1
      = broadcastInDim S100000x1 ![0] bcast_S100000_S100000x1_0
          (maximumf
            (Host.scatterAdd scatter_S100000_S1000000x1_S1000000_n_0_0_1
              (broadcastInDim S100000 ![] bcast_S_S100000 (constant S_ .f32 0x00000000#32))
              (broadcastInDim S1000000x1 ![0] bcast_S1000000_S1000000x1_0 (Cert.ReferenceIdeal.Read.val_main_v3 (F := F) x1))
              (broadcastInDim S1000000 ![] bcast_S_S1000000 (constant S_ .f32 0x3F800000#32)))
            (broadcastInDim S100000 ![] bcast_S_S100000 (constant S_ .f32 0x3F800000#32))) := by
  unfold Cert.ReferenceIdeal.Read.val_main_v84 Cert.ReferenceIdeal.Read.val_main_v83 Cert.ReferenceIdeal.Read.val_main_v82
    Cert.ReferenceIdeal.Read.val_main_v81 Cert.ReferenceIdeal.Read.val_main_v80 Cert.ReferenceIdeal.Read.val_main_v79
    Cert.ReferenceIdeal.Read.val_main_v78 Cert.ReferenceIdeal.Read.val_main_cst_13 Cert.ReferenceIdeal.Read.val_main_cst_12
    Cert.ReferenceIdeal.Read.val_main_cst_11
  rfl

/-- The two halves of the first message layer's weights, and of the first update layer's. -/
theorem after2_v19 (W : Valuation τ sig (Elt F)) :
    (StableHlo.after (hostOps2 (F := F)) W (Proc.devRef .tc main_v19) : (⟨S64x64, .f32⟩ : BufTy).Contents (Elt F))
      = extractStridedSlice S64x64 ![0, 0] (W (Proc.devRef .tc main_arg11)) slices_S128x64_S64x64_0_0 := by
  after_results
theorem after2_v20 (W : Valuation τ sig (Elt F)) :
    (StableHlo.after (hostOps2 (F := F)) W (Proc.devRef .tc main_v20) : (⟨S64x64, .f32⟩ : BufTy).Contents (Elt F))
      = extractStridedSlice S64x64 ![64, 0] (W (Proc.devRef .tc main_arg11)) slices_S128x64_S64x64_64_0 := by
  after_results
theorem after2_v21 (W : Valuation τ sig (Elt F)) :
    (StableHlo.after (hostOps2 (F := F)) W (Proc.devRef .tc main_v21) : (⟨S64x64, .f32⟩ : BufTy).Contents (Elt F))
      = extractStridedSlice S64x64 ![0, 0] (W (Proc.devRef .tc main_arg13)) slices_S128x64_S64x64_0_0 := by
  after_results
theorem after2_v22 (W : Valuation τ sig (Elt F)) :
    (StableHlo.after (hostOps2 (F := F)) W (Proc.devRef .tc main_v22) : (⟨S64x64, .f32⟩ : BufTy).Contents (Elt F))
      = extractStridedSlice S64x64 ![64, 0] (W (Proc.devRef .tc main_arg13)) slices_S128x64_S64x64_64_0 := by
  after_results

/-- The bias as a row. -/
theorem after2_v30 (W : Valuation τ sig (Elt F)) :
    (StableHlo.after (hostOps2 (F := F)) W (Proc.devRef .tc main_v30) : (⟨S1x64, .f32⟩ : BufTy).Contents (Elt F))
      = shapeCast S1x64 (W (Proc.devRef .tc main_arg12)) shapeCasts_S64_S1x64 := by
  after_results
  rfl

/-- The source index of every edge, a negative one counted from the end, as a column. -/
def srcIdx (v1 : (⟨S1000000, .i32⟩ : BufTy).Contents (Elt F)) : (⟨S1000000x1, .i32⟩ : BufTy).Contents (Elt F) :=
  broadcastInDim S1000000x1 ![0] bcast_S1000000_S1000000x1_0
    (select (cmpi .slt v1 (broadcastInDim S1000000 ![] bcast_S_S1000000 (constantI S_ 32 0#32)))
      (addi v1 (broadcastInDim S1000000 ![] bcast_S_S1000000 (constantI S_ 32 100000#32))) v1)

/-- The gathered source rows: the encoded nodes at the source indices. -/
theorem after2_v29 (W : Valuation τ sig (Elt F)) :
    (StableHlo.after (hostOps2 (F := F)) W (Proc.devRef .tc main_v29) : (⟨S1000000x64, .bf16⟩ : BufTy).Contents (Elt F))
      = Host.gather gather_S100000x64_S1000000x1_S1000000x64_1_0_n_n_0_1_164 (W (Proc.devRef .tc main_v7))
          (srcIdx (F := F) (W (Proc.devRef .tc main_v1))) := by
  unfold srcIdx
  after_results_simp

/-- The reference gathers its encoded nodes at the same indices of its first index row. -/
theorem ref_v68 (x0 : (⟨S100000x7, .f32⟩ : BufTy).Contents (Elt F)) (x1 : (⟨S2x1000000, .i32⟩ : BufTy).Contents (Elt F))
    (x3 : (⟨S7x64, .f32⟩ : BufTy).Contents (Elt F)) (x4 x5 x6 : (⟨S64, .f32⟩ : BufTy).Contents (Elt F)) :
    Cert.ReferenceIdeal.Read.val_main_v68 (F := F) x0 x1 x3 x4 x5 x6
      = Host.gather gather_S100000x64_S1000000x1_S1000000x64_1_0_n_n_0_1_164 (Cert.ReferenceIdeal.Read.val_main_v32 (F := F) x0 x3 x4 x5 x6)
          (srcIdx (F := F) (Cert.ReferenceIdeal.Read.val_main_v1 (F := F) x1)) := by
  unfold Cert.ReferenceIdeal.Read.val_main_v68 Cert.ReferenceIdeal.Read.val_main_v67 Cert.ReferenceIdeal.Read.val_main_v66
    Cert.ReferenceIdeal.Read.val_main_v65 Cert.ReferenceIdeal.Read.val_main_v64 Cert.ReferenceIdeal.Read.val_main_v63
    Cert.ReferenceIdeal.Read.val_main_v62 Cert.ReferenceIdeal.Read.val_main_c Cert.ReferenceIdeal.Read.val_main_c_9 srcIdx
  generalize Cert.ReferenceIdeal.Read.val_main_v32 (F := F) x0 x3 x4 x5 x6 = y
  generalize Cert.ReferenceIdeal.Read.val_main_v1 (F := F) x1 = z
  rfl

end Host

/-! ## The stage's value from its operands -/

section Core

/-- A message row is a function of its rows, weights, bias and column. -/
private theorem msgRow_congr {xs xs' e e' : Fin 64 → EReal} {ws ws' we we' : Fin 64 → Fin 64 → EReal} {b b' : Fin 64 → EReal} {q q' : Fin 64}
    (h1 : xs = xs') (h2 : e = e') (h3 : ws = ws') (h4 : we = we') (h5 : b = b') (h6 : q = q') :
    Cert.Spec.msgRow xs e ws we b q = Cert.Spec.msgRow xs' e' ws' we' b' q' := by
  subst h1 h2 h3 h4 h5 h6; rfl

/-- A half of a stacked weight matrix, read at `(k, q)`, is the matrix at row `k` plus the half's offset. -/
theorem half_lo_apply (X : S128x64.Idx → EReal) (k q : Fin 64) :
    extractStridedSlice S64x64 ![0, 0] X slices_S128x64_S64x64_0_0 (ix2 k q) = X (ix2 (⟨k.val, by have := k.isLt; omega⟩ : Fin 128) q) :=
  slice2_axis0_apply 0 X slices_S128x64_S64x64_0_0 k q _ (Nat.zero_add _).symm
theorem half_hi_apply (X : S128x64.Idx → EReal) (k q : Fin 64) :
    extractStridedSlice S64x64 ![64, 0] X slices_S128x64_S64x64_64_0 (ix2 k q) = X (ix2 (⟨k.val + 64, by have := k.isLt; omega⟩ : Fin 128) q) :=
  slice2_axis0_apply 64 X slices_S128x64_S64x64_64_0 k q _ (Nat.add_comm _ _)

/-- The first message layer: the kernel's row specification of the gathered rows, the encoded edges, the two halves of
    the weights and the bias row IS the reference's stage at that row. -/
theorem msg1_core (x0 : S100000x7.Idx → EReal) (x1 : (⟨S2x1000000, .i32⟩ : BufTy).Contents (Elt Ideal)) (x2 : S1000000x5.Idx → EReal)
    (x3 : S7x64.Idx → EReal) (x4 x5 x6 : S64.Idx → EReal) (x7 : S5x64.Idx → EReal) (x8 x9 x10 : S64.Idx → EReal)
    (x11 : S128x64.Idx → EReal) (x12 : S64.Idx → EReal)
    (X29 X11 : S1000000x64.Idx → EReal) (X19 X20 : S64x64.Idx → EReal) (X30 : S1x64.Idx → EReal)
    (h29 : X29 = Cert.ReferenceIdeal.Read.val_main_v68 (F := Ideal) x0 x1 x3 x4 x5 x6)
    (h11 : X11 = Cert.ReferenceIdeal.Read.val_main_v61 (F := Ideal) x2 x7 x8 x9 x10)
    (h19 : X19 = extractStridedSlice S64x64 ![0, 0] x11 slices_S128x64_S64x64_0_0)
    (h20 : X20 = extractStridedSlice S64x64 ![64, 0] x11 slices_S128x64_S64x64_64_0)
    (h30 : X30 = shapeCast S1x64 x12 shapeCasts_S64_S1x64) (r : Fin 1000000) (q : Fin 64) :
    Cert.Spec.msgRow (fun k : Fin 64 => X29 (ix2 r k)) (fun k : Fin 64 => X11 (ix2 r k)) (fun (k : Fin 64) (q' : Fin 64) => X19 (ix2 k q'))
        (fun (k : Fin 64) (q' : Fin 64) => X20 (ix2 k q')) (fun q' : Fin 64 => X30 (ix2 0 q')) q
      = Cert.ReferenceIdeal.Read.val_main_v74 (F := Ideal) x0 x1 x2 x3 x4 x5 x6 x7 x8 x9 x10 x11 x12 (ix2 r q) := by
  rw [Cert.ReferenceIdeal.RefRows.row_v74, ← Cert.Spec.msgRow_eq_msgRowCat]
  subst h29 h11 h19 h20 h30
  refine msgRow_congr rfl rfl ?_ ?_ ?_ rfl
  · exact funext fun k => funext fun q' => half_lo_apply x11 k q'
  · exact funext fun k => funext fun q' => half_hi_apply x11 k q'
  · exact funext fun q' => shapeCast_a_1a_apply x12 shapeCasts_S64_S1x64 0 q'

end Core

/-! ## The bridge -/

theorem bridge2 (m : (ℓ : Loc nD τ sig) → Buf (Elt Ideal) ℓ) (c : Dev nD) (W : Valuation τ sig (Elt Ideal))
    (hE : E2 m c W)
    (A : (w : Fin cfg2.W) → Buf (Elt Ideal) ((cfg2.win w).arr.view.loc (c : Thread nD τ)))
    (hA : ∀ w, (rdat2 (F := Ideal) (StableHlo.after (hostOps2 (F := Ideal)) W) (fun _ => false) c).ArrAt w cfg2.N (A w)) :
    E3 m c (Pipeline.withArrays spec2 c (StableHlo.after (hostOps2 (F := Ideal)) W) A) := by
  -- a buffer the host stretch does not write is as before it; a buffer other than the region's output is as after it
  have hW : ∀ b : Ref sig .tc, b ∉ hostOps2_W →
      StableHlo.after (hostOps2 (F := Ideal)) W (Proc.devRef .tc b) = W (Proc.devRef .tc b) :=
    fun b hb => StableHlo.after_of_writes_sub hostOps2 W hostOps2_writes hb
  have hne : ∀ b : Ref sig .tc, b ≠ main_v31 →
      Pipeline.withArrays spec2 c (StableHlo.after (hostOps2 (F := Ideal)) W) A (Proc.devRef .tc b)
        = StableHlo.after (hostOps2 (F := Ideal)) W (Proc.devRef .tc b) :=
    fun b hb => withArrays2_of_ne_out _ _ c A hA b hb
  -- the arguments the stretch reads
  have ha11 : W (Proc.devRef .tc main_arg11) = a11 m c := hE.args main_arg11 (by decide)
  have ha12 : W (Proc.devRef .tc main_arg12) = a12 m c := hE.args main_arg12 (by decide)
  have ha13 : W (Proc.devRef .tc main_arg13) = a13 m c := hE.args main_arg13 (by decide)
  refine ⟨?_, ?_, ?_, ?_, ?_, ?_, ?_, ?_, ?_⟩
  · -- the arguments
    exact argsOf_region2 m _ _ c (argsOf_host2 m c W hE.args) A hA
  · exact (hne main_v1 (by decide)).trans ((hW main_v1 (by decide)).trans hE.v1)
  · exact (hne main_v3 (by decide)).trans ((hW main_v3 (by decide)).trans hE.v3)
  · exact (hne main_v7 (by decide)).trans ((hW main_v7 (by decide)).trans hE.v7)
  · exact (hne main_v11 (by decide)).trans ((hW main_v11 (by decide)).trans hE.v11)
  · -- the clamped count: the same operations of the second index row
    refine (hne main_v18 (by decide)).trans ((after2_v18 (F := Ideal) W).trans ?_)
    rw [hE.v3]
    exact (ref_v84 (F := Ideal) (a1 m c)).symm
  · -- the first half of the update layer's weights
    intro k q
    refine (congrFun ((hne main_v21 (by decide)).trans (after2_v21 (F := Ideal) W)) (ix2 k q)).trans ?_
    rw [ha13]
    exact slice2_axis0_apply 0 (a13 m c : S128x64.Idx → EReal) slices_S128x64_S64x64_0_0 k q _ (Nat.add_comm _ _)
  · -- the second half
    intro k q
    refine (congrFun ((hne main_v22 (by decide)).trans (after2_v22 (F := Ideal) W)) (ix2 k q)).trans ?_
    rw [ha13]
    exact slice2_axis0_apply 64 (a13 m c : S128x64.Idx → EReal) slices_S128x64_S64x64_64_0 k q _ (Nat.add_comm _ _)
  · -- the region's output: row by row the row specification of its operands, which is the reference's stage
    have hout : Pipeline.withArrays spec2 c (StableHlo.after (hostOps2 (F := Ideal)) W) A (Proc.devRef .tc main_v31) = A 5 :=
      Pipeline.withArrays_arr spec2 launch2.win.arr_inj c _ A 5
    have hA5 : A 5 = (dat2 (F := Ideal) (VW (StableHlo.after (hostOps2 (F := Ideal)) W)) c).arrAt 5 cfg2.N :=
      (Pipeline.Dat.toRForget_arrAt_iff (dat := dat2 (F := Ideal) (VW (StableHlo.after (hostOps2 (F := Ideal)) W)) c)
        (fgt := fun _ => false) (w := 5) rfl cfg2.N (A 5)).mp (hA 5)
    -- the operands as the region finds them
    have h29 : (StableHlo.after (hostOps2 (F := Ideal)) W (Proc.devRef .tc main_v29) : S1000000x64.Idx → EReal)
        = Cert.ReferenceIdeal.Read.val_main_v68 (F := Ideal) (a0 m c) (a1 m c) (a3 m c) (a4 m c) (a5 m c) (a6 m c) := by
      refine (after2_v29 (F := Ideal) W).trans ?_
      rw [ref_v68 (F := Ideal), ← hE.v1, ← hE.v7]
    have h11 : (StableHlo.after (hostOps2 (F := Ideal)) W (Proc.devRef .tc main_v11) : S1000000x64.Idx → EReal)
        = Cert.ReferenceIdeal.Read.val_main_v61 (F := Ideal) (a2 m c) (a7 m c) (a8 m c) (a9 m c) (a10 m c) :=
      (hW main_v11 (by decide)).trans hE.v11
    have h19 : (StableHlo.after (hostOps2 (F := Ideal)) W (Proc.devRef .tc main_v19) : S64x64.Idx → EReal)
        = extractStridedSlice S64x64 ![0, 0] (a11 m c : S128x64.Idx → EReal) slices_S128x64_S64x64_0_0 := by
      rw [← ha11]; exact after2_v19 (F := Ideal) W
    have h20 : (StableHlo.after (hostOps2 (F := Ideal)) W (Proc.devRef .tc main_v20) : S64x64.Idx → EReal)
        = extractStridedSlice S64x64 ![64, 0] (a11 m c : S128x64.Idx → EReal) slices_S128x64_S64x64_64_0 := by
      rw [← ha11]; exact after2_v20 (F := Ideal) W
    have h30 : (StableHlo.after (hostOps2 (F := Ideal)) W (Proc.devRef .tc main_v30) : S1x64.Idx → EReal)
        = shapeCast S1x64 (a12 m c : S64.Idx → EReal) shapeCasts_S64_S1x64 := by
      rw [← ha12]; exact after2_v30 (F := Ideal) W
    refine hout.trans (hA5.trans ?_)
    funext i
    rw [eq_ix2 i]
    refine (final2 (VW (StableHlo.after (hostOps2 (F := Ideal)) W)) c (i 0) (i 1)).trans ?_
    exact msg1_core (a0 m c) (a1 m c) (a2 m c) (a3 m c) (a4 m c) (a5 m c) (a6 m c) (a7 m c) (a8 m c) (a9 m c) (a10 m c) (a11 m c) (a12 m c)
      _ _ _ _ _ h29 h11 h19 h20 h30 (i 0) (i 1)

end Cert.KernelIdeal.Gen

end
-- ==== Proof.KI.Val3.lean ====
import proofs.«178696_j1468878815658_2_alg».proof.Proof.KI.Outs
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Val

open Idealize.ShloMosaic Idealize.ShloMosaic.ValueIdx Cert.KernelIdeal Cert.KernelIdeal.Gen

/-! Two keep-dims layout operations, and the lane sum, read at an index given by coordinates. -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of an `[a, b]` array, at row `r`: the sum over `k` of the row's entries. -/
private theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun c => Fin.ext ?_)
  match c with
  | ⟨0, _⟩ => rfl
  | ⟨1, _⟩ => rfl

/-! The dot `[4096, 64] × [64, 64]`: its operand indices, axis by axis. -/

private theorem lhs_d64_0 (i : S4096x64.Idx) (c : dot_S4096x64_S64x64_S4096x64_1_0_0_1_n_n.contr.Idx) :
    (dot_S4096x64_S64x64_S4096x64_1_0_0_1_n_n.lhsIdx i c 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
private theorem lhs_d64_1 (i : S4096x64.Idx) (c : dot_S4096x64_S64x64_S4096x64_1_0_0_1_n_n.contr.Idx) :
    (dot_S4096x64_S64x64_S4096x64_1_0_0_1_n_n.lhsIdx i c 1).val = (c ⟨0, by decide⟩).val :=
  dot_S4096x64_S64x64_S4096x64_1_0_0_1_n_n.lhsIdx_val_of_single rfl i c
private theorem rhs_d64_0 (i : S4096x64.Idx) (c : dot_S4096x64_S64x64_S4096x64_1_0_0_1_n_n.contr.Idx) :
    (dot_S4096x64_S64x64_S4096x64_1_0_0_1_n_n.rhsIdx i c 0).val = (c ⟨0, by decide⟩).val :=
  dot_S4096x64_S64x64_S4096x64_1_0_0_1_n_n.rhsIdx_val_of_single rfl i c
private theorem rhs_d64_1 (i : S4096x64.Idx) (c : dot_S4096x64_S64x64_S4096x64_1_0_0_1_n_n.contr.Idx) :
    (dot_S4096x64_S64x64_S4096x64_1_0_0_1_n_n.rhsIdx i c 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The product onto a zero accumulator, at `(r, q)`: the sum over `k` of row `r` of the left operand against
    column `q` of the right one. -/
private theorem mm_d64_apply {φ₁ φ₂ : FTy} (x : FVec Ideal S4096x64 φ₁) (w : FVec Ideal S64x64 φ₂) (r : Fin 4096) (q : Fin 64) :
    matmul dot_S4096x64_S64x64_S4096x64_1_0_0_1_n_n none x w (constant S4096x64 .f32 0x00000000#32) (ix2 r q)
      = ∑ k : Fin 64, x (ix2 r k) * w (ix2 k q) := by
  refine (Ideal.matmul_constant_zero_apply dot_S4096x64_S64x64_S4096x64_1_0_0_1_n_n none x w (ix2 r q)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r q) ((contrEquiv1 dot_S4096x64_S64x64_S4096x64_1_0_0_1_n_n 64 rfl rfl).symm k) = ix2 r k := funext fun a => Fin.ext (by
    match a with
    | ⟨0, _⟩ => exact lhs_d64_0 _ _
    | ⟨1, _⟩ => exact (lhs_d64_1 _ _).trans hk)
  have er : dot_S4096x64_S64x64_S4096x64_1_0_0_1_n_n.rhsIdx (ix2 r q) ((contrEquiv1 dot_S4096x64_S64x64_S4096x64_1_0_0_1_n_n 64 rfl rfl).symm k) = ix2 k q := funext fun a => Fin.ext (by
    match a with
    | ⟨0, _⟩ => exact (rhs_d64_0 _ _).trans hk
    | ⟨1, _⟩ => exact rhs_d64_1 _ _)
  rw [el, er]

/-! ## Region 3: the node update -/

/-- The node rows widened: the format change is the identity. -/
theorem k3_pay2_apply (h : Vec Ideal S4096x64 .bf16) (r : Fin 4096) (q : Fin 64) :
    k3_pay2 h (ix2 r q) = h (ix2 r q) := by
  unfold k3_pay2
  simp only [shapeCast_self]
  rfl

theorem k3_pay4_eq (g : Vec Ideal S1x64 .f32) : k3_pay4 g = g := by
  unfold k3_pay4
  exact shapeCast_self _ _

theorem k3_pay5_eq (β : Vec Ideal S1x64 .f32) : k3_pay5 β = β := by
  unfold k3_pay5
  exact shapeCast_self _ _

/-- The pre-activation at `(r, q)`: row `r` of the node rows against `wh`, row `r` of the mean messages (the summed
    messages over the count) against `wm`, plus the bias. -/
theorem k3_pay3_apply (ms : Vec Ideal S4096x64 .f32) (cnt : Vec Ideal S4096x1 .f32) (h : Vec Ideal S4096x64 .bf16)
    (wh wm : Vec Ideal S64x64 .f32) (b : Vec Ideal S1x64 .f32) (r : Fin 4096) (q : Fin 64) :
    k3_pay3 ms cnt h wh wm b (ix2 r q)
      = ((∑ k : Fin 64, h (ix2 r k) * wh (ix2 k q)) + (∑ k : Fin 64, Ideal.div (ms (ix2 r k)) (cnt (ix2 r 0)) * wm (ix2 k q)))
          + b (ix2 0 q) := by
  unfold k3_pay3
  simp only [shapeCast_self]
  refine (addf_apply _ _ _).trans ?_
  refine congrArg₂ (· + ·) ((addf_apply _ _ _).trans (congrArg₂ (· + ·) ?_ ?_)) ?_
  · exact mm_d64_apply _ _ r q
  · refine (mm_d64_apply _ _ r q).trans (Finset.sum_congr rfl fun k _ => ?_)
    refine congrArg (· * wm (ix2 k q)) ?_
    exact congrArg (Ideal.div (ms (ix2 r k))) (broadcastTo_a1_ab_apply cnt _ r k)
  · exact broadcastTo_1b_ab_apply b _ r q

/-- The reciprocal square root lane by lane. -/
private theorem rsqrt_apply {s : Shape} {φ : FTy} (a : FVec Ideal s φ) (i : s.Idx) : rsqrt a i = Ideal.rsqrt (a i) := rfl

/-- The row mean of the pre-activation: its lane sum over 64. -/
theorem k3_pay6_apply (ms : Vec Ideal S4096x64 .f32) (cnt : Vec Ideal S4096x1 .f32) (h : Vec Ideal S4096x64 .bf16)
    (wh wm : Vec Ideal S64x64 .f32) (b : Vec Ideal S1x64 .f32) (r : Fin 4096) (u : Fin 1) :
    k3_pay6 ms cnt h wh wm b (ix2 r u)
      = Ideal.div (∑ k : Fin 64, k3_pay3 ms cnt h wh wm b (ix2 r k)) Cert.Spec.w64 := by
  unfold k3_pay6
  refine (divf_apply _ _ _).trans ?_
  refine congrArg₂ Ideal.div ?_ rfl
  refine (shapeCast_a_a1_apply _ _ r u).trans ?_
  exact rowSum_apply _ _ _ _ _ r

/-- The squared deviation from the row mean. -/
theorem k3_pay7_apply (ms : Vec Ideal S4096x64 .f32) (cnt : Vec Ideal S4096x1 .f32) (h : Vec Ideal S4096x64 .bf16)
    (wh wm : Vec Ideal S64x64 .f32) (b : Vec Ideal S1x64 .f32) (r : Fin 4096) (q : Fin 64) :
    k3_pay7 ms cnt h wh wm b (ix2 r q)
      = (k3_pay3 ms cnt h wh wm b (ix2 r q) - k3_pay6 ms cnt h wh wm b (ix2 r 0))
          * (k3_pay3 ms cnt h wh wm b (ix2 r q) - k3_pay6 ms cnt h wh wm b (ix2 r 0)) := by
  unfold k3_pay7
  have e : subf (k3_pay3 ms cnt h wh wm b) (broadcastTo S4096x64 (k3_pay6 ms cnt h wh wm b) broadcasts_S4096x1_S4096x64) (ix2 r q)
      = k3_pay3 ms cnt h wh wm b (ix2 r q) - k3_pay6 ms cnt h wh wm b (ix2 r 0) :=
    (subf_apply _ _ _).trans (congrArg (k3_pay3 ms cnt h wh wm b (ix2 r q) - ·) (broadcastTo_a1_ab_apply _ _ r q))
  exact (mulf_apply _ _ _).trans (congrArg₂ (· * ·) e e)

/-- The layer norm, the residual and the ReLU on top of a pre-activation `v24` with row mean `v32` and squared
    deviations `v35`. -/
theorem k3_pay1_apply (v2 v24 : FVec Ideal S4096x64 .f32) (v26 v28 : FVec Ideal S1x64 .f32) (v32 : FVec Ideal S4096x1 .f32)
    (v35 : FVec Ideal S4096x64 .f32) (r : Fin 4096) (q : Fin 64) :
    k3_pay1 v2 v24 v26 v28 v32 v35 (ix2 r q)
      = max ((((v24 (ix2 r q) - v32 (ix2 r 0))
              * Ideal.rsqrt (Ideal.div (∑ k : Fin 64, v35 (ix2 r k)) Cert.Spec.w64 + Cert.Spec.wEps)) * v26 (ix2 0 q)
            + v28 (ix2 0 q)) + v2 (ix2 r q)) Cert.Spec.w0 := by
  unfold k3_pay1
  refine (truncf_apply (φ := .f32) (ψ := .bf16) _ _ _).trans ?_
  refine (maximumf_apply _ _ _).trans (congrArg₂ max ?_ rfl)
  refine (addf_apply _ _ _).trans (congrArg₂ (· + ·) ?_ rfl)
  refine (addf_apply _ _ _).trans (congrArg₂ (· + ·) ?_ (broadcastTo_1b_ab_apply v28 _ r q))
  refine (mulf_apply _ _ _).trans (congrArg₂ (· * ·) ?_ (broadcastTo_1b_ab_apply v26 _ r q))
  refine (mulf_apply _ _ _).trans (congrArg₂ (· * ·) ?_ ?_)
  · exact (subf_apply _ _ _).trans (congrArg (v24 (ix2 r q) - ·) (broadcastTo_a1_ab_apply v32 _ r q))
  · refine (broadcastTo_a1_ab_apply _ _ r q).trans ?_
    refine (rsqrt_apply _ _).trans (congrArg Ideal.rsqrt ?_)
    refine (addf_apply _ _ _).trans (congrArg₂ (· + ·) ?_ rfl)
    refine (divf_apply _ _ _).trans (congrArg₂ Ideal.div ?_ rfl)
    exact (shapeCast_a_a1_apply _ _ r 0).trans (rowSum_apply _ _ _ _ _ r)

/-- Region 3's stored value at row `r`, over the extended reals, is the row specification of row `r` of its
    row-tiled inputs and the whole weights: no other row enters. -/
theorem out3_apply (h : Vec Ideal S4096x64 .bf16) (ms : Vec Ideal S4096x64 .f32) (cnt : Vec Ideal S4096x1 .f32) (wh wm : Vec Ideal S64x64 .f32)
    (b g β : Vec Ideal S1x64 .f32) (r : Fin 4096) (q : Fin 64) :
    out3 h ms cnt wh wm b g β (ix2 r q)
      = Cert.Spec.updRow (fun k : Fin 64 => h (ix2 r k)) (fun k : Fin 64 => ms (ix2 r k)) (cnt (ix2 r 0)) (fun (k : Fin 64) (q' : Fin 64) => wh (ix2 k q')) (fun (k : Fin 64) (q' : Fin 64) => wm (ix2 k q')) (fun q' : Fin 64 => b (ix2 0 q')) (fun q' : Fin 64 => g (ix2 0 q')) (fun q' : Fin 64 => β (ix2 0 q')) q := by
  unfold out3
  refine (k3_pay1_apply _ _ _ _ _ _ r q).trans ?_
  simp only [k3_pay2_apply, k3_pay4_eq, k3_pay5_eq, k3_pay7_apply, k3_pay6_apply, k3_pay3_apply]
  rfl

end Cert.KernelIdeal.Gen.Val

end
-- ==== Proof.KI.Loc3.lean ====
import proofs.«178696_j1468878815658_2_alg».proof.Proof.KI.Val3
import proofs.«178696_j1468878815658_2_alg».proof.Proof.KI.Outs
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Val

open Idealize.ShloMosaic Idealize.ShloMosaic.ValueIdx Cert.KernelIdeal Cert.KernelIdeal.Gen

/-- Row locality of region 3 over the extended reals: the stored row `r` depends on row `r` of the node rows, of the
    summed messages and of the counts only (and on the weights). Both sides are the row specification of the same
    arguments. -/
theorem out3_congr_row (h h' : Vec Ideal S4096x64 .bf16) (ms ms' : Vec Ideal S4096x64 .f32) (cnt cnt' : Vec Ideal S4096x1 .f32) (wh wm : Vec Ideal S64x64 .f32) (b g β : Vec Ideal S1x64 .f32) (r : Fin 4096) (hh : ∀ k : Fin 64, h (ix2 r k) = h' (ix2 r k)) (hm : ∀ k : Fin 64, ms (ix2 r k) = ms' (ix2 r k)) (hc : cnt (ix2 r 0) = cnt' (ix2 r 0)) (q : Fin 64) : out3 h ms cnt wh wm b g β (ix2 r q) = out3 h' ms' cnt' wh wm b g β (ix2 r q) := by
  rw [out3_apply, out3_apply]
  have eh : (fun k : Fin 64 => h (ix2 r k)) = fun k : Fin 64 => h' (ix2 r k) := funext hh
  have em : (fun k : Fin 64 => ms (ix2 r k)) = fun k : Fin 64 => ms' (ix2 r k) := funext hm
  rw [eh, em, hc]

end Cert.KernelIdeal.Gen.Val

end
-- ==== Proof.KI.Cut3.lean ====
import proofs.«178696_j1468878815658_2_alg».proof.Proof.KI.Loc3
import proofs.«178696_j1468878815658_2_alg».proof.Proof.Gen.KernelIdeal.Launch
import proofs.«178696_j1468878815658_2_alg».proof.Proof.Gen.KernelIdeal.Points
import Idealize.ShloMosaic.Lib.Pipeline.Kit

noncomputable section

namespace Cert.KernelIdeal.Gen.Val

open Idealize.ShloMosaic Idealize.ShloMosaic.ValueIdx Cert.KernelIdeal Cert.KernelIdeal.Gen
open Idealize.ShloMosaic.Pipeline (Window)

/-- Two fillings of one moved part agree at every index of the block that is moved, whatever they hold elsewhere. -/
private theorem fill_congr_moved {σ : RefSig} {G : Pipeline.Grid} {α : Type} (w : Window σ G) (i : G.Coords)
    (d d' : w.block.Idx → α) (g : (w.xblock i).Idx → α) (j : w.block.Idx) (h : w.moved i j = true) :
    w.fill i d g j = w.fill i d' g j := by
  unfold Window.fill
  rw [dif_pos h, dif_pos h]

/-! The row-tiled windows of region 3 are cut alike: the three inputs and the output have one row index map, blocks of
    4096 rows and arrays of 100000 rows, so the same rows of a block lie inside the array; no window is cut on its
    columns. -/

theorem xsize3_0_rows (i : grid3.Coords) : (cfg3.win 0).xsize i 0 = (cfg3.win 8).xsize i 0 := rfl
theorem xsize3_1_rows (i : grid3.Coords) : (cfg3.win 1).xsize i 0 = (cfg3.win 8).xsize i 0 := rfl
theorem xsize3_2_rows (i : grid3.Coords) : (cfg3.win 2).xsize i 0 = (cfg3.win 8).xsize i 0 := rfl
theorem xsize3_0_cols (i : grid3.Coords) : (cfg3.win 0).xsize i 1 = 64 := rfl
theorem xsize3_1_cols (i : grid3.Coords) : (cfg3.win 1).xsize i 1 = 64 := rfl
theorem xsize3_2_cols (i : grid3.Coords) : (cfg3.win 2).xsize i 1 = 1 := rfl
theorem xsize3_8_cols (i : grid3.Coords) : (cfg3.win 8).xsize i 1 = 64 := rfl

/-- Region 3's stored block, read on the part of it that lies inside the array, does not depend on what the input
    blocks hold past their arrays' ends: a stored row inside the array is the row specification of the same row of
    each row-tiled input, and that row is inside the input's array too. -/
theorem cut_out3_fill (t : Fin cfg3.N)
    (d0 d0' : (cfg3.win 0).block.Idx → Elt Ideal (cfg3.win 0).elt) (b0 : ((cfg3.win 0).xblock (cfg3.grid.coords t)).Idx → Elt Ideal (cfg3.win 0).elt)
    (d1 d1' : (cfg3.win 1).block.Idx → Elt Ideal (cfg3.win 1).elt) (b1 : ((cfg3.win 1).xblock (cfg3.grid.coords t)).Idx → Elt Ideal (cfg3.win 1).elt)
    (d2 d2' : (cfg3.win 2).block.Idx → Elt Ideal (cfg3.win 2).elt) (b2 : ((cfg3.win 2).xblock (cfg3.grid.coords t)).Idx → Elt Ideal (cfg3.win 2).elt)
    (wh : Vec Ideal S64x64 .f32) (wm : Vec Ideal S64x64 .f32) (b : Vec Ideal S1x64 .f32) (g : Vec Ideal S1x64 .f32) (β : Vec Ideal S1x64 .f32) :
    (cfg3.win 8).cut (cfg3.grid.coords t) (out3 ((cfg3.win 0).fill (cfg3.grid.coords t) d0 b0) ((cfg3.win 1).fill (cfg3.grid.coords t) d1 b1) ((cfg3.win 2).fill (cfg3.grid.coords t) d2 b2) wh wm b g β)
      = (cfg3.win 8).cut (cfg3.grid.coords t) (out3 ((cfg3.win 0).fill (cfg3.grid.coords t) d0' b0) ((cfg3.win 1).fill (cfg3.grid.coords t) d1' b1) ((cfg3.win 2).fill (cfg3.grid.coords t) d2' b2) wh wm b g β) := by
  funext j
  have hr8 : (j 0).val < (cfg3.win 8).xsize (cfg3.grid.coords t) 0 := (j 0).isLt
  have hq8 : (j 1).val < 64 := Nat.lt_of_lt_of_eq (j 1).isLt (xsize3_8_cols (cfg3.grid.coords t))
  have hr : (j 0).val < 4096 := Nat.lt_of_lt_of_le hr8 ((cfg3.win 8).xsize_le (cfg3.grid.coords t) 0)
  have ej : (cfg3.win 8).xinj (cfg3.grid.coords t) j = ix2 (⟨(j 0).val, hr⟩ : Fin 4096) (⟨(j 1).val, hq8⟩ : Fin 64) :=
    funext fun a => Fin.ext (by
      match a with
      | ⟨0, _⟩ => rfl
      | ⟨1, _⟩ => rfl)
  show out3 _ _ _ wh wm b g β ((cfg3.win 8).xinj (cfg3.grid.coords t) j) = out3 _ _ _ wh wm b g β ((cfg3.win 8).xinj (cfg3.grid.coords t) j)
  rw [ej]
  refine out3_congr_row _ _ _ _ _ _ wh wm b g β ⟨(j 0).val, hr⟩ (fun k => ?_) (fun k => ?_) ?_ ⟨(j 1).val, hq8⟩
  · refine fill_congr_moved (cfg3.win 0) _ d0 d0' b0 _ (((cfg3.win 0).moved_iff _ _).mpr fun a => ?_)
    match a with
    | ⟨0, _⟩ => exact Nat.lt_of_lt_of_eq hr8 (xsize3_0_rows (cfg3.grid.coords t)).symm
    | ⟨1, _⟩ => exact Nat.lt_of_lt_of_eq k.isLt (xsize3_0_cols (cfg3.grid.coords t)).symm
  · refine fill_congr_moved (cfg3.win 1) _ d1 d1' b1 _ (((cfg3.win 1).moved_iff _ _).mpr fun a => ?_)
    match a with
    | ⟨0, _⟩ => exact Nat.lt_of_lt_of_eq hr8 (xsize3_1_rows (cfg3.grid.coords t)).symm
    | ⟨1, _⟩ => exact Nat.lt_of_lt_of_eq k.isLt (xsize3_1_cols (cfg3.grid.coords t)).symm
  · refine fill_congr_moved (cfg3.win 2) _ d2 d2' b2 _ (((cfg3.win 2).moved_iff _ _).mpr fun a => ?_)
    match a with
    | ⟨0, _⟩ => exact Nat.lt_of_lt_of_eq hr8 (xsize3_2_rows (cfg3.grid.coords t)).symm
    | ⟨1, _⟩ => exact Nat.lt_of_lt_of_eq Nat.one_pos (xsize3_2_cols (cfg3.grid.coords t)).symm

end Cert.KernelIdeal.Gen.Val

end
-- ==== Proof.KI.Named3.lean ====
import proofs.«178696_j1468878815658_2_alg».proof.Proof.KI.Obl3
import proofs.«178696_j1468878815658_2_alg».proof.Proof.KI.Cut3

/-!
  Region 3's body obligation over the extended reals with EVERY window named. The output's staging buffer is stated on
  the rows inside the array only; there what the body stores does not depend on the words the clipped fetch left in the
  rest of the input buffers, because a stored row is a function of the same row of each row-tiled input alone.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Idealize.ShloMosaic.Ideal) ((c : Thread nD τ).loc b))

theorem body_obligation3_named (c : Dev nD) :
    BodyObligationLoose (dat3 (F := Idealize.ShloMosaic.Ideal) V c) (defs₀ (F := Idealize.ShloMosaic.Ideal)) Variants.none () Set.univ := fun t => by
  rw [bigSep_W3, bigSep_W3]
  simp only
  rw [show (dat3 V c).Φ t.succ = (dat3 V c).Φ t.castSucc from rfl,
    show (dat3 V c).owesAt () t.succ = (dat3 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HX⟩⟩
  rw [before3_0 V c t d0, before3_1 V c t d1, before3_2 V c t d2, before3_3 V c t d3, before3_4 V c t d4, before3_5 V c t d5, before3_6 V c t d6, before3_7 V c t d7]
  iapply (sound_kernel3 (F := Idealize.ShloMosaic.Ideal) c Set.univ (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) ((cfg3.win 0).fill (cfg3.grid.coords t) d0 (iblk3 V c 0 t)) ((cfg3.win 1).fill (cfg3.grid.coords t) d1 (iblk3 V c 1 t)) ((cfg3.win 2).fill (cfg3.grid.coords t) d2 (iblk3 V c 2 t)) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexists _; iexact HX
  iintro ⟨H0, H1, H2, H3, H4, H5, H6, H7, HX⟩
  isplitl [HΦ]; · iexact HΦ
  isplitl [Ho]; · iexact Ho
  isplitl [H0]
  · iexists d0
    rw [after3_0]; unfold fblk3; rw [(cfg3.win 0).cut_fill]; iexact H0
  isplitl [H1]
  · iexists d1
    rw [after3_1]; unfold fblk3; rw [(cfg3.win 1).cut_fill]; iexact H1
  isplitl [H2]
  · iexists d2
    rw [after3_2]; unfold fblk3; rw [(cfg3.win 2).cut_fill]; iexact H2
  isplitl [H3]
  · rw [after3_3]; iexact H3
  isplitl [H4]
  · rw [after3_4]; iexact H4
  isplitl [H5]
  · rw [after3_5]; iexact H5
  isplitl [H6]
  · rw [after3_6]; iexact H6
  isplitl [H7]
  · rw [after3_7]; iexact H7
  iexists (out3 ((cfg3.win 0).fill (cfg3.grid.coords t) d0 (iblk3 V c 0 t)) ((cfg3.win 1).fill (cfg3.grid.coords t) d1 (iblk3 V c 1 t)) ((cfg3.win 2).fill (cfg3.grid.coords t) d2 (iblk3 V c 2 t)) (iblk3 V c 3 t) (iblk3 V c 4 t) (iblk3 V c 5 t) (iblk3 V c 6 t) (iblk3 V c 7 t))
  rw [after3_8]; unfold fblk3
  rw [(cfg3.win 8).fill_congr_cut (cfg3.grid.coords t) (Val.cut_out3_fill t d0 (fun _ => Classical.arbitrary _) (iblk3 V c 0 t) d1 (fun _ => Classical.arbitrary _) (iblk3 V c 1 t) d2 (fun _ => Classical.arbitrary _) (iblk3 V c 2 t) (iblk3 V c 3 t) (iblk3 V c 4 t) (iblk3 V c 5 t) (iblk3 V c 6 t) (iblk3 V c 7 t))]
  iexact HX

end Cert.KernelIdeal.Gen

end
-- ==== Proof.KI.Fin3.lean ====
import proofs.«178696_j1468878815658_2_alg».proof.Proof.KI.Dat3
import proofs.«178696_j1468878815658_2_alg».proof.Proof.KI.Val3
import proofs.«178696_j1468878815658_2_alg».proof.Proof.Spec
import Idealize.ShloMosaic.Lib.ValueIdx
import Idealize.ShloMosaic.Lib.Pipeline.Value

/-!
  Region 3's output array after all its write-backs, over the extended reals: row by row the row specification of the
  entry arrays. Each point writes back the rows of its block that lie inside the array; such a row is the row
  specification of the same row of the input blocks, which read the entry arrays at the block's rows; and the points'
  blocks cover the array.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Final

open Idealize.ShloMosaic.ValueIdx

variable (V : (c : Dev nD) → (b : Ref sig .tc) → Buf (Elt Idealize.ShloMosaic.Ideal) ((c : Thread nD τ).loc b))

/-! ## Where the blocks lie

  The grid is one axis of 25 points; point `t`'s row-tiled blocks are block `t` of their arrays (rows
  `4096 t` onwards, all columns), the weights' one block is the whole array. The last block overhangs the array's
  100000 rows: of its 4096 rows the first `100000 - 4096 t` are moved. -/

/-- The row-tiled windows' block index on the rows is the point's number. -/
theorem index3_row (t : Fin cfg3.N) : (cfg3.win 8).index t 0 = t.val := by
  have ht : t.val < 25 := t.isLt
  show (BitVec.ofNat 32 (t.val / 1 % 25)).toNat = t.val
  rw [BitVec.toNat_ofNat, Nat.div_one, Nat.mod_eq_of_lt ht, Nat.mod_eq_of_lt (by omega)]

/-- How many rows of block `t` lie inside the array. -/
theorem xsize3_row (t : Fin cfg3.N) :
    (cfg3.win 8).xsize (cfg3.grid.coords t) 0 = if (t.val + 1) * 4096 ≤ 100000 then 4096 else 100000 - t.val * 4096 := by
  show (Pipeline.Clip.of ((cfg3.win 8).index t 0) 4096 100000).extent 4096 = _
  rw [index3_row t]
  unfold Pipeline.Clip.of
  split <;> rfl

/-- Row-tiled input window 0: its filled block at a row inside the array reads the entry array at that row of the
    block's rows. -/
theorem fblk3_0_apply (c : Dev nD) (t : Fin cfg3.N) (r' : Fin 4096) (k : Fin 64) (R : Fin 100000)
    (hr : r'.val < (cfg3.win 0).xsize (cfg3.grid.coords t) 0) (hR : R.val = t.val * 4096 + r'.val) :
    fblk3 V c 0 t (ix2 r' k) = (V c main_v7 : S100000x64.Idx → EReal) (ix2 R k) := by
  let j' : ((cfg3.win 0).xblock (cfg3.grid.coords t)).Idx := fun a => match a with
    | ⟨0, _⟩ => ⟨r'.val, hr⟩
    | ⟨1, _⟩ => ⟨k.val, k.isLt⟩
  have e : (ix2 r' k : (cfg3.win 0).block.Idx) = (cfg3.win 0).xinj (cfg3.grid.coords t) j' :=
    funext fun a => Fin.ext (by
      match a with
      | ⟨0, _⟩ => rfl
      | ⟨1, _⟩ => rfl)
  unfold fblk3
  rw [e, Window.fill_xinj]
  show (V c main_v7 : S100000x64.Idx → EReal) (((cfg3.win 0).blk t).view.emb j') = _
  refine congrArg _ (funext fun a => Fin.ext ?_)
  match a with
  | ⟨0, _⟩ =>
    show (cfg3.win 0).index t 0 * 4096 + 1 * r'.val = R.val
    rw [hR, show (cfg3.win 0).index t 0 = t.val from index3_row t]
    omega
  | ⟨1, _⟩ =>
    show (cfg3.win 0).index t 1 * 64 + 1 * k.val = k.val
    rw [show (cfg3.win 0).index t 1 = 0 from rfl]
    omega

/-- Row-tiled input window 1: its filled block at a row inside the array reads the entry array at that row of the
    block's rows. -/
theorem fblk3_1_apply (c : Dev nD) (t : Fin cfg3.N) (r' : Fin 4096) (k : Fin 64) (R : Fin 100000)
    (hr : r'.val < (cfg3.win 1).xsize (cfg3.grid.coords t) 0) (hR : R.val = t.val * 4096 + r'.val) :
    fblk3 V c 1 t (ix2 r' k) = (V c main_v35 : S100000x64.Idx → EReal) (ix2 R k) := by
  let j' : ((cfg3.win 1).xblock (cfg3.grid.coords t)).Idx := fun a => match a with
    | ⟨0, _⟩ => ⟨r'.val, hr⟩
    | ⟨1, _⟩ => ⟨k.val, k.isLt⟩
  have e : (ix2 r' k : (cfg3.win 1).block.Idx) = (cfg3.win 1).xinj (cfg3.grid.coords t) j' :=
    funext fun a => Fin.ext (by
      match a with
      | ⟨0, _⟩ => rfl
      | ⟨1, _⟩ => rfl)
  unfold fblk3
  rw [e, Window.fill_xinj]
  show (V c main_v35 : S100000x64.Idx → EReal) (((cfg3.win 1).blk t).view.emb j') = _
  refine congrArg _ (funext fun a => Fin.ext ?_)
  match a with
  | ⟨0, _⟩ =>
    show (cfg3.win 1).index t 0 * 4096 + 1 * r'.val = R.val
    rw [hR, show (cfg3.win 1).index t 0 = t.val from index3_row t]
    omega
  | ⟨1, _⟩ =>
    show (cfg3.win 1).index t 1 * 64 + 1 * k.val = k.val
    rw [show (cfg3.win 1).index t 1 = 0 from rfl]
    omega

/-- Row-tiled input window 2: its filled block at a row inside the array reads the entry array at that row of the
    block's rows. -/
theorem fblk3_2_apply (c : Dev nD) (t : Fin cfg3.N) (r' : Fin 4096) (k : Fin 1) (R : Fin 100000)
    (hr : r'.val < (cfg3.win 2).xsize (cfg3.grid.coords t) 0) (hR : R.val = t.val * 4096 + r'.val) :
    fblk3 V c 2 t (ix2 r' k) = (V c main_v18 : S100000x1.Idx → EReal) (ix2 R k) := by
  let j' : ((cfg3.win 2).xblock (cfg3.grid.coords t)).Idx := fun a => match a with
    | ⟨0, _⟩ => ⟨r'.val, hr⟩
    | ⟨1, _⟩ => ⟨k.val, k.isLt⟩
  have e : (ix2 r' k : (cfg3.win 2).block.Idx) = (cfg3.win 2).xinj (cfg3.grid.coords t) j' :=
    funext fun a => Fin.ext (by
      match a with
      | ⟨0, _⟩ => rfl
      | ⟨1, _⟩ => rfl)
  unfold fblk3
  rw [e, Window.fill_xinj]
  show (V c main_v18 : S100000x1.Idx → EReal) (((cfg3.win 2).blk t).view.emb j') = _
  refine congrArg _ (funext fun a => Fin.ext ?_)
  match a with
  | ⟨0, _⟩ =>
    show (cfg3.win 2).index t 0 * 4096 + 1 * r'.val = R.val
    rw [hR, show (cfg3.win 2).index t 0 = t.val from index3_row t]
    omega
  | ⟨1, _⟩ =>
    show (cfg3.win 2).index t 1 * 1 + 1 * k.val = k.val
    rw [show (cfg3.win 2).index t 1 = 0 from rfl]
    omega

/-- Whole-array window 3: its one block is the entry array. -/
theorem iblk3_3_apply (c : Dev nD) (t : Fin cfg3.N) (k : Fin 64) (q' : Fin 64) :
    iblk3 V c 3 t (ix2 k q') = (V c main_v21 : S64x64.Idx → EReal) (ix2 k q') := by
  show (V c main_v21 : S64x64.Idx → EReal) (((cfg3.win 3).blk t).view.emb (ix2 k q')) = _
  refine congrArg _ (funext fun a => Fin.ext ?_)
  match a with
  | ⟨0, _⟩ =>
    show (cfg3.win 3).index t 0 * 64 + 1 * k.val = k.val
    rw [show (cfg3.win 3).index t 0 = 0 from rfl]
    omega
  | ⟨1, _⟩ =>
    show (cfg3.win 3).index t 1 * 64 + 1 * q'.val = q'.val
    rw [show (cfg3.win 3).index t 1 = 0 from rfl]
    omega

/-- Whole-array window 4: its one block is the entry array. -/
theorem iblk3_4_apply (c : Dev nD) (t : Fin cfg3.N) (k : Fin 64) (q' : Fin 64) :
    iblk3 V c 4 t (ix2 k q') = (V c main_v22 : S64x64.Idx → EReal) (ix2 k q') := by
  show (V c main_v22 : S64x64.Idx → EReal) (((cfg3.win 4).blk t).view.emb (ix2 k q')) = _
  refine congrArg _ (funext fun a => Fin.ext ?_)
  match a with
  | ⟨0, _⟩ =>
    show (cfg3.win 4).index t 0 * 64 + 1 * k.val = k.val
    rw [show (cfg3.win 4).index t 0 = 0 from rfl]
    omega
  | ⟨1, _⟩ =>
    show (cfg3.win 4).index t 1 * 64 + 1 * q'.val = q'.val
    rw [show (cfg3.win 4).index t 1 = 0 from rfl]
    omega

/-- Whole-array window 5: its one block is the entry array. -/
theorem iblk3_5_apply (c : Dev nD) (t : Fin cfg3.N) (k : Fin 1) (q' : Fin 64) :
    iblk3 V c 5 t (ix2 k q') = (V c main_v36 : S1x64.Idx → EReal) (ix2 k q') := by
  show (V c main_v36 : S1x64.Idx → EReal) (((cfg3.win 5).blk t).view.emb (ix2 k q')) = _
  refine congrArg _ (funext fun a => Fin.ext ?_)
  match a with
  | ⟨0, _⟩ =>
    show (cfg3.win 5).index t 0 * 1 + 1 * k.val = k.val
    rw [show (cfg3.win 5).index t 0 = 0 from rfl]
    omega
  | ⟨1, _⟩ =>
    show (cfg3.win 5).index t 1 * 64 + 1 * q'.val = q'.val
    rw [show (cfg3.win 5).index t 1 = 0 from rfl]
    omega

/-- Whole-array window 6: its one block is the entry array. -/
theorem iblk3_6_apply (c : Dev nD) (t : Fin cfg3.N) (k : Fin 1) (q' : Fin 64) :
    iblk3 V c 6 t (ix2 k q') = (V c main_v37 : S1x64.Idx → EReal) (ix2 k q') := by
  show (V c main_v37 : S1x64.Idx → EReal) (((cfg3.win 6).blk t).view.emb (ix2 k q')) = _
  refine congrArg _ (funext fun a => Fin.ext ?_)
  match a with
  | ⟨0, _⟩ =>
    show (cfg3.win 6).index t 0 * 1 + 1 * k.val = k.val
    rw [show (cfg3.win 6).index t 0 = 0 from rfl]
    omega
  | ⟨1, _⟩ =>
    show (cfg3.win 6).index t 1 * 64 + 1 * q'.val = q'.val
    rw [show (cfg3.win 6).index t 1 = 0 from rfl]
    omega

/-- Whole-array window 7: its one block is the entry array. -/
theorem iblk3_7_apply (c : Dev nD) (t : Fin cfg3.N) (k : Fin 1) (q' : Fin 64) :
    iblk3 V c 7 t (ix2 k q') = (V c main_v38 : S1x64.Idx → EReal) (ix2 k q') := by
  show (V c main_v38 : S1x64.Idx → EReal) (((cfg3.win 7).blk t).view.emb (ix2 k q')) = _
  refine congrArg _ (funext fun a => Fin.ext ?_)
  match a with
  | ⟨0, _⟩ =>
    show (cfg3.win 7).index t 0 * 1 + 1 * k.val = k.val
    rw [show (cfg3.win 7).index t 0 = 0 from rfl]
    omega
  | ⟨1, _⟩ =>
    show (cfg3.win 7).index t 1 * 64 + 1 * q'.val = q'.val
    rw [show (cfg3.win 7).index t 1 = 0 from rfl]
    omega

/-! ## The array the write-backs leave -/

/-- Row by row, the row specification of the entry arrays. -/
def G3 (c : Dev nD) : S100000x64.Idx → EReal := fun i =>
  Cert.Spec.updRow (fun k : Fin 64 => (V c main_v7 : S100000x64.Idx → EReal) (ix2 (i 0 : Fin 100000) k))
    (fun k : Fin 64 => (V c main_v35 : S100000x64.Idx → EReal) (ix2 (i 0 : Fin 100000) k))
    ((V c main_v18 : S100000x1.Idx → EReal) (ix2 (i 0 : Fin 100000) 0))
    (fun (k : Fin 64) (q' : Fin 64) => (V c main_v21 : S64x64.Idx → EReal) (ix2 k q'))
    (fun (k : Fin 64) (q' : Fin 64) => (V c main_v22 : S64x64.Idx → EReal) (ix2 k q'))
    (fun q' : Fin 64 => (V c main_v36 : S1x64.Idx → EReal) (ix2 0 q'))
    (fun q' : Fin 64 => (V c main_v37 : S1x64.Idx → EReal) (ix2 0 q'))
    (fun q' : Fin 64 => (V c main_v38 : S1x64.Idx → EReal) (ix2 0 q')) (i 1 : Fin 64)

/-- The row specification depends on its arguments only. -/
private theorem updRow_congr {h h' ms ms' : Fin 64 → EReal} {cnt cnt' : EReal} {wh wh' wm wm' : Fin 64 → Fin 64 → EReal}
    {b b' g g' β β' : Fin 64 → EReal} {q q' : Fin 64} (e1 : h = h') (e2 : ms = ms') (e3 : cnt = cnt') (e4 : wh = wh')
    (e5 : wm = wm') (e6 : b = b') (e7 : g = g') (e8 : β = β') (e9 : q = q') :
    Cert.Spec.updRow h ms cnt wh wm b g β q = Cert.Spec.updRow h' ms' cnt' wh' wm' b' g' β' q' := by
  subst e1 e2 e3 e4 e5 e6 e7 e8 e9
  rfl

/-- What point `t` writes back is block `t` of that array: a stored row inside the array is the row specification of
    the same row of the input blocks, which read the entry arrays at the block's rows. -/
theorem flushed3_eq (c : Dev nD) (t : Fin cfg3.N) :
    (dat3 V c).flushed 8 t = ((cfg3.win 8).blk t).view.read (Elt Idealize.ShloMosaic.Ideal) (G3 V c) := by
  show (cfg3.win 8).cut (cfg3.grid.coords t) ((dat3 V c).after 8 t) = _
  rw [after3_8]
  funext j
  have hr8 : (j 0).val < (cfg3.win 8).xsize (cfg3.grid.coords t) 0 := (j 0).isLt
  have hq : (j 1).val < 64 := (j 1).isLt
  have hr : (j 0).val < 4096 := Nat.lt_of_lt_of_le hr8 ((cfg3.win 8).xsize_le (cfg3.grid.coords t) 0)
  have hR : ((((cfg3.win 8).blk t).view.emb j 0 : Fin 100000)).val = t.val * 4096 + (j 0).val := by
    show (cfg3.win 8).index t 0 * 4096 + 1 * (j 0).val = _
    rw [index3_row t]
    omega
  have hQ : (⟨(j 1).val, hq⟩ : Fin 64) = (((cfg3.win 8).blk t).view.emb j 1 : Fin 64) := Fin.ext (by
    show (j 1).val = (cfg3.win 8).index t 1 * 64 + 1 * (j 1).val
    rw [show (cfg3.win 8).index t 1 = 0 from rfl]
    omega)
  have ej : (cfg3.win 8).xinj (cfg3.grid.coords t) j = ix2 (⟨(j 0).val, hr⟩ : Fin 4096) (⟨(j 1).val, hq⟩ : Fin 64) :=
    funext fun a => Fin.ext (by
      match a with
      | ⟨0, _⟩ => rfl
      | ⟨1, _⟩ => rfl)
  show out3 (F := Idealize.ShloMosaic.Ideal) _ _ _ _ _ _ _ _ ((cfg3.win 8).xinj (cfg3.grid.coords t) j) = G3 V c (((cfg3.win 8).blk t).view.emb j)
  rw [ej]
  refine (Val.out3_apply _ _ _ _ _ _ _ _ ⟨(j 0).val, hr⟩ ⟨(j 1).val, hq⟩).trans ?_
  unfold G3
  exact updRow_congr
    (funext fun k => fblk3_0_apply V c t ⟨(j 0).val, hr⟩ k _ hr8 hR)
    (funext fun k => fblk3_1_apply V c t ⟨(j 0).val, hr⟩ k _ hr8 hR)
    (fblk3_2_apply V c t ⟨(j 0).val, hr⟩ 0 _ hr8 hR)
    (funext fun k => funext fun q' => iblk3_3_apply V c t k q')
    (funext fun k => funext fun q' => iblk3_4_apply V c t k q')
    (funext fun q' => iblk3_5_apply V c t 0 q')
    (funext fun q' => iblk3_6_apply V c t 0 q')
    (funext fun q' => iblk3_7_apply V c t 0 q')
    hQ

/-- Every row of the array is in some point's block: row `r` in block `r / 4096`. -/
theorem cover3 (i : S100000x64.Idx) :
    ∃ t : Fin cfg3.N, (cfg3.win 8).flush t = true ∧ i ∈ ((cfg3.win 8).blk t).view.set := by
  have hi0 : (i 0).val < 100000 := (i 0).isLt
  have hi1 : (i 1).val < 64 := (i 1).isLt
  have hN : (i 0).val / 4096 < cfg3.N := by
    show (i 0).val / 4096 < 25
    omega
  refine ⟨⟨(i 0).val / 4096, hN⟩, flush3_8 _, ?_⟩
  show i ∈ ((View.whole main_v39).slice ((cfg3.win 8).rect ⟨(i 0).val / 4096, hN⟩)).set
  rw [View.set_slice_whole, Rect.mem_set_unit]
  intro a
  match a with
  | ⟨0, _⟩ =>
    show (cfg3.win 8).index ⟨(i 0).val / 4096, hN⟩ 0 * 4096 ≤ (i 0).val
      ∧ (i 0).val < (cfg3.win 8).index ⟨(i 0).val / 4096, hN⟩ 0 * 4096 + (cfg3.win 8).xsize (cfg3.grid.coords ⟨(i 0).val / 4096, hN⟩) 0
    rw [index3_row, xsize3_row]
    show (i 0).val / 4096 * 4096 ≤ (i 0).val ∧ (i 0).val < (i 0).val / 4096 * 4096
      + (if ((i 0).val / 4096 + 1) * 4096 ≤ 100000 then 4096 else 100000 - (i 0).val / 4096 * 4096)
    split <;> omega
  | ⟨1, _⟩ =>
    show (cfg3.win 8).index ⟨(i 0).val / 4096, hN⟩ 1 * 64 ≤ (i 1).val
      ∧ (i 1).val < (cfg3.win 8).index ⟨(i 0).val / 4096, hN⟩ 1 * 64 + 64
    rw [show (cfg3.win 8).index ⟨(i 0).val / 4096, hN⟩ 1 = 0 from rfl]
    omega

/-- The output array after all the write-backs, at row `r` and column `q`. -/
theorem final3 (c : Dev nD) (r : Fin 100000) (q : Fin 64) :
    ((dat3 (F := Idealize.ShloMosaic.Ideal) V c).arrAt 8 cfg3.N : S100000x64.Idx → EReal) (ix2 r q)
      = Cert.Spec.updRow (fun k : Fin 64 => (V c main_v7 : S100000x64.Idx → EReal) (ix2 r k)) (fun k : Fin 64 => (V c main_v35 : S100000x64.Idx → EReal) (ix2 r k)) ((V c main_v18 : S100000x1.Idx → EReal) (ix2 r 0)) (fun (k : Fin 64) (q' : Fin 64) => (V c main_v21 : S64x64.Idx → EReal) (ix2 k q')) (fun (k : Fin 64) (q' : Fin 64) => (V c main_v22 : S64x64.Idx → EReal) (ix2 k q')) (fun q' : Fin 64 => (V c main_v36 : S1x64.Idx → EReal) (ix2 0 q')) (fun q' : Fin 64 => (V c main_v37 : S1x64.Idx → EReal) (ix2 0 q')) (fun q' : Fin 64 => (V c main_v38 : S1x64.Idx → EReal) (ix2 0 q')) q := by
  have h := (dat3 (F := Idealize.ShloMosaic.Ideal) V c).arrAt_eq_of_cover 8 (G3 V c) (fun t _ => flushed3_eq V c t) cover3
  exact congrFun h (ix2 r q)

end Final

end Cert.KernelIdeal.Gen

end
-- ==== Proof.Ref.Row3.lean ====
import proofs.«178696_j1468878815658_2_alg».proof.Proof.Ref.Imports
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.Read

/-! ## Index equations: the index maps of the stage's layout operations, at an index given by its coordinates -/

/-- A column broadcast reads row `r` of the one-column array, whatever the column. -/
theorem v117_e85 (r : Fin 100000) (q : Fin 64) : idx_main_v85 (ix2 r q) = (ix2 r (0 : Fin 1) : S100000x1.Idx) :=
  funext fun a => by match a with | ⟨0, _⟩ => rfl | ⟨1, _⟩ => rfl
theorem v117_e96 (r : Fin 100000) (q : Fin 64) : idx_main_v96 (ix2 r q) = (ix2 r (0 : Fin 1) : S100000x1.Idx) :=
  funext fun a => by match a with | ⟨0, _⟩ => rfl | ⟨1, _⟩ => rfl
theorem v117_e103 (r : Fin 100000) (q : Fin 64) : idx_main_v103 (ix2 r q) = (ix2 r (0 : Fin 1) : S100000x1.Idx) :=
  funext fun a => by match a with | ⟨0, _⟩ => rfl | ⟨1, _⟩ => rfl
theorem v117_e108 (r : Fin 100000) (q : Fin 64) : idx_main_v108 (ix2 r q) = (ix2 r (0 : Fin 1) : S100000x1.Idx) :=
  funext fun a => by match a with | ⟨0, _⟩ => rfl | ⟨1, _⟩ => rfl
/-- The one-column view of a vector reads the vector at the row. -/
theorem v117_e93 (r : Fin 100000) (c : Fin 1) : idx_main_v93 (ix2 r c) = (ix1 r : S100000.Idx) :=
  funext fun a => by match a with | ⟨0, _⟩ => rfl
theorem v117_e100 (r : Fin 100000) (c : Fin 1) : idx_main_v100 (ix2 r c) = (ix1 r : S100000.Idx) :=
  funext fun a => by match a with | ⟨0, _⟩ => rfl
/-- A sum along the columns runs over the row. -/
theorem v117_e92 (r : Fin 100000) (k : Fin 64) : idx_main_v92 (ix1 r) k = (ix2 r k : S100000x64.Idx) :=
  funext fun a => by match a with | ⟨0, _⟩ => rfl | ⟨1, _⟩ => rfl
theorem v117_e99 (r : Fin 100000) (k : Fin 64) : idx_main_v99 (ix1 r) k = (ix2 r k : S100000x64.Idx) :=
  funext fun a => by match a with | ⟨0, _⟩ => rfl | ⟨1, _⟩ => rfl
/-- The matrix product at `(r, q)` pairs row `r` of the left operand with column `q` of the right. -/
theorem v117_el88 (r : Fin 100000) (q : Fin 64) (k : Fin 128) : lidx_main_v88 (ix2 r q) k = (ix2 r k : S100000x128.Idx) :=
  funext fun a => by match a with | ⟨0, _⟩ => rfl | ⟨1, _⟩ => rfl
theorem v117_er88 (r : Fin 100000) (q : Fin 64) (k : Fin 128) : ridx_main_v88 (ix2 r q) k = (ix2 k q : S128x64.Idx) :=
  funext fun a => by match a with | ⟨0, _⟩ => rfl | ⟨1, _⟩ => rfl
/-- A row vector broadcast down the rows reads the vector at the column. -/
theorem v117_e90 (r : Fin 100000) (q : Fin 64) : idx_main_v90 (ix2 r q) = (ix2 (0 : Fin 1) q : S1x64.Idx) :=
  funext fun a => by match a with | ⟨0, _⟩ => rfl | ⟨1, _⟩ => rfl
theorem v117_e89 (c : Fin 1) (q : Fin 64) : idx_main_v89 (ix2 c q) = (ix1 q : S64.Idx) :=
  funext fun a => by match a with | ⟨0, _⟩ => rfl
theorem v117_e111 (r : Fin 100000) (q : Fin 64) : idx_main_v111 (ix2 r q) = (ix2 (0 : Fin 1) q : S1x64.Idx) :=
  funext fun a => by match a with | ⟨0, _⟩ => rfl | ⟨1, _⟩ => rfl
theorem v117_e110 (c : Fin 1) (q : Fin 64) : idx_main_v110 (ix2 c q) = (ix1 q : S64.Idx) :=
  funext fun a => by match a with | ⟨0, _⟩ => rfl
theorem v117_e114 (r : Fin 100000) (q : Fin 64) : idx_main_v114 (ix2 r q) = (ix2 (0 : Fin 1) q : S1x64.Idx) :=
  funext fun a => by match a with | ⟨0, _⟩ => rfl | ⟨1, _⟩ => rfl
theorem v117_e113 (c : Fin 1) (q : Fin 64) : idx_main_v113 (ix2 c q) = (ix1 q : S64.Idx) :=
  funext fun a => by match a with | ⟨0, _⟩ => rfl

/-- Two arrays of 64 columns joined along the columns, read at a row: the two rows side by side. -/
theorem v117_cat_row (a b : S100000x64.Idx → EReal) (r : Fin 100000) (k : Fin 128) :
    concatenate S100000x128 1 [⟨S100000x64, a⟩, ⟨S100000x64, b⟩] Gen.concatenates_S100000x64_S100000x64_S100000x128_d1 (ix2 r k)
      = Cert.Spec.cat2 (fun k => a (ix2 r k)) (fun k => b (ix2 r k)) k := by
  unfold Cert.Spec.cat2
  split
  · next h =>
    exact concatenate_pair_apply_left (t := S100000x128) 1 a b Gen.concatenates_S100000x64_S100000x64_S100000x128_d1 (ix2 r k) rfl
      (ix2 r ⟨k.val, h⟩) (fun c => by
      match c with
      | ⟨0, _⟩ => rfl
      | ⟨1, _⟩ => rfl)
  · next h =>
    exact concatenate_pair_apply_right (t := S100000x128) 1 a b Gen.concatenates_S100000x64_S100000x64_S100000x128_d1 (ix2 r k) rfl rfl
      (ix2 r ⟨k.val - 64, by have := k.isLt; omega⟩) (fun c hc => by
        match c with
        | ⟨0, _⟩ => rfl
        | ⟨1, _⟩ => exact absurd rfl hc)
      (by have := k.isLt; show k.val - 64 + 64 = k.val; omega)

variable (x0 : (⟨S100000x7, .f32⟩ : BufTy).Contents (Elt Ideal)) (x1 : (⟨S2x1000000, .i32⟩ : BufTy).Contents (Elt Ideal))
  (x2 : (⟨S1000000x5, .f32⟩ : BufTy).Contents (Elt Ideal)) (x3 : (⟨S7x64, .f32⟩ : BufTy).Contents (Elt Ideal))
  (x4 x5 x6 : (⟨S64, .f32⟩ : BufTy).Contents (Elt Ideal)) (x7 : (⟨S5x64, .f32⟩ : BufTy).Contents (Elt Ideal))
  (x8 x9 x10 : (⟨S64, .f32⟩ : BufTy).Contents (Elt Ideal)) (x11 : (⟨S128x64, .f32⟩ : BufTy).Contents (Elt Ideal))
  (x12 : (⟨S64, .f32⟩ : BufTy).Contents (Elt Ideal)) (x13 : (⟨S128x64, .f32⟩ : BufTy).Contents (Elt Ideal))
  (x14 x15 x16 : (⟨S64, .f32⟩ : BufTy).Contents (Elt Ideal)) (x17 : (⟨S128x64, .f32⟩ : BufTy).Contents (Elt Ideal))
  (x18 : (⟨S64, .f32⟩ : BufTy).Contents (Elt Ideal)) (x19 : (⟨S128x64, .f32⟩ : BufTy).Contents (Elt Ideal))
  (x20 x21 x22 : (⟨S64, .f32⟩ : BufTy).Contents (Elt Ideal)) (x23 : (⟨S133x64, .f32⟩ : BufTy).Contents (Elt Ideal))
  (x24 : (⟨S64, .f32⟩ : BufTy).Contents (Elt Ideal)) (x25 : (⟨S64x32, .f32⟩ : BufTy).Contents (Elt Ideal))
  (x26 : (⟨S32, .f32⟩ : BufTy).Contents (Elt Ideal)) (x27 : (⟨S32x1, .f32⟩ : BufTy).Contents (Elt Ideal))
  (x28 : (⟨S1, .f32⟩ : BufTy).Contents (Elt Ideal))

/-- The first node update of the reference, read at a row: the row specification of that row of the stage's operands. -/
theorem row_v117 (r : Fin 100000) (q : Fin 64) :
    val_main_v117 (F := Ideal) x0 x1 x2 x3 x4 x5 x6 x7 x8 x9 x10 x11 x12 x13 x14 x15 x16 (ix2 r q)
      = Cert.Spec.updRowCat (fun k : Fin 64 => val_main_v32 (F := Ideal) x0 x3 x4 x5 x6 (ix2 r k)) (fun k : Fin 64 => val_main_v77 (F := Ideal) x0 x1 x2 x3 x4 x5 x6 x7 x8 x9 x10 x11 x12 (ix2 r k)) (val_main_v84 (F := Ideal) x1 (ix2 r 0)) (fun (k : Fin 128) (q' : Fin 64) => x13 (ix2 k q')) (fun q' : Fin 64 => x14 (ix1 q')) (fun q' : Fin 64 => x15 (ix1 q')) (fun q' : Fin 64 => x16 (ix1 q')) q := by
  -- the joined row: the node's own row beside its mean message
  have h87 : ∀ k : Fin 128, val_main_v87 (F := Ideal) x0 x1 x2 x3 x4 x5 x6 x7 x8 x9 x10 x11 x12 (ix2 r k)
      = Cert.Spec.cat2 (fun k : Fin 64 => val_main_v32 (F := Ideal) x0 x3 x4 x5 x6 (ix2 r k))
          (fun k : Fin 64 => Ideal.div (val_main_v77 (F := Ideal) x0 x1 x2 x3 x4 x5 x6 x7 x8 x9 x10 x11 x12 (ix2 r k)) (val_main_v84 (F := Ideal) x1 (ix2 r 0))) k := by
    intro k
    unfold val_main_v87
    rw [v117_cat_row]
    refine congrArg (fun f => Cert.Spec.cat2 _ f k) (funext fun k' => ?_)
    rw [val_main_v86_apply, val_main_v85_apply, v117_e85]
    rfl
  -- the row before the layer norm
  obtain ⟨P, hP⟩ : ∃ P : Fin 64 → EReal, P = fun q' : Fin 64 =>
      (∑ k : Fin 128, Cert.Spec.cat2 (fun k : Fin 64 => val_main_v32 (F := Ideal) x0 x3 x4 x5 x6 (ix2 r k))
          (fun k : Fin 64 => Ideal.div (val_main_v77 (F := Ideal) x0 x1 x2 x3 x4 x5 x6 x7 x8 x9 x10 x11 x12 (ix2 r k)) (val_main_v84 (F := Ideal) x1 (ix2 r 0))) k
        * x13 (ix2 k q')) + x14 (ix1 q') := ⟨_, rfl⟩
  have h91 : ∀ q' : Fin 64, val_main_v91 (F := Ideal) x0 x1 x2 x3 x4 x5 x6 x7 x8 x9 x10 x11 x12 x13 x14 (ix2 r q') = P q' := by
    intro q'
    rw [hP, val_main_v91_apply, val_main_v88_apply, val_main_v90_apply, val_main_v89_apply, v117_e90, v117_e89]
    simp only [v117_el88, v117_er88, h87]
    rfl
  -- its mean
  have h92 : val_main_v92 (F := Ideal) x0 x1 x2 x3 x4 x5 x6 x7 x8 x9 x10 x11 x12 x13 x14 (ix1 r) = ∑ k : Fin 64, P k := by
    rw [val_main_v92_apply, val_main_cst_14_apply, Ideal.ofBits_def, Ideal.ofBits_zero_f32, zero_add]
    simp only [v117_e92, h91]
  have h95 : val_main_v95 (F := Ideal) x0 x1 x2 x3 x4 x5 x6 x7 x8 x9 x10 x11 x12 x13 x14 (ix2 r 0) = Cert.Spec.mean64 P := by
    rw [val_main_v95_apply, val_main_v93_apply, v117_e93, h92, val_main_v94_apply, val_main_cst_15_apply]
    rfl
  -- the deviations and the variance
  have h97 : ∀ k : Fin 64, val_main_v97 (F := Ideal) x0 x1 x2 x3 x4 x5 x6 x7 x8 x9 x10 x11 x12 x13 x14 (ix2 r k) = P k - Cert.Spec.mean64 P := by
    intro k
    rw [val_main_v97_apply, h91, val_main_v96_apply, v117_e96, h95]
    rfl
  have h99 : val_main_v99 (F := Ideal) x0 x1 x2 x3 x4 x5 x6 x7 x8 x9 x10 x11 x12 x13 x14 (ix1 r)
      = ∑ k : Fin 64, (P k - Cert.Spec.mean64 P) * (P k - Cert.Spec.mean64 P) := by
    rw [val_main_v99_apply, val_main_cst_16_apply, Ideal.ofBits_def, Ideal.ofBits_zero_f32, zero_add]
    simp only [v117_e99, val_main_v98_apply, h97]
    rfl
  have h102 : val_main_v102 (F := Ideal) x0 x1 x2 x3 x4 x5 x6 x7 x8 x9 x10 x11 x12 x13 x14 (ix2 r 0) = Cert.Spec.var64 P := by
    rw [val_main_v102_apply, val_main_v100_apply, v117_e100, h99, val_main_v101_apply, val_main_cst_17_apply]
    rfl
  have h107 : val_main_v107 (F := Ideal) x0 x1 x2 x3 x4 x5 x6 x7 x8 x9 x10 x11 x12 x13 x14 (ix2 r 0) = Ideal.sqrt (Cert.Spec.var64 P + Cert.Spec.wEps) := by
    rw [val_main_v107_apply, val_main_v106_apply, h102, val_main_v105_apply, val_main_cst_18_apply]
    rfl
  have h104 : val_main_v104 (F := Ideal) x0 x1 x2 x3 x4 x5 x6 x7 x8 x9 x10 x11 x12 x13 x14 (ix2 r q) = P q - Cert.Spec.mean64 P := by
    rw [val_main_v104_apply, h91, val_main_v103_apply, v117_e103, h95]
    rfl
  -- the normalised row scaled and shifted, the node's row added back, the rectifier
  rw [val_main_v117_apply, val_main_call3_v0_apply, val_main_call3_cst_apply, val_main_v116_apply, val_main_v115_apply,
    val_main_v112_apply, val_main_v109_apply, h104, val_main_v108_apply, v117_e108, h107, val_main_v111_apply,
    val_main_v110_apply, v117_e111, v117_e110, val_main_v114_apply, val_main_v113_apply, v117_e114, v117_e113]
  rw [hP]
  rfl

end Cert.ReferenceIdeal.RefRows

end
-- ==== Proof.KI.Bridge3.lean ====
import proofs.«178696_j1468878815658_2_alg».proof.Proof.KI.Inv
import proofs.«178696_j1468878815658_2_alg».proof.Proof.KI.Args
import proofs.«178696_j1468878815658_2_alg».proof.Proof.KI.Fin3
import proofs.«178696_j1468878815658_2_alg».proof.Proof.Ref.Row3
import proofs.«178696_j1468878815658_2_alg».proof.Proof.Spec
import proofs.«178696_j1468878815658_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-!
  Host stretch 3 and region 3 of the idealized kernel program, read against the reference: if the buffers' contents
  before them satisfy `E3` (the arguments as launched, the live intermediates equal to the reference's stage values),
  then after them — the region's arrays at whatever contents they may hold after every write-back, nothing forgotten —
  they satisfy `E4`: the region's output array IS the reference's value of the same stage, because row by row both
  are the row specification of the same operand rows (the two spellings of the specification agree), and every other
  live buffer is as it was.
-/

set_option maxRecDepth 16384

noncomputable section

namespace Cert.KernelIdeal.Gen

open Idealize.ShloMosaic Idealize.ShloMosaic.TcCoe Idealize.ShloMosaic.ValueIdx
open Idealize.SL Idealize.SL.Sem

/-! ## What host stretch 3 writes, against the reference -/

/-- The summed messages: the stretch computes them as the reference does, the same scatter-add of the same operands
    (the widening of the messages is the identity on extended reals). -/
theorem host3_v35 (m : (ℓ : Loc nD τ sig) → Buf (Elt Ideal) ℓ) (c : Dev nD) (W : Valuation τ sig (Elt Ideal)) (hE : E3 m c W) :
    (StableHlo.after (hostOps3 (F := Ideal)) W (Proc.devRef .tc main_v35) : S100000x64.Idx → EReal)
      = Cert.ReferenceIdeal.Read.val_main_v77 (F := Ideal) (a0 m c) (a1 m c) (a2 m c) (a3 m c) (a4 m c) (a5 m c) (a6 m c) (a7 m c) (a8 m c) (a9 m c) (a10 m c) (a11 m c) (a12 m c) := by
  show StableHlo.after (hostOps3 (F := Ideal)) W (Proc.devRef .tc main_v35) = _
  after_results
  rw [hE.v3, hE.v31]
  unfold Cert.ReferenceIdeal.Read.val_main_v77 Cert.ReferenceIdeal.Read.val_main_v75 Cert.ReferenceIdeal.Read.val_main_v76
    Cert.ReferenceIdeal.Read.val_main_cst_10
  generalize Cert.ReferenceIdeal.Read.val_main_v74 (F := Ideal) (a0 m c) (a1 m c) (a2 m c) (a3 m c) (a4 m c) (a5 m c) (a6 m c) (a7 m c) (a8 m c) (a9 m c) (a10 m c) (a11 m c) (a12 m c) = u
  generalize Cert.ReferenceIdeal.Read.val_main_v3 (F := Ideal) (a1 m c) = ix
  rfl

/-- The host stretch's `main_v36`: vector argument `main_arg14` viewed as one row. -/
theorem host3_v36 (m : (ℓ : Loc nD τ sig) → Buf (Elt Ideal) ℓ) (c : Dev nD) (W : Valuation τ sig (Elt Ideal)) (hE : E3 m c W)
    (q : Fin 64) :
    (StableHlo.after (hostOps3 (F := Ideal)) W (Proc.devRef .tc main_v36) : S1x64.Idx → EReal) (ix2 0 q)
      = ((a14 m c) : S64.Idx → EReal) (ix1 q) := by
  show StableHlo.after (hostOps3 (F := Ideal)) W (Proc.devRef .tc main_v36) (ix2 0 q) = _
  after_results
  show shapeCast S1x64 (W (Proc.devRef .tc main_arg14)) shapeCasts_S64_S1x64 (ix2 0 q) = _
  refine (shapeCast_a_1a_apply _ _ 0 q).trans ?_
  exact congrFun (hE.args main_arg14 (by decide)) (ix1 q)

/-- The host stretch's `main_v37`: vector argument `main_arg15` viewed as one row. -/
theorem host3_v37 (m : (ℓ : Loc nD τ sig) → Buf (Elt Ideal) ℓ) (c : Dev nD) (W : Valuation τ sig (Elt Ideal)) (hE : E3 m c W)
    (q : Fin 64) :
    (StableHlo.after (hostOps3 (F := Ideal)) W (Proc.devRef .tc main_v37) : S1x64.Idx → EReal) (ix2 0 q)
      = ((a15 m c) : S64.Idx → EReal) (ix1 q) := by
  show StableHlo.after (hostOps3 (F := Ideal)) W (Proc.devRef .tc main_v37) (ix2 0 q) = _
  after_results
  show shapeCast S1x64 (W (Proc.devRef .tc main_arg15)) shapeCasts_S64_S1x64 (ix2 0 q) = _
  refine (shapeCast_a_1a_apply _ _ 0 q).trans ?_
  exact congrFun (hE.args main_arg15 (by decide)) (ix1 q)

/-- The host stretch's `main_v38`: vector argument `main_arg16` viewed as one row. -/
theorem host3_v38 (m : (ℓ : Loc nD τ sig) → Buf (Elt Ideal) ℓ) (c : Dev nD) (W : Valuation τ sig (Elt Ideal)) (hE : E3 m c W)
    (q : Fin 64) :
    (StableHlo.after (hostOps3 (F := Ideal)) W (Proc.devRef .tc main_v38) : S1x64.Idx → EReal) (ix2 0 q)
      = ((a16 m c) : S64.Idx → EReal) (ix1 q) := by
  show StableHlo.after (hostOps3 (F := Ideal)) W (Proc.devRef .tc main_v38) (ix2 0 q) = _
  after_results
  show shapeCast S1x64 (W (Proc.devRef .tc main_arg16)) shapeCasts_S64_S1x64 (ix2 0 q) = _
  refine (shapeCast_a_1a_apply _ _ 0 q).trans ?_
  exact congrFun (hE.args main_arg16 (by decide)) (ix1 q)

/-- The row specification depends on its arguments only. -/
private theorem updRow_congr {h h' ms ms' : Fin 64 → EReal} {cnt cnt' : EReal} {wh wh' wm wm' : Fin 64 → Fin 64 → EReal}
    {b b' g g' β β' : Fin 64 → EReal} {q q' : Fin 64} (e1 : h = h') (e2 : ms = ms') (e3 : cnt = cnt') (e4 : wh = wh')
    (e5 : wm = wm') (e6 : b = b') (e7 : g = g') (e8 : β = β') (e9 : q = q') :
    Cert.Spec.updRow h ms cnt wh wm b g β q = Cert.Spec.updRow h' ms' cnt' wh' wm' b' g' β' q' := by
  subst e1 e2 e3 e4 e5 e6 e7 e8 e9
  rfl

/-- Host stretch 3 and region 3 carry `E3` to `E4`. -/
theorem bridge3 (m : (ℓ : Loc nD τ sig) → Buf (Elt Ideal) ℓ) (c : Dev nD) (W : Valuation τ sig (Elt Ideal))
    (hE : E3 m c W)
    (A : (w : Fin cfg3.W) → Buf (Elt Ideal) ((cfg3.win w).arr.view.loc (c : Thread nD τ)))
    (hA : ∀ w, (rdat3 (F := Ideal) (StableHlo.after (hostOps3 (F := Ideal)) W) (fun _ => false) c).ArrAt w cfg3.N (A w)) :
    E4 m c (Pipeline.withArrays spec3 c (StableHlo.after (hostOps3 (F := Ideal)) W) A) := by
  have keep : ∀ b : Ref sig .tc, b ≠ main_v39 → b ∉ hostOps3_W →
      Pipeline.withArrays spec3 c (StableHlo.after (hostOps3 (F := Ideal)) W) A (Proc.devRef .tc b) = W (Proc.devRef .tc b) :=
    fun b h1 h2 => (withArrays3_of_ne_out _ _ c A hA b h1).trans (StableHlo.after_of_writes_sub hostOps3 W hostOps3_writes h2)
  have same : ∀ b : Ref sig .tc, b ∉ hostOps3_W →
      StableHlo.after (hostOps3 (F := Ideal)) W (Proc.devRef .tc b) = W (Proc.devRef .tc b) :=
    fun b h2 => StableHlo.after_of_writes_sub hostOps3 W hostOps3_writes h2
  refine ⟨argsOf_region3 m _ _ c (argsOf_host3 m c W hE.args) A hA, ?_, ?_, ?_, ?_, ?_⟩
  · exact (keep main_v1 (by decide) (by decide)).trans hE.v1
  · exact (keep main_v3 (by decide) (by decide)).trans hE.v3
  · exact (keep main_v11 (by decide) (by decide)).trans hE.v11
  · exact (keep main_v18 (by decide) (by decide)).trans hE.v18
  · -- the region's output array: after the write-backs it is what the proof data name
    have hout : Pipeline.withArrays spec3 c (StableHlo.after (hostOps3 (F := Ideal)) W) A (Proc.devRef .tc main_v39)
        = (dat3 (VW (StableHlo.after (hostOps3 (F := Ideal)) W)) c).arrAt 8 cfg3.N :=
      (Pipeline.withArrays_arr spec3 launch3.win.arr_inj c _ A 8).trans
        ((Pipeline.Dat.toRForget_arrAt_iff (dat3 (VW (StableHlo.after (hostOps3 (F := Ideal)) W)) c) (fgt := fun _ => false)
          (w := 8) rfl cfg3.N (A 8)).mp (hA 8))
    -- the region's operands at its entry that the host stretch leaves alone
    have e7 : (StableHlo.after (hostOps3 (F := Ideal)) W (Proc.devRef .tc main_v7) : S100000x64.Idx → EReal)
        = Cert.ReferenceIdeal.Read.val_main_v32 (F := Ideal) (a0 m c) (a3 m c) (a4 m c) (a5 m c) (a6 m c) :=
      (same main_v7 (by decide)).trans hE.v7
    have e18 : (StableHlo.after (hostOps3 (F := Ideal)) W (Proc.devRef .tc main_v18) : S100000x1.Idx → EReal)
        = Cert.ReferenceIdeal.Read.val_main_v84 (F := Ideal) (a1 m c) :=
      (same main_v18 (by decide)).trans hE.v18
    have e21 : ∀ k q : Fin 64, (StableHlo.after (hostOps3 (F := Ideal)) W (Proc.devRef .tc main_v21) : S64x64.Idx → EReal) (ix2 k q)
        = ((a13 m c) : S128x64.Idx → EReal) (ix2 ⟨k.val, by have := k.isLt; omega⟩ q) :=
      fun k q => (congrFun (same main_v21 (by decide)) (ix2 k q)).trans (hE.v21 k q)
    have e22 : ∀ k q : Fin 64, (StableHlo.after (hostOps3 (F := Ideal)) W (Proc.devRef .tc main_v22) : S64x64.Idx → EReal) (ix2 k q)
        = ((a13 m c) : S128x64.Idx → EReal) (ix2 ⟨k.val + 64, by have := k.isLt; omega⟩ q) :=
      fun k q => (congrFun (same main_v22 (by decide)) (ix2 k q)).trans (hE.v22 k q)
    -- row by row, both sides are the row specification of the same operand rows
    funext i
    obtain ⟨r, q, rfl⟩ : ∃ (r : Fin 100000) (q : Fin 64), i = ix2 r q := ⟨i 0, i 1, eq_ix2 i⟩
    refine (congrFun hout (ix2 r q)).trans ?_
    refine (final3 (VW (StableHlo.after (hostOps3 (F := Ideal)) W)) c r q).trans ?_
    rw [Cert.ReferenceIdeal.RefRows.row_v117, ← Cert.Spec.updRow_eq_updRowCat]
    exact updRow_congr (funext fun k => congrFun e7 (ix2 r k)) (funext fun k => congrFun (host3_v35 m c W hE) (ix2 r k))
      (congrFun e18 (ix2 r 0)) (funext fun k => funext fun q' => e21 k q') (funext fun k => funext fun q' => e22 k q')
      (funext (host3_v36 m c W hE)) (funext (host3_v37 m c W hE)) (funext (host3_v38 m c W hE)) rfl

end Cert.KernelIdeal.Gen

end
-- ==== Proof.KI.Val4.lean ====
import proofs.«178696_j1468878815658_2_alg».proof.Proof.KI.Val2

noncomputable section

namespace Cert.KernelIdeal.Gen.Val

open Idealize.ShloMosaic Idealize.ShloMosaic.ValueIdx Cert.KernelIdeal Cert.KernelIdeal.Gen
open Cert.KernelIdeal.Facts₀

/-- Region 4's stored value at row `r`, over the extended reals, is the row specification of row `r` of its
    row-tiled inputs and the whole weights: its payload is region 2's, operation for operation. -/
theorem out4_apply (xs e : Vec Ideal S8192x64 .bf16) (ws we : Vec Ideal S64x64 .f32) (b : Vec Ideal S1x64 .f32) (r : Fin 8192) (q : Fin 64) :
    out4 xs e ws we b (ix2 r q)
      = Cert.Spec.msgRow (fun k : Fin 64 => xs (ix2 r k)) (fun k : Fin 64 => e (ix2 r k)) (fun (k : Fin 64) (q' : Fin 64) => ws (ix2 k q')) (fun (k : Fin 64) (q' : Fin 64) => we (ix2 k q')) (fun q' : Fin 64 => b (ix2 0 q')) q :=
  out2_apply xs e ws we b r q

end Cert.KernelIdeal.Gen.Val

end
-- ==== Proof.KI.Loc4.lean ====
import proofs.«178696_j1468878815658_2_alg».proof.Proof.KI.Val4

noncomputable section

namespace Cert.KernelIdeal.Gen.Val

open Idealize.ShloMosaic Idealize.ShloMosaic.ValueIdx Cert.KernelIdeal Cert.KernelIdeal.Gen
open Cert.KernelIdeal.Facts₀

/-- Region 4's stored row `r` depends on the two row-tiled blocks through their rows `r` alone. -/
theorem out4_congr_row (xs xs' e e' : Vec Ideal S8192x64 .bf16) (ws we : Vec Ideal S64x64 .f32) (b : Vec Ideal S1x64 .f32) (r : Fin 8192)
    (h1 : ∀ k : Fin 64, xs (ix2 r k) = xs' (ix2 r k)) (h2 : ∀ k : Fin 64, e (ix2 r k) = e' (ix2 r k)) (q : Fin 64) :
    out4 xs e ws we b (ix2 r q) = out4 xs' e' ws we b (ix2 r q) := by
  rw [out4_apply, out4_apply]
  exact congrArg₂ (fun row row' => Cert.Spec.msgRow row row' _ _ _ q) (funext h1) (funext h2)

end Cert.KernelIdeal.Gen.Val

end
-- ==== Proof.KI.Cut4.lean ====
import proofs.«178696_j1468878815658_2_alg».proof.Proof.KI.Loc4
import proofs.«178696_j1468878815658_2_alg».proof.Proof.Gen.KernelIdeal.Launch
import proofs.«178696_j1468878815658_2_alg».proof.Proof.Gen.KernelIdeal.Points
import Idealize.ShloMosaic.Lib.Pipeline.Kit

noncomputable section

namespace Cert.KernelIdeal.Gen.Val

open Idealize.ShloMosaic Idealize.ShloMosaic.ValueIdx Cert.KernelIdeal Cert.KernelIdeal.Gen
open Idealize.ShloMosaic.Pipeline (Window)

/-- Two fillings of a block with the same moved part agree at every index the transfer moves. -/
private theorem fill_congr_of_moved {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill
  rw [dif_pos h, dif_pos h]

/-- The two row-tiled input blocks and the stored block are cut alike on the row axis: one row index map, one block
    height, one array height. -/
theorem xsize4_row0 (i : grid4.Coords) : (cfg4.win 0).xsize i (0 : Fin 2) = (cfg4.win 5).xsize i (0 : Fin 2) := rfl
theorem xsize4_row1 (i : grid4.Coords) : (cfg4.win 1).xsize i (0 : Fin 2) = (cfg4.win 5).xsize i (0 : Fin 2) := rfl
/-- On the column axis neither input block is cut. -/
theorem xsize4_col0 (i : grid4.Coords) : (cfg4.win 0).xsize i (1 : Fin 2) = 64 := rfl
theorem xsize4_col1 (i : grid4.Coords) : (cfg4.win 1).xsize i (1 : Fin 2) = 64 := rfl

/-- The part of region 4's stored block that the write-back moves does not depend on what the two row-tiled input
    blocks hold past the parts their fetches moved. -/
theorem cut_out4_fill (t : Fin cfg4.N)
    (d0 d0' : (cfg4.win 0).block.Idx → Elt Ideal (cfg4.win 0).elt) (b0 : ((cfg4.win 0).xblock (cfg4.grid.coords t)).Idx → Elt Ideal (cfg4.win 0).elt)
    (d1 d1' : (cfg4.win 1).block.Idx → Elt Ideal (cfg4.win 1).elt) (b1 : ((cfg4.win 1).xblock (cfg4.grid.coords t)).Idx → Elt Ideal (cfg4.win 1).elt)
    (ws : Vec Ideal S64x64 .f32) (we : Vec Ideal S64x64 .f32) (b : Vec Ideal S1x64 .f32) :
    (cfg4.win 5).cut (cfg4.grid.coords t) (out4 ((cfg4.win 0).fill (cfg4.grid.coords t) d0 b0) ((cfg4.win 1).fill (cfg4.grid.coords t) d1 b1) ws we b)
      = (cfg4.win 5).cut (cfg4.grid.coords t) (out4 ((cfg4.win 0).fill (cfg4.grid.coords t) d0' b0) ((cfg4.win 1).fill (cfg4.grid.coords t) d1' b1) ws we b) := by
  funext j
  -- the moved index `j` of the stored block is row `r`, column `q` of the block
  have hr : (j (0 : Fin 2)).val < 8192 := Nat.lt_of_lt_of_le (j (0 : Fin 2)).isLt ((cfg4.win 5).xsize_le (cfg4.grid.coords t) (0 : Fin 2))
  have hq : (j (1 : Fin 2)).val < 64 := Nat.lt_of_lt_of_le (j (1 : Fin 2)).isLt ((cfg4.win 5).xsize_le (cfg4.grid.coords t) (1 : Fin 2))
  have hj : (cfg4.win 5).xinj (cfg4.grid.coords t) j = ix2 (⟨(j (0 : Fin 2)).val, hr⟩ : Fin 8192) (⟨(j (1 : Fin 2)).val, hq⟩ : Fin 64) :=
    funext fun a => match a with | ⟨0, _⟩ => rfl | ⟨1, _⟩ => rfl
  show out4 _ _ ws we b ((cfg4.win 5).xinj (cfg4.grid.coords t) j) = out4 _ _ ws we b ((cfg4.win 5).xinj (cfg4.grid.coords t) j)
  rw [hj]
  -- row `r` of the output reads row `r` of each input alone, and that row lies in the part each fetch moved
  refine out4_congr_row _ _ _ _ ws we b ⟨(j (0 : Fin 2)).val, hr⟩ (fun k => ?_) (fun k => ?_) ⟨(j (1 : Fin 2)).val, hq⟩
  · refine fill_congr_of_moved (cfg4.win 0) (cfg4.grid.coords t) d0 d0' b0 _ (((cfg4.win 0).moved_iff (cfg4.grid.coords t) _).mpr fun a => ?_)
    match a with
    | ⟨0, _⟩ => exact lt_of_lt_of_eq (j (0 : Fin 2)).isLt (xsize4_row0 (cfg4.grid.coords t)).symm
    | ⟨1, _⟩ => exact lt_of_lt_of_eq k.isLt (xsize4_col0 (cfg4.grid.coords t)).symm
  · refine fill_congr_of_moved (cfg4.win 1) (cfg4.grid.coords t) d1 d1' b1 _ (((cfg4.win 1).moved_iff (cfg4.grid.coords t) _).mpr fun a => ?_)
    match a with
    | ⟨0, _⟩ => exact lt_of_lt_of_eq (j (0 : Fin 2)).isLt (xsize4_row1 (cfg4.grid.coords t)).symm
    | ⟨1, _⟩ => exact lt_of_lt_of_eq k.isLt (xsize4_col1 (cfg4.grid.coords t)).symm

end Cert.KernelIdeal.Gen.Val

end
-- ==== Proof.KI.Named4.lean ====
import proofs.«178696_j1468878815658_2_alg».proof.Proof.KI.Obl4
import proofs.«178696_j1468878815658_2_alg».proof.Proof.KI.Cut4

/-!
  Region 4's body obligation over the extended reals with EVERY window named. The output's staging buffer is stated on
  the rows inside the array only; there what the body stores does not depend on the words the clipped fetch left in the
  rest of the input buffers, because a stored row is a function of the same row of each row-tiled input alone.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Idealize.ShloMosaic.Ideal) ((c : Thread nD τ).loc b))

theorem body_obligation4_named (c : Dev nD) :
    BodyObligationLoose (dat4 (F := Idealize.ShloMosaic.Ideal) V c) (defs₀ (F := Idealize.ShloMosaic.Ideal)) Variants.none () Set.univ := fun t => by
  rw [bigSep_W4, bigSep_W4]
  simp only
  rw [show (dat4 V c).Φ t.succ = (dat4 V c).Φ t.castSucc from rfl,
    show (dat4 V c).owesAt () t.succ = (dat4 V c).owesAt () t.castSucc from rfl]
  iintro ⟨HΦ, Ho, ⟨%d0, H0⟩, ⟨%d1, H1⟩, ⟨%d2, H2⟩, ⟨%d3, H3⟩, ⟨%d4, H4⟩, ⟨%dO, HX⟩⟩
  rw [before4_0 V c t d0, before4_1 V c t d1, before4_2 V c t d2, before4_3 V c t d3, before4_4 V c t d4]
  iapply (sound_kernel4 (F := Idealize.ShloMosaic.Ideal) c Set.univ (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) ((cfg4.win 0).fill (cfg4.grid.coords t) d0 (iblk4 V c 0 t)) ((cfg4.win 1).fill (cfg4.grid.coords t) d1 (iblk4 V c 1 t)) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [HX]; · iexists _; iexact HX
  iintro ⟨H0, H1, H2, H3, H4, HX⟩
  isplitl [HΦ]; · iexact HΦ
  isplitl [Ho]; · iexact Ho
  isplitl [H0]
  · iexists d0
    rw [after4_0]; unfold fblk4; rw [(cfg4.win 0).cut_fill]; iexact H0
  isplitl [H1]
  · iexists d1
    rw [after4_1]; unfold fblk4; rw [(cfg4.win 1).cut_fill]; iexact H1
  isplitl [H2]
  · rw [after4_2]; iexact H2
  isplitl [H3]
  · rw [after4_3]; iexact H3
  isplitl [H4]
  · rw [after4_4]; iexact H4
  iexists (out4 ((cfg4.win 0).fill (cfg4.grid.coords t) d0 (iblk4 V c 0 t)) ((cfg4.win 1).fill (cfg4.grid.coords t) d1 (iblk4 V c 1 t)) (iblk4 V c 2 t) (iblk4 V c 3 t) (iblk4 V c 4 t))
  rw [after4_5]; unfold fblk4
  rw [(cfg4.win 5).fill_congr_cut (cfg4.grid.coords t) (Val.cut_out4_fill t d0 (fun _ => Classical.arbitrary _) (iblk4 V c 0 t) d1 (fun _ => Classical.arbitrary _) (iblk4 V c 1 t) (iblk4 V c 2 t) (iblk4 V c 3 t) (iblk4 V c 4 t))]
  iexact HX

end Cert.KernelIdeal.Gen

end
-- ==== Proof.KI.Fin4.lean ====
import proofs.«178696_j1468878815658_2_alg».proof.Proof.KI.Dat4
import proofs.«178696_j1468878815658_2_alg».proof.Proof.KI.Val4
import proofs.«178696_j1468878815658_2_alg».proof.Proof.Spec
import Idealize.ShloMosaic.Lib.ValueIdx
import Idealize.ShloMosaic.Lib.Pipeline.Value
import Idealize.ShloMosaic.PureOps.Ideal

/-!
  Region 4's output array after all its write-backs, over the extended reals: at every row it is the row
  specification of that row of the row-tiled entry arrays and of the whole weights. Every point writes its block back,
  cut to the rows inside the array; what it writes is the block of one whole-array function, because the two row-tiled
  inputs and the output share one row index map and are cut alike; and the blocks cover every row.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Final

open Idealize.ShloMosaic.ValueIdx

variable (V : (c : Dev nD) → (b : Ref sig .tc) → Buf (Elt Idealize.ShloMosaic.Ideal) ((c : Thread nD τ).loc b))

/-- The output window's block index at point `t` is `(t, 0)`; its block is cut to the rows left in the array, and
    to all 64 columns. -/
theorem idx_facts4 : ∀ t : Fin cfg4.N, win4_5.index t (0 : Fin 2) = t.val ∧ win4_5.index t (1 : Fin 2) = 0
    ∧ win4_5.xsize (grid4.coords t) (0 : Fin 2) = min 8192 (1000000 - t.val * 8192)
    ∧ win4_5.xsize (grid4.coords t) (1 : Fin 2) = 64 :=
  (by decide +kernel : ∀ t : Fin grid4.N, _)

/-- A message row is a function of its rows, weights, bias and column. -/
private theorem msgRow_congr {xs xs' e e' : Fin 64 → EReal} {ws ws' we we' : Fin 64 → Fin 64 → EReal} {b b' : Fin 64 → EReal} {q q' : Fin 64}
    (h1 : xs = xs') (h2 : e = e') (h3 : ws = ws') (h4 : we = we') (h5 : b = b') (h6 : q = q') :
    Cert.Spec.msgRow xs e ws we b q = Cert.Spec.msgRow xs' e' ws' we' b' q' := by
  subst h1 h2 h3 h4 h5 h6; rfl

/-- What the output array ends holding: at `(r, q)` the message row of row `r` of the two row-tiled entry arrays and
    of the whole weights and bias. -/
def G4 (c : Dev nD) : S1000000x64.Idx → EReal := fun i =>
  Cert.Spec.msgRow (fun k : Fin 64 => (V c main_v50 : S1000000x64.Idx → EReal) (ix2 (⟨(i 0).val, (i 0).isLt⟩ : Fin 1000000) k))
    (fun k : Fin 64 => (V c main_v11 : S1000000x64.Idx → EReal) (ix2 (⟨(i 0).val, (i 0).isLt⟩ : Fin 1000000) k))
    (fun (k : Fin 64) (q' : Fin 64) => (V c main_v40 : S64x64.Idx → EReal) (ix2 k q'))
    (fun (k : Fin 64) (q' : Fin 64) => (V c main_v41 : S64x64.Idx → EReal) (ix2 k q'))
    (fun q' : Fin 64 => (V c main_v51 : S1x64.Idx → EReal) (ix2 0 q')) (⟨(i 1).val, (i 1).isLt⟩ : Fin 64)

/-- The first row-tiled input's filled block at a row `r'` the output's transfer moves is the entry array at the row
    `R` the output's block puts it at: the two windows have one row index map and are cut alike. -/
theorem fblk4_0_apply (c : Dev nD) (t : Fin cfg4.N) (r' : Fin 8192) (k : Fin 64)
    (hr : r'.val < win4_5.xsize (grid4.coords t) (0 : Fin 2)) (R : Fin 1000000) (hR : R.val = win4_5.index t (0 : Fin 2) * 8192 + r'.val) :
    (fblk4 V c 0 t : S8192x64.Idx → EReal) (ix2 r' k) = (V c main_v50 : S1000000x64.Idx → EReal) (ix2 R k) := by
  unfold fblk4
  have e : (ix2 r' k : (cfg4.win 0).block.Idx)
      = (cfg4.win 0).xinj (cfg4.grid.coords t) (fun a => match a with | ⟨0, _⟩ => ⟨r'.val, hr⟩ | ⟨1, _⟩ => ⟨k.val, k.isLt⟩) :=
    funext fun a => match a with | ⟨0, _⟩ => rfl | ⟨1, _⟩ => rfl
  refine (congrArg _ e).trans (((cfg4.win 0).fill_xinj _ _ _ _).trans ?_)
  unfold iblk4
  refine (View.read_apply _ _).trans ?_
  show (V c main_v50 : S1000000x64.Idx → EReal) _ = _
  refine congrArg _ (funext fun a => Fin.ext ?_)
  match a with
  | ⟨0, _⟩ => show win4_0.index t (0 : Fin 2) * 8192 + 1 * r'.val = R.val; rw [hR]; show win4_5.index t (0 : Fin 2) * 8192 + 1 * r'.val = _; omega
  | ⟨1, _⟩ => show 0 * 64 + 1 * k.val = k.val; omega

/-- The second row-tiled input's likewise. -/
theorem fblk4_1_apply (c : Dev nD) (t : Fin cfg4.N) (r' : Fin 8192) (k : Fin 64)
    (hr : r'.val < win4_5.xsize (grid4.coords t) (0 : Fin 2)) (R : Fin 1000000) (hR : R.val = win4_5.index t (0 : Fin 2) * 8192 + r'.val) :
    (fblk4 V c 1 t : S8192x64.Idx → EReal) (ix2 r' k) = (V c main_v11 : S1000000x64.Idx → EReal) (ix2 R k) := by
  unfold fblk4
  have e : (ix2 r' k : (cfg4.win 1).block.Idx)
      = (cfg4.win 1).xinj (cfg4.grid.coords t) (fun a => match a with | ⟨0, _⟩ => ⟨r'.val, hr⟩ | ⟨1, _⟩ => ⟨k.val, k.isLt⟩) :=
    funext fun a => match a with | ⟨0, _⟩ => rfl | ⟨1, _⟩ => rfl
  refine (congrArg _ e).trans (((cfg4.win 1).fill_xinj _ _ _ _).trans ?_)
  unfold iblk4
  refine (View.read_apply _ _).trans ?_
  show (V c main_v11 : S1000000x64.Idx → EReal) _ = _
  refine congrArg _ (funext fun a => Fin.ext ?_)
  match a with
  | ⟨0, _⟩ => show win4_1.index t (0 : Fin 2) * 8192 + 1 * r'.val = R.val; rw [hR]; show win4_5.index t (0 : Fin 2) * 8192 + 1 * r'.val = _; omega
  | ⟨1, _⟩ => show 0 * 64 + 1 * k.val = k.val; omega

/-- A weight window's block is its whole array, at every point. -/
theorem iblk4_2_apply (c : Dev nD) (t : Fin cfg4.N) (k q' : Fin 64) :
    (iblk4 V c 2 t : S64x64.Idx → EReal) (ix2 k q') = (V c main_v40 : S64x64.Idx → EReal) (ix2 k q') := by
  unfold iblk4
  refine (View.read_apply _ _).trans ?_
  show (V c main_v40 : S64x64.Idx → EReal) _ = _
  refine congrArg _ (funext fun a => Fin.ext ?_)
  match a with
  | ⟨0, _⟩ => show 0 * 64 + 1 * k.val = k.val; omega
  | ⟨1, _⟩ => show 0 * 64 + 1 * q'.val = q'.val; omega
theorem iblk4_3_apply (c : Dev nD) (t : Fin cfg4.N) (k q' : Fin 64) :
    (iblk4 V c 3 t : S64x64.Idx → EReal) (ix2 k q') = (V c main_v41 : S64x64.Idx → EReal) (ix2 k q') := by
  unfold iblk4
  refine (View.read_apply _ _).trans ?_
  show (V c main_v41 : S64x64.Idx → EReal) _ = _
  refine congrArg _ (funext fun a => Fin.ext ?_)
  match a with
  | ⟨0, _⟩ => show 0 * 64 + 1 * k.val = k.val; omega
  | ⟨1, _⟩ => show 0 * 64 + 1 * q'.val = q'.val; omega
/-- The bias window's likewise. -/
theorem iblk4_4_apply (c : Dev nD) (t : Fin cfg4.N) (q' : Fin 64) :
    (iblk4 V c 4 t : S1x64.Idx → EReal) (ix2 0 q') = (V c main_v51 : S1x64.Idx → EReal) (ix2 0 q') := by
  unfold iblk4
  refine (View.read_apply _ _).trans ?_
  show (V c main_v51 : S1x64.Idx → EReal) _ = _
  refine congrArg _ (funext fun a => Fin.ext ?_)
  match a with
  | ⟨0, _⟩ => show 0 * 1 + 1 * 0 = 0; omega
  | ⟨1, _⟩ => show 0 * 64 + 1 * q'.val = q'.val; omega

/-- WHAT POINT `t` WRITES BACK is block `t` of `G4`. -/
theorem flushed4_eq (c : Dev nD) (t : Fin cfg4.N) :
    (dat4 (F := Idealize.ShloMosaic.Ideal) V c).flushed 5 t = ((cfg4.win 5).blk t).view.read (Elt Idealize.ShloMosaic.Ideal) (G4 V c) := by
  show (cfg4.win 5).cut (cfg4.grid.coords t) ((dat4 (F := Idealize.ShloMosaic.Ideal) V c).after 5 t) = _
  rw [after4_5]
  funext j
  -- the moved index `j` is row `r'`, column `q'` of the block
  have hr : (j (0 : Fin 2)).val < 8192 := Nat.lt_of_lt_of_le (j (0 : Fin 2)).isLt ((cfg4.win 5).xsize_le (cfg4.grid.coords t) (0 : Fin 2))
  have hq : (j (1 : Fin 2)).val < 64 := Nat.lt_of_lt_of_le (j (1 : Fin 2)).isLt ((cfg4.win 5).xsize_le (cfg4.grid.coords t) (1 : Fin 2))
  have hj : (cfg4.win 5).xinj (cfg4.grid.coords t) j = ix2 (⟨(j (0 : Fin 2)).val, hr⟩ : Fin 8192) (⟨(j (1 : Fin 2)).val, hq⟩ : Fin 64) :=
    funext fun a => match a with | ⟨0, _⟩ => rfl | ⟨1, _⟩ => rfl
  show out4 _ _ _ _ _ ((cfg4.win 5).xinj (cfg4.grid.coords t) j) = _
  rw [hj]
  refine (Val.out4_apply _ _ _ _ _ _ _).trans ?_
  show _ = G4 V c (((cfg4.win 5).blk t).view.emb j)
  unfold G4
  refine msgRow_congr ?_ ?_ ?_ ?_ ?_ ?_
  · exact funext fun k => fblk4_0_apply V c t ⟨(j (0 : Fin 2)).val, hr⟩ k (j (0 : Fin 2)).isLt _ (by
      show win4_5.index t (0 : Fin 2) * 8192 + 1 * (j (0 : Fin 2)).val = win4_5.index t (0 : Fin 2) * 8192 + (j (0 : Fin 2)).val; omega)
  · exact funext fun k => fblk4_1_apply V c t ⟨(j (0 : Fin 2)).val, hr⟩ k (j (0 : Fin 2)).isLt _ (by
      show win4_5.index t (0 : Fin 2) * 8192 + 1 * (j (0 : Fin 2)).val = win4_5.index t (0 : Fin 2) * 8192 + (j (0 : Fin 2)).val; omega)
  · exact funext fun k => funext fun q' => iblk4_2_apply V c t k q'
  · exact funext fun k => funext fun q' => iblk4_3_apply V c t k q'
  · exact funext fun q' => iblk4_4_apply V c t q'
  · refine Fin.ext ?_
    show (j (1 : Fin 2)).val = win4_5.index t (1 : Fin 2) * 64 + 1 * (j (1 : Fin 2)).val
    rw [(idx_facts4 t).2.1]; omega

/-- An index of the array is in point `t`'s block iff each coordinate is in the block's range on its axis. -/
theorem mem_blk4 (t : Fin cfg4.N) (i : S1000000x64.Idx) :
    i ∈ ((cfg4.win 5).blk t).view.set ↔ ∀ a : Fin 2, win4_5.index t a * S8192x64.size a ≤ (i a).val
      ∧ (i a).val < win4_5.index t a * S8192x64.size a + win4_5.xsize (grid4.coords t) a := by
  show i ∈ ((View.whole main_v52).slice (win4_5.rect t)).set ↔ _
  rw [View.set_slice_whole, Rect.mem_set_unit]
  exact Iff.rfl

theorem final4 (c : Dev nD) (r : Fin 1000000) (q : Fin 64) :
    ((dat4 (F := Idealize.ShloMosaic.Ideal) V c).arrAt 5 cfg4.N : S1000000x64.Idx → EReal) (ix2 r q)
      = Cert.Spec.msgRow (fun k : Fin 64 => (V c main_v50 : S1000000x64.Idx → EReal) (ix2 r k)) (fun k : Fin 64 => (V c main_v11 : S1000000x64.Idx → EReal) (ix2 r k)) (fun (k : Fin 64) (q' : Fin 64) => (V c main_v40 : S64x64.Idx → EReal) (ix2 k q')) (fun (k : Fin 64) (q' : Fin 64) => (V c main_v41 : S64x64.Idx → EReal) (ix2 k q')) (fun q' : Fin 64 => (V c main_v51 : S1x64.Idx → EReal) (ix2 0 q')) q := by
  -- the point whose block holds row `r`
  have ht : r.val / 8192 < cfg4.N := by
    show r.val / 8192 < 123
    have := r.isLt; omega
  have hmem : (ix2 r q : S1000000x64.Idx) ∈ ((cfg4.win 5).blk ⟨r.val / 8192, ht⟩).view.set := by
    rw [mem_blk4]
    obtain ⟨e0, e1, e2, e3⟩ := idx_facts4 ⟨r.val / 8192, ht⟩
    intro a
    match a with
    | ⟨0, _⟩ =>
      show win4_5.index ⟨r.val / 8192, ht⟩ (0 : Fin 2) * 8192 ≤ r.val
        ∧ r.val < win4_5.index ⟨r.val / 8192, ht⟩ (0 : Fin 2) * 8192 + win4_5.xsize (grid4.coords ⟨r.val / 8192, ht⟩) (0 : Fin 2)
      rw [e0, e2]
      have := r.isLt
      simp only
      omega
    | ⟨1, _⟩ =>
      show win4_5.index ⟨r.val / 8192, ht⟩ (1 : Fin 2) * 64 ≤ q.val
        ∧ q.val < win4_5.index ⟨r.val / 8192, ht⟩ (1 : Fin 2) * 64 + win4_5.xsize (grid4.coords ⟨r.val / 8192, ht⟩) (1 : Fin 2)
      rw [e1, e3]
      have := q.isLt
      omega
  exact (dat4 (F := Idealize.ShloMosaic.Ideal) V c).arrAt_apply_of_mem 5 (G4 V c) (fun t _ => flushed4_eq V c t) cfg4.N
    ⟨r.val / 8192, ht⟩ (ix2 r q) ht (flush4_5 _) hmem

end Final

end Cert.KernelIdeal.Gen

end
-- ==== Proof.Ref.Row4.lean ====
import proofs.«178696_j1468878815658_2_alg».proof.Proof.Ref.Imports
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.Read

variable (x0 : (⟨S100000x7, .f32⟩ : BufTy).Contents (Elt Ideal)) (x1 : (⟨S2x1000000, .i32⟩ : BufTy).Contents (Elt Ideal))
  (x2 : (⟨S1000000x5, .f32⟩ : BufTy).Contents (Elt Ideal)) (x3 : (⟨S7x64, .f32⟩ : BufTy).Contents (Elt Ideal))
  (x4 x5 x6 : (⟨S64, .f32⟩ : BufTy).Contents (Elt Ideal)) (x7 : (⟨S5x64, .f32⟩ : BufTy).Contents (Elt Ideal))
  (x8 x9 x10 : (⟨S64, .f32⟩ : BufTy).Contents (Elt Ideal)) (x11 : (⟨S128x64, .f32⟩ : BufTy).Contents (Elt Ideal))
  (x12 : (⟨S64, .f32⟩ : BufTy).Contents (Elt Ideal)) (x13 : (⟨S128x64, .f32⟩ : BufTy).Contents (Elt Ideal))
  (x14 x15 x16 : (⟨S64, .f32⟩ : BufTy).Contents (Elt Ideal)) (x17 : (⟨S128x64, .f32⟩ : BufTy).Contents (Elt Ideal))
  (x18 : (⟨S64, .f32⟩ : BufTy).Contents (Elt Ideal)) (x19 : (⟨S128x64, .f32⟩ : BufTy).Contents (Elt Ideal))
  (x20 x21 x22 : (⟨S64, .f32⟩ : BufTy).Contents (Elt Ideal)) (x23 : (⟨S133x64, .f32⟩ : BufTy).Contents (Elt Ideal))
  (x24 : (⟨S64, .f32⟩ : BufTy).Contents (Elt Ideal)) (x25 : (⟨S64x32, .f32⟩ : BufTy).Contents (Elt Ideal))
  (x26 : (⟨S32, .f32⟩ : BufTy).Contents (Elt Ideal)) (x27 : (⟨S32x1, .f32⟩ : BufTy).Contents (Elt Ideal))
  (x28 : (⟨S1, .f32⟩ : BufTy).Contents (Elt Ideal))

/-- The joined array at a row: column `k` of the join of two 64-column arrays is the first array's column `k` below
    64 and the second's column `k - 64` from there on, which is the join of the two rows. -/
theorem row_v125 (r : Fin 1000000) (k : Fin 128) :
    val_main_v125 (F := Ideal) x0 x1 x2 x3 x4 x5 x6 x7 x8 x9 x10 x11 x12 x13 x14 x15 x16 (ix2 r k)
      = Cert.Spec.cat2
          (fun k' : Fin 64 => val_main_v124 (F := Ideal) x0 x1 x2 x3 x4 x5 x6 x7 x8 x9 x10 x11 x12 x13 x14 x15 x16 (ix2 r k'))
          (fun k' : Fin 64 => val_main_v61 (F := Ideal) x2 x7 x8 x9 x10 (ix2 r k')) k := by
  unfold val_main_v125
  generalize val_main_v124 (F := Ideal) x0 x1 x2 x3 x4 x5 x6 x7 x8 x9 x10 x11 x12 x13 x14 x15 x16 = ya
  generalize val_main_v61 (F := Ideal) x2 x7 x8 x9 x10 = yb
  unfold Cert.Spec.cat2
  by_cases h : k.val < 64
  · rw [dif_pos h]
    exact concatenate_pair_apply_left (1 : Fin 2) ya yb _
      (ix2 r k) rfl (ix2 r (⟨k.val, h⟩ : Fin 64))
      (fun b => by match b with | ⟨0, _⟩ => rfl | ⟨1, _⟩ => rfl)
  · rw [dif_neg h]
    have hk := k.isLt
    exact concatenate_pair_apply_right (1 : Fin 2) ya yb _
      (ix2 r k) rfl rfl (ix2 r (⟨k.val - 64, by omega⟩ : Fin 64))
      (fun b hb => by
        match b, hb with
        | ⟨0, _⟩, _ => rfl
        | ⟨1, _⟩, hb => exact absurd rfl hb)
      (by show k.val - 64 + 64 = k.val; omega)

/-- The second message layer of the reference, read at a row: the row specification of that row of the stage's operands. -/
theorem row_v130 (r : Fin 1000000) (q : Fin 64) :
    val_main_v130 (F := Ideal) x0 x1 x2 x3 x4 x5 x6 x7 x8 x9 x10 x11 x12 x13 x14 x15 x16 x17 x18 (ix2 r q)
      = Cert.Spec.msgRowCat (fun k : Fin 64 => val_main_v124 (F := Ideal) x0 x1 x2 x3 x4 x5 x6 x7 x8 x9 x10 x11 x12 x13 x14 x15 x16 (ix2 r k)) (fun k : Fin 64 => val_main_v61 (F := Ideal) x2 x7 x8 x9 x10 (ix2 r k)) (fun (k : Fin 128) (q' : Fin 64) => x17 (ix2 k q')) (fun q' : Fin 64 => x18 (ix1 q')) q := by
  have el : ∀ k : Fin 128, lidx_main_v126 (ix2 r q) k = ix2 r k := fun k =>
    funext fun a => Fin.ext (by match a with | ⟨0, _⟩ => rfl | ⟨1, _⟩ => rfl)
  have er : ∀ k : Fin 128, ridx_main_v126 (ix2 r q) k = ix2 k q := fun k =>
    funext fun a => Fin.ext (by match a with | ⟨0, _⟩ => rfl | ⟨1, _⟩ => rfl)
  have eb : idx_main_v127 (idx_main_v128 (ix2 r q)) = ix1 q :=
    funext fun a => Fin.ext (by match a with | ⟨0, _⟩ => rfl)
  rw [val_main_v130_apply, val_main_v129_apply, val_main_v126_apply, val_main_v128_apply, val_main_v127_apply,
    val_main_call4_v0_apply, val_main_call4_cst_apply]
  simp only [el, er, eb, row_v125, Ideal.addf_def, Ideal.maximumf_def, Ideal.ofBits_def]
  rfl

end Cert.ReferenceIdeal.RefRows

end
-- ==== Proof.KI.Bridge4.lean ====
import proofs.«178696_j1468878815658_2_alg».proof.Proof.KI.Inv
import proofs.«178696_j1468878815658_2_alg».proof.Proof.KI.Args
import proofs.«178696_j1468878815658_2_alg».proof.Proof.KI.Fin4
import proofs.«178696_j1468878815658_2_alg».proof.Proof.Ref.Row4
import proofs.«178696_j1468878815658_2_alg».proof.Proof.Spec
import proofs.«178696_j1468878815658_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-!
  Host stretch 4 and region 4 of the idealized kernel program, read against the reference: if the buffers' contents
  before them satisfy `E4` (the arguments as launched, the live intermediates equal to the reference's stage values),
  then after them — the region's arrays at whatever contents they may hold after every write-back, nothing forgotten —
  they satisfy `E5`: the region's output array IS the reference's value of the same stage, because row by row both
  are the row specification of the same operand rows (the two spellings of the specification agree), and every other
  live buffer is as it was.
-/

set_option maxRecDepth 16384

noncomputable section

namespace Cert.KernelIdeal.Gen

open Idealize.ShloMosaic Idealize.ShloMosaic.TcCoe Idealize.ShloMosaic.ValueIdx
open Idealize.SL Idealize.SL.Sem

/-! ## Host stretch 4: the buffers it writes, as terms over the contents it finds -/

section Host
variable {F : FTy → Type} [FloatOps F]

/-- The two halves of the second message layer's weights, and of the second update layer's. -/
theorem after4_v40 (W : Valuation τ sig (Elt F)) :
    (StableHlo.after (hostOps4 (F := F)) W (Proc.devRef .tc main_v40) : (⟨S64x64, .f32⟩ : BufTy).Contents (Elt F))
      = extractStridedSlice S64x64 ![0, 0] (W (Proc.devRef .tc main_arg17)) slices_S128x64_S64x64_0_0 := by
  after_results
theorem after4_v41 (W : Valuation τ sig (Elt F)) :
    (StableHlo.after (hostOps4 (F := F)) W (Proc.devRef .tc main_v41) : (⟨S64x64, .f32⟩ : BufTy).Contents (Elt F))
      = extractStridedSlice S64x64 ![64, 0] (W (Proc.devRef .tc main_arg17)) slices_S128x64_S64x64_64_0 := by
  after_results
theorem after4_v42 (W : Valuation τ sig (Elt F)) :
    (StableHlo.after (hostOps4 (F := F)) W (Proc.devRef .tc main_v42) : (⟨S64x64, .f32⟩ : BufTy).Contents (Elt F))
      = extractStridedSlice S64x64 ![0, 0] (W (Proc.devRef .tc main_arg19)) slices_S128x64_S64x64_0_0 := by
  after_results
theorem after4_v43 (W : Valuation τ sig (Elt F)) :
    (StableHlo.after (hostOps4 (F := F)) W (Proc.devRef .tc main_v43) : (⟨S64x64, .f32⟩ : BufTy).Contents (Elt F))
      = extractStridedSlice S64x64 ![64, 0] (W (Proc.devRef .tc main_arg19)) slices_S128x64_S64x64_64_0 := by
  after_results

/-- The bias as a row. -/
theorem after4_v51 (W : Valuation τ sig (Elt F)) :
    (StableHlo.after (hostOps4 (F := F)) W (Proc.devRef .tc main_v51) : (⟨S1x64, .f32⟩ : BufTy).Contents (Elt F))
      = shapeCast S1x64 (W (Proc.devRef .tc main_arg18)) shapeCasts_S64_S1x64 := by
  after_results
  rfl

/-- The source index of every edge, a negative one counted from the end, as a column. -/
def srcIdx4 (v1 : (⟨S1000000, .i32⟩ : BufTy).Contents (Elt F)) : (⟨S1000000x1, .i32⟩ : BufTy).Contents (Elt F) :=
  broadcastInDim S1000000x1 ![0] bcast_S1000000_S1000000x1_0
    (select (cmpi .slt v1 (broadcastInDim S1000000 ![] bcast_S_S1000000 (constantI S_ 32 0#32)))
      (addi v1 (broadcastInDim S1000000 ![] bcast_S_S1000000 (constantI S_ 32 100000#32))) v1)

/-- The gathered source rows: the once-updated nodes at the source indices. -/
theorem after4_v50 (W : Valuation τ sig (Elt F)) :
    (StableHlo.after (hostOps4 (F := F)) W (Proc.devRef .tc main_v50) : (⟨S1000000x64, .bf16⟩ : BufTy).Contents (Elt F))
      = Host.gather gather_S100000x64_S1000000x1_S1000000x64_1_0_n_n_0_1_164 (W (Proc.devRef .tc main_v39))
          (srcIdx4 (F := F) (W (Proc.devRef .tc main_v1))) := by
  unfold srcIdx4
  after_results_simp

/-- The reference gathers its once-updated nodes at the same indices of its first index row. -/
theorem ref_v124 (x0 : (⟨S100000x7, .f32⟩ : BufTy).Contents (Elt F)) (x1 : (⟨S2x1000000, .i32⟩ : BufTy).Contents (Elt F))
    (x2 : (⟨S1000000x5, .f32⟩ : BufTy).Contents (Elt F)) (x3 : (⟨S7x64, .f32⟩ : BufTy).Contents (Elt F))
    (x4 x5 x6 : (⟨S64, .f32⟩ : BufTy).Contents (Elt F)) (x7 : (⟨S5x64, .f32⟩ : BufTy).Contents (Elt F))
    (x8 x9 x10 : (⟨S64, .f32⟩ : BufTy).Contents (Elt F)) (x11 : (⟨S128x64, .f32⟩ : BufTy).Contents (Elt F))
    (x12 : (⟨S64, .f32⟩ : BufTy).Contents (Elt F)) (x13 : (⟨S128x64, .f32⟩ : BufTy).Contents (Elt F))
    (x14 x15 x16 : (⟨S64, .f32⟩ : BufTy).Contents (Elt F)) :
    Cert.ReferenceIdeal.Read.val_main_v124 (F := F) x0 x1 x2 x3 x4 x5 x6 x7 x8 x9 x10 x11 x12 x13 x14 x15 x16
      = Host.gather gather_S100000x64_S1000000x1_S1000000x64_1_0_n_n_0_1_164
          (Cert.ReferenceIdeal.Read.val_main_v117 (F := F) x0 x1 x2 x3 x4 x5 x6 x7 x8 x9 x10 x11 x12 x13 x14 x15 x16)
          (srcIdx4 (F := F) (Cert.ReferenceIdeal.Read.val_main_v1 (F := F) x1)) := by
  unfold Cert.ReferenceIdeal.Read.val_main_v124 Cert.ReferenceIdeal.Read.val_main_v123 Cert.ReferenceIdeal.Read.val_main_v122
    Cert.ReferenceIdeal.Read.val_main_v121 Cert.ReferenceIdeal.Read.val_main_v120 Cert.ReferenceIdeal.Read.val_main_v119
    Cert.ReferenceIdeal.Read.val_main_v118 Cert.ReferenceIdeal.Read.val_main_c_19 Cert.ReferenceIdeal.Read.val_main_c_20 srcIdx4
  generalize Cert.ReferenceIdeal.Read.val_main_v117 (F := F) x0 x1 x2 x3 x4 x5 x6 x7 x8 x9 x10 x11 x12 x13 x14 x15 x16 = y
  generalize Cert.ReferenceIdeal.Read.val_main_v1 (F := F) x1 = z
  rfl

end Host

/-! ## The stage's value from its operands -/

section Core

/-- A message row is a function of its rows, weights, bias and column. -/
private theorem msgRow_congr {xs xs' e e' : Fin 64 → EReal} {ws ws' we we' : Fin 64 → Fin 64 → EReal} {b b' : Fin 64 → EReal} {q q' : Fin 64}
    (h1 : xs = xs') (h2 : e = e') (h3 : ws = ws') (h4 : we = we') (h5 : b = b') (h6 : q = q') :
    Cert.Spec.msgRow xs e ws we b q = Cert.Spec.msgRow xs' e' ws' we' b' q' := by
  subst h1 h2 h3 h4 h5 h6; rfl

/-- A half of a stacked weight matrix, read at `(k, q)`, is the matrix at row `k` plus the half's offset. -/
theorem half_lo4_apply (X : S128x64.Idx → EReal) (k q : Fin 64) :
    extractStridedSlice S64x64 ![0, 0] X slices_S128x64_S64x64_0_0 (ix2 k q) = X (ix2 (⟨k.val, by have := k.isLt; omega⟩ : Fin 128) q) :=
  slice2_axis0_apply 0 X slices_S128x64_S64x64_0_0 k q _ (Nat.zero_add _).symm
theorem half_hi4_apply (X : S128x64.Idx → EReal) (k q : Fin 64) :
    extractStridedSlice S64x64 ![64, 0] X slices_S128x64_S64x64_64_0 (ix2 k q) = X (ix2 (⟨k.val + 64, by have := k.isLt; omega⟩ : Fin 128) q) :=
  slice2_axis0_apply 64 X slices_S128x64_S64x64_64_0 k q _ (Nat.add_comm _ _)

/-- The second message layer: the kernel's row specification of the gathered rows, the encoded edges, the two halves of
    the weights and the bias row IS the reference's stage at that row. -/
theorem msg2_core (x0 : S100000x7.Idx → EReal) (x1 : (⟨S2x1000000, .i32⟩ : BufTy).Contents (Elt Ideal)) (x2 : S1000000x5.Idx → EReal)
    (x3 : S7x64.Idx → EReal) (x4 x5 x6 : S64.Idx → EReal) (x7 : S5x64.Idx → EReal) (x8 x9 x10 : S64.Idx → EReal)
    (x11 : S128x64.Idx → EReal) (x12 : S64.Idx → EReal) (x13 : S128x64.Idx → EReal) (x14 x15 x16 : S64.Idx → EReal)
    (x17 : S128x64.Idx → EReal) (x18 : S64.Idx → EReal)
    (X50 X11 : S1000000x64.Idx → EReal) (X40 X41 : S64x64.Idx → EReal) (X51 : S1x64.Idx → EReal)
    (h50 : X50 = Cert.ReferenceIdeal.Read.val_main_v124 (F := Ideal) x0 x1 x2 x3 x4 x5 x6 x7 x8 x9 x10 x11 x12 x13 x14 x15 x16)
    (h11 : X11 = Cert.ReferenceIdeal.Read.val_main_v61 (F := Ideal) x2 x7 x8 x9 x10)
    (h40 : X40 = extractStridedSlice S64x64 ![0, 0] x17 slices_S128x64_S64x64_0_0)
    (h41 : X41 = extractStridedSlice S64x64 ![64, 0] x17 slices_S128x64_S64x64_64_0)
    (h51 : X51 = shapeCast S1x64 x18 shapeCasts_S64_S1x64) (r : Fin 1000000) (q : Fin 64) :
    Cert.Spec.msgRow (fun k : Fin 64 => X50 (ix2 r k)) (fun k : Fin 64 => X11 (ix2 r k)) (fun (k : Fin 64) (q' : Fin 64) => X40 (ix2 k q'))
        (fun (k : Fin 64) (q' : Fin 64) => X41 (ix2 k q')) (fun q' : Fin 64 => X51 (ix2 0 q')) q
      = Cert.ReferenceIdeal.Read.val_main_v130 (F := Ideal) x0 x1 x2 x3 x4 x5 x6 x7 x8 x9 x10 x11 x12 x13 x14 x15 x16 x17 x18 (ix2 r q) := by
  rw [Cert.ReferenceIdeal.RefRows.row_v130, ← Cert.Spec.msgRow_eq_msgRowCat]
  subst h50 h11 h40 h41 h51
  refine msgRow_congr rfl rfl ?_ ?_ ?_ rfl
  · exact funext fun k => funext fun q' => half_lo4_apply x17 k q'
  · exact funext fun k => funext fun q' => half_hi4_apply x17 k q'
  · exact funext fun q' => shapeCast_a_1a_apply x18 shapeCasts_S64_S1x64 0 q'

end Core

/-! ## The bridge -/

theorem bridge4 (m : (ℓ : Loc nD τ sig) → Buf (Elt Ideal) ℓ) (c : Dev nD) (W : Valuation τ sig (Elt Ideal))
    (hE : E4 m c W)
    (A : (w : Fin cfg4.W) → Buf (Elt Ideal) ((cfg4.win w).arr.view.loc (c : Thread nD τ)))
    (hA : ∀ w, (rdat4 (F := Ideal) (StableHlo.after (hostOps4 (F := Ideal)) W) (fun _ => false) c).ArrAt w cfg4.N (A w)) :
    E5 m c (Pipeline.withArrays spec4 c (StableHlo.after (hostOps4 (F := Ideal)) W) A) := by
  -- a buffer the host stretch does not write is as before it; a buffer other than the region's output is as after it
  have hW : ∀ b : Ref sig .tc, b ∉ hostOps4_W →
      StableHlo.after (hostOps4 (F := Ideal)) W (Proc.devRef .tc b) = W (Proc.devRef .tc b) :=
    fun b hb => StableHlo.after_of_writes_sub hostOps4 W hostOps4_writes hb
  have hne : ∀ b : Ref sig .tc, b ≠ main_v52 →
      Pipeline.withArrays spec4 c (StableHlo.after (hostOps4 (F := Ideal)) W) A (Proc.devRef .tc b)
        = StableHlo.after (hostOps4 (F := Ideal)) W (Proc.devRef .tc b) :=
    fun b hb => withArrays4_of_ne_out _ _ c A hA b hb
  -- the arguments the stretch reads
  have ha17 : W (Proc.devRef .tc main_arg17) = a17 m c := hE.args main_arg17 (by decide)
  have ha18 : W (Proc.devRef .tc main_arg18) = a18 m c := hE.args main_arg18 (by decide)
  have ha19 : W (Proc.devRef .tc main_arg19) = a19 m c := hE.args main_arg19 (by decide)
  refine ⟨?_, ?_, ?_, ?_, ?_, ?_, ?_, ?_⟩
  · -- the arguments
    exact argsOf_region4 m _ _ c (argsOf_host4 m c W hE.args) A hA
  · exact (hne main_v1 (by decide)).trans ((hW main_v1 (by decide)).trans hE.v1)
  · exact (hne main_v3 (by decide)).trans ((hW main_v3 (by decide)).trans hE.v3)
  · exact (hne main_v18 (by decide)).trans ((hW main_v18 (by decide)).trans hE.v18)
  · exact (hne main_v39 (by decide)).trans ((hW main_v39 (by decide)).trans hE.v39)
  · -- the first half of the second update layer's weights
    intro k q
    refine (congrFun ((hne main_v42 (by decide)).trans (after4_v42 (F := Ideal) W)) (ix2 k q)).trans ?_
    rw [ha19]
    exact slice2_axis0_apply 0 (a19 m c : S128x64.Idx → EReal) slices_S128x64_S64x64_0_0 k q _ (Nat.add_comm _ _)
  · -- the second half
    intro k q
    refine (congrFun ((hne main_v43 (by decide)).trans (after4_v43 (F := Ideal) W)) (ix2 k q)).trans ?_
    rw [ha19]
    exact slice2_axis0_apply 64 (a19 m c : S128x64.Idx → EReal) slices_S128x64_S64x64_64_0 k q _ (Nat.add_comm _ _)
  · -- the region's output: row by row the row specification of its operands, which is the reference's stage
    have hout : Pipeline.withArrays spec4 c (StableHlo.after (hostOps4 (F := Ideal)) W) A (Proc.devRef .tc main_v52) = A 5 :=
      Pipeline.withArrays_arr spec4 launch4.win.arr_inj c _ A 5
    have hA5 : A 5 = (dat4 (F := Ideal) (VW (StableHlo.after (hostOps4 (F := Ideal)) W)) c).arrAt 5 cfg4.N :=
      (Pipeline.Dat.toRForget_arrAt_iff (dat := dat4 (F := Ideal) (VW (StableHlo.after (hostOps4 (F := Ideal)) W)) c)
        (fgt := fun _ => false) (w := 5) rfl cfg4.N (A 5)).mp (hA 5)
    -- the operands as the region finds them
    have h50 : (StableHlo.after (hostOps4 (F := Ideal)) W (Proc.devRef .tc main_v50) : S1000000x64.Idx → EReal)
        = Cert.ReferenceIdeal.Read.val_main_v124 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := by
      refine (after4_v50 (F := Ideal) W).trans ?_
      rw [ref_v124 (F := Ideal), ← hE.v1, ← hE.v39]
    have h11 : (StableHlo.after (hostOps4 (F := Ideal)) W (Proc.devRef .tc main_v11) : S1000000x64.Idx → EReal)
        = Cert.ReferenceIdeal.Read.val_main_v61 (F := Ideal) (a2 m c) (a7 m c) (a8 m c) (a9 m c) (a10 m c) :=
      (hW main_v11 (by decide)).trans hE.v11
    have h40 : (StableHlo.after (hostOps4 (F := Ideal)) W (Proc.devRef .tc main_v40) : S64x64.Idx → EReal)
        = extractStridedSlice S64x64 ![0, 0] (a17 m c : S128x64.Idx → EReal) slices_S128x64_S64x64_0_0 := by
      rw [← ha17]; exact after4_v40 (F := Ideal) W
    have h41 : (StableHlo.after (hostOps4 (F := Ideal)) W (Proc.devRef .tc main_v41) : S64x64.Idx → EReal)
        = extractStridedSlice S64x64 ![64, 0] (a17 m c : S128x64.Idx → EReal) slices_S128x64_S64x64_64_0 := by
      rw [← ha17]; exact after4_v41 (F := Ideal) W
    have h51 : (StableHlo.after (hostOps4 (F := Ideal)) W (Proc.devRef .tc main_v51) : S1x64.Idx → EReal)
        = shapeCast S1x64 (a18 m c : S64.Idx → EReal) shapeCasts_S64_S1x64 := by
      rw [← ha18]; exact after4_v51 (F := Ideal) W
    refine hout.trans (hA5.trans ?_)
    funext i
    rw [eq_ix2 i]
    refine (final4 (VW (StableHlo.after (hostOps4 (F := Ideal)) W)) c (i 0) (i 1)).trans ?_
    exact msg2_core (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)
      _ _ _ _ _ h50 h11 h40 h41 h51 (i 0) (i 1)

end Cert.KernelIdeal.Gen

end
-- ==== Proof.KI.Val5.lean ====
import proofs.«178696_j1468878815658_2_alg».proof.Proof.KI.Outs
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Val

open Idealize.ShloMosaic Idealize.ShloMosaic.ValueIdx Cert.KernelIdeal Cert.KernelIdeal.Gen

/-! Two keep-dims layout operations, and the lane sum, read at an index given by coordinates. -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, row `p`'s one entry. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the lanes of an `[a, b]` array, at row `r`: the sum over `k` of the row's entries. -/
private theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun c => Fin.ext ?_)
  match c with
  | ⟨0, _⟩ => rfl
  | ⟨1, _⟩ => rfl

/-! The dot `[4096, 64] × [64, 64]`: its operand indices, axis by axis. -/

private theorem lhs_d64_0 (i : S4096x64.Idx) (c : dot_S4096x64_S64x64_S4096x64_1_0_0_1_n_n.contr.Idx) :
    (dot_S4096x64_S64x64_S4096x64_1_0_0_1_n_n.lhsIdx i c 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
private theorem lhs_d64_1 (i : S4096x64.Idx) (c : dot_S4096x64_S64x64_S4096x64_1_0_0_1_n_n.contr.Idx) :
    (dot_S4096x64_S64x64_S4096x64_1_0_0_1_n_n.lhsIdx i c 1).val = (c ⟨0, by decide⟩).val :=
  dot_S4096x64_S64x64_S4096x64_1_0_0_1_n_n.lhsIdx_val_of_single rfl i c
private theorem rhs_d64_0 (i : S4096x64.Idx) (c : dot_S4096x64_S64x64_S4096x64_1_0_0_1_n_n.contr.Idx) :
    (dot_S4096x64_S64x64_S4096x64_1_0_0_1_n_n.rhsIdx i c 0).val = (c ⟨0, by decide⟩).val :=
  dot_S4096x64_S64x64_S4096x64_1_0_0_1_n_n.rhsIdx_val_of_single rfl i c
private theorem rhs_d64_1 (i : S4096x64.Idx) (c : dot_S4096x64_S64x64_S4096x64_1_0_0_1_n_n.contr.Idx) :
    (dot_S4096x64_S64x64_S4096x64_1_0_0_1_n_n.rhsIdx i c 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The product onto a zero accumulator, at `(r, q)`: the sum over `k` of row `r` of the left operand against
    column `q` of the right one. -/
private theorem mm_d64_apply {φ₁ φ₂ : FTy} (x : FVec Ideal S4096x64 φ₁) (w : FVec Ideal S64x64 φ₂) (r : Fin 4096) (q : Fin 64) :
    matmul dot_S4096x64_S64x64_S4096x64_1_0_0_1_n_n none x w (constant S4096x64 .f32 0x00000000#32) (ix2 r q)
      = ∑ k : Fin 64, x (ix2 r k) * w (ix2 k q) := by
  refine (Ideal.matmul_constant_zero_apply dot_S4096x64_S64x64_S4096x64_1_0_0_1_n_n none x w (ix2 r q)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r q) ((contrEquiv1 dot_S4096x64_S64x64_S4096x64_1_0_0_1_n_n 64 rfl rfl).symm k) = ix2 r k := funext fun a => Fin.ext (by
    match a with
    | ⟨0, _⟩ => exact lhs_d64_0 _ _
    | ⟨1, _⟩ => exact (lhs_d64_1 _ _).trans hk)
  have er : dot_S4096x64_S64x64_S4096x64_1_0_0_1_n_n.rhsIdx (ix2 r q) ((contrEquiv1 dot_S4096x64_S64x64_S4096x64_1_0_0_1_n_n 64 rfl rfl).symm k) = ix2 k q := funext fun a => Fin.ext (by
    match a with
    | ⟨0, _⟩ => exact (rhs_d64_0 _ _).trans hk
    | ⟨1, _⟩ => exact rhs_d64_1 _ _)
  rw [el, er]

/-! ## Region 5: the node update -/

/-- The node rows widened: the format change is the identity. -/
theorem k5_pay2_apply (h : Vec Ideal S4096x64 .bf16) (r : Fin 4096) (q : Fin 64) :
    k5_pay2 h (ix2 r q) = h (ix2 r q) := by
  unfold k5_pay2
  simp only [shapeCast_self]
  rfl

theorem k5_pay4_eq (g : Vec Ideal S1x64 .f32) : k5_pay4 g = g := by
  unfold k5_pay4
  exact shapeCast_self _ _

theorem k5_pay5_eq (β : Vec Ideal S1x64 .f32) : k5_pay5 β = β := by
  unfold k5_pay5
  exact shapeCast_self _ _

/-- The pre-activation at `(r, q)`: row `r` of the node rows against `wh`, row `r` of the mean messages (the summed
    messages over the count) against `wm`, plus the bias. -/
theorem k5_pay3_apply (ms : Vec Ideal S4096x64 .f32) (cnt : Vec Ideal S4096x1 .f32) (h : Vec Ideal S4096x64 .bf16)
    (wh wm : Vec Ideal S64x64 .f32) (b : Vec Ideal S1x64 .f32) (r : Fin 4096) (q : Fin 64) :
    k5_pay3 ms cnt h wh wm b (ix2 r q)
      = ((∑ k : Fin 64, h (ix2 r k) * wh (ix2 k q)) + (∑ k : Fin 64, Ideal.div (ms (ix2 r k)) (cnt (ix2 r 0)) * wm (ix2 k q)))
          + b (ix2 0 q) := by
  unfold k5_pay3
  simp only [shapeCast_self]
  refine (addf_apply _ _ _).trans ?_
  refine congrArg₂ (· + ·) ((addf_apply _ _ _).trans (congrArg₂ (· + ·) ?_ ?_)) ?_
  · exact mm_d64_apply _ _ r q
  · refine (mm_d64_apply _ _ r q).trans (Finset.sum_congr rfl fun k _ => ?_)
    refine congrArg (· * wm (ix2 k q)) ?_
    exact congrArg (Ideal.div (ms (ix2 r k))) (broadcastTo_a1_ab_apply cnt _ r k)
  · exact broadcastTo_1b_ab_apply b _ r q

/-- The reciprocal square root lane by lane. -/
private theorem rsqrt_apply {s : Shape} {φ : FTy} (a : FVec Ideal s φ) (i : s.Idx) : rsqrt a i = Ideal.rsqrt (a i) := rfl

/-- The row mean of the pre-activation: its lane sum over 64. -/
theorem k5_pay6_apply (ms : Vec Ideal S4096x64 .f32) (cnt : Vec Ideal S4096x1 .f32) (h : Vec Ideal S4096x64 .bf16)
    (wh wm : Vec Ideal S64x64 .f32) (b : Vec Ideal S1x64 .f32) (r : Fin 4096) (u : Fin 1) :
    k5_pay6 ms cnt h wh wm b (ix2 r u)
      = Ideal.div (∑ k : Fin 64, k5_pay3 ms cnt h wh wm b (ix2 r k)) Cert.Spec.w64 := by
  unfold k5_pay6
  refine (divf_apply _ _ _).trans ?_
  refine congrArg₂ Ideal.div ?_ rfl
  refine (shapeCast_a_a1_apply _ _ r u).trans ?_
  exact rowSum_apply _ _ _ _ _ r

/-- The squared deviation from the row mean. -/
theorem k5_pay7_apply (ms : Vec Ideal S4096x64 .f32) (cnt : Vec Ideal S4096x1 .f32) (h : Vec Ideal S4096x64 .bf16)
    (wh wm : Vec Ideal S64x64 .f32) (b : Vec Ideal S1x64 .f32) (r : Fin 4096) (q : Fin 64) :
    k5_pay7 ms cnt h wh wm b (ix2 r q)
      = (k5_pay3 ms cnt h wh wm b (ix2 r q) - k5_pay6 ms cnt h wh wm b (ix2 r 0))
          * (k5_pay3 ms cnt h wh wm b (ix2 r q) - k5_pay6 ms cnt h wh wm b (ix2 r 0)) := by
  unfold k5_pay7
  have e : subf (k5_pay3 ms cnt h wh wm b) (broadcastTo S4096x64 (k5_pay6 ms cnt h wh wm b) broadcasts_S4096x1_S4096x64) (ix2 r q)
      = k5_pay3 ms cnt h wh wm b (ix2 r q) - k5_pay6 ms cnt h wh wm b (ix2 r 0) :=
    (subf_apply _ _ _).trans (congrArg (k5_pay3 ms cnt h wh wm b (ix2 r q) - ·) (broadcastTo_a1_ab_apply _ _ r q))
  exact (mulf_apply _ _ _).trans (congrArg₂ (· * ·) e e)

/-- The layer norm, the residual and the ReLU on top of a pre-activation `v24` with row mean `v32` and squared
    deviations `v35`. -/
theorem k5_pay1_apply (v2 v24 : FVec Ideal S4096x64 .f32) (v26 v28 : FVec Ideal S1x64 .f32) (v32 : FVec Ideal S4096x1 .f32)
    (v35 : FVec Ideal S4096x64 .f32) (r : Fin 4096) (q : Fin 64) :
    k5_pay1 v2 v24 v26 v28 v32 v35 (ix2 r q)
      = max ((((v24 (ix2 r q) - v32 (ix2 r 0))
              * Ideal.rsqrt (Ideal.div (∑ k : Fin 64, v35 (ix2 r k)) Cert.Spec.w64 + Cert.Spec.wEps)) * v26 (ix2 0 q)
            + v28 (ix2 0 q)) + v2 (ix2 r q)) Cert.Spec.w0 := by
  unfold k5_pay1
  refine (truncf_apply (φ := .f32) (ψ := .bf16) _ _ _).trans ?_
  refine (maximumf_apply _ _ _).trans (congrArg₂ max ?_ rfl)
  refine (addf_apply _ _ _).trans (congrArg₂ (· + ·) ?_ rfl)
  refine (addf_apply _ _ _).trans (congrArg₂ (· + ·) ?_ (broadcastTo_1b_ab_apply v28 _ r q))
  refine (mulf_apply _ _ _).trans (congrArg₂ (· * ·) ?_ (broadcastTo_1b_ab_apply v26 _ r q))
  refine (mulf_apply _ _ _).trans (congrArg₂ (· * ·) ?_ ?_)
  · exact (subf_apply _ _ _).trans (congrArg (v24 (ix2 r q) - ·) (broadcastTo_a1_ab_apply v32 _ r q))
  · refine (broadcastTo_a1_ab_apply _ _ r q).trans ?_
    refine (rsqrt_apply _ _).trans (congrArg Ideal.rsqrt ?_)
    refine (addf_apply _ _ _).trans (congrArg₂ (· + ·) ?_ rfl)
    refine (divf_apply _ _ _).trans (congrArg₂ Ideal.div ?_ rfl)
    exact (shapeCast_a_a1_apply _ _ r 0).trans (rowSum_apply _ _ _ _ _ r)

/-- Region 5's stored value at row `r`, over the extended reals, is the row specification of row `r` of its
    row-tiled inputs and the whole weights: no other row enters. -/
theorem out5_apply (h : Vec Ideal S4096x64 .bf16) (ms : Vec Ideal S4096x64 .f32) (cnt : Vec Ideal S4096x1 .f32) (wh wm : Vec Ideal S64x64 .f32)
    (b g β : Vec Ideal S1x64 .f32) (r : Fin 4096) (q : Fin 64) :
    out5 h ms cnt wh wm b g β (ix2 r q)
      = Cert.Spec.updRow (fun k : Fin 64 => h (ix2 r k)) (fun k : Fin 64 => ms (ix2 r k)) (cnt (ix2 r 0)) (fun (k : Fin 64) (q' : Fin 64) => wh (ix2 k q')) (fun (k : Fin 64) (q' : Fin 64) => wm (ix2 k q')) (fun q' : Fin 64 => b (ix2 0 q')) (fun q' : Fin 64 => g (ix2 0 q')) (fun q' : Fin 64 => β (ix2 0 q')) q := by
  unfold out5
  refine (k5_pay1_apply _ _ _ _ _ _ r q).trans ?_
  simp only [k5_pay2_apply, k5_pay4_eq, k5_pay5_eq, k5_pay7_apply, k5_pay6_apply, k5_pay3_apply]
  rfl

end Cert.KernelIdeal.Gen.Val

end
-- ==== Proof.KI.Loc5.lean ====
import proofs.«178696_j1468878815658_2_alg».proof.Proof.KI.Val5
import proofs.«178696_j1468878815658_2_alg».proof.Proof.KI.Outs
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Val

open Idealize.ShloMosaic Idealize.ShloMosaic.ValueIdx Cert.KernelIdeal Cert.KernelIdeal.Gen

/-- Row locality of region 5 over the extended reals: the stored row `r` depends on row `r` of the node rows, of the
    summed messages and of the counts only (and on the weights). Both sides are the row specification of the same
    arguments. -/
theorem out5_congr_row (h h' : Vec Ideal S4096x64 .bf16) (ms ms' : Vec Ideal S4096x64 .f32) (cnt cnt' : Vec Ideal S4096x1 .f32) (wh wm : Vec Ideal S64x64 .f32) (b g β : Vec Ideal S1x64 .f32) (r : Fin 4096) (hh : ∀ k : Fin 64, h (ix2 r k) = h' (ix2 r k)) (hm : ∀ k : Fin 64, ms (ix2 r k) = ms' (ix2 r k)) (hc : cnt (ix2 r 0) = cnt' (ix2 r 0)) (q : Fin 64) : out5 h ms cnt wh wm b g β (ix2 r q) = out5 h' ms' cnt' wh wm b g β (ix2 r q) := by
  rw [out5_apply, out5_apply]
  have eh : (fun k : Fin 64 => h (ix2 r k)) = fun k : Fin 64 => h' (ix2 r k) := funext hh
  have em : (fun k : Fin 64 => ms (ix2 r k)) = fun k : Fin 64 => ms' (ix2 r k) := funext hm
  rw [eh, em, hc]

end Cert.KernelIdeal.Gen.Val

end
-- ==== Proof.KI.Cut5.lean ====
import proofs.«178696_j1468878815658_2_alg».proof.Proof.KI.Loc5
import proofs.«178696_j1468878815658_2_alg».proof.Proof.Gen.KernelIdeal.Launch
import proofs.«178696_j1468878815658_2_alg».proof.Proof.Gen.KernelIdeal.Points
import Idealize.ShloMosaic.Lib.Pipeline.Kit

noncomputable section

namespace Cert.KernelIdeal.Gen.Val

open Idealize.ShloMosaic Idealize.ShloMosaic.ValueIdx Cert.KernelIdeal Cert.KernelIdeal.Gen
open Idealize.ShloMosaic.Pipeline (Window)

/-- Two fillings of one moved part agree at every index of the block that is moved, whatever they hold elsewhere. -/
private theorem fill_congr_moved {σ : RefSig} {G : Pipeline.Grid} {α : Type} (w : Window σ G) (i : G.Coords)
    (d d' : w.block.Idx → α) (g : (w.xblock i).Idx → α) (j : w.block.Idx) (h : w.moved i j = true) :
    w.fill i d g j = w.fill i d' g j := by
  unfold Window.fill
  rw [dif_pos h, dif_pos h]

/-! The row-tiled windows of region 5 are cut alike: the three inputs and the output have one row index map, blocks of
    4096 rows and arrays of 100000 rows, so the same rows of a block lie inside the array; no window is cut on its
    columns. -/

theorem xsize5_0_rows (i : grid5.Coords) : (cfg5.win 0).xsize i 0 = (cfg5.win 8).xsize i 0 := rfl
theorem xsize5_1_rows (i : grid5.Coords) : (cfg5.win 1).xsize i 0 = (cfg5.win 8).xsize i 0 := rfl
theorem xsize5_2_rows (i : grid5.Coords) : (cfg5.win 2).xsize i 0 = (cfg5.win 8).xsize i 0 := rfl
theorem xsize5_0_cols (i : grid5.Coords) : (cfg5.win 0).xsize i 1 = 64 := rfl
theorem xsize5_1_cols (i : grid5.Coords) : (cfg5.win 1).xsize i 1 = 64 := rfl
theorem xsize5_2_cols (i : grid5.Coords) : (cfg5.win 2).xsize i 1 = 1 := rfl
theorem xsize5_8_cols (i : grid5.Coords) : (cfg5.win 8).xsize i 1 = 64 := rfl

/-- Region 5's stored block, read on the part of it that lies inside the array, does not depend on what the input
    blocks hold past their arrays' ends: a stored row inside the array is the row specification of the same row of
    each row-tiled input, and that row is inside the input's array too. -/
theorem cut_out5_fill (t : Fin cfg5.N)
    (d0 d0' : (cfg5.win 0).block.Idx → Elt Ideal (cfg5.win 0).elt) (b0 : ((cfg5.win 0).xblock (cfg5.grid.coords t)).Idx → Elt Ideal (cfg5.win 0).elt)
    (d1 d1' : (cfg5.win 1).block.Idx → Elt Ideal (cfg5.win 1).elt) (b1 : ((cfg5.win 1).xblock (cfg5.grid.coords t)).Idx → Elt Ideal (cfg5.win 1).elt)
    (d2 d2' : (cfg5.win 2).block.Idx → Elt Ideal (cfg5.win 2).elt) (b2 : ((cfg5.win 2).xblock (cfg5.grid.coords t)).Idx → Elt Ideal (cfg5.win 2).elt)
    (wh : Vec Ideal S64x64 .f32) (wm : Vec Ideal S64x64 .f32) (b : Vec Ideal S1x64 .f32) (g : Vec Ideal S1x64 .f32) (β : Vec Ideal S1x64 .f32) :
    (cfg5.win 8).cut (cfg5.grid.coords t) (out5 ((cfg5.win 0).fill (cfg5.grid.coords t) d0 b0) ((cfg5.win 1).fill (cfg5.grid.coords t) d1 b1) ((cfg5.win 2).fill (cfg5.grid.coords t) d2 b2) wh wm b g β)
      = (cfg5.win 8).cut (cfg5.grid.coords t) (out5 ((cfg5.win 0).fill (cfg5.grid.coords t) d0' b0) ((cfg5.win 1).fill (cfg5.grid.coords t) d1' b1) ((cfg5.win 2).fill (cfg5.grid.coords t) d2' b2) wh wm b g β) := by
  funext j
  have hr8 : (j 0).val < (cfg5.win 8).xsize (cfg5.grid.coords t) 0 := (j 0).isLt
  have hq8 : (j 1).val < 64 := Nat.lt_of_lt_of_eq (j 1).isLt (xsize5_8_cols (cfg5.grid.coords t))
  have hr : (j 0).val < 4096 := Nat.lt_of_lt_of_le hr8 ((cfg5.win 8).xsize_le (cfg5.grid.coords t) 0)
  have ej : (cfg5.win 8).xinj (cfg5.grid.coords t) j = ix2 (⟨(j 0).val, hr⟩ : Fin 4096) (⟨(j 1).val, hq8⟩ : Fin 64) :=
    funext fun a => Fin.ext (by
      match a with
      | ⟨0, _⟩ => rfl
      | ⟨1, _⟩ => rfl)
  show out5 _ _ _ wh wm b g β ((cfg5.win 8).xinj (cfg5.grid.coords t) j) = out5 _ _ _ wh wm b g β ((cfg5.win 8).xinj (cfg5.grid.coords t) j)
  rw [ej]
  refine out5_congr_row _ _ _ _ _ _ wh wm b g β ⟨(j 0).val, hr⟩ (fun k => ?_) (fun k => ?_) ?_ ⟨(j 1).val, hq8⟩
  · refine fill_congr_moved (cfg5.win 0) _ d0 d0' b0 _ (((cfg5.win 0).moved_iff _ _).mpr fun a => ?_)
    match a with
    | ⟨0, _⟩ => exact Nat.lt_of_lt_of_eq hr8 (xsize5_0_rows (cfg5.grid.coords t)).symm
    | ⟨1, _⟩ => exact Nat.lt_of_lt_of_eq k.isLt (xsize5_0_cols (cfg5.grid.coords t)).symm
  · refine fill_congr_moved (cfg5.win 1) _ d1 d1' b1 _ (((cfg5.win 1).moved_iff _ _).mpr fun a => ?_)
    match a with
    | ⟨0, _⟩ => exact Nat.lt_of_lt_of_eq hr8 (xsize5_1_rows (cfg5.grid.coords t)).symm
    | ⟨1, _⟩ => exact Nat.lt_of_lt_of_eq k.isLt (xsize5_1_cols (cfg5.grid.coords t)).symm
  · refine fill_congr_moved (cfg5.win 2) _ d2 d2' b2 _ (((cfg5.win 2).moved_iff _ _).mpr fun a => ?_)
    match a with
    | ⟨0, _⟩ => exact Nat.lt_of_lt_of_eq hr8 (xsize5_2_rows (cfg5.grid.coords t)).symm
    | ⟨1, _⟩ => exact Nat.lt_of_lt_of_eq Nat.one_pos (xsize5_2_cols (cfg5.grid.coords t)).symm

end Cert.KernelIdeal.Gen.Val

end
-- ==== Proof.KI.Named5.lean ====
import proofs.«178696_j1468878815658_2_alg».proof.Proof.KI.Obl5
import proofs.«178696_j1468878815658_2_alg».proof.Proof.KI.Cut5

/-!
  Region 5's body obligation over the extended reals with EVERY window named. The output's staging buffer is stated on
  the rows inside the array only; there what the body stores does not depend on the words the clipped fetch left in the
  rest of the input buffers, because a stored row is a function of the same row of each row-tiled input alone.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Idealize.ShloMosaic.Ideal) ((c : Thread nD τ).loc b))

theorem body_obligation5_named (c : Dev nD) :
    BodyObligationLoose (dat5 (F := Idealize.ShloMosaic.Ideal) V c) (defs₀ (F := Idealize.ShloMosaic.Ideal)) Variants.none () Set.univ := fun t => by
  rw [bigSep_W5, bigSep_W5]
  simp only
  rw [show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%dO, HX⟩⟩
  rw [before5_0 V c t d0, before5_1 V c t d1, before5_2 V c t d2, before5_3 V c t d3, before5_4 V c t d4, before5_5 V c t d5, before5_6 V c t d6, before5_7 V c t d7]
  iapply (sound_kernel5 (F := Idealize.ShloMosaic.Ideal) c Set.univ (grid5.coords t) (win5_0.stage (cfg5.slots t 0)) (hstage5_0 ((cfg5.slots t 0).cast nbuf5_0)) (win5_1.stage (cfg5.slots t 1)) (hstage5_1 ((cfg5.slots t 1).cast nbuf5_1)) (win5_2.stage (cfg5.slots t 2)) (hstage5_2 ((cfg5.slots t 2).cast nbuf5_2)) (win5_3.stage (cfg5.slots t 3)) (hstage5_3 ((cfg5.slots t 3).cast nbuf5_3)) (win5_4.stage (cfg5.slots t 4)) (hstage5_4 ((cfg5.slots t 4).cast nbuf5_4)) (win5_5.stage (cfg5.slots t 5)) (hstage5_5 ((cfg5.slots t 5).cast nbuf5_5)) (win5_6.stage (cfg5.slots t 6)) (hstage5_6 ((cfg5.slots t 6).cast nbuf5_6)) (win5_7.stage (cfg5.slots t 7)) (hstage5_7 ((cfg5.slots t 7).cast nbuf5_7)) (win5_8.stage (cfg5.slots t 8)) (hstage5_8 ((cfg5.slots t 8).cast nbuf5_8)) ((cfg5.win 0).fill (cfg5.grid.coords t) d0 (iblk5 V c 0 t)) ((cfg5.win 1).fill (cfg5.grid.coords t) d1 (iblk5 V c 1 t)) ((cfg5.win 2).fill (cfg5.grid.coords t) d2 (iblk5 V c 2 t)) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexists _; iexact HX
  iintro ⟨H0, H1, H2, H3, H4, H5, H6, H7, HX⟩
  isplitl [HΦ]; · iexact HΦ
  isplitl [Ho]; · iexact Ho
  isplitl [H0]
  · iexists d0
    rw [after5_0]; unfold fblk5; rw [(cfg5.win 0).cut_fill]; iexact H0
  isplitl [H1]
  · iexists d1
    rw [after5_1]; unfold fblk5; rw [(cfg5.win 1).cut_fill]; iexact H1
  isplitl [H2]
  · iexists d2
    rw [after5_2]; unfold fblk5; rw [(cfg5.win 2).cut_fill]; iexact H2
  isplitl [H3]
  · rw [after5_3]; iexact H3
  isplitl [H4]
  · rw [after5_4]; iexact H4
  isplitl [H5]
  · rw [after5_5]; iexact H5
  isplitl [H6]
  · rw [after5_6]; iexact H6
  isplitl [H7]
  · rw [after5_7]; iexact H7
  iexists (out5 ((cfg5.win 0).fill (cfg5.grid.coords t) d0 (iblk5 V c 0 t)) ((cfg5.win 1).fill (cfg5.grid.coords t) d1 (iblk5 V c 1 t)) ((cfg5.win 2).fill (cfg5.grid.coords t) d2 (iblk5 V c 2 t)) (iblk5 V c 3 t) (iblk5 V c 4 t) (iblk5 V c 5 t) (iblk5 V c 6 t) (iblk5 V c 7 t))
  rw [after5_8]; unfold fblk5
  rw [(cfg5.win 8).fill_congr_cut (cfg5.grid.coords t) (Val.cut_out5_fill t d0 (fun _ => Classical.arbitrary _) (iblk5 V c 0 t) d1 (fun _ => Classical.arbitrary _) (iblk5 V c 1 t) d2 (fun _ => Classical.arbitrary _) (iblk5 V c 2 t) (iblk5 V c 3 t) (iblk5 V c 4 t) (iblk5 V c 5 t) (iblk5 V c 6 t) (iblk5 V c 7 t))]
  iexact HX

end Cert.KernelIdeal.Gen

end
-- ==== Proof.KI.Fin5.lean ====
import proofs.«178696_j1468878815658_2_alg».proof.Proof.KI.Dat5
import proofs.«178696_j1468878815658_2_alg».proof.Proof.KI.Val5
import proofs.«178696_j1468878815658_2_alg».proof.Proof.Spec
import Idealize.ShloMosaic.Lib.ValueIdx
import Idealize.ShloMosaic.Lib.Pipeline.Value

/-!
  Region 5's output array after all its write-backs, over the extended reals: row by row the row specification of the
  entry arrays. Each point writes back the rows of its block that lie inside the array; such a row is the row
  specification of the same row of the input blocks, which read the entry arrays at the block's rows; and the points'
  blocks cover the array.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Final

open Idealize.ShloMosaic.ValueIdx

variable (V : (c : Dev nD) → (b : Ref sig .tc) → Buf (Elt Idealize.ShloMosaic.Ideal) ((c : Thread nD τ).loc b))

/-! ## Where the blocks lie

  The grid is one axis of 25 points; point `t`'s row-tiled blocks are block `t` of their arrays (rows
  `4096 t` onwards, all columns), the weights' one block is the whole array. The last block overhangs the array's
  100000 rows: of its 4096 rows the first `100000 - 4096 t` are moved. -/

/-- The row-tiled windows' block index on the rows is the point's number. -/
theorem index5_row (t : Fin cfg5.N) : (cfg5.win 8).index t 0 = t.val := by
  have ht : t.val < 25 := t.isLt
  show (BitVec.ofNat 32 (t.val / 1 % 25)).toNat = t.val
  rw [BitVec.toNat_ofNat, Nat.div_one, Nat.mod_eq_of_lt ht, Nat.mod_eq_of_lt (by omega)]

/-- How many rows of block `t` lie inside the array. -/
theorem xsize5_row (t : Fin cfg5.N) :
    (cfg5.win 8).xsize (cfg5.grid.coords t) 0 = if (t.val + 1) * 4096 ≤ 100000 then 4096 else 100000 - t.val * 4096 := by
  show (Pipeline.Clip.of ((cfg5.win 8).index t 0) 4096 100000).extent 4096 = _
  rw [index5_row t]
  unfold Pipeline.Clip.of
  split <;> rfl

/-- Row-tiled input window 0: its filled block at a row inside the array reads the entry array at that row of the
    block's rows. -/
theorem fblk5_0_apply (c : Dev nD) (t : Fin cfg5.N) (r' : Fin 4096) (k : Fin 64) (R : Fin 100000)
    (hr : r'.val < (cfg5.win 0).xsize (cfg5.grid.coords t) 0) (hR : R.val = t.val * 4096 + r'.val) :
    fblk5 V c 0 t (ix2 r' k) = (V c main_v39 : S100000x64.Idx → EReal) (ix2 R k) := by
  let j' : ((cfg5.win 0).xblock (cfg5.grid.coords t)).Idx := fun a => match a with
    | ⟨0, _⟩ => ⟨r'.val, hr⟩
    | ⟨1, _⟩ => ⟨k.val, k.isLt⟩
  have e : (ix2 r' k : (cfg5.win 0).block.Idx) = (cfg5.win 0).xinj (cfg5.grid.coords t) j' :=
    funext fun a => Fin.ext (by
      match a with
      | ⟨0, _⟩ => rfl
      | ⟨1, _⟩ => rfl)
  unfold fblk5
  rw [e, Window.fill_xinj]
  show (V c main_v39 : S100000x64.Idx → EReal) (((cfg5.win 0).blk t).view.emb j') = _
  refine congrArg _ (funext fun a => Fin.ext ?_)
  match a with
  | ⟨0, _⟩ =>
    show (cfg5.win 0).index t 0 * 4096 + 1 * r'.val = R.val
    rw [hR, show (cfg5.win 0).index t 0 = t.val from index5_row t]
    omega
  | ⟨1, _⟩ =>
    show (cfg5.win 0).index t 1 * 64 + 1 * k.val = k.val
    rw [show (cfg5.win 0).index t 1 = 0 from rfl]
    omega

/-- Row-tiled input window 1: its filled block at a row inside the array reads the entry array at that row of the
    block's rows. -/
theorem fblk5_1_apply (c : Dev nD) (t : Fin cfg5.N) (r' : Fin 4096) (k : Fin 64) (R : Fin 100000)
    (hr : r'.val < (cfg5.win 1).xsize (cfg5.grid.coords t) 0) (hR : R.val = t.val * 4096 + r'.val) :
    fblk5 V c 1 t (ix2 r' k) = (V c main_v56 : S100000x64.Idx → EReal) (ix2 R k) := by
  let j' : ((cfg5.win 1).xblock (cfg5.grid.coords t)).Idx := fun a => match a with
    | ⟨0, _⟩ => ⟨r'.val, hr⟩
    | ⟨1, _⟩ => ⟨k.val, k.isLt⟩
  have e : (ix2 r' k : (cfg5.win 1).block.Idx) = (cfg5.win 1).xinj (cfg5.grid.coords t) j' :=
    funext fun a => Fin.ext (by
      match a with
      | ⟨0, _⟩ => rfl
      | ⟨1, _⟩ => rfl)
  unfold fblk5
  rw [e, Window.fill_xinj]
  show (V c main_v56 : S100000x64.Idx → EReal) (((cfg5.win 1).blk t).view.emb j') = _
  refine congrArg _ (funext fun a => Fin.ext ?_)
  match a with
  | ⟨0, _⟩ =>
    show (cfg5.win 1).index t 0 * 4096 + 1 * r'.val = R.val
    rw [hR, show (cfg5.win 1).index t 0 = t.val from index5_row t]
    omega
  | ⟨1, _⟩ =>
    show (cfg5.win 1).index t 1 * 64 + 1 * k.val = k.val
    rw [show (cfg5.win 1).index t 1 = 0 from rfl]
    omega

/-- Row-tiled input window 2: its filled block at a row inside the array reads the entry array at that row of the
    block's rows. -/
theorem fblk5_2_apply (c : Dev nD) (t : Fin cfg5.N) (r' : Fin 4096) (k : Fin 1) (R : Fin 100000)
    (hr : r'.val < (cfg5.win 2).xsize (cfg5.grid.coords t) 0) (hR : R.val = t.val * 4096 + r'.val) :
    fblk5 V c 2 t (ix2 r' k) = (V c main_v18 : S100000x1.Idx → EReal) (ix2 R k) := by
  let j' : ((cfg5.win 2).xblock (cfg5.grid.coords t)).Idx := fun a => match a with
    | ⟨0, _⟩ => ⟨r'.val, hr⟩
    | ⟨1, _⟩ => ⟨k.val, k.isLt⟩
  have e : (ix2 r' k : (cfg5.win 2).block.Idx) = (cfg5.win 2).xinj (cfg5.grid.coords t) j' :=
    funext fun a => Fin.ext (by
      match a with
      | ⟨0, _⟩ => rfl
      | ⟨1, _⟩ => rfl)
  unfold fblk5
  rw [e, Window.fill_xinj]
  show (V c main_v18 : S100000x1.Idx → EReal) (((cfg5.win 2).blk t).view.emb j') = _
  refine congrArg _ (funext fun a => Fin.ext ?_)
  match a with
  | ⟨0, _⟩ =>
    show (cfg5.win 2).index t 0 * 4096 + 1 * r'.val = R.val
    rw [hR, show (cfg5.win 2).index t 0 = t.val from index5_row t]
    omega
  | ⟨1, _⟩ =>
    show (cfg5.win 2).index t 1 * 1 + 1 * k.val = k.val
    rw [show (cfg5.win 2).index t 1 = 0 from rfl]
    omega

/-- Whole-array window 3: its one block is the entry array. -/
theorem iblk5_3_apply (c : Dev nD) (t : Fin cfg5.N) (k : Fin 64) (q' : Fin 64) :
    iblk5 V c 3 t (ix2 k q') = (V c main_v42 : S64x64.Idx → EReal) (ix2 k q') := by
  show (V c main_v42 : S64x64.Idx → EReal) (((cfg5.win 3).blk t).view.emb (ix2 k q')) = _
  refine congrArg _ (funext fun a => Fin.ext ?_)
  match a with
  | ⟨0, _⟩ =>
    show (cfg5.win 3).index t 0 * 64 + 1 * k.val = k.val
    rw [show (cfg5.win 3).index t 0 = 0 from rfl]
    omega
  | ⟨1, _⟩ =>
    show (cfg5.win 3).index t 1 * 64 + 1 * q'.val = q'.val
    rw [show (cfg5.win 3).index t 1 = 0 from rfl]
    omega

/-- Whole-array window 4: its one block is the entry array. -/
theorem iblk5_4_apply (c : Dev nD) (t : Fin cfg5.N) (k : Fin 64) (q' : Fin 64) :
    iblk5 V c 4 t (ix2 k q') = (V c main_v43 : S64x64.Idx → EReal) (ix2 k q') := by
  show (V c main_v43 : S64x64.Idx → EReal) (((cfg5.win 4).blk t).view.emb (ix2 k q')) = _
  refine congrArg _ (funext fun a => Fin.ext ?_)
  match a with
  | ⟨0, _⟩ =>
    show (cfg5.win 4).index t 0 * 64 + 1 * k.val = k.val
    rw [show (cfg5.win 4).index t 0 = 0 from rfl]
    omega
  | ⟨1, _⟩ =>
    show (cfg5.win 4).index t 1 * 64 + 1 * q'.val = q'.val
    rw [show (cfg5.win 4).index t 1 = 0 from rfl]
    omega

/-- Whole-array window 5: its one block is the entry array. -/
theorem iblk5_5_apply (c : Dev nD) (t : Fin cfg5.N) (k : Fin 1) (q' : Fin 64) :
    iblk5 V c 5 t (ix2 k q') = (V c main_v57 : S1x64.Idx → EReal) (ix2 k q') := by
  show (V c main_v57 : S1x64.Idx → EReal) (((cfg5.win 5).blk t).view.emb (ix2 k q')) = _
  refine congrArg _ (funext fun a => Fin.ext ?_)
  match a with
  | ⟨0, _⟩ =>
    show (cfg5.win 5).index t 0 * 1 + 1 * k.val = k.val
    rw [show (cfg5.win 5).index t 0 = 0 from rfl]
    omega
  | ⟨1, _⟩ =>
    show (cfg5.win 5).index t 1 * 64 + 1 * q'.val = q'.val
    rw [show (cfg5.win 5).index t 1 = 0 from rfl]
    omega

/-- Whole-array window 6: its one block is the entry array. -/
theorem iblk5_6_apply (c : Dev nD) (t : Fin cfg5.N) (k : Fin 1) (q' : Fin 64) :
    iblk5 V c 6 t (ix2 k q') = (V c main_v58 : S1x64.Idx → EReal) (ix2 k q') := by
  show (V c main_v58 : S1x64.Idx → EReal) (((cfg5.win 6).blk t).view.emb (ix2 k q')) = _
  refine congrArg _ (funext fun a => Fin.ext ?_)
  match a with
  | ⟨0, _⟩ =>
    show (cfg5.win 6).index t 0 * 1 + 1 * k.val = k.val
    rw [show (cfg5.win 6).index t 0 = 0 from rfl]
    omega
  | ⟨1, _⟩ =>
    show (cfg5.win 6).index t 1 * 64 + 1 * q'.val = q'.val
    rw [show (cfg5.win 6).index t 1 = 0 from rfl]
    omega

/-- Whole-array window 7: its one block is the entry array. -/
theorem iblk5_7_apply (c : Dev nD) (t : Fin cfg5.N) (k : Fin 1) (q' : Fin 64) :
    iblk5 V c 7 t (ix2 k q') = (V c main_v59 : S1x64.Idx → EReal) (ix2 k q') := by
  show (V c main_v59 : S1x64.Idx → EReal) (((cfg5.win 7).blk t).view.emb (ix2 k q')) = _
  refine congrArg _ (funext fun a => Fin.ext ?_)
  match a with
  | ⟨0, _⟩ =>
    show (cfg5.win 7).index t 0 * 1 + 1 * k.val = k.val
    rw [show (cfg5.win 7).index t 0 = 0 from rfl]
    omega
  | ⟨1, _⟩ =>
    show (cfg5.win 7).index t 1 * 64 + 1 * q'.val = q'.val
    rw [show (cfg5.win 7).index t 1 = 0 from rfl]
    omega

/-! ## The array the write-backs leave -/

/-- Row by row, the row specification of the entry arrays. -/
def G5 (c : Dev nD) : S100000x64.Idx → EReal := fun i =>
  Cert.Spec.updRow (fun k : Fin 64 => (V c main_v39 : S100000x64.Idx → EReal) (ix2 (i 0 : Fin 100000) k))
    (fun k : Fin 64 => (V c main_v56 : S100000x64.Idx → EReal) (ix2 (i 0 : Fin 100000) k))
    ((V c main_v18 : S100000x1.Idx → EReal) (ix2 (i 0 : Fin 100000) 0))
    (fun (k : Fin 64) (q' : Fin 64) => (V c main_v42 : S64x64.Idx → EReal) (ix2 k q'))
    (fun (k : Fin 64) (q' : Fin 64) => (V c main_v43 : S64x64.Idx → EReal) (ix2 k q'))
    (fun q' : Fin 64 => (V c main_v57 : S1x64.Idx → EReal) (ix2 0 q'))
    (fun q' : Fin 64 => (V c main_v58 : S1x64.Idx → EReal) (ix2 0 q'))
    (fun q' : Fin 64 => (V c main_v59 : S1x64.Idx → EReal) (ix2 0 q')) (i 1 : Fin 64)

/-- The row specification depends on its arguments only. -/
private theorem updRow_congr {h h' ms ms' : Fin 64 → EReal} {cnt cnt' : EReal} {wh wh' wm wm' : Fin 64 → Fin 64 → EReal}
    {b b' g g' β β' : Fin 64 → EReal} {q q' : Fin 64} (e1 : h = h') (e2 : ms = ms') (e3 : cnt = cnt') (e4 : wh = wh')
    (e5 : wm = wm') (e6 : b = b') (e7 : g = g') (e8 : β = β') (e9 : q = q') :
    Cert.Spec.updRow h ms cnt wh wm b g β q = Cert.Spec.updRow h' ms' cnt' wh' wm' b' g' β' q' := by
  subst e1 e2 e3 e4 e5 e6 e7 e8 e9
  rfl

/-- What point `t` writes back is block `t` of that array: a stored row inside the array is the row specification of
    the same row of the input blocks, which read the entry arrays at the block's rows. -/
theorem flushed5_eq (c : Dev nD) (t : Fin cfg5.N) :
    (dat5 V c).flushed 8 t = ((cfg5.win 8).blk t).view.read (Elt Idealize.ShloMosaic.Ideal) (G5 V c) := by
  show (cfg5.win 8).cut (cfg5.grid.coords t) ((dat5 V c).after 8 t) = _
  rw [after5_8]
  funext j
  have hr8 : (j 0).val < (cfg5.win 8).xsize (cfg5.grid.coords t) 0 := (j 0).isLt
  have hq : (j 1).val < 64 := (j 1).isLt
  have hr : (j 0).val < 4096 := Nat.lt_of_lt_of_le hr8 ((cfg5.win 8).xsize_le (cfg5.grid.coords t) 0)
  have hR : ((((cfg5.win 8).blk t).view.emb j 0 : Fin 100000)).val = t.val * 4096 + (j 0).val := by
    show (cfg5.win 8).index t 0 * 4096 + 1 * (j 0).val = _
    rw [index5_row t]
    omega
  have hQ : (⟨(j 1).val, hq⟩ : Fin 64) = (((cfg5.win 8).blk t).view.emb j 1 : Fin 64) := Fin.ext (by
    show (j 1).val = (cfg5.win 8).index t 1 * 64 + 1 * (j 1).val
    rw [show (cfg5.win 8).index t 1 = 0 from rfl]
    omega)
  have ej : (cfg5.win 8).xinj (cfg5.grid.coords t) j = ix2 (⟨(j 0).val, hr⟩ : Fin 4096) (⟨(j 1).val, hq⟩ : Fin 64) :=
    funext fun a => Fin.ext (by
      match a with
      | ⟨0, _⟩ => rfl
      | ⟨1, _⟩ => rfl)
  show out5 (F := Idealize.ShloMosaic.Ideal) _ _ _ _ _ _ _ _ ((cfg5.win 8).xinj (cfg5.grid.coords t) j) = G5 V c (((cfg5.win 8).blk t).view.emb j)
  rw [ej]
  refine (Val.out5_apply _ _ _ _ _ _ _ _ ⟨(j 0).val, hr⟩ ⟨(j 1).val, hq⟩).trans ?_
  unfold G5
  exact updRow_congr
    (funext fun k => fblk5_0_apply V c t ⟨(j 0).val, hr⟩ k _ hr8 hR)
    (funext fun k => fblk5_1_apply V c t ⟨(j 0).val, hr⟩ k _ hr8 hR)
    (fblk5_2_apply V c t ⟨(j 0).val, hr⟩ 0 _ hr8 hR)
    (funext fun k => funext fun q' => iblk5_3_apply V c t k q')
    (funext fun k => funext fun q' => iblk5_4_apply V c t k q')
    (funext fun q' => iblk5_5_apply V c t 0 q')
    (funext fun q' => iblk5_6_apply V c t 0 q')
    (funext fun q' => iblk5_7_apply V c t 0 q')
    hQ

/-- Every row of the array is in some point's block: row `r` in block `r / 4096`. -/
theorem cover5 (i : S100000x64.Idx) :
    ∃ t : Fin cfg5.N, (cfg5.win 8).flush t = true ∧ i ∈ ((cfg5.win 8).blk t).view.set := by
  have hi0 : (i 0).val < 100000 := (i 0).isLt
  have hi1 : (i 1).val < 64 := (i 1).isLt
  have hN : (i 0).val / 4096 < cfg5.N := by
    show (i 0).val / 4096 < 25
    omega
  refine ⟨⟨(i 0).val / 4096, hN⟩, flush5_8 _, ?_⟩
  show i ∈ ((View.whole main_v60).slice ((cfg5.win 8).rect ⟨(i 0).val / 4096, hN⟩)).set
  rw [View.set_slice_whole, Rect.mem_set_unit]
  intro a
  match a with
  | ⟨0, _⟩ =>
    show (cfg5.win 8).index ⟨(i 0).val / 4096, hN⟩ 0 * 4096 ≤ (i 0).val
      ∧ (i 0).val < (cfg5.win 8).index ⟨(i 0).val / 4096, hN⟩ 0 * 4096 + (cfg5.win 8).xsize (cfg5.grid.coords ⟨(i 0).val / 4096, hN⟩) 0
    rw [index5_row, xsize5_row]
    show (i 0).val / 4096 * 4096 ≤ (i 0).val ∧ (i 0).val < (i 0).val / 4096 * 4096
      + (if ((i 0).val / 4096 + 1) * 4096 ≤ 100000 then 4096 else 100000 - (i 0).val / 4096 * 4096)
    split <;> omega
  | ⟨1, _⟩ =>
    show (cfg5.win 8).index ⟨(i 0).val / 4096, hN⟩ 1 * 64 ≤ (i 1).val
      ∧ (i 1).val < (cfg5.win 8).index ⟨(i 0).val / 4096, hN⟩ 1 * 64 + 64
    rw [show (cfg5.win 8).index ⟨(i 0).val / 4096, hN⟩ 1 = 0 from rfl]
    omega

/-- The output array after all the write-backs, at row `r` and column `q`. -/
theorem final5 (c : Dev nD) (r : Fin 100000) (q : Fin 64) :
    ((dat5 (F := Idealize.ShloMosaic.Ideal) V c).arrAt 8 cfg5.N : S100000x64.Idx → EReal) (ix2 r q)
      = Cert.Spec.updRow (fun k : Fin 64 => (V c main_v39 : S100000x64.Idx → EReal) (ix2 r k)) (fun k : Fin 64 => (V c main_v56 : S100000x64.Idx → EReal) (ix2 r k)) ((V c main_v18 : S100000x1.Idx → EReal) (ix2 r 0)) (fun (k : Fin 64) (q' : Fin 64) => (V c main_v42 : S64x64.Idx → EReal) (ix2 k q')) (fun (k : Fin 64) (q' : Fin 64) => (V c main_v43 : S64x64.Idx → EReal) (ix2 k q')) (fun q' : Fin 64 => (V c main_v57 : S1x64.Idx → EReal) (ix2 0 q')) (fun q' : Fin 64 => (V c main_v58 : S1x64.Idx → EReal) (ix2 0 q')) (fun q' : Fin 64 => (V c main_v59 : S1x64.Idx → EReal) (ix2 0 q')) q := by
  have h := (dat5 (F := Idealize.ShloMosaic.Ideal) V c).arrAt_eq_of_cover 8 (G5 V c) (fun t _ => flushed5_eq V c t) cover5
  exact congrFun h (ix2 r q)

end Final

end Cert.KernelIdeal.Gen

end
-- ==== Proof.Ref.Row5.lean ====
import proofs.«178696_j1468878815658_2_alg».proof.Proof.Ref.Imports
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.Read

/-! ## Index equations: the index maps of the stage's layout operations, at an index given by its coordinates -/

/-- A column broadcast reads row `r` of the one-column array, whatever the column. -/
theorem v173_e141 (r : Fin 100000) (q : Fin 64) : idx_main_v141 (ix2 r q) = (ix2 r (0 : Fin 1) : S100000x1.Idx) :=
  funext fun a => by match a with | ⟨0, _⟩ => rfl | ⟨1, _⟩ => rfl
theorem v173_e152 (r : Fin 100000) (q : Fin 64) : idx_main_v152 (ix2 r q) = (ix2 r (0 : Fin 1) : S100000x1.Idx) :=
  funext fun a => by match a with | ⟨0, _⟩ => rfl | ⟨1, _⟩ => rfl
theorem v173_e159 (r : Fin 100000) (q : Fin 64) : idx_main_v159 (ix2 r q) = (ix2 r (0 : Fin 1) : S100000x1.Idx) :=
  funext fun a => by match a with | ⟨0, _⟩ => rfl | ⟨1, _⟩ => rfl
theorem v173_e164 (r : Fin 100000) (q : Fin 64) : idx_main_v164 (ix2 r q) = (ix2 r (0 : Fin 1) : S100000x1.Idx) :=
  funext fun a => by match a with | ⟨0, _⟩ => rfl | ⟨1, _⟩ => rfl
/-- The one-column view of a vector reads the vector at the row. -/
theorem v173_e149 (r : Fin 100000) (c : Fin 1) : idx_main_v149 (ix2 r c) = (ix1 r : S100000.Idx) :=
  funext fun a => by match a with | ⟨0, _⟩ => rfl
theorem v173_e156 (r : Fin 100000) (c : Fin 1) : idx_main_v156 (ix2 r c) = (ix1 r : S100000.Idx) :=
  funext fun a => by match a with | ⟨0, _⟩ => rfl
/-- A sum along the columns runs over the row. -/
theorem v173_e148 (r : Fin 100000) (k : Fin 64) : idx_main_v148 (ix1 r) k = (ix2 r k : S100000x64.Idx) :=
  funext fun a => by match a with | ⟨0, _⟩ => rfl | ⟨1, _⟩ => rfl
theorem v173_e155 (r : Fin 100000) (k : Fin 64) : idx_main_v155 (ix1 r) k = (ix2 r k : S100000x64.Idx) :=
  funext fun a => by match a with | ⟨0, _⟩ => rfl | ⟨1, _⟩ => rfl
/-- The matrix product at `(r, q)` pairs row `r` of the left operand with column `q` of the right. -/
theorem v173_el144 (r : Fin 100000) (q : Fin 64) (k : Fin 128) : lidx_main_v144 (ix2 r q) k = (ix2 r k : S100000x128.Idx) :=
  funext fun a => by match a with | ⟨0, _⟩ => rfl | ⟨1, _⟩ => rfl
theorem v173_er144 (r : Fin 100000) (q : Fin 64) (k : Fin 128) : ridx_main_v144 (ix2 r q) k = (ix2 k q : S128x64.Idx) :=
  funext fun a => by match a with | ⟨0, _⟩ => rfl | ⟨1, _⟩ => rfl
/-- A row vector broadcast down the rows reads the vector at the column. -/
theorem v173_e146 (r : Fin 100000) (q : Fin 64) : idx_main_v146 (ix2 r q) = (ix2 (0 : Fin 1) q : S1x64.Idx) :=
  funext fun a => by match a with | ⟨0, _⟩ => rfl | ⟨1, _⟩ => rfl
theorem v173_e145 (c : Fin 1) (q : Fin 64) : idx_main_v145 (ix2 c q) = (ix1 q : S64.Idx) :=
  funext fun a => by match a with | ⟨0, _⟩ => rfl
theorem v173_e167 (r : Fin 100000) (q : Fin 64) : idx_main_v167 (ix2 r q) = (ix2 (0 : Fin 1) q : S1x64.Idx) :=
  funext fun a => by match a with | ⟨0, _⟩ => rfl | ⟨1, _⟩ => rfl
theorem v173_e166 (c : Fin 1) (q : Fin 64) : idx_main_v166 (ix2 c q) = (ix1 q : S64.Idx) :=
  funext fun a => by match a with | ⟨0, _⟩ => rfl
theorem v173_e170 (r : Fin 100000) (q : Fin 64) : idx_main_v170 (ix2 r q) = (ix2 (0 : Fin 1) q : S1x64.Idx) :=
  funext fun a => by match a with | ⟨0, _⟩ => rfl | ⟨1, _⟩ => rfl
theorem v173_e169 (c : Fin 1) (q : Fin 64) : idx_main_v169 (ix2 c q) = (ix1 q : S64.Idx) :=
  funext fun a => by match a with | ⟨0, _⟩ => rfl

/-- Two arrays of 64 columns joined along the columns, read at a row: the two rows side by side. -/
theorem v173_cat_row (a b : S100000x64.Idx → EReal) (r : Fin 100000) (k : Fin 128) :
    concatenate S100000x128 1 [⟨S100000x64, a⟩, ⟨S100000x64, b⟩] Gen.concatenates_S100000x64_S100000x64_S100000x128_d1 (ix2 r k)
      = Cert.Spec.cat2 (fun k => a (ix2 r k)) (fun k => b (ix2 r k)) k := by
  unfold Cert.Spec.cat2
  split
  · next h =>
    exact concatenate_pair_apply_left (t := S100000x128) 1 a b Gen.concatenates_S100000x64_S100000x64_S100000x128_d1 (ix2 r k) rfl
      (ix2 r ⟨k.val, h⟩) (fun c => by
      match c with
      | ⟨0, _⟩ => rfl
      | ⟨1, _⟩ => rfl)
  · next h =>
    exact concatenate_pair_apply_right (t := S100000x128) 1 a b Gen.concatenates_S100000x64_S100000x64_S100000x128_d1 (ix2 r k) rfl rfl
      (ix2 r ⟨k.val - 64, by have := k.isLt; omega⟩) (fun c hc => by
        match c with
        | ⟨0, _⟩ => rfl
        | ⟨1, _⟩ => exact absurd rfl hc)
      (by have := k.isLt; show k.val - 64 + 64 = k.val; omega)

variable (x0 : (⟨S100000x7, .f32⟩ : BufTy).Contents (Elt Ideal)) (x1 : (⟨S2x1000000, .i32⟩ : BufTy).Contents (Elt Ideal))
  (x2 : (⟨S1000000x5, .f32⟩ : BufTy).Contents (Elt Ideal)) (x3 : (⟨S7x64, .f32⟩ : BufTy).Contents (Elt Ideal))
  (x4 x5 x6 : (⟨S64, .f32⟩ : BufTy).Contents (Elt Ideal)) (x7 : (⟨S5x64, .f32⟩ : BufTy).Contents (Elt Ideal))
  (x8 x9 x10 : (⟨S64, .f32⟩ : BufTy).Contents (Elt Ideal)) (x11 : (⟨S128x64, .f32⟩ : BufTy).Contents (Elt Ideal))
  (x12 : (⟨S64, .f32⟩ : BufTy).Contents (Elt Ideal)) (x13 : (⟨S128x64, .f32⟩ : BufTy).Contents (Elt Ideal))
  (x14 x15 x16 : (⟨S64, .f32⟩ : BufTy).Contents (Elt Ideal)) (x17 : (⟨S128x64, .f32⟩ : BufTy).Contents (Elt Ideal))
  (x18 : (⟨S64, .f32⟩ : BufTy).Contents (Elt Ideal)) (x19 : (⟨S128x64, .f32⟩ : BufTy).Contents (Elt Ideal))
  (x20 x21 x22 : (⟨S64, .f32⟩ : BufTy).Contents (Elt Ideal)) (x23 : (⟨S133x64, .f32⟩ : BufTy).Contents (Elt Ideal))
  (x24 : (⟨S64, .f32⟩ : BufTy).Contents (Elt Ideal)) (x25 : (⟨S64x32, .f32⟩ : BufTy).Contents (Elt Ideal))
  (x26 : (⟨S32, .f32⟩ : BufTy).Contents (Elt Ideal)) (x27 : (⟨S32x1, .f32⟩ : BufTy).Contents (Elt Ideal))
  (x28 : (⟨S1, .f32⟩ : BufTy).Contents (Elt Ideal))

/-- The second node update of the reference, read at a row: the row specification of that row of the stage's operands. -/
theorem row_v173 (r : Fin 100000) (q : Fin 64) :
    val_main_v173 (F := Ideal) x0 x1 x2 x3 x4 x5 x6 x7 x8 x9 x10 x11 x12 x13 x14 x15 x16 x17 x18 x19 x20 x21 x22 (ix2 r q)
      = Cert.Spec.updRowCat (fun k : Fin 64 => val_main_v117 (F := Ideal) x0 x1 x2 x3 x4 x5 x6 x7 x8 x9 x10 x11 x12 x13 x14 x15 x16 (ix2 r k)) (fun k : Fin 64 => val_main_v133 (F := Ideal) x0 x1 x2 x3 x4 x5 x6 x7 x8 x9 x10 x11 x12 x13 x14 x15 x16 x17 x18 (ix2 r k)) (val_main_v140 (F := Ideal) x1 (ix2 r 0)) (fun (k : Fin 128) (q' : Fin 64) => x19 (ix2 k q')) (fun q' : Fin 64 => x20 (ix1 q')) (fun q' : Fin 64 => x21 (ix1 q')) (fun q' : Fin 64 => x22 (ix1 q')) q := by
  -- the joined row: the node's own row beside its mean message
  have h143 : ∀ k : Fin 128, val_main_v143 (F := Ideal) x0 x1 x2 x3 x4 x5 x6 x7 x8 x9 x10 x11 x12 x13 x14 x15 x16 x17 x18 (ix2 r k)
      = Cert.Spec.cat2 (fun k : Fin 64 => val_main_v117 (F := Ideal) x0 x1 x2 x3 x4 x5 x6 x7 x8 x9 x10 x11 x12 x13 x14 x15 x16 (ix2 r k))
          (fun k : Fin 64 => Ideal.div (val_main_v133 (F := Ideal) x0 x1 x2 x3 x4 x5 x6 x7 x8 x9 x10 x11 x12 x13 x14 x15 x16 x17 x18 (ix2 r k)) (val_main_v140 (F := Ideal) x1 (ix2 r 0))) k := by
    intro k
    unfold val_main_v143
    rw [v173_cat_row]
    refine congrArg (fun f => Cert.Spec.cat2 _ f k) (funext fun k' => ?_)
    rw [val_main_v142_apply, val_main_v141_apply, v173_e141]
    rfl
  -- the row before the layer norm
  obtain ⟨P, hP⟩ : ∃ P : Fin 64 → EReal, P = fun q' : Fin 64 =>
      (∑ k : Fin 128, Cert.Spec.cat2 (fun k : Fin 64 => val_main_v117 (F := Ideal) x0 x1 x2 x3 x4 x5 x6 x7 x8 x9 x10 x11 x12 x13 x14 x15 x16 (ix2 r k))
          (fun k : Fin 64 => Ideal.div (val_main_v133 (F := Ideal) x0 x1 x2 x3 x4 x5 x6 x7 x8 x9 x10 x11 x12 x13 x14 x15 x16 x17 x18 (ix2 r k)) (val_main_v140 (F := Ideal) x1 (ix2 r 0))) k
        * x19 (ix2 k q')) + x20 (ix1 q') := ⟨_, rfl⟩
  have h147 : ∀ q' : Fin 64, val_main_v147 (F := Ideal) x0 x1 x2 x3 x4 x5 x6 x7 x8 x9 x10 x11 x12 x13 x14 x15 x16 x17 x18 x19 x20 (ix2 r q') = P q' := by
    intro q'
    rw [hP, val_main_v147_apply, val_main_v144_apply, val_main_v146_apply, val_main_v145_apply, v173_e146, v173_e145]
    simp only [v173_el144, v173_er144, h143]
    rfl
  -- its mean
  have h148 : val_main_v148 (F := Ideal) x0 x1 x2 x3 x4 x5 x6 x7 x8 x9 x10 x11 x12 x13 x14 x15 x16 x17 x18 x19 x20 (ix1 r) = ∑ k : Fin 64, P k := by
    rw [val_main_v148_apply, val_main_cst_25_apply, Ideal.ofBits_def, Ideal.ofBits_zero_f32, zero_add]
    simp only [v173_e148, h147]
  have h151 : val_main_v151 (F := Ideal) x0 x1 x2 x3 x4 x5 x6 x7 x8 x9 x10 x11 x12 x13 x14 x15 x16 x17 x18 x19 x20 (ix2 r 0) = Cert.Spec.mean64 P := by
    rw [val_main_v151_apply, val_main_v149_apply, v173_e149, h148, val_main_v150_apply, val_main_cst_26_apply]
    rfl
  -- the deviations and the variance
  have h153 : ∀ k : Fin 64, val_main_v153 (F := Ideal) x0 x1 x2 x3 x4 x5 x6 x7 x8 x9 x10 x11 x12 x13 x14 x15 x16 x17 x18 x19 x20 (ix2 r k) = P k - Cert.Spec.mean64 P := by
    intro k
    rw [val_main_v153_apply, h147, val_main_v152_apply, v173_e152, h151]
    rfl
  have h155 : val_main_v155 (F := Ideal) x0 x1 x2 x3 x4 x5 x6 x7 x8 x9 x10 x11 x12 x13 x14 x15 x16 x17 x18 x19 x20 (ix1 r)
      = ∑ k : Fin 64, (P k - Cert.Spec.mean64 P) * (P k - Cert.Spec.mean64 P) := by
    rw [val_main_v155_apply, val_main_cst_27_apply, Ideal.ofBits_def, Ideal.ofBits_zero_f32, zero_add]
    simp only [v173_e155, val_main_v154_apply, h153]
    rfl
  have h158 : val_main_v158 (F := Ideal) x0 x1 x2 x3 x4 x5 x6 x7 x8 x9 x10 x11 x12 x13 x14 x15 x16 x17 x18 x19 x20 (ix2 r 0) = Cert.Spec.var64 P := by
    rw [val_main_v158_apply, val_main_v156_apply, v173_e156, h155, val_main_v157_apply, val_main_cst_28_apply]
    rfl
  have h163 : val_main_v163 (F := Ideal) x0 x1 x2 x3 x4 x5 x6 x7 x8 x9 x10 x11 x12 x13 x14 x15 x16 x17 x18 x19 x20 (ix2 r 0) = Ideal.sqrt (Cert.Spec.var64 P + Cert.Spec.wEps) := by
    rw [val_main_v163_apply, val_main_v162_apply, h158, val_main_v161_apply, val_main_cst_29_apply]
    rfl
  have h160 : val_main_v160 (F := Ideal) x0 x1 x2 x3 x4 x5 x6 x7 x8 x9 x10 x11 x12 x13 x14 x15 x16 x17 x18 x19 x20 (ix2 r q) = P q - Cert.Spec.mean64 P := by
    rw [val_main_v160_apply, h147, val_main_v159_apply, v173_e159, h151]
    rfl
  -- the normalised row scaled and shifted, the node's row added back, the rectifier
  rw [val_main_v173_apply, val_main_call5_v0_apply, val_main_call5_cst_apply, val_main_v172_apply, val_main_v171_apply,
    val_main_v168_apply, val_main_v165_apply, h160, val_main_v164_apply, v173_e164, h163, val_main_v167_apply,
    val_main_v166_apply, v173_e167, v173_e166, val_main_v170_apply, val_main_v169_apply, v173_e170, v173_e169]
  rw [hP]
  rfl

end Cert.ReferenceIdeal.RefRows

end
-- ==== Proof.KI.Bridge5.lean ====
import proofs.«178696_j1468878815658_2_alg».proof.Proof.KI.Inv
import proofs.«178696_j1468878815658_2_alg».proof.Proof.KI.Args
import proofs.«178696_j1468878815658_2_alg».proof.Proof.KI.Fin5
import proofs.«178696_j1468878815658_2_alg».proof.Proof.Ref.Row5
import proofs.«178696_j1468878815658_2_alg».proof.Proof.Spec
import proofs.«178696_j1468878815658_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-!
  Host stretch 5 and region 5 of the idealized kernel program, read against the reference: if the buffers' contents
  before them satisfy `E5` (the arguments as launched, the live intermediates equal to the reference's stage values),
  then after them — the region's arrays at whatever contents they may hold after every write-back, nothing forgotten —
  they satisfy `E6`: the region's output array IS the reference's value of the same stage, because row by row both
  are the row specification of the same operand rows (the two spellings of the specification agree), and every other
  live buffer is as it was.
-/

set_option maxRecDepth 16384

noncomputable section

namespace Cert.KernelIdeal.Gen

open Idealize.ShloMosaic Idealize.ShloMosaic.TcCoe Idealize.ShloMosaic.ValueIdx
open Idealize.SL Idealize.SL.Sem

/-- The clamped in-degree counts are computed twice by the reference, by the same operations of the same rows. -/
private theorem v140_eq_v84 {F : FTy → Type} [FloatOps F] (x1 : (⟨S2x1000000, .i32⟩ : BufTy).Contents (Elt F)) :
    Cert.ReferenceIdeal.Read.val_main_v140 (F := F) x1 = Cert.ReferenceIdeal.Read.val_main_v84 (F := F) x1 := rfl

section Host5

variable (W : Valuation τ sig (Elt Ideal))

/-- After host stretch 5 the summed-messages buffer holds the scatter-add, into zeros, of the second message layer's
    rows (widened: the identity over the extended reals) along the target row of the edge list. -/
private theorem host5_v56 :
    (StableHlo.after (hostOps5 (F := Ideal)) W (Proc.devRef .tc main_v56) : S100000x64.Idx → EReal)
      = Host.scatterAdd (F := Ideal) (φ := .f32) scatter_S100000x64_S1000000x1_S1000000x64_1_0_0_1
          (broadcastInDim S100000x64 ![] bcast_S_S100000x64 (constant S_ .f32 0x00000000#32))
          (broadcastInDim S1000000x1 ![0] bcast_S1000000_S1000000x1_0 (W (Proc.devRef .tc main_v3)))
          (W (Proc.devRef .tc main_v52) : S1000000x64.Idx → EReal) := by
  show StableHlo.after (hostOps5 (F := Ideal)) W (Proc.devRef .tc main_v56) = _
  after_results
  rfl

/-- The bias row after host stretch 5: argument 20 with a unit axis in front. -/
private theorem host5_v57 (q' : Fin 64) :
    (StableHlo.after (hostOps5 (F := Ideal)) W (Proc.devRef .tc main_v57) : S1x64.Idx → EReal) (ix2 0 q')
      = (W (Proc.devRef .tc main_arg20) : S64.Idx → EReal) (ix1 q') := by
  after_results
  exact shapeCast_a_1a_apply _ _ 0 q'

/-- The scale row: argument 21 with a unit axis in front. -/
private theorem host5_v58 (q' : Fin 64) :
    (StableHlo.after (hostOps5 (F := Ideal)) W (Proc.devRef .tc main_v58) : S1x64.Idx → EReal) (ix2 0 q')
      = (W (Proc.devRef .tc main_arg21) : S64.Idx → EReal) (ix1 q') := by
  after_results
  exact shapeCast_a_1a_apply _ _ 0 q'

/-- The shift row: argument 22 with a unit axis in front. -/
private theorem host5_v59 (q' : Fin 64) :
    (StableHlo.after (hostOps5 (F := Ideal)) W (Proc.devRef .tc main_v59) : S1x64.Idx → EReal) (ix2 0 q')
      = (W (Proc.devRef .tc main_arg22) : S64.Idx → EReal) (ix1 q') := by
  after_results
  exact shapeCast_a_1a_apply _ _ 0 q'

end Host5

/-- The reference's summed messages of the second layer, as the one scatter-add of its operands. -/
private theorem v133_eq {F : FTy → Type} [FloatOps F] (x0 : (⟨S100000x7, .f32⟩ : BufTy).Contents (Elt F)) (x1 : (⟨S2x1000000, .i32⟩ : BufTy).Contents (Elt F))
    (x2 : (⟨S1000000x5, .f32⟩ : BufTy).Contents (Elt F)) (x3 : (⟨S7x64, .f32⟩ : BufTy).Contents (Elt F))
    (x4 x5 x6 : (⟨S64, .f32⟩ : BufTy).Contents (Elt F)) (x7 : (⟨S5x64, .f32⟩ : BufTy).Contents (Elt F))
    (x8 x9 x10 : (⟨S64, .f32⟩ : BufTy).Contents (Elt F)) (x11 : (⟨S128x64, .f32⟩ : BufTy).Contents (Elt F))
    (x12 : (⟨S64, .f32⟩ : BufTy).Contents (Elt F)) (x13 : (⟨S128x64, .f32⟩ : BufTy).Contents (Elt F))
    (x14 x15 x16 : (⟨S64, .f32⟩ : BufTy).Contents (Elt F)) (x17 : (⟨S128x64, .f32⟩ : BufTy).Contents (Elt F))
    (x18 : (⟨S64, .f32⟩ : BufTy).Contents (Elt F)) :
    Cert.ReferenceIdeal.Read.val_main_v133 (F := F) x0 x1 x2 x3 x4 x5 x6 x7 x8 x9 x10 x11 x12 x13 x14 x15 x16 x17 x18
      = Host.scatterAdd scatter_S100000x64_S1000000x1_S1000000x64_1_0_0_1
          (broadcastInDim S100000x64 ![] bcast_S_S100000x64 (constant S_ .f32 0x00000000#32))
          (broadcastInDim S1000000x1 ![0] bcast_S1000000_S1000000x1_0 (Cert.ReferenceIdeal.Read.val_main_v3 (F := F) x1))
          (Cert.ReferenceIdeal.Read.val_main_v130 (F := F) x0 x1 x2 x3 x4 x5 x6 x7 x8 x9 x10 x11 x12 x13 x14 x15 x16 x17 x18) := rfl

set_option maxHeartbeats 1000000 in
theorem bridge5 (m : (ℓ : Loc nD τ sig) → Buf (Elt Ideal) ℓ) (c : Dev nD) (W : Valuation τ sig (Elt Ideal))
    (hE : E5 m c W)
    (A : (w : Fin cfg5.W) → Buf (Elt Ideal) ((cfg5.win w).arr.view.loc (c : Thread nD τ)))
    (hA : ∀ w, (rdat5 (F := Ideal) (StableHlo.after (hostOps5 (F := Ideal)) W) (fun _ => false) c).ArrAt w cfg5.N (A w)) :
    E6 m c (Pipeline.withArrays spec5 c (StableHlo.after (hostOps5 (F := Ideal)) W) A) := by
  -- the arguments the stretch reads, as launched
  have g20 : W (Proc.devRef .tc main_arg20) = a20 m c := hE.args main_arg20 (by decide)
  have g21 : W (Proc.devRef .tc main_arg21) = a21 m c := hE.args main_arg21 (by decide)
  have g22 : W (Proc.devRef .tc main_arg22) = a22 m c := hE.args main_arg22 (by decide)
  -- what the host stretch leaves untouched: the edge list's rows, the node rows, the counts, the two weight halves
  have c1 : StableHlo.after (hostOps5 (F := Ideal)) W (Proc.devRef .tc main_v1) = W (Proc.devRef .tc main_v1) :=
    StableHlo.after_of_writes_sub hostOps5 W hostOps5_writes (by decide)
  have c3 : StableHlo.after (hostOps5 (F := Ideal)) W (Proc.devRef .tc main_v3) = W (Proc.devRef .tc main_v3) :=
    StableHlo.after_of_writes_sub hostOps5 W hostOps5_writes (by decide)
  have c18 : StableHlo.after (hostOps5 (F := Ideal)) W (Proc.devRef .tc main_v18) = W (Proc.devRef .tc main_v18) :=
    StableHlo.after_of_writes_sub hostOps5 W hostOps5_writes (by decide)
  have c39 : StableHlo.after (hostOps5 (F := Ideal)) W (Proc.devRef .tc main_v39) = W (Proc.devRef .tc main_v39) :=
    StableHlo.after_of_writes_sub hostOps5 W hostOps5_writes (by decide)
  have c42 : StableHlo.after (hostOps5 (F := Ideal)) W (Proc.devRef .tc main_v42) = W (Proc.devRef .tc main_v42) :=
    StableHlo.after_of_writes_sub hostOps5 W hostOps5_writes (by decide)
  have c43 : StableHlo.after (hostOps5 (F := Ideal)) W (Proc.devRef .tc main_v43) = W (Proc.devRef .tc main_v43) :=
    StableHlo.after_of_writes_sub hostOps5 W hostOps5_writes (by decide)
  -- the node rows are the reference's first node update,
  have k39 : (StableHlo.after (hostOps5 (F := Ideal)) W (Proc.devRef .tc main_v39) : S100000x64.Idx → EReal)
      = Cert.ReferenceIdeal.Read.val_main_v117 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) := c39.trans hE.v39
  -- the clamped counts the reference's, which this layer computes again by the same operations,
  have k18 : (StableHlo.after (hostOps5 (F := Ideal)) W (Proc.devRef .tc main_v18) : S100000x1.Idx → EReal)
      = Cert.ReferenceIdeal.Read.val_main_v140 (F := Ideal) (a1 m c) := (c18.trans hE.v18).trans (v140_eq_v84 _).symm
  -- the summed messages the reference's scatter-add of the second message layer along the target row,
  have k56 : (StableHlo.after (hostOps5 (F := Ideal)) W (Proc.devRef .tc main_v56) : S100000x64.Idx → EReal)
      = Cert.ReferenceIdeal.Read.val_main_v133 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) := by
    rw [host5_v56, hE.v3, hE.v52, v133_eq]
  -- the two halves of the stacked weights,
  have k42 := funext fun k : Fin 64 => funext fun q' : Fin 64 => (congrFun c42 (ix2 k q')).trans (hE.v42 k q')
  have k43 := funext fun k : Fin 64 => funext fun q' : Fin 64 => (congrFun c43 (ix2 k q')).trans (hE.v43 k q')
  -- the bias, scale and shift rows, each its argument with a unit axis in front
  have k57 : ∀ q' : Fin 64, (StableHlo.after (hostOps5 (F := Ideal)) W (Proc.devRef .tc main_v57) : S1x64.Idx → EReal) (ix2 0 q')
      = (a20 m c : S64.Idx → EReal) (ix1 q') := fun q' => by rw [host5_v57, g20]
  have k58 : ∀ q' : Fin 64, (StableHlo.after (hostOps5 (F := Ideal)) W (Proc.devRef .tc main_v58) : S1x64.Idx → EReal) (ix2 0 q')
      = (a21 m c : S64.Idx → EReal) (ix1 q') := fun q' => by rw [host5_v58, g21]
  have k59 : ∀ q' : Fin 64, (StableHlo.after (hostOps5 (F := Ideal)) W (Proc.devRef .tc main_v59) : S1x64.Idx → EReal) (ix2 0 q')
      = (a22 m c : S64.Idx → EReal) (ix1 q') := fun q' => by rw [host5_v59, g22]
  refine ⟨argsOf_region5 m _ (fun _ => false) c (argsOf_host5 m c W hE.args) A hA, ?_, ?_, ?_⟩
  · exact ((withArrays5_of_ne_out _ (fun _ => false) c A hA main_v1 (by decide)).trans c1).trans hE.v1
  · exact ((withArrays5_of_ne_out _ (fun _ => false) c A hA main_v3 (by decide)).trans c3).trans hE.v3
  · -- the region's output array: row by row the row specification of the same operand rows
    have hout : Pipeline.withArrays spec5 c (StableHlo.after (hostOps5 (F := Ideal)) W) A (Proc.devRef .tc main_v60) = A 8 :=
      Pipeline.withArrays_arr spec5 launch5.win.arr_inj c _ A 8
    have hA8 : A 8 = (dat5 (F := Ideal) (VW (StableHlo.after (hostOps5 (F := Ideal)) W)) c).arrAt 8 cfg5.N :=
      (Pipeline.Dat.toRForget_arrAt_iff (dat := dat5 (F := Ideal) (VW (StableHlo.after (hostOps5 (F := Ideal)) W)) c)
        (fgt := fun _ => false) (w := 8) rfl cfg5.N (A 8)).mp (hA 8)
    rw [hout, hA8]
    funext i
    obtain ⟨r, q, rfl⟩ : ∃ (r : Fin 100000) (q : Fin 64), i = ix2 r q := ⟨i 0, i 1, eq_ix2 i⟩
    rw [final5, Cert.ReferenceIdeal.RefRows.row_v173]
    refine Eq.trans ?_ (congrFun (Cert.Spec.updRow_eq_updRowCat _ _ _ _ _ _ _) q)
    show Cert.Spec.updRow
        (fun k : Fin 64 => (StableHlo.after (hostOps5 (F := Ideal)) W (Proc.devRef .tc main_v39) : S100000x64.Idx → EReal) (ix2 r k))
        (fun k : Fin 64 => (StableHlo.after (hostOps5 (F := Ideal)) W (Proc.devRef .tc main_v56) : S100000x64.Idx → EReal) (ix2 r k))
        ((StableHlo.after (hostOps5 (F := Ideal)) W (Proc.devRef .tc main_v18) : S100000x1.Idx → EReal) (ix2 r 0))
        (fun (k : Fin 64) (q' : Fin 64) => (StableHlo.after (hostOps5 (F := Ideal)) W (Proc.devRef .tc main_v42) : S64x64.Idx → EReal) (ix2 k q'))
        (fun (k : Fin 64) (q' : Fin 64) => (StableHlo.after (hostOps5 (F := Ideal)) W (Proc.devRef .tc main_v43) : S64x64.Idx → EReal) (ix2 k q'))
        (fun q' : Fin 64 => (StableHlo.after (hostOps5 (F := Ideal)) W (Proc.devRef .tc main_v57) : S1x64.Idx → EReal) (ix2 0 q'))
        (fun q' : Fin 64 => (StableHlo.after (hostOps5 (F := Ideal)) W (Proc.devRef .tc main_v58) : S1x64.Idx → EReal) (ix2 0 q'))
        (fun q' : Fin 64 => (StableHlo.after (hostOps5 (F := Ideal)) W (Proc.devRef .tc main_v59) : S1x64.Idx → EReal) (ix2 0 q')) q = _
    rw [k39, k56, k18, k42, k43, funext k57, funext k58, funext k59]
    rfl

end Cert.KernelIdeal.Gen

end
-- ==== Proof.KI.Val6.lean ====
import proofs.«178696_j1468878815658_2_alg».proof.Proof.KI.Outs
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Val

open Idealize.ShloMosaic Idealize.ShloMosaic.ValueIdx Cert.KernelIdeal Cert.KernelIdeal.Gen

/-! The dot `[4096, 64] × [64, 64]`: its operand indices, axis by axis. -/

private theorem lhs_d64_0 (i : S4096x64.Idx) (c : dot_S4096x64_S64x64_S4096x64_1_0_0_1_n_n.contr.Idx) :
    (dot_S4096x64_S64x64_S4096x64_1_0_0_1_n_n.lhsIdx i c 0).val = (i 0).val := by
  unfold DotDims.lhsIdx
  rw [dif_neg (show ¬(0 : Fin S4096x64.rank) ∈ dot_S4096x64_S64x64_S4096x64_1_0_0_1_n_n.lhsBatch by decide), dif_pos (show (0 : Fin S4096x64.rank) ∈ dot_S4096x64_S64x64_S4096x64_1_0_0_1_n_n.lhsNonContracting by decide)]
  rfl
private theorem lhs_d64_1 (i : S4096x64.Idx) (c : dot_S4096x64_S64x64_S4096x64_1_0_0_1_n_n.contr.Idx) :
    (dot_S4096x64_S64x64_S4096x64_1_0_0_1_n_n.lhsIdx i c 1).val = (c ⟨0, by decide⟩).val :=
  dot_S4096x64_S64x64_S4096x64_1_0_0_1_n_n.lhsIdx_val_of_single rfl i c
private theorem rhs_d64_0 (i : S4096x64.Idx) (c : dot_S4096x64_S64x64_S4096x64_1_0_0_1_n_n.contr.Idx) :
    (dot_S4096x64_S64x64_S4096x64_1_0_0_1_n_n.rhsIdx i c 0).val = (c ⟨0, by decide⟩).val :=
  dot_S4096x64_S64x64_S4096x64_1_0_0_1_n_n.rhsIdx_val_of_single rfl i c
private theorem rhs_d64_1 (i : S4096x64.Idx) (c : dot_S4096x64_S64x64_S4096x64_1_0_0_1_n_n.contr.Idx) :
    (dot_S4096x64_S64x64_S4096x64_1_0_0_1_n_n.rhsIdx i c 1).val = (i 1).val := by
  unfold DotDims.rhsIdx
  rw [dif_neg (show ¬(1 : Fin S64x64.rank) ∈ dot_S4096x64_S64x64_S4096x64_1_0_0_1_n_n.rhsBatch by decide), dif_pos (show (1 : Fin S64x64.rank) ∈ dot_S4096x64_S64x64_S4096x64_1_0_0_1_n_n.rhsNonContracting by decide)]
  rfl

/-- The product onto a zero accumulator, at `(r, q)`: the sum over `k` of row `r` of the left operand against
    column `q` of the right one. -/
private theorem mm_d64_apply {φ₁ φ₂ : FTy} (x : FVec Ideal S4096x64 φ₁) (w : FVec Ideal S64x64 φ₂) (r : Fin 4096) (q : Fin 64) :
    matmul dot_S4096x64_S64x64_S4096x64_1_0_0_1_n_n none x w (constant S4096x64 .f32 0x00000000#32) (ix2 r q)
      = ∑ k : Fin 64, x (ix2 r k) * w (ix2 k q) := by
  refine (Ideal.matmul_constant_zero_apply dot_S4096x64_S64x64_S4096x64_1_0_0_1_n_n none x w (ix2 r q)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 r q) ((contrEquiv1 dot_S4096x64_S64x64_S4096x64_1_0_0_1_n_n 64 rfl rfl).symm k) = ix2 r k := funext fun a => Fin.ext (by
    match a with
    | ⟨0, _⟩ => exact lhs_d64_0 _ _
    | ⟨1, _⟩ => exact (lhs_d64_1 _ _).trans hk)
  have er : dot_S4096x64_S64x64_S4096x64_1_0_0_1_n_n.rhsIdx (ix2 r q) ((contrEquiv1 dot_S4096x64_S64x64_S4096x64_1_0_0_1_n_n 64 rfl rfl).symm k) = ix2 k q := funext fun a => Fin.ext (by
    match a with
    | ⟨0, _⟩ => exact (rhs_d64_0 _ _).trans hk
    | ⟨1, _⟩ => exact rhs_d64_1 _ _)
  rw [el, er]

/-! The dot `[4096, 5] × [5, 64]`: its operand indices, axis by axis. -/

private theorem lhs_d5_0 (i : S4096x64.Idx) (c : dot_S4096x5_S5x64_S4096x64_1_0_0_1_n_n.contr.Idx) :
    (dot_S4096x5_S5x64_S4096x64_1_0_0_1_n_n.lhsIdx i c 0).val = (i 0).val := by
  unfold DotDims.lhsIdx
  rw [dif_neg (show ¬(0 : Fin S4096x5.rank) ∈ dot_S4096x5_S5x64_S4096x64_1_0_0_1_n_n.lhsBatch by decide), dif_pos (show (0 : Fin S4096x5.rank) ∈ dot_S4096x5_S5x64_S4096x64_1_0_0_1_n_n.lhsNonContracting by decide)]
  rfl
private theorem lhs_d5_1 (i : S4096x64.Idx) (c : dot_S4096x5_S5x64_S4096x64_1_0_0_1_n_n.contr.Idx) :
    (dot_S4096x5_S5x64_S4096x64_1_0_0_1_n_n.lhsIdx i c 1).val = (c ⟨0, by decide⟩).val :=
  dot_S4096x5_S5x64_S4096x64_1_0_0_1_n_n.lhsIdx_val_of_single rfl i c
private theorem rhs_d5_0 (i : S4096x64.Idx) (c : dot_S4096x5_S5x64_S4096x64_1_0_0_1_n_n.contr.Idx) :
    (dot_S4096x5_S5x64_S4096x64_1_0_0_1_n_n.rhsIdx i c 0).val = (c ⟨0, by decide⟩).val :=
  dot_S4096x5_S5x64_S4096x64_1_0_0_1_n_n.rhsIdx_val_of_single rfl i c
private theorem rhs_d5_1 (i : S4096x64.Idx) (c : dot_S4096x5_S5x64_S4096x64_1_0_0_1_n_n.contr.Idx) :
    (dot_S4096x5_S5x64_S4096x64_1_0_0_1_n_n.rhsIdx i c 1).val = (i 1).val := by
  unfold DotDims.rhsIdx
  rw [dif_neg (show ¬(1 : Fin S5x64.rank) ∈ dot_S4096x5_S5x64_S4096x64_1_0_0_1_n_n.rhsBatch by decide), dif_pos (show (1 : Fin S5x64.rank) ∈ dot_S4096x5_S5x64_S4096x64_1_0_0_1_n_n.rhsNonContracting by decide)]
  rfl

/-- The product onto a zero accumulator, at `(r, q)`: the sum over `k` of row `r` of the left operand against
    column `q` of the right one. -/
private theorem mm_d5_apply {φ₁ φ₂ : FTy} (x : FVec Ideal S4096x5 φ₁) (w : FVec Ideal S5x64 φ₂) (r : Fin 4096) (q : Fin 64) :
    matmul dot_S4096x5_S5x64_S4096x64_1_0_0_1_n_n none x w (constant S4096x64 .f32 0x00000000#32) (ix2 r q)
      = ∑ k : Fin 5, x (ix2 r k) * w (ix2 k q) := by
  refine (Ideal.matmul_constant_zero_apply dot_S4096x5_S5x64_S4096x64_1_0_0_1_n_n none x w (ix2 r q)).trans ?_
  rw [← Equiv.sum_comp (contrEquiv1 dot_S4096x5_S5x64_S4096x64_1_0_0_1_n_n 5 rfl rfl).symm]
  refine Finset.sum_congr rfl fun k _ => ?_
  have hk := contrEquiv1_symm_val dot_S4096x5_S5x64_S4096x64_1_0_0_1_n_n 5 rfl rfl k
  have el : dot_S4096x5_S5x64_S4096x64_1_0_0_1_n_n.lhsIdx (ix2 r q) ((contrEquiv1 dot_S4096x5_S5x64_S4096x64_1_0_0_1_n_n 5 rfl rfl).symm k) = ix2 r k := funext fun a => Fin.ext (by
    match a with
    | ⟨0, _⟩ => exact lhs_d5_0 _ _
    | ⟨1, _⟩ => exact (lhs_d5_1 _ _).trans hk)
  have er : dot_S4096x5_S5x64_S4096x64_1_0_0_1_n_n.rhsIdx (ix2 r q) ((contrEquiv1 dot_S4096x5_S5x64_S4096x64_1_0_0_1_n_n 5 rfl rfl).symm k) = ix2 k q := funext fun a => Fin.ext (by
    match a with
    | ⟨0, _⟩ => exact (rhs_d5_0 _ _).trans hk
    | ⟨1, _⟩ => exact rhs_d5_1 _ _)
  rw [el, er]

/-! The dot `[4096, 64] × [64, 32]`: its operand indices, axis by axis. -/

private theorem lhs_d6432_0 (i : S4096x32.Idx) (c : dot_S4096x64_S64x32_S4096x32_1_0_0_1_n_n.contr.Idx) :
    (dot_S4096x64_S64x32_S4096x32_1_0_0_1_n_n.lhsIdx i c 0).val = (i 0).val := by
  unfold DotDims.lhsIdx
  rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
  rfl
private theorem lhs_d6432_1 (i : S4096x32.Idx) (c : dot_S4096x64_S64x32_S4096x32_1_0_0_1_n_n.contr.Idx) :
    (dot_S4096x64_S64x32_S4096x32_1_0_0_1_n_n.lhsIdx i c 1).val = (c ⟨0, by decide⟩).val :=
  dot_S4096x64_S64x32_S4096x32_1_0_0_1_n_n.lhsIdx_val_of_single rfl i c
private theorem rhs_d6432_0 (i : S4096x32.Idx) (c : dot_S4096x64_S64x32_S4096x32_1_0_0_1_n_n.contr.Idx) :
    (dot_S4096x64_S64x32_S4096x32_1_0_0_1_n_n.rhsIdx i c 0).val = (c ⟨0, by decide⟩).val :=
  dot_S4096x64_S64x32_S4096x32_1_0_0_1_n_n.rhsIdx_val_of_single rfl i c
private theorem rhs_d6432_1 (i : S4096x32.Idx) (c : dot_S4096x64_S64x32_S4096x32_1_0_0_1_n_n.contr.Idx) :
    (dot_S4096x64_S64x32_S4096x32_1_0_0_1_n_n.rhsIdx i c 1).val = (i 1).val := by
  unfold DotDims.rhsIdx
  rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
  rfl

/-- The product onto a zero accumulator, at `(r, q)`: the sum over `k` of row `r` of the left operand against
    column `q` of the right one. -/
private theorem mm_d6432_apply {φ₁ φ₂ : FTy} (x : FVec Ideal S4096x64 φ₁) (w : FVec Ideal S64x32 φ₂) (r : Fin 4096) (q : Fin 32) :
    matmul dot_S4096x64_S64x32_S4096x32_1_0_0_1_n_n none x w (constant S4096x32 .f32 0x00000000#32) (ix2 r q)
      = ∑ k : Fin 64, x (ix2 r k) * w (ix2 k q) := by
  refine (Ideal.matmul_constant_zero_apply dot_S4096x64_S64x32_S4096x32_1_0_0_1_n_n none x w (ix2 r q)).trans ?_
  rw [← Equiv.sum_comp (contrEquiv1 dot_S4096x64_S64x32_S4096x32_1_0_0_1_n_n 64 rfl rfl).symm]
  refine Finset.sum_congr rfl fun k _ => ?_
  have hk := contrEquiv1_symm_val dot_S4096x64_S64x32_S4096x32_1_0_0_1_n_n 64 rfl rfl k
  have el : dot_S4096x64_S64x32_S4096x32_1_0_0_1_n_n.lhsIdx (ix2 r q) ((contrEquiv1 dot_S4096x64_S64x32_S4096x32_1_0_0_1_n_n 64 rfl rfl).symm k) = ix2 r k := funext fun a => Fin.ext (by
    match a with
    | ⟨0, _⟩ => exact lhs_d6432_0 _ _
    | ⟨1, _⟩ => exact (lhs_d6432_1 _ _).trans hk)
  have er : dot_S4096x64_S64x32_S4096x32_1_0_0_1_n_n.rhsIdx (ix2 r q) ((contrEquiv1 dot_S4096x64_S64x32_S4096x32_1_0_0_1_n_n 64 rfl rfl).symm k) = ix2 k q := funext fun a => Fin.ext (by
    match a with
    | ⟨0, _⟩ => exact (rhs_d6432_0 _ _).trans hk
    | ⟨1, _⟩ => exact rhs_d6432_1 _ _)
  rw [el, er]

/-! The dot `[4096, 32] × [32, 1]`: its operand indices, axis by axis. -/

private theorem lhs_d321_0 (i : S4096x1.Idx) (c : dot_S4096x32_S32x1_S4096x1_1_0_0_1_n_n.contr.Idx) :
    (dot_S4096x32_S32x1_S4096x1_1_0_0_1_n_n.lhsIdx i c 0).val = (i 0).val := by
  unfold DotDims.lhsIdx
  rw [dif_neg (show ¬(0 : Fin S4096x32.rank) ∈ dot_S4096x32_S32x1_S4096x1_1_0_0_1_n_n.lhsBatch by decide), dif_pos (show (0 : Fin S4096x32.rank) ∈ dot_S4096x32_S32x1_S4096x1_1_0_0_1_n_n.lhsNonContracting by decide)]
  rfl
private theorem lhs_d321_1 (i : S4096x1.Idx) (c : dot_S4096x32_S32x1_S4096x1_1_0_0_1_n_n.contr.Idx) :
    (dot_S4096x32_S32x1_S4096x1_1_0_0_1_n_n.lhsIdx i c 1).val = (c ⟨0, by decide⟩).val :=
  dot_S4096x32_S32x1_S4096x1_1_0_0_1_n_n.lhsIdx_val_of_single rfl i c
private theorem rhs_d321_0 (i : S4096x1.Idx) (c : dot_S4096x32_S32x1_S4096x1_1_0_0_1_n_n.contr.Idx) :
    (dot_S4096x32_S32x1_S4096x1_1_0_0_1_n_n.rhsIdx i c 0).val = (c ⟨0, by decide⟩).val :=
  dot_S4096x32_S32x1_S4096x1_1_0_0_1_n_n.rhsIdx_val_of_single rfl i c
private theorem rhs_d321_1 (i : S4096x1.Idx) (c : dot_S4096x32_S32x1_S4096x1_1_0_0_1_n_n.contr.Idx) :
    (dot_S4096x32_S32x1_S4096x1_1_0_0_1_n_n.rhsIdx i c 1).val = (i 1).val := by
  unfold DotDims.rhsIdx
  rw [dif_neg (show ¬(1 : Fin S32x1.rank) ∈ dot_S4096x32_S32x1_S4096x1_1_0_0_1_n_n.rhsBatch by decide), dif_pos (show (1 : Fin S32x1.rank) ∈ dot_S4096x32_S32x1_S4096x1_1_0_0_1_n_n.rhsNonContracting by decide)]
  rfl

/-- The product onto a zero accumulator, at `(r, q)`: the sum over `k` of row `r` of the left operand against
    column `q` of the right one. -/
private theorem mm_d321_apply {φ₁ φ₂ : FTy} (x : FVec Ideal S4096x32 φ₁) (w : FVec Ideal S32x1 φ₂) (r : Fin 4096) (q : Fin 1) :
    matmul dot_S4096x32_S32x1_S4096x1_1_0_0_1_n_n none x w (constant S4096x1 .f32 0x00000000#32) (ix2 r q)
      = ∑ k : Fin 32, x (ix2 r k) * w (ix2 k q) := by
  refine (Ideal.matmul_constant_zero_apply dot_S4096x32_S32x1_S4096x1_1_0_0_1_n_n none x w (ix2 r q)).trans ?_
  rw [← Equiv.sum_comp (contrEquiv1 dot_S4096x32_S32x1_S4096x1_1_0_0_1_n_n 32 rfl rfl).symm]
  refine Finset.sum_congr rfl fun k _ => ?_
  have hk := contrEquiv1_symm_val dot_S4096x32_S32x1_S4096x1_1_0_0_1_n_n 32 rfl rfl k
  have el : dot_S4096x32_S32x1_S4096x1_1_0_0_1_n_n.lhsIdx (ix2 r q) ((contrEquiv1 dot_S4096x32_S32x1_S4096x1_1_0_0_1_n_n 32 rfl rfl).symm k) = ix2 r k := funext fun a => Fin.ext (by
    match a with
    | ⟨0, _⟩ => exact lhs_d321_0 _ _
    | ⟨1, _⟩ => exact (lhs_d321_1 _ _).trans hk)
  have er : dot_S4096x32_S32x1_S4096x1_1_0_0_1_n_n.rhsIdx (ix2 r q) ((contrEquiv1 dot_S4096x32_S32x1_S4096x1_1_0_0_1_n_n 32 rfl rfl).symm k) = ix2 k q := funext fun a => Fin.ext (by
    match a with
    | ⟨0, _⟩ => exact (rhs_d321_0 _ _).trans hk
    | ⟨1, _⟩ => exact rhs_d321_1 _ _)
  rw [el, er]

/-! ## Region 6: the edge predictor -/

/-- The logistic function lane by lane. -/
private theorem logistic_apply {s : Shape} {φ : FTy} (a : FVec Ideal s φ) (i : s.Idx) : logistic a i = Ideal.logistic (a i) := rfl

/-- The second layer's pre-activation at `(r, k)`: the first layer's row (three products, one per slice of the joined
    row, plus the bias, through the ReLU) against column `k` of `w2`, plus the bias. -/
theorem k6_pay2_apply (hs ht : Vec Ideal S4096x64 .bf16) (ea : Vec Ideal S4096x5 .f32) (w1s w1t : Vec Ideal S64x64 .f32)
    (w1e : Vec Ideal S5x64 .f32) (b1 : Vec Ideal S1x64 .f32) (w2 : Vec Ideal S64x32 .f32) (b2 : Vec Ideal S1x32 .f32)
    (r : Fin 4096) (k : Fin 32) :
    k6_pay2 hs ht ea w1s w1t w1e b1 w2 b2 (ix2 r k)
      = (∑ j : Fin 64, max (((((∑ i : Fin 64, hs (ix2 r i) * w1s (ix2 i j)) + (∑ i : Fin 64, ht (ix2 r i) * w1t (ix2 i j)))
              + (∑ i : Fin 5, ea (ix2 r i) * w1e (ix2 i j))) + b1 (ix2 0 j))) Cert.Spec.w0 * w2 (ix2 j k))
          + b2 (ix2 0 k) := by
  unfold k6_pay2
  simp only [shapeCast_self]
  refine (addf_apply _ _ _).trans (congrArg₂ (· + ·) ?_ (broadcastTo_1b_ab_apply b2 _ r k))
  refine (mm_d6432_apply _ _ r k).trans (Finset.sum_congr rfl fun j _ => ?_)
  refine congrArg₂ (· * ·) ?_ rfl
  refine (truncf_apply (φ := .f32) (ψ := .bf16) _ _ _).trans ?_
  refine (maximumf_apply _ _ _).trans (congrArg₂ max ?_ rfl)
  refine (addf_apply _ _ _).trans (congrArg₂ (· + ·) ?_ (broadcastTo_1b_ab_apply b1 _ r j))
  refine (addf_apply _ _ _).trans (congrArg₂ (· + ·) ((addf_apply _ _ _).trans (congrArg₂ (· + ·) ?_ ?_)) ?_)
  · exact mm_d64_apply _ _ r j
  · exact mm_d64_apply _ _ r j
  · exact mm_d5_apply _ _ r j

/-- The zero the second ReLU compares with. -/
theorem k6_pay3_apply (i : S4096x32.Idx) : k6_pay3 (F := Ideal) i = Cert.Spec.w0 := rfl

/-- The third layer on a second-layer pre-activation `v33` and the ReLU's zero `v34`: the row against `w3`, plus the
    bias, through the logistic function. -/
theorem k6_pay1_apply (v33 v34 : FVec Ideal S4096x32 .f32) (w3 : Vec Ideal S32x1 .f32) (b3 : Vec Ideal S1x1 .f32) (r : Fin 4096) :
    k6_pay1 v33 v34 w3 b3 (ix2 r 0)
      = Ideal.logistic ((∑ k : Fin 32, max (v33 (ix2 r k)) (v34 (ix2 r k)) * w3 (ix2 k 0)) + b3 (ix2 0 0)) := by
  unfold k6_pay1
  simp only [shapeCast_self]
  refine (logistic_apply _ _).trans (congrArg Ideal.logistic ?_)
  refine (addf_apply _ _ _).trans (congrArg₂ (· + ·) ?_ (broadcastTo_1b_ab_apply b3 _ r 0))
  exact mm_d321_apply _ _ r 0

/-- Region 6's stored value at row `r`, over the extended reals, is the row specification of row `r` of its
    row-tiled inputs and the whole weights: no other row enters. -/
theorem out6_apply (hs ht : Vec Ideal S4096x64 .bf16) (ea : Vec Ideal S4096x5 .f32) (w1s w1t : Vec Ideal S64x64 .f32) (w1e : Vec Ideal S5x64 .f32)
    (b1 : Vec Ideal S1x64 .f32) (w2 : Vec Ideal S64x32 .f32) (b2 : Vec Ideal S1x32 .f32) (w3 : Vec Ideal S32x1 .f32) (b3 : Vec Ideal S1x1 .f32) (r : Fin 4096) :
    out6 hs ht ea w1s w1t w1e b1 w2 b2 w3 b3 (ix2 r 0)
      = Cert.Spec.predRow (fun k : Fin 64 => hs (ix2 r k)) (fun k : Fin 64 => ht (ix2 r k)) (fun k : Fin 5 => ea (ix2 r k)) (fun (k : Fin 64) (q' : Fin 64) => w1s (ix2 k q')) (fun (k : Fin 64) (q' : Fin 64) => w1t (ix2 k q')) (fun (k : Fin 5) (q' : Fin 64) => w1e (ix2 k q')) (fun q' : Fin 64 => b1 (ix2 0 q'))
          (fun (k : Fin 64) (q' : Fin 32) => w2 (ix2 k q')) (fun q' : Fin 32 => b2 (ix2 0 q')) (fun k : Fin 32 => w3 (ix2 k 0)) (b3 (ix2 0 0)) := by
  unfold out6
  refine (k6_pay1_apply _ _ w3 b3 r).trans ?_
  simp only [k6_pay2_apply, k6_pay3_apply]
  rfl

end Cert.KernelIdeal.Gen.Val

end
-- ==== Proof.KI.Loc6.lean ====
import proofs.«178696_j1468878815658_2_alg».proof.Proof.KI.Val6
import proofs.«178696_j1468878815658_2_alg».proof.Proof.KI.Outs
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Gen.Val

open Idealize.ShloMosaic Idealize.ShloMosaic.ValueIdx Cert.KernelIdeal Cert.KernelIdeal.Gen

/-- Row locality of region 6 over the extended reals: the stored entry of row `r` depends on row `r` of the source
    rows, of the target rows and of the edge attributes only (and on the weights). Both sides are the row specification
    of the same arguments. -/
theorem out6_congr_row (hs hs' ht ht' : Vec Ideal S4096x64 .bf16) (ea ea' : Vec Ideal S4096x5 .f32) (w1s w1t : Vec Ideal S64x64 .f32) (w1e : Vec Ideal S5x64 .f32) (b1 : Vec Ideal S1x64 .f32) (w2 : Vec Ideal S64x32 .f32) (b2 : Vec Ideal S1x32 .f32) (w3 : Vec Ideal S32x1 .f32) (b3 : Vec Ideal S1x1 .f32) (r : Fin 4096) (h1 : ∀ k : Fin 64, hs (ix2 r k) = hs' (ix2 r k)) (h2 : ∀ k : Fin 64, ht (ix2 r k) = ht' (ix2 r k)) (h3 : ∀ k : Fin 5, ea (ix2 r k) = ea' (ix2 r k)) : out6 hs ht ea w1s w1t w1e b1 w2 b2 w3 b3 (ix2 r 0) = out6 hs' ht' ea' w1s w1t w1e b1 w2 b2 w3 b3 (ix2 r 0) := by
  rw [out6_apply, out6_apply]
  have e1 : (fun k : Fin 64 => hs (ix2 r k)) = fun k : Fin 64 => hs' (ix2 r k) := funext h1
  have e2 : (fun k : Fin 64 => ht (ix2 r k)) = fun k : Fin 64 => ht' (ix2 r k) := funext h2
  have e3 : (fun k : Fin 5 => ea (ix2 r k)) = fun k : Fin 5 => ea' (ix2 r k) := funext h3
  rw [e1, e2, e3]

end Cert.KernelIdeal.Gen.Val

end
-- ==== Proof.KI.Cut6.lean ====
import proofs.«178696_j1468878815658_2_alg».proof.Proof.KI.Loc6
import proofs.«178696_j1468878815658_2_alg».proof.Proof.Gen.KernelIdeal.Launch
import proofs.«178696_j1468878815658_2_alg».proof.Proof.Gen.KernelIdeal.Points
import Idealize.ShloMosaic.Lib.Pipeline.Kit

noncomputable section

namespace Cert.KernelIdeal.Gen.Val

open Idealize.ShloMosaic Idealize.ShloMosaic.ValueIdx Cert.KernelIdeal Cert.KernelIdeal.Gen
open Idealize.ShloMosaic.Pipeline (Window)

/-- Two fillings of one moved part agree at every index of the block that is moved, whatever they hold elsewhere. -/
private theorem fill_congr_moved {σ : RefSig} {G : Pipeline.Grid} {α : Type} (w : Window σ G) (i : G.Coords)
    (d d' : w.block.Idx → α) (g : (w.xblock i).Idx → α) (j : w.block.Idx) (h : w.moved i j = true) :
    w.fill i d g j = w.fill i d' g j := by
  unfold Window.fill
  rw [dif_pos h, dif_pos h]

/-! The row-tiled windows of region 6 are cut alike: the three inputs and the output have one row index map, blocks of
    4096 rows and arrays of 1000000 rows, so the same rows of a block lie inside the array; no window is cut on its
    columns. -/

theorem xsize6_0_rows (i : grid6.Coords) : (cfg6.win 0).xsize i 0 = (cfg6.win 11).xsize i 0 := rfl
theorem xsize6_1_rows (i : grid6.Coords) : (cfg6.win 1).xsize i 0 = (cfg6.win 11).xsize i 0 := rfl
theorem xsize6_2_rows (i : grid6.Coords) : (cfg6.win 2).xsize i 0 = (cfg6.win 11).xsize i 0 := rfl
theorem xsize6_0_cols (i : grid6.Coords) : (cfg6.win 0).xsize i 1 = 64 := rfl
theorem xsize6_1_cols (i : grid6.Coords) : (cfg6.win 1).xsize i 1 = 64 := rfl
theorem xsize6_2_cols (i : grid6.Coords) : (cfg6.win 2).xsize i 1 = 5 := rfl
theorem xsize6_11_cols (i : grid6.Coords) : (cfg6.win 11).xsize i 1 = 1 := rfl

/-- Region 6's stored block, read on the part of it that lies inside the array, does not depend on what the input
    blocks hold past their arrays' ends: a stored row inside the array is the row specification of the same row of
    each row-tiled input, and that row is inside the input's array too. -/
theorem cut_out6_fill (t : Fin cfg6.N)
    (d0 d0' : (cfg6.win 0).block.Idx → Elt Ideal (cfg6.win 0).elt) (b0 : ((cfg6.win 0).xblock (cfg6.grid.coords t)).Idx → Elt Ideal (cfg6.win 0).elt)
    (d1 d1' : (cfg6.win 1).block.Idx → Elt Ideal (cfg6.win 1).elt) (b1 : ((cfg6.win 1).xblock (cfg6.grid.coords t)).Idx → Elt Ideal (cfg6.win 1).elt)
    (d2 d2' : (cfg6.win 2).block.Idx → Elt Ideal (cfg6.win 2).elt) (b2 : ((cfg6.win 2).xblock (cfg6.grid.coords t)).Idx → Elt Ideal (cfg6.win 2).elt)
    (w1s : Vec Ideal S64x64 .f32) (w1t : Vec Ideal S64x64 .f32) (w1e : Vec Ideal S5x64 .f32) (c1 : Vec Ideal S1x64 .f32) (w2 : Vec Ideal S64x32 .f32) (c2 : Vec Ideal S1x32 .f32) (w3 : Vec Ideal S32x1 .f32) (b3 : Vec Ideal S1x1 .f32) :
    (cfg6.win 11).cut (cfg6.grid.coords t) (out6 ((cfg6.win 0).fill (cfg6.grid.coords t) d0 b0) ((cfg6.win 1).fill (cfg6.grid.coords t) d1 b1) ((cfg6.win 2).fill (cfg6.grid.coords t) d2 b2) w1s w1t w1e c1 w2 c2 w3 b3)
      = (cfg6.win 11).cut (cfg6.grid.coords t) (out6 ((cfg6.win 0).fill (cfg6.grid.coords t) d0' b0) ((cfg6.win 1).fill (cfg6.grid.coords t) d1' b1) ((cfg6.win 2).fill (cfg6.grid.coords t) d2' b2) w1s w1t w1e c1 w2 c2 w3 b3) := by
  funext j
  have hr11 : (j 0).val < (cfg6.win 11).xsize (cfg6.grid.coords t) 0 := (j 0).isLt
  have hq11 : (j 1).val < 1 := Nat.lt_of_lt_of_eq (j 1).isLt (xsize6_11_cols (cfg6.grid.coords t))
  have hr : (j 0).val < 4096 := Nat.lt_of_lt_of_le hr11 ((cfg6.win 11).xsize_le (cfg6.grid.coords t) 0)
  have ej : (cfg6.win 11).xinj (cfg6.grid.coords t) j = ix2 (⟨(j 0).val, hr⟩ : Fin 4096) (0 : Fin 1) :=
    funext fun a => Fin.ext (by
      match a with
      | ⟨0, _⟩ => rfl
      | ⟨1, _⟩ => exact Nat.lt_one_iff.mp hq11)
  show out6 _ _ _ w1s w1t w1e c1 w2 c2 w3 b3 ((cfg6.win 11).xinj (cfg6.grid.coords t) j)
    = out6 _ _ _ w1s w1t w1e c1 w2 c2 w3 b3 ((cfg6.win 11).xinj (cfg6.grid.coords t) j)
  rw [ej]
  refine out6_congr_row _ _ _ _ _ _ w1s w1t w1e c1 w2 c2 w3 b3 ⟨(j 0).val, hr⟩ (fun k => ?_) (fun k => ?_) (fun k => ?_)
  · refine fill_congr_moved (cfg6.win 0) _ d0 d0' b0 _ (((cfg6.win 0).moved_iff _ _).mpr fun a => ?_)
    match a with
    | ⟨0, _⟩ => exact Nat.lt_of_lt_of_eq hr11 (xsize6_0_rows (cfg6.grid.coords t)).symm
    | ⟨1, _⟩ => exact Nat.lt_of_lt_of_eq k.isLt (xsize6_0_cols (cfg6.grid.coords t)).symm
  · refine fill_congr_moved (cfg6.win 1) _ d1 d1' b1 _ (((cfg6.win 1).moved_iff _ _).mpr fun a => ?_)
    match a with
    | ⟨0, _⟩ => exact Nat.lt_of_lt_of_eq hr11 (xsize6_1_rows (cfg6.grid.coords t)).symm
    | ⟨1, _⟩ => exact Nat.lt_of_lt_of_eq k.isLt (xsize6_1_cols (cfg6.grid.coords t)).symm
  · refine fill_congr_moved (cfg6.win 2) _ d2 d2' b2 _ (((cfg6.win 2).moved_iff _ _).mpr fun a => ?_)
    match a with
    | ⟨0, _⟩ => exact Nat.lt_of_lt_of_eq hr11 (xsize6_2_rows (cfg6.grid.coords t)).symm
    | ⟨1, _⟩ => exact Nat.lt_of_lt_of_eq k.isLt (xsize6_2_cols (cfg6.grid.coords t)).symm

end Cert.KernelIdeal.Gen.Val

end
-- ==== Proof.KI.Named6.lean ====
import proofs.«178696_j1468878815658_2_alg».proof.Proof.KI.Obl6
import proofs.«178696_j1468878815658_2_alg».proof.Proof.KI.Cut6

/-!
  Region 6's body obligation over the extended reals with EVERY window named. The output's staging buffer is stated on
  the rows inside the array only; there what the body stores does not depend on the words the clipped fetch left in the
  rest of the input buffers, because a stored row is a function of the same row of each row-tiled input alone.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (V : (c : Dev nD) → (b : Ref sig .tc) → Buf (Elt Idealize.ShloMosaic.Ideal) ((c : Thread nD τ).loc b))

theorem body_obligation6_named (c : Dev nD) :
    BodyObligationLoose (dat6 (F := Idealize.ShloMosaic.Ideal) V c) (defs₀ (F := Idealize.ShloMosaic.Ideal)) Variants.none () Set.univ := fun t => by
  rw [bigSep_W6, bigSep_W6]
  simp only
  rw [show (dat6 V c).Φ t.succ = (dat6 V c).Φ t.castSucc from rfl,
    show (dat6 V c).owesAt () t.succ = (dat6 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%dO, HX⟩⟩
  rw [before6_0 V c t d0, before6_1 V c t d1, before6_2 V c t d2, before6_3 V c t d3, before6_4 V c t d4, before6_5 V c t d5, before6_6 V c t d6, before6_7 V c t d7, before6_8 V c t d8, before6_9 V c t d9, before6_10 V c t d10]
  iapply (sound_kernel6 (F := Idealize.ShloMosaic.Ideal) c Set.univ (grid6.coords t) (win6_0.stage (cfg6.slots t 0)) (hstage6_0 ((cfg6.slots t 0).cast nbuf6_0)) (win6_1.stage (cfg6.slots t 1)) (hstage6_1 ((cfg6.slots t 1).cast nbuf6_1)) (win6_2.stage (cfg6.slots t 2)) (hstage6_2 ((cfg6.slots t 2).cast nbuf6_2)) (win6_3.stage (cfg6.slots t 3)) (hstage6_3 ((cfg6.slots t 3).cast nbuf6_3)) (win6_4.stage (cfg6.slots t 4)) (hstage6_4 ((cfg6.slots t 4).cast nbuf6_4)) (win6_5.stage (cfg6.slots t 5)) (hstage6_5 ((cfg6.slots t 5).cast nbuf6_5)) (win6_6.stage (cfg6.slots t 6)) (hstage6_6 ((cfg6.slots t 6).cast nbuf6_6)) (win6_7.stage (cfg6.slots t 7)) (hstage6_7 ((cfg6.slots t 7).cast nbuf6_7)) (win6_8.stage (cfg6.slots t 8)) (hstage6_8 ((cfg6.slots t 8).cast nbuf6_8)) (win6_9.stage (cfg6.slots t 9)) (hstage6_9 ((cfg6.slots t 9).cast nbuf6_9)) (win6_10.stage (cfg6.slots t 10)) (hstage6_10 ((cfg6.slots t 10).cast nbuf6_10)) (win6_11.stage (cfg6.slots t 11)) (hstage6_11 ((cfg6.slots t 11).cast nbuf6_11)) ((cfg6.win 0).fill (cfg6.grid.coords t) d0 (iblk6 V c 0 t)) ((cfg6.win 1).fill (cfg6.grid.coords t) d1 (iblk6 V c 1 t)) ((cfg6.win 2).fill (cfg6.grid.coords t) d2 (iblk6 V c 2 t)) (iblk6 V c 3 t) (iblk6 V c 4 t) (iblk6 V c 5 t) (iblk6 V c 6 t) (iblk6 V c 7 t) (iblk6 V c 8 t) (iblk6 V c 9 t) (iblk6 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HX]; · iexists _; iexact HX
  iintro ⟨H0, H1, H2, H3, H4, H5, H6, H7, H8, H9, H10, HX⟩
  isplitl [HΦ]; · iexact HΦ
  isplitl [Ho]; · iexact Ho
  isplitl [H0]
  · iexists d0
    rw [after6_0]; unfold fblk6; rw [(cfg6.win 0).cut_fill]; iexact H0
  isplitl [H1]
  · iexists d1
    rw [after6_1]; unfold fblk6; rw [(cfg6.win 1).cut_fill]; iexact H1
  isplitl [H2]
  · iexists d2
    rw [after6_2]; unfold fblk6; rw [(cfg6.win 2).cut_fill]; iexact H2
  isplitl [H3]
  · rw [after6_3]; iexact H3
  isplitl [H4]
  · rw [after6_4]; iexact H4
  isplitl [H5]
  · rw [after6_5]; iexact H5
  isplitl [H6]
  · rw [after6_6]; iexact H6
  isplitl [H7]
  · rw [after6_7]; iexact H7
  isplitl [H8]
  · rw [after6_8]; iexact H8
  isplitl [H9]
  · rw [after6_9]; iexact H9
  isplitl [H10]
  · rw [after6_10]; iexact H10
  iexists (out6 ((cfg6.win 0).fill (cfg6.grid.coords t) d0 (iblk6 V c 0 t)) ((cfg6.win 1).fill (cfg6.grid.coords t) d1 (iblk6 V c 1 t)) ((cfg6.win 2).fill (cfg6.grid.coords t) d2 (iblk6 V c 2 t)) (iblk6 V c 3 t) (iblk6 V c 4 t) (iblk6 V c 5 t) (iblk6 V c 6 t) (iblk6 V c 7 t) (iblk6 V c 8 t) (iblk6 V c 9 t) (iblk6 V c 10 t))
  rw [after6_11]; unfold fblk6
  rw [(cfg6.win 11).fill_congr_cut (cfg6.grid.coords t) (Val.cut_out6_fill t d0 (fun _ => Classical.arbitrary _) (iblk6 V c 0 t) d1 (fun _ => Classical.arbitrary _) (iblk6 V c 1 t) d2 (fun _ => Classical.arbitrary _) (iblk6 V c 2 t) (iblk6 V c 3 t) (iblk6 V c 4 t) (iblk6 V c 5 t) (iblk6 V c 6 t) (iblk6 V c 7 t) (iblk6 V c 8 t) (iblk6 V c 9 t) (iblk6 V c 10 t))]
  iexact HX

end Cert.KernelIdeal.Gen

end
-- ==== Proof.KI.Fin6.lean ====
import proofs.«178696_j1468878815658_2_alg».proof.Proof.KI.Dat6
import proofs.«178696_j1468878815658_2_alg».proof.Proof.KI.Val6
import proofs.«178696_j1468878815658_2_alg».proof.Proof.Spec
import Idealize.ShloMosaic.Lib.ValueIdx
import Idealize.ShloMosaic.Lib.Pipeline.Value

/-!
  Region 6's output array after all its write-backs, over the extended reals: row by row the row specification of the
  entry arrays. Each point writes back the rows of its block that lie inside the array; such a row is the row
  specification of the same row of the input blocks, which read the entry arrays at the block's rows; and the points'
  blocks cover the array.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section Final

open Idealize.ShloMosaic.ValueIdx

variable (V : (c : Dev nD) → (b : Ref sig .tc) → Buf (Elt Idealize.ShloMosaic.Ideal) ((c : Thread nD τ).loc b))

/-! ## Where the blocks lie

  The grid is one axis of 245 points; point `t`'s row-tiled blocks are block `t` of their arrays (rows
  `4096 t` onwards, all columns), the weights' one block is the whole array. The last block overhangs the array's
  1000000 rows: of its 4096 rows the first `1000000 - 4096 t` are moved. -/

/-- The row-tiled windows' block index on the rows is the point's number. -/
theorem index6_row (t : Fin cfg6.N) : (cfg6.win 11).index t 0 = t.val := by
  have ht : t.val < 245 := t.isLt
  show (BitVec.ofNat 32 (t.val / 1 % 245)).toNat = t.val
  rw [BitVec.toNat_ofNat, Nat.div_one, Nat.mod_eq_of_lt ht, Nat.mod_eq_of_lt (by omega)]

/-- How many rows of block `t` lie inside the array. -/
theorem xsize6_row (t : Fin cfg6.N) :
    (cfg6.win 11).xsize (cfg6.grid.coords t) 0 = if (t.val + 1) * 4096 ≤ 1000000 then 4096 else 1000000 - t.val * 4096 := by
  show (Pipeline.Clip.of ((cfg6.win 11).index t 0) 4096 1000000).extent 4096 = _
  rw [index6_row t]
  unfold Pipeline.Clip.of
  split <;> rfl

/-- Row-tiled input window 0: its filled block at a row inside the array reads the entry array at that row of the
    block's rows. -/
theorem fblk6_0_apply (c : Dev nD) (t : Fin cfg6.N) (r' : Fin 4096) (k : Fin 64) (R : Fin 1000000)
    (hr : r'.val < (cfg6.win 0).xsize (cfg6.grid.coords t) 0) (hR : R.val = t.val * 4096 + r'.val) :
    fblk6 V c 0 t (ix2 r' k) = (V c main_v67 : S1000000x64.Idx → EReal) (ix2 R k) := by
  let j' : ((cfg6.win 0).xblock (cfg6.grid.coords t)).Idx := fun a => match a with
    | ⟨0, _⟩ => ⟨r'.val, hr⟩
    | ⟨1, _⟩ => ⟨k.val, k.isLt⟩
  have e : (ix2 r' k : (cfg6.win 0).block.Idx) = (cfg6.win 0).xinj (cfg6.grid.coords t) j' :=
    funext fun a => Fin.ext (by
      match a with
      | ⟨0, _⟩ => rfl
      | ⟨1, _⟩ => rfl)
  unfold fblk6
  rw [e, Window.fill_xinj]
  show (V c main_v67 : S1000000x64.Idx → EReal) (((cfg6.win 0).blk t).view.emb j') = _
  refine congrArg _ (funext fun a => Fin.ext ?_)
  match a with
  | ⟨0, _⟩ =>
    show (cfg6.win 0).index t 0 * 4096 + 1 * r'.val = R.val
    rw [hR, show (cfg6.win 0).index t 0 = t.val from index6_row t]
    omega
  | ⟨1, _⟩ =>
    show (cfg6.win 0).index t 1 * 64 + 1 * k.val = k.val
    rw [show (cfg6.win 0).index t 1 = 0 from rfl]
    omega

/-- Row-tiled input window 1: its filled block at a row inside the array reads the entry array at that row of the
    block's rows. -/
theorem fblk6_1_apply (c : Dev nD) (t : Fin cfg6.N) (r' : Fin 4096) (k : Fin 64) (R : Fin 1000000)
    (hr : r'.val < (cfg6.win 1).xsize (cfg6.grid.coords t) 0) (hR : R.val = t.val * 4096 + r'.val) :
    fblk6 V c 1 t (ix2 r' k) = (V c main_v74 : S1000000x64.Idx → EReal) (ix2 R k) := by
  let j' : ((cfg6.win 1).xblock (cfg6.grid.coords t)).Idx := fun a => match a with
    | ⟨0, _⟩ => ⟨r'.val, hr⟩
    | ⟨1, _⟩ => ⟨k.val, k.isLt⟩
  have e : (ix2 r' k : (cfg6.win 1).block.Idx) = (cfg6.win 1).xinj (cfg6.grid.coords t) j' :=
    funext fun a => Fin.ext (by
      match a with
      | ⟨0, _⟩ => rfl
      | ⟨1, _⟩ => rfl)
  unfold fblk6
  rw [e, Window.fill_xinj]
  show (V c main_v74 : S1000000x64.Idx → EReal) (((cfg6.win 1).blk t).view.emb j') = _
  refine congrArg _ (funext fun a => Fin.ext ?_)
  match a with
  | ⟨0, _⟩ =>
    show (cfg6.win 1).index t 0 * 4096 + 1 * r'.val = R.val
    rw [hR, show (cfg6.win 1).index t 0 = t.val from index6_row t]
    omega
  | ⟨1, _⟩ =>
    show (cfg6.win 1).index t 1 * 64 + 1 * k.val = k.val
    rw [show (cfg6.win 1).index t 1 = 0 from rfl]
    omega

/-- Row-tiled input window 2: its filled block at a row inside the array reads the entry array at that row of the
    block's rows. -/
theorem fblk6_2_apply (c : Dev nD) (t : Fin cfg6.N) (r' : Fin 4096) (k : Fin 5) (R : Fin 1000000)
    (hr : r'.val < (cfg6.win 2).xsize (cfg6.grid.coords t) 0) (hR : R.val = t.val * 4096 + r'.val) :
    fblk6 V c 2 t (ix2 r' k) = (V c main_arg2 : S1000000x5.Idx → EReal) (ix2 R k) := by
  let j' : ((cfg6.win 2).xblock (cfg6.grid.coords t)).Idx := fun a => match a with
    | ⟨0, _⟩ => ⟨r'.val, hr⟩
    | ⟨1, _⟩ => ⟨k.val, k.isLt⟩
  have e : (ix2 r' k : (cfg6.win 2).block.Idx) = (cfg6.win 2).xinj (cfg6.grid.coords t) j' :=
    funext fun a => Fin.ext (by
      match a with
      | ⟨0, _⟩ => rfl
      | ⟨1, _⟩ => rfl)
  unfold fblk6
  rw [e, Window.fill_xinj]
  show (V c main_arg2 : S1000000x5.Idx → EReal) (((cfg6.win 2).blk t).view.emb j') = _
  refine congrArg _ (funext fun a => Fin.ext ?_)
  match a with
  | ⟨0, _⟩ =>
    show (cfg6.win 2).index t 0 * 4096 + 1 * r'.val = R.val
    rw [hR, show (cfg6.win 2).index t 0 = t.val from index6_row t]
    omega
  | ⟨1, _⟩ =>
    show (cfg6.win 2).index t 1 * 5 + 1 * k.val = k.val
    rw [show (cfg6.win 2).index t 1 = 0 from rfl]
    omega

/-- Whole-array window 3: its one block is the entry array. -/
theorem iblk6_3_apply (c : Dev nD) (t : Fin cfg6.N) (k : Fin 64) (q' : Fin 64) :
    iblk6 V c 3 t (ix2 k q') = (V c main_v75 : S64x64.Idx → EReal) (ix2 k q') := by
  show (V c main_v75 : S64x64.Idx → EReal) (((cfg6.win 3).blk t).view.emb (ix2 k q')) = _
  refine congrArg _ (funext fun a => Fin.ext ?_)
  match a with
  | ⟨0, _⟩ =>
    show (cfg6.win 3).index t 0 * 64 + 1 * k.val = k.val
    rw [show (cfg6.win 3).index t 0 = 0 from rfl]
    omega
  | ⟨1, _⟩ =>
    show (cfg6.win 3).index t 1 * 64 + 1 * q'.val = q'.val
    rw [show (cfg6.win 3).index t 1 = 0 from rfl]
    omega

/-- Whole-array window 4: its one block is the entry array. -/
theorem iblk6_4_apply (c : Dev nD) (t : Fin cfg6.N) (k : Fin 64) (q' : Fin 64) :
    iblk6 V c 4 t (ix2 k q') = (V c main_v76 : S64x64.Idx → EReal) (ix2 k q') := by
  show (V c main_v76 : S64x64.Idx → EReal) (((cfg6.win 4).blk t).view.emb (ix2 k q')) = _
  refine congrArg _ (funext fun a => Fin.ext ?_)
  match a with
  | ⟨0, _⟩ =>
    show (cfg6.win 4).index t 0 * 64 + 1 * k.val = k.val
    rw [show (cfg6.win 4).index t 0 = 0 from rfl]
    omega
  | ⟨1, _⟩ =>
    show (cfg6.win 4).index t 1 * 64 + 1 * q'.val = q'.val
    rw [show (cfg6.win 4).index t 1 = 0 from rfl]
    omega

/-- Whole-array window 5: its one block is the entry array. -/
theorem iblk6_5_apply (c : Dev nD) (t : Fin cfg6.N) (k : Fin 5) (q' : Fin 64) :
    iblk6 V c 5 t (ix2 k q') = (V c main_v77 : S5x64.Idx → EReal) (ix2 k q') := by
  show (V c main_v77 : S5x64.Idx → EReal) (((cfg6.win 5).blk t).view.emb (ix2 k q')) = _
  refine congrArg _ (funext fun a => Fin.ext ?_)
  match a with
  | ⟨0, _⟩ =>
    show (cfg6.win 5).index t 0 * 5 + 1 * k.val = k.val
    rw [show (cfg6.win 5).index t 0 = 0 from rfl]
    omega
  | ⟨1, _⟩ =>
    show (cfg6.win 5).index t 1 * 64 + 1 * q'.val = q'.val
    rw [show (cfg6.win 5).index t 1 = 0 from rfl]
    omega

/-- Whole-array window 6: its one block is the entry array. -/
theorem iblk6_6_apply (c : Dev nD) (t : Fin cfg6.N) (k : Fin 1) (q' : Fin 64) :
    iblk6 V c 6 t (ix2 k q') = (V c main_v78 : S1x64.Idx → EReal) (ix2 k q') := by
  show (V c main_v78 : S1x64.Idx → EReal) (((cfg6.win 6).blk t).view.emb (ix2 k q')) = _
  refine congrArg _ (funext fun a => Fin.ext ?_)
  match a with
  | ⟨0, _⟩ =>
    show (cfg6.win 6).index t 0 * 1 + 1 * k.val = k.val
    rw [show (cfg6.win 6).index t 0 = 0 from rfl]
    omega
  | ⟨1, _⟩ =>
    show (cfg6.win 6).index t 1 * 64 + 1 * q'.val = q'.val
    rw [show (cfg6.win 6).index t 1 = 0 from rfl]
    omega

/-- Whole-array window 7: its one block is the entry array. -/
theorem iblk6_7_apply (c : Dev nD) (t : Fin cfg6.N) (k : Fin 64) (q' : Fin 32) :
    iblk6 V c 7 t (ix2 k q') = (V c main_arg25 : S64x32.Idx → EReal) (ix2 k q') := by
  show (V c main_arg25 : S64x32.Idx → EReal) (((cfg6.win 7).blk t).view.emb (ix2 k q')) = _
  refine congrArg _ (funext fun a => Fin.ext ?_)
  match a with
  | ⟨0, _⟩ =>
    show (cfg6.win 7).index t 0 * 64 + 1 * k.val = k.val
    rw [show (cfg6.win 7).index t 0 = 0 from rfl]
    omega
  | ⟨1, _⟩ =>
    show (cfg6.win 7).index t 1 * 32 + 1 * q'.val = q'.val
    rw [show (cfg6.win 7).index t 1 = 0 from rfl]
    omega

/-- Whole-array window 8: its one block is the entry array. -/
theorem iblk6_8_apply (c : Dev nD) (t : Fin cfg6.N) (k : Fin 1) (q' : Fin 32) :
    iblk6 V c 8 t (ix2 k q') = (V c main_v79 : S1x32.Idx → EReal) (ix2 k q') := by
  show (V c main_v79 : S1x32.Idx → EReal) (((cfg6.win 8).blk t).view.emb (ix2 k q')) = _
  refine congrArg _ (funext fun a => Fin.ext ?_)
  match a with
  | ⟨0, _⟩ =>
    show (cfg6.win 8).index t 0 * 1 + 1 * k.val = k.val
    rw [show (cfg6.win 8).index t 0 = 0 from rfl]
    omega
  | ⟨1, _⟩ =>
    show (cfg6.win 8).index t 1 * 32 + 1 * q'.val = q'.val
    rw [show (cfg6.win 8).index t 1 = 0 from rfl]
    omega

/-- Whole-array window 9: its one block is the entry array. -/
theorem iblk6_9_apply (c : Dev nD) (t : Fin cfg6.N) (k : Fin 32) (q' : Fin 1) :
    iblk6 V c 9 t (ix2 k q') = (V c main_arg27 : S32x1.Idx → EReal) (ix2 k q') := by
  show (V c main_arg27 : S32x1.Idx → EReal) (((cfg6.win 9).blk t).view.emb (ix2 k q')) = _
  refine congrArg _ (funext fun a => Fin.ext ?_)
  match a with
  | ⟨0, _⟩ =>
    show (cfg6.win 9).index t 0 * 32 + 1 * k.val = k.val
    rw [show (cfg6.win 9).index t 0 = 0 from rfl]
    omega
  | ⟨1, _⟩ =>
    show (cfg6.win 9).index t 1 * 1 + 1 * q'.val = q'.val
    rw [show (cfg6.win 9).index t 1 = 0 from rfl]
    omega

/-- Whole-array window 10: its one block is the entry array. -/
theorem iblk6_10_apply (c : Dev nD) (t : Fin cfg6.N) (k : Fin 1) (q' : Fin 1) :
    iblk6 V c 10 t (ix2 k q') = (V c main_v80 : S1x1.Idx → EReal) (ix2 k q') := by
  show (V c main_v80 : S1x1.Idx → EReal) (((cfg6.win 10).blk t).view.emb (ix2 k q')) = _
  refine congrArg _ (funext fun a => Fin.ext ?_)
  match a with
  | ⟨0, _⟩ =>
    show (cfg6.win 10).index t 0 * 1 + 1 * k.val = k.val
    rw [show (cfg6.win 10).index t 0 = 0 from rfl]
    omega
  | ⟨1, _⟩ =>
    show (cfg6.win 10).index t 1 * 1 + 1 * q'.val = q'.val
    rw [show (cfg6.win 10).index t 1 = 0 from rfl]
    omega

/-! ## The array the write-backs leave -/

/-- Row by row, the row specification of the entry arrays. -/
def G6 (c : Dev nD) : S1000000x1.Idx → EReal := fun i =>
  Cert.Spec.predRow (fun k : Fin 64 => (V c main_v67 : S1000000x64.Idx → EReal) (ix2 (i 0 : Fin 1000000) k))
    (fun k : Fin 64 => (V c main_v74 : S1000000x64.Idx → EReal) (ix2 (i 0 : Fin 1000000) k))
    (fun k : Fin 5 => (V c main_arg2 : S1000000x5.Idx → EReal) (ix2 (i 0 : Fin 1000000) k))
    (fun (k : Fin 64) (q' : Fin 64) => (V c main_v75 : S64x64.Idx → EReal) (ix2 k q'))
    (fun (k : Fin 64) (q' : Fin 64) => (V c main_v76 : S64x64.Idx → EReal) (ix2 k q'))
    (fun (k : Fin 5) (q' : Fin 64) => (V c main_v77 : S5x64.Idx → EReal) (ix2 k q'))
    (fun q' : Fin 64 => (V c main_v78 : S1x64.Idx → EReal) (ix2 0 q'))
    (fun (k : Fin 64) (q' : Fin 32) => (V c main_arg25 : S64x32.Idx → EReal) (ix2 k q'))
    (fun q' : Fin 32 => (V c main_v79 : S1x32.Idx → EReal) (ix2 0 q'))
    (fun k : Fin 32 => (V c main_arg27 : S32x1.Idx → EReal) (ix2 k 0))
    ((V c main_v80 : S1x1.Idx → EReal) (ix2 0 0))

/-- The row specification depends on its arguments only. -/
private theorem predRow_congr {hs hs' ht ht' : Fin 64 → EReal} {ea ea' : Fin 5 → EReal} {w1s w1s' w1t w1t' : Fin 64 → Fin 64 → EReal}
    {w1e w1e' : Fin 5 → Fin 64 → EReal} {b1 b1' : Fin 64 → EReal} {w2 w2' : Fin 64 → Fin 32 → EReal} {b2 b2' : Fin 32 → EReal}
    {w3 w3' : Fin 32 → EReal} {b3 b3' : EReal} (e1 : hs = hs') (e2 : ht = ht') (e3 : ea = ea') (e4 : w1s = w1s')
    (e5 : w1t = w1t') (e6 : w1e = w1e') (e7 : b1 = b1') (e8 : w2 = w2') (e9 : b2 = b2') (e10 : w3 = w3') (e11 : b3 = b3') :
    Cert.Spec.predRow hs ht ea w1s w1t w1e b1 w2 b2 w3 b3 = Cert.Spec.predRow hs' ht' ea' w1s' w1t' w1e' b1' w2' b2' w3' b3' := by
  subst e1 e2 e3 e4 e5 e6 e7 e8 e9 e10 e11
  rfl

/-- What point `t` writes back is block `t` of that array: a stored row inside the array is the row specification of
    the same row of the input blocks, which read the entry arrays at the block's rows. -/
theorem flushed6_eq (c : Dev nD) (t : Fin cfg6.N) :
    (dat6 V c).flushed 11 t = ((cfg6.win 11).blk t).view.read (Elt Idealize.ShloMosaic.Ideal) (G6 V c) := by
  show (cfg6.win 11).cut (cfg6.grid.coords t) ((dat6 V c).after 11 t) = _
  rw [after6_11]
  funext j
  have hr11 : (j 0).val < (cfg6.win 11).xsize (cfg6.grid.coords t) 0 := (j 0).isLt
  have hq : (j 1).val < 1 := (j 1).isLt
  have hr : (j 0).val < 4096 := Nat.lt_of_lt_of_le hr11 ((cfg6.win 11).xsize_le (cfg6.grid.coords t) 0)
  have hR : ((((cfg6.win 11).blk t).view.emb j 0 : Fin 1000000)).val = t.val * 4096 + (j 0).val := by
    show (cfg6.win 11).index t 0 * 4096 + 1 * (j 0).val = _
    rw [index6_row t]
    omega
  have ej : (cfg6.win 11).xinj (cfg6.grid.coords t) j = ix2 (⟨(j 0).val, hr⟩ : Fin 4096) (0 : Fin 1) :=
    funext fun a => Fin.ext (by
      match a with
      | ⟨0, _⟩ => rfl
      | ⟨1, _⟩ => exact Nat.lt_one_iff.mp hq)
  show out6 (F := Idealize.ShloMosaic.Ideal) _ _ _ _ _ _ _ _ _ _ _ ((cfg6.win 11).xinj (cfg6.grid.coords t) j) = G6 V c (((cfg6.win 11).blk t).view.emb j)
  rw [ej]
  refine (Val.out6_apply _ _ _ _ _ _ _ _ _ _ _ ⟨(j 0).val, hr⟩).trans ?_
  unfold G6
  exact predRow_congr
    (funext fun k => fblk6_0_apply V c t ⟨(j 0).val, hr⟩ k _ hr11 hR)
    (funext fun k => fblk6_1_apply V c t ⟨(j 0).val, hr⟩ k _ hr11 hR)
    (funext fun k => fblk6_2_apply V c t ⟨(j 0).val, hr⟩ k _ hr11 hR)
    (funext fun k => funext fun q' => iblk6_3_apply V c t k q')
    (funext fun k => funext fun q' => iblk6_4_apply V c t k q')
    (funext fun k => funext fun q' => iblk6_5_apply V c t k q')
    (funext fun q' => iblk6_6_apply V c t 0 q')
    (funext fun k => funext fun q' => iblk6_7_apply V c t k q')
    (funext fun q' => iblk6_8_apply V c t 0 q')
    (funext fun k => iblk6_9_apply V c t k 0)
    (iblk6_10_apply V c t 0 0)

/-- Every row of the array is in some point's block: row `r` in block `r / 4096`. -/
theorem cover6 (i : S1000000x1.Idx) :
    ∃ t : Fin cfg6.N, (cfg6.win 11).flush t = true ∧ i ∈ ((cfg6.win 11).blk t).view.set := by
  have hi0 : (i 0).val < 1000000 := (i 0).isLt
  have hi1 : (i 1).val < 1 := (i 1).isLt
  have hN : (i 0).val / 4096 < cfg6.N := by
    show (i 0).val / 4096 < 245
    omega
  refine ⟨⟨(i 0).val / 4096, hN⟩, flush6_11 _, ?_⟩
  show i ∈ ((View.whole main_v81).slice ((cfg6.win 11).rect ⟨(i 0).val / 4096, hN⟩)).set
  rw [View.set_slice_whole, Rect.mem_set_unit]
  intro a
  match a with
  | ⟨0, _⟩ =>
    show (cfg6.win 11).index ⟨(i 0).val / 4096, hN⟩ 0 * 4096 ≤ (i 0).val
      ∧ (i 0).val < (cfg6.win 11).index ⟨(i 0).val / 4096, hN⟩ 0 * 4096 + (cfg6.win 11).xsize (cfg6.grid.coords ⟨(i 0).val / 4096, hN⟩) 0
    rw [index6_row, xsize6_row]
    show (i 0).val / 4096 * 4096 ≤ (i 0).val ∧ (i 0).val < (i 0).val / 4096 * 4096
      + (if ((i 0).val / 4096 + 1) * 4096 ≤ 1000000 then 4096 else 1000000 - (i 0).val / 4096 * 4096)
    split <;> omega
  | ⟨1, _⟩ =>
    show (cfg6.win 11).index ⟨(i 0).val / 4096, hN⟩ 1 * 1 ≤ (i 1).val
      ∧ (i 1).val < (cfg6.win 11).index ⟨(i 0).val / 4096, hN⟩ 1 * 1 + 1
    rw [show (cfg6.win 11).index ⟨(i 0).val / 4096, hN⟩ 1 = 0 from rfl]
    omega

/-- The output array after all the write-backs, at row `r`. -/
theorem final6 (c : Dev nD) (r : Fin 1000000) :
    ((dat6 (F := Idealize.ShloMosaic.Ideal) V c).arrAt 11 cfg6.N : S1000000x1.Idx → EReal) (ix2 r 0)
      = Cert.Spec.predRow (fun k : Fin 64 => (V c main_v67 : S1000000x64.Idx → EReal) (ix2 r k)) (fun k : Fin 64 => (V c main_v74 : S1000000x64.Idx → EReal) (ix2 r k)) (fun k : Fin 5 => (V c main_arg2 : S1000000x5.Idx → EReal) (ix2 r k)) (fun (k : Fin 64) (q' : Fin 64) => (V c main_v75 : S64x64.Idx → EReal) (ix2 k q')) (fun (k : Fin 64) (q' : Fin 64) => (V c main_v76 : S64x64.Idx → EReal) (ix2 k q')) (fun (k : Fin 5) (q' : Fin 64) => (V c main_v77 : S5x64.Idx → EReal) (ix2 k q')) (fun q' : Fin 64 => (V c main_v78 : S1x64.Idx → EReal) (ix2 0 q')) (fun (k : Fin 64) (q' : Fin 32) => (V c main_arg25 : S64x32.Idx → EReal) (ix2 k q')) (fun q' : Fin 32 => (V c main_v79 : S1x32.Idx → EReal) (ix2 0 q')) (fun k : Fin 32 => (V c main_arg27 : S32x1.Idx → EReal) (ix2 k 0)) ((V c main_v80 : S1x1.Idx → EReal) (ix2 0 0)) := by
  have h := (dat6 (F := Idealize.ShloMosaic.Ideal) V c).arrAt_eq_of_cover 11 (G6 V c) (fun t _ => flushed6_eq V c t) cover6
  exact congrFun h (ix2 r 0)

end Final

end Cert.KernelIdeal.Gen

end
-- ==== Proof.Ref.Row6.lean ====
import proofs.«178696_j1468878815658_2_alg».proof.Proof.Ref.Imports
import proofs.«178696_j1468878815658_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRows

open Idealize.ShloMosaic Idealize.ShloMosaic.ValueIdx Cert.ReferenceIdeal Cert.ReferenceIdeal.Read

/-! ## Index equations: the index maps of the stage's layout operations, at an index given by its coordinates -/

/-- A matrix product at `(r, j)` pairs row `r` of the left operand with column `j` of the right. -/
theorem v208_el189 (r : Fin 1000000) (j : Fin 64) (i : Fin 133) : lidx_main_v189 (ix2 r j) i = (ix2 r i : S1000000x133.Idx) :=
  funext fun a => by match a with | ⟨0, _⟩ => rfl | ⟨1, _⟩ => rfl
theorem v208_er189 (r : Fin 1000000) (j : Fin 64) (i : Fin 133) : ridx_main_v189 (ix2 r j) i = (ix2 i j : S133x64.Idx) :=
  funext fun a => by match a with | ⟨0, _⟩ => rfl | ⟨1, _⟩ => rfl
theorem v208_el194 (r : Fin 1000000) (k : Fin 32) (j : Fin 64) : lidx_main_v194 (ix2 r k) j = (ix2 r j : S1000000x64.Idx) :=
  funext fun a => by match a with | ⟨0, _⟩ => rfl | ⟨1, _⟩ => rfl
theorem v208_er194 (r : Fin 1000000) (k : Fin 32) (j : Fin 64) : ridx_main_v194 (ix2 r k) j = (ix2 j k : S64x32.Idx) :=
  funext fun a => by match a with | ⟨0, _⟩ => rfl | ⟨1, _⟩ => rfl
theorem v208_el199 (r : Fin 1000000) (c : Fin 1) (k : Fin 32) : lidx_main_v199 (ix2 r c) k = (ix2 r k : S1000000x32.Idx) :=
  funext fun a => by match a with | ⟨0, _⟩ => rfl | ⟨1, _⟩ => rfl
theorem v208_er199 (r : Fin 1000000) (c : Fin 1) (k : Fin 32) : ridx_main_v199 (ix2 r c) k = (ix2 k c : S32x1.Idx) :=
  funext fun a => by match a with | ⟨0, _⟩ => rfl | ⟨1, _⟩ => rfl
/-- A row vector broadcast down the rows reads the vector at the column. -/
theorem v208_e191 (r : Fin 1000000) (j : Fin 64) : idx_main_v191 (ix2 r j) = (ix2 (0 : Fin 1) j : S1x64.Idx) :=
  funext fun a => by match a with | ⟨0, _⟩ => rfl | ⟨1, _⟩ => rfl
theorem v208_e190 (c : Fin 1) (j : Fin 64) : idx_main_v190 (ix2 c j) = (ix1 j : S64.Idx) :=
  funext fun a => by match a with | ⟨0, _⟩ => rfl
theorem v208_e196 (r : Fin 1000000) (k : Fin 32) : idx_main_v196 (ix2 r k) = (ix2 (0 : Fin 1) k : S1x32.Idx) :=
  funext fun a => by match a with | ⟨0, _⟩ => rfl | ⟨1, _⟩ => rfl
theorem v208_e195 (c : Fin 1) (k : Fin 32) : idx_main_v195 (ix2 c k) = (ix1 k : S32.Idx) :=
  funext fun a => by match a with | ⟨0, _⟩ => rfl
theorem v208_e201 (r : Fin 1000000) (c : Fin 1) : idx_main_v201 (ix2 r c) = (ix2 (0 : Fin 1) (0 : Fin 1) : S1x1.Idx) :=
  funext fun a => by match a with | ⟨0, _⟩ => rfl | ⟨1, _⟩ => rfl
theorem v208_e200 (c c' : Fin 1) : idx_main_v200 (ix2 c c') = (ix1 (0 : Fin 1) : S1.Idx) :=
  funext fun a => by match a with | ⟨0, _⟩ => rfl

/-- Two arrays of 64 columns and one of 5 joined along the columns, read at a row: the three rows side by side. -/
theorem v208_cat3_row (a b : S1000000x64.Idx → EReal) (e : S1000000x5.Idx → EReal) (r : Fin 1000000) (k : Fin 133) :
    concatenate S1000000x133 1 [⟨S1000000x64, a⟩, ⟨S1000000x64, b⟩, ⟨S1000000x5, e⟩]
        Gen.concatenates_S1000000x64_S1000000x64_S1000000x5_S1000000x133_d1 (ix2 r k)
      = Cert.Spec.cat3 (fun k => a (ix2 r k)) (fun k => b (ix2 r k)) (fun k => e (ix2 r k)) k := by
  unfold Cert.Spec.cat3
  split
  · next h =>
    exact concatenate_apply_piece (t := S1000000x133) 1 ([⟨S1000000x64, a⟩, ⟨S1000000x64, b⟩, ⟨S1000000x5, e⟩] : List ((s : Shape) × (s.Idx → EReal))) Gen.concatenates_S1000000x64_S1000000x64_S1000000x5_S1000000x133_d1 (ix2 r k)
      0 (by show (0 : Nat) < 3; omega) S1000000x64 a rfl rfl 0 rfl (ix2 r ⟨k.val, h⟩)
      (fun c hc => by
        match c with
        | ⟨0, _⟩ => rfl
        | ⟨1, _⟩ => exact absurd rfl hc)
      (by show 0 + k.val = k.val; omega)
  · next h =>
    split
    · next h' =>
      exact concatenate_apply_piece (t := S1000000x133) 1 ([⟨S1000000x64, a⟩, ⟨S1000000x64, b⟩, ⟨S1000000x5, e⟩] : List ((s : Shape) × (s.Idx → EReal))) Gen.concatenates_S1000000x64_S1000000x64_S1000000x5_S1000000x133_d1 (ix2 r k)
        1 (by show (1 : Nat) < 3; omega) S1000000x64 b rfl rfl 64 rfl (ix2 r ⟨k.val - 64, by omega⟩)
        (fun c hc => by
          match c with
          | ⟨0, _⟩ => rfl
          | ⟨1, _⟩ => exact absurd rfl hc)
        (by show 64 + (k.val - 64) = k.val; omega)
    · next h' =>
      exact concatenate_apply_piece (t := S1000000x133) 1 ([⟨S1000000x64, a⟩, ⟨S1000000x64, b⟩, ⟨S1000000x5, e⟩] : List ((s : Shape) × (s.Idx → EReal))) Gen.concatenates_S1000000x64_S1000000x64_S1000000x5_S1000000x133_d1 (ix2 r k)
        2 (by show (2 : Nat) < 3; omega) S1000000x5 e rfl rfl 128 rfl (ix2 r ⟨k.val - 128, by have := k.isLt; omega⟩)
        (fun c hc => by
          match c with
          | ⟨0, _⟩ => rfl
          | ⟨1, _⟩ => exact absurd rfl hc)
        (by show 128 + (k.val - 128) = k.val; omega)

variable (x0 : (⟨S100000x7, .f32⟩ : BufTy).Contents (Elt Ideal)) (x1 : (⟨S2x1000000, .i32⟩ : BufTy).Contents (Elt Ideal))
  (x2 : (⟨S1000000x5, .f32⟩ : BufTy).Contents (Elt Ideal)) (x3 : (⟨S7x64, .f32⟩ : BufTy).Contents (Elt Ideal))
  (x4 x5 x6 : (⟨S64, .f32⟩ : BufTy).Contents (Elt Ideal)) (x7 : (⟨S5x64, .f32⟩ : BufTy).Contents (Elt Ideal))
  (x8 x9 x10 : (⟨S64, .f32⟩ : BufTy).Contents (Elt Ideal)) (x11 : (⟨S128x64, .f32⟩ : BufTy).Contents (Elt Ideal))
  (x12 : (⟨S64, .f32⟩ : BufTy).Contents (Elt Ideal)) (x13 : (⟨S128x64, .f32⟩ : BufTy).Contents (Elt Ideal))
  (x14 x15 x16 : (⟨S64, .f32⟩ : BufTy).Contents (Elt Ideal)) (x17 : (⟨S128x64, .f32⟩ : BufTy).Contents (Elt Ideal))
  (x18 : (⟨S64, .f32⟩ : BufTy).Contents (Elt Ideal)) (x19 : (⟨S128x64, .f32⟩ : BufTy).Contents (Elt Ideal))
  (x20 x21 x22 : (⟨S64, .f32⟩ : BufTy).Contents (Elt Ideal)) (x23 : (⟨S133x64, .f32⟩ : BufTy).Contents (Elt Ideal))
  (x24 : (⟨S64, .f32⟩ : BufTy).Contents (Elt Ideal)) (x25 : (⟨S64x32, .f32⟩ : BufTy).Contents (Elt Ideal))
  (x26 : (⟨S32, .f32⟩ : BufTy).Contents (Elt Ideal)) (x27 : (⟨S32x1, .f32⟩ : BufTy).Contents (Elt Ideal))
  (x28 : (⟨S1, .f32⟩ : BufTy).Contents (Elt Ideal))

/-- The edge predictor of the reference, read at a row: the row specification of that row of the stage's operands. -/
theorem row_v208 (r : Fin 1000000) :
    val_main_v208 (F := Ideal) x0 x1 x2 x3 x4 x5 x6 x7 x8 x9 x10 x11 x12 x13 x14 x15 x16 x17 x18 x19 x20 x21 x22 x23 x24 x25 x26 x27 x28 (ix2 r 0)
      = Cert.Spec.predRowCat (fun k : Fin 64 => val_main_v180 (F := Ideal) x0 x1 x2 x3 x4 x5 x6 x7 x8 x9 x10 x11 x12 x13 x14 x15 x16 x17 x18 x19 x20 x21 x22 (ix2 r k)) (fun k : Fin 64 => val_main_v187 (F := Ideal) x0 x1 x2 x3 x4 x5 x6 x7 x8 x9 x10 x11 x12 x13 x14 x15 x16 x17 x18 x19 x20 x21 x22 (ix2 r k)) (fun k : Fin 5 => x2 (ix2 r k)) (fun (k : Fin 133) (q' : Fin 64) => x23 (ix2 k q')) (fun q' : Fin 64 => x24 (ix1 q'))
          (fun (k : Fin 64) (q' : Fin 32) => x25 (ix2 k q')) (fun q' : Fin 32 => x26 (ix1 q')) (fun k : Fin 32 => x27 (ix2 k 0)) (x28 (ix1 0)) := by
  -- the joined row: the two endpoint rows beside the edge's attributes
  have h188 : ∀ i : Fin 133, val_main_v188 (F := Ideal) x0 x1 x2 x3 x4 x5 x6 x7 x8 x9 x10 x11 x12 x13 x14 x15 x16 x17 x18 x19 x20 x21 x22 (ix2 r i)
      = Cert.Spec.cat3 (fun k : Fin 64 => val_main_v180 (F := Ideal) x0 x1 x2 x3 x4 x5 x6 x7 x8 x9 x10 x11 x12 x13 x14 x15 x16 x17 x18 x19 x20 x21 x22 (ix2 r k)) (fun k : Fin 64 => val_main_v187 (F := Ideal) x0 x1 x2 x3 x4 x5 x6 x7 x8 x9 x10 x11 x12 x13 x14 x15 x16 x17 x18 x19 x20 x21 x22 (ix2 r k)) (fun k : Fin 5 => x2 (ix2 r k)) i := by
    intro i
    unfold val_main_v188
    rw [v208_cat3_row]
  -- the first hidden row
  obtain ⟨P1, hP1⟩ : ∃ P1 : Fin 64 → EReal, P1 = fun j : Fin 64 =>
      Cert.Spec.relu ((∑ i : Fin 133, Cert.Spec.cat3 (fun k : Fin 64 => val_main_v180 (F := Ideal) x0 x1 x2 x3 x4 x5 x6 x7 x8 x9 x10 x11 x12 x13 x14 x15 x16 x17 x18 x19 x20 x21 x22 (ix2 r k)) (fun k : Fin 64 => val_main_v187 (F := Ideal) x0 x1 x2 x3 x4 x5 x6 x7 x8 x9 x10 x11 x12 x13 x14 x15 x16 x17 x18 x19 x20 x21 x22 (ix2 r k)) (fun k : Fin 5 => x2 (ix2 r k)) i * x23 (ix2 i j)) + x24 (ix1 j)) := ⟨_, rfl⟩
  have h193 : ∀ j : Fin 64, val_main_v193 (F := Ideal) x0 x1 x2 x3 x4 x5 x6 x7 x8 x9 x10 x11 x12 x13 x14 x15 x16 x17 x18 x19 x20 x21 x22 x23 x24 (ix2 r j) = P1 j := by
    intro j
    rw [hP1, val_main_v193_apply, val_main_call6_v0_apply, val_main_call6_cst_apply, val_main_v192_apply,
      val_main_v189_apply, val_main_v191_apply, val_main_v190_apply, v208_e191, v208_e190]
    simp only [v208_el189, v208_er189, h188]
    rfl
  -- the second hidden row
  obtain ⟨P2, hP2⟩ : ∃ P2 : Fin 32 → EReal, P2 = fun k : Fin 32 =>
      Cert.Spec.relu ((∑ j : Fin 64, P1 j * x25 (ix2 j k)) + x26 (ix1 k)) := ⟨_, rfl⟩
  have h198 : ∀ k : Fin 32, val_main_v198 (F := Ideal) x0 x1 x2 x3 x4 x5 x6 x7 x8 x9 x10 x11 x12 x13 x14 x15 x16 x17 x18 x19 x20 x21 x22 x23 x24 x25 x26 (ix2 r k) = P2 k := by
    intro k
    rw [hP2, val_main_v198_apply, val_main_call7_v0_apply, val_main_call7_cst_apply, val_main_v197_apply,
      val_main_v194_apply, val_main_v196_apply, val_main_v195_apply, v208_e196, v208_e195]
    simp only [v208_el194, v208_er194, h193]
    rfl
  -- the logit
  have h202 : val_main_v202 (F := Ideal) x0 x1 x2 x3 x4 x5 x6 x7 x8 x9 x10 x11 x12 x13 x14 x15 x16 x17 x18 x19 x20 x21 x22 x23 x24 x25 x26 x27 x28 (ix2 r 0)
      = (∑ k : Fin 32, P2 k * x27 (ix2 k 0)) + x28 (ix1 0) := by
    rw [val_main_v202_apply, val_main_v199_apply, val_main_v201_apply, val_main_v200_apply, v208_e201, v208_e200]
    simp only [v208_el199, v208_er199, h198]
    rfl
  -- the sigmoid, spelt one over one plus the exponential of the negated logit
  rw [val_main_v208_apply, val_main_v207_apply, val_main_cst_35_apply, val_main_v206_apply, val_main_v205_apply,
    val_main_cst_34_apply, val_main_v204_apply, val_main_v203_apply, h202, hP2, hP1]
  rfl

end Cert.ReferenceIdeal.RefRows

end
-- ==== Proof.KI.Bridge6.lean ====
import proofs.«178696_j1468878815658_2_alg».proof.Proof.KI.Inv
import proofs.«178696_j1468878815658_2_alg».proof.Proof.KI.Args
import proofs.«178696_j1468878815658_2_alg».proof.Proof.KI.Fin6
import proofs.«178696_j1468878815658_2_alg».proof.Proof.Ref.Row6
import proofs.«178696_j1468878815658_2_alg».proof.Proof.Spec
import proofs.«178696_j1468878815658_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value

/-!
  Host stretch 6 and region 6 of the idealized kernel program, read against the reference: if the buffers' contents
  before them satisfy `E6` (the arguments as launched, the live intermediates equal to the reference's stage values),
  then after them — the region's arrays at whatever contents they may hold after every write-back, nothing forgotten —
  they satisfy `E7`: the region's output array IS the reference's value of the same stage, because row by row both
  are the row specification of the same operand rows (the two spellings of the specification agree), and every other
  live buffer is as it was.
-/

set_option maxRecDepth 16384

noncomputable section

namespace Cert.KernelIdeal.Gen

open Idealize.ShloMosaic Idealize.ShloMosaic.TcCoe Idealize.ShloMosaic.ValueIdx
open Idealize.SL Idealize.SL.Sem

/-! ## What host stretch 6 leaves in the buffers the region reads -/

section Host6

variable {F : FTy → Type} [FloatOps F] (W : Valuation τ sig (Elt F))

set_option maxHeartbeats 1000000 in
/-- The gathered source rows: the rows of the node features at the first index row, a negative index wrapped. -/
theorem after6_v67 :
    (StableHlo.after hostOps6 W (Proc.devRef .tc main_v67) : (⟨S1000000x64, .bf16⟩ : BufTy).Contents (Elt F))
      = Host.gather gather_S100000x64_S1000000x1_S1000000x64_1_0_n_n_0_1_164
          (W (Proc.devRef .tc main_v60) : (⟨S100000x64, .bf16⟩ : BufTy).Contents (Elt F))
          (broadcastInDim S1000000x1 ![0] bcast_S1000000_S1000000x1_0
            (select (cmpi .slt (W (Proc.devRef .tc main_v1) : (⟨S1000000, .i32⟩ : BufTy).Contents (Elt F))
                (broadcastInDim S1000000 ![] bcast_S_S1000000 (constantI S_ 32 0#32)))
              (addi (W (Proc.devRef .tc main_v1) : (⟨S1000000, .i32⟩ : BufTy).Contents (Elt F))
                (broadcastInDim S1000000 ![] bcast_S_S1000000 (constantI S_ 32 100000#32)))
              (W (Proc.devRef .tc main_v1) : (⟨S1000000, .i32⟩ : BufTy).Contents (Elt F)))) := by
  simp only [hostOps6]; after_results_simp

set_option maxHeartbeats 1000000 in
/-- The gathered target rows: the same at the second index row. -/
theorem after6_v74 :
    (StableHlo.after hostOps6 W (Proc.devRef .tc main_v74) : (⟨S1000000x64, .bf16⟩ : BufTy).Contents (Elt F))
      = Host.gather gather_S100000x64_S1000000x1_S1000000x64_1_0_n_n_0_1_164
          (W (Proc.devRef .tc main_v60) : (⟨S100000x64, .bf16⟩ : BufTy).Contents (Elt F))
          (broadcastInDim S1000000x1 ![0] bcast_S1000000_S1000000x1_0
            (select (cmpi .slt (W (Proc.devRef .tc main_v3) : (⟨S1000000, .i32⟩ : BufTy).Contents (Elt F))
                (broadcastInDim S1000000 ![] bcast_S_S1000000 (constantI S_ 32 0#32)))
              (addi (W (Proc.devRef .tc main_v3) : (⟨S1000000, .i32⟩ : BufTy).Contents (Elt F))
                (broadcastInDim S1000000 ![] bcast_S_S1000000 (constantI S_ 32 100000#32)))
              (W (Proc.devRef .tc main_v3) : (⟨S1000000, .i32⟩ : BufTy).Contents (Elt F)))) := by
  simp only [hostOps6]; after_results_simp

/-- The three slices of the first layer's weights. -/
theorem after6_v75 :
    (StableHlo.after hostOps6 W (Proc.devRef .tc main_v75) : (⟨S64x64, .f32⟩ : BufTy).Contents (Elt F))
      = extractStridedSlice S64x64 ![0, 0] (W (Proc.devRef .tc main_arg23) : (⟨S133x64, .f32⟩ : BufTy).Contents (Elt F)) slices_S133x64_S64x64_0_0 := by
  simp only [hostOps6]; after_results
theorem after6_v76 :
    (StableHlo.after hostOps6 W (Proc.devRef .tc main_v76) : (⟨S64x64, .f32⟩ : BufTy).Contents (Elt F))
      = extractStridedSlice S64x64 ![64, 0] (W (Proc.devRef .tc main_arg23) : (⟨S133x64, .f32⟩ : BufTy).Contents (Elt F)) slices_S133x64_S64x64_64_0 := by
  simp only [hostOps6]; after_results
theorem after6_v77 :
    (StableHlo.after hostOps6 W (Proc.devRef .tc main_v77) : (⟨S5x64, .f32⟩ : BufTy).Contents (Elt F))
      = extractStridedSlice S5x64 ![128, 0] (W (Proc.devRef .tc main_arg23) : (⟨S133x64, .f32⟩ : BufTy).Contents (Elt F)) slices_S133x64_S5x64_128_0 := by
  simp only [hostOps6]; after_results

/-- The three biases as one-row matrices. -/
theorem after6_v78 :
    (StableHlo.after hostOps6 W (Proc.devRef .tc main_v78) : (⟨S1x64, .f32⟩ : BufTy).Contents (Elt F))
      = shapeCast S1x64 (W (Proc.devRef .tc main_arg24) : (⟨S64, .f32⟩ : BufTy).Contents (Elt F)) shapeCasts_S64_S1x64 := by
  simp only [hostOps6]; after_results; rfl
theorem after6_v79 :
    (StableHlo.after hostOps6 W (Proc.devRef .tc main_v79) : (⟨S1x32, .f32⟩ : BufTy).Contents (Elt F))
      = shapeCast S1x32 (W (Proc.devRef .tc main_arg26) : (⟨S32, .f32⟩ : BufTy).Contents (Elt F)) shapeCasts_S32_S1x32 := by
  simp only [hostOps6]; after_results; rfl
theorem after6_v80 :
    (StableHlo.after hostOps6 W (Proc.devRef .tc main_v80) : (⟨S1x1, .f32⟩ : BufTy).Contents (Elt F))
      = shapeCast S1x1 (W (Proc.devRef .tc main_arg28) : (⟨S1, .f32⟩ : BufTy).Contents (Elt F)) shapeCasts_S1_S1x1 := by
  simp only [hostOps6]; after_results; rfl

end Host6

/-! ## The same read at an index -/

section Read6

variable {F : FTy → Type} [FloatOps F] (W : Valuation τ sig (Elt F))

/-- Rows 0 to 63 of the first layer's weights. -/
theorem after6_v75_apply (k q : Fin 64) :
    (StableHlo.after hostOps6 W (Proc.devRef .tc main_v75) : (⟨S64x64, .f32⟩ : BufTy).Contents (Elt F)) (ix2 k q)
      = (W (Proc.devRef .tc main_arg23) : (⟨S133x64, .f32⟩ : BufTy).Contents (Elt F)) (ix2 ⟨k.val, by have := k.isLt; omega⟩ q) := by
  rw [after6_v75]
  exact extractStridedSlice_apply _ _ _ _ _ (fun a => match a with
    | ⟨0, _⟩ => by show k.val = 0 + k.val; omega
    | ⟨1, _⟩ => by show q.val = 0 + q.val; omega)

/-- Rows 64 to 127. -/
theorem after6_v76_apply (k q : Fin 64) :
    (StableHlo.after hostOps6 W (Proc.devRef .tc main_v76) : (⟨S64x64, .f32⟩ : BufTy).Contents (Elt F)) (ix2 k q)
      = (W (Proc.devRef .tc main_arg23) : (⟨S133x64, .f32⟩ : BufTy).Contents (Elt F)) (ix2 ⟨k.val + 64, by have := k.isLt; omega⟩ q) := by
  rw [after6_v76]
  exact extractStridedSlice_apply _ _ _ _ _ (fun a => match a with
    | ⟨0, _⟩ => by show k.val + 64 = 64 + k.val; omega
    | ⟨1, _⟩ => by show q.val = 0 + q.val; omega)

/-- Rows 128 to 132. -/
theorem after6_v77_apply (k : Fin 5) (q : Fin 64) :
    (StableHlo.after hostOps6 W (Proc.devRef .tc main_v77) : (⟨S5x64, .f32⟩ : BufTy).Contents (Elt F)) (ix2 k q)
      = (W (Proc.devRef .tc main_arg23) : (⟨S133x64, .f32⟩ : BufTy).Contents (Elt F)) (ix2 ⟨k.val + 128, by have := k.isLt; omega⟩ q) := by
  rw [after6_v77]
  exact extractStridedSlice_apply _ _ _ _ _ (fun a => match a with
    | ⟨0, _⟩ => by show k.val + 128 = 128 + k.val; omega
    | ⟨1, _⟩ => by show q.val = 0 + q.val; omega)

/-- A bias as a one-row matrix, at its one row, is the bias. -/
theorem after6_v78_apply (q : Fin 64) :
    (StableHlo.after hostOps6 W (Proc.devRef .tc main_v78) : (⟨S1x64, .f32⟩ : BufTy).Contents (Elt F)) (ix2 0 q)
      = (W (Proc.devRef .tc main_arg24) : (⟨S64, .f32⟩ : BufTy).Contents (Elt F)) (ix1 q) := by
  rw [after6_v78]; exact shapeCast_a_1a_apply _ _ 0 q
theorem after6_v79_apply (q : Fin 32) :
    (StableHlo.after hostOps6 W (Proc.devRef .tc main_v79) : (⟨S1x32, .f32⟩ : BufTy).Contents (Elt F)) (ix2 0 q)
      = (W (Proc.devRef .tc main_arg26) : (⟨S32, .f32⟩ : BufTy).Contents (Elt F)) (ix1 q) := by
  rw [after6_v79]; exact shapeCast_a_1a_apply _ _ 0 q
theorem after6_v80_apply :
    (StableHlo.after hostOps6 W (Proc.devRef .tc main_v80) : (⟨S1x1, .f32⟩ : BufTy).Contents (Elt F)) (ix2 0 0)
      = (W (Proc.devRef .tc main_arg28) : (⟨S1, .f32⟩ : BufTy).Contents (Elt F)) (ix1 0) := by
  rw [after6_v80]; exact shapeCast_a_1a_apply _ _ 0 0

end Read6

/-! ## The operands of region 6 at its entry, against the reference -/

section Operands6

variable (m : (ℓ : Loc nD τ sig) → Buf (Elt Ideal) ℓ) (c : Dev nD) (W : Valuation τ sig (Elt Ideal))

set_option maxHeartbeats 400000 in
/-- The gathered source rows are the reference's: the same gather of equal operands. -/
theorem gathered6_src (hE : E6 m c W) :
    (StableHlo.after (hostOps6 (F := Ideal)) W (Proc.devRef .tc main_v67) : S1000000x64.Idx → EReal)
      = Cert.ReferenceIdeal.Read.val_main_v180 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) := by
  rw [after6_v67, hE.v60, hE.v1]
  unfold Cert.ReferenceIdeal.Read.val_main_v180 Cert.ReferenceIdeal.Read.val_main_v179 Cert.ReferenceIdeal.Read.val_main_v178 Cert.ReferenceIdeal.Read.val_main_v177 Cert.ReferenceIdeal.Read.val_main_v176 Cert.ReferenceIdeal.Read.val_main_c_31 Cert.ReferenceIdeal.Read.val_main_v175 Cert.ReferenceIdeal.Read.val_main_v174 Cert.ReferenceIdeal.Read.val_main_c_30
  generalize Cert.ReferenceIdeal.Read.val_main_v173 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) = h
  generalize Cert.ReferenceIdeal.Read.val_main_v1 (F := Ideal) (a1 m c) = i1
  rfl

set_option maxHeartbeats 400000 in
/-- The gathered target rows are the reference's. -/
theorem gathered6_tgt (hE : E6 m c W) :
    (StableHlo.after (hostOps6 (F := Ideal)) W (Proc.devRef .tc main_v74) : S1000000x64.Idx → EReal)
      = Cert.ReferenceIdeal.Read.val_main_v187 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) := by
  rw [after6_v74, hE.v60, hE.v3]
  unfold Cert.ReferenceIdeal.Read.val_main_v187 Cert.ReferenceIdeal.Read.val_main_v186 Cert.ReferenceIdeal.Read.val_main_v185 Cert.ReferenceIdeal.Read.val_main_v184 Cert.ReferenceIdeal.Read.val_main_v183 Cert.ReferenceIdeal.Read.val_main_c_33 Cert.ReferenceIdeal.Read.val_main_v182 Cert.ReferenceIdeal.Read.val_main_v181 Cert.ReferenceIdeal.Read.val_main_c_32
  generalize Cert.ReferenceIdeal.Read.val_main_v173 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) = h
  generalize Cert.ReferenceIdeal.Read.val_main_v3 (F := Ideal) (a1 m c) = i3
  rfl

variable (hargs : ArgsOf m c (StableHlo.after (hostOps6 (F := Ideal)) W))
include hargs

/-- The slices of the first layer's weights and the biases, read at an index, are the launch arguments there. -/
theorem w1s6_apply (k q' : Fin 64) : (StableHlo.after (hostOps6 (F := Ideal)) W (Proc.devRef .tc main_v75) : S64x64.Idx → EReal) (ix2 k q')
    = ((a23 m c) : S133x64.Idx → EReal) (ix2 ⟨k.val, by have := k.isLt; omega⟩ q') :=
  (after6_v75_apply W k q').trans (congrFun (hargs main_arg23 (by decide)) _)
theorem w1t6_apply (k q' : Fin 64) : (StableHlo.after (hostOps6 (F := Ideal)) W (Proc.devRef .tc main_v76) : S64x64.Idx → EReal) (ix2 k q')
    = ((a23 m c) : S133x64.Idx → EReal) (ix2 ⟨k.val + 64, by have := k.isLt; omega⟩ q') :=
  (after6_v76_apply W k q').trans (congrFun (hargs main_arg23 (by decide)) _)
theorem w1e6_apply (k : Fin 5) (q' : Fin 64) : (StableHlo.after (hostOps6 (F := Ideal)) W (Proc.devRef .tc main_v77) : S5x64.Idx → EReal) (ix2 k q')
    = ((a23 m c) : S133x64.Idx → EReal) (ix2 ⟨k.val + 128, by have := k.isLt; omega⟩ q') :=
  (after6_v77_apply W k q').trans (congrFun (hargs main_arg23 (by decide)) _)
theorem b1_6_apply (q' : Fin 64) : (StableHlo.after (hostOps6 (F := Ideal)) W (Proc.devRef .tc main_v78) : S1x64.Idx → EReal) (ix2 0 q')
    = ((a24 m c) : S64.Idx → EReal) (ix1 q') :=
  (after6_v78_apply W q').trans (congrFun (hargs main_arg24 (by decide)) _)
theorem b2_6_apply (q' : Fin 32) : (StableHlo.after (hostOps6 (F := Ideal)) W (Proc.devRef .tc main_v79) : S1x32.Idx → EReal) (ix2 0 q')
    = ((a26 m c) : S32.Idx → EReal) (ix1 q') :=
  (after6_v79_apply W q').trans (congrFun (hargs main_arg26 (by decide)) _)
theorem b3_6_apply : (StableHlo.after (hostOps6 (F := Ideal)) W (Proc.devRef .tc main_v80) : S1x1.Idx → EReal) (ix2 0 0)
    = ((a28 m c) : S1.Idx → EReal) (ix1 0) :=
  (after6_v80_apply W).trans (congrFun (hargs main_arg28 (by decide)) _)

omit hargs

set_option maxHeartbeats 400000 in
/-- The region's output array, after every write-back with nothing forgotten, is what the exact data name. -/
theorem out6_eq (A : (w : Fin cfg6.W) → Buf (Elt Ideal) ((cfg6.win w).arr.view.loc (c : Thread nD τ)))
    (hA : ∀ w, (rdat6 (F := Ideal) (StableHlo.after (hostOps6 (F := Ideal)) W) (fun _ => false) c).ArrAt w cfg6.N (A w)) :
    (Pipeline.withArrays spec6 c (StableHlo.after (hostOps6 (F := Ideal)) W) A (Proc.devRef .tc main_v81) : S1000000x1.Idx → EReal)
      = ((dat6 (F := Ideal) (VW (StableHlo.after (hostOps6 (F := Ideal)) W)) c).arrAt 11 cfg6.N : S1000000x1.Idx → EReal) :=
  (Pipeline.withArrays_arr spec6 launch6.win.arr_inj c (StableHlo.after (hostOps6 (F := Ideal)) W) A 11).trans
    (((dat6 (F := Ideal) (VW (StableHlo.after (hostOps6 (F := Ideal)) W)) c).toRForget_arrAt_iff (fgt := fun _ => false) (w := 11) rfl cfg6.N (A 11)).mp (hA 11))

end Operands6

set_option maxHeartbeats 400000 in
theorem bridge6 (m : (ℓ : Loc nD τ sig) → Buf (Elt Ideal) ℓ) (c : Dev nD) (W : Valuation τ sig (Elt Ideal))
    (hE : E6 m c W)
    (A : (w : Fin cfg6.W) → Buf (Elt Ideal) ((cfg6.win w).arr.view.loc (c : Thread nD τ)))
    (hA : ∀ w, (rdat6 (F := Ideal) (StableHlo.after (hostOps6 (F := Ideal)) W) (fun _ => false) c).ArrAt w cfg6.N (A w)) :
    E7 m c (Pipeline.withArrays spec6 c (StableHlo.after (hostOps6 (F := Ideal)) W) A) := by
  -- the arguments are as launched at the region's entry, and after it
  have hargs : ArgsOf m c (StableHlo.after (hostOps6 (F := Ideal)) W) := argsOf_host6 m c W hE.args
  refine ⟨argsOf_region6 m _ _ c hargs A hA, ?_⟩
  rw [out6_eq c W A hA]
  -- row by row: both sides are the row specification of the same operand rows
  refine funext fun (i : S1000000x1.Idx) => ?_
  obtain ⟨r, rfl⟩ : ∃ r : Fin 1000000, i = ix2 r (0 : Fin 1) :=
    ⟨i 0, (eq_ix2 i).trans (congrArg (ix2 (i 0)) (Fin.ext (by have := idx2_lt1 i; show (i 1).val = 0; omega)))⟩
  rw [final6 (VW (StableHlo.after (hostOps6 (F := Ideal)) W)) c r,
    Cert.ReferenceIdeal.RefRows.row_v208 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) r,
    ← Cert.Spec.predRow_eq_predRowCat]
  simp only [VW, gathered6_src m c W hE, gathered6_tgt m c W hE, w1s6_apply m c W hargs, w1t6_apply m c W hargs, w1e6_apply m c W hargs,
    b1_6_apply m c W hargs, b2_6_apply m c W hargs, b3_6_apply m c W hargs,
    hargs main_arg2 (by decide), hargs main_arg25 (by decide), hargs main_arg27 (by decide)]

end Cert.KernelIdeal.Gen

end
-- ==== Proof.KI.Value.lean ====
import proofs.«178696_j1468878815658_2_alg».proof.Proof.KI.Alg
import proofs.«178696_j1468878815658_2_alg».proof.Proof.KI.Top
import proofs.«178696_j1468878815658_2_alg».proof.Proof.KI.Chain
import proofs.«178696_j1468878815658_2_alg».proof.Proof.KI.Inv
import proofs.«178696_j1468878815658_2_alg».proof.Proof.KI.Named0
import proofs.«178696_j1468878815658_2_alg».proof.Proof.KI.Bridge0
import proofs.«178696_j1468878815658_2_alg».proof.Proof.KI.Named1
import proofs.«178696_j1468878815658_2_alg».proof.Proof.KI.Bridge1
import proofs.«178696_j1468878815658_2_alg».proof.Proof.KI.Named2
import proofs.«178696_j1468878815658_2_alg».proof.Proof.KI.Bridge2
import proofs.«178696_j1468878815658_2_alg».proof.Proof.KI.Named3
import proofs.«178696_j1468878815658_2_alg».proof.Proof.KI.Bridge3
import proofs.«178696_j1468878815658_2_alg».proof.Proof.KI.Named4
import proofs.«178696_j1468878815658_2_alg».proof.Proof.KI.Bridge4
import proofs.«178696_j1468878815658_2_alg».proof.Proof.KI.Named5
import proofs.«178696_j1468878815658_2_alg».proof.Proof.KI.Bridge5
import proofs.«178696_j1468878815658_2_alg».proof.Proof.KI.Named6
import proofs.«178696_j1468878815658_2_alg».proof.Proof.KI.Bridge6

/-!
  The idealized kernel program's run with its result: every weakly fair execution terminates with the result array
  holding the REFERENCE's value of the launch arguments and the arguments unchanged. It is the launch theorem applied to
  the account of @main with every window named and the invariants `E K`: each host stretch and region carries "the
  live intermediates are the reference's stage values" one stage further.
-/

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Idealize.ShloMosaic.Ideal) ℕ UU ℕ

variable (m : (ℓ : Loc nD τ sig) → Buf (Elt Idealize.ShloMosaic.Ideal) ℓ) (ρ : Dev nD → PrngReg)

/-- The predicate carried along the account: after region K−1 the facts `E K`; after host stretch K what the stretch
    makes of a valuation satisfying `E K`. -/
def IV : Fin 15 → Dev nD → Valuation τ sig (Elt Idealize.ShloMosaic.Ideal) → Prop
  | ⟨0, _⟩ => fun c W => E0 m c W
  | ⟨1, _⟩ => fun c W' => ∃ W, E0 m c W ∧ W' = StableHlo.after (hostOps0 (F := Idealize.ShloMosaic.Ideal)) W
  | ⟨2, _⟩ => fun c W => E1 m c W
  | ⟨3, _⟩ => fun c W' => ∃ W, E1 m c W ∧ W' = StableHlo.after (hostOps1 (F := Idealize.ShloMosaic.Ideal)) W
  | ⟨4, _⟩ => fun c W => E2 m c W
  | ⟨5, _⟩ => fun c W' => ∃ W, E2 m c W ∧ W' = StableHlo.after (hostOps2 (F := Idealize.ShloMosaic.Ideal)) W
  | ⟨6, _⟩ => fun c W => E3 m c W
  | ⟨7, _⟩ => fun c W' => ∃ W, E3 m c W ∧ W' = StableHlo.after (hostOps3 (F := Idealize.ShloMosaic.Ideal)) W
  | ⟨8, _⟩ => fun c W => E4 m c W
  | ⟨9, _⟩ => fun c W' => ∃ W, E4 m c W ∧ W' = StableHlo.after (hostOps4 (F := Idealize.ShloMosaic.Ideal)) W
  | ⟨10, _⟩ => fun c W => E5 m c W
  | ⟨11, _⟩ => fun c W' => ∃ W, E5 m c W ∧ W' = StableHlo.after (hostOps5 (F := Idealize.ShloMosaic.Ideal)) W
  | ⟨12, _⟩ => fun c W => E6 m c W
  | ⟨13, _⟩ => fun c W' => ∃ W, E6 m c W ∧ W' = StableHlo.after (hostOps6 (F := Idealize.ShloMosaic.Ideal)) W
  | ⟨14, _⟩ => fun c W => E7 m c W
  | ⟨_ + 15, h⟩ => absurd h (Nat.not_lt.2 (Nat.le_add_left _ _))

/-- The result as a function of the launch arguments: the reference's. -/
abbrev resultOf (c : Dev nD) : Buf (Elt Idealize.ShloMosaic.Ideal) ((c.tc : Thread nD τ).loc main_v81) :=
  Cert.ReferenceIdeal.Read.val_main_v208 (F := Idealize.ShloMosaic.Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c)

theorem account_value (c : Dev nD) {β : Type}
    (k : PUnit → Prog (TpuEff nD τ sig (Elt Idealize.ShloMosaic.Ideal) (Pipeline.Sig Λ₀ (Fin 7) fun p => (pcfgs (F := Idealize.ShloMosaic.Ideal) p).Adm) .tc) β) (K : β → sProp 𝕄) :
    iprop((iprop(boundary (c : Thread nD τ) ∗ (TS (E7 m c) c ∗ Pr c) ∗ Ow c)
              -∗ wp frame (wpE (defs (F := Idealize.ShloMosaic.Ideal)) (Variants.lift Variants.none) (c : Thread nD τ) none) Set.univ (k ⟨⟩) K)
          ∗ boundary (c : Thread nD τ)
          ∗ (Held c (fun b => m (c, b)) ∗ Pr c ∗ Ow c ∗ bigSep Finset.univ (fun p : Fin 7 => Gp (F := Idealize.ShloMosaic.Ideal) p c))
          ∗ levAts Lr lvr)
        ⊢ wp frame (wpE (defs (F := Idealize.ShloMosaic.Ideal)) (Variants.lift Variants.none) (c : Thread nD τ) none) Set.univ (main (F := Idealize.ShloMosaic.Ideal) c >>= k) K :=
  account (F := Idealize.ShloMosaic.Ideal) m (fun _ => false) (fun _ => false) (fun _ => false) (fun _ => false) (fun _ => false) (fun _ => false) (fun _ => false) (IV m)
    (fun c => ⟨fun _ _ => rfl⟩)
    (fun c W h => ⟨W, h, rfl⟩) (fun c W' h A hA => by obtain ⟨W, hE, rfl⟩ := h; exact bridge0 m c W hE A hA) (fun W c => body_obligation0_named (VW W) c)
    (fun c W h => ⟨W, h, rfl⟩) (fun c W' h A hA => by obtain ⟨W, hE, rfl⟩ := h; exact bridge1 m c W hE A hA) (fun W c => body_obligation1_named (VW W) c)
    (fun c W h => ⟨W, h, rfl⟩) (fun c W' h A hA => by obtain ⟨W, hE, rfl⟩ := h; exact bridge2 m c W hE A hA) (fun W c => body_obligation2_named (VW W) c)
    (fun c W h => ⟨W, h, rfl⟩) (fun c W' h A hA => by obtain ⟨W, hE, rfl⟩ := h; exact bridge3 m c W hE A hA) (fun W c => body_obligation3_named (VW W) c)
    (fun c W h => ⟨W, h, rfl⟩) (fun c W' h A hA => by obtain ⟨W, hE, rfl⟩ := h; exact bridge4 m c W hE A hA) (fun W c => body_obligation4_named (VW W) c)
    (fun c W h => ⟨W, h, rfl⟩) (fun c W' h A hA => by obtain ⟨W, hE, rfl⟩ := h; exact bridge5 m c W hE A hA) (fun W c => body_obligation5_named (VW W) c)
    (fun c W h => ⟨W, h, rfl⟩) (fun c W' h A hA => by obtain ⟨W, hE, rfl⟩ := h; exact bridge6 m c W hE A hA) (fun W c => body_obligation6_named (VW W) c)
    c k K

theorem value_run : θ_run (defs (F := Idealize.ShloMosaic.Ideal)) (onTc (τ := τ) (main (F := Idealize.ShloMosaic.Ideal))) ⟨m, fun _ => 0, ρ⟩ (fun r => ∀ c : Dev nD,
      r.2.mem ((c.tc : Thread nD τ).loc main_v81) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) := by
  refine run_of_account m ρ (Tn := fun c => iprop(TS (E7 m c) c ∗ Pr c))
    (QY := fun c s => s.mem ((c : Thread nD τ).loc main_v81) = resultOf m c
      ∧ ∀ r ∈ argRefs, s.mem ((c : Thread nD τ).loc r) = m ((c : Thread nD τ).loc r))
    (hacc := fun c _ k K => account_value m c k K) (hfin := fun c s' => ?_) (hQ := fun s h c => ?_)
  · -- the end: the last thread state holds every unscoped buffer at some valuation whose result array is the
    -- reference's value and whose arguments are as launched; the final memory agrees with that valuation at every
    -- unscoped buffer, and the result array and the arguments are such buffers
    unfold TS Held StableHlo.held
    iintro ⟨⟨⟨%W, %hE, Hh⟩, -⟩, HSI⟩
    ihave Hr := (pointsTo_read_all (Pipeline.ucRefs τ sig) (fun b => ((c : Thread nD τ).1, b)) W s') $$ [Hh HSI]
    · isplitl [Hh] <;> iassumption
    icases Hr with ⟨%h, HSI⟩
    imodintro
    isplitr
    · ipureintro
      refine ⟨?_, fun r hr => ?_⟩
      · exact (h (Proc.devRef .tc main_v81) (Finset.mem_filter.mpr ⟨StableHlo.devRef_mem_tcRefs main_v81, by decide⟩)).trans hE.v81
      · exact (h (Proc.devRef .tc r) (Finset.mem_filter.mpr ⟨StableHlo.devRef_mem_tcRefs r,
          (by decide : ∀ r ∈ argRefs, ¬ (Proc.devRef (τ := τ) .tc r).isScoped) r hr⟩)).trans (hE.args r hr)
    · iexact HSI
  · -- the result, and each argument by its place in the list
    exact ⟨(h c).1, (h c).2 main_arg0 (by decide), (h c).2 main_arg1 (by decide), (h c).2 main_arg2 (by decide), (h c).2 main_arg3 (by decide),
      (h c).2 main_arg4 (by decide), (h c).2 main_arg5 (by decide), (h c).2 main_arg6 (by decide), (h c).2 main_arg7 (by decide),
      (h c).2 main_arg8 (by decide), (h c).2 main_arg9 (by decide), (h c).2 main_arg10 (by decide), (h c).2 main_arg11 (by decide),
      (h c).2 main_arg12 (by decide), (h c).2 main_arg13 (by decide), (h c).2 main_arg14 (by decide), (h c).2 main_arg15 (by decide),
      (h c).2 main_arg16 (by decide), (h c).2 main_arg17 (by decide), (h c).2 main_arg18 (by decide), (h c).2 main_arg19 (by decide),
      (h c).2 main_arg20 (by decide), (h c).2 main_arg21 (by decide), (h c).2 main_arg22 (by decide), (h c).2 main_arg23 (by decide),
      (h c).2 main_arg24 (by decide), (h c).2 main_arg25 (by decide), (h c).2 main_arg26 (by decide), (h c).2 main_arg27 (by decide),
      (h c).2 main_arg28 (by decide)⟩

end Cert.KernelIdeal.Gen

end
-- ==== Proof.Ref.RunBase.lean ====
import proofs.«178696_j1468878815658_2_alg».proof.Proof.Ref.ReadP
import Idealize.ShloMosaic.Lib.StableHlo.Run

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! The reference's operations are read in stretches. Between two stretches only a few buffers are still to be read
    (the stage outputs and the two index vectors); `Inv k` says each of them holds its stage function
    (`Read.val_main_vN`) of the arguments, and every argument its launch contents. -/

/-- @main's arguments, as references. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26, main_arg27, main_arg28]

/-- The valuation `V` of device `d`'s buffers has every argument of @main at its launch contents. -/
def ArgsAt (m : (ℓ : Loc nD τ sig) → Buf (Elt F) ℓ) (d : Dev nD) (V : Valuation τ sig (Elt F)) : Prop :=
  ∀ r ∈ argRefs, V (Proc.devRef .tc r) = m ((d.tc : Thread nD τ).loc r)

/-- One operation's result buffer is among the listed references. -/
macro "writes_one" : tactic =>
  `(tactic| (simp only [nullary_writes, unary_writes, binary_writes, ternary_writes, reshape_writes, nary_writes,
      Finset.singleton_subset_iff, List.mem_toFinset]; exact List.mem_map_of_mem (by decide)))

/-- What the later operations read of the buffers at the launch: the arguments at their launch contents. -/
structure Inv0 (m : (ℓ : Loc nD τ sig) → Buf (Elt F) ℓ) (d : Dev nD) (V : Valuation τ sig (Elt F)) : Prop where
  args : ArgsAt m d V

/-- What the later operations read of the buffers before operation 40: the arguments at their launch contents, and each value still to be read at its stage function of them. -/
structure Inv1 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v32 : V (Proc.devRef .tc main_v32) = val_main_v32 (F := F) (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6))

/-- What the later operations read of the buffers before operation 76: the arguments at their launch contents, and each value still to be read at its stage function of them. -/
structure Inv2 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v32 : V (Proc.devRef .tc main_v32) = val_main_v32 (F := F) (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6))
  v61 : V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10))

/-- What the later operations read of the buffers before operation 85: the arguments at their launch contents, and each value still to be read at its stage function of them. -/
structure Inv3 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v32 : V (Proc.devRef .tc main_v32) = val_main_v32 (F := F) (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6))
  v61 : V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10))
  v68 : V (Proc.devRef .tc main_v68) = val_main_v68 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6))

/-- What the later operations read of the buffers before operation 97: the arguments at their launch contents, and each value still to be read at its stage function of them. -/
structure Inv4 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v32 : V (Proc.devRef .tc main_v32) = val_main_v32 (F := F) (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6))
  v61 : V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10))
  v77 : V (Proc.devRef .tc main_v77) = val_main_v77 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12))

/-- What the later operations read of the buffers before operation 109: the arguments at their launch contents, and each value still to be read at its stage function of them. -/
structure Inv5 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v32 : V (Proc.devRef .tc main_v32) = val_main_v32 (F := F) (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6))
  v61 : V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10))
  v86 : V (Proc.devRef .tc main_v86) = val_main_v86 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12))

/-- What the later operations read of the buffers before operation 147: the arguments at their launch contents, and each value still to be read at its stage function of them. -/
structure Inv6 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v61 : V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10))
  v117 : V (Proc.devRef .tc main_v117) = val_main_v117 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16))

/-- What the later operations read of the buffers before operation 156: the arguments at their launch contents, and each value still to be read at its stage function of them. -/
structure Inv7 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v61 : V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10))
  v117 : V (Proc.devRef .tc main_v117) = val_main_v117 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16))
  v124 : V (Proc.devRef .tc main_v124) = val_main_v124 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16))

/-- What the later operations read of the buffers before operation 168: the arguments at their launch contents, and each value still to be read at its stage function of them. -/
structure Inv8 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v117 : V (Proc.devRef .tc main_v117) = val_main_v117 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16))
  v133 : V (Proc.devRef .tc main_v133) = val_main_v133 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18))

/-- What the later operations read of the buffers before operation 180: the arguments at their launch contents, and each value still to be read at its stage function of them. -/
structure Inv9 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v117 : V (Proc.devRef .tc main_v117) = val_main_v117 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16))
  v142 : V (Proc.devRef .tc main_v142) = val_main_v142 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18))

/-- What the later operations read of the buffers before operation 218: the arguments at their launch contents, and each value still to be read at its stage function of them. -/
structure Inv10 (m : (ℓ : Loc nD τ sig) → Buf (Elt F) ℓ) (d : Dev nD) (V : Valuation τ sig (Elt F)) : Prop where
  args : ArgsAt m d V
  v1 : V (Proc.devRef .tc main_v1) = val_main_v1 (F := F) (m ((d.tc : Thread nD τ).loc main_arg1))
  v3 : V (Proc.devRef .tc main_v3) = val_main_v3 (F := F) (m ((d.tc : Thread nD τ).loc main_arg1))
  v173 : V (Proc.devRef .tc main_v173) = val_main_v173 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22))

/-- What the later operations read of the buffers before operation 236: the arguments at their launch contents, and each value still to be read at its stage function of them. -/
structure Inv11 (m : (ℓ : Loc nD τ sig) → Buf (Elt F) ℓ) (d : Dev nD) (V : Valuation τ sig (Elt F)) : Prop where
  args : ArgsAt m d V
  v180 : V (Proc.devRef .tc main_v180) = val_main_v180 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22))
  v187 : V (Proc.devRef .tc main_v187) = val_main_v187 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22))

/-- What the later operations read of the buffers before operation 237: the arguments at their launch contents, and each value still to be read at its stage function of them. -/
structure Inv12 (m : (ℓ : Loc nD τ sig) → Buf (Elt F) ℓ) (d : Dev nD) (V : Valuation τ sig (Elt F)) : Prop where
  args : ArgsAt m d V
  v188 : V (Proc.devRef .tc main_v188) = val_main_v188 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22))

/-- What the later operations read of the buffers after the last operation: the arguments at their launch contents, and each value still to be read at its stage function of them. -/
structure Inv13 (m : (ℓ : Loc nD τ sig) → Buf (Elt F) ℓ) (d : Dev nD) (V : Valuation τ sig (Elt F)) : Prop where
  args : ArgsAt m d V
  v208 : V (Proc.devRef .tc main_v208) = val_main_v208 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) (m ((d.tc : Thread nD τ).loc main_arg25)) (m ((d.tc : Thread nD τ).loc main_arg26)) (m ((d.tc : Thread nD τ).loc main_arg27)) (m ((d.tc : Thread nD τ).loc main_arg28))

end Cert.ReferenceIdeal.RefRun

end
-- ==== Proof.Ref.RunA.lean ====
import proofs.«178696_j1468878815658_2_alg».proof.Proof.Ref.RunBase

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! Operations 0 to 75 of the reference (the two encoders), in 2 stretches: each stretch's result buffers at their
    stage functions, given the buffers it reads; the buffers it does not write kept. -/

/-- Operations 0 to 39 of @main. -/
abbrev c0 : List (HloOp τ sig (Elt F)) :=
  [ unary main_arg1 main_v0 ((extractStridedSlice S1x1000000 ![0, 0] · slices_S2x1000000_S1x1000000_0_0) : (⟨S2x1000000, .i32⟩ : BufTy).Contents (Elt F) → (⟨S1x1000000, .i32⟩ : BufTy).Contents (Elt F)),
    reshape main_v0 main_v1 rfl shapeCasts_S1x1000000_S1000000,
    unary main_arg1 main_v2 ((extractStridedSlice S1x1000000 ![1, 0] · slices_S2x1000000_S1x1000000_1_0) : (⟨S2x1000000, .i32⟩ : BufTy).Contents (Elt F) → (⟨S1x1000000, .i32⟩ : BufTy).Contents (Elt F)),
    reshape main_v2 main_v3 rfl shapeCasts_S1x1000000_S1000000,
    binary main_arg0 main_arg3 main_v4 ((fun l r => Host.dotGeneral dot_S100000x7_S7x64_S100000x64_1_0_0_1_n_n none l r) : (⟨S100000x7, .f32⟩ : BufTy).Contents (Elt F) → (⟨S7x64, .f32⟩ : BufTy).Contents (Elt F) → (⟨S100000x64, .f32⟩ : BufTy).Contents (Elt F)),
    unary main_arg4 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v7) (TRef.of (T := ⟨S100000x64, .f32⟩) main_call0_v0) (TRef.of (T := ⟨S100000x64, .f32⟩) main_v8) maximumf,
    nullary main_cst (constant S_ .f32 0x00000000#32),
    binary main_v8 main_cst main_v9 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    nullary main_cst_0 (constant S_ .f32 0x42800000#32),
    unary main_cst_0 main_v11 (broadcastInDim S100000x1 ![] bcast_S_S100000x1 : (⟨S_, .f32⟩ : BufTy).Contents (Elt F) → (⟨S100000x1, .f32⟩ : BufTy).Contents (Elt F)),
    binary main_v10 main_v11 main_v12 (Host.divf : (⟨S100000x1, .f32⟩ : BufTy).Contents (Elt F) → (⟨S100000x1, .f32⟩ : BufTy).Contents (Elt F) → (⟨S100000x1, .f32⟩ : BufTy).Contents (Elt F)),
    unary main_v12 main_v13 (broadcastInDim S100000x64 ![0, 1] bcast_S100000x1_S100000x64_0_1 : (⟨S100000x1, .f32⟩ : BufTy).Contents (Elt F) → (⟨S100000x64, .f32⟩ : BufTy).Contents (Elt F)),
    binary main_v8 main_v13 main_v14 (subf : (⟨S100000x64, .f32⟩ : BufTy).Contents (Elt F) → (⟨S100000x64, .f32⟩ : BufTy).Contents (Elt F) → (⟨S100000x64, .f32⟩ : BufTy).Contents (Elt F)),
    binary main_v14 main_v14 main_v15 (mulf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x00000000#32),
    binary main_v15 main_cst_1 main_v16 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v16 main_v17 (broadcastInDim S100000x1 ![0] bcast_S100000_S100000x1_0 : (⟨S100000, .f32⟩ : BufTy).Contents (Elt F) → (⟨S100000x1, .f32⟩ : BufTy).Contents (Elt F)),
    nullary main_cst_2 (constant S_ .f32 0x42800000#32),
    unary main_cst_2 main_v18 (broadcastInDim S100000x1 ![] bcast_S_S100000x1 : (⟨S_, .f32⟩ : BufTy).Contents (Elt F) → (⟨S100000x1, .f32⟩ : BufTy).Contents (Elt F)),
    binary main_v17 main_v18 main_v19 (Host.divf : (⟨S100000x1, .f32⟩ : BufTy).Contents (Elt F) → (⟨S100000x1, .f32⟩ : BufTy).Contents (Elt F) → (⟨S100000x1, .f32⟩ : BufTy).Contents (Elt F)),
    unary main_v12 main_v20 (broadcastInDim S100000x64 ![0, 1] bcast_S100000x1_S100000x64_0_1 : (⟨S100000x1, .f32⟩ : BufTy).Contents (Elt F) → (⟨S100000x64, .f32⟩ : BufTy).Contents (Elt F)),
    binary main_v8 main_v20 main_v21 (subf : (⟨S100000x64, .f32⟩ : BufTy).Contents (Elt F) → (⟨S100000x64, .f32⟩ : BufTy).Contents (Elt F) → (⟨S100000x64, .f32⟩ : BufTy).Contents (Elt F)),
    nullary main_cst_3 (constant S_ .f32 0x3727C5AC#32),
    unary main_cst_3 main_v22 (broadcastInDim S100000x1 ![] bcast_S_S100000x1 : (⟨S_, .f32⟩ : BufTy).Contents (Elt F) → (⟨S100000x1, .f32⟩ : BufTy).Contents (Elt F)),
    binary main_v19 main_v22 main_v23 (addf : (⟨S100000x1, .f32⟩ : BufTy).Contents (Elt F) → (⟨S100000x1, .f32⟩ : BufTy).Contents (Elt F) → (⟨S100000x1, .f32⟩ : BufTy).Contents (Elt F)),
    unary main_v23 main_v24 (Host.sqrt : (⟨S100000x1, .f32⟩ : BufTy).Contents (Elt F) → (⟨S100000x1, .f32⟩ : BufTy).Contents (Elt F)),
    unary main_v24 main_v25 (broadcastInDim S100000x64 ![0, 1] bcast_S100000x1_S100000x64_0_1 : (⟨S100000x1, .f32⟩ : BufTy).Contents (Elt F) → (⟨S100000x64, .f32⟩ : BufTy).Contents (Elt F)),
    binary main_v21 main_v25 main_v26 (Host.divf : (⟨S100000x64, .f32⟩ : BufTy).Contents (Elt F) → (⟨S100000x64, .f32⟩ : BufTy).Contents (Elt F) → (⟨S100000x64, .f32⟩ : BufTy).Contents (Elt F)),
    unary main_arg5 main_v27 (broadcastInDim S1x64 ![1] bcast_S64_S1x64_1 : (⟨S64, .f32⟩ : BufTy).Contents (Elt F) → (⟨S1x64, .f32⟩ : BufTy).Contents (Elt F)),
    unary main_v27 main_v28 (broadcastInDim S100000x64 ![0, 1] bcast_S1x64_S100000x64_0_1 : (⟨S1x64, .f32⟩ : BufTy).Contents (Elt F) → (⟨S100000x64, .f32⟩ : BufTy).Contents (Elt F)),
    binary main_v26 main_v28 main_v29 (mulf : (⟨S100000x64, .f32⟩ : BufTy).Contents (Elt F) → (⟨S100000x64, .f32⟩ : BufTy).Contents (Elt F) → (⟨S100000x64, .f32⟩ : BufTy).Contents (Elt F)),
    unary main_arg6 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)) ]

/-- The references chunk 0 writes. -/
abbrev w0 : List (Ref sig .tc) := [main_v0, main_v1, main_v2, main_v3, main_v4, main_v5, main_v6, main_v7, main_call0_cst, main_call0_v0, main_v8, main_cst, main_v9, main_v10, main_cst_0, main_v11, main_v12, main_v13, main_v14, main_v15, main_cst_1, main_v16, main_v17, main_cst_2, main_v18, main_v19, main_v20, main_v21, main_cst_3, main_v22, main_v23, main_v24, main_v25, main_v26, main_v27, main_v28, main_v29, main_v30, main_v31, main_v32]
theorem c0_writes : (c0 : List (HloOp τ sig (Elt F))).Forall fun op => op.writes ⊆ (w0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- A buffer the chunk does not write keeps its contents. -/
theorem keep0 (V : Valuation τ sig (Elt F)) {r : Ref sig .tc} (h : r ∉ w0) :
    after (c0 (F := F)) V (Proc.devRef .tc r) = V (Proc.devRef .tc r) :=
  after_of_writes_sub c0 V c0_writes h
theorem args0 (m : (ℓ : Loc nD τ sig) → Buf (Elt F) ℓ) (d : Dev nD) (V : Valuation τ sig (Elt F)) (hA : ArgsAt m d V) :
    ArgsAt m d (after (c0 (F := F)) V) :=
  fun r hr => (keep0 V ((by decide : ∀ r ∈ argRefs, r ∉ w0) r hr)).trans (hA r hr)

set_option maxHeartbeats 8000000 in
set_option maxRecDepth 8192 in
theorem chunk0_v1 (m : (ℓ : Loc nD τ sig) → Buf (Elt F) ℓ) (d : Dev nD) (V : Valuation τ sig (Elt F)) (hA : ArgsAt m d V) :
    after (c0 (F := F)) V (Proc.devRef .tc main_v1) = val_main_v1 (F := F) (m ((d.tc : Thread nD τ).loc main_arg1)) := by
  after_results_simp
  rw [hA main_arg1 (by decide)]
  rfl

set_option maxHeartbeats 8000000 in
set_option maxRecDepth 8192 in
theorem chunk0_v3 (m : (ℓ : Loc nD τ sig) → Buf (Elt F) ℓ) (d : Dev nD) (V : Valuation τ sig (Elt F)) (hA : ArgsAt m d V) :
    after (c0 (F := F)) V (Proc.devRef .tc main_v3) = val_main_v3 (F := F) (m ((d.tc : Thread nD τ).loc main_arg1)) := by
  after_results_simp
  rw [hA main_arg1 (by decide)]
  rfl

set_option maxHeartbeats 8000000 in
set_option maxRecDepth 8192 in
theorem chunk0_v32 (m : (ℓ : Loc nD τ sig) → Buf (Elt F) ℓ) (d : Dev nD) (V : Valuation τ sig (Elt F)) (hA : ArgsAt m d V) :
    after (c0 (F := F)) V (Proc.devRef .tc main_v32) = val_main_v32 (F := F) (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6)) := by
  after_results_simp
  rw [hA main_arg0 (by decide), hA main_arg3 (by decide), hA main_arg4 (by decide), hA main_arg5 (by decide), hA main_arg6 (by decide)]
  rfl

/-- Operations 0 to 39 carry the invariant from before them to after them. -/
theorem step0 (m : (ℓ : Loc nD τ sig) → Buf (Elt F) ℓ) (d : Dev nD) (V : Valuation τ sig (Elt F)) (h : Inv0 m d V) :
    Inv1 m d (after (c0 (F := F)) V) :=
  ⟨args0 m d V h.args,
   chunk0_v1 m d V h.args,
   chunk0_v3 m d V h.args,
   chunk0_v32 m d V h.args⟩

/-- Operations 40 to 75 of @main. -/
abbrev c1 : List (HloOp τ sig (Elt F)) :=
  [ binary main_arg2 main_arg7 main_v33 ((fun l r => Host.dotGeneral dot_S1000000x5_S5x64_S1000000x64_1_0_0_1_n_n none l r) : (⟨S1000000x5, .f32⟩ : BufTy).Contents (Elt F) → (⟨S5x64, .f32⟩ : BufTy).Contents (Elt F) → (⟨S1000000x64, .f32⟩ : BufTy).Contents (Elt F)),
    unary main_arg8 main_v34 (broadcastInDim S1x64 ![1] bcast_S64_S1x64_1 : (⟨S64, .f32⟩ : BufTy).Contents (Elt F) → (⟨S1x64, .f32⟩ : BufTy).Contents (Elt F)),
    unary main_v34 main_v35 (broadcastInDim S1000000x64 ![0, 1] bcast_S1x64_S1000000x64_0_1 : (⟨S1x64, .f32⟩ : BufTy).Contents (Elt F) → (⟨S1000000x64, .f32⟩ : BufTy).Contents (Elt F)),
    binary main_v33 main_v35 main_v36 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1000000x64, .f32⟩) main_call1_v0) (broadcastInDim S1000000x64 ![] bcast_S_S1000000x64),
    TRef.binary (TRef.of (T := ⟨S1000000x64, .f32⟩) main_v36) (TRef.of (T := ⟨S1000000x64, .f32⟩) main_call1_v0) (TRef.of (T := ⟨S1000000x64, .f32⟩) main_v37) maximumf,
    nullary main_cst_4 (constant S_ .f32 0x00000000#32),
    binary main_v37 main_cst_4 main_v38 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    unary main_v38 main_v39 (broadcastInDim S1000000x1 ![0] bcast_S1000000_S1000000x1_0 : (⟨S1000000, .f32⟩ : BufTy).Contents (Elt F) → (⟨S1000000x1, .f32⟩ : BufTy).Contents (Elt F)),
    nullary main_cst_5 (constant S_ .f32 0x42800000#32),
    unary main_cst_5 main_v40 (broadcastInDim S1000000x1 ![] bcast_S_S1000000x1 : (⟨S_, .f32⟩ : BufTy).Contents (Elt F) → (⟨S1000000x1, .f32⟩ : BufTy).Contents (Elt F)),
    binary main_v39 main_v40 main_v41 (Host.divf : (⟨S1000000x1, .f32⟩ : BufTy).Contents (Elt F) → (⟨S1000000x1, .f32⟩ : BufTy).Contents (Elt F) → (⟨S1000000x1, .f32⟩ : BufTy).Contents (Elt F)),
    unary main_v41 main_v42 (broadcastInDim S1000000x64 ![0, 1] bcast_S1000000x1_S1000000x64_0_1 : (⟨S1000000x1, .f32⟩ : BufTy).Contents (Elt F) → (⟨S1000000x64, .f32⟩ : BufTy).Contents (Elt F)),
    binary main_v37 main_v42 main_v43 (subf : (⟨S1000000x64, .f32⟩ : BufTy).Contents (Elt F) → (⟨S1000000x64, .f32⟩ : BufTy).Contents (Elt F) → (⟨S1000000x64, .f32⟩ : BufTy).Contents (Elt F)),
    binary main_v43 main_v43 main_v44 (mulf : (⟨S1000000x64, .f32⟩ : BufTy).Contents (Elt F) → (⟨S1000000x64, .f32⟩ : BufTy).Contents (Elt F) → (⟨S1000000x64, .f32⟩ : BufTy).Contents (Elt F)),
    nullary main_cst_6 (constant S_ .f32 0x00000000#32),
    binary main_v44 main_cst_6 main_v45 ((fun x v => Host.reduceAdd x v reducesTo_S1000000x64_S1000000_d1 h_S_) : (⟨S1000000x64, .f32⟩ : BufTy).Contents (Elt F) → (⟨S_, .f32⟩ : BufTy).Contents (Elt F) → (⟨S1000000, .f32⟩ : BufTy).Contents (Elt F)),
    unary main_v45 main_v46 (broadcastInDim S1000000x1 ![0] bcast_S1000000_S1000000x1_0 : (⟨S1000000, .f32⟩ : BufTy).Contents (Elt F) → (⟨S1000000x1, .f32⟩ : BufTy).Contents (Elt F)),
    nullary main_cst_7 (constant S_ .f32 0x42800000#32),
    unary main_cst_7 main_v47 (broadcastInDim S1000000x1 ![] bcast_S_S1000000x1 : (⟨S_, .f32⟩ : BufTy).Contents (Elt F) → (⟨S1000000x1, .f32⟩ : BufTy).Contents (Elt F)),
    binary main_v46 main_v47 main_v48 (Host.divf : (⟨S1000000x1, .f32⟩ : BufTy).Contents (Elt F) → (⟨S1000000x1, .f32⟩ : BufTy).Contents (Elt F) → (⟨S1000000x1, .f32⟩ : BufTy).Contents (Elt F)),
    unary main_v41 main_v49 (broadcastInDim S1000000x64 ![0, 1] bcast_S1000000x1_S1000000x64_0_1 : (⟨S1000000x1, .f32⟩ : BufTy).Contents (Elt F) → (⟨S1000000x64, .f32⟩ : BufTy).Contents (Elt F)),
    binary main_v37 main_v49 main_v50 (subf : (⟨S1000000x64, .f32⟩ : BufTy).Contents (Elt F) → (⟨S1000000x64, .f32⟩ : BufTy).Contents (Elt F) → (⟨S1000000x64, .f32⟩ : BufTy).Contents (Elt F)),
    nullary main_cst_8 (constant S_ .f32 0x3727C5AC#32),
    unary main_cst_8 main_v51 (broadcastInDim S1000000x1 ![] bcast_S_S1000000x1 : (⟨S_, .f32⟩ : BufTy).Contents (Elt F) → (⟨S1000000x1, .f32⟩ : BufTy).Contents (Elt F)),
    binary main_v48 main_v51 main_v52 (addf : (⟨S1000000x1, .f32⟩ : BufTy).Contents (Elt F) → (⟨S1000000x1, .f32⟩ : BufTy).Contents (Elt F) → (⟨S1000000x1, .f32⟩ : BufTy).Contents (Elt F)),
    unary main_v52 main_v53 (Host.sqrt : (⟨S1000000x1, .f32⟩ : BufTy).Contents (Elt F) → (⟨S1000000x1, .f32⟩ : BufTy).Contents (Elt F)),
    unary main_v53 main_v54 (broadcastInDim S1000000x64 ![0, 1] bcast_S1000000x1_S1000000x64_0_1 : (⟨S1000000x1, .f32⟩ : BufTy).Contents (Elt F) → (⟨S1000000x64, .f32⟩ : BufTy).Contents (Elt F)),
    binary main_v50 main_v54 main_v55 (Host.divf : (⟨S1000000x64, .f32⟩ : BufTy).Contents (Elt F) → (⟨S1000000x64, .f32⟩ : BufTy).Contents (Elt F) → (⟨S1000000x64, .f32⟩ : BufTy).Contents (Elt F)),
    unary main_arg9 main_v56 (broadcastInDim S1x64 ![1] bcast_S64_S1x64_1 : (⟨S64, .f32⟩ : BufTy).Contents (Elt F) → (⟨S1x64, .f32⟩ : BufTy).Contents (Elt F)),
    unary main_v56 main_v57 (broadcastInDim S1000000x64 ![0, 1] bcast_S1x64_S1000000x64_0_1 : (⟨S1x64, .f32⟩ : BufTy).Contents (Elt F) → (⟨S1000000x64, .f32⟩ : BufTy).Contents (Elt F)),
    binary main_v55 main_v57 main_v58 (mulf : (⟨S1000000x64, .f32⟩ : BufTy).Contents (Elt F) → (⟨S1000000x64, .f32⟩ : BufTy).Contents (Elt F) → (⟨S1000000x64, .f32⟩ : BufTy).Contents (Elt F)),
    unary main_arg10 main_v59 (broadcastInDim S1x64 ![1] bcast_S64_S1x64_1 : (⟨S64, .f32⟩ : BufTy).Contents (Elt F) → (⟨S1x64, .f32⟩ : BufTy).Contents (Elt F)),
    unary main_v59 main_v60 (broadcastInDim S1000000x64 ![0, 1] bcast_S1x64_S1000000x64_0_1 : (⟨S1x64, .f32⟩ : BufTy).Contents (Elt F) → (⟨S1000000x64, .f32⟩ : BufTy).Contents (Elt F)),
    binary main_v58 main_v60 main_v61 (addf : (⟨S1000000x64, .f32⟩ : BufTy).Contents (Elt F) → (⟨S1000000x64, .f32⟩ : BufTy).Contents (Elt F) → (⟨S1000000x64, .f32⟩ : BufTy).Contents (Elt F)) ]

/-- The references chunk 1 writes. -/
abbrev w1 : List (Ref sig .tc) := [main_v33, main_v34, main_v35, main_v36, main_call1_cst, main_call1_v0, main_v37, main_cst_4, main_v38, main_v39, main_cst_5, main_v40, main_v41, main_v42, main_v43, main_v44, main_cst_6, main_v45, main_v46, main_cst_7, main_v47, main_v48, main_v49, main_v50, main_cst_8, main_v51, main_v52, main_v53, main_v54, main_v55, main_v56, main_v57, main_v58, main_v59, main_v60, main_v61]
theorem c1_writes : (c1 : List (HloOp τ sig (Elt F))).Forall fun op => op.writes ⊆ (w1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- A buffer the chunk does not write keeps its contents. -/
theorem keep1 (V : Valuation τ sig (Elt F)) {r : Ref sig .tc} (h : r ∉ w1) :
    after (c1 (F := F)) V (Proc.devRef .tc r) = V (Proc.devRef .tc r) :=
  after_of_writes_sub c1 V c1_writes h
theorem args1 (m : (ℓ : Loc nD τ sig) → Buf (Elt F) ℓ) (d : Dev nD) (V : Valuation τ sig (Elt F)) (hA : ArgsAt m d V) :
    ArgsAt m d (after (c1 (F := F)) V) :=
  fun r hr => (keep1 V ((by decide : ∀ r ∈ argRefs, r ∉ w1) r hr)).trans (hA r hr)

set_option maxHeartbeats 8000000 in
set_option maxRecDepth 8192 in
theorem chunk1_v61 (m : (ℓ : Loc nD τ sig) → Buf (Elt F) ℓ) (d : Dev nD) (V : Valuation τ sig (Elt F)) (hA : ArgsAt m d V) :
    after (c1 (F := F)) V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10)) := by
  after_results_simp
  rw [hA main_arg2 (by decide), hA main_arg7 (by decide), hA main_arg8 (by decide), hA main_arg9 (by decide), hA main_arg10 (by decide)]
  rfl

/-- Operations 40 to 75 carry the invariant from before them to after them. -/
theorem step1 (m : (ℓ : Loc nD τ sig) → Buf (Elt F) ℓ) (d : Dev nD) (V : Valuation τ sig (Elt F)) (h : Inv1 m d V) :
    Inv2 m d (after (c1 (F := F)) V) :=
  ⟨args1 m d V h.args,
   (keep1 V (by decide)).trans h.v1,
   (keep1 V (by decide)).trans h.v3,
   (keep1 V (by decide)).trans h.v32,
   chunk1_v61 m d V h.args⟩

end Cert.ReferenceIdeal.RefRun

end
-- ==== Proof.Ref.RunB.lean ====
import proofs.«178696_j1468878815658_2_alg».proof.Proof.Ref.RunBase

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! Operations 76 to 146 of the reference (the first message layer and node update), in 4 stretches: each stretch's result buffers at their
    stage functions, given the buffers it reads; the buffers it does not write kept. -/

/-- Operations 76 to 84 of @main. -/
abbrev c2 : List (HloOp τ sig (Elt F)) :=
  [ nullary main_c (constantI S_ 32 0#32),
    unary main_c main_v62 (broadcastInDim S1000000 ![] bcast_S_S1000000 : (⟨S_, .i32⟩ : BufTy).Contents (Elt F) → (⟨S1000000, .i32⟩ : BufTy).Contents (Elt F)),
    binary main_v1 main_v62 main_v63 (cmpi .slt : (⟨S1000000, .i32⟩ : BufTy).Contents (Elt F) → (⟨S1000000, .i32⟩ : BufTy).Contents (Elt F) → (⟨S1000000, .i1⟩ : BufTy).Contents (Elt F)),
    nullary main_c_9 (constantI S_ 32 100000#32),
    unary main_c_9 main_v64 (broadcastInDim S1000000 ![] bcast_S_S1000000 : (⟨S_, .i32⟩ : BufTy).Contents (Elt F) → (⟨S1000000, .i32⟩ : BufTy).Contents (Elt F)),
    binary main_v1 main_v64 main_v65 (addi : (⟨S1000000, .i32⟩ : BufTy).Contents (Elt F) → (⟨S1000000, .i32⟩ : BufTy).Contents (Elt F) → (⟨S1000000, .i32⟩ : BufTy).Contents (Elt F)),
    ternary main_v63 main_v65 main_v1 main_v66 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v66 main_v67 (broadcastInDim S1000000x1 ![0] bcast_S1000000_S1000000x1_0 : (⟨S1000000, .i32⟩ : BufTy).Contents (Elt F) → (⟨S1000000x1, .i32⟩ : BufTy).Contents (Elt F)),
    binary main_v32 main_v67 main_v68 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]

/-- The references chunk 2 writes. -/
abbrev w2 : List (Ref sig .tc) := [main_c, main_v62, main_v63, main_c_9, main_v64, main_v65, main_v66, main_v67, main_v68]
theorem c2_writes : (c2 : List (HloOp τ sig (Elt F))).Forall fun op => op.writes ⊆ (w2.map (Proc.devRef (τ := τ) .tc)).toFinset := by
  simp only [List.Forall]
  refine ⟨?_, ?_, ?_, ?_, ?_, ?_, ?_, ?_, ?_⟩ <;> writes_one
/-- A buffer the chunk does not write keeps its contents. -/
theorem keep2 (V : Valuation τ sig (Elt F)) {r : Ref sig .tc} (h : r ∉ w2) :
    after (c2 (F := F)) V (Proc.devRef .tc r) = V (Proc.devRef .tc r) :=
  after_of_writes_sub c2 V c2_writes h
theorem args2 (m : (ℓ : Loc nD τ sig) → Buf (Elt F) ℓ) (d : Dev nD) (V : Valuation τ sig (Elt F)) (hA : ArgsAt m d V) :
    ArgsAt m d (after (c2 (F := F)) V) :=
  fun r hr => (keep2 V ((by decide : ∀ r ∈ argRefs, r ∉ w2) r hr)).trans (hA r hr)

set_option maxHeartbeats 8000000 in
set_option maxRecDepth 8192 in
theorem chunk2_v68 (m : (ℓ : Loc nD τ sig) → Buf (Elt F) ℓ) (d : Dev nD) (V : Valuation τ sig (Elt F)) (hA : ArgsAt m d V)
    (h_v1 : V (Proc.devRef .tc main_v1) = val_main_v1 (F := F) (m ((d.tc : Thread nD τ).loc main_arg1)))
    (h_v32 : V (Proc.devRef .tc main_v32) = val_main_v32 (F := F) (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6))) :
    after (c2 (F := F)) V (Proc.devRef .tc main_v68) = val_main_v68 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) := by
  after_results_simp
  rw [h_v1, h_v32]
  rfl

/-- Operations 76 to 84 carry the invariant from before them to after them. -/
theorem step2 (m : (ℓ : Loc nD τ sig) → Buf (Elt F) ℓ) (d : Dev nD) (V : Valuation τ sig (Elt F)) (h : Inv2 m d V) :
    Inv3 m d (after (c2 (F := F)) V) :=
  ⟨args2 m d V h.args,
   (keep2 V (by decide)).trans h.v1,
   (keep2 V (by decide)).trans h.v3,
   (keep2 V (by decide)).trans h.v32,
   (keep2 V (by decide)).trans h.v61,
   chunk2_v68 m d V h.args h.v1 h.v32⟩

/-- Operations 85 to 96 of @main. -/
abbrev c3 : List (HloOp τ sig (Elt F)) :=
  [ binary main_v68 main_v61 main_v69 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    binary main_v69 main_arg11 main_v70 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg12 main_v71 (broadcastInDim S1x64 ![1] bcast_S64_S1x64_1 : (⟨S64, .f32⟩ : BufTy).Contents (Elt F) → (⟨S1x64, .f32⟩ : BufTy).Contents (Elt F)),
    unary main_v71 main_v72 (broadcastInDim S1000000x64 ![0, 1] bcast_S1x64_S1000000x64_0_1 : (⟨S1x64, .f32⟩ : BufTy).Contents (Elt F) → (⟨S1000000x64, .f32⟩ : BufTy).Contents (Elt F)),
    binary main_v70 main_v72 main_v73 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1000000x64, .f32⟩) main_call2_v0) (broadcastInDim S1000000x64 ![] bcast_S_S1000000x64),
    TRef.binary (TRef.of (T := ⟨S1000000x64, .f32⟩) main_v73) (TRef.of (T := ⟨S1000000x64, .f32⟩) main_call2_v0) (TRef.of (T := ⟨S1000000x64, .f32⟩) main_v74) maximumf,
    nullary main_cst_10 (constant S_ .f32 0x00000000#32),
    unary main_cst_10 main_v75 (broadcastInDim S100000x64 ![] bcast_S_S100000x64 : (⟨S_, .f32⟩ : BufTy).Contents (Elt F) → (⟨S100000x64, .f32⟩ : BufTy).Contents (Elt F)),
    unary main_v3 main_v76 (broadcastInDim S1000000x1 ![0] bcast_S1000000_S1000000x1_0 : (⟨S1000000, .i32⟩ : BufTy).Contents (Elt F) → (⟨S1000000x1, .i32⟩ : BufTy).Contents (Elt F)),
    ternary main_v75 main_v76 main_v74 main_v77 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

/-- The references chunk 3 writes. -/
abbrev w3 : List (Ref sig .tc) := [main_v69, main_v70, main_v71, main_v72, main_v73, main_call2_cst, main_call2_v0, main_v74, main_cst_10, main_v75, main_v76, main_v77]
theorem c3_writes : (c3 : List (HloOp τ sig (Elt F))).Forall fun op => op.writes ⊆ (w3.map (Proc.devRef (τ := τ) .tc)).toFinset := by
  simp only [List.Forall]
  refine ⟨?_, ?_, ?_, ?_, ?_, ?_, ?_, ?_, ?_, ?_, ?_, ?_⟩ <;> writes_one
/-- A buffer the chunk does not write keeps its contents. -/
theorem keep3 (V : Valuation τ sig (Elt F)) {r : Ref sig .tc} (h : r ∉ w3) :
    after (c3 (F := F)) V (Proc.devRef .tc r) = V (Proc.devRef .tc r) :=
  after_of_writes_sub c3 V c3_writes h
theorem args3 (m : (ℓ : Loc nD τ sig) → Buf (Elt F) ℓ) (d : Dev nD) (V : Valuation τ sig (Elt F)) (hA : ArgsAt m d V) :
    ArgsAt m d (after (c3 (F := F)) V) :=
  fun r hr => (keep3 V ((by decide : ∀ r ∈ argRefs, r ∉ w3) r hr)).trans (hA r hr)

set_option maxHeartbeats 8000000 in
set_option maxRecDepth 8192 in
theorem chunk3_v77 (m : (ℓ : Loc nD τ sig) → Buf (Elt F) ℓ) (d : Dev nD) (V : Valuation τ sig (Elt F)) (hA : ArgsAt m d V)
    (h_v68 : V (Proc.devRef .tc main_v68) = val_main_v68 (F := F) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)))
    (h_v61 : V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10)))
    (h_v3 : V (Proc.devRef .tc main_v3) = val_main_v3 (F := F) (m ((d.tc : Thread nD τ).loc main_arg1))) :
    after (c3 (F := F)) V (Proc.devRef .tc main_v77) = val_main_v77 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  after_results_simp
  rw [h_v68, h_v61, h_v3, hA main_arg11 (by decide), hA main_arg12 (by decide)]
  rfl

/-- Operations 85 to 96 carry the invariant from before them to after them. -/
theorem step3 (m : (ℓ : Loc nD τ sig) → Buf (Elt F) ℓ) (d : Dev nD) (V : Valuation τ sig (Elt F)) (h : Inv3 m d V) :
    Inv4 m d (after (c3 (F := F)) V) :=
  ⟨args3 m d V h.args,
   (keep3 V (by decide)).trans h.v1,
   (keep3 V (by decide)).trans h.v3,
   (keep3 V (by decide)).trans h.v32,
   (keep3 V (by decide)).trans h.v61,
   chunk3_v77 m d V h.args h.v68 h.v61 h.v3⟩

/-- Operations 97 to 108 of @main. -/
abbrev c4 : List (HloOp τ sig (Elt F)) :=
  [ nullary main_cst_11 (constant S_ .f32 0x3F800000#32),
    unary main_cst_11 main_v78 (broadcastInDim S1000000 ![] bcast_S_S1000000 : (⟨S_, .f32⟩ : BufTy).Contents (Elt F) → (⟨S1000000, .f32⟩ : BufTy).Contents (Elt F)),
    nullary main_cst_12 (constant S_ .f32 0x00000000#32),
    unary main_cst_12 main_v79 (broadcastInDim S100000 ![] bcast_S_S100000 : (⟨S_, .f32⟩ : BufTy).Contents (Elt F) → (⟨S100000, .f32⟩ : BufTy).Contents (Elt F)),
    unary main_v3 main_v80 (broadcastInDim S1000000x1 ![0] bcast_S1000000_S1000000x1_0 : (⟨S1000000, .i32⟩ : BufTy).Contents (Elt F) → (⟨S1000000x1, .i32⟩ : BufTy).Contents (Elt F)),
    ternary main_v79 main_v80 main_v78 main_v81 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_13 (constant S_ .f32 0x3F800000#32),
    unary main_cst_13 main_v82 (broadcastInDim S100000 ![] bcast_S_S100000 : (⟨S_, .f32⟩ : BufTy).Contents (Elt F) → (⟨S100000, .f32⟩ : BufTy).Contents (Elt F)),
    binary main_v81 main_v82 main_v83 (maximumf : (⟨S100000, .f32⟩ : BufTy).Contents (Elt F) → (⟨S100000, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x64 ![0, 1] bcast_S100000x1_S100000x64_0_1 : (⟨S100000x1, .f32⟩ : BufTy).Contents (Elt F) → (⟨S100000x64, .f32⟩ : BufTy).Contents (Elt F)),
    binary main_v77 main_v85 main_v86 (Host.divf : (⟨S100000x64, .f32⟩ : BufTy).Contents (Elt F) → (⟨S100000x64, .f32⟩ : BufTy).Contents (Elt F) → (⟨S100000x64, .f32⟩ : BufTy).Contents (Elt F)) ]

/-- The references chunk 4 writes. -/
abbrev w4 : List (Ref sig .tc) := [main_cst_11, main_v78, main_cst_12, main_v79, main_v80, main_v81, main_cst_13, main_v82, main_v83, main_v84, main_v85, main_v86]
theorem c4_writes : (c4 : List (HloOp τ sig (Elt F))).Forall fun op => op.writes ⊆ (w4.map (Proc.devRef (τ := τ) .tc)).toFinset := by
  simp only [List.Forall]
  refine ⟨?_, ?_, ?_, ?_, ?_, ?_, ?_, ?_, ?_, ?_, ?_, ?_⟩ <;> writes_one
/-- A buffer the chunk does not write keeps its contents. -/
theorem keep4 (V : Valuation τ sig (Elt F)) {r : Ref sig .tc} (h : r ∉ w4) :
    after (c4 (F := F)) V (Proc.devRef .tc r) = V (Proc.devRef .tc r) :=
  after_of_writes_sub c4 V c4_writes h
theorem args4 (m : (ℓ : Loc nD τ sig) → Buf (Elt F) ℓ) (d : Dev nD) (V : Valuation τ sig (Elt F)) (hA : ArgsAt m d V) :
    ArgsAt m d (after (c4 (F := F)) V) :=
  fun r hr => (keep4 V ((by decide : ∀ r ∈ argRefs, r ∉ w4) r hr)).trans (hA r hr)

set_option maxHeartbeats 8000000 in
set_option maxRecDepth 8192 in
theorem chunk4_v86 (m : (ℓ : Loc nD τ sig) → Buf (Elt F) ℓ) (d : Dev nD) (V : Valuation τ sig (Elt F)) (hA : ArgsAt m d V)
    (h_v3 : V (Proc.devRef .tc main_v3) = val_main_v3 (F := F) (m ((d.tc : Thread nD τ).loc main_arg1)))
    (h_v77 : V (Proc.devRef .tc main_v77) = val_main_v77 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12))) :
    after (c4 (F := F)) V (Proc.devRef .tc main_v86) = val_main_v86 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) := by
  after_results_simp
  rw [h_v3, h_v77]
  rfl

/-- Operations 97 to 108 carry the invariant from before them to after them. -/
theorem step4 (m : (ℓ : Loc nD τ sig) → Buf (Elt F) ℓ) (d : Dev nD) (V : Valuation τ sig (Elt F)) (h : Inv4 m d V) :
    Inv5 m d (after (c4 (F := F)) V) :=
  ⟨args4 m d V h.args,
   (keep4 V (by decide)).trans h.v1,
   (keep4 V (by decide)).trans h.v3,
   (keep4 V (by decide)).trans h.v32,
   (keep4 V (by decide)).trans h.v61,
   chunk4_v86 m d V h.args h.v3 h.v77⟩

/-- Operations 109 to 146 of @main. -/
abbrev c5 : List (HloOp τ sig (Elt F)) :=
  [ binary main_v32 main_v86 main_v87 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v87 main_arg13 main_v88 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg14 main_v89 (broadcastInDim S1x64 ![1] bcast_S64_S1x64_1 : (⟨S64, .f32⟩ : BufTy).Contents (Elt F) → (⟨S1x64, .f32⟩ : BufTy).Contents (Elt F)),
    unary main_v89 main_v90 (broadcastInDim S100000x64 ![0, 1] bcast_S1x64_S100000x64_0_1 : (⟨S1x64, .f32⟩ : BufTy).Contents (Elt F) → (⟨S100000x64, .f32⟩ : BufTy).Contents (Elt F)),
    binary main_v88 main_v90 main_v91 (addf : (⟨S100000x64, .f32⟩ : BufTy).Contents (Elt F) → (⟨S100000x64, .f32⟩ : BufTy).Contents (Elt F) → (⟨S100000x64, .f32⟩ : BufTy).Contents (Elt F)),
    nullary main_cst_14 (constant S_ .f32 0x00000000#32),
    binary main_v91 main_cst_14 main_v92 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v92 main_v93 (broadcastInDim S100000x1 ![0] bcast_S100000_S100000x1_0 : (⟨S100000, .f32⟩ : BufTy).Contents (Elt F) → (⟨S100000x1, .f32⟩ : BufTy).Contents (Elt F)),
    nullary main_cst_15 (constant S_ .f32 0x42800000#32),
    unary main_cst_15 main_v94 (broadcastInDim S100000x1 ![] bcast_S_S100000x1 : (⟨S_, .f32⟩ : BufTy).Contents (Elt F) → (⟨S100000x1, .f32⟩ : BufTy).Contents (Elt F)),
    binary main_v93 main_v94 main_v95 (Host.divf : (⟨S100000x1, .f32⟩ : BufTy).Contents (Elt F) → (⟨S100000x1, .f32⟩ : BufTy).Contents (Elt F) → (⟨S100000x1, .f32⟩ : BufTy).Contents (Elt F)),
    unary main_v95 main_v96 (broadcastInDim S100000x64 ![0, 1] bcast_S100000x1_S100000x64_0_1 : (⟨S100000x1, .f32⟩ : BufTy).Contents (Elt F) → (⟨S100000x64, .f32⟩ : BufTy).Contents (Elt F)),
    binary main_v91 main_v96 main_v97 (subf : (⟨S100000x64, .f32⟩ : BufTy).Contents (Elt F) → (⟨S100000x64, .f32⟩ : BufTy).Contents (Elt F) → (⟨S100000x64, .f32⟩ : BufTy).Contents (Elt F)),
    binary main_v97 main_v97 main_v98 (mulf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x00000000#32),
    binary main_v98 main_cst_16 main_v99 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v99 main_v100 (broadcastInDim S100000x1 ![0] bcast_S100000_S100000x1_0 : (⟨S100000, .f32⟩ : BufTy).Contents (Elt F) → (⟨S100000x1, .f32⟩ : BufTy).Contents (Elt F)),
    nullary main_cst_17 (constant S_ .f32 0x42800000#32),
    unary main_cst_17 main_v101 (broadcastInDim S100000x1 ![] bcast_S_S100000x1 : (⟨S_, .f32⟩ : BufTy).Contents (Elt F) → (⟨S100000x1, .f32⟩ : BufTy).Contents (Elt F)),
    binary main_v100 main_v101 main_v102 (Host.divf : (⟨S100000x1, .f32⟩ : BufTy).Contents (Elt F) → (⟨S100000x1, .f32⟩ : BufTy).Contents (Elt F) → (⟨S100000x1, .f32⟩ : BufTy).Contents (Elt F)),
    unary main_v95 main_v103 (broadcastInDim S100000x64 ![0, 1] bcast_S100000x1_S100000x64_0_1 : (⟨S100000x1, .f32⟩ : BufTy).Contents (Elt F) → (⟨S100000x64, .f32⟩ : BufTy).Contents (Elt F)),
    binary main_v91 main_v103 main_v104 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v105 (broadcastInDim S100000x1 ![] bcast_S_S100000x1 : (⟨S_, .f32⟩ : BufTy).Contents (Elt F) → (⟨S100000x1, .f32⟩ : BufTy).Contents (Elt F)),
    binary main_v102 main_v105 main_v106 (addf : (⟨S100000x1, .f32⟩ : BufTy).Contents (Elt F) → (⟨S100000x1, .f32⟩ : BufTy).Contents (Elt F) → (⟨S100000x1, .f32⟩ : BufTy).Contents (Elt F)),
    unary main_v106 main_v107 (Host.sqrt : (⟨S100000x1, .f32⟩ : BufTy).Contents (Elt F) → (⟨S100000x1, .f32⟩ : BufTy).Contents (Elt F)),
    unary main_v107 main_v108 (broadcastInDim S100000x64 ![0, 1] bcast_S100000x1_S100000x64_0_1 : (⟨S100000x1, .f32⟩ : BufTy).Contents (Elt F) → (⟨S100000x64, .f32⟩ : BufTy).Contents (Elt F)),
    binary main_v104 main_v108 main_v109 (Host.divf : (⟨S100000x64, .f32⟩ : BufTy).Contents (Elt F) → (⟨S100000x64, .f32⟩ : BufTy).Contents (Elt F) → (⟨S100000x64, .f32⟩ : BufTy).Contents (Elt F)),
    unary main_arg15 main_v110 (broadcastInDim S1x64 ![1] bcast_S64_S1x64_1 : (⟨S64, .f32⟩ : BufTy).Contents (Elt F) → (⟨S1x64, .f32⟩ : BufTy).Contents (Elt F)),
    unary main_v110 main_v111 (broadcastInDim S100000x64 ![0, 1] bcast_S1x64_S100000x64_0_1 : (⟨S1x64, .f32⟩ : BufTy).Contents (Elt F) → (⟨S100000x64, .f32⟩ : BufTy).Contents (Elt F)),
    binary main_v109 main_v111 main_v112 (mulf : (⟨S100000x64, .f32⟩ : BufTy).Contents (Elt F) → (⟨S100000x64, .f32⟩ : BufTy).Contents (Elt F) → (⟨S100000x64, .f32⟩ : BufTy).Contents (Elt F)),
    unary main_arg16 main_v113 (broadcastInDim S1x64 ![1] bcast_S64_S1x64_1 : (⟨S64, .f32⟩ : BufTy).Contents (Elt F) → (⟨S1x64, .f32⟩ : BufTy).Contents (Elt F)),
    unary main_v113 main_v114 (broadcastInDim S100000x64 ![0, 1] bcast_S1x64_S100000x64_0_1 : (⟨S1x64, .f32⟩ : BufTy).Contents (Elt F) → (⟨S100000x64, .f32⟩ : BufTy).Contents (Elt F)),
    binary main_v112 main_v114 main_v115 (addf : (⟨S100000x64, .f32⟩ : BufTy).Contents (Elt F) → (⟨S100000x64, .f32⟩ : BufTy).Contents (Elt F) → (⟨S100000x64, .f32⟩ : BufTy).Contents (Elt F)),
    binary main_v115 main_v32 main_v116 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v116) (TRef.of (T := ⟨S100000x64, .f32⟩) main_call3_v0) (TRef.of (T := ⟨S100000x64, .f32⟩) main_v117) maximumf ]

/-- The references chunk 5 writes. -/
abbrev w5 : List (Ref sig .tc) := [main_v87, main_v88, main_v89, main_v90, main_v91, main_cst_14, main_v92, main_v93, main_cst_15, main_v94, main_v95, main_v96, main_v97, main_v98, main_cst_16, main_v99, main_v100, main_cst_17, main_v101, main_v102, main_v103, main_v104, main_cst_18, main_v105, main_v106, main_v107, main_v108, main_v109, main_v110, main_v111, main_v112, main_v113, main_v114, main_v115, main_v116, main_call3_cst, main_call3_v0, main_v117]
theorem c5_writes : (c5 : List (HloOp τ sig (Elt F))).Forall fun op => op.writes ⊆ (w5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- A buffer the chunk does not write keeps its contents. -/
theorem keep5 (V : Valuation τ sig (Elt F)) {r : Ref sig .tc} (h : r ∉ w5) :
    after (c5 (F := F)) V (Proc.devRef .tc r) = V (Proc.devRef .tc r) :=
  after_of_writes_sub c5 V c5_writes h
theorem args5 (m : (ℓ : Loc nD τ sig) → Buf (Elt F) ℓ) (d : Dev nD) (V : Valuation τ sig (Elt F)) (hA : ArgsAt m d V) :
    ArgsAt m d (after (c5 (F := F)) V) :=
  fun r hr => (keep5 V ((by decide : ∀ r ∈ argRefs, r ∉ w5) r hr)).trans (hA r hr)

set_option maxHeartbeats 8000000 in
set_option maxRecDepth 8192 in
theorem chunk5_v117 (m : (ℓ : Loc nD τ sig) → Buf (Elt F) ℓ) (d : Dev nD) (V : Valuation τ sig (Elt F)) (hA : ArgsAt m d V)
    (h_v32 : V (Proc.devRef .tc main_v32) = val_main_v32 (F := F) (m ((d.tc : Thread nD τ).loc main_arg0)) (m ((d.tc : Thread nD τ).loc main_arg3)) (m ((d.tc : Thread nD τ).loc main_arg4)) (m ((d.tc : Thread nD τ).loc main_arg5)) (m ((d.tc : Thread nD τ).loc main_arg6)))
    (h_v86 : V (Proc.devRef .tc main_v86) = val_main_v86 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12))) :
    after (c5 (F := F)) V (Proc.devRef .tc main_v117) = val_main_v117 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) := by
  after_results_simp
  rw [h_v32, h_v86, hA main_arg13 (by decide), hA main_arg14 (by decide), hA main_arg15 (by decide), hA main_arg16 (by decide)]
  rfl

/-- Operations 109 to 146 carry the invariant from before them to after them. -/
theorem step5 (m : (ℓ : Loc nD τ sig) → Buf (Elt F) ℓ) (d : Dev nD) (V : Valuation τ sig (Elt F)) (h : Inv5 m d V) :
    Inv6 m d (after (c5 (F := F)) V) :=
  ⟨args5 m d V h.args,
   (keep5 V (by decide)).trans h.v1,
   (keep5 V (by decide)).trans h.v3,
   (keep5 V (by decide)).trans h.v61,
   chunk5_v117 m d V h.args h.v32 h.v86⟩

end Cert.ReferenceIdeal.RefRun

end
-- ==== Proof.Ref.RunC.lean ====
import proofs.«178696_j1468878815658_2_alg».proof.Proof.Ref.RunBase

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! Operations 147 to 217 of the reference (the second message layer and node update), in 4 stretches: each stretch's result buffers at their
    stage functions, given the buffers it reads; the buffers it does not write kept. -/

/-- Operations 147 to 155 of @main. -/
abbrev c6 : List (HloOp τ sig (Elt F)) :=
  [ nullary main_c_19 (constantI S_ 32 0#32),
    unary main_c_19 main_v118 (broadcastInDim S1000000 ![] bcast_S_S1000000 : (⟨S_, .i32⟩ : BufTy).Contents (Elt F) → (⟨S1000000, .i32⟩ : BufTy).Contents (Elt F)),
    binary main_v1 main_v118 main_v119 (cmpi .slt : (⟨S1000000, .i32⟩ : BufTy).Contents (Elt F) → (⟨S1000000, .i32⟩ : BufTy).Contents (Elt F) → (⟨S1000000, .i1⟩ : BufTy).Contents (Elt F)),
    nullary main_c_20 (constantI S_ 32 100000#32),
    unary main_c_20 main_v120 (broadcastInDim S1000000 ![] bcast_S_S1000000 : (⟨S_, .i32⟩ : BufTy).Contents (Elt F) → (⟨S1000000, .i32⟩ : BufTy).Contents (Elt F)),
    binary main_v1 main_v120 main_v121 (addi : (⟨S1000000, .i32⟩ : BufTy).Contents (Elt F) → (⟨S1000000, .i32⟩ : BufTy).Contents (Elt F) → (⟨S1000000, .i32⟩ : BufTy).Contents (Elt F)),
    ternary main_v119 main_v121 main_v1 main_v122 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v122 main_v123 (broadcastInDim S1000000x1 ![0] bcast_S1000000_S1000000x1_0 : (⟨S1000000, .i32⟩ : BufTy).Contents (Elt F) → (⟨S1000000x1, .i32⟩ : BufTy).Contents (Elt F)),
    binary main_v117 main_v123 main_v124 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]

/-- The references chunk 6 writes. -/
abbrev w6 : List (Ref sig .tc) := [main_c_19, main_v118, main_v119, main_c_20, main_v120, main_v121, main_v122, main_v123, main_v124]
theorem c6_writes : (c6 : List (HloOp τ sig (Elt F))).Forall fun op => op.writes ⊆ (w6.map (Proc.devRef (τ := τ) .tc)).toFinset := by
  simp only [List.Forall]
  refine ⟨?_, ?_, ?_, ?_, ?_, ?_, ?_, ?_, ?_⟩ <;> writes_one
/-- A buffer the chunk does not write keeps its contents. -/
theorem keep6 (V : Valuation τ sig (Elt F)) {r : Ref sig .tc} (h : r ∉ w6) :
    after (c6 (F := F)) V (Proc.devRef .tc r) = V (Proc.devRef .tc r) :=
  after_of_writes_sub c6 V c6_writes h
theorem args6 (m : (ℓ : Loc nD τ sig) → Buf (Elt F) ℓ) (d : Dev nD) (V : Valuation τ sig (Elt F)) (hA : ArgsAt m d V) :
    ArgsAt m d (after (c6 (F := F)) V) :=
  fun r hr => (keep6 V ((by decide : ∀ r ∈ argRefs, r ∉ w6) r hr)).trans (hA r hr)

set_option maxHeartbeats 8000000 in
set_option maxRecDepth 8192 in
theorem chunk6_v124 (m : (ℓ : Loc nD τ sig) → Buf (Elt F) ℓ) (d : Dev nD) (V : Valuation τ sig (Elt F)) (hA : ArgsAt m d V)
    (h_v1 : V (Proc.devRef .tc main_v1) = val_main_v1 (F := F) (m ((d.tc : Thread nD τ).loc main_arg1)))
    (h_v117 : V (Proc.devRef .tc main_v117) = val_main_v117 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16))) :
    after (c6 (F := F)) V (Proc.devRef .tc main_v124) = val_main_v124 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) := by
  after_results_simp
  rw [h_v1, h_v117]
  rfl

/-- Operations 147 to 155 carry the invariant from before them to after them. -/
theorem step6 (m : (ℓ : Loc nD τ sig) → Buf (Elt F) ℓ) (d : Dev nD) (V : Valuation τ sig (Elt F)) (h : Inv6 m d V) :
    Inv7 m d (after (c6 (F := F)) V) :=
  ⟨args6 m d V h.args,
   (keep6 V (by decide)).trans h.v1,
   (keep6 V (by decide)).trans h.v3,
   (keep6 V (by decide)).trans h.v61,
   (keep6 V (by decide)).trans h.v117,
   chunk6_v124 m d V h.args h.v1 h.v117⟩

/-- Operations 156 to 167 of @main. -/
abbrev c7 : List (HloOp τ sig (Elt F)) :=
  [ binary main_v124 main_v61 main_v125 ((fun a b => concatenate S1000000x128 1 [⟨S1000000x64, a⟩, ⟨S1000000x64, b⟩] concatenates_S1000000x64_S1000000x64_S1000000x128_d1) : (⟨S1000000x64, .f32⟩ : BufTy).Contents (Elt F) → (⟨S1000000x64, .f32⟩ : BufTy).Contents (Elt F) → (⟨S1000000x128, .f32⟩ : BufTy).Contents (Elt F)),
    binary main_v125 main_arg17 main_v126 ((fun l r => Host.dotGeneral dot_S1000000x128_S128x64_S1000000x64_1_0_0_1_n_n none l r) : (⟨S1000000x128, .f32⟩ : BufTy).Contents (Elt F) → (⟨S128x64, .f32⟩ : BufTy).Contents (Elt F) → (⟨S1000000x64, .f32⟩ : BufTy).Contents (Elt F)),
    unary main_arg18 main_v127 (broadcastInDim S1x64 ![1] bcast_S64_S1x64_1 : (⟨S64, .f32⟩ : BufTy).Contents (Elt F) → (⟨S1x64, .f32⟩ : BufTy).Contents (Elt F)),
    unary main_v127 main_v128 (broadcastInDim S1000000x64 ![0, 1] bcast_S1x64_S1000000x64_0_1 : (⟨S1x64, .f32⟩ : BufTy).Contents (Elt F) → (⟨S1000000x64, .f32⟩ : BufTy).Contents (Elt F)),
    binary main_v126 main_v128 main_v129 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1000000x64, .f32⟩) main_call4_v0) (broadcastInDim S1000000x64 ![] bcast_S_S1000000x64),
    TRef.binary (TRef.of (T := ⟨S1000000x64, .f32⟩) main_v129) (TRef.of (T := ⟨S1000000x64, .f32⟩) main_call4_v0) (TRef.of (T := ⟨S1000000x64, .f32⟩) main_v130) maximumf,
    nullary main_cst_21 (constant S_ .f32 0x00000000#32),
    unary main_cst_21 main_v131 (broadcastInDim S100000x64 ![] bcast_S_S100000x64 : (⟨S_, .f32⟩ : BufTy).Contents (Elt F) → (⟨S100000x64, .f32⟩ : BufTy).Contents (Elt F)),
    unary main_v3 main_v132 (broadcastInDim S1000000x1 ![0] bcast_S1000000_S1000000x1_0 : (⟨S1000000, .i32⟩ : BufTy).Contents (Elt F) → (⟨S1000000x1, .i32⟩ : BufTy).Contents (Elt F)),
    ternary main_v131 main_v132 main_v130 main_v133 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)) ]

/-- The references chunk 7 writes. -/
abbrev w7 : List (Ref sig .tc) := [main_v125, main_v126, main_v127, main_v128, main_v129, main_call4_cst, main_call4_v0, main_v130, main_cst_21, main_v131, main_v132, main_v133]
theorem c7_writes : (c7 : List (HloOp τ sig (Elt F))).Forall fun op => op.writes ⊆ (w7.map (Proc.devRef (τ := τ) .tc)).toFinset := by
  simp only [List.Forall]
  refine ⟨?_, ?_, ?_, ?_, ?_, ?_, ?_, ?_, ?_, ?_, ?_, ?_⟩ <;> writes_one
/-- A buffer the chunk does not write keeps its contents. -/
theorem keep7 (V : Valuation τ sig (Elt F)) {r : Ref sig .tc} (h : r ∉ w7) :
    after (c7 (F := F)) V (Proc.devRef .tc r) = V (Proc.devRef .tc r) :=
  after_of_writes_sub c7 V c7_writes h
theorem args7 (m : (ℓ : Loc nD τ sig) → Buf (Elt F) ℓ) (d : Dev nD) (V : Valuation τ sig (Elt F)) (hA : ArgsAt m d V) :
    ArgsAt m d (after (c7 (F := F)) V) :=
  fun r hr => (keep7 V ((by decide : ∀ r ∈ argRefs, r ∉ w7) r hr)).trans (hA r hr)

set_option maxHeartbeats 8000000 in
set_option maxRecDepth 8192 in
theorem chunk7_v133 (m : (ℓ : Loc nD τ sig) → Buf (Elt F) ℓ) (d : Dev nD) (V : Valuation τ sig (Elt F)) (hA : ArgsAt m d V)
    (h_v124 : V (Proc.devRef .tc main_v124) = val_main_v124 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)))
    (h_v61 : V (Proc.devRef .tc main_v61) = val_main_v61 (F := F) (m ((d.tc : Thread nD τ).loc main_arg2)) (m ((d.tc : Thread nD τ).loc main_arg7)) (m ((d.tc : Thread nD τ).loc main_arg8)) (m ((d.tc : Thread nD τ).loc main_arg9)) (m ((d.tc : Thread nD τ).loc main_arg10)))
    (h_v3 : V (Proc.devRef .tc main_v3) = val_main_v3 (F := F) (m ((d.tc : Thread nD τ).loc main_arg1))) :
    after (c7 (F := F)) V (Proc.devRef .tc main_v133) = val_main_v133 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) := by
  after_results_simp
  rw [h_v124, h_v61, h_v3, hA main_arg17 (by decide), hA main_arg18 (by decide)]
  rfl

/-- Operations 156 to 167 carry the invariant from before them to after them. -/
theorem step7 (m : (ℓ : Loc nD τ sig) → Buf (Elt F) ℓ) (d : Dev nD) (V : Valuation τ sig (Elt F)) (h : Inv7 m d V) :
    Inv8 m d (after (c7 (F := F)) V) :=
  ⟨args7 m d V h.args,
   (keep7 V (by decide)).trans h.v1,
   (keep7 V (by decide)).trans h.v3,
   (keep7 V (by decide)).trans h.v117,
   chunk7_v133 m d V h.args h.v124 h.v61 h.v3⟩

/-- Operations 168 to 179 of @main. -/
abbrev c8 : List (HloOp τ sig (Elt F)) :=
  [ nullary main_cst_22 (constant S_ .f32 0x3F800000#32),
    unary main_cst_22 main_v134 (broadcastInDim S1000000 ![] bcast_S_S1000000 : (⟨S_, .f32⟩ : BufTy).Contents (Elt F) → (⟨S1000000, .f32⟩ : BufTy).Contents (Elt F)),
    nullary main_cst_23 (constant S_ .f32 0x00000000#32),
    unary main_cst_23 main_v135 (broadcastInDim S100000 ![] bcast_S_S100000 : (⟨S_, .f32⟩ : BufTy).Contents (Elt F) → (⟨S100000, .f32⟩ : BufTy).Contents (Elt F)),
    unary main_v3 main_v136 (broadcastInDim S1000000x1 ![0] bcast_S1000000_S1000000x1_0 : (⟨S1000000, .i32⟩ : BufTy).Contents (Elt F) → (⟨S1000000x1, .i32⟩ : BufTy).Contents (Elt F)),
    ternary main_v135 main_v136 main_v134 main_v137 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    nullary main_cst_24 (constant S_ .f32 0x3F800000#32),
    unary main_cst_24 main_v138 (broadcastInDim S100000 ![] bcast_S_S100000 : (⟨S_, .f32⟩ : BufTy).Contents (Elt F) → (⟨S100000, .f32⟩ : BufTy).Contents (Elt F)),
    binary main_v137 main_v138 main_v139 (maximumf : (⟨S100000, .f32⟩ : BufTy).Contents (Elt F) → (⟨S100000, .f32⟩ : BufTy).Contents (Elt F) → (⟨S100000, .f32⟩ : BufTy).Contents (Elt F)),
    unary main_v139 main_v140 (broadcastInDim S100000x1 ![0] bcast_S100000_S100000x1_0 : (⟨S100000, .f32⟩ : BufTy).Contents (Elt F) → (⟨S100000x1, .f32⟩ : BufTy).Contents (Elt F)),
    unary main_v140 main_v141 (broadcastInDim S100000x64 ![0, 1] bcast_S100000x1_S100000x64_0_1 : (⟨S100000x1, .f32⟩ : BufTy).Contents (Elt F) → (⟨S100000x64, .f32⟩ : BufTy).Contents (Elt F)),
    binary main_v133 main_v141 main_v142 (Host.divf : (⟨S100000x64, .f32⟩ : BufTy).Contents (Elt F) → (⟨S100000x64, .f32⟩ : BufTy).Contents (Elt F) → (⟨S100000x64, .f32⟩ : BufTy).Contents (Elt F)) ]

/-- The references chunk 8 writes. -/
abbrev w8 : List (Ref sig .tc) := [main_cst_22, main_v134, main_cst_23, main_v135, main_v136, main_v137, main_cst_24, main_v138, main_v139, main_v140, main_v141, main_v142]
theorem c8_writes : (c8 : List (HloOp τ sig (Elt F))).Forall fun op => op.writes ⊆ (w8.map (Proc.devRef (τ := τ) .tc)).toFinset := by
  simp only [List.Forall]
  refine ⟨?_, ?_, ?_, ?_, ?_, ?_, ?_, ?_, ?_, ?_, ?_, ?_⟩ <;> writes_one
/-- A buffer the chunk does not write keeps its contents. -/
theorem keep8 (V : Valuation τ sig (Elt F)) {r : Ref sig .tc} (h : r ∉ w8) :
    after (c8 (F := F)) V (Proc.devRef .tc r) = V (Proc.devRef .tc r) :=
  after_of_writes_sub c8 V c8_writes h
theorem args8 (m : (ℓ : Loc nD τ sig) → Buf (Elt F) ℓ) (d : Dev nD) (V : Valuation τ sig (Elt F)) (hA : ArgsAt m d V) :
    ArgsAt m d (after (c8 (F := F)) V) :=
  fun r hr => (keep8 V ((by decide : ∀ r ∈ argRefs, r ∉ w8) r hr)).trans (hA r hr)

set_option maxHeartbeats 8000000 in
set_option maxRecDepth 8192 in
theorem chunk8_v142 (m : (ℓ : Loc nD τ sig) → Buf (Elt F) ℓ) (d : Dev nD) (V : Valuation τ sig (Elt F)) (hA : ArgsAt m d V)
    (h_v3 : V (Proc.devRef .tc main_v3) = val_main_v3 (F := F) (m ((d.tc : Thread nD τ).loc main_arg1)))
    (h_v133 : V (Proc.devRef .tc main_v133) = val_main_v133 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18))) :
    after (c8 (F := F)) V (Proc.devRef .tc main_v142) = val_main_v142 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) := by
  after_results_simp
  rw [h_v3, h_v133]
  rfl

/-- Operations 168 to 179 carry the invariant from before them to after them. -/
theorem step8 (m : (ℓ : Loc nD τ sig) → Buf (Elt F) ℓ) (d : Dev nD) (V : Valuation τ sig (Elt F)) (h : Inv8 m d V) :
    Inv9 m d (after (c8 (F := F)) V) :=
  ⟨args8 m d V h.args,
   (keep8 V (by decide)).trans h.v1,
   (keep8 V (by decide)).trans h.v3,
   (keep8 V (by decide)).trans h.v117,
   chunk8_v142 m d V h.args h.v3 h.v133⟩

/-- Operations 180 to 217 of @main. -/
abbrev c9 : List (HloOp τ sig (Elt F)) :=
  [ binary main_v117 main_v142 main_v143 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    binary main_v143 main_arg19 main_v144 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg20 main_v145 (broadcastInDim S1x64 ![1] bcast_S64_S1x64_1 : (⟨S64, .f32⟩ : BufTy).Contents (Elt F) → (⟨S1x64, .f32⟩ : BufTy).Contents (Elt F)),
    unary main_v145 main_v146 (broadcastInDim S100000x64 ![0, 1] bcast_S1x64_S100000x64_0_1 : (⟨S1x64, .f32⟩ : BufTy).Contents (Elt F) → (⟨S100000x64, .f32⟩ : BufTy).Contents (Elt F)),
    binary main_v144 main_v146 main_v147 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v147 main_cst_25 main_v148 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v148 main_v149 (broadcastInDim S100000x1 ![0] bcast_S100000_S100000x1_0 : (⟨S100000, .f32⟩ : BufTy).Contents (Elt F) → (⟨S100000x1, .f32⟩ : BufTy).Contents (Elt F)),
    nullary main_cst_26 (constant S_ .f32 0x42800000#32),
    unary main_cst_26 main_v150 (broadcastInDim S100000x1 ![] bcast_S_S100000x1 : (⟨S_, .f32⟩ : BufTy).Contents (Elt F) → (⟨S100000x1, .f32⟩ : BufTy).Contents (Elt F)),
    binary main_v149 main_v150 main_v151 (Host.divf : (⟨S100000x1, .f32⟩ : BufTy).Contents (Elt F) → (⟨S100000x1, .f32⟩ : BufTy).Contents (Elt F) → (⟨S100000x1, .f32⟩ : BufTy).Contents (Elt F)),
    unary main_v151 main_v152 (broadcastInDim S100000x64 ![0, 1] bcast_S100000x1_S100000x64_0_1 : (⟨S100000x1, .f32⟩ : BufTy).Contents (Elt F) → (⟨S100000x64, .f32⟩ : BufTy).Contents (Elt F)),
    binary main_v147 main_v152 main_v153 (subf : (⟨S100000x64, .f32⟩ : BufTy).Contents (Elt F) → (⟨S100000x64, .f32⟩ : BufTy).Contents (Elt F) → (⟨S100000x64, .f32⟩ : BufTy).Contents (Elt F)),
    binary main_v153 main_v153 main_v154 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v154 main_cst_27 main_v155 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_v155 main_v156 (broadcastInDim S100000x1 ![0] bcast_S100000_S100000x1_0 : (⟨S100000, .f32⟩ : BufTy).Contents (Elt F) → (⟨S100000x1, .f32⟩ : BufTy).Contents (Elt F)),
    nullary main_cst_28 (constant S_ .f32 0x42800000#32),
    unary main_cst_28 main_v157 (broadcastInDim S100000x1 ![] bcast_S_S100000x1 : (⟨S_, .f32⟩ : BufTy).Contents (Elt F) → (⟨S100000x1, .f32⟩ : BufTy).Contents (Elt F)),
    binary main_v156 main_v157 main_v158 (Host.divf : (⟨S100000x1, .f32⟩ : BufTy).Contents (Elt F) → (⟨S100000x1, .f32⟩ : BufTy).Contents (Elt F) → (⟨S100000x1, .f32⟩ : BufTy).Contents (Elt F)),
    unary main_v151 main_v159 (broadcastInDim S100000x64 ![0, 1] bcast_S100000x1_S100000x64_0_1 : (⟨S100000x1, .f32⟩ : BufTy).Contents (Elt F) → (⟨S100000x64, .f32⟩ : BufTy).Contents (Elt F)),
    binary main_v147 main_v159 main_v160 (subf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v161 (broadcastInDim S100000x1 ![] bcast_S_S100000x1 : (⟨S_, .f32⟩ : BufTy).Contents (Elt F) → (⟨S100000x1, .f32⟩ : BufTy).Contents (Elt F)),
    binary main_v158 main_v161 main_v162 (addf : (⟨S100000x1, .f32⟩ : BufTy).Contents (Elt F) → (⟨S100000x1, .f32⟩ : BufTy).Contents (Elt F) → (⟨S100000x1, .f32⟩ : BufTy).Contents (Elt F)),
    unary main_v162 main_v163 (Host.sqrt : (⟨S100000x1, .f32⟩ : BufTy).Contents (Elt F) → (⟨S100000x1, .f32⟩ : BufTy).Contents (Elt F)),
    unary main_v163 main_v164 (broadcastInDim S100000x64 ![0, 1] bcast_S100000x1_S100000x64_0_1 : (⟨S100000x1, .f32⟩ : BufTy).Contents (Elt F) → (⟨S100000x64, .f32⟩ : BufTy).Contents (Elt F)),
    binary main_v160 main_v164 main_v165 (Host.divf : (⟨S100000x64, .f32⟩ : BufTy).Contents (Elt F) → (⟨S100000x64, .f32⟩ : BufTy).Contents (Elt F) → (⟨S100000x64, .f32⟩ : BufTy).Contents (Elt F)),
    unary main_arg21 main_v166 (broadcastInDim S1x64 ![1] bcast_S64_S1x64_1 : (⟨S64, .f32⟩ : BufTy).Contents (Elt F) → (⟨S1x64, .f32⟩ : BufTy).Contents (Elt F)),
    unary main_v166 main_v167 (broadcastInDim S100000x64 ![0, 1] bcast_S1x64_S100000x64_0_1 : (⟨S1x64, .f32⟩ : BufTy).Contents (Elt F) → (⟨S100000x64, .f32⟩ : BufTy).Contents (Elt F)),
    binary main_v165 main_v167 main_v168 (mulf : (⟨S100000x64, .f32⟩ : BufTy).Contents (Elt F) → (⟨S100000x64, .f32⟩ : BufTy).Contents (Elt F) → (⟨S100000x64, .f32⟩ : BufTy).Contents (Elt F)),
    unary main_arg22 main_v169 (broadcastInDim S1x64 ![1] bcast_S64_S1x64_1 : (⟨S64, .f32⟩ : BufTy).Contents (Elt F) → (⟨S1x64, .f32⟩ : BufTy).Contents (Elt F)),
    unary main_v169 main_v170 (broadcastInDim S100000x64 ![0, 1] bcast_S1x64_S100000x64_0_1 : (⟨S1x64, .f32⟩ : BufTy).Contents (Elt F) → (⟨S100000x64, .f32⟩ : BufTy).Contents (Elt F)),
    binary main_v168 main_v170 main_v171 (addf : (⟨S100000x64, .f32⟩ : BufTy).Contents (Elt F) → (⟨S100000x64, .f32⟩ : BufTy).Contents (Elt F) → (⟨S100000x64, .f32⟩ : BufTy).Contents (Elt F)),
    binary main_v171 main_v117 main_v172 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v172) (TRef.of (T := ⟨S100000x64, .f32⟩) main_call5_v0) (TRef.of (T := ⟨S100000x64, .f32⟩) main_v173) maximumf ]

/-- The references chunk 9 writes. -/
abbrev w9 : List (Ref sig .tc) := [main_v143, main_v144, main_v145, main_v146, main_v147, main_cst_25, main_v148, main_v149, main_cst_26, main_v150, main_v151, main_v152, main_v153, main_v154, main_cst_27, main_v155, main_v156, main_cst_28, main_v157, main_v158, main_v159, main_v160, main_cst_29, main_v161, main_v162, main_v163, main_v164, main_v165, main_v166, main_v167, main_v168, main_v169, main_v170, main_v171, main_v172, main_call5_cst, main_call5_v0, main_v173]
theorem c9_writes : (c9 : List (HloOp τ sig (Elt F))).Forall fun op => op.writes ⊆ (w9.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_one
/-- A buffer the chunk does not write keeps its contents. -/
theorem keep9 (V : Valuation τ sig (Elt F)) {r : Ref sig .tc} (h : r ∉ w9) :
    after (c9 (F := F)) V (Proc.devRef .tc r) = V (Proc.devRef .tc r) :=
  after_of_writes_sub c9 V c9_writes h
theorem args9 (m : (ℓ : Loc nD τ sig) → Buf (Elt F) ℓ) (d : Dev nD) (V : Valuation τ sig (Elt F)) (hA : ArgsAt m d V) :
    ArgsAt m d (after (c9 (F := F)) V) :=
  fun r hr => (keep9 V ((by decide : ∀ r ∈ argRefs, r ∉ w9) r hr)).trans (hA r hr)

set_option maxHeartbeats 8000000 in
set_option maxRecDepth 8192 in
theorem chunk9_v173 (m : (ℓ : Loc nD τ sig) → Buf (Elt F) ℓ) (d : Dev nD) (V : Valuation τ sig (Elt F)) (hA : ArgsAt m d V)
    (h_v117 : V (Proc.devRef .tc main_v117) = val_main_v117 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)))
    (h_v142 : V (Proc.devRef .tc main_v142) = val_main_v142 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18))) :
    after (c9 (F := F)) V (Proc.devRef .tc main_v173) = val_main_v173 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) := by
  after_results_simp
  rw [h_v117, h_v142, hA main_arg19 (by decide), hA main_arg20 (by decide), hA main_arg21 (by decide), hA main_arg22 (by decide)]
  rfl

/-- Operations 180 to 217 carry the invariant from before them to after them. -/
theorem step9 (m : (ℓ : Loc nD τ sig) → Buf (Elt F) ℓ) (d : Dev nD) (V : Valuation τ sig (Elt F)) (h : Inv9 m d V) :
    Inv10 m d (after (c9 (F := F)) V) :=
  ⟨args9 m d V h.args,
   (keep9 V (by decide)).trans h.v1,
   (keep9 V (by decide)).trans h.v3,
   chunk9_v173 m d V h.args h.v117 h.v142⟩

end Cert.ReferenceIdeal.RefRun

end
-- ==== Proof.Ref.RunD.lean ====
import proofs.«178696_j1468878815658_2_alg».proof.Proof.Ref.RunBase

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! Operations 218 to 262 of the reference (the edge predictor), in 3 stretches: each stretch's result buffers at their
    stage functions, given the buffers it reads; the buffers it does not write kept. -/

/-- Operations 218 to 235 of @main. -/
abbrev c10 : List (HloOp τ sig (Elt F)) :=
  [ nullary main_c_30 (constantI S_ 32 0#32),
    unary main_c_30 main_v174 (broadcastInDim S1000000 ![] bcast_S_S1000000 : (⟨S_, .i32⟩ : BufTy).Contents (Elt F) → (⟨S1000000, .i32⟩ : BufTy).Contents (Elt F)),
    binary main_v1 main_v174 main_v175 (cmpi .slt : (⟨S1000000, .i32⟩ : BufTy).Contents (Elt F) → (⟨S1000000, .i32⟩ : BufTy).Contents (Elt F) → (⟨S1000000, .i1⟩ : BufTy).Contents (Elt F)),
    nullary main_c_31 (constantI S_ 32 100000#32),
    unary main_c_31 main_v176 (broadcastInDim S1000000 ![] bcast_S_S1000000 : (⟨S_, .i32⟩ : BufTy).Contents (Elt F) → (⟨S1000000, .i32⟩ : BufTy).Contents (Elt F)),
    binary main_v1 main_v176 main_v177 (addi : (⟨S1000000, .i32⟩ : BufTy).Contents (Elt F) → (⟨S1000000, .i32⟩ : BufTy).Contents (Elt F) → (⟨S1000000, .i32⟩ : BufTy).Contents (Elt F)),
    ternary main_v175 main_v177 main_v1 main_v178 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v178 main_v179 (broadcastInDim S1000000x1 ![0] bcast_S1000000_S1000000x1_0 : (⟨S1000000, .i32⟩ : BufTy).Contents (Elt F) → (⟨S1000000x1, .i32⟩ : BufTy).Contents (Elt F)),
    binary main_v173 main_v179 main_v180 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    nullary main_c_32 (constantI S_ 32 0#32),
    unary main_c_32 main_v181 (broadcastInDim S1000000 ![] bcast_S_S1000000 : (⟨S_, .i32⟩ : BufTy).Contents (Elt F) → (⟨S1000000, .i32⟩ : BufTy).Contents (Elt F)),
    binary main_v3 main_v181 main_v182 (cmpi .slt : (⟨S1000000, .i32⟩ : BufTy).Contents (Elt F) → (⟨S1000000, .i32⟩ : BufTy).Contents (Elt F) → (⟨S1000000, .i1⟩ : BufTy).Contents (Elt F)),
    nullary main_c_33 (constantI S_ 32 100000#32),
    unary main_c_33 main_v183 (broadcastInDim S1000000 ![] bcast_S_S1000000 : (⟨S_, .i32⟩ : BufTy).Contents (Elt F) → (⟨S1000000, .i32⟩ : BufTy).Contents (Elt F)),
    binary main_v3 main_v183 main_v184 (addi : (⟨S1000000, .i32⟩ : BufTy).Contents (Elt F) → (⟨S1000000, .i32⟩ : BufTy).Contents (Elt F) → (⟨S1000000, .i32⟩ : BufTy).Contents (Elt F)),
    ternary main_v182 main_v184 main_v3 main_v185 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v185 main_v186 (broadcastInDim S1000000x1 ![0] bcast_S1000000_S1000000x1_0 : (⟨S1000000, .i32⟩ : BufTy).Contents (Elt F) → (⟨S1000000x1, .i32⟩ : BufTy).Contents (Elt F)),
    binary main_v173 main_v186 main_v187 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)) ]

/-- The references chunk 10 writes. -/
abbrev w10 : List (Ref sig .tc) := [main_c_30, main_v174, main_v175, main_c_31, main_v176, main_v177, main_v178, main_v179, main_v180, main_c_32, main_v181, main_v182, main_c_33, main_v183, main_v184, main_v185, main_v186, main_v187]
theorem c10_writes : (c10 : List (HloOp τ sig (Elt F))).Forall fun op => op.writes ⊆ (w10.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_one
/-- A buffer the chunk does not write keeps its contents. -/
theorem keep10 (V : Valuation τ sig (Elt F)) {r : Ref sig .tc} (h : r ∉ w10) :
    after (c10 (F := F)) V (Proc.devRef .tc r) = V (Proc.devRef .tc r) :=
  after_of_writes_sub c10 V c10_writes h
theorem args10 (m : (ℓ : Loc nD τ sig) → Buf (Elt F) ℓ) (d : Dev nD) (V : Valuation τ sig (Elt F)) (hA : ArgsAt m d V) :
    ArgsAt m d (after (c10 (F := F)) V) :=
  fun r hr => (keep10 V ((by decide : ∀ r ∈ argRefs, r ∉ w10) r hr)).trans (hA r hr)

set_option maxHeartbeats 8000000 in
set_option maxRecDepth 8192 in
theorem chunk10_v180 (m : (ℓ : Loc nD τ sig) → Buf (Elt F) ℓ) (d : Dev nD) (V : Valuation τ sig (Elt F)) (hA : ArgsAt m d V)
    (h_v1 : V (Proc.devRef .tc main_v1) = val_main_v1 (F := F) (m ((d.tc : Thread nD τ).loc main_arg1)))
    (h_v173 : V (Proc.devRef .tc main_v173) = val_main_v173 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)))
    (h_v3 : V (Proc.devRef .tc main_v3) = val_main_v3 (F := F) (m ((d.tc : Thread nD τ).loc main_arg1))) :
    after (c10 (F := F)) V (Proc.devRef .tc main_v180) = val_main_v180 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) := by
  after_results_simp
  rw [h_v1, h_v173]
  rfl

set_option maxHeartbeats 8000000 in
set_option maxRecDepth 8192 in
theorem chunk10_v187 (m : (ℓ : Loc nD τ sig) → Buf (Elt F) ℓ) (d : Dev nD) (V : Valuation τ sig (Elt F)) (hA : ArgsAt m d V)
    (h_v1 : V (Proc.devRef .tc main_v1) = val_main_v1 (F := F) (m ((d.tc : Thread nD τ).loc main_arg1)))
    (h_v173 : V (Proc.devRef .tc main_v173) = val_main_v173 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)))
    (h_v3 : V (Proc.devRef .tc main_v3) = val_main_v3 (F := F) (m ((d.tc : Thread nD τ).loc main_arg1))) :
    after (c10 (F := F)) V (Proc.devRef .tc main_v187) = val_main_v187 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) := by
  after_results_simp
  rw [h_v173, h_v3]
  rfl

/-- Operations 218 to 235 carry the invariant from before them to after them. -/
theorem step10 (m : (ℓ : Loc nD τ sig) → Buf (Elt F) ℓ) (d : Dev nD) (V : Valuation τ sig (Elt F)) (h : Inv10 m d V) :
    Inv11 m d (after (c10 (F := F)) V) :=
  ⟨args10 m d V h.args,
   chunk10_v180 m d V h.args h.v1 h.v173 h.v3,
   chunk10_v187 m d V h.args h.v1 h.v173 h.v3⟩

/-- Operations 236 to 236 of @main. -/
abbrev c11 : List (HloOp τ sig (Elt F)) :=
  [ nary ![main_v180, main_v187, main_arg2] main_v188 (fun u => concatenate S1000000x133 1 [⟨S1000000x64, u 0⟩, ⟨S1000000x64, u 1⟩, ⟨S1000000x5, u 2⟩] concatenates_S1000000x64_S1000000x64_S1000000x5_S1000000x133_d1) ]

/-- The references chunk 11 writes. -/
abbrev w11 : List (Ref sig .tc) := [main_v188]
theorem c11_writes : (c11 : List (HloOp τ sig (Elt F))).Forall fun op => op.writes ⊆ (w11.map (Proc.devRef (τ := τ) .tc)).toFinset := by
  simp only [List.Forall]
  writes_one
/-- A buffer the chunk does not write keeps its contents. -/
theorem keep11 (V : Valuation τ sig (Elt F)) {r : Ref sig .tc} (h : r ∉ w11) :
    after (c11 (F := F)) V (Proc.devRef .tc r) = V (Proc.devRef .tc r) :=
  after_of_writes_sub c11 V c11_writes h
theorem args11 (m : (ℓ : Loc nD τ sig) → Buf (Elt F) ℓ) (d : Dev nD) (V : Valuation τ sig (Elt F)) (hA : ArgsAt m d V) :
    ArgsAt m d (after (c11 (F := F)) V) :=
  fun r hr => (keep11 V ((by decide : ∀ r ∈ argRefs, r ∉ w11) r hr)).trans (hA r hr)

set_option maxHeartbeats 8000000 in
set_option maxRecDepth 8192 in
theorem chunk11_v188 (m : (ℓ : Loc nD τ sig) → Buf (Elt F) ℓ) (d : Dev nD) (V : Valuation τ sig (Elt F)) (hA : ArgsAt m d V)
    (h_v180 : V (Proc.devRef .tc main_v180) = val_main_v180 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)))
    (h_v187 : V (Proc.devRef .tc main_v187) = val_main_v187 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22))) :
    after (c11 (F := F)) V (Proc.devRef .tc main_v188) = val_main_v188 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) := by
  simp only [after_cons, after_nil]
  rw [nary_result]
  show concatenate S1000000x133 1 [⟨S1000000x64, V (Proc.devRef .tc main_v180)⟩, ⟨S1000000x64, V (Proc.devRef .tc main_v187)⟩, ⟨S1000000x5, V (Proc.devRef .tc main_arg2)⟩] concatenates_S1000000x64_S1000000x64_S1000000x5_S1000000x133_d1 = _
  rw [h_v180, h_v187, hA main_arg2 (by decide)]
  rfl

/-- Operations 236 to 236 carry the invariant from before them to after them. -/
theorem step11 (m : (ℓ : Loc nD τ sig) → Buf (Elt F) ℓ) (d : Dev nD) (V : Valuation τ sig (Elt F)) (h : Inv11 m d V) :
    Inv12 m d (after (c11 (F := F)) V) :=
  ⟨args11 m d V h.args,
   chunk11_v188 m d V h.args h.v180 h.v187⟩

/-- Operations 237 to 262 of @main. -/
abbrev c12 : List (HloOp τ sig (Elt F)) :=
  [ binary main_v188 main_arg23 main_v189 ((fun l r => Host.dotGeneral dot_S1000000x133_S133x64_S1000000x64_1_0_0_1_n_n none l r) : (⟨S1000000x133, .f32⟩ : BufTy).Contents (Elt F) → (⟨S133x64, .f32⟩ : BufTy).Contents (Elt F) → (⟨S1000000x64, .f32⟩ : BufTy).Contents (Elt F)),
    unary main_arg24 main_v190 (broadcastInDim S1x64 ![1] bcast_S64_S1x64_1 : (⟨S64, .f32⟩ : BufTy).Contents (Elt F) → (⟨S1x64, .f32⟩ : BufTy).Contents (Elt F)),
    unary main_v190 main_v191 (broadcastInDim S1000000x64 ![0, 1] bcast_S1x64_S1000000x64_0_1 : (⟨S1x64, .f32⟩ : BufTy).Contents (Elt F) → (⟨S1000000x64, .f32⟩ : BufTy).Contents (Elt F)),
    binary main_v189 main_v191 main_v192 (addf : (⟨S1000000x64, .f32⟩ : BufTy).Contents (Elt F) → (⟨S1000000x64, .f32⟩ : BufTy).Contents (Elt F) → (⟨S1000000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1000000x64, .f32⟩) main_call6_v0) (broadcastInDim S1000000x64 ![] bcast_S_S1000000x64),
    TRef.binary (TRef.of (T := ⟨S1000000x64, .f32⟩) main_v192) (TRef.of (T := ⟨S1000000x64, .f32⟩) main_call6_v0) (TRef.of (T := ⟨S1000000x64, .f32⟩) main_v193) maximumf,
    binary main_v193 main_arg25 main_v194 ((fun l r => Host.dotGeneral dot_S1000000x64_S64x32_S1000000x32_1_0_0_1_n_n none l r) : (⟨S1000000x64, .f32⟩ : BufTy).Contents (Elt F) → (⟨S64x32, .f32⟩ : BufTy).Contents (Elt F) → (⟨S1000000x32, .f32⟩ : BufTy).Contents (Elt F)),
    unary main_arg26 main_v195 (broadcastInDim S1x32 ![1] bcast_S32_S1x32_1 : (⟨S32, .f32⟩ : BufTy).Contents (Elt F) → (⟨S1x32, .f32⟩ : BufTy).Contents (Elt F)),
    unary main_v195 main_v196 (broadcastInDim S1000000x32 ![0, 1] bcast_S1x32_S1000000x32_0_1 : (⟨S1x32, .f32⟩ : BufTy).Contents (Elt F) → (⟨S1000000x32, .f32⟩ : BufTy).Contents (Elt F)),
    binary main_v194 main_v196 main_v197 (addf : (⟨S1000000x32, .f32⟩ : BufTy).Contents (Elt F) → (⟨S1000000x32, .f32⟩ : BufTy).Contents (Elt F) → (⟨S1000000x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S1000000x32, .f32⟩) main_call7_v0) (broadcastInDim S1000000x32 ![] bcast_S_S1000000x32),
    TRef.binary (TRef.of (T := ⟨S1000000x32, .f32⟩) main_v197) (TRef.of (T := ⟨S1000000x32, .f32⟩) main_call7_v0) (TRef.of (T := ⟨S1000000x32, .f32⟩) main_v198) maximumf,
    binary main_v198 main_arg27 main_v199 ((fun l r => Host.dotGeneral dot_S1000000x32_S32x1_S1000000x1_1_0_0_1_n_n none l r) : (⟨S1000000x32, .f32⟩ : BufTy).Contents (Elt F) → (⟨S32x1, .f32⟩ : BufTy).Contents (Elt F) → (⟨S1000000x1, .f32⟩ : BufTy).Contents (Elt F)),
    unary main_arg28 main_v200 (broadcastInDim S1x1 ![1] bcast_S1_S1x1_1 : (⟨S1, .f32⟩ : BufTy).Contents (Elt F) → (⟨S1x1, .f32⟩ : BufTy).Contents (Elt F)),
    unary main_v200 main_v201 (broadcastInDim S1000000x1 ![0, 1] bcast_S1x1_S1000000x1_0_1 : (⟨S1x1, .f32⟩ : BufTy).Contents (Elt F) → (⟨S1000000x1, .f32⟩ : BufTy).Contents (Elt F)),
    binary main_v199 main_v201 main_v202 (addf : (⟨S1000000x1, .f32⟩ : BufTy).Contents (Elt F) → (⟨S1000000x1, .f32⟩ : BufTy).Contents (Elt F) → (⟨S1000000x1, .f32⟩ : BufTy).Contents (Elt F)),
    unary main_v202 main_v203 (Host.negf : (⟨S1000000x1, .f32⟩ : BufTy).Contents (Elt F) → (⟨S1000000x1, .f32⟩ : BufTy).Contents (Elt F)),
    unary main_v203 main_v204 (Host.exp : (⟨S1000000x1, .f32⟩ : BufTy).Contents (Elt F) → (⟨S1000000x1, .f32⟩ : BufTy).Contents (Elt F)),
    nullary main_cst_34 (constant S_ .f32 0x3F800000#32),
    unary main_cst_34 main_v205 (broadcastInDim S1000000x1 ![] bcast_S_S1000000x1 : (⟨S_, .f32⟩ : BufTy).Contents (Elt F) → (⟨S1000000x1, .f32⟩ : BufTy).Contents (Elt F)),
    binary main_v205 main_v204 main_v206 (addf : (⟨S1000000x1, .f32⟩ : BufTy).Contents (Elt F) → (⟨S1000000x1, .f32⟩ : BufTy).Contents (Elt F) → (⟨S1000000x1, .f32⟩ : BufTy).Contents (Elt F)),
    nullary main_cst_35 (constant S_ .f32 0x3F800000#32),
    unary main_cst_35 main_v207 (broadcastInDim S1000000x1 ![] bcast_S_S1000000x1 : (⟨S_, .f32⟩ : BufTy).Contents (Elt F) → (⟨S1000000x1, .f32⟩ : BufTy).Contents (Elt F)),
    binary main_v207 main_v206 main_v208 (Host.divf : (⟨S1000000x1, .f32⟩ : BufTy).Contents (Elt F) → (⟨S1000000x1, .f32⟩ : BufTy).Contents (Elt F) → (⟨S1000000x1, .f32⟩ : BufTy).Contents (Elt F)) ]

/-- The references chunk 12 writes. -/
abbrev w12 : List (Ref sig .tc) := [main_v189, main_v190, main_v191, main_v192, main_call6_cst, main_call6_v0, main_v193, main_v194, main_v195, main_v196, main_v197, main_call7_cst, main_call7_v0, main_v198, main_v199, main_v200, main_v201, main_v202, main_v203, main_v204, main_cst_34, main_v205, main_v206, main_cst_35, main_v207, main_v208]
theorem c12_writes : (c12 : List (HloOp τ sig (Elt F))).Forall fun op => op.writes ⊆ (w12.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;> writes_one
/-- A buffer the chunk does not write keeps its contents. -/
theorem keep12 (V : Valuation τ sig (Elt F)) {r : Ref sig .tc} (h : r ∉ w12) :
    after (c12 (F := F)) V (Proc.devRef .tc r) = V (Proc.devRef .tc r) :=
  after_of_writes_sub c12 V c12_writes h
theorem args12 (m : (ℓ : Loc nD τ sig) → Buf (Elt F) ℓ) (d : Dev nD) (V : Valuation τ sig (Elt F)) (hA : ArgsAt m d V) :
    ArgsAt m d (after (c12 (F := F)) V) :=
  fun r hr => (keep12 V ((by decide : ∀ r ∈ argRefs, r ∉ w12) r hr)).trans (hA r hr)

set_option maxHeartbeats 8000000 in
set_option maxRecDepth 8192 in
theorem chunk12_v208 (m : (ℓ : Loc nD τ sig) → Buf (Elt F) ℓ) (d : Dev nD) (V : Valuation τ sig (Elt F)) (hA : ArgsAt m d V)
    (h_v188 : V (Proc.devRef .tc main_v188) = val_main_v188 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22))) :
    after (c12 (F := F)) V (Proc.devRef .tc main_v208) = val_main_v208 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) (m ((d.tc : Thread nD τ).loc main_arg25)) (m ((d.tc : Thread nD τ).loc main_arg26)) (m ((d.tc : Thread nD τ).loc main_arg27)) (m ((d.tc : Thread nD τ).loc main_arg28)) := by
  after_results_simp
  rw [h_v188, hA main_arg23 (by decide), hA main_arg24 (by decide), hA main_arg25 (by decide), hA main_arg26 (by decide), hA main_arg27 (by decide), hA main_arg28 (by decide)]
  rfl

/-- Operations 237 to 262 carry the invariant from before them to after them. -/
theorem step12 (m : (ℓ : Loc nD τ sig) → Buf (Elt F) ℓ) (d : Dev nD) (V : Valuation τ sig (Elt F)) (h : Inv12 m d V) :
    Inv13 m d (after (c12 (F := F)) V) :=
  ⟨args12 m d V h.args,
   chunk12_v208 m d V h.args h.v188⟩

end Cert.ReferenceIdeal.RefRun

end
-- ==== Proof.Ref.RunRead.lean ====
import proofs.«178696_j1468878815658_2_alg».proof.Proof.Ref.RunP
import proofs.«178696_j1468878815658_2_alg».proof.Proof.Ref.ReadP
import proofs.«178696_j1468878815658_2_alg».proof.Proof.Ref.RunA
import proofs.«178696_j1468878815658_2_alg».proof.Proof.Ref.RunB
import proofs.«178696_j1468878815658_2_alg».proof.Proof.Ref.RunC
import proofs.«178696_j1468878815658_2_alg».proof.Proof.Ref.RunD
import Idealize.ShloMosaic.Lib.StableHlo.Run
import Idealize.ShloMosaic.Lib.Pipeline.Frame
import Idealize.ShloMosaic.Lib.Pipeline.Regions

noncomputable section

namespace Cert.ReferenceIdeal.RefRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! The reference's run, read: the result buffer ends at its stage function `Read.val_main_v208` of the arguments'
    launch contents, and every argument is as it was. The operation list is the stretches in order; the invariant is
    carried through them from the launch. -/

open Cert.ReferenceIdeal.Value

/-- @main's operations are the stretches, in order. -/
theorem ops_eq : (ops : List (HloOp τ sig (Elt F))) = c0 ++ (c1 ++ (c2 ++ (c3 ++ (c4 ++ (c5 ++ (c6 ++ (c7 ++ (c8 ++ (c9 ++ (c10 ++ (c11 ++ (c12)))))))))))) := by
  chain_rfl

/-- After all of @main's operations the result holds its stage function of the arguments, and the arguments are kept. -/
theorem inv_final (m : (ℓ : Loc nD τ sig) → Buf (Elt F) ℓ) (d : Dev nD) :
    Inv13 m d (after (ops (F := F)) (launchContents m d)) := by
  rw [ops_eq]
  simp only [StableHlo.after_append]
  exact step12 m d _ (step11 m d _ (step10 m d _ (step9 m d _ (step8 m d _ (step7 m d _ (step6 m d _ (step5 m d _ (step4 m d _ (step3 m d _ (step2 m d _ (step1 m d _ (step0 m d _ (⟨fun _ _ => rfl⟩)))))))))))))

theorem after_result (m : (ℓ : Loc nD τ sig) → Buf (Elt F) ℓ) (d : Dev nD) :
    after (ops (F := F)) (launchContents m d) (Proc.devRef .tc main_v208) = val_main_v208 (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) (m ((d.tc : Thread nD τ).loc main_arg15)) (m ((d.tc : Thread nD τ).loc main_arg16)) (m ((d.tc : Thread nD τ).loc main_arg17)) (m ((d.tc : Thread nD τ).loc main_arg18)) (m ((d.tc : Thread nD τ).loc main_arg19)) (m ((d.tc : Thread nD τ).loc main_arg20)) (m ((d.tc : Thread nD τ).loc main_arg21)) (m ((d.tc : Thread nD τ).loc main_arg22)) (m ((d.tc : Thread nD τ).loc main_arg23)) (m ((d.tc : Thread nD τ).loc main_arg24)) (m ((d.tc : Thread nD τ).loc main_arg25)) (m ((d.tc : Thread nD τ).loc main_arg26)) (m ((d.tc : Thread nD τ).loc main_arg27)) (m ((d.tc : Thread nD τ).loc main_arg28)) :=
  (inv_final m d).v208
theorem after_arg0 (m : (ℓ : Loc nD τ sig) → Buf (Elt F) ℓ) (d : Dev nD) :
    after (ops (F := F)) (launchContents m d) (Proc.devRef .tc main_arg0) = m ((d.tc : Thread nD τ).loc main_arg0) :=
  (inv_final m d).args main_arg0 (by decide)
theorem after_arg1 (m : (ℓ : Loc nD τ sig) → Buf (Elt F) ℓ) (d : Dev nD) :
    after (ops (F := F)) (launchContents m d) (Proc.devRef .tc main_arg1) = m ((d.tc : Thread nD τ).loc main_arg1) :=
  (inv_final m d).args main_arg1 (by decide)
theorem after_arg2 (m : (ℓ : Loc nD τ sig) → Buf (Elt F) ℓ) (d : Dev nD) :
    after (ops (F := F)) (launchContents m d) (Proc.devRef .tc main_arg2) = m ((d.tc : Thread nD τ).loc main_arg2) :=
  (inv_final m d).args main_arg2 (by decide)
theorem after_arg3 (m : (ℓ : Loc nD τ sig) → Buf (Elt F) ℓ) (d : Dev nD) :
    after (ops (F := F)) (launchContents m d) (Proc.devRef .tc main_arg3) = m ((d.tc : Thread nD τ).loc main_arg3) :=
  (inv_final m d).args main_arg3 (by decide)
theorem after_arg4 (m : (ℓ : Loc nD τ sig) → Buf (Elt F) ℓ) (d : Dev nD) :
    after (ops (F := F)) (launchContents m d) (Proc.devRef .tc main_arg4) = m ((d.tc : Thread nD τ).loc main_arg4) :=
  (inv_final m d).args main_arg4 (by decide)
theorem after_arg5 (m : (ℓ : Loc nD τ sig) → Buf (Elt F) ℓ) (d : Dev nD) :
    after (ops (F := F)) (launchContents m d) (Proc.devRef .tc main_arg5) = m ((d.tc : Thread nD τ).loc main_arg5) :=
  (inv_final m d).args main_arg5 (by decide)
theorem after_arg6 (m : (ℓ : Loc nD τ sig) → Buf (Elt F) ℓ) (d : Dev nD) :
    after (ops (F := F)) (launchContents m d) (Proc.devRef .tc main_arg6) = m ((d.tc : Thread nD τ).loc main_arg6) :=
  (inv_final m d).args main_arg6 (by decide)
theorem after_arg7 (m : (ℓ : Loc nD τ sig) → Buf (Elt F) ℓ) (d : Dev nD) :
    after (ops (F := F)) (launchContents m d) (Proc.devRef .tc main_arg7) = m ((d.tc : Thread nD τ).loc main_arg7) :=
  (inv_final m d).args main_arg7 (by decide)
theorem after_arg8 (m : (ℓ : Loc nD τ sig) → Buf (Elt F) ℓ) (d : Dev nD) :
    after (ops (F := F)) (launchContents m d) (Proc.devRef .tc main_arg8) = m ((d.tc : Thread nD τ).loc main_arg8) :=
  (inv_final m d).args main_arg8 (by decide)
theorem after_arg9 (m : (ℓ : Loc nD τ sig) → Buf (Elt F) ℓ) (d : Dev nD) :
    after (ops (F := F)) (launchContents m d) (Proc.devRef .tc main_arg9) = m ((d.tc : Thread nD τ).loc main_arg9) :=
  (inv_final m d).args main_arg9 (by decide)
theorem after_arg10 (m : (ℓ : Loc nD τ sig) → Buf (Elt F) ℓ) (d : Dev nD) :
    after (ops (F := F)) (launchContents m d) (Proc.devRef .tc main_arg10) = m ((d.tc : Thread nD τ).loc main_arg10) :=
  (inv_final m d).args main_arg10 (by decide)
theorem after_arg11 (m : (ℓ : Loc nD τ sig) → Buf (Elt F) ℓ) (d : Dev nD) :
    after (ops (F := F)) (launchContents m d) (Proc.devRef .tc main_arg11) = m ((d.tc : Thread nD τ).loc main_arg11) :=
  (inv_final m d).args main_arg11 (by decide)
theorem after_arg12 (m : (ℓ : Loc nD τ sig) → Buf (Elt F) ℓ) (d : Dev nD) :
    after (ops (F := F)) (launchContents m d) (Proc.devRef .tc main_arg12) = m ((d.tc : Thread nD τ).loc main_arg12) :=
  (inv_final m d).args main_arg12 (by decide)
theorem after_arg13 (m : (ℓ : Loc nD τ sig) → Buf (Elt F) ℓ) (d : Dev nD) :
    after (ops (F := F)) (launchContents m d) (Proc.devRef .tc main_arg13) = m ((d.tc : Thread nD τ).loc main_arg13) :=
  (inv_final m d).args main_arg13 (by decide)
theorem after_arg14 (m : (ℓ : Loc nD τ sig) → Buf (Elt F) ℓ) (d : Dev nD) :
    after (ops (F := F)) (launchContents m d) (Proc.devRef .tc main_arg14) = m ((d.tc : Thread nD τ).loc main_arg14) :=
  (inv_final m d).args main_arg14 (by decide)
theorem after_arg15 (m : (ℓ : Loc nD τ sig) → Buf (Elt F) ℓ) (d : Dev nD) :
    after (ops (F := F)) (launchContents m d) (Proc.devRef .tc main_arg15) = m ((d.tc : Thread nD τ).loc main_arg15) :=
  (inv_final m d).args main_arg15 (by decide)
theorem after_arg16 (m : (ℓ : Loc nD τ sig) → Buf (Elt F) ℓ) (d : Dev nD) :
    after (ops (F := F)) (launchContents m d) (Proc.devRef .tc main_arg16) = m ((d.tc : Thread nD τ).loc main_arg16) :=
  (inv_final m d).args main_arg16 (by decide)
theorem after_arg17 (m : (ℓ : Loc nD τ sig) → Buf (Elt F) ℓ) (d : Dev nD) :
    after (ops (F := F)) (launchContents m d) (Proc.devRef .tc main_arg17) = m ((d.tc : Thread nD τ).loc main_arg17) :=
  (inv_final m d).args main_arg17 (by decide)
theorem after_arg18 (m : (ℓ : Loc nD τ sig) → Buf (Elt F) ℓ) (d : Dev nD) :
    after (ops (F := F)) (launchContents m d) (Proc.devRef .tc main_arg18) = m ((d.tc : Thread nD τ).loc main_arg18) :=
  (inv_final m d).args main_arg18 (by decide)
theorem after_arg19 (m : (ℓ : Loc nD τ sig) → Buf (Elt F) ℓ) (d : Dev nD) :
    after (ops (F := F)) (launchContents m d) (Proc.devRef .tc main_arg19) = m ((d.tc : Thread nD τ).loc main_arg19) :=
  (inv_final m d).args main_arg19 (by decide)
theorem after_arg20 (m : (ℓ : Loc nD τ sig) → Buf (Elt F) ℓ) (d : Dev nD) :
    after (ops (F := F)) (launchContents m d) (Proc.devRef .tc main_arg20) = m ((d.tc : Thread nD τ).loc main_arg20) :=
  (inv_final m d).args main_arg20 (by decide)
theorem after_arg21 (m : (ℓ : Loc nD τ sig) → Buf (Elt F) ℓ) (d : Dev nD) :
    after (ops (F := F)) (launchContents m d) (Proc.devRef .tc main_arg21) = m ((d.tc : Thread nD τ).loc main_arg21) :=
  (inv_final m d).args main_arg21 (by decide)
theorem after_arg22 (m : (ℓ : Loc nD τ sig) → Buf (Elt F) ℓ) (d : Dev nD) :
    after (ops (F := F)) (launchContents m d) (Proc.devRef .tc main_arg22) = m ((d.tc : Thread nD τ).loc main_arg22) :=
  (inv_final m d).args main_arg22 (by decide)
theorem after_arg23 (m : (ℓ : Loc nD τ sig) → Buf (Elt F) ℓ) (d : Dev nD) :
    after (ops (F := F)) (launchContents m d) (Proc.devRef .tc main_arg23) = m ((d.tc : Thread nD τ).loc main_arg23) :=
  (inv_final m d).args main_arg23 (by decide)
theorem after_arg24 (m : (ℓ : Loc nD τ sig) → Buf (Elt F) ℓ) (d : Dev nD) :
    after (ops (F := F)) (launchContents m d) (Proc.devRef .tc main_arg24) = m ((d.tc : Thread nD τ).loc main_arg24) :=
  (inv_final m d).args main_arg24 (by decide)
theorem after_arg25 (m : (ℓ : Loc nD τ sig) → Buf (Elt F) ℓ) (d : Dev nD) :
    after (ops (F := F)) (launchContents m d) (Proc.devRef .tc main_arg25) = m ((d.tc : Thread nD τ).loc main_arg25) :=
  (inv_final m d).args main_arg25 (by decide)
theorem after_arg26 (m : (ℓ : Loc nD τ sig) → Buf (Elt F) ℓ) (d : Dev nD) :
    after (ops (F := F)) (launchContents m d) (Proc.devRef .tc main_arg26) = m ((d.tc : Thread nD τ).loc main_arg26) :=
  (inv_final m d).args main_arg26 (by decide)
theorem after_arg27 (m : (ℓ : Loc nD τ sig) → Buf (Elt F) ℓ) (d : Dev nD) :
    after (ops (F := F)) (launchContents m d) (Proc.devRef .tc main_arg27) = m ((d.tc : Thread nD τ).loc main_arg27) :=
  (inv_final m d).args main_arg27 (by decide)
theorem after_arg28 (m : (ℓ : Loc nD τ sig) → Buf (Elt F) ℓ) (d : Dev nD) :
    after (ops (F := F)) (launchContents m d) (Proc.devRef .tc main_arg28) = m ((d.tc : Thread nD τ).loc main_arg28) :=
  (inv_final m d).args main_arg28 (by decide)

/-- On every device, for any float values, from any memory with zero counters: every weakly fair execution of @main
    terminates with the result at its stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v208) = val_main_v208 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨(h c main_v208).trans (after_result m c),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c),
      (h c main_arg8).trans (after_arg8 m c),
      (h c main_arg9).trans (after_arg9 m c),
      (h c main_arg10).trans (after_arg10 m c),
      (h c main_arg11).trans (after_arg11 m c),
      (h c main_arg12).trans (after_arg12 m c),
      (h c main_arg13).trans (after_arg13 m c),
      (h c main_arg14).trans (after_arg14 m c),
      (h c main_arg15).trans (after_arg15 m c),
      (h c main_arg16).trans (after_arg16 m c),
      (h c main_arg17).trans (after_arg17 m c),
      (h c main_arg18).trans (after_arg18 m c),
      (h c main_arg19).trans (after_arg19 m c),
      (h c main_arg20).trans (after_arg20 m c),
      (h c main_arg21).trans (after_arg21 m c),
      (h c main_arg22).trans (after_arg22 m c),
      (h c main_arg23).trans (after_arg23 m c),
      (h c main_arg24).trans (after_arg24 m c),
      (h c main_arg25).trans (after_arg25 m c),
      (h c main_arg26).trans (after_arg26 m c),
      (h c main_arg27).trans (after_arg27 m c),
      (h c main_arg28).trans (after_arg28 m c)⟩)
    (run_after m ρ)

end Cert.ReferenceIdeal.RefRun

end
-- ==== Proof.Agree.lean ====
import proofs.«178696_j1468878815658_2_alg».proof.Proof.KI.Value
import proofs.«178696_j1468878815658_2_alg».proof.Proof.Ref.RunRead

/-!
  From memories that agree on the arguments the reference's last stage value is the same array: it is a function of
  the 29 argument arrays.
-/

noncomputable section

namespace Cert.Proof

open Idealize.ShloMosaic Idealize.SL.Sem Cert.ReferenceIdeal

/-- The last stage value at equal arguments. -/
theorem val_congr
    (x0 x0' : (⟨S100000x7, .f32⟩ : BufTy).Contents (Elt Ideal))
    (x1 x1' : (⟨S2x1000000, .i32⟩ : BufTy).Contents (Elt Ideal))
    (x2 x2' : (⟨S1000000x5, .f32⟩ : BufTy).Contents (Elt Ideal))
    (x3 x3' : (⟨S7x64, .f32⟩ : BufTy).Contents (Elt Ideal))
    (x4 x4' : (⟨S64, .f32⟩ : BufTy).Contents (Elt Ideal))
    (x5 x5' : (⟨S64, .f32⟩ : BufTy).Contents (Elt Ideal))
    (x6 x6' : (⟨S64, .f32⟩ : BufTy).Contents (Elt Ideal))
    (x7 x7' : (⟨S5x64, .f32⟩ : BufTy).Contents (Elt Ideal))
    (x8 x8' : (⟨S64, .f32⟩ : BufTy).Contents (Elt Ideal))
    (x9 x9' : (⟨S64, .f32⟩ : BufTy).Contents (Elt Ideal))
    (x10 x10' : (⟨S64, .f32⟩ : BufTy).Contents (Elt Ideal))
    (x11 x11' : (⟨S128x64, .f32⟩ : BufTy).Contents (Elt Ideal))
    (x12 x12' : (⟨S64, .f32⟩ : BufTy).Contents (Elt Ideal))
    (x13 x13' : (⟨S128x64, .f32⟩ : BufTy).Contents (Elt Ideal))
    (x14 x14' : (⟨S64, .f32⟩ : BufTy).Contents (Elt Ideal))
    (x15 x15' : (⟨S64, .f32⟩ : BufTy).Contents (Elt Ideal))
    (x16 x16' : (⟨S64, .f32⟩ : BufTy).Contents (Elt Ideal))
    (x17 x17' : (⟨S128x64, .f32⟩ : BufTy).Contents (Elt Ideal))
    (x18 x18' : (⟨S64, .f32⟩ : BufTy).Contents (Elt Ideal))
    (x19 x19' : (⟨S128x64, .f32⟩ : BufTy).Contents (Elt Ideal))
    (x20 x20' : (⟨S64, .f32⟩ : BufTy).Contents (Elt Ideal))
    (x21 x21' : (⟨S64, .f32⟩ : BufTy).Contents (Elt Ideal))
    (x22 x22' : (⟨S64, .f32⟩ : BufTy).Contents (Elt Ideal))
    (x23 x23' : (⟨S133x64, .f32⟩ : BufTy).Contents (Elt Ideal))
    (x24 x24' : (⟨S64, .f32⟩ : BufTy).Contents (Elt Ideal))
    (x25 x25' : (⟨S64x32, .f32⟩ : BufTy).Contents (Elt Ideal))
    (x26 x26' : (⟨S32, .f32⟩ : BufTy).Contents (Elt Ideal))
    (x27 x27' : (⟨S32x1, .f32⟩ : BufTy).Contents (Elt Ideal))
    (x28 x28' : (⟨S1, .f32⟩ : BufTy).Contents (Elt Ideal))
    (h0 : x0' = x0) (h1 : x1' = x1) (h2 : x2' = x2) (h3 : x3' = x3) (h4 : x4' = x4) (h5 : x5' = x5) (h6 : x6' = x6) (h7 : x7' = x7) (h8 : x8' = x8) (h9 : x9' = x9) (h10 : x10' = x10) (h11 : x11' = x11) (h12 : x12' = x12) (h13 : x13' = x13) (h14 : x14' = x14) (h15 : x15' = x15) (h16 : x16' = x16) (h17 : x17' = x17) (h18 : x18' = x18) (h19 : x19' = x19) (h20 : x20' = x20) (h21 : x21' = x21) (h22 : x22' = x22) (h23 : x23' = x23) (h24 : x24' = x24) (h25 : x25' = x25) (h26 : x26' = x26) (h27 : x27' = x27) (h28 : x28' = x28) :
    Cert.ReferenceIdeal.Read.val_main_v208 (F := Ideal) x0' x1' x2' x3' x4' x5' x6' x7' x8' x9' x10' x11' x12' x13' x14' x15' x16' x17' x18' x19' x20' x21' x22' x23' x24' x25' x26' x27' x28'
      = Cert.ReferenceIdeal.Read.val_main_v208 (F := Ideal) x0 x1 x2 x3 x4 x5 x6 x7 x8 x9 x10 x11 x12 x13 x14 x15 x16 x17 x18 x19 x20 x21 x22 x23 x24 x25 x26 x27 x28 := by
  subst h0 h1 h2 h3 h4 h5 h6 h7 h8 h9 h10 h11 h12 h13 h14 h15 h16 h17 h18 h19 h20 h21 h22 h23 h24 h25 h26 h27 h28
  rfl

theorem result_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (h16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (h17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (h18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (h19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (h20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (h21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (h22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (h23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (h24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (h25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (h26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (h27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27))
    (h28 : m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) :
    Cert.ReferenceIdeal.Read.val_main_v208 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) (m' ((c.tc : Thread Cert.ReferenceIdeal.nD Cert.ReferenceIdeal.τ).loc Cert.ReferenceIdeal.main_arg28))
      = Cert.KernelIdeal.Gen.resultOf m c :=
  val_congr (m ((c.tc : Thread Cert.KernelIdeal.nD Cert.KernelIdeal.τ).loc Cert.KernelIdeal.main_arg0)) (m' ((c.tc : Thread Cert.ReferenceIdeal.nD Cert.ReferenceIdeal.τ).loc Cert.ReferenceIdeal.main_arg0)) (m ((c.tc : Thread Cert.KernelIdeal.nD Cert.KernelIdeal.τ).loc Cert.KernelIdeal.main_arg1)) (m' ((c.tc : Thread Cert.ReferenceIdeal.nD Cert.ReferenceIdeal.τ).loc Cert.ReferenceIdeal.main_arg1)) (m ((c.tc : Thread Cert.KernelIdeal.nD Cert.KernelIdeal.τ).loc Cert.KernelIdeal.main_arg2)) (m' ((c.tc : Thread Cert.ReferenceIdeal.nD Cert.ReferenceIdeal.τ).loc Cert.ReferenceIdeal.main_arg2)) (m ((c.tc : Thread Cert.KernelIdeal.nD Cert.KernelIdeal.τ).loc Cert.KernelIdeal.main_arg3)) (m' ((c.tc : Thread Cert.ReferenceIdeal.nD Cert.ReferenceIdeal.τ).loc Cert.ReferenceIdeal.main_arg3)) (m ((c.tc : Thread Cert.KernelIdeal.nD Cert.KernelIdeal.τ).loc Cert.KernelIdeal.main_arg4)) (m' ((c.tc : Thread Cert.ReferenceIdeal.nD Cert.ReferenceIdeal.τ).loc Cert.ReferenceIdeal.main_arg4)) (m ((c.tc : Thread Cert.KernelIdeal.nD Cert.KernelIdeal.τ).loc Cert.KernelIdeal.main_arg5)) (m' ((c.tc : Thread Cert.ReferenceIdeal.nD Cert.ReferenceIdeal.τ).loc Cert.ReferenceIdeal.main_arg5)) (m ((c.tc : Thread Cert.KernelIdeal.nD Cert.KernelIdeal.τ).loc Cert.KernelIdeal.main_arg6)) (m' ((c.tc : Thread Cert.ReferenceIdeal.nD Cert.ReferenceIdeal.τ).loc Cert.ReferenceIdeal.main_arg6)) (m ((c.tc : Thread Cert.KernelIdeal.nD Cert.KernelIdeal.τ).loc Cert.KernelIdeal.main_arg7)) (m' ((c.tc : Thread Cert.ReferenceIdeal.nD Cert.ReferenceIdeal.τ).loc Cert.ReferenceIdeal.main_arg7)) (m ((c.tc : Thread Cert.KernelIdeal.nD Cert.KernelIdeal.τ).loc Cert.KernelIdeal.main_arg8)) (m' ((c.tc : Thread Cert.ReferenceIdeal.nD Cert.ReferenceIdeal.τ).loc Cert.ReferenceIdeal.main_arg8)) (m ((c.tc : Thread Cert.KernelIdeal.nD Cert.KernelIdeal.τ).loc Cert.KernelIdeal.main_arg9)) (m' ((c.tc : Thread Cert.ReferenceIdeal.nD Cert.ReferenceIdeal.τ).loc Cert.ReferenceIdeal.main_arg9)) (m ((c.tc : Thread Cert.KernelIdeal.nD Cert.KernelIdeal.τ).loc Cert.KernelIdeal.main_arg10)) (m' ((c.tc : Thread Cert.ReferenceIdeal.nD Cert.ReferenceIdeal.τ).loc Cert.ReferenceIdeal.main_arg10)) (m ((c.tc : Thread Cert.KernelIdeal.nD Cert.KernelIdeal.τ).loc Cert.KernelIdeal.main_arg11)) (m' ((c.tc : Thread Cert.ReferenceIdeal.nD Cert.ReferenceIdeal.τ).loc Cert.ReferenceIdeal.main_arg11)) (m ((c.tc : Thread Cert.KernelIdeal.nD Cert.KernelIdeal.τ).loc Cert.KernelIdeal.main_arg12)) (m' ((c.tc : Thread Cert.ReferenceIdeal.nD Cert.ReferenceIdeal.τ).loc Cert.ReferenceIdeal.main_arg12)) (m ((c.tc : Thread Cert.KernelIdeal.nD Cert.KernelIdeal.τ).loc Cert.KernelIdeal.main_arg13)) (m' ((c.tc : Thread Cert.ReferenceIdeal.nD Cert.ReferenceIdeal.τ).loc Cert.ReferenceIdeal.main_arg13)) (m ((c.tc : Thread Cert.KernelIdeal.nD Cert.KernelIdeal.τ).loc Cert.KernelIdeal.main_arg14)) (m' ((c.tc : Thread Cert.ReferenceIdeal.nD Cert.ReferenceIdeal.τ).loc Cert.ReferenceIdeal.main_arg14)) (m ((c.tc : Thread Cert.KernelIdeal.nD Cert.KernelIdeal.τ).loc Cert.KernelIdeal.main_arg15)) (m' ((c.tc : Thread Cert.ReferenceIdeal.nD Cert.ReferenceIdeal.τ).loc Cert.ReferenceIdeal.main_arg15)) (m ((c.tc : Thread Cert.KernelIdeal.nD Cert.KernelIdeal.τ).loc Cert.KernelIdeal.main_arg16)) (m' ((c.tc : Thread Cert.ReferenceIdeal.nD Cert.ReferenceIdeal.τ).loc Cert.ReferenceIdeal.main_arg16)) (m ((c.tc : Thread Cert.KernelIdeal.nD Cert.KernelIdeal.τ).loc Cert.KernelIdeal.main_arg17)) (m' ((c.tc : Thread Cert.ReferenceIdeal.nD Cert.ReferenceIdeal.τ).loc Cert.ReferenceIdeal.main_arg17)) (m ((c.tc : Thread Cert.KernelIdeal.nD Cert.KernelIdeal.τ).loc Cert.KernelIdeal.main_arg18)) (m' ((c.tc : Thread Cert.ReferenceIdeal.nD Cert.ReferenceIdeal.τ).loc Cert.ReferenceIdeal.main_arg18)) (m ((c.tc : Thread Cert.KernelIdeal.nD Cert.KernelIdeal.τ).loc Cert.KernelIdeal.main_arg19)) (m' ((c.tc : Thread Cert.ReferenceIdeal.nD Cert.ReferenceIdeal.τ).loc Cert.ReferenceIdeal.main_arg19)) (m ((c.tc : Thread Cert.KernelIdeal.nD Cert.KernelIdeal.τ).loc Cert.KernelIdeal.main_arg20)) (m' ((c.tc : Thread Cert.ReferenceIdeal.nD Cert.ReferenceIdeal.τ).loc Cert.ReferenceIdeal.main_arg20)) (m ((c.tc : Thread Cert.KernelIdeal.nD Cert.KernelIdeal.τ).loc Cert.KernelIdeal.main_arg21)) (m' ((c.tc : Thread Cert.ReferenceIdeal.nD Cert.ReferenceIdeal.τ).loc Cert.ReferenceIdeal.main_arg21)) (m ((c.tc : Thread Cert.KernelIdeal.nD Cert.KernelIdeal.τ).loc Cert.KernelIdeal.main_arg22)) (m' ((c.tc : Thread Cert.ReferenceIdeal.nD Cert.ReferenceIdeal.τ).loc Cert.ReferenceIdeal.main_arg22)) (m ((c.tc : Thread Cert.KernelIdeal.nD Cert.KernelIdeal.τ).loc Cert.KernelIdeal.main_arg23)) (m' ((c.tc : Thread Cert.ReferenceIdeal.nD Cert.ReferenceIdeal.τ).loc Cert.ReferenceIdeal.main_arg23)) (m ((c.tc : Thread Cert.KernelIdeal.nD Cert.KernelIdeal.τ).loc Cert.KernelIdeal.main_arg24)) (m' ((c.tc : Thread Cert.ReferenceIdeal.nD Cert.ReferenceIdeal.τ).loc Cert.ReferenceIdeal.main_arg24)) (m ((c.tc : Thread Cert.KernelIdeal.nD Cert.KernelIdeal.τ).loc Cert.KernelIdeal.main_arg25)) (m' ((c.tc : Thread Cert.ReferenceIdeal.nD Cert.ReferenceIdeal.τ).loc Cert.ReferenceIdeal.main_arg25)) (m ((c.tc : Thread Cert.KernelIdeal.nD Cert.KernelIdeal.τ).loc Cert.KernelIdeal.main_arg26)) (m' ((c.tc : Thread Cert.ReferenceIdeal.nD Cert.ReferenceIdeal.τ).loc Cert.ReferenceIdeal.main_arg26)) (m ((c.tc : Thread Cert.KernelIdeal.nD Cert.KernelIdeal.τ).loc Cert.KernelIdeal.main_arg27)) (m' ((c.tc : Thread Cert.ReferenceIdeal.nD Cert.ReferenceIdeal.τ).loc Cert.ReferenceIdeal.main_arg27)) (m ((c.tc : Thread Cert.KernelIdeal.nD Cert.KernelIdeal.τ).loc Cert.KernelIdeal.main_arg28)) (m' ((c.tc : Thread Cert.ReferenceIdeal.nD Cert.ReferenceIdeal.τ).loc Cert.ReferenceIdeal.main_arg28)) h0 h1 h2 h3 h4 h5 h6 h7 h8 h9 h10 h11 h12 h13 h14 h15 h16 h17 h18 h19 h20 h21 h22 h23 h24 h25 h26 h27 h28

end Cert.Proof

end
-- ==== Proof.lean ====
/- The proof of `Cert.Claim` (proofs.«178696_j1468878815658_2_alg».proof.Defs) — frame_Kernel ∧ frame_KernelIdeal ∧ frame_ReferenceIdeal ∧
   preserves_Kernel_KernelIdeal ∧ algebraic_KernelIdeal_ReferenceIdeal —: hand-written, untrusted.

   THE ARGUMENT. The program is a two-layer message-passing network with an edge predictor: seven row-tiled kernel
   regions (node and edge encoders, two message layers, two node updates, the predictor) between host stretches that
   slice the weights, gather rows along the edge list and sum messages per target node. Every region maps a ROW of its
   row-tiled operands (and whole weight matrices) to a row of its output; nothing couples two rows (Proof/Spec.lean).

   The frames (Proof/K/Frames.lean at the bit patterns, Proof/KI/Frames.lean at the extended reals; one text, generic in
   the float instance). Every row-tiled window's last block overhangs its array: its fetch leaves the staging buffer's
   tail at words nothing names, and what a body computes from such a block is not a function fixed before the run (a lane
   sum over the block is known only as some function of the whole block). So @main is run on each core as ONE account from
   launch to return (Chain.lean) whose thread state between two items is "every buffer at SOME contents satisfying a
   predicate"; each region is entered by its step at the level of weakest preconditions (Reg<K>.lean) with proof data
   chosen at the contents found there and the output's contents left unnamed (Obl<K>.lean); the pipelines' ghost state
   the regions need is funded at launch in a second copy of the rounds algebra (Top.lean). The predicate carried for the
   frames is "the arguments are as launched" (Args.lean): no host operation writes one and a region changes only its
   output array.

   The value at the extended reals (Proof/KI/Value.lean): the same account with every window named (Named<K>.lean: on the
   rows inside the array a stored row depends on the same input rows only, Cut<K>.lean from Val<K>.lean) and the predicate
   "each live intermediate array EQUALS the reference's value of the same stage" (Inv.lean), carried one stage further
   by each host stretch and region (Bridge<K>.lean): a region's final array is, row by row, the row specification of its
   operands' rows (Fin<K>.lean), the reference's stage is the same specification in its own spelling (Ref/Row<K>.lean over
   the generated stage values), and the two spellings agree (Spec.lean: the layer norm's `a * rsqrt v` against
   `a / sqrt v` for v ≥ eps > 0; a joined row against stacked weights as a sum split at the joints; the sigmoid). The
   gathers and scatter-adds are the same host functions on both sides applied to equal operands. No finiteness of the
   inputs is used.

   The reference's run (Proof/Ref/RunRead.lean): its operation list cut into stretches, each read against the generated
   stage values, so that the result is stated as the last stage value of the launch arguments. -/
import proofs.«178696_j1468878815658_2_alg».proof.Defs
import proofs.«178696_j1468878815658_2_alg».proof.Proof.Gen.Kernel
import proofs.«178696_j1468878815658_2_alg».proof.Proof.Gen.Kernel.Skeleton
import proofs.«178696_j1468878815658_2_alg».proof.Proof.Gen.Kernel.Launch
import proofs.«178696_j1468878815658_2_alg».proof.Proof.Gen.Kernel.Regions
import proofs.«178696_j1468878815658_2_alg».proof.Proof.Gen.Kernel.Points
import proofs.«178696_j1468878815658_2_alg».proof.Proof.Gen.KernelIdeal
import proofs.«178696_j1468878815658_2_alg».proof.Proof.Gen.KernelIdeal.Skeleton
import proofs.«178696_j1468878815658_2_alg».proof.Proof.Gen.KernelIdeal.Launch
import proofs.«178696_j1468878815658_2_alg».proof.Proof.Gen.KernelIdeal.Regions
import proofs.«178696_j1468878815658_2_alg».proof.Proof.Gen.KernelIdeal.Points
import proofs.«178696_j1468878815658_2_alg».proof.Proof.Gen.ReferenceIdeal
import proofs.«178696_j1468878815658_2_alg».proof.Proof.Gen.Pre_finite_inputs
import proofs.«178696_j1468878815658_2_alg».proof.Proof.K.Frames
import proofs.«178696_j1468878815658_2_alg».proof.Proof.KI.Frames
import proofs.«178696_j1468878815658_2_alg».proof.Proof.KI.Value
import proofs.«178696_j1468878815658_2_alg».proof.Proof.Ref.RunRead
import proofs.«178696_j1468878815658_2_alg».proof.Proof.Agree
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  -- the word-level program runs and leaves its arguments unchanged
  fun m g _ => Cert.Kernel.Gen.frame (F := Bits) m g,
  -- so does its reading at the extended reals
  fun m g _ => Cert.KernelIdeal.Gen.frame (F := Ideal) m g,
  -- and the reference
  fun m g _ => (θ_run _ _ _).mono (fun _ h c => (h c).2) (Cert.ReferenceIdeal.RefRun.run (F := Ideal) m g),
  -- the ideal pass rewrote nothing
  trivial,
  -- both end with the reference's last stage value of the (agreeing) launch arguments
  fun m g m' g' _ hagree => ⟨fun c => Cert.KernelIdeal.Gen.resultOf m c, Cert.KernelIdeal.Gen.value_run m g,
    (θ_run _ _ _).mono (fun _ h c => ⟨(h c).1.trans (result_agree m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2.1 (hagree c).2.2.2.2.2.2.2.2.2.2.2.2.2.2.1 (hagree c).2.2.2.2.2.2.2.2.2.2.2.2.2.2.2.1 (hagree c).2.2.2.2.2.2.2.2.2.2.2.2.2.2.2.2.1 (hagree c).2.2.2.2.2.2.2.2.2.2.2.2.2.2.2.2.2.1 (hagree c).2.2.2.2.2.2.2.2.2.2.2.2.2.2.2.2.2.2.1 (hagree c).2.2.2.2.2.2.2.2.2.2.2.2.2.2.2.2.2.2.2.1 (hagree c).2.2.2.2.2.2.2.2.2.2.2.2.2.2.2.2.2.2.2.2.1 (hagree c).2.2.2.2.2.2.2.2.2.2.2.2.2.2.2.2.2.2.2.2.2.1 (hagree c).2.2.2.2.2.2.2.2.2.2.2.2.2.2.2.2.2.2.2.2.2.2.1 (hagree c).2.2.2.2.2.2.2.2.2.2.2.2.2.2.2.2.2.2.2.2.2.2.2.1 (hagree c).2.2.2.2.2.2.2.2.2.2.2.2.2.2.2.2.2.2.2.2.2.2.2.2.1 (hagree c).2.2.2.2.2.2.2.2.2.2.2.2.2.2.2.2.2.2.2.2.2.2.2.2.2.1 (hagree c).2.2.2.2.2.2.2.2.2.2.2.2.2.2.2.2.2.2.2.2.2.2.2.2.2.2.1 (hagree c).2.2.2.2.2.2.2.2.2.2.2.2.2.2.2.2.2.2.2.2.2.2.2.2.2.2.2.1 (hagree c).2.2.2.2.2.2.2.2.2.2.2.2.2.2.2.2.2.2.2.2.2.2.2.2.2.2.2.2), (h c).2⟩)
      (Cert.ReferenceIdeal.RefRun.run (F := Ideal) m' g')⟩⟩

end Cert.Proof

end
